-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)) →
    ∃ (v0 : (c : Dev Cert.KernelIdeal.nD) → Buf (Elt Ideal) ((c.tc : Thread Cert.KernelIdeal.nD Cert.KernelIdeal.τ).loc Cert.KernelIdeal.main_v140)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v140) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v264) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x4 : Shape := ⟨2, ![50000, 4]⟩
abbrev S400000x3 : Shape := ⟨2, ![400000, 3]⟩
abbrev S2x400000 : Shape := ⟨2, ![2, 400000]⟩
abbrev S4x128 : Shape := ⟨2, ![4, 128]⟩
abbrev S128 : Shape := ⟨1, ![128]⟩
abbrev S128x128 : Shape := ⟨2, ![128, 128]⟩
abbrev S3x128 : Shape := ⟨2, ![3, 128]⟩
abbrev S3x384x128 : Shape := ⟨3, ![3, 384, 128]⟩
abbrev S3x128x128 : Shape := ⟨3, ![3, 128, 128]⟩
abbrev S3x256x128 : Shape := ⟨3, ![3, 256, 128]⟩
abbrev S128x2 : Shape := ⟨2, ![128, 2]⟩
abbrev S2 : Shape := ⟨1, ![2]⟩
abbrev S_ : Shape := ⟨0, ![]⟩

class Facts : Prop where
  bcast_S_S50000x4 : S_.BroadcastsInDim S50000x4 (![] : Fin 0 → Fin S50000x4.rank)
  reducesTo_S50000x4_S_d0_1 : S50000x4.ReducesTo [0, 1] S_
  h_S_ : 0 < S_.numel
  bcast_S_S400000x3 : S_.BroadcastsInDim S400000x3 (![] : Fin 0 → Fin S400000x3.rank)
  reducesTo_S400000x3_S_d0_1 : S400000x3.ReducesTo [0, 1] S_
  bcast_S_S4x128 : S_.BroadcastsInDim S4x128 (![] : Fin 0 → Fin S4x128.rank)
  reducesTo_S4x128_S_d0_1 : S4x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S3x128 : S_.BroadcastsInDim S3x128 (![] : Fin 0 → Fin S3x128.rank)
  reducesTo_S3x128_S_d0_1 : S3x128.ReducesTo [0, 1] S_
  bcast_S_S3x384x128 : S_.BroadcastsInDim S3x384x128 (![] : Fin 0 → Fin S3x384x128.rank)
  reducesTo_S3x384x128_S_d0_1_2 : S3x384x128.ReducesTo [0, 1, 2] S_
  bcast_S_S3x128x128 : S_.BroadcastsInDim S3x128x128 (![] : Fin 0 → Fin S3x128x128.rank)
  reducesTo_S3x128x128_S_d0_1_2 : S3x128x128.ReducesTo [0, 1, 2] S_
  bcast_S_S3x256x128 : S_.BroadcastsInDim S3x256x128 (![] : Fin 0 → Fin S3x256x128.rank)
  reducesTo_S3x256x128_S_d0_1_2 : S3x256x128.ReducesTo [0, 1, 2] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_
  bcast_S_S2x400000 : S_.BroadcastsInDim S2x400000 (![] : Fin 0 → Fin S2x400000.rank)
  reducesTo_S2x400000_S_d0_1 : S2x400000.ReducesTo [0, 1] S_

variable [Facts]

def fn_part9 {F : FTy → Type} [FloatOps F] (main_arg2 : IVec S2x400000 32) (main_arg32 : FVec F S2 .f32) (main_v153 : IVec S_ 1) : IVec S_ 1 :=
  let main_v154 : FVec F S2 .f32 := Host.absf main_arg32
  let main_cst_60 : FVec F S_ .f32 := constant S_ .f32 0x7F800000#32
  let main_v155 : FVec F S2 .f32 := broadcastInDim S2 ![] bcast_S_S2 main_cst_60
  let main_v156 : IVec S2 1 := cmpf .olt main_v154 main_v155
  let main_c_61 : IVec S_ 1 := constantI S_ 1 1#1
  let main_v157 : IVec S_ 1 := (fun x v => Host.reduce IntOp.andi x v reducesTo_S2_S_d0 h_S_) main_v156 main_c_61
  let main_v158 : IVec S_ 1 := andi main_v153 main_v157
  let main_c_62 : IVec S_ 32 := constantI S_ 32 0#32
  let main_v159 : IVec S2x400000 32 := broadcastInDim S2x400000 ![] bcast_S_S2x400000 main_c_62
  let main_v160 : IVec S2x400000 1 := cmpi .sge main_arg2 main_v159
  let main_c_63 : IVec S_ 1 := constantI S_ 1 1#1
  let main_v161 : IVec S_ 1 := (fun x v => Host.reduce IntOp.andi x v reducesTo_S2x400000_S_d0_1 h_S_) main_v160 main_c_63
  let main_v162 : IVec S_ 1 := andi main_v158 main_v161
  let main_c_64 : IVec S_ 32 := constantI S_ 32 50000#32
  let main_v163 : IVec S2x400000 32 := broadcastInDim S2x400000 ![] bcast_S_S2x400000 main_c_64
  let main_v164 : IVec S2x400000 1 := cmpi .slt main_arg2 main_v163
  let main_c_65 : IVec S_ 1 := constantI S_ 1 1#1
  let main_v165 : IVec S_ 1 := (fun x v => Host.reduce IntOp.andi x v reducesTo_S2x400000_S_d0_1 h_S_) main_v164 main_c_65
  let main_v166 : IVec S_ 1 := andi main_v162 main_v165
  main_v166

def fn_part8 {F : FTy → Type} [FloatOps F] (main_arg2 : IVec S2x400000 32) (main_arg29 : FVec F S128x128 .f32) (main_arg30 : FVec F S128 .f32) (main_arg31 : FVec F S128x2 .f32) (main_arg32 : FVec F S2 .f32) (main_v133 : IVec S_ 1) (main_v136 : IVec S128 1) : IVec S_ 1 :=
  let main_c_53 : IVec S_ 1 := constantI S_ 1 1#1
  let main_v137 : IVec S_ 1 := (fun x v => Host.reduce IntOp.andi x v reducesTo_S128_S_d0 h_S_) main_v136 main_c_53
  let main_v138 : IVec S_ 1 := andi main_v133 main_v137
  let main_v139 : FVec F S128x128 .f32 := Host.absf main_arg29
  let main_cst_54 : FVec F S_ .f32 := constant S_ .f32 0x7F800000#32
  let main_v140 : FVec F S128x128 .f32 := broadcastInDim S128x128 ![] bcast_S_S128x128 main_cst_54
  let main_v141 : IVec S128x128 1 := cmpf .olt main_v139 main_v140
  let main_c_55 : IVec S_ 1 := constantI S_ 1 1#1
  let main_v142 : IVec S_ 1 := (fun x v => Host.reduce IntOp.andi x v reducesTo_S128x128_S_d0_1 h_S_) main_v141 main_c_55
  let main_v143 : IVec S_ 1 := andi main_v138 main_v142
  let main_v144 : FVec F S128 .f32 := Host.absf main_arg30
  let main_cst_56 : FVec F S_ .f32 := constant S_ .f32 0x7F800000#32
  let main_v145 : FVec F S128 .f32 := broadcastInDim S128 ![] bcast_S_S128 main_cst_56
  let main_v146 : IVec S128 1 := cmpf .olt main_v144 main_v145
  let main_c_57 : IVec S_ 1 := constantI S_ 1 1#1
  let main_v147 : IVec S_ 1 := (fun x v => Host.reduce IntOp.andi x v reducesTo_S128_S_d0 h_S_) main_v146 main_c_57
  let main_v148 : IVec S_ 1 := andi main_v143 main_v147
  let main_v149 : FVec F S128x2 .f32 := Host.absf main_arg31
  let main_cst_58 : FVec F S_ .f32 := constant S_ .f32 0x7F800000#32
  let main_v150 : FVec F S128x2 .f32 := broadcastInDim S128x2 ![] bcast_S_S128x2 main_cst_58
  let main_v151 : IVec S128x2 1 := cmpf .olt main_v149 main_v150
  let main_c_59 : IVec S_ 1 := constantI S_ 1 1#1
  let main_v152 : IVec S_ 1 := (fun x v => Host.reduce IntOp.andi x v reducesTo_S128x2_S_d0_1 h_S_) main_v151 main_c_59
  let main_v153 : IVec S_ 1 := andi main_v148 main_v152
  fn_part9 (F := F) main_arg2 main_arg32 main_v153

def fn_part7 {F : FTy → Type} [FloatOps F] (main_arg2 : IVec S2x400000 32) (main_arg26 : FVec F S3x128 .f32) (main_arg27 : FVec F S128x128 .f32) (main_arg28 : FVec F S128 .f32) (main_arg29 : FVec F S128x128 .f32) (main_arg30 : FVec F S128 .f32) (main_arg31 : FVec F S128x2 .f32) (main_arg32 : FVec F S2 .f32) (main_v118 : IVec S_ 1) (main_v119 : FVec F S3x128x128 .f32) : IVec S_ 1 :=
  let main_cst_46 : FVec F S_ .f32 := constant S_ .f32 0x7F800000#32
  let main_v120 : FVec F S3x128x128 .f32 := broadcastInDim S3x128x128 ![] bcast_S_S3x128x128 main_cst_46
  let main_v121 : IVec S3x128x128 1 := cmpf .olt main_v119 main_v120
  let main_c_47 : IVec S_ 1 := constantI S_ 1 1#1
  let main_v122 : IVec S_ 1 := (fun x v => Host.reduce IntOp.andi x v reducesTo_S3x128x128_S_d0_1_2 h_S_) main_v121 main_c_47
  let main_v123 : IVec S_ 1 := andi main_v118 main_v122
  let main_v124 : FVec F S3x128 .f32 := Host.absf main_arg26
  let main_cst_48 : FVec F S_ .f32 := constant S_ .f32 0x7F800000#32
  let main_v125 : FVec F S3x128 .f32 := broadcastInDim S3x128 ![] bcast_S_S3x128 main_cst_48
  let main_v126 : IVec S3x128 1 := cmpf .olt main_v124 main_v125
  let main_c_49 : IVec S_ 1 := constantI S_ 1 1#1
  let main_v127 : IVec S_ 1 := (fun x v => Host.reduce IntOp.andi x v reducesTo_S3x128_S_d0_1 h_S_) main_v126 main_c_49
  let main_v128 : IVec S_ 1 := andi main_v123 main_v127
  let main_v129 : FVec F S128x128 .f32 := Host.absf main_arg27
  let main_cst_50 : FVec F S_ .f32 := constant S_ .f32 0x7F800000#32
  let main_v130 : FVec F S128x128 .f32 := broadcastInDim S128x128 ![] bcast_S_S128x128 main_cst_50
  let main_v131 : IVec S128x128 1 := cmpf .olt main_v129 main_v130
  let main_c_51 : IVec S_ 1 := constantI S_ 1 1#1
  let main_v132 : IVec S_ 1 := (fun x v => Host.reduce IntOp.andi x v reducesTo_S128x128_S_d0_1 h_S_) main_v131 main_c_51
  let main_v133 : IVec S_ 1 := andi main_v128 main_v132
  let main_v134 : FVec F S128 .f32 := Host.absf main_arg28
  let main_cst_52 : FVec F S_ .f32 := constant S_ .f32 0x7F800000#32
  let main_v135 : FVec F S128 .f32 := broadcastInDim S128 ![] bcast_S_S128 main_cst_52
  let main_v136 : IVec S128 1 := cmpf .olt main_v134 main_v135
  fn_part8 (F := F) main_arg2 main_arg29 main_arg30 main_arg31 main_arg32 main_v133 main_v136

def fn_part6 {F : FTy → Type} [FloatOps F] (main_arg2 : IVec S2x400000 32) (main_arg22 : FVec F S3x128 .f32) (main_arg23 : FVec F S3x128x128 .f32) (main_arg24 : FVec F S3x128 .f32) (main_arg25 : FVec F S3x128x128 .f32) (main_arg26 : FVec F S3x128 .f32) (main_arg27 : FVec F S128x128 .f32) (main_arg28 : FVec F S128 .f32) (main_arg29 : FVec F S128x128 .f32) (main_arg30 : FVec F S128 .f32) (main_arg31 : FVec F S128x2 .f32) (main_arg32 : FVec F S2 .f32) (main_v98 : IVec S_ 1) (main_v101 : IVec S3x256x128 1) (main_c_39 : IVec S_ 1) : IVec S_ 1 :=
  let main_v102 : IVec S_ 1 := (fun x v => Host.reduce IntOp.andi x v reducesTo_S3x256x128_S_d0_1_2 h_S_) main_v101 main_c_39
  let main_v103 : IVec S_ 1 := andi main_v98 main_v102
  let main_v104 : FVec F S3x128 .f32 := Host.absf main_arg22
  let main_cst_40 : FVec F S_ .f32 := constant S_ .f32 0x7F800000#32
  let main_v105 : FVec F S3x128 .f32 := broadcastInDim S3x128 ![] bcast_S_S3x128 main_cst_40
  let main_v106 : IVec S3x128 1 := cmpf .olt main_v104 main_v105
  let main_c_41 : IVec S_ 1 := constantI S_ 1 1#1
  let main_v107 : IVec S_ 1 := (fun x v => Host.reduce IntOp.andi x v reducesTo_S3x128_S_d0_1 h_S_) main_v106 main_c_41
  let main_v108 : IVec S_ 1 := andi main_v103 main_v107
  let main_v109 : FVec F S3x128x128 .f32 := Host.absf main_arg23
  let main_cst_42 : FVec F S_ .f32 := constant S_ .f32 0x7F800000#32
  let main_v110 : FVec F S3x128x128 .f32 := broadcastInDim S3x128x128 ![] bcast_S_S3x128x128 main_cst_42
  let main_v111 : IVec S3x128x128 1 := cmpf .olt main_v109 main_v110
  let main_c_43 : IVec S_ 1 := constantI S_ 1 1#1
  let main_v112 : IVec S_ 1 := (fun x v => Host.reduce IntOp.andi x v reducesTo_S3x128x128_S_d0_1_2 h_S_) main_v111 main_c_43
  let main_v113 : IVec S_ 1 := andi main_v108 main_v112
  let main_v114 : FVec F S3x128 .f32 := Host.absf main_arg24
  let main_cst_44 : FVec F S_ .f32 := constant S_ .f32 0x7F800000#32
  let main_v115 : FVec F S3x128 .f32 := broadcastInDim S3x128 ![] bcast_S_S3x128 main_cst_44
  let main_v116 : IVec S3x128 1 := cmpf .olt main_v114 main_v115
  let main_c_45 : IVec S_ 1 := constantI S_ 1 1#1
  let main_v117 : IVec S_ 1 := (fun x v => Host.reduce IntOp.andi x v reducesTo_S3x128_S_d0_1 h_S_) main_v116 main_c_45
  let main_v118 : IVec S_ 1 := andi main_v113 main_v117
  let main_v119 : FVec F S3x128x128 .f32 := Host.absf main_arg25
  fn_part7 (F := F) main_arg2 main_arg26 main_arg27 main_arg28 main_arg29 main_arg30 main_arg31 main_arg32 main_v118 main_v119

def fn_part5 {F : FTy → Type} [FloatOps F] (main_arg2 : IVec S2x400000 32) (main_arg19 : FVec F S3x128x128 .f32) (main_arg20 : FVec F S3x128 .f32) (main_arg21 : FVec F S3x256x128 .f32) (main_arg22 : FVec F S3x128 .f32) (main_arg23 : FVec F S3x128x128 .f32) (main_arg24 : FVec F S3x128 .f32) (main_arg25 : FVec F S3x128x128 .f32) (main_arg26 : FVec F S3x128 .f32) (main_arg27 : FVec F S128x128 .f32) (main_arg28 : FVec F S128 .f32) (main_arg29 : FVec F S128x128 .f32) (main_arg30 : FVec F S128 .f32) (main_arg31 : FVec F S128x2 .f32) (main_arg32 : FVec F S2 .f32) (main_v83 : IVec S_ 1) (main_v84 : FVec F S3x128 .f32) (main_cst_32 : FVec F S_ .f32) : IVec S_ 1 :=
  let main_v85 : FVec F S3x128 .f32 := broadcastInDim S3x128 ![] bcast_S_S3x128 main_cst_32
  let main_v86 : IVec S3x128 1 := cmpf .olt main_v84 main_v85
  let main_c_33 : IVec S_ 1 := constantI S_ 1 1#1
  let main_v87 : IVec S_ 1 := (fun x v => Host.reduce IntOp.andi x v reducesTo_S3x128_S_d0_1 h_S_) main_v86 main_c_33
  let main_v88 : IVec S_ 1 := andi main_v83 main_v87
  let main_v89 : FVec F S3x128x128 .f32 := Host.absf main_arg19
  let main_cst_34 : FVec F S_ .f32 := constant S_ .f32 0x7F800000#32
  let main_v90 : FVec F S3x128x128 .f32 := broadcastInDim S3x128x128 ![] bcast_S_S3x128x128 main_cst_34
  let main_v91 : IVec S3x128x128 1 := cmpf .olt main_v89 main_v90
  let main_c_35 : IVec S_ 1 := constantI S_ 1 1#1
  let main_v92 : IVec S_ 1 := (fun x v => Host.reduce IntOp.andi x v reducesTo_S3x128x128_S_d0_1_2 h_S_) main_v91 main_c_35
  let main_v93 : IVec S_ 1 := andi main_v88 main_v92
  let main_v94 : FVec F S3x128 .f32 := Host.absf main_arg20
  let main_cst_36 : FVec F S_ .f32 := constant S_ .f32 0x7F800000#32
  let main_v95 : FVec F S3x128 .f32 := broadcastInDim S3x128 ![] bcast_S_S3x128 main_cst_36
  let main_v96 : IVec S3x128 1 := cmpf .olt main_v94 main_v95
  let main_c_37 : IVec S_ 1 := constantI S_ 1 1#1
  let main_v97 : IVec S_ 1 := (fun x v => Host.reduce IntOp.andi x v reducesTo_S3x128_S_d0_1 h_S_) main_v96 main_c_37
  let main_v98 : IVec S_ 1 := andi main_v93 main_v97
  let main_v99 : FVec F S3x256x128 .f32 := Host.absf main_arg21
  let main_cst_38 : FVec F S_ .f32 := constant S_ .f32 0x7F800000#32
  let main_v100 : FVec F S3x256x128 .f32 := broadcastInDim S3x256x128 ![] bcast_S_S3x256x128 main_cst_38
  let main_v101 : IVec S3x256x128 1 := cmpf .olt main_v99 main_v100
  let main_c_39 : IVec S_ 1 := constantI S_ 1 1#1
  fn_part6 (F := F) main_arg2 main_arg22 main_arg23 main_arg24 main_arg25 main_arg26 main_arg27 main_arg28 main_arg29 main_arg30 main_arg31 main_arg32 main_v98 main_v101 main_c_39

def fn_part4 {F : FTy → Type} [FloatOps F] (main_arg2 : IVec S2x400000 32) (main_arg15 : FVec F S3x384x128 .f32) (main_arg16 : FVec F S3x128 .f32) (main_arg17 : FVec F S3x128x128 .f32) (main_arg18 : FVec F S3x128 .f32) (main_arg19 : FVec F S3x128x128 .f32) (main_arg20 : FVec F S3x128 .f32) (main_arg21 : FVec F S3x256x128 .f32) (main_arg22 : FVec F S3x128 .f32) (main_arg23 : FVec F S3x128x128 .f32) (main_arg24 : FVec F S3x128 .f32) (main_arg25 : FVec F S3x128x128 .f32) (main_arg26 : FVec F S3x128 .f32) (main_arg27 : FVec F S128x128 .f32) (main_arg28 : FVec F S128 .f32) (main_arg29 : FVec F S128x128 .f32) (main_arg30 : FVec F S128 .f32) (main_arg31 : FVec F S128x2 .f32) (main_arg32 : FVec F S2 .f32) (main_v63 : IVec S_ 1) (main_v67 : IVec S_ 1) : IVec S_ 1 :=
  let main_v68 : IVec S_ 1 := andi main_v63 main_v67
  let main_v69 : FVec F S3x384x128 .f32 := Host.absf main_arg15
  let main_cst_26 : FVec F S_ .f32 := constant S_ .f32 0x7F800000#32
  let main_v70 : FVec F S3x384x128 .f32 := broadcastInDim S3x384x128 ![] bcast_S_S3x384x128 main_cst_26
  let main_v71 : IVec S3x384x128 1 := cmpf .olt main_v69 main_v70
  let main_c_27 : IVec S_ 1 := constantI S_ 1 1#1
  let main_v72 : IVec S_ 1 := (fun x v => Host.reduce IntOp.andi x v reducesTo_S3x384x128_S_d0_1_2 h_S_) main_v71 main_c_27
  let main_v73 : IVec S_ 1 := andi main_v68 main_v72
  let main_v74 : FVec F S3x128 .f32 := Host.absf main_arg16
  let main_cst_28 : FVec F S_ .f32 := constant S_ .f32 0x7F800000#32
  let main_v75 : FVec F S3x128 .f32 := broadcastInDim S3x128 ![] bcast_S_S3x128 main_cst_28
  let main_v76 : IVec S3x128 1 := cmpf .olt main_v74 main_v75
  let main_c_29 : IVec S_ 1 := constantI S_ 1 1#1
  let main_v77 : IVec S_ 1 := (fun x v => Host.reduce IntOp.andi x v reducesTo_S3x128_S_d0_1 h_S_) main_v76 main_c_29
  let main_v78 : IVec S_ 1 := andi main_v73 main_v77
  let main_v79 : FVec F S3x128x128 .f32 := Host.absf main_arg17
  let main_cst_30 : FVec F S_ .f32 := constant S_ .f32 0x7F800000#32
  let main_v80 : FVec F S3x128x128 .f32 := broadcastInDim S3x128x128 ![] bcast_S_S3x128x128 main_cst_30
  let main_v81 : IVec S3x128x128 1 := cmpf .olt main_v79 main_v80
  let main_c_31 : IVec S_ 1 := constantI S_ 1 1#1
  let main_v82 : IVec S_ 1 := (fun x v => Host.reduce IntOp.andi x v reducesTo_S3x128x128_S_d0_1_2 h_S_) main_v81 main_c_31
  let main_v83 : IVec S_ 1 := andi main_v78 main_v82
  let main_v84 : FVec F S3x128 .f32 := Host.absf main_arg18
  let main_cst_32 : FVec F S_ .f32 := constant S_ .f32 0x7F800000#32
  fn_part5 (F := F) main_arg2 main_arg19 main_arg20 main_arg21 main_arg22 main_arg23 main_arg24 main_arg25 main_arg26 main_arg27 main_arg28 main_arg29 main_arg30 main_arg31 main_arg32 main_v83 main_v84 main_cst_32

def fn_part3 {F : FTy → Type} [FloatOps F] (main_arg2 : IVec S2x400000 32) (main_arg12 : FVec F S128 .f32) (main_arg13 : FVec F S128x128 .f32) (main_arg14 : FVec F S128 .f32) (main_arg15 : FVec F S3x384x128 .f32) (main_arg16 : FVec F S3x128 .f32) (main_arg17 : FVec F S3x128x128 .f32) (main_arg18 : FVec F S3x128 .f32) (main_arg19 : FVec F S3x128x128 .f32) (main_arg20 : FVec F S3x128 .f32) (main_arg21 : FVec F S3x256x128 .f32) (main_arg22 : FVec F S3x128 .f32) (main_arg23 : FVec F S3x128x128 .f32) (main_arg24 : FVec F S3x128 .f32) (main_arg25 : FVec F S3x128x128 .f32) (main_arg26 : FVec F S3x128 .f32) (main_arg27 : FVec F S128x128 .f32) (main_arg28 : FVec F S128 .f32) (main_arg29 : FVec F S128x128 .f32) (main_arg30 : FVec F S128 .f32) (main_arg31 : FVec F S128x2 .f32) (main_arg32 : FVec F S2 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg2 main_arg15 main_arg16 main_arg17 main_arg18 main_arg19 main_arg20 main_arg21 main_arg22 main_arg23 main_arg24 main_arg25 main_arg26 main_arg27 main_arg28 main_arg29 main_arg30 main_arg31 main_arg32 main_v63 main_v67

def fn_part2 {F : FTy → Type} [FloatOps F] (main_arg2 : IVec S2x400000 32) (main_arg8 : FVec F S128 .f32) (main_arg9 : FVec F S3x128 .f32) (main_arg10 : FVec F S128 .f32) (main_arg11 : FVec F S128x128 .f32) (main_arg12 : FVec F S128 .f32) (main_arg13 : FVec F S128x128 .f32) (main_arg14 : FVec F S128 .f32) (main_arg15 : FVec F S3x384x128 .f32) (main_arg16 : FVec F S3x128 .f32) (main_arg17 : FVec F S3x128x128 .f32) (main_arg18 : FVec F S3x128 .f32) (main_arg19 : FVec F S3x128x128 .f32) (main_arg20 : FVec F S3x128 .f32) (main_arg21 : FVec F S3x256x128 .f32) (main_arg22 : FVec F S3x128 .f32) (main_arg23 : FVec F S3x128x128 .f32) (main_arg24 : FVec F S3x128 .f32) (main_arg25 : FVec F S3x128x128 .f32) (main_arg26 : FVec F S3x128 .f32) (main_arg27 : FVec F S128x128 .f32) (main_arg28 : FVec F S128 .f32) (main_arg29 : FVec F S128x128 .f32) (main_arg30 : FVec F S128 .f32) (main_arg31 : FVec F S128x2 .f32) (main_arg32 : FVec F S2 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S3x128 .f32 := Host.absf main_arg9
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg2 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_v48 main_v49 main_v50

def fn_part1 {F : FTy → Type} [FloatOps F] (main_arg2 : IVec S2x400000 32) (main_arg5 : FVec F S128x128 .f32) (main_arg6 : FVec F S128 .f32) (main_arg7 : FVec F S128x128 .f32) (main_arg8 : FVec F S128 .f32) (main_arg9 : FVec F S3x128 .f32) (main_arg10 : FVec F S128 .f32) (main_arg11 : FVec F S128x128 .f32) (main_arg12 : FVec F S128 .f32) (main_arg13 : FVec F S128x128 .f32) (main_arg14 : FVec F S128 .f32) (main_arg15 : FVec F S3x384x128 .f32) (main_arg16 : FVec F S3x128 .f32) (main_arg17 : FVec F S3x128x128 .f32) (main_arg18 : FVec F S3x128 .f32) (main_arg19 : FVec F S3x128x128 .f32) (main_arg20 : FVec F S3x128 .f32) (main_arg21 : FVec F S3x256x128 .f32) (main_arg22 : FVec F S3x128 .f32) (main_arg23 : FVec F S3x128x128 .f32) (main_arg24 : FVec F S3x128 .f32) (main_arg25 : FVec F S3x128x128 .f32) (main_arg26 : FVec F S3x128 .f32) (main_arg27 : FVec F S128x128 .f32) (main_arg28 : FVec F S128 .f32) (main_arg29 : FVec F S128x128 .f32) (main_arg30 : FVec F S128 .f32) (main_arg31 : FVec F S128x2 .f32) (main_arg32 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg2 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_v33

def fn {F : FTy → Type} [FloatOps F] (main_arg0 : FVec F S50000x4 .f32) (main_arg1 : FVec F S400000x3 .f32) (main_arg2 : IVec S2x400000 32) (main_arg3 : FVec F S4x128 .f32) (main_arg4 : FVec F S128 .f32) (main_arg5 : FVec F S128x128 .f32) (main_arg6 : FVec F S128 .f32) (main_arg7 : FVec F S128x128 .f32) (main_arg8 : FVec F S128 .f32) (main_arg9 : FVec F S3x128 .f32) (main_arg10 : FVec F S128 .f32) (main_arg11 : FVec F S128x128 .f32) (main_arg12 : FVec F S128 .f32) (main_arg13 : FVec F S128x128 .f32) (main_arg14 : FVec F S128 .f32) (main_arg15 : FVec F S3x384x128 .f32) (main_arg16 : FVec F S3x128 .f32) (main_arg17 : FVec F S3x128x128 .f32) (main_arg18 : FVec F S3x128 .f32) (main_arg19 : FVec F S3x128x128 .f32) (main_arg20 : FVec F S3x128 .f32) (main_arg21 : FVec F S3x256x128 .f32) (main_arg22 : FVec F S3x128 .f32) (main_arg23 : FVec F S3x128x128 .f32) (main_arg24 : FVec F S3x128 .f32) (main_arg25 : FVec F S3x128x128 .f32) (main_arg26 : FVec F S3x128 .f32) (main_arg27 : FVec F S128x128 .f32) (main_arg28 : FVec F S128 .f32) (main_arg29 : FVec F S128x128 .f32) (main_arg30 : FVec F S128 .f32) (main_arg31 : FVec F S128x2 .f32) (main_arg32 : FVec F S2 .f32) : IVec S_ 1 :=
  let main_v0 : FVec F S50000x4 .f32 := Host.absf main_arg0
  let main_cst : FVec F S_ .f32 := constant S_ .f32 0x7F800000#32
  let main_v1 : FVec F S50000x4 .f32 := broadcastInDim S50000x4 ![] bcast_S_S50000x4 main_cst
  let main_v2 : IVec S50000x4 1 := cmpf .olt main_v0 main_v1
  let main_c : IVec S_ 1 := constantI S_ 1 1#1
  let main_v3 : IVec S_ 1 := (fun x v => Host.reduce IntOp.andi x v reducesTo_S50000x4_S_d0_1 h_S_) main_v2 main_c
  let main_v4 : FVec F S400000x3 .f32 := Host.absf main_arg1
  let main_cst_0 : FVec F S_ .f32 := constant S_ .f32 0x7F800000#32
  let main_v5 : FVec F S400000x3 .f32 := broadcastInDim S400000x3 ![] bcast_S_S400000x3 main_cst_0
  let main_v6 : IVec S400000x3 1 := cmpf .olt main_v4 main_v5
  let main_c_1 : IVec S_ 1 := constantI S_ 1 1#1
  let main_v7 : IVec S_ 1 := (fun x v => Host.reduce IntOp.andi x v reducesTo_S400000x3_S_d0_1 h_S_) main_v6 main_c_1
  let main_v8 : IVec S_ 1 := andi main_v3 main_v7
  let main_v9 : FVec F S4x128 .f32 := Host.absf main_arg3
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_v13 main_v16
-- ==== Kernel.lean ====
abbrev S50000x4 : Shape := ⟨2, ![50000, 4]⟩
abbrev S400000x3 : Shape := ⟨2, ![400000, 3]⟩
abbrev S2x400000 : Shape := ⟨2, ![2, 400000]⟩
abbrev S4x128 : Shape := ⟨2, ![4, 128]⟩
abbrev S128 : Shape := ⟨1, ![128]⟩
abbrev S128x128 : Shape := ⟨2, ![128, 128]⟩
abbrev S3x128 : Shape := ⟨2, ![3, 128]⟩
abbrev S3x384x128 : Shape := ⟨3, ![3, 384, 128]⟩
abbrev S3x128x128 : Shape := ⟨3, ![3, 128, 128]⟩
abbrev S3x256x128 : Shape := ⟨3, ![3, 256, 128]⟩
abbrev S128x2 : Shape := ⟨2, ![128, 2]⟩
abbrev S2 : Shape := ⟨1, ![2]⟩
abbrev S1x400000 : Shape := ⟨2, ![1, 400000]⟩
abbrev S400000 : Shape := ⟨1, ![400000]⟩
abbrev S1x128 : Shape := ⟨2, ![1, 128]⟩
abbrev S50000x128 : Shape := ⟨2, ![50000, 128]⟩
abbrev S5000x4 : Shape := ⟨2, ![5000, 4]⟩
abbrev S5000x128 : Shape := ⟨2, ![5000, 128]⟩
abbrev S400000x128 : Shape := ⟨2, ![400000, 128]⟩
abbrev S5000x3 : Shape := ⟨2, ![5000, 3]⟩
abbrev S_ : Shape := ⟨0, ![]⟩
abbrev S400000x1 : Shape := ⟨2, ![400000, 1]⟩
abbrev S1 : Shape := ⟨1, ![1]⟩
abbrev S1x1 : Shape := ⟨2, ![1, 1]⟩
abbrev S1x384x128 : Shape := ⟨3, ![1, 384, 128]⟩
abbrev S384x128 : Shape := ⟨2, ![384, 128]⟩
abbrev S1x128x128 : Shape := ⟨3, ![1, 128, 128]⟩
abbrev S1x256x128 : Shape := ⟨3, ![1, 256, 128]⟩
abbrev S256x128 : Shape := ⟨2, ![256, 128]⟩
abbrev S1x2 : Shape := ⟨2, ![1, 2]⟩
abbrev S50000x2 : Shape := ⟨2, ![50000, 2]⟩
abbrev S5000x2 : Shape := ⟨2, ![5000, 2]⟩

abbrev nBuf : Space → Nat
  | .hbm => 309
  | .vmem => 113
  | .smem => 0
  | _ => 0

abbrev hbmTy0_0 (i : Nat) : BufTy := match i % 128 with
  | 0 => ⟨S50000x4, .f32⟩
  | 1 => ⟨S400000x3, .f32⟩
  | 2 => ⟨S2x400000, .i32⟩
  | 3 => ⟨S4x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S3x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S3x384x128, .f32⟩
  | 16 => ⟨S3x128, .f32⟩
  | 17 => ⟨S3x128x128, .f32⟩
  | 18 => ⟨S3x128, .f32⟩
  | 19 => ⟨S3x128x128, .f32⟩
  | 20 => ⟨S3x128, .f32⟩
  | 21 => ⟨S3x256x128, .f32⟩
  | 22 => ⟨S3x128, .f32⟩
  | 23 => ⟨S3x128x128, .f32⟩
  | 24 => ⟨S3x128, .f32⟩
  | 25 => ⟨S3x128x128, .f32⟩
  | 26 => ⟨S3x128, .f32⟩
  | 27 => ⟨S128x128, .f32⟩
  | 28 => ⟨S128, .f32⟩
  | 29 => ⟨S128x128, .f32⟩
  | 30 => ⟨S128, .f32⟩
  | 31 => ⟨S128x2, .f32⟩
  | 32 => ⟨S2, .f32⟩
  | 33 => ⟨S1x400000, .i32⟩
  | 34 => ⟨S400000, .i32⟩
  | 35 => ⟨S1x400000, .i32⟩
  | 36 => ⟨S400000, .i32⟩
  | 37 => ⟨S1x128, .f32⟩
  | 38 => ⟨S1x128, .f32⟩
  | 39 => ⟨S1x128, .f32⟩
  | 40 => ⟨S50000x128, .f32⟩
  | 41 => ⟨S1x128, .f32⟩
  | 42 => ⟨S1x128, .f32⟩
  | 43 => ⟨S1x128, .f32⟩
  | 44 => ⟨S400000x128, .f32⟩
  | 45 => ⟨S_, .i32⟩
  | 46 => ⟨S400000, .i32⟩
  | 47 => ⟨S400000, .i1⟩
  | 48 => ⟨S_, .i32⟩
  | 49 => ⟨S400000, .i32⟩
  | 50 => ⟨S400000, .i32⟩
  | 51 => ⟨S400000, .i32⟩
  | 52 => ⟨S400000x1, .i32⟩
  | 53 => ⟨S1, .i32⟩
  | 54 => ⟨S_, .i32⟩
  | 55 => ⟨S400000x1, .i32⟩
  | 56 => ⟨S400000x1, .i1⟩
  | 57 => ⟨S1x1, .i32⟩
  | 58 => ⟨S400000x1, .i32⟩
  | 59 => ⟨S400000x1, .i1⟩
  | 60 => ⟨S400000x1, .i1⟩
  | 61 => ⟨S_, .i1⟩
  | 62 => ⟨S400000, .i1⟩
  | 63 => ⟨S400000x128, .f32⟩
  | 64 => ⟨S400000x128, .i1⟩
  | 65 => ⟨S_, .f32⟩
  | 66 => ⟨S400000x128, .f32⟩
  | 67 => ⟨S400000x128, .f32⟩
  | 68 => ⟨S_, .i32⟩
  | 69 => ⟨S400000, .i32⟩
  | 70 => ⟨S400000, .i1⟩
  | 71 => ⟨S_, .i32⟩
  | 72 => ⟨S400000, .i32⟩
  | 73 => ⟨S400000, .i32⟩
  | 74 => ⟨S400000, .i32⟩
  | 75 => ⟨S400000x1, .i32⟩
  | 76 => ⟨S1, .i32⟩
  | 77 => ⟨S_, .i32⟩
  | 78 => ⟨S400000x1, .i32⟩
  | 79 => ⟨S400000x1, .i1⟩
  | 80 => ⟨S1x1, .i32⟩
  | 81 => ⟨S400000x1, .i32⟩
  | 82 => ⟨S400000x1, .i1⟩
  | 83 => ⟨S400000x1, .i1⟩
  | 84 => ⟨S_, .i1⟩
  | 85 => ⟨S400000, .i1⟩
  | 86 => ⟨S400000x128, .f32⟩
  | 87 => ⟨S400000x128, .i1⟩
  | 88 => ⟨S_, .f32⟩
  | 89 => ⟨S400000x128, .f32⟩
  | 90 => ⟨S400000x128, .f32⟩
  | 91 => ⟨S1x384x128, .f32⟩
  | 92 => ⟨S384x128, .f32⟩
  | 93 => ⟨S128x128, .f32⟩
  | 94 => ⟨S128x128, .f32⟩
  | 95 => ⟨S128x128, .f32⟩
  | 96 => ⟨S1x128, .f32⟩
  | 97 => ⟨S128, .f32⟩
  | 98 => ⟨S1x128x128, .f32⟩
  | 99 => ⟨S128x128, .f32⟩
  | 100 => ⟨S1x128, .f32⟩
  | 101 => ⟨S128, .f32⟩
  | 102 => ⟨S1x128x128, .f32⟩
  | 103 => ⟨S128x128, .f32⟩
  | 104 => ⟨S1x128, .f32⟩
  | 105 => ⟨S128, .f32⟩
  | 106 => ⟨S1x128, .f32⟩
  | 107 => ⟨S1x128, .f32⟩
  | 108 => ⟨S1x128, .f32⟩
  | 109 => ⟨S400000x128, .f32⟩
  | 110 => ⟨S_, .f32⟩
  | 111 => ⟨S50000x128, .f32⟩
  | 112 => ⟨S400000x1, .i32⟩
  | 113 => ⟨S50000x128, .f32⟩
  | 114 => ⟨S1x256x128, .f32⟩
  | 115 => ⟨S256x128, .f32⟩
  | 116 => ⟨S128x128, .f32⟩
  | 117 => ⟨S128x128, .f32⟩
  | 118 => ⟨S1x128, .f32⟩
  | 119 => ⟨S128, .f32⟩
  | 120 => ⟨S1x128x128, .f32⟩
  | 121 => ⟨S128x128, .f32⟩
  | 122 => ⟨S1x128, .f32⟩
  | 123 => ⟨S128, .f32⟩
  | 124 => ⟨S1x128x128, .f32⟩
  | 125 => ⟨S128x128, .f32⟩
  | 126 => ⟨S1x128, .f32⟩
  | 127 => ⟨S128, .f32⟩
  | _ => ⟨S50000x4, .f32⟩

abbrev hbmTy0_1 (i : Nat) : BufTy := match i % 128 with
  | 0 => ⟨S1x128, .f32⟩
  | 1 => ⟨S1x128, .f32⟩
  | 2 => ⟨S1x128, .f32⟩
  | 3 => ⟨S50000x128, .f32⟩
  | 4 => ⟨S_, .i32⟩
  | 5 => ⟨S400000, .i32⟩
  | 6 => ⟨S400000, .i1⟩
  | 7 => ⟨S_, .i32⟩
  | 8 => ⟨S400000, .i32⟩
  | 9 => ⟨S400000, .i32⟩
  | 10 => ⟨S400000, .i32⟩
  | 11 => ⟨S400000x1, .i32⟩
  | 12 => ⟨S1, .i32⟩
  | 13 => ⟨S_, .i32⟩
  | 14 => ⟨S400000x1, .i32⟩
  | 15 => ⟨S400000x1, .i1⟩
  | 16 => ⟨S1x1, .i32⟩
  | 17 => ⟨S400000x1, .i32⟩
  | 18 => ⟨S400000x1, .i1⟩
  | 19 => ⟨S400000x1, .i1⟩
  | 20 => ⟨S_, .i1⟩
  | 21 => ⟨S400000, .i1⟩
  | 22 => ⟨S400000x128, .f32⟩
  | 23 => ⟨S400000x128, .i1⟩
  | 24 => ⟨S_, .f32⟩
  | 25 => ⟨S400000x128, .f32⟩
  | 26 => ⟨S400000x128, .f32⟩
  | 27 => ⟨S_, .i32⟩
  | 28 => ⟨S400000, .i32⟩
  | 29 => ⟨S400000, .i1⟩
  | 30 => ⟨S_, .i32⟩
  | 31 => ⟨S400000, .i32⟩
  | 32 => ⟨S400000, .i32⟩
  | 33 => ⟨S400000, .i32⟩
  | 34 => ⟨S400000x1, .i32⟩
  | 35 => ⟨S1, .i32⟩
  | 36 => ⟨S_, .i32⟩
  | 37 => ⟨S400000x1, .i32⟩
  | 38 => ⟨S400000x1, .i1⟩
  | 39 => ⟨S1x1, .i32⟩
  | 40 => ⟨S400000x1, .i32⟩
  | 41 => ⟨S400000x1, .i1⟩
  | 42 => ⟨S400000x1, .i1⟩
  | 43 => ⟨S_, .i1⟩
  | 44 => ⟨S400000, .i1⟩
  | 45 => ⟨S400000x128, .f32⟩
  | 46 => ⟨S400000x128, .i1⟩
  | 47 => ⟨S_, .f32⟩
  | 48 => ⟨S400000x128, .f32⟩
  | 49 => ⟨S400000x128, .f32⟩
  | 50 => ⟨S1x384x128, .f32⟩
  | 51 => ⟨S384x128, .f32⟩
  | 52 => ⟨S128x128, .f32⟩
  | 53 => ⟨S128x128, .f32⟩
  | 54 => ⟨S128x128, .f32⟩
  | 55 => ⟨S1x128, .f32⟩
  | 56 => ⟨S128, .f32⟩
  | 57 => ⟨S1x128x128, .f32⟩
  | 58 => ⟨S128x128, .f32⟩
  | 59 => ⟨S1x128, .f32⟩
  | 60 => ⟨S128, .f32⟩
  | 61 => ⟨S1x128x128, .f32⟩
  | 62 => ⟨S128x128, .f32⟩
  | 63 => ⟨S1x128, .f32⟩
  | 64 => ⟨S128, .f32⟩
  | 65 => ⟨S1x128, .f32⟩
  | 66 => ⟨S1x128, .f32⟩
  | 67 => ⟨S1x128, .f32⟩
  | 68 => ⟨S400000x128, .f32⟩
  | 69 => ⟨S_, .f32⟩
  | 70 => ⟨S50000x128, .f32⟩
  | 71 => ⟨S400000x1, .i32⟩
  | 72 => ⟨S50000x128, .f32⟩
  | 73 => ⟨S1x256x128, .f32⟩
  | 74 => ⟨S256x128, .f32⟩
  | 75 => ⟨S128x128, .f32⟩
  | 76 => ⟨S128x128, .f32⟩
  | 77 => ⟨S1x128, .f32⟩
  | 78 => ⟨S128, .f32⟩
  | 79 => ⟨S1x128x128, .f32⟩
  | 80 => ⟨S128x128, .f32⟩
  | 81 => ⟨S1x128, .f32⟩
  | 82 => ⟨S128, .f32⟩
  | 83 => ⟨S1x128x128, .f32⟩
  | 84 => ⟨S128x128, .f32⟩
  | 85 => ⟨S1x128, .f32⟩
  | 86 => ⟨S128, .f32⟩
  | 87 => ⟨S1x128, .f32⟩
  | 88 => ⟨S1x128, .f32⟩
  | 89 => ⟨S1x128, .f32⟩
  | 90 => ⟨S50000x128, .f32⟩
  | 91 => ⟨S_, .i32⟩
  | 92 => ⟨S400000, .i32⟩
  | 93 => ⟨S400000, .i1⟩
  | 94 => ⟨S_, .i32⟩
  | 95 => ⟨S400000, .i32⟩
  | 96 => ⟨S400000, .i32⟩
  | 97 => ⟨S400000, .i32⟩
  | 98 => ⟨S400000x1, .i32⟩
  | 99 => ⟨S1, .i32⟩
  | 100 => ⟨S_, .i32⟩
  | 101 => ⟨S400000x1, .i32⟩
  | 102 => ⟨S400000x1, .i1⟩
  | 103 => ⟨S1x1, .i32⟩
  | 104 => ⟨S400000x1, .i32⟩
  | 105 => ⟨S400000x1, .i1⟩
  | 106 => ⟨S400000x1, .i1⟩
  | 107 => ⟨S_, .i1⟩
  | 108 => ⟨S400000, .i1⟩
  | 109 => ⟨S400000x128, .f32⟩
  | 110 => ⟨S400000x128, .i1⟩
  | 111 => ⟨S_, .f32⟩
  | 112 => ⟨S400000x128, .f32⟩
  | 113 => ⟨S400000x128, .f32⟩
  | 114 => ⟨S_, .i32⟩
  | 115 => ⟨S400000, .i32⟩
  | 116 => ⟨S400000, .i1⟩
  | 117 => ⟨S_, .i32⟩
  | 118 => ⟨S400000, .i32⟩
  | 119 => ⟨S400000, .i32⟩
  | 120 => ⟨S400000, .i32⟩
  | 121 => ⟨S400000x1, .i32⟩
  | 122 => ⟨S1, .i32⟩
  | 123 => ⟨S_, .i32⟩
  | 124 => ⟨S400000x1, .i32⟩
  | 125 => ⟨S400000x1, .i1⟩
  | 126 => ⟨S1x1, .i32⟩
  | 127 => ⟨S400000x1, .i32⟩
  | _ => ⟨S50000x4, .f32⟩

abbrev hbmTy0_2 (i : Nat) : BufTy := match i % 128 with
  | 0 => ⟨S400000x1, .i1⟩
  | 1 => ⟨S400000x1, .i1⟩
  | 2 => ⟨S_, .i1⟩
  | 3 => ⟨S400000, .i1⟩
  | 4 => ⟨S400000x128, .f32⟩
  | 5 => ⟨S400000x128, .i1⟩
  | 6 => ⟨S_, .f32⟩
  | 7 => ⟨S400000x128, .f32⟩
  | 8 => ⟨S400000x128, .f32⟩
  | 9 => ⟨S1x384x128, .f32⟩
  | 10 => ⟨S384x128, .f32⟩
  | 11 => ⟨S128x128, .f32⟩
  | 12 => ⟨S128x128, .f32⟩
  | 13 => ⟨S128x128, .f32⟩
  | 14 => ⟨S1x128, .f32⟩
  | 15 => ⟨S128, .f32⟩
  | 16 => ⟨S1x128x128, .f32⟩
  | 17 => ⟨S128x128, .f32⟩
  | 18 => ⟨S1x128, .f32⟩
  | 19 => ⟨S128, .f32⟩
  | 20 => ⟨S1x128x128, .f32⟩
  | 21 => ⟨S128x128, .f32⟩
  | 22 => ⟨S1x128, .f32⟩
  | 23 => ⟨S128, .f32⟩
  | 24 => ⟨S1x128, .f32⟩
  | 25 => ⟨S1x128, .f32⟩
  | 26 => ⟨S1x128, .f32⟩
  | 27 => ⟨S400000x128, .f32⟩
  | 28 => ⟨S_, .f32⟩
  | 29 => ⟨S50000x128, .f32⟩
  | 30 => ⟨S400000x1, .i32⟩
  | 31 => ⟨S50000x128, .f32⟩
  | 32 => ⟨S1x256x128, .f32⟩
  | 33 => ⟨S256x128, .f32⟩
  | 34 => ⟨S128x128, .f32⟩
  | 35 => ⟨S128x128, .f32⟩
  | 36 => ⟨S1x128, .f32⟩
  | 37 => ⟨S128, .f32⟩
  | 38 => ⟨S1x128x128, .f32⟩
  | 39 => ⟨S128x128, .f32⟩
  | 40 => ⟨S1x128, .f32⟩
  | 41 => ⟨S128, .f32⟩
  | 42 => ⟨S1x128x128, .f32⟩
  | 43 => ⟨S128x128, .f32⟩
  | 44 => ⟨S1x128, .f32⟩
  | 45 => ⟨S128, .f32⟩
  | 46 => ⟨S1x128, .f32⟩
  | 47 => ⟨S1x128, .f32⟩
  | 48 => ⟨S1x128, .f32⟩
  | 49 => ⟨S1x128, .f32⟩
  | 50 => ⟨S1x128, .f32⟩
  | 51 => ⟨S1x2, .f32⟩
  | 52 => ⟨S50000x2, .f32⟩
  | _ => ⟨S50000x4, .f32⟩

abbrev hbmTy (i : Nat) : BufTy := match i / 128 with
  | 0 => hbmTy0_0 i
  | 1 => hbmTy0_1 i
  | 2 => hbmTy0_2 i
  | _ => ⟨S50000x4, .f32⟩

abbrev bufTy : (tb : Table) → Fin (tcTables nBuf tb) → BufTy
  | .hbm, ⟨i, _⟩ => hbmTy i
  | .local _ .vmem, ⟨0, _⟩ => ⟨S5000x4, .f32⟩
  | .local _ .vmem, ⟨1, _⟩ => ⟨S5000x4, .f32⟩
  | .local _ .vmem, ⟨2, _⟩ => ⟨S4x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x3, .f32⟩
  | .local _ .vmem, ⟨11, _⟩ => ⟨S5000x3, .f32⟩
  | .local _ .vmem, ⟨12, _⟩ => ⟨S3x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S128x128, .f32⟩
  | .local _ .vmem, ⟨28, _⟩ => ⟨S128x128, .f32⟩
  | .local _ .vmem, ⟨29, _⟩ => ⟨S1x128, .f32⟩
  | .local _ .vmem, ⟨30, _⟩ => ⟨S128x128, .f32⟩
  | .local _ .vmem, ⟨31, _⟩ => ⟨S1x128, .f32⟩
  | .local _ .vmem, ⟨32, _⟩ => ⟨S128x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S128x128, .f32⟩
  | .local _ .vmem, ⟨41, _⟩ => ⟨S128x128, .f32⟩
  | .local _ .vmem, ⟨42, _⟩ => ⟨S1x128, .f32⟩
  | .local _ .vmem, ⟨43, _⟩ => ⟨S128x128, .f32⟩
  | .local _ .vmem, ⟨44, _⟩ => ⟨S1x128, .f32⟩
  | .local _ .vmem, ⟨45, _⟩ => ⟨S128x128, .f32⟩
  | .local _ .vmem, ⟨46, _⟩ => ⟨S1x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | .local _ .vmem, ⟨54, _⟩ => ⟨S5000x128, .f32⟩
  | .local _ .vmem, ⟨55, _⟩ => ⟨S128x128, .f32⟩
  | .local _ .vmem, ⟨56, _⟩ => ⟨S128x128, .f32⟩
  | .local _ .vmem, ⟨57, _⟩ => ⟨S128x128, .f32⟩
  | .local _ .vmem, ⟨58, _⟩ => ⟨S1x128, .f32⟩
  | .local _ .vmem, ⟨59, _⟩ => ⟨S128x128, .f32⟩
  | .local _ .vmem, ⟨60, _⟩ => ⟨S1x128, .f32⟩
  | .local _ .vmem, ⟨61, _⟩ => ⟨S128x128, .f32⟩
  | .local _ .vmem, ⟨62, _⟩ => ⟨S1x128, .f32⟩
  | .local _ .vmem, ⟨63, _⟩ => ⟨S5000x128, .f32⟩
  | .local _ .vmem, ⟨64, _⟩ => ⟨S5000x128, .f32⟩
  | .local _ .vmem, ⟨65, _⟩ => ⟨S5000x128, .f32⟩
  | .local _ .vmem, ⟨66, _⟩ => ⟨S5000x128, .f32⟩
  | .local _ .vmem, ⟨67, _⟩ => ⟨S5000x128, .f32⟩
  | .local _ .vmem, ⟨68, _⟩ => ⟨S5000x128, .f32⟩
  | .local _ .vmem, ⟨69, _⟩ => ⟨S128x128, .f32⟩
  | .local _ .vmem, ⟨70, _⟩ => ⟨S128x128, .f32⟩
  | .local _ .vmem, ⟨71, _⟩ => ⟨S1x128, .f32⟩
  | .local _ .vmem, ⟨72, _⟩ => ⟨S128x128, .f32⟩
  | .local _ .vmem, ⟨73, _⟩ => ⟨S1x128, .f32⟩
  | .local _ .vmem, ⟨74, _⟩ => ⟨S128x128, .f32⟩
  | .local _ .vmem, ⟨75, _⟩ => ⟨S1x128, .f32⟩
  | .local _ .vmem, ⟨76, _⟩ => ⟨S5000x128, .f32⟩
  | .local _ .vmem, ⟨77, _⟩ => ⟨S5000x128, .f32⟩
  | .local _ .vmem, ⟨78, _⟩ => ⟨S5000x128, .f32⟩
  | .local _ .vmem, ⟨79, _⟩ => ⟨S5000x128, .f32⟩
  | .local _ .vmem, ⟨80, _⟩ => ⟨S5000x128, .f32⟩
  | .local _ .vmem, ⟨81, _⟩ => ⟨S5000x128, .f32⟩
  | .local _ .vmem, ⟨82, _⟩ => ⟨S5000x128, .f32⟩
  | .local _ .vmem, ⟨83, _⟩ => ⟨S5000x128, .f32⟩
  | .local _ .vmem, ⟨84, _⟩ => ⟨S128x128, .f32⟩
  | .local _ .vmem, ⟨85, _⟩ => ⟨S128x128, .f32⟩
  | .local _ .vmem, ⟨86, _⟩ => ⟨S128x128, .f32⟩
  | .local _ .vmem, ⟨87, _⟩ => ⟨S1x128, .f32⟩
  | .local _ .vmem, ⟨88, _⟩ => ⟨S128x128, .f32⟩
  | .local _ .vmem, ⟨89, _⟩ => ⟨S1x128, .f32⟩
  | .local _ .vmem, ⟨90, _⟩ => ⟨S128x128, .f32⟩
  | .local _ .vmem, ⟨91, _⟩ => ⟨S1x128, .f32⟩
  | .local _ .vmem, ⟨92, _⟩ => ⟨S5000x128, .f32⟩
  | .local _ .vmem, ⟨93, _⟩ => ⟨S5000x128, .f32⟩
  | .local _ .vmem, ⟨94, _⟩ => ⟨S5000x128, .f32⟩
  | .local _ .vmem, ⟨95, _⟩ => ⟨S5000x128, .f32⟩
  | .local _ .vmem, ⟨96, _⟩ => ⟨S5000x128, .f32⟩
  | .local _ .vmem, ⟨97, _⟩ => ⟨S5000x128, .f32⟩
  | .local _ .vmem, ⟨98, _⟩ => ⟨S128x128, .f32⟩
  | .local _ .vmem, ⟨99, _⟩ => ⟨S128x128, .f32⟩
  | .local _ .vmem, ⟨100, _⟩ => ⟨S1x128, .f32⟩
  | .local _ .vmem, ⟨101, _⟩ => ⟨S128x128, .f32⟩
  | .local _ .vmem, ⟨102, _⟩ => ⟨S1x128, .f32⟩
  | .local _ .vmem, ⟨103, _⟩ => ⟨S128x128, .f32⟩
  | .local _ .vmem, ⟨104, _⟩ => ⟨S1x128, .f32⟩
  | .local _ .vmem, ⟨105, _⟩ => ⟨S128x128, .f32⟩
  | .local _ .vmem, ⟨106, _⟩ => ⟨S1x128, .f32⟩
  | .local _ .vmem, ⟨107, _⟩ => ⟨S128x128, .f32⟩
  | .local _ .vmem, ⟨108, _⟩ => ⟨S1x128, .f32⟩
  | .local _ .vmem, ⟨109, _⟩ => ⟨S128x2, .f32⟩
  | .local _ .vmem, ⟨110, _⟩ => ⟨S1x2, .f32⟩
  | .local _ .vmem, ⟨111, _⟩ => ⟨S5000x2, .f32⟩
  | .local _ .vmem, ⟨112, _⟩ => ⟨S5000x2, .f32⟩
  | _, _ => ⟨S50000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | _, _ => false

abbrev semScoped : Fin 0 → Bool
  | ⟨_, h⟩ => absurd h (Nat.not_lt_zero _)

abbrev dmaSemScoped : Fin 113 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | _ => false

abbrev sig : RefSig :=
  ofTc nBuf bufTy 0 113 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_v0 : Ref sig .tc := ⟨.hbm, 33, rfl⟩
abbrev main_v1 : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_call0_c : Ref sig .tc := ⟨.hbm, 45, rfl⟩
abbrev main_call0_v0 : Ref sig .tc := ⟨.hbm, 46, rfl⟩
abbrev main_call0_v1 : Ref sig .tc := ⟨.hbm, 47, rfl⟩
abbrev main_call0_c_0 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_v5 : Ref sig .tc := ⟨.hbm, 52, rfl⟩
abbrev main_call0_c_1 : Ref sig .tc := ⟨.hbm, 53, rfl⟩
abbrev main_call0_c_2 : Ref sig .tc := ⟨.hbm, 54, rfl⟩
abbrev main_call0_v6 : Ref sig .tc := ⟨.hbm, 55, rfl⟩
abbrev main_call0_v7 : Ref sig .tc := ⟨.hbm, 56, rfl⟩
abbrev main_call0_v8 : Ref sig .tc := ⟨.hbm, 57, rfl⟩
abbrev main_call0_v9 : Ref sig .tc := ⟨.hbm, 58, rfl⟩
abbrev main_call0_v10 : Ref sig .tc := ⟨.hbm, 59, rfl⟩
abbrev main_call0_v11 : Ref sig .tc := ⟨.hbm, 60, rfl⟩
abbrev main_call0_c_3 : Ref sig .tc := ⟨.hbm, 61, rfl⟩
abbrev main_call0_v12 : Ref sig .tc := ⟨.hbm, 62, rfl⟩
abbrev main_call0_v13 : Ref sig .tc := ⟨.hbm, 63, rfl⟩
abbrev main_call0_v14 : Ref sig .tc := ⟨.hbm, 64, rfl⟩
abbrev main_call0_cst : Ref sig .tc := ⟨.hbm, 65, rfl⟩
abbrev main_call0_v15 : Ref sig .tc := ⟨.hbm, 66, rfl⟩
abbrev main_v12 : Ref sig .tc := ⟨.hbm, 67, rfl⟩
abbrev main_call1_c : Ref sig .tc := ⟨.hbm, 68, rfl⟩
abbrev main_call1_v0 : Ref sig .tc := ⟨.hbm, 69, rfl⟩
abbrev main_call1_v1 : Ref sig .tc := ⟨.hbm, 70, rfl⟩
abbrev main_call1_c_0 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_call1_v5 : Ref sig .tc := ⟨.hbm, 75, rfl⟩
abbrev main_call1_c_1 : Ref sig .tc := ⟨.hbm, 76, rfl⟩
abbrev main_call1_c_2 : Ref sig .tc := ⟨.hbm, 77, rfl⟩
abbrev main_call1_v6 : Ref sig .tc := ⟨.hbm, 78, rfl⟩
abbrev main_call1_v7 : Ref sig .tc := ⟨.hbm, 79, rfl⟩
abbrev main_call1_v8 : Ref sig .tc := ⟨.hbm, 80, rfl⟩
abbrev main_call1_v9 : Ref sig .tc := ⟨.hbm, 81, rfl⟩
abbrev main_call1_v10 : Ref sig .tc := ⟨.hbm, 82, rfl⟩
abbrev main_call1_v11 : Ref sig .tc := ⟨.hbm, 83, rfl⟩
abbrev main_call1_c_3 : Ref sig .tc := ⟨.hbm, 84, rfl⟩
abbrev main_call1_v12 : Ref sig .tc := ⟨.hbm, 85, rfl⟩
abbrev main_call1_v13 : Ref sig .tc := ⟨.hbm, 86, rfl⟩
abbrev main_call1_v14 : Ref sig .tc := ⟨.hbm, 87, rfl⟩
abbrev main_call1_cst : Ref sig .tc := ⟨.hbm, 88, rfl⟩
abbrev main_call1_v15 : Ref sig .tc := ⟨.hbm, 89, rfl⟩
abbrev main_v13 : Ref sig .tc := ⟨.hbm, 90, rfl⟩
abbrev main_v14 : Ref sig .tc := ⟨.hbm, 91, rfl⟩
abbrev main_v15 : Ref sig .tc := ⟨.hbm, 92, rfl⟩
abbrev main_v16 : Ref sig .tc := ⟨.hbm, 93, rfl⟩
abbrev main_v17 : Ref sig .tc := ⟨.hbm, 94, rfl⟩
abbrev main_v18 : Ref sig .tc := ⟨.hbm, 95, rfl⟩
abbrev main_v19 : Ref sig .tc := ⟨.hbm, 96, rfl⟩
abbrev main_v20 : Ref sig .tc := ⟨.hbm, 97, rfl⟩
abbrev main_v21 : Ref sig .tc := ⟨.hbm, 98, rfl⟩
abbrev main_v22 : Ref sig .tc := ⟨.hbm, 99, rfl⟩
abbrev main_v23 : Ref sig .tc := ⟨.hbm, 100, rfl⟩
abbrev main_v24 : Ref sig .tc := ⟨.hbm, 101, rfl⟩
abbrev main_v25 : Ref sig .tc := ⟨.hbm, 102, rfl⟩
abbrev main_v26 : Ref sig .tc := ⟨.hbm, 103, rfl⟩
abbrev main_v27 : Ref sig .tc := ⟨.hbm, 104, rfl⟩
abbrev main_v28 : Ref sig .tc := ⟨.hbm, 105, rfl⟩
abbrev main_v29 : Ref sig .tc := ⟨.hbm, 106, rfl⟩
abbrev main_v30 : Ref sig .tc := ⟨.hbm, 107, rfl⟩
abbrev main_v31 : Ref sig .tc := ⟨.hbm, 108, rfl⟩
abbrev main_v32 : Ref sig .tc := ⟨.hbm, 109, rfl⟩
abbrev main_cst : Ref sig .tc := ⟨.hbm, 110, rfl⟩
abbrev main_v33 : Ref sig .tc := ⟨.hbm, 111, rfl⟩
abbrev main_v34 : Ref sig .tc := ⟨.hbm, 112, rfl⟩
abbrev main_v35 : Ref sig .tc := ⟨.hbm, 113, rfl⟩
abbrev main_v36 : Ref sig .tc := ⟨.hbm, 114, rfl⟩
abbrev main_v37 : Ref sig .tc := ⟨.hbm, 115, rfl⟩
abbrev main_v38 : Ref sig .tc := ⟨.hbm, 116, rfl⟩
abbrev main_v39 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩
abbrev main_v45 : Ref sig .tc := ⟨.hbm, 123, rfl⟩
abbrev main_v46 : Ref sig .tc := ⟨.hbm, 124, rfl⟩
abbrev main_v47 : Ref sig .tc := ⟨.hbm, 125, rfl⟩
abbrev main_v48 : Ref sig .tc := ⟨.hbm, 126, rfl⟩
abbrev main_v49 : Ref sig .tc := ⟨.hbm, 127, rfl⟩
abbrev main_v50 : Ref sig .tc := ⟨.hbm, 128, rfl⟩
abbrev main_v51 : Ref sig .tc := ⟨.hbm, 129, rfl⟩
abbrev main_v52 : Ref sig .tc := ⟨.hbm, 130, rfl⟩
abbrev main_v53 : Ref sig .tc := ⟨.hbm, 131, rfl⟩
abbrev main_call2_c : Ref sig .tc := ⟨.hbm, 132, rfl⟩
abbrev main_call2_v0 : Ref sig .tc := ⟨.hbm, 133, rfl⟩
abbrev main_call2_v1 : Ref sig .tc := ⟨.hbm, 134, rfl⟩
abbrev main_call2_c_0 : Ref sig .tc := ⟨.hbm, 135, rfl⟩
abbrev main_call2_v2 : Ref sig .tc := ⟨.hbm, 136, rfl⟩
abbrev main_call2_v3 : Ref sig .tc := ⟨.hbm, 137, rfl⟩
abbrev main_call2_v4 : Ref sig .tc := ⟨.hbm, 138, rfl⟩
abbrev main_call2_v5 : Ref sig .tc := ⟨.hbm, 139, rfl⟩
abbrev main_call2_c_1 : Ref sig .tc := ⟨.hbm, 140, rfl⟩
abbrev main_call2_c_2 : Ref sig .tc := ⟨.hbm, 141, rfl⟩
abbrev main_call2_v6 : Ref sig .tc := ⟨.hbm, 142, rfl⟩
abbrev main_call2_v7 : Ref sig .tc := ⟨.hbm, 143, rfl⟩
abbrev main_call2_v8 : Ref sig .tc := ⟨.hbm, 144, rfl⟩
abbrev main_call2_v9 : Ref sig .tc := ⟨.hbm, 145, rfl⟩
abbrev main_call2_v10 : Ref sig .tc := ⟨.hbm, 146, rfl⟩
abbrev main_call2_v11 : Ref sig .tc := ⟨.hbm, 147, rfl⟩
abbrev main_call2_c_3 : Ref sig .tc := ⟨.hbm, 148, rfl⟩
abbrev main_call2_v12 : Ref sig .tc := ⟨.hbm, 149, rfl⟩
abbrev main_call2_v13 : Ref sig .tc := ⟨.hbm, 150, rfl⟩
abbrev main_call2_v14 : Ref sig .tc := ⟨.hbm, 151, rfl⟩
abbrev main_call2_cst : Ref sig .tc := ⟨.hbm, 152, rfl⟩
abbrev main_call2_v15 : Ref sig .tc := ⟨.hbm, 153, rfl⟩
abbrev main_v54 : Ref sig .tc := ⟨.hbm, 154, rfl⟩
abbrev main_call3_c : Ref sig .tc := ⟨.hbm, 155, rfl⟩
abbrev main_call3_v0 : Ref sig .tc := ⟨.hbm, 156, rfl⟩
abbrev main_call3_v1 : Ref sig .tc := ⟨.hbm, 157, rfl⟩
abbrev main_call3_c_0 : Ref sig .tc := ⟨.hbm, 158, rfl⟩
abbrev main_call3_v2 : Ref sig .tc := ⟨.hbm, 159, rfl⟩
abbrev main_call3_v3 : Ref sig .tc := ⟨.hbm, 160, rfl⟩
abbrev main_call3_v4 : Ref sig .tc := ⟨.hbm, 161, rfl⟩
abbrev main_call3_v5 : Ref sig .tc := ⟨.hbm, 162, rfl⟩
abbrev main_call3_c_1 : Ref sig .tc := ⟨.hbm, 163, rfl⟩
abbrev main_call3_c_2 : Ref sig .tc := ⟨.hbm, 164, rfl⟩
abbrev main_call3_v6 : Ref sig .tc := ⟨.hbm, 165, rfl⟩
abbrev main_call3_v7 : Ref sig .tc := ⟨.hbm, 166, rfl⟩
abbrev main_call3_v8 : Ref sig .tc := ⟨.hbm, 167, rfl⟩
abbrev main_call3_v9 : Ref sig .tc := ⟨.hbm, 168, rfl⟩
abbrev main_call3_v10 : Ref sig .tc := ⟨.hbm, 169, rfl⟩
abbrev main_call3_v11 : Ref sig .tc := ⟨.hbm, 170, rfl⟩
abbrev main_call3_c_3 : Ref sig .tc := ⟨.hbm, 171, rfl⟩
abbrev main_call3_v12 : Ref sig .tc := ⟨.hbm, 172, rfl⟩
abbrev main_call3_v13 : Ref sig .tc := ⟨.hbm, 173, rfl⟩
abbrev main_call3_v14 : Ref sig .tc := ⟨.hbm, 174, rfl⟩
abbrev main_call3_cst : Ref sig .tc := ⟨.hbm, 175, rfl⟩
abbrev main_call3_v15 : Ref sig .tc := ⟨.hbm, 176, rfl⟩
abbrev main_v55 : Ref sig .tc := ⟨.hbm, 177, rfl⟩
abbrev main_v56 : Ref sig .tc := ⟨.hbm, 178, rfl⟩
abbrev main_v57 : Ref sig .tc := ⟨.hbm, 179, rfl⟩
abbrev main_v58 : Ref sig .tc := ⟨.hbm, 180, rfl⟩
abbrev main_v59 : Ref sig .tc := ⟨.hbm, 181, rfl⟩
abbrev main_v60 : Ref sig .tc := ⟨.hbm, 182, rfl⟩
abbrev main_v61 : Ref sig .tc := ⟨.hbm, 183, rfl⟩
abbrev main_v62 : Ref sig .tc := ⟨.hbm, 184, rfl⟩
abbrev main_v63 : Ref sig .tc := ⟨.hbm, 185, rfl⟩
abbrev main_v64 : Ref sig .tc := ⟨.hbm, 186, rfl⟩
abbrev main_v65 : Ref sig .tc := ⟨.hbm, 187, rfl⟩
abbrev main_v66 : Ref sig .tc := ⟨.hbm, 188, rfl⟩
abbrev main_v67 : Ref sig .tc := ⟨.hbm, 189, rfl⟩
abbrev main_v68 : Ref sig .tc := ⟨.hbm, 190, rfl⟩
abbrev main_v69 : Ref sig .tc := ⟨.hbm, 191, rfl⟩
abbrev main_v70 : Ref sig .tc := ⟨.hbm, 192, rfl⟩
abbrev main_v71 : Ref sig .tc := ⟨.hbm, 193, rfl⟩
abbrev main_v72 : Ref sig .tc := ⟨.hbm, 194, rfl⟩
abbrev main_v73 : Ref sig .tc := ⟨.hbm, 195, rfl⟩
abbrev main_v74 : Ref sig .tc := ⟨.hbm, 196, rfl⟩
abbrev main_cst_0 : Ref sig .tc := ⟨.hbm, 197, rfl⟩
abbrev main_v75 : Ref sig .tc := ⟨.hbm, 198, rfl⟩
abbrev main_v76 : Ref sig .tc := ⟨.hbm, 199, rfl⟩
abbrev main_v77 : Ref sig .tc := ⟨.hbm, 200, rfl⟩
abbrev main_v78 : Ref sig .tc := ⟨.hbm, 201, rfl⟩
abbrev main_v79 : Ref sig .tc := ⟨.hbm, 202, rfl⟩
abbrev main_v80 : Ref sig .tc := ⟨.hbm, 203, rfl⟩
abbrev main_v81 : Ref sig .tc := ⟨.hbm, 204, rfl⟩
abbrev main_v82 : Ref sig .tc := ⟨.hbm, 205, rfl⟩
abbrev main_v83 : Ref sig .tc := ⟨.hbm, 206, rfl⟩
abbrev main_v84 : Ref sig .tc := ⟨.hbm, 207, rfl⟩
abbrev main_v85 : Ref sig .tc := ⟨.hbm, 208, rfl⟩
abbrev main_v86 : Ref sig .tc := ⟨.hbm, 209, rfl⟩
abbrev main_v87 : Ref sig .tc := ⟨.hbm, 210, rfl⟩
abbrev main_v88 : Ref sig .tc := ⟨.hbm, 211, rfl⟩
abbrev main_v89 : Ref sig .tc := ⟨.hbm, 212, rfl⟩
abbrev main_v90 : Ref sig .tc := ⟨.hbm, 213, rfl⟩
abbrev main_v91 : Ref sig .tc := ⟨.hbm, 214, rfl⟩
abbrev main_v92 : Ref sig .tc := ⟨.hbm, 215, rfl⟩
abbrev main_v93 : Ref sig .tc := ⟨.hbm, 216, rfl⟩
abbrev main_v94 : Ref sig .tc := ⟨.hbm, 217, rfl⟩
abbrev main_v95 : Ref sig .tc := ⟨.hbm, 218, rfl⟩
abbrev main_call4_c : Ref sig .tc := ⟨.hbm, 219, rfl⟩
abbrev main_call4_v0 : Ref sig .tc := ⟨.hbm, 220, rfl⟩
abbrev main_call4_v1 : Ref sig .tc := ⟨.hbm, 221, rfl⟩
abbrev main_call4_c_0 : Ref sig .tc := ⟨.hbm, 222, rfl⟩
abbrev main_call4_v2 : Ref sig .tc := ⟨.hbm, 223, rfl⟩
abbrev main_call4_v3 : Ref sig .tc := ⟨.hbm, 224, rfl⟩
abbrev main_call4_v4 : Ref sig .tc := ⟨.hbm, 225, rfl⟩
abbrev main_call4_v5 : Ref sig .tc := ⟨.hbm, 226, rfl⟩
abbrev main_call4_c_1 : Ref sig .tc := ⟨.hbm, 227, rfl⟩
abbrev main_call4_c_2 : Ref sig .tc := ⟨.hbm, 228, rfl⟩
abbrev main_call4_v6 : Ref sig .tc := ⟨.hbm, 229, rfl⟩
abbrev main_call4_v7 : Ref sig .tc := ⟨.hbm, 230, rfl⟩
abbrev main_call4_v8 : Ref sig .tc := ⟨.hbm, 231, rfl⟩
abbrev main_call4_v9 : Ref sig .tc := ⟨.hbm, 232, rfl⟩
abbrev main_call4_v10 : Ref sig .tc := ⟨.hbm, 233, rfl⟩
abbrev main_call4_v11 : Ref sig .tc := ⟨.hbm, 234, rfl⟩
abbrev main_call4_c_3 : Ref sig .tc := ⟨.hbm, 235, rfl⟩
abbrev main_call4_v12 : Ref sig .tc := ⟨.hbm, 236, rfl⟩
abbrev main_call4_v13 : Ref sig .tc := ⟨.hbm, 237, rfl⟩
abbrev main_call4_v14 : Ref sig .tc := ⟨.hbm, 238, rfl⟩
abbrev main_call4_cst : Ref sig .tc := ⟨.hbm, 239, rfl⟩
abbrev main_call4_v15 : Ref sig .tc := ⟨.hbm, 240, rfl⟩
abbrev main_v96 : Ref sig .tc := ⟨.hbm, 241, rfl⟩
abbrev main_call5_c : Ref sig .tc := ⟨.hbm, 242, rfl⟩
abbrev main_call5_v0 : Ref sig .tc := ⟨.hbm, 243, rfl⟩
abbrev main_call5_v1 : Ref sig .tc := ⟨.hbm, 244, rfl⟩
abbrev main_call5_c_0 : Ref sig .tc := ⟨.hbm, 245, rfl⟩
abbrev main_call5_v2 : Ref sig .tc := ⟨.hbm, 246, rfl⟩
abbrev main_call5_v3 : Ref sig .tc := ⟨.hbm, 247, rfl⟩
abbrev main_call5_v4 : Ref sig .tc := ⟨.hbm, 248, rfl⟩
abbrev main_call5_v5 : Ref sig .tc := ⟨.hbm, 249, rfl⟩
abbrev main_call5_c_1 : Ref sig .tc := ⟨.hbm, 250, rfl⟩
abbrev main_call5_c_2 : Ref sig .tc := ⟨.hbm, 251, rfl⟩
abbrev main_call5_v6 : Ref sig .tc := ⟨.hbm, 252, rfl⟩
abbrev main_call5_v7 : Ref sig .tc := ⟨.hbm, 253, rfl⟩
abbrev main_call5_v8 : Ref sig .tc := ⟨.hbm, 254, rfl⟩
abbrev main_call5_v9 : Ref sig .tc := ⟨.hbm, 255, rfl⟩
abbrev main_call5_v10 : Ref sig .tc := ⟨.hbm, 256, rfl⟩
abbrev main_call5_v11 : Ref sig .tc := ⟨.hbm, 257, rfl⟩
abbrev main_call5_c_3 : Ref sig .tc := ⟨.hbm, 258, rfl⟩
abbrev main_call5_v12 : Ref sig .tc := ⟨.hbm, 259, rfl⟩
abbrev main_call5_v13 : Ref sig .tc := ⟨.hbm, 260, rfl⟩
abbrev main_call5_v14 : Ref sig .tc := ⟨.hbm, 261, rfl⟩
abbrev main_call5_cst : Ref sig .tc := ⟨.hbm, 262, rfl⟩
abbrev main_call5_v15 : Ref sig .tc := ⟨.hbm, 263, rfl⟩
abbrev main_v97 : Ref sig .tc := ⟨.hbm, 264, rfl⟩
abbrev main_v98 : Ref sig .tc := ⟨.hbm, 265, rfl⟩
abbrev main_v99 : Ref sig .tc := ⟨.hbm, 266, rfl⟩
abbrev main_v100 : Ref sig .tc := ⟨.hbm, 267, rfl⟩
abbrev main_v101 : Ref sig .tc := ⟨.hbm, 268, rfl⟩
abbrev main_v102 : Ref sig .tc := ⟨.hbm, 269, rfl⟩
abbrev main_v103 : Ref sig .tc := ⟨.hbm, 270, rfl⟩
abbrev main_v104 : Ref sig .tc := ⟨.hbm, 271, rfl⟩
abbrev main_v105 : Ref sig .tc := ⟨.hbm, 272, rfl⟩
abbrev main_v106 : Ref sig .tc := ⟨.hbm, 273, rfl⟩
abbrev main_v107 : Ref sig .tc := ⟨.hbm, 274, rfl⟩
abbrev main_v108 : Ref sig .tc := ⟨.hbm, 275, rfl⟩
abbrev main_v109 : Ref sig .tc := ⟨.hbm, 276, rfl⟩
abbrev main_v110 : Ref sig .tc := ⟨.hbm, 277, rfl⟩
abbrev main_v111 : Ref sig .tc := ⟨.hbm, 278, rfl⟩
abbrev main_v112 : Ref sig .tc := ⟨.hbm, 279, rfl⟩
abbrev main_v113 : Ref sig .tc := ⟨.hbm, 280, rfl⟩
abbrev main_v114 : Ref sig .tc := ⟨.hbm, 281, rfl⟩
abbrev main_v115 : Ref sig .tc := ⟨.hbm, 282, rfl⟩
abbrev main_v116 : Ref sig .tc := ⟨.hbm, 283, rfl⟩
abbrev main_cst_1 : Ref sig .tc := ⟨.hbm, 284, rfl⟩
abbrev main_v117 : Ref sig .tc := ⟨.hbm, 285, rfl⟩
abbrev main_v118 : Ref sig .tc := ⟨.hbm, 286, rfl⟩
abbrev main_v119 : Ref sig .tc := ⟨.hbm, 287, rfl⟩
abbrev main_v120 : Ref sig .tc := ⟨.hbm, 288, rfl⟩
abbrev main_v121 : Ref sig .tc := ⟨.hbm, 289, rfl⟩
abbrev main_v122 : Ref sig .tc := ⟨.hbm, 290, rfl⟩
abbrev main_v123 : Ref sig .tc := ⟨.hbm, 291, rfl⟩
abbrev main_v124 : Ref sig .tc := ⟨.hbm, 292, rfl⟩
abbrev main_v125 : Ref sig .tc := ⟨.hbm, 293, rfl⟩
abbrev main_v126 : Ref sig .tc := ⟨.hbm, 294, rfl⟩
abbrev main_v127 : Ref sig .tc := ⟨.hbm, 295, rfl⟩
abbrev main_v128 : Ref sig .tc := ⟨.hbm, 296, rfl⟩
abbrev main_v129 : Ref sig .tc := ⟨.hbm, 297, rfl⟩
abbrev main_v130 : Ref sig .tc := ⟨.hbm, 298, rfl⟩
abbrev main_v131 : Ref sig .tc := ⟨.hbm, 299, rfl⟩
abbrev main_v132 : Ref sig .tc := ⟨.hbm, 300, rfl⟩
abbrev main_v133 : Ref sig .tc := ⟨.hbm, 301, rfl⟩
abbrev main_v134 : Ref sig .tc := ⟨.hbm, 302, rfl⟩
abbrev main_v135 : Ref sig .tc := ⟨.hbm, 303, rfl⟩
abbrev main_v136 : Ref sig .tc := ⟨.hbm, 304, rfl⟩
abbrev main_v137 : Ref sig .tc := ⟨.hbm, 305, rfl⟩
abbrev main_v138 : Ref sig .tc := ⟨.hbm, 306, rfl⟩
abbrev main_v139 : Ref sig .tc := ⟨.hbm, 307, rfl⟩
abbrev main_v140 : Ref sig .tc := ⟨.hbm, 308, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg7_0 : Ref sig .tc := ⟨.vmem, 30, rfl⟩
abbrev cc2_stg8_0 : Ref sig .tc := ⟨.vmem, 31, rfl⟩
abbrev cc2_stg9_0 : Ref sig .tc := ⟨.vmem, 32, rfl⟩
abbrev cc2_stg10_0 : Ref sig .tc := ⟨.vmem, 33, rfl⟩
abbrev cc2_stg11_0 : Ref sig .tc := ⟨.vmem, 34, rfl⟩
abbrev cc2_stg11_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg3_0 : Ref sig .tc := ⟨.vmem, 41, rfl⟩
abbrev cc3_stg4_0 : Ref sig .tc := ⟨.vmem, 42, rfl⟩
abbrev cc3_stg5_0 : Ref sig .tc := ⟨.vmem, 43, rfl⟩
abbrev cc3_stg6_0 : Ref sig .tc := ⟨.vmem, 44, rfl⟩
abbrev cc3_stg7_0 : Ref sig .tc := ⟨.vmem, 45, rfl⟩
abbrev cc3_stg8_0 : Ref sig .tc := ⟨.vmem, 46, rfl⟩
abbrev cc3_stg9_0 : Ref sig .tc := ⟨.vmem, 47, rfl⟩
abbrev cc3_stg9_1 : Ref sig .tc := ⟨.vmem, 48, rfl⟩
abbrev cc4_stg0_0 : Ref sig .tc := ⟨.vmem, 49, rfl⟩
abbrev cc4_stg0_1 : Ref sig .tc := ⟨.vmem, 50, rfl⟩
abbrev cc4_stg1_0 : Ref sig .tc := ⟨.vmem, 51, rfl⟩
abbrev cc4_stg1_1 : Ref sig .tc := ⟨.vmem, 52, rfl⟩
abbrev cc4_stg2_0 : Ref sig .tc := ⟨.vmem, 53, rfl⟩
abbrev cc4_stg2_1 : Ref sig .tc := ⟨.vmem, 54, rfl⟩
abbrev cc4_stg3_0 : Ref sig .tc := ⟨.vmem, 55, rfl⟩
abbrev cc4_stg4_0 : Ref sig .tc := ⟨.vmem, 56, rfl⟩
abbrev cc4_stg5_0 : Ref sig .tc := ⟨.vmem, 57, rfl⟩
abbrev cc4_stg6_0 : Ref sig .tc := ⟨.vmem, 58, rfl⟩
abbrev cc4_stg7_0 : Ref sig .tc := ⟨.vmem, 59, rfl⟩
abbrev cc4_stg8_0 : Ref sig .tc := ⟨.vmem, 60, rfl⟩
abbrev cc4_stg9_0 : Ref sig .tc := ⟨.vmem, 61, rfl⟩
abbrev cc4_stg10_0 : Ref sig .tc := ⟨.vmem, 62, rfl⟩
abbrev cc4_stg11_0 : Ref sig .tc := ⟨.vmem, 63, rfl⟩
abbrev cc4_stg11_1 : Ref sig .tc := ⟨.vmem, 64, rfl⟩
abbrev cc5_stg0_0 : Ref sig .tc := ⟨.vmem, 65, rfl⟩
abbrev cc5_stg0_1 : Ref sig .tc := ⟨.vmem, 66, rfl⟩
abbrev cc5_stg1_0 : Ref sig .tc := ⟨.vmem, 67, rfl⟩
abbrev cc5_stg1_1 : Ref sig .tc := ⟨.vmem, 68, rfl⟩
abbrev cc5_stg2_0 : Ref sig .tc := ⟨.vmem, 69, rfl⟩
abbrev cc5_stg3_0 : Ref sig .tc := ⟨.vmem, 70, rfl⟩
abbrev cc5_stg4_0 : Ref sig .tc := ⟨.vmem, 71, rfl⟩
abbrev cc5_stg5_0 : Ref sig .tc := ⟨.vmem, 72, rfl⟩
abbrev cc5_stg6_0 : Ref sig .tc := ⟨.vmem, 73, rfl⟩
abbrev cc5_stg7_0 : Ref sig .tc := ⟨.vmem, 74, rfl⟩
abbrev cc5_stg8_0 : Ref sig .tc := ⟨.vmem, 75, rfl⟩
abbrev cc5_stg9_0 : Ref sig .tc := ⟨.vmem, 76, rfl⟩
abbrev cc5_stg9_1 : Ref sig .tc := ⟨.vmem, 77, rfl⟩
abbrev cc6_stg0_0 : Ref sig .tc := ⟨.vmem, 78, rfl⟩
abbrev cc6_stg0_1 : Ref sig .tc := ⟨.vmem, 79, rfl⟩
abbrev cc6_stg1_0 : Ref sig .tc := ⟨.vmem, 80, rfl⟩
abbrev cc6_stg1_1 : Ref sig .tc := ⟨.vmem, 81, rfl⟩
abbrev cc6_stg2_0 : Ref sig .tc := ⟨.vmem, 82, rfl⟩
abbrev cc6_stg2_1 : Ref sig .tc := ⟨.vmem, 83, rfl⟩
abbrev cc6_stg3_0 : Ref sig .tc := ⟨.vmem, 84, rfl⟩
abbrev cc6_stg4_0 : Ref sig .tc := ⟨.vmem, 85, rfl⟩
abbrev cc6_stg5_0 : Ref sig .tc := ⟨.vmem, 86, rfl⟩
abbrev cc6_stg6_0 : Ref sig .tc := ⟨.vmem, 87, rfl⟩
abbrev cc6_stg7_0 : Ref sig .tc := ⟨.vmem, 88, rfl⟩
abbrev cc6_stg8_0 : Ref sig .tc := ⟨.vmem, 89, rfl⟩
abbrev cc6_stg9_0 : Ref sig .tc := ⟨.vmem, 90, rfl⟩
abbrev cc6_stg10_0 : Ref sig .tc := ⟨.vmem, 91, rfl⟩
abbrev cc6_stg11_0 : Ref sig .tc := ⟨.vmem, 92, rfl⟩
abbrev cc6_stg11_1 : Ref sig .tc := ⟨.vmem, 93, rfl⟩
abbrev cc7_stg0_0 : Ref sig .tc := ⟨.vmem, 94, rfl⟩
abbrev cc7_stg0_1 : Ref sig .tc := ⟨.vmem, 95, rfl⟩
abbrev cc7_stg1_0 : Ref sig .tc := ⟨.vmem, 96, rfl⟩
abbrev cc7_stg1_1 : Ref sig .tc := ⟨.vmem, 97, rfl⟩
abbrev cc7_stg2_0 : Ref sig .tc := ⟨.vmem, 98, rfl⟩
abbrev cc7_stg3_0 : Ref sig .tc := ⟨.vmem, 99, rfl⟩
abbrev cc7_stg4_0 : Ref sig .tc := ⟨.vmem, 100, rfl⟩
abbrev cc7_stg5_0 : Ref sig .tc := ⟨.vmem, 101, rfl⟩
abbrev cc7_stg6_0 : Ref sig .tc := ⟨.vmem, 102, rfl⟩
abbrev cc7_stg7_0 : Ref sig .tc := ⟨.vmem, 103, rfl⟩
abbrev cc7_stg8_0 : Ref sig .tc := ⟨.vmem, 104, rfl⟩
abbrev cc7_stg9_0 : Ref sig .tc := ⟨.vmem, 105, rfl⟩
abbrev cc7_stg10_0 : Ref sig .tc := ⟨.vmem, 106, rfl⟩
abbrev cc7_stg11_0 : Ref sig .tc := ⟨.vmem, 107, rfl⟩
abbrev cc7_stg12_0 : Ref sig .tc := ⟨.vmem, 108, rfl⟩
abbrev cc7_stg13_0 : Ref sig .tc := ⟨.vmem, 109, rfl⟩
abbrev cc7_stg14_0 : Ref sig .tc := ⟨.vmem, 110, rfl⟩
abbrev cc7_stg15_0 : Ref sig .tc := ⟨.vmem, 111, rfl⟩
abbrev cc7_stg15_1 : Ref sig .tc := ⟨.vmem, 112, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem6_0 : DmaSem sig := 29
abbrev cc2_sem7_0 : DmaSem sig := 30
abbrev cc2_sem8_0 : DmaSem sig := 31
abbrev cc2_sem9_0 : DmaSem sig := 32
abbrev cc2_sem10_0 : DmaSem sig := 33
abbrev cc2_sem11_0 : DmaSem sig := 34
abbrev cc2_sem11_1 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem3_0 : DmaSem sig := 41
abbrev cc3_sem4_0 : DmaSem sig := 42
abbrev cc3_sem5_0 : DmaSem sig := 43
abbrev cc3_sem6_0 : DmaSem sig := 44
abbrev cc3_sem7_0 : DmaSem sig := 45
abbrev cc3_sem8_0 : DmaSem sig := 46
abbrev cc3_sem9_0 : DmaSem sig := 47
abbrev cc3_sem9_1 : DmaSem sig := 48
abbrev cc4_sem0_0 : DmaSem sig := 49
abbrev cc4_sem0_1 : DmaSem sig := 50
abbrev cc4_sem1_0 : DmaSem sig := 51
abbrev cc4_sem1_1 : DmaSem sig := 52
abbrev cc4_sem2_0 : DmaSem sig := 53
abbrev cc4_sem2_1 : DmaSem sig := 54
abbrev cc4_sem3_0 : DmaSem sig := 55
abbrev cc4_sem4_0 : DmaSem sig := 56
abbrev cc4_sem5_0 : DmaSem sig := 57
abbrev cc4_sem6_0 : DmaSem sig := 58
abbrev cc4_sem7_0 : DmaSem sig := 59
abbrev cc4_sem8_0 : DmaSem sig := 60
abbrev cc4_sem9_0 : DmaSem sig := 61
abbrev cc4_sem10_0 : DmaSem sig := 62
abbrev cc4_sem11_0 : DmaSem sig := 63
abbrev cc4_sem11_1 : DmaSem sig := 64
abbrev cc5_sem0_0 : DmaSem sig := 65
abbrev cc5_sem0_1 : DmaSem sig := 66
abbrev cc5_sem1_0 : DmaSem sig := 67
abbrev cc5_sem1_1 : DmaSem sig := 68
abbrev cc5_sem2_0 : DmaSem sig := 69
abbrev cc5_sem3_0 : DmaSem sig := 70
abbrev cc5_sem4_0 : DmaSem sig := 71
abbrev cc5_sem5_0 : DmaSem sig := 72
abbrev cc5_sem6_0 : DmaSem sig := 73
abbrev cc5_sem7_0 : DmaSem sig := 74
abbrev cc5_sem8_0 : DmaSem sig := 75
abbrev cc5_sem9_0 : DmaSem sig := 76
abbrev cc5_sem9_1 : DmaSem sig := 77
abbrev cc6_sem0_0 : DmaSem sig := 78
abbrev cc6_sem0_1 : DmaSem sig := 79
abbrev cc6_sem1_0 : DmaSem sig := 80
abbrev cc6_sem1_1 : DmaSem sig := 81
abbrev cc6_sem2_0 : DmaSem sig := 82
abbrev cc6_sem2_1 : DmaSem sig := 83
abbrev cc6_sem3_0 : DmaSem sig := 84
abbrev cc6_sem4_0 : DmaSem sig := 85
abbrev cc6_sem5_0 : DmaSem sig := 86
abbrev cc6_sem6_0 : DmaSem sig := 87
abbrev cc6_sem7_0 : DmaSem sig := 88
abbrev cc6_sem8_0 : DmaSem sig := 89
abbrev cc6_sem9_0 : DmaSem sig := 90
abbrev cc6_sem10_0 : DmaSem sig := 91
abbrev cc6_sem11_0 : DmaSem sig := 92
abbrev cc6_sem11_1 : DmaSem sig := 93
abbrev cc7_sem0_0 : DmaSem sig := 94
abbrev cc7_sem0_1 : DmaSem sig := 95
abbrev cc7_sem1_0 : DmaSem sig := 96
abbrev cc7_sem1_1 : DmaSem sig := 97
abbrev cc7_sem2_0 : DmaSem sig := 98
abbrev cc7_sem3_0 : DmaSem sig := 99
abbrev cc7_sem4_0 : DmaSem sig := 100
abbrev cc7_sem5_0 : DmaSem sig := 101
abbrev cc7_sem6_0 : DmaSem sig := 102
abbrev cc7_sem7_0 : DmaSem sig := 103
abbrev cc7_sem8_0 : DmaSem sig := 104
abbrev cc7_sem9_0 : DmaSem sig := 105
abbrev cc7_sem10_0 : DmaSem sig := 106
abbrev cc7_sem11_0 : DmaSem sig := 107
abbrev cc7_sem12_0 : DmaSem sig := 108
abbrev cc7_sem13_0 : DmaSem sig := 109
abbrev cc7_sem14_0 : DmaSem sig := 110
abbrev cc7_sem15_0 : DmaSem sig := 111
abbrev cc7_sem15_1 : DmaSem sig := 112

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![80], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S5000x128 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S5000x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![80], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S128x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S128x128 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S1x128 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 2 → Memref sig .tc .vmem S5000x128 .f32 := fun | 0 => Memref.whole cc4_stg11_0 | 1 => Memref.whole cc4_stg11_1 | ⟨_ + 2, h⟩ => absurd h (Nat.not_lt.2 (Nat.le_add_left _ _))
abbrev sem4_11 : Fin 2 → DmaSem sig := fun | 0 => cc4_sem11_0 | 1 => cc4_sem11_1 | ⟨_ + 2, h⟩ => absurd h (Nat.not_lt.2 (Nat.le_add_left _ _))
abbrev reads4_11 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S128x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x128 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 2 → Memref sig .tc .vmem S5000x128 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

abbrev grid6 : Pipeline.Grid := ⟨1, ![80], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_10 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_11 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S128x128 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1x128 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 1 → Memref sig .tc .vmem S128x128 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false]

abbrev stage6_10 : Fin 1 → Memref sig .tc .vmem S1x128 .f32 := fun | 0 => Memref.whole cc6_stg10_0 | ⟨_ + 1, h⟩ => absurd h (Nat.not_lt.2 (Nat.le_add_left _ _))
abbrev sem6_10 : Fin 1 → DmaSem sig := fun | 0 => cc6_sem10_0 | ⟨_ + 1, h⟩ => absurd h (Nat.not_lt.2 (Nat.le_add_left _ _))
abbrev reads6_10 : Fin grid6.rank → Bool := ![false]

abbrev stage6_11 : Fin 2 → Memref sig .tc .vmem S5000x128 .f32 := fun | 0 => Memref.whole cc6_stg11_0 | 1 => Memref.whole cc6_stg11_1 | ⟨_ + 2, h⟩ => absurd h (Nat.not_lt.2 (Nat.le_add_left _ _))
abbrev sem6_11 : Fin 2 → DmaSem sig := fun | 0 => cc6_sem11_0 | 1 => cc6_sem11_1 | ⟨_ + 2, h⟩ => absurd h (Nat.not_lt.2 (Nat.le_add_left _ _))
abbrev reads6_11 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_9 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_10 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_11 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_12 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_13 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_14 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_15 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S128x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S128x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S128x128 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 1 → Memref sig .tc .vmem S1x128 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

abbrev stage7_9 : Fin 1 → Memref sig .tc .vmem S128x128 .f32 := fun | 0 => Memref.whole cc7_stg9_0 | ⟨_ + 1, h⟩ => absurd h (Nat.not_lt.2 (Nat.le_add_left _ _))
abbrev sem7_9 : Fin 1 → DmaSem sig := fun | 0 => cc7_sem9_0 | ⟨_ + 1, h⟩ => absurd h (Nat.not_lt.2 (Nat.le_add_left _ _))
abbrev reads7_9 : Fin grid7.rank → Bool := ![false]

abbrev stage7_10 : Fin 1 → Memref sig .tc .vmem S1x128 .f32 := fun | 0 => Memref.whole cc7_stg10_0 | ⟨_ + 1, h⟩ => absurd h (Nat.not_lt.2 (Nat.le_add_left _ _))
abbrev sem7_10 : Fin 1 → DmaSem sig := fun | 0 => cc7_sem10_0 | ⟨_ + 1, h⟩ => absurd h (Nat.not_lt.2 (Nat.le_add_left _ _))
abbrev reads7_10 : Fin grid7.rank → Bool := ![false]

abbrev stage7_11 : Fin 1 → Memref sig .tc .vmem S128x128 .f32 := fun | 0 => Memref.whole cc7_stg11_0 | ⟨_ + 1, h⟩ => absurd h (Nat.not_lt.2 (Nat.le_add_left _ _))
abbrev sem7_11 : Fin 1 → DmaSem sig := fun | 0 => cc7_sem11_0 | ⟨_ + 1, h⟩ => absurd h (Nat.not_lt.2 (Nat.le_add_left _ _))
abbrev reads7_11 : Fin grid7.rank → Bool := ![false]

abbrev stage7_12 : Fin 1 → Memref sig .tc .vmem S1x128 .f32 := fun | 0 => Memref.whole cc7_stg12_0 | ⟨_ + 1, h⟩ => absurd h (Nat.not_lt.2 (Nat.le_add_left _ _))
abbrev sem7_12 : Fin 1 → DmaSem sig := fun | 0 => cc7_sem12_0 | ⟨_ + 1, h⟩ => absurd h (Nat.not_lt.2 (Nat.le_add_left _ _))
abbrev reads7_12 : Fin grid7.rank → Bool := ![false]

abbrev stage7_13 : Fin 1 → Memref sig .tc .vmem S128x2 .f32 := fun | 0 => Memref.whole cc7_stg13_0 | ⟨_ + 1, h⟩ => absurd h (Nat.not_lt.2 (Nat.le_add_left _ _))
abbrev sem7_13 : Fin 1 → DmaSem sig := fun | 0 => cc7_sem13_0 | ⟨_ + 1, h⟩ => absurd h (Nat.not_lt.2 (Nat.le_add_left _ _))
abbrev reads7_13 : Fin grid7.rank → Bool := ![false]

abbrev stage7_14 : Fin 1 → Memref sig .tc .vmem S1x2 .f32 := fun | 0 => Memref.whole cc7_stg14_0 | ⟨_ + 1, h⟩ => absurd h (Nat.not_lt.2 (Nat.le_add_left _ _))
abbrev sem7_14 : Fin 1 → DmaSem sig := fun | 0 => cc7_sem14_0 | ⟨_ + 1, h⟩ => absurd h (Nat.not_lt.2 (Nat.le_add_left _ _))
abbrev reads7_14 : Fin grid7.rank → Bool := ![false]

abbrev stage7_15 : Fin 2 → Memref sig .tc .vmem S5000x2 .f32 := fun | 0 => Memref.whole cc7_stg15_0 | 1 => Memref.whole cc7_stg15_1 | ⟨_ + 2, h⟩ => absurd h (Nat.not_lt.2 (Nat.le_add_left _ _))
abbrev sem7_15 : Fin 2 → DmaSem sig := fun | 0 => cc7_sem15_0 | 1 => cc7_sem15_1 | ⟨_ + 2, h⟩ => absurd h (Nat.not_lt.2 (Nat.le_add_left _ _))
abbrev reads7_15 : Fin grid7.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  shapeCasts_S128_S1x128 : S128.ShapeCasts S1x128
  inb_S5000x4_S5000x4_0_0 : ∀ a, (![0, 0] : Fin 2 → Nat) a + S5000x4.size a ≤ S5000x4.size a
  h_S5000x4 : 0 < S5000x4.numel
  bitsLt_bf16_f32 : FTy.bits .bf16 < FTy.bits .f32
  inb_S4x128_S4x128_0_0 : ∀ a, (![0, 0] : Fin 2 → Nat) a + S4x128.size a ≤ S4x128.size a
  h_S4x128 : 0 < S4x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S5000x128_S5000x128_0_0 : ∀ a, (![0, 0] : Fin 2 → Nat) a + S5000x128.size a ≤ S5000x128.size a
  h_S5000x128 : 0 < S5000x128.numel
  inb_S5000x3_S5000x3_0_0 : ∀ a, (![0, 0] : Fin 2 → Nat) a + S5000x3.size a ≤ S5000x3.size a
  h_S5000x3 : 0 < S5000x3.numel
  inb_S3x128_S3x128_0_0 : ∀ a, (![0, 0] : Fin 2 → Nat) a + S3x128.size a ≤ S3x128.size a
  h_S3x128 : 0 < S3x128.numel
  bcast_S_S400000 : S_.BroadcastsInDim S400000 (![] : Fin 0 → Fin S400000.rank)
  bcast_S400000_S400000x1_0 : S400000.BroadcastsInDim S400000x1 (![0] : Fin 1 → Fin S400000x1.rank)
  bcast_S_S400000x1 : S_.BroadcastsInDim S400000x1 (![] : Fin 0 → Fin S400000x1.rank)
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  reducesTo_S400000x1_S400000_d1 : S400000x1.ReducesTo [1] S400000
  h_S_ : 0 < S_.numel
  bcast_S400000_S400000x128_0 : S400000.BroadcastsInDim S400000x128 (![0] : Fin 1 → Fin S400000x128.rank)
  bcast_S_S400000x128 : S_.BroadcastsInDim S400000x128 (![] : Fin 0 → Fin S400000x128.rank)
  slices_S3x384x128_S1x384x128_0_0_0 : S3x384x128.Slices ![0, 0, 0] S1x384x128
  shapeCasts_S1x384x128_S384x128 : S1x384x128.ShapeCasts S384x128
  slices_S384x128_S128x128_0_0 : S384x128.Slices ![0, 0] S128x128
  slices_S384x128_S128x128_128_0 : S384x128.Slices ![128, 0] S128x128
  slices_S384x128_S128x128_256_0 : S384x128.Slices ![256, 0] S128x128
  slices_S3x128_S1x128_0_0 : S3x128.Slices ![0, 0] S1x128
  shapeCasts_S1x128_S128 : S1x128.ShapeCasts S128
  slices_S3x128x128_S1x128x128_0_0_0 : S3x128x128.Slices ![0, 0, 0] S1x128x128
  shapeCasts_S1x128x128_S128x128 : S1x128x128.ShapeCasts S128x128
  shapeCasts_S5000x128_S5000x128 : S5000x128.ShapeCasts S5000x128
  shapeCasts_S128x128_S128x128 : S128x128.ShapeCasts S128x128
  bcast_S_S50000x128 : S_.BroadcastsInDim S50000x128 (![] : Fin 0 → Fin S50000x128.rank)
  slices_S3x256x128_S1x256x128_0_0_0 : S3x256x128.Slices ![0, 0, 0] S1x256x128
  shapeCasts_S1x256x128_S256x128 : S1x256x128.ShapeCasts S256x128
  slices_S256x128_S128x128_0_0 : S256x128.Slices ![0, 0] S128x128
  slices_S256x128_S128x128_128_0 : S256x128.Slices ![128, 0] S128x128
  slices_S3x384x128_S1x384x128_1_0_0 : S3x384x128.Slices ![1, 0, 0] S1x384x128
  slices_S3x128_S1x128_1_0 : S3x128.Slices ![1, 0] S1x128
  slices_S3x128x128_S1x128x128_1_0_0 : S3x128x128.Slices ![1, 0, 0] S1x128x128
  slices_S3x256x128_S1x256x128_1_0_0 : S3x256x128.Slices ![1, 0, 0] S1x256x128
  slices_S3x384x128_S1x384x128_2_0_0 : S3x384x128.Slices ![2, 0, 0] S1x384x128
  slices_S3x128_S1x128_2_0 : S3x128.Slices ![2, 0] S1x128
  slices_S3x128x128_S1x128x128_2_0_0 : S3x128x128.Slices ![2, 0, 0] S1x128x128
  slices_S3x256x128_S1x256x128_2_0_0 : S3x256x128.Slices ![2, 0, 0] S1x256x128
  shapeCasts_S2_S1x2 : S2.ShapeCasts S1x2
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  dot_S5000x4_S4x128_S5000x128_1_0_0_1_n_n_wf : DotDims.WF S5000x4 S4x128 S5000x128 [1] [0] [0] [1] [] []
  dot_S5000x128_S128x128_S5000x128_1_0_0_1_n_n_wf : DotDims.WF S5000x128 S128x128 S5000x128 [1] [0] [0] [1] [] []
  dot_S5000x3_S3x128_S5000x128_1_0_0_1_n_n_wf : DotDims.WF S5000x3 S3x128 S5000x128 [1] [0] [0] [1] [] []
  gather_S50000x128_S400000x1_S400000x128_1_0_n_n_0_1_1128_wf : GatherDims.WF S50000x128 S400000x1 S400000x128 [1] [0] [] [0] [] 1 ![1, 128]
  scatter_S50000x128_S400000x1_S400000x128_1_0_0_1_wf : ScatterDims.WF S50000x128 S400000x1 S400000x128 [1] [0] [0] 1
  dot_S5000x128_S128x2_S5000x2_1_0_0_1_n_n_wf : DotDims.WF S5000x128 S128x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x4.size a ≤ S50000x4.size a
  hwx0_0 : ∀ i : grid0.Coords, EltTy.bits .f32 = 32 ∨ (Rect.block (s := S50000x4) S5000x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x128.size a ≤ S4x128.size a
  hwx0_1 : ∀ i : grid0.Coords, EltTy.bits .f32 = 32 ∨ (Rect.block (s := S4x128) S4x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S50000x128.size a
  hwx0_7 : ∀ i : grid0.Coords, EltTy.bits .f32 = 32 ∨ (Rect.block (s := S50000x128) S5000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x3.size a ≤ S400000x3.size a
  hwx1_0 : ∀ i : grid1.Coords, EltTy.bits .f32 = 32 ∨ (Rect.block (s := S400000x3) S5000x3.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3x128.size a ≤ S3x128.size a
  hwx1_1 : ∀ i : grid1.Coords, EltTy.bits .f32 = 32 ∨ (Rect.block (s := S3x128) S3x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S400000x128.size a
  hwx1_7 : ∀ i : grid1.Coords, EltTy.bits .f32 = 32 ∨ (Rect.block (s := S400000x128) S5000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S400000x128.size a
  hwx2_0 : ∀ i : grid2.Coords, EltTy.bits .f32 = 32 ∨ (Rect.block (s := S400000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S400000x128.size a
  hwx2_1 : ∀ i : grid2.Coords, EltTy.bits .f32 = 32 ∨ (Rect.block (s := S400000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S400000x128.size a
  hwx2_2 : ∀ i : grid2.Coords, EltTy.bits .f32 = 32 ∨ (Rect.block (s := S400000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .f32 = 32 ∨ (Rect.block (s := S128x128) S128x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S128x128.size a ≤ S128x128.size a
  hwx2_9 : ∀ i : grid2.Coords, EltTy.bits .f32 = 32 ∨ (Rect.block (s := S128x128) S128x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x128.size a ≤ S1x128.size a
  hwx2_10 : ∀ i : grid2.Coords, EltTy.bits .f32 = 32 ∨ (Rect.block (s := S1x128) S1x128.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S5000x128.size a ≤ S400000x128.size a
  hwx2_11 : ∀ i : grid2.Coords, EltTy.bits .f32 = 32 ∨ (Rect.block (s := S400000x128) S5000x128.size (cc2_transform_11 i) (hinb2_11 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128x128.size a ≤ S128x128.size a
  hwx3_7 : ∀ i : grid3.Coords, EltTy.bits .f32 = 32 ∨ (Rect.block (s := S128x128) S128x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S5000x128.size a ≤ S50000x128.size a
  hwx3_9 : ∀ i : grid3.Coords, EltTy.bits .f32 = 32 ∨ (Rect.block (s := S50000x128) S5000x128.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S400000x128.size a
  hwx4_0 : ∀ i : grid4.Coords, EltTy.bits .f32 = 32 ∨ (Rect.block (s := S400000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S400000x128.size a
  hwx4_1 : ∀ i : grid4.Coords, EltTy.bits .f32 = 32 ∨ (Rect.block (s := S400000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S400000x128.size a
  hwx4_2 : ∀ i : grid4.Coords, EltTy.bits .f32 = 32 ∨ (Rect.block (s := S400000x128) S5000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S128x128.size a ≤ S128x128.size a
  hwx4_7 : ∀ i : grid4.Coords, EltTy.bits .f32 = 32 ∨ (Rect.block (s := S128x128) S128x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S128x128.size a ≤ S128x128.size a
  hwx4_9 : ∀ i : grid4.Coords, EltTy.bits .f32 = 32 ∨ (Rect.block (s := S128x128) S128x128.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S1x128.size a ≤ S1x128.size a
  hwx4_10 : ∀ i : grid4.Coords, EltTy.bits .f32 = 32 ∨ (Rect.block (s := S1x128) S1x128.size (cc4_transform_10 i) (hinb4_10 i)).WholeWords (EltTy.packing .f32)
  hstage4_11 : ∀ j, (stage4_11 j).IsWhole
  nbuf4_11 : grid4.bufCount reads4_11 false = 2
  hreads4_11 : ∀ i i' : grid4.Coords, (∀ a, reads4_11 a = true → i a = i' a) → cc4_transform_11 i = cc4_transform_11 i'
  hinb4_11 : ∀ (i : grid4.Coords) a, (cc4_transform_11 i a + 1) * S5000x128.size a ≤ S400000x128.size a
  hwx4_11 : ∀ i : grid4.Coords, EltTy.bits .f32 = 32 ∨ (Rect.block (s := S400000x128) S5000x128.size (cc4_transform_11 i) (hinb4_11 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x128.size a ≤ S128x128.size a
  hwx5_5 : ∀ i : grid5.Coords, EltTy.bits .f32 = 32 ∨ (Rect.block (s := S128x128) S128x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S128x128.size a ≤ S128x128.size a
  hwx5_7 : ∀ i : grid5.Coords, EltTy.bits .f32 = 32 ∨ (Rect.block (s := S128x128) S128x128.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x128.size a ≤ S1x128.size a
  hwx5_8 : ∀ i : grid5.Coords, EltTy.bits .f32 = 32 ∨ (Rect.block (s := S1x128) S1x128.size (cc5_transform_8 i) (hinb5_8 i)).WholeWords (EltTy.packing .f32)
  hstage5_9 : ∀ j, (stage5_9 j).IsWhole
  nbuf5_9 : grid5.bufCount reads5_9 false = 2
  hreads5_9 : ∀ i i' : grid5.Coords, (∀ a, reads5_9 a = true → i a = i' a) → cc5_transform_9 i = cc5_transform_9 i'
  hinb5_9 : ∀ (i : grid5.Coords) a, (cc5_transform_9 i a + 1) * S5000x128.size a ≤ S50000x128.size a
  hwx5_9 : ∀ i : grid5.Coords, EltTy.bits .f32 = 32 ∨ (Rect.block (s := S50000x128) S5000x128.size (cc5_transform_9 i) (hinb5_9 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S400000x128.size a
  hwx6_0 : ∀ i : grid6.Coords, EltTy.bits .f32 = 32 ∨ (Rect.block (s := S400000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S400000x128.size a
  hwx6_1 : ∀ i : grid6.Coords, EltTy.bits .f32 = 32 ∨ (Rect.block (s := S400000x128) S5000x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S400000x128.size a
  hwx6_2 : ∀ i : grid6.Coords, EltTy.bits .f32 = 32 ∨ (Rect.block (s := S400000x128) S5000x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x128.size a ≤ S128x128.size a
  hwx6_3 : ∀ i : grid6.Coords, EltTy.bits .f32 = 32 ∨ (Rect.block (s := S128x128) S128x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128x128.size a ≤ S128x128.size a
  hwx6_4 : ∀ i : grid6.Coords, EltTy.bits .f32 = 32 ∨ (Rect.block (s := S128x128) S128x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128x128.size a ≤ S128x128.size a
  hwx6_5 : ∀ i : grid6.Coords, EltTy.bits .f32 = 32 ∨ (Rect.block (s := S128x128) S128x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x128.size a ≤ S1x128.size a
  hwx6_6 : ∀ i : grid6.Coords, EltTy.bits .f32 = 32 ∨ (Rect.block (s := S1x128) S1x128.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S128x128.size a ≤ S128x128.size a
  hwx6_7 : ∀ i : grid6.Coords, EltTy.bits .f32 = 32 ∨ (Rect.block (s := S128x128) S128x128.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S1x128.size a ≤ S1x128.size a
  hwx6_8 : ∀ i : grid6.Coords, EltTy.bits .f32 = 32 ∨ (Rect.block (s := S1x128) S1x128.size (cc6_transform_8 i) (hinb6_8 i)).WholeWords (EltTy.packing .f32)
  hstage6_9 : ∀ j, (stage6_9 j).IsWhole
  nbuf6_9 : grid6.bufCount reads6_9 true = 1
  hreads6_9 : ∀ i i' : grid6.Coords, (∀ a, reads6_9 a = true → i a = i' a) → cc6_transform_9 i = cc6_transform_9 i'
  hinb6_9 : ∀ (i : grid6.Coords) a, (cc6_transform_9 i a + 1) * S128x128.size a ≤ S128x128.size a
  hwx6_9 : ∀ i : grid6.Coords, EltTy.bits .f32 = 32 ∨ (Rect.block (s := S128x128) S128x128.size (cc6_transform_9 i) (hinb6_9 i)).WholeWords (EltTy.packing .f32)
  hstage6_10 : ∀ j, (stage6_10 j).IsWhole
  nbuf6_10 : grid6.bufCount reads6_10 true = 1
  hreads6_10 : ∀ i i' : grid6.Coords, (∀ a, reads6_10 a = true → i a = i' a) → cc6_transform_10 i = cc6_transform_10 i'
  hinb6_10 : ∀ (i : grid6.Coords) a, (cc6_transform_10 i a + 1) * S1x128.size a ≤ S1x128.size a
  hwx6_10 : ∀ i : grid6.Coords, EltTy.bits .f32 = 32 ∨ (Rect.block (s := S1x128) S1x128.size (cc6_transform_10 i) (hinb6_10 i)).WholeWords (EltTy.packing .f32)
  hstage6_11 : ∀ j, (stage6_11 j).IsWhole
  nbuf6_11 : grid6.bufCount reads6_11 false = 2
  hreads6_11 : ∀ i i' : grid6.Coords, (∀ a, reads6_11 a = true → i a = i' a) → cc6_transform_11 i = cc6_transform_11 i'
  hinb6_11 : ∀ (i : grid6.Coords) a, (cc6_transform_11 i a + 1) * S5000x128.size a ≤ S400000x128.size a
  hwx6_11 : ∀ i : grid6.Coords, EltTy.bits .f32 = 32 ∨ (Rect.block (s := S400000x128) S5000x128.size (cc6_transform_11 i) (hinb6_11 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S50000x128.size a
  hwx7_1 : ∀ i : grid7.Coords, EltTy.bits .f32 = 32 ∨ (Rect.block (s := S50000x128) S5000x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x128.size a ≤ S128x128.size a
  hwx7_2 : ∀ i : grid7.Coords, EltTy.bits .f32 = 32 ∨ (Rect.block (s := S128x128) S128x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x128.size a ≤ S128x128.size a
  hwx7_3 : ∀ i : grid7.Coords, EltTy.bits .f32 = 32 ∨ (Rect.block (s := S128x128) S128x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S128x128.size a ≤ S128x128.size a
  hwx7_5 : ∀ i : grid7.Coords, EltTy.bits .f32 = 32 ∨ (Rect.block (s := S128x128) S128x128.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x128.size a ≤ S1x128.size a
  hwx7_6 : ∀ i : grid7.Coords, EltTy.bits .f32 = 32 ∨ (Rect.block (s := S1x128) S1x128.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S128x128.size a ≤ S128x128.size a
  hwx7_7 : ∀ i : grid7.Coords, EltTy.bits .f32 = 32 ∨ (Rect.block (s := S128x128) S128x128.size (cc7_transform_7 i) (hinb7_7 i)).WholeWords (EltTy.packing .f32)
  hstage7_8 : ∀ j, (stage7_8 j).IsWhole
  nbuf7_8 : grid7.bufCount reads7_8 true = 1
  hreads7_8 : ∀ i i' : grid7.Coords, (∀ a, reads7_8 a = true → i a = i' a) → cc7_transform_8 i = cc7_transform_8 i'
  hinb7_8 : ∀ (i : grid7.Coords) a, (cc7_transform_8 i a + 1) * S1x128.size a ≤ S1x128.size a
  hwx7_8 : ∀ i : grid7.Coords, EltTy.bits .f32 = 32 ∨ (Rect.block (s := S1x128) S1x128.size (cc7_transform_8 i) (hinb7_8 i)).WholeWords (EltTy.packing .f32)
  hstage7_9 : ∀ j, (stage7_9 j).IsWhole
  nbuf7_9 : grid7.bufCount reads7_9 true = 1
  hreads7_9 : ∀ i i' : grid7.Coords, (∀ a, reads7_9 a = true → i a = i' a) → cc7_transform_9 i = cc7_transform_9 i'
  hinb7_9 : ∀ (i : grid7.Coords) a, (cc7_transform_9 i a + 1) * S128x128.size a ≤ S128x128.size a
  hwx7_9 : ∀ i : grid7.Coords, EltTy.bits .f32 = 32 ∨ (Rect.block (s := S128x128) S128x128.size (cc7_transform_9 i) (hinb7_9 i)).WholeWords (EltTy.packing .f32)
  hstage7_10 : ∀ j, (stage7_10 j).IsWhole
  nbuf7_10 : grid7.bufCount reads7_10 true = 1
  hreads7_10 : ∀ i i' : grid7.Coords, (∀ a, reads7_10 a = true → i a = i' a) → cc7_transform_10 i = cc7_transform_10 i'
  hinb7_10 : ∀ (i : grid7.Coords) a, (cc7_transform_10 i a + 1) * S1x128.size a ≤ S1x128.size a
  hwx7_10 : ∀ i : grid7.Coords, EltTy.bits .f32 = 32 ∨ (Rect.block (s := S1x128) S1x128.size (cc7_transform_10 i) (hinb7_10 i)).WholeWords (EltTy.packing .f32)
  hstage7_11 : ∀ j, (stage7_11 j).IsWhole
  nbuf7_11 : grid7.bufCount reads7_11 true = 1
  hreads7_11 : ∀ i i' : grid7.Coords, (∀ a, reads7_11 a = true → i a = i' a) → cc7_transform_11 i = cc7_transform_11 i'
  hinb7_11 : ∀ (i : grid7.Coords) a, (cc7_transform_11 i a + 1) * S128x128.size a ≤ S128x128.size a
  hwx7_11 : ∀ i : grid7.Coords, EltTy.bits .f32 = 32 ∨ (Rect.block (s := S128x128) S128x128.size (cc7_transform_11 i) (hinb7_11 i)).WholeWords (EltTy.packing .f32)
  hstage7_12 : ∀ j, (stage7_12 j).IsWhole
  nbuf7_12 : grid7.bufCount reads7_12 true = 1
  hreads7_12 : ∀ i i' : grid7.Coords, (∀ a, reads7_12 a = true → i a = i' a) → cc7_transform_12 i = cc7_transform_12 i'
  hinb7_12 : ∀ (i : grid7.Coords) a, (cc7_transform_12 i a + 1) * S1x128.size a ≤ S1x128.size a
  hwx7_12 : ∀ i : grid7.Coords, EltTy.bits .f32 = 32 ∨ (Rect.block (s := S1x128) S1x128.size (cc7_transform_12 i) (hinb7_12 i)).WholeWords (EltTy.packing .f32)
  hstage7_13 : ∀ j, (stage7_13 j).IsWhole
  nbuf7_13 : grid7.bufCount reads7_13 true = 1
  hreads7_13 : ∀ i i' : grid7.Coords, (∀ a, reads7_13 a = true → i a = i' a) → cc7_transform_13 i = cc7_transform_13 i'
  hinb7_13 : ∀ (i : grid7.Coords) a, (cc7_transform_13 i a + 1) * S128x2.size a ≤ S128x2.size a
  hwx7_13 : ∀ i : grid7.Coords, EltTy.bits .f32 = 32 ∨ (Rect.block (s := S128x2) S128x2.size (cc7_transform_13 i) (hinb7_13 i)).WholeWords (EltTy.packing .f32)
  hstage7_14 : ∀ j, (stage7_14 j).IsWhole
  nbuf7_14 : grid7.bufCount reads7_14 true = 1
  hreads7_14 : ∀ i i' : grid7.Coords, (∀ a, reads7_14 a = true → i a = i' a) → cc7_transform_14 i = cc7_transform_14 i'
  hinb7_14 : ∀ (i : grid7.Coords) a, (cc7_transform_14 i a + 1) * S1x2.size a ≤ S1x2.size a
  hwx7_14 : ∀ i : grid7.Coords, EltTy.bits .f32 = 32 ∨ (Rect.block (s := S1x2) S1x2.size (cc7_transform_14 i) (hinb7_14 i)).WholeWords (EltTy.packing .f32)
  hstage7_15 : ∀ j, (stage7_15 j).IsWhole
  nbuf7_15 : grid7.bufCount reads7_15 false = 2
  hreads7_15 : ∀ i i' : grid7.Coords, (∀ a, reads7_15 a = true → i a = i' a) → cc7_transform_15 i = cc7_transform_15 i'
  hinb7_15 : ∀ (i : grid7.Coords) a, (cc7_transform_15 i a + 1) * S5000x2.size a ≤ S50000x2.size a
  hwx7_15 : ∀ i : grid7.Coords, EltTy.bits .f32 = 32 ∨ (Rect.block (s := S50000x2) S5000x2.size (cc7_transform_15 i) (hinb7_15 i)).WholeWords (EltTy.packing .f32)

variable [Facts₀]

def dot_S5000x4_S4x128_S5000x128_1_0_0_1_n_n : DotDims S5000x4 S4x128 S5000x128 where
  lhsContracting := [1]
  rhsContracting := [0]
  lhsNonContracting := [0]
  rhsNonContracting := [1]
  lhsBatch := []
  rhsBatch := []
  wf := dot_S5000x4_S4x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x3_S3x128_S5000x128_1_0_0_1_n_n : DotDims S5000x3 S3x128 S5000x128 where
  lhsContracting := [1]
  rhsContracting := [0]
  lhsNonContracting := [0]
  rhsNonContracting := [1]
  lhsBatch := []
  rhsBatch := []
  wf := dot_S5000x3_S3x128_S5000x128_1_0_0_1_n_n_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf

abbrev win0_0 : Pipeline.Window sig grid0 :=
  Pipeline.Window.ofSpec (Memref.whole main_arg0) S5000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S4x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg1) S5000x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg9) S3x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg13) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v10) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v11) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v12) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v16) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v17) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v18) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v29) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v22) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v30) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v26) S128x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v31) S1x128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v32) S5000x128.size cc2_transform_11 reads2_11 true false 2 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

abbrev win3_0 : Pipeline.Window sig grid3 :=
  Pipeline.Window.ofSpec (Memref.whole main_v7) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v35) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v38) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v39) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v50) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v43) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v51) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v47) S128x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v52) S1x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v53) S5000x128.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v54) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v55) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v32) S5000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v58) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v59) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v60) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v71) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v64) S128x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v72) S1x128.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v68) S128x128.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v73) S1x128.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_v74) S5000x128.size cc4_transform_11 reads4_11 true false 2 stage4_11 sem4_11
    hrank4 hreads4_11 hinb4_11 nbuf4_11 (Memref.isWhole_whole _) hwx4_11 hstage4_11

abbrev win4 : Fin 12 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | ⟨_ + 12, h⟩ => absurd h (Nat.not_lt.2 (Nat.le_add_left _ _))
abbrev spec4 : Fin 12 → Pipeline.WinSpec sig grid4.rank := fun w => (win4 w).toWinSpec

abbrev win5_0 : Pipeline.Window sig grid5 :=
  Pipeline.Window.ofSpec (Memref.whole main_v53) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v77) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v80) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v81) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v92) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v85) S128x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v93) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v89) S128x128.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v94) S1x128.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v95) S5000x128.size cc5_transform_9 reads5_9 true false 2 stage5_9 sem5_9
    hrank5 hreads5_9 hinb5_9 nbuf5_9 (Memref.isWhole_whole _) hwx5_9 hstage5_9

abbrev win5 : Fin 10 → Pipeline.Window sig grid5 := fun | 0 => win5_0 | 1 => win5_1 | 2 => win5_2 | 3 => win5_3 | 4 => win5_4 | 5 => win5_5 | 6 => win5_6 | 7 => win5_7 | 8 => win5_8 | 9 => win5_9 | ⟨_ + 10, h⟩ => absurd h (Nat.not_lt.2 (Nat.le_add_left _ _))
abbrev spec5 : Fin 10 → Pipeline.WinSpec sig grid5.rank := fun w => (win5 w).toWinSpec

abbrev win6_0 : Pipeline.Window sig grid6 :=
  Pipeline.Window.ofSpec (Memref.whole main_v96) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v97) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v74) S5000x128.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v100) S128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v101) S128x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v102) S128x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v113) S1x128.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v106) S128x128.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v114) S1x128.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_v110) S128x128.size cc6_transform_9 reads6_9 false true 1 stage6_9 sem6_9
    hrank6 hreads6_9 hinb6_9 nbuf6_9 (Memref.isWhole_whole _) hwx6_9 hstage6_9

abbrev win6_10 : Pipeline.Window sig grid6 :=
  Pipeline.Window.ofSpec (Memref.whole main_v115) S1x128.size cc6_transform_10 reads6_10 false true 1 stage6_10 sem6_10
    hrank6 hreads6_10 hinb6_10 nbuf6_10 (Memref.isWhole_whole _) hwx6_10 hstage6_10

abbrev win6_11 : Pipeline.Window sig grid6 :=
  Pipeline.Window.ofSpec (Memref.whole main_v116) S5000x128.size cc6_transform_11 reads6_11 true false 2 stage6_11 sem6_11
    hrank6 hreads6_11 hinb6_11 nbuf6_11 (Memref.isWhole_whole _) hwx6_11 hstage6_11

abbrev win6 : Fin 12 → Pipeline.Window sig grid6 := fun | 0 => win6_0 | 1 => win6_1 | 2 => win6_2 | 3 => win6_3 | 4 => win6_4 | 5 => win6_5 | 6 => win6_6 | 7 => win6_7 | 8 => win6_8 | 9 => win6_9 | 10 => win6_10 | 11 => win6_11 | ⟨_ + 12, h⟩ => absurd h (Nat.not_lt.2 (Nat.le_add_left _ _))
abbrev spec6 : Fin 12 → Pipeline.WinSpec sig grid6.rank := fun w => (win6 w).toWinSpec

abbrev win7_0 : Pipeline.Window sig grid7 :=
  Pipeline.Window.ofSpec (Memref.whole main_v95) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v119) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v122) S128x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v123) S128x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v134) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v127) S128x128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v135) S1x128.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v131) S128x128.size cc7_transform_7 reads7_7 false true 1 stage7_7 sem7_7
    hrank7 hreads7_7 hinb7_7 nbuf7_7 (Memref.isWhole_whole _) hwx7_7 hstage7_7

abbrev win7_8 : Pipeline.Window sig grid7 :=
  Pipeline.Window.ofSpec (Memref.whole main_v136) S1x128.size cc7_transform_8 reads7_8 false true 1 stage7_8 sem7_8
    hrank7 hreads7_8 hinb7_8 nbuf7_8 (Memref.isWhole_whole _) hwx7_8 hstage7_8

abbrev win7_9 : Pipeline.Window sig grid7 :=
  Pipeline.Window.ofSpec (Memref.whole main_arg27) S128x128.size cc7_transform_9 reads7_9 false true 1 stage7_9 sem7_9
    hrank7 hreads7_9 hinb7_9 nbuf7_9 (Memref.isWhole_whole _) hwx7_9 hstage7_9

abbrev win7_10 : Pipeline.Window sig grid7 :=
  Pipeline.Window.ofSpec (Memref.whole main_v137) S1x128.size cc7_transform_10 reads7_10 false true 1 stage7_10 sem7_10
    hrank7 hreads7_10 hinb7_10 nbuf7_10 (Memref.isWhole_whole _) hwx7_10 hstage7_10

abbrev win7_11 : Pipeline.Window sig grid7 :=
  Pipeline.Window.ofSpec (Memref.whole main_arg29) S128x128.size cc7_transform_11 reads7_11 false true 1 stage7_11 sem7_11
    hrank7 hreads7_11 hinb7_11 nbuf7_11 (Memref.isWhole_whole _) hwx7_11 hstage7_11

abbrev win7_12 : Pipeline.Window sig grid7 :=
  Pipeline.Window.ofSpec (Memref.whole main_v138) S1x128.size cc7_transform_12 reads7_12 false true 1 stage7_12 sem7_12
    hrank7 hreads7_12 hinb7_12 nbuf7_12 (Memref.isWhole_whole _) hwx7_12 hstage7_12

abbrev win7_13 : Pipeline.Window sig grid7 :=
  Pipeline.Window.ofSpec (Memref.whole main_arg31) S128x2.size cc7_transform_13 reads7_13 false true 1 stage7_13 sem7_13
    hrank7 hreads7_13 hinb7_13 nbuf7_13 (Memref.isWhole_whole _) hwx7_13 hstage7_13

abbrev win7_14 : Pipeline.Window sig grid7 :=
  Pipeline.Window.ofSpec (Memref.whole main_v139) S1x2.size cc7_transform_14 reads7_14 false true 1 stage7_14 sem7_14
    hrank7 hreads7_14 hinb7_14 nbuf7_14 (Memref.isWhole_whole _) hwx7_14 hstage7_14

abbrev win7_15 : Pipeline.Window sig grid7 :=
  Pipeline.Window.ofSpec (Memref.whole main_v140) S5000x2.size cc7_transform_15 reads7_15 true false 2 stage7_15 sem7_15
    hrank7 hreads7_15 hinb7_15 nbuf7_15 (Memref.isWhole_whole _) hwx7_15 hstage7_15

abbrev win7 : Fin 16 → Pipeline.Window sig grid7 := fun | 0 => win7_0 | 1 => win7_1 | 2 => win7_2 | 3 => win7_3 | 4 => win7_4 | 5 => win7_5 | 6 => win7_6 | 7 => win7_7 | 8 => win7_8 | 9 => win7_9 | 10 => win7_10 | 11 => win7_11 | 12 => win7_12 | 13 => win7_13 | 14 => win7_14 | 15 => win7_15 | ⟨_ + 16, h⟩ => absurd h (Nat.not_lt.2 (Nat.le_add_left _ _))
abbrev spec7 : Fin 16 → Pipeline.WinSpec sig grid7.rank := fun w => (win7 w).toWinSpec

class Facts : Prop extends Facts₀ where

variable [Facts]
-- ==== ReferenceIdeal.lean ====
abbrev S50000x4 : Shape := ⟨2, ![50000, 4]⟩
abbrev S400000x3 : Shape := ⟨2, ![400000, 3]⟩
abbrev S2x400000 : Shape := ⟨2, ![2, 400000]⟩
abbrev S4x128 : Shape := ⟨2, ![4, 128]⟩
abbrev S128 : Shape := ⟨1, ![128]⟩
abbrev S128x128 : Shape := ⟨2, ![128, 128]⟩
abbrev S3x128 : Shape := ⟨2, ![3, 128]⟩
abbrev S3x384x128 : Shape := ⟨3, ![3, 384, 128]⟩
abbrev S3x128x128 : Shape := ⟨3, ![3, 128, 128]⟩
abbrev S3x256x128 : Shape := ⟨3, ![3, 256, 128]⟩
abbrev S128x2 : Shape := ⟨2, ![128, 2]⟩
abbrev S2 : Shape := ⟨1, ![2]⟩
abbrev S1x400000 : Shape := ⟨2, ![1, 400000]⟩
abbrev S400000 : Shape := ⟨1, ![400000]⟩
abbrev S50000x128 : Shape := ⟨2, ![50000, 128]⟩
abbrev S1x128 : Shape := ⟨2, ![1, 128]⟩
abbrev S_ : Shape := ⟨0, ![]⟩
abbrev S400000x128 : Shape := ⟨2, ![400000, 128]⟩
abbrev S400000x1 : Shape := ⟨2, ![400000, 1]⟩
abbrev S400000x384 : Shape := ⟨2, ![400000, 384]⟩
abbrev S1x384x128 : Shape := ⟨3, ![1, 384, 128]⟩
abbrev S384x128 : Shape := ⟨2, ![384, 128]⟩
abbrev S1x128x128 : Shape := ⟨3, ![1, 128, 128]⟩
abbrev S50000x256 : Shape := ⟨2, ![50000, 256]⟩
abbrev S1x256x128 : Shape := ⟨3, ![1, 256, 128]⟩
abbrev S256x128 : Shape := ⟨2, ![256, 128]⟩
abbrev S50000x2 : Shape := ⟨2, ![50000, 2]⟩
abbrev S1x2 : Shape := ⟨2, ![1, 2]⟩

abbrev nBuf : Space → Nat
  | .hbm => 349
  | .vmem => 0
  | .smem => 0
  | _ => 0

abbrev hbmTy0_0 (i : Nat) : BufTy := match i % 128 with
  | 0 => ⟨S50000x4, .f32⟩
  | 1 => ⟨S400000x3, .f32⟩
  | 2 => ⟨S2x400000, .i32⟩
  | 3 => ⟨S4x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S3x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S3x384x128, .f32⟩
  | 16 => ⟨S3x128, .f32⟩
  | 17 => ⟨S3x128x128, .f32⟩
  | 18 => ⟨S3x128, .f32⟩
  | 19 => ⟨S3x128x128, .f32⟩
  | 20 => ⟨S3x128, .f32⟩
  | 21 => ⟨S3x256x128, .f32⟩
  | 22 => ⟨S3x128, .f32⟩
  | 23 => ⟨S3x128x128, .f32⟩
  | 24 => ⟨S3x128, .f32⟩
  | 25 => ⟨S3x128x128, .f32⟩
  | 26 => ⟨S3x128, .f32⟩
  | 27 => ⟨S128x128, .f32⟩
  | 28 => ⟨S128, .f32⟩
  | 29 => ⟨S128x128, .f32⟩
  | 30 => ⟨S128, .f32⟩
  | 31 => ⟨S128x2, .f32⟩
  | 32 => ⟨S2, .f32⟩
  | 33 => ⟨S1x400000, .i32⟩
  | 34 => ⟨S400000, .i32⟩
  | 35 => ⟨S1x400000, .i32⟩
  | 36 => ⟨S400000, .i32⟩
  | 37 => ⟨S50000x128, .f32⟩
  | 38 => ⟨S1x128, .f32⟩
  | 39 => ⟨S50000x128, .f32⟩
  | 40 => ⟨S50000x128, .f32⟩
  | 41 => ⟨S_, .f32⟩
  | 42 => ⟨S50000x128, .f32⟩
  | 43 => ⟨S50000x128, .f32⟩
  | 44 => ⟨S50000x128, .f32⟩
  | 45 => ⟨S1x128, .f32⟩
  | 46 => ⟨S50000x128, .f32⟩
  | 47 => ⟨S50000x128, .f32⟩
  | 48 => ⟨S_, .f32⟩
  | 49 => ⟨S50000x128, .f32⟩
  | 50 => ⟨S50000x128, .f32⟩
  | 51 => ⟨S50000x128, .f32⟩
  | 52 => ⟨S1x128, .f32⟩
  | 53 => ⟨S50000x128, .f32⟩
  | 54 => ⟨S50000x128, .f32⟩
  | 55 => ⟨S400000x128, .f32⟩
  | 56 => ⟨S1x128, .f32⟩
  | 57 => ⟨S400000x128, .f32⟩
  | 58 => ⟨S400000x128, .f32⟩
  | 59 => ⟨S_, .f32⟩
  | 60 => ⟨S400000x128, .f32⟩
  | 61 => ⟨S400000x128, .f32⟩
  | 62 => ⟨S400000x128, .f32⟩
  | 63 => ⟨S1x128, .f32⟩
  | 64 => ⟨S400000x128, .f32⟩
  | 65 => ⟨S400000x128, .f32⟩
  | 66 => ⟨S_, .f32⟩
  | 67 => ⟨S400000x128, .f32⟩
  | 68 => ⟨S400000x128, .f32⟩
  | 69 => ⟨S400000x128, .f32⟩
  | 70 => ⟨S1x128, .f32⟩
  | 71 => ⟨S400000x128, .f32⟩
  | 72 => ⟨S400000x128, .f32⟩
  | 73 => ⟨S_, .i32⟩
  | 74 => ⟨S400000, .i32⟩
  | 75 => ⟨S400000, .i1⟩
  | 76 => ⟨S_, .i32⟩
  | 77 => ⟨S400000, .i32⟩
  | 78 => ⟨S400000, .i32⟩
  | 79 => ⟨S400000, .i32⟩
  | 80 => ⟨S400000x1, .i32⟩
  | 81 => ⟨S400000x128, .f32⟩
  | 82 => ⟨S_, .i32⟩
  | 83 => ⟨S400000, .i32⟩
  | 84 => ⟨S400000, .i1⟩
  | 85 => ⟨S_, .i32⟩
  | 86 => ⟨S400000, .i32⟩
  | 87 => ⟨S400000, .i32⟩
  | 88 => ⟨S400000, .i32⟩
  | 89 => ⟨S400000x1, .i32⟩
  | 90 => ⟨S400000x128, .f32⟩
  | 91 => ⟨S400000x384, .f32⟩
  | 92 => ⟨S1x384x128, .f32⟩
  | 93 => ⟨S384x128, .f32⟩
  | 94 => ⟨S1x128, .f32⟩
  | 95 => ⟨S128, .f32⟩
  | 96 => ⟨S1x128x128, .f32⟩
  | 97 => ⟨S128x128, .f32⟩
  | 98 => ⟨S1x128, .f32⟩
  | 99 => ⟨S128, .f32⟩
  | 100 => ⟨S1x128x128, .f32⟩
  | 101 => ⟨S128x128, .f32⟩
  | 102 => ⟨S1x128, .f32⟩
  | 103 => ⟨S128, .f32⟩
  | 104 => ⟨S400000x128, .f32⟩
  | 105 => ⟨S1x128, .f32⟩
  | 106 => ⟨S400000x128, .f32⟩
  | 107 => ⟨S400000x128, .f32⟩
  | 108 => ⟨S_, .f32⟩
  | 109 => ⟨S400000x128, .f32⟩
  | 110 => ⟨S400000x128, .f32⟩
  | 111 => ⟨S400000x128, .f32⟩
  | 112 => ⟨S1x128, .f32⟩
  | 113 => ⟨S400000x128, .f32⟩
  | 114 => ⟨S400000x128, .f32⟩
  | 115 => ⟨S_, .f32⟩
  | 116 => ⟨S400000x128, .f32⟩
  | 117 => ⟨S400000x128, .f32⟩
  | 118 => ⟨S400000x128, .f32⟩
  | 119 => ⟨S1x128, .f32⟩
  | 120 => ⟨S400000x128, .f32⟩
  | 121 => ⟨S400000x128, .f32⟩
  | 122 => ⟨S400000x128, .f32⟩
  | 123 => ⟨S_, .f32⟩
  | 124 => ⟨S50000x128, .f32⟩
  | 125 => ⟨S400000x1, .i32⟩
  | 126 => ⟨S50000x128, .f32⟩
  | 127 => ⟨S50000x256, .f32⟩
  | _ => ⟨S50000x4, .f32⟩

abbrev hbmTy0_1 (i : Nat) : BufTy := match i % 128 with
  | 0 => ⟨S1x256x128, .f32⟩
  | 1 => ⟨S256x128, .f32⟩
  | 2 => ⟨S1x128, .f32⟩
  | 3 => ⟨S128, .f32⟩
  | 4 => ⟨S1x128x128, .f32⟩
  | 5 => ⟨S128x128, .f32⟩
  | 6 => ⟨S1x128, .f32⟩
  | 7 => ⟨S128, .f32⟩
  | 8 => ⟨S1x128x128, .f32⟩
  | 9 => ⟨S128x128, .f32⟩
  | 10 => ⟨S1x128, .f32⟩
  | 11 => ⟨S128, .f32⟩
  | 12 => ⟨S50000x128, .f32⟩
  | 13 => ⟨S1x128, .f32⟩
  | 14 => ⟨S50000x128, .f32⟩
  | 15 => ⟨S50000x128, .f32⟩
  | 16 => ⟨S_, .f32⟩
  | 17 => ⟨S50000x128, .f32⟩
  | 18 => ⟨S50000x128, .f32⟩
  | 19 => ⟨S50000x128, .f32⟩
  | 20 => ⟨S1x128, .f32⟩
  | 21 => ⟨S50000x128, .f32⟩
  | 22 => ⟨S50000x128, .f32⟩
  | 23 => ⟨S_, .f32⟩
  | 24 => ⟨S50000x128, .f32⟩
  | 25 => ⟨S50000x128, .f32⟩
  | 26 => ⟨S50000x128, .f32⟩
  | 27 => ⟨S1x128, .f32⟩
  | 28 => ⟨S50000x128, .f32⟩
  | 29 => ⟨S50000x128, .f32⟩
  | 30 => ⟨S50000x128, .f32⟩
  | 31 => ⟨S_, .i32⟩
  | 32 => ⟨S400000, .i32⟩
  | 33 => ⟨S400000, .i1⟩
  | 34 => ⟨S_, .i32⟩
  | 35 => ⟨S400000, .i32⟩
  | 36 => ⟨S400000, .i32⟩
  | 37 => ⟨S400000, .i32⟩
  | 38 => ⟨S400000x1, .i32⟩
  | 39 => ⟨S400000x128, .f32⟩
  | 40 => ⟨S_, .i32⟩
  | 41 => ⟨S400000, .i32⟩
  | 42 => ⟨S400000, .i1⟩
  | 43 => ⟨S_, .i32⟩
  | 44 => ⟨S400000, .i32⟩
  | 45 => ⟨S400000, .i32⟩
  | 46 => ⟨S400000, .i32⟩
  | 47 => ⟨S400000x1, .i32⟩
  | 48 => ⟨S400000x128, .f32⟩
  | 49 => ⟨S400000x384, .f32⟩
  | 50 => ⟨S1x384x128, .f32⟩
  | 51 => ⟨S384x128, .f32⟩
  | 52 => ⟨S1x128, .f32⟩
  | 53 => ⟨S128, .f32⟩
  | 54 => ⟨S1x128x128, .f32⟩
  | 55 => ⟨S128x128, .f32⟩
  | 56 => ⟨S1x128, .f32⟩
  | 57 => ⟨S128, .f32⟩
  | 58 => ⟨S1x128x128, .f32⟩
  | 59 => ⟨S128x128, .f32⟩
  | 60 => ⟨S1x128, .f32⟩
  | 61 => ⟨S128, .f32⟩
  | 62 => ⟨S400000x128, .f32⟩
  | 63 => ⟨S1x128, .f32⟩
  | 64 => ⟨S400000x128, .f32⟩
  | 65 => ⟨S400000x128, .f32⟩
  | 66 => ⟨S_, .f32⟩
  | 67 => ⟨S400000x128, .f32⟩
  | 68 => ⟨S400000x128, .f32⟩
  | 69 => ⟨S400000x128, .f32⟩
  | 70 => ⟨S1x128, .f32⟩
  | 71 => ⟨S400000x128, .f32⟩
  | 72 => ⟨S400000x128, .f32⟩
  | 73 => ⟨S_, .f32⟩
  | 74 => ⟨S400000x128, .f32⟩
  | 75 => ⟨S400000x128, .f32⟩
  | 76 => ⟨S400000x128, .f32⟩
  | 77 => ⟨S1x128, .f32⟩
  | 78 => ⟨S400000x128, .f32⟩
  | 79 => ⟨S400000x128, .f32⟩
  | 80 => ⟨S400000x128, .f32⟩
  | 81 => ⟨S_, .f32⟩
  | 82 => ⟨S50000x128, .f32⟩
  | 83 => ⟨S400000x1, .i32⟩
  | 84 => ⟨S50000x128, .f32⟩
  | 85 => ⟨S50000x256, .f32⟩
  | 86 => ⟨S1x256x128, .f32⟩
  | 87 => ⟨S256x128, .f32⟩
  | 88 => ⟨S1x128, .f32⟩
  | 89 => ⟨S128, .f32⟩
  | 90 => ⟨S1x128x128, .f32⟩
  | 91 => ⟨S128x128, .f32⟩
  | 92 => ⟨S1x128, .f32⟩
  | 93 => ⟨S128, .f32⟩
  | 94 => ⟨S1x128x128, .f32⟩
  | 95 => ⟨S128x128, .f32⟩
  | 96 => ⟨S1x128, .f32⟩
  | 97 => ⟨S128, .f32⟩
  | 98 => ⟨S50000x128, .f32⟩
  | 99 => ⟨S1x128, .f32⟩
  | 100 => ⟨S50000x128, .f32⟩
  | 101 => ⟨S50000x128, .f32⟩
  | 102 => ⟨S_, .f32⟩
  | 103 => ⟨S50000x128, .f32⟩
  | 104 => ⟨S50000x128, .f32⟩
  | 105 => ⟨S50000x128, .f32⟩
  | 106 => ⟨S1x128, .f32⟩
  | 107 => ⟨S50000x128, .f32⟩
  | 108 => ⟨S50000x128, .f32⟩
  | 109 => ⟨S_, .f32⟩
  | 110 => ⟨S50000x128, .f32⟩
  | 111 => ⟨S50000x128, .f32⟩
  | 112 => ⟨S50000x128, .f32⟩
  | 113 => ⟨S1x128, .f32⟩
  | 114 => ⟨S50000x128, .f32⟩
  | 115 => ⟨S50000x128, .f32⟩
  | 116 => ⟨S50000x128, .f32⟩
  | 117 => ⟨S_, .i32⟩
  | 118 => ⟨S400000, .i32⟩
  | 119 => ⟨S400000, .i1⟩
  | 120 => ⟨S_, .i32⟩
  | 121 => ⟨S400000, .i32⟩
  | 122 => ⟨S400000, .i32⟩
  | 123 => ⟨S400000, .i32⟩
  | 124 => ⟨S400000x1, .i32⟩
  | 125 => ⟨S400000x128, .f32⟩
  | 126 => ⟨S_, .i32⟩
  | 127 => ⟨S400000, .i32⟩
  | _ => ⟨S50000x4, .f32⟩

abbrev hbmTy0_2 (i : Nat) : BufTy := match i % 128 with
  | 0 => ⟨S400000, .i1⟩
  | 1 => ⟨S_, .i32⟩
  | 2 => ⟨S400000, .i32⟩
  | 3 => ⟨S400000, .i32⟩
  | 4 => ⟨S400000, .i32⟩
  | 5 => ⟨S400000x1, .i32⟩
  | 6 => ⟨S400000x128, .f32⟩
  | 7 => ⟨S400000x384, .f32⟩
  | 8 => ⟨S1x384x128, .f32⟩
  | 9 => ⟨S384x128, .f32⟩
  | 10 => ⟨S1x128, .f32⟩
  | 11 => ⟨S128, .f32⟩
  | 12 => ⟨S1x128x128, .f32⟩
  | 13 => ⟨S128x128, .f32⟩
  | 14 => ⟨S1x128, .f32⟩
  | 15 => ⟨S128, .f32⟩
  | 16 => ⟨S1x128x128, .f32⟩
  | 17 => ⟨S128x128, .f32⟩
  | 18 => ⟨S1x128, .f32⟩
  | 19 => ⟨S128, .f32⟩
  | 20 => ⟨S400000x128, .f32⟩
  | 21 => ⟨S1x128, .f32⟩
  | 22 => ⟨S400000x128, .f32⟩
  | 23 => ⟨S400000x128, .f32⟩
  | 24 => ⟨S_, .f32⟩
  | 25 => ⟨S400000x128, .f32⟩
  | 26 => ⟨S400000x128, .f32⟩
  | 27 => ⟨S400000x128, .f32⟩
  | 28 => ⟨S1x128, .f32⟩
  | 29 => ⟨S400000x128, .f32⟩
  | 30 => ⟨S400000x128, .f32⟩
  | 31 => ⟨S_, .f32⟩
  | 32 => ⟨S400000x128, .f32⟩
  | 33 => ⟨S400000x128, .f32⟩
  | 34 => ⟨S400000x128, .f32⟩
  | 35 => ⟨S1x128, .f32⟩
  | 36 => ⟨S400000x128, .f32⟩
  | 37 => ⟨S400000x128, .f32⟩
  | 38 => ⟨S400000x128, .f32⟩
  | 39 => ⟨S_, .f32⟩
  | 40 => ⟨S50000x128, .f32⟩
  | 41 => ⟨S400000x1, .i32⟩
  | 42 => ⟨S50000x128, .f32⟩
  | 43 => ⟨S50000x256, .f32⟩
  | 44 => ⟨S1x256x128, .f32⟩
  | 45 => ⟨S256x128, .f32⟩
  | 46 => ⟨S1x128, .f32⟩
  | 47 => ⟨S128, .f32⟩
  | 48 => ⟨S1x128x128, .f32⟩
  | 49 => ⟨S128x128, .f32⟩
  | 50 => ⟨S1x128, .f32⟩
  | 51 => ⟨S128, .f32⟩
  | 52 => ⟨S1x128x128, .f32⟩
  | 53 => ⟨S128x128, .f32⟩
  | 54 => ⟨S1x128, .f32⟩
  | 55 => ⟨S128, .f32⟩
  | 56 => ⟨S50000x128, .f32⟩
  | 57 => ⟨S1x128, .f32⟩
  | 58 => ⟨S50000x128, .f32⟩
  | 59 => ⟨S50000x128, .f32⟩
  | 60 => ⟨S_, .f32⟩
  | 61 => ⟨S50000x128, .f32⟩
  | 62 => ⟨S50000x128, .f32⟩
  | 63 => ⟨S50000x128, .f32⟩
  | 64 => ⟨S1x128, .f32⟩
  | 65 => ⟨S50000x128, .f32⟩
  | 66 => ⟨S50000x128, .f32⟩
  | 67 => ⟨S_, .f32⟩
  | 68 => ⟨S50000x128, .f32⟩
  | 69 => ⟨S50000x128, .f32⟩
  | 70 => ⟨S50000x128, .f32⟩
  | 71 => ⟨S1x128, .f32⟩
  | 72 => ⟨S50000x128, .f32⟩
  | 73 => ⟨S50000x128, .f32⟩
  | 74 => ⟨S50000x128, .f32⟩
  | 75 => ⟨S50000x128, .f32⟩
  | 76 => ⟨S1x128, .f32⟩
  | 77 => ⟨S50000x128, .f32⟩
  | 78 => ⟨S50000x128, .f32⟩
  | 79 => ⟨S_, .f32⟩
  | 80 => ⟨S50000x128, .f32⟩
  | 81 => ⟨S50000x128, .f32⟩
  | 82 => ⟨S50000x128, .f32⟩
  | 83 => ⟨S1x128, .f32⟩
  | 84 => ⟨S50000x128, .f32⟩
  | 85 => ⟨S50000x128, .f32⟩
  | 86 => ⟨S_, .f32⟩
  | 87 => ⟨S50000x128, .f32⟩
  | 88 => ⟨S50000x128, .f32⟩
  | 89 => ⟨S50000x2, .f32⟩
  | 90 => ⟨S1x2, .f32⟩
  | 91 => ⟨S50000x2, .f32⟩
  | 92 => ⟨S50000x2, .f32⟩
  | _ => ⟨S50000x4, .f32⟩

abbrev hbmTy (i : Nat) : BufTy := match i / 128 with
  | 0 => hbmTy0_0 i
  | 1 => hbmTy0_1 i
  | 2 => hbmTy0_2 i
  | _ => ⟨S50000x4, .f32⟩

abbrev bufTy : (tb : Table) → Fin (tcTables nBuf tb) → BufTy
  | .hbm, ⟨i, _⟩ => hbmTy i
  | _, _ => ⟨S50000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_v0 : Ref sig .tc := ⟨.hbm, 33, rfl⟩
abbrev main_v1 : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_call0_cst : Ref sig .tc := ⟨.hbm, 41, rfl⟩
abbrev main_call0_v0 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_call1_cst : Ref sig .tc := ⟨.hbm, 48, rfl⟩
abbrev main_call1_v0 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_call2_cst : Ref sig .tc := ⟨.hbm, 59, rfl⟩
abbrev main_call2_v0 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_call3_cst : Ref sig .tc := ⟨.hbm, 66, rfl⟩
abbrev main_call3_v0 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_c : Ref sig .tc := ⟨.hbm, 73, rfl⟩
abbrev main_v32 : Ref sig .tc := ⟨.hbm, 74, rfl⟩
abbrev main_v33 : Ref sig .tc := ⟨.hbm, 75, rfl⟩
abbrev main_c_0 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_c_1 : Ref sig .tc := ⟨.hbm, 82, rfl⟩
abbrev main_v39 : Ref sig .tc := ⟨.hbm, 83, rfl⟩
abbrev main_v40 : Ref sig .tc := ⟨.hbm, 84, rfl⟩
abbrev main_c_2 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_call4_cst : Ref sig .tc := ⟨.hbm, 108, rfl⟩
abbrev main_call4_v0 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_call5_cst : Ref sig .tc := ⟨.hbm, 115, rfl⟩
abbrev main_call5_v0 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_cst : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_call6_cst : Ref sig .tc := ⟨.hbm, 144, rfl⟩
abbrev main_call6_v0 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_call7_cst : Ref sig .tc := ⟨.hbm, 151, rfl⟩
abbrev main_call7_v0 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_c_3 : Ref sig .tc := ⟨.hbm, 159, rfl⟩
abbrev main_v105 : Ref sig .tc := ⟨.hbm, 160, rfl⟩
abbrev main_v106 : Ref sig .tc := ⟨.hbm, 161, rfl⟩
abbrev main_c_4 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_c_5 : Ref sig .tc := ⟨.hbm, 168, rfl⟩
abbrev main_v112 : Ref sig .tc := ⟨.hbm, 169, rfl⟩
abbrev main_v113 : Ref sig .tc := ⟨.hbm, 170, rfl⟩
abbrev main_c_6 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_call8_cst : Ref sig .tc := ⟨.hbm, 194, rfl⟩
abbrev main_call8_v0 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_call9_cst : Ref sig .tc := ⟨.hbm, 201, rfl⟩
abbrev main_call9_v0 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_cst_7 : Ref sig .tc := ⟨.hbm, 209, rfl⟩
abbrev main_v147 : Ref sig .tc := ⟨.hbm, 210, rfl⟩
abbrev main_v148 : Ref sig .tc := ⟨.hbm, 211, rfl⟩
abbrev main_v149 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_call10_cst : Ref sig .tc := ⟨.hbm, 230, rfl⟩
abbrev main_call10_v0 : Ref sig .tc := ⟨.hbm, 231, rfl⟩
abbrev main_v167 : Ref sig .tc := ⟨.hbm, 232, rfl⟩
abbrev main_v168 : Ref sig .tc := ⟨.hbm, 233, rfl⟩
abbrev main_v169 : Ref sig .tc := ⟨.hbm, 234, rfl⟩
abbrev main_v170 : Ref sig .tc := ⟨.hbm, 235, rfl⟩
abbrev main_v171 : Ref sig .tc := ⟨.hbm, 236, rfl⟩
abbrev main_call11_cst : Ref sig .tc := ⟨.hbm, 237, rfl⟩
abbrev main_call11_v0 : Ref sig .tc := ⟨.hbm, 238, rfl⟩
abbrev main_v172 : Ref sig .tc := ⟨.hbm, 239, rfl⟩
abbrev main_v173 : Ref sig .tc := ⟨.hbm, 240, rfl⟩
abbrev main_v174 : Ref sig .tc := ⟨.hbm, 241, rfl⟩
abbrev main_v175 : Ref sig .tc := ⟨.hbm, 242, rfl⟩
abbrev main_v176 : Ref sig .tc := ⟨.hbm, 243, rfl⟩
abbrev main_v177 : Ref sig .tc := ⟨.hbm, 244, rfl⟩
abbrev main_c_8 : Ref sig .tc := ⟨.hbm, 245, rfl⟩
abbrev main_v178 : Ref sig .tc := ⟨.hbm, 246, rfl⟩
abbrev main_v179 : Ref sig .tc := ⟨.hbm, 247, rfl⟩
abbrev main_c_9 : Ref sig .tc := ⟨.hbm, 248, rfl⟩
abbrev main_v180 : Ref sig .tc := ⟨.hbm, 249, rfl⟩
abbrev main_v181 : Ref sig .tc := ⟨.hbm, 250, rfl⟩
abbrev main_v182 : Ref sig .tc := ⟨.hbm, 251, rfl⟩
abbrev main_v183 : Ref sig .tc := ⟨.hbm, 252, rfl⟩
abbrev main_v184 : Ref sig .tc := ⟨.hbm, 253, rfl⟩
abbrev main_c_10 : Ref sig .tc := ⟨.hbm, 254, rfl⟩
abbrev main_v185 : Ref sig .tc := ⟨.hbm, 255, rfl⟩
abbrev main_v186 : Ref sig .tc := ⟨.hbm, 256, rfl⟩
abbrev main_c_11 : Ref sig .tc := ⟨.hbm, 257, rfl⟩
abbrev main_v187 : Ref sig .tc := ⟨.hbm, 258, rfl⟩
abbrev main_v188 : Ref sig .tc := ⟨.hbm, 259, rfl⟩
abbrev main_v189 : Ref sig .tc := ⟨.hbm, 260, rfl⟩
abbrev main_v190 : Ref sig .tc := ⟨.hbm, 261, rfl⟩
abbrev main_v191 : Ref sig .tc := ⟨.hbm, 262, rfl⟩
abbrev main_v192 : Ref sig .tc := ⟨.hbm, 263, rfl⟩
abbrev main_v193 : Ref sig .tc := ⟨.hbm, 264, rfl⟩
abbrev main_v194 : Ref sig .tc := ⟨.hbm, 265, rfl⟩
abbrev main_v195 : Ref sig .tc := ⟨.hbm, 266, rfl⟩
abbrev main_v196 : Ref sig .tc := ⟨.hbm, 267, rfl⟩
abbrev main_v197 : Ref sig .tc := ⟨.hbm, 268, rfl⟩
abbrev main_v198 : Ref sig .tc := ⟨.hbm, 269, rfl⟩
abbrev main_v199 : Ref sig .tc := ⟨.hbm, 270, rfl⟩
abbrev main_v200 : Ref sig .tc := ⟨.hbm, 271, rfl⟩
abbrev main_v201 : Ref sig .tc := ⟨.hbm, 272, rfl⟩
abbrev main_v202 : Ref sig .tc := ⟨.hbm, 273, rfl⟩
abbrev main_v203 : Ref sig .tc := ⟨.hbm, 274, rfl⟩
abbrev main_v204 : Ref sig .tc := ⟨.hbm, 275, rfl⟩
abbrev main_v205 : Ref sig .tc := ⟨.hbm, 276, rfl⟩
abbrev main_v206 : Ref sig .tc := ⟨.hbm, 277, rfl⟩
abbrev main_v207 : Ref sig .tc := ⟨.hbm, 278, rfl⟩
abbrev main_v208 : Ref sig .tc := ⟨.hbm, 279, rfl⟩
abbrev main_call12_cst : Ref sig .tc := ⟨.hbm, 280, rfl⟩
abbrev main_call12_v0 : Ref sig .tc := ⟨.hbm, 281, rfl⟩
abbrev main_v209 : Ref sig .tc := ⟨.hbm, 282, rfl⟩
abbrev main_v210 : Ref sig .tc := ⟨.hbm, 283, rfl⟩
abbrev main_v211 : Ref sig .tc := ⟨.hbm, 284, rfl⟩
abbrev main_v212 : Ref sig .tc := ⟨.hbm, 285, rfl⟩
abbrev main_v213 : Ref sig .tc := ⟨.hbm, 286, rfl⟩
abbrev main_call13_cst : Ref sig .tc := ⟨.hbm, 287, rfl⟩
abbrev main_call13_v0 : Ref sig .tc := ⟨.hbm, 288, rfl⟩
abbrev main_v214 : Ref sig .tc := ⟨.hbm, 289, rfl⟩
abbrev main_v215 : Ref sig .tc := ⟨.hbm, 290, rfl⟩
abbrev main_v216 : Ref sig .tc := ⟨.hbm, 291, rfl⟩
abbrev main_v217 : Ref sig .tc := ⟨.hbm, 292, rfl⟩
abbrev main_v218 : Ref sig .tc := ⟨.hbm, 293, rfl⟩
abbrev main_v219 : Ref sig .tc := ⟨.hbm, 294, rfl⟩
abbrev main_cst_12 : Ref sig .tc := ⟨.hbm, 295, rfl⟩
abbrev main_v220 : Ref sig .tc := ⟨.hbm, 296, rfl⟩
abbrev main_v221 : Ref sig .tc := ⟨.hbm, 297, rfl⟩
abbrev main_v222 : Ref sig .tc := ⟨.hbm, 298, rfl⟩
abbrev main_v223 : Ref sig .tc := ⟨.hbm, 299, rfl⟩
abbrev main_v224 : Ref sig .tc := ⟨.hbm, 300, rfl⟩
abbrev main_v225 : Ref sig .tc := ⟨.hbm, 301, rfl⟩
abbrev main_v226 : Ref sig .tc := ⟨.hbm, 302, rfl⟩
abbrev main_v227 : Ref sig .tc := ⟨.hbm, 303, rfl⟩
abbrev main_v228 : Ref sig .tc := ⟨.hbm, 304, rfl⟩
abbrev main_v229 : Ref sig .tc := ⟨.hbm, 305, rfl⟩
abbrev main_v230 : Ref sig .tc := ⟨.hbm, 306, rfl⟩
abbrev main_v231 : Ref sig .tc := ⟨.hbm, 307, rfl⟩
abbrev main_v232 : Ref sig .tc := ⟨.hbm, 308, rfl⟩
abbrev main_v233 : Ref sig .tc := ⟨.hbm, 309, rfl⟩
abbrev main_v234 : Ref sig .tc := ⟨.hbm, 310, rfl⟩
abbrev main_v235 : Ref sig .tc := ⟨.hbm, 311, rfl⟩
abbrev main_v236 : Ref sig .tc := ⟨.hbm, 312, rfl⟩
abbrev main_v237 : Ref sig .tc := ⟨.hbm, 313, rfl⟩
abbrev main_v238 : Ref sig .tc := ⟨.hbm, 314, rfl⟩
abbrev main_v239 : Ref sig .tc := ⟨.hbm, 315, rfl⟩
abbrev main_call14_cst : Ref sig .tc := ⟨.hbm, 316, rfl⟩
abbrev main_call14_v0 : Ref sig .tc := ⟨.hbm, 317, rfl⟩
abbrev main_v240 : Ref sig .tc := ⟨.hbm, 318, rfl⟩
abbrev main_v241 : Ref sig .tc := ⟨.hbm, 319, rfl⟩
abbrev main_v242 : Ref sig .tc := ⟨.hbm, 320, rfl⟩
abbrev main_v243 : Ref sig .tc := ⟨.hbm, 321, rfl⟩
abbrev main_v244 : Ref sig .tc := ⟨.hbm, 322, rfl⟩
abbrev main_call15_cst : Ref sig .tc := ⟨.hbm, 323, rfl⟩
abbrev main_call15_v0 : Ref sig .tc := ⟨.hbm, 324, rfl⟩
abbrev main_v245 : Ref sig .tc := ⟨.hbm, 325, rfl⟩
abbrev main_v246 : Ref sig .tc := ⟨.hbm, 326, rfl⟩
abbrev main_v247 : Ref sig .tc := ⟨.hbm, 327, rfl⟩
abbrev main_v248 : Ref sig .tc := ⟨.hbm, 328, rfl⟩
abbrev main_v249 : Ref sig .tc := ⟨.hbm, 329, rfl⟩
abbrev main_v250 : Ref sig .tc := ⟨.hbm, 330, rfl⟩
abbrev main_v251 : Ref sig .tc := ⟨.hbm, 331, rfl⟩
abbrev main_v252 : Ref sig .tc := ⟨.hbm, 332, rfl⟩
abbrev main_v253 : Ref sig .tc := ⟨.hbm, 333, rfl⟩
abbrev main_v254 : Ref sig .tc := ⟨.hbm, 334, rfl⟩
abbrev main_call16_cst : Ref sig .tc := ⟨.hbm, 335, rfl⟩
abbrev main_call16_v0 : Ref sig .tc := ⟨.hbm, 336, rfl⟩
abbrev main_v255 : Ref sig .tc := ⟨.hbm, 337, rfl⟩
abbrev main_v256 : Ref sig .tc := ⟨.hbm, 338, rfl⟩
abbrev main_v257 : Ref sig .tc := ⟨.hbm, 339, rfl⟩
abbrev main_v258 : Ref sig .tc := ⟨.hbm, 340, rfl⟩
abbrev main_v259 : Ref sig .tc := ⟨.hbm, 341, rfl⟩
abbrev main_call17_cst : Ref sig .tc := ⟨.hbm, 342, rfl⟩
abbrev main_call17_v0 : Ref sig .tc := ⟨.hbm, 343, rfl⟩
abbrev main_v260 : Ref sig .tc := ⟨.hbm, 344, rfl⟩
abbrev main_v261 : Ref sig .tc := ⟨.hbm, 345, rfl⟩
abbrev main_v262 : Ref sig .tc := ⟨.hbm, 346, rfl⟩
abbrev main_v263 : Ref sig .tc := ⟨.hbm, 347, rfl⟩
abbrev main_v264 : Ref sig .tc := ⟨.hbm, 348, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S1x128_S400000x128_0_1 : S1x128.BroadcastsInDim S400000x128 (![0, 1] : Fin 2 → Fin S400000x128.rank)
  bcast_S_S400000x128 : S_.BroadcastsInDim S400000x128 (![] : Fin 0 → Fin S400000x128.rank)
  bcast_S_S400000 : S_.BroadcastsInDim S400000 (![] : Fin 0 → Fin S400000.rank)
  bcast_S400000_S400000x1_0 : S400000.BroadcastsInDim S400000x1 (![0] : Fin 1 → Fin S400000x1.rank)
  concatenates_S400000x128_S400000x128_S400000x128_S400000x384_d1 : Shape.Concatenates [S400000x128, S400000x128, S400000x128] S400000x384 1
  slices_S3x384x128_S1x384x128_0_0_0 : S3x384x128.Slices ![0, 0, 0] S1x384x128
  shapeCasts_S1x384x128_S384x128 : S1x384x128.ShapeCasts S384x128
  slices_S3x128_S1x128_0_0 : S3x128.Slices ![0, 0] S1x128
  shapeCasts_S1x128_S128 : S1x128.ShapeCasts S128
  slices_S3x128x128_S1x128x128_0_0_0 : S3x128x128.Slices ![0, 0, 0] S1x128x128
  shapeCasts_S1x128x128_S128x128 : S1x128x128.ShapeCasts S128x128
  concatenates_S50000x128_S50000x128_S50000x256_d1 : Shape.Concatenates [S50000x128, S50000x128] S50000x256 1
  slices_S3x256x128_S1x256x128_0_0_0 : S3x256x128.Slices ![0, 0, 0] S1x256x128
  shapeCasts_S1x256x128_S256x128 : S1x256x128.ShapeCasts S256x128
  slices_S3x384x128_S1x384x128_1_0_0 : S3x384x128.Slices ![1, 0, 0] S1x384x128
  slices_S3x128_S1x128_1_0 : S3x128.Slices ![1, 0] S1x128
  slices_S3x128x128_S1x128x128_1_0_0 : S3x128x128.Slices ![1, 0, 0] S1x128x128
  slices_S3x256x128_S1x256x128_1_0_0 : S3x256x128.Slices ![1, 0, 0] S1x256x128
  slices_S3x384x128_S1x384x128_2_0_0 : S3x384x128.Slices ![2, 0, 0] S1x384x128
  slices_S3x128_S1x128_2_0 : S3x128.Slices ![2, 0] S1x128
  slices_S3x128x128_S1x128x128_2_0_0 : S3x128x128.Slices ![2, 0, 0] S1x128x128
  slices_S3x256x128_S1x256x128_2_0_0 : S3x256x128.Slices ![2, 0, 0] S1x256x128
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  dot_S50000x4_S4x128_S50000x128_1_0_0_1_n_n_wf : DotDims.WF S50000x4 S4x128 S50000x128 [1] [0] [0] [1] [] []
  dot_S50000x128_S128x128_S50000x128_1_0_0_1_n_n_wf : DotDims.WF S50000x128 S128x128 S50000x128 [1] [0] [0] [1] [] []
  dot_S400000x3_S3x128_S400000x128_1_0_0_1_n_n_wf : DotDims.WF S400000x3 S3x128 S400000x128 [1] [0] [0] [1] [] []
  dot_S400000x128_S128x128_S400000x128_1_0_0_1_n_n_wf : DotDims.WF S400000x128 S128x128 S400000x128 [1] [0] [0] [1] [] []
  gather_S50000x128_S400000x1_S400000x128_1_0_n_n_0_1_1128_wf : GatherDims.WF S50000x128 S400000x1 S400000x128 [1] [0] [] [0] [] 1 ![1, 128]
  dot_S400000x384_S384x128_S400000x128_1_0_0_1_n_n_wf : DotDims.WF S400000x384 S384x128 S400000x128 [1] [0] [0] [1] [] []
  scatter_S50000x128_S400000x1_S400000x128_1_0_0_1_wf : ScatterDims.WF S50000x128 S400000x1 S400000x128 [1] [0] [0] 1
  dot_S50000x256_S256x128_S50000x128_1_0_0_1_n_n_wf : DotDims.WF S50000x256 S256x128 S50000x128 [1] [0] [0] [1] [] []
  dot_S50000x128_S128x2_S50000x2_1_0_0_1_n_n_wf : DotDims.WF S50000x128 S128x2 S50000x2 [1] [0] [0] [1] [] []

variable [Facts₀]

def dot_S50000x4_S4x128_S50000x128_1_0_0_1_n_n : DotDims S50000x4 S4x128 S50000x128 where
  lhsContracting := [1]
  rhsContracting := [0]
  lhsNonContracting := [0]
  rhsNonContracting := [1]
  lhsBatch := []
  rhsBatch := []
  wf := dot_S50000x4_S4x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S400000x3_S3x128_S400000x128_1_0_0_1_n_n : DotDims S400000x3 S3x128 S400000x128 where
  lhsContracting := [1]
  rhsContracting := [0]
  lhsNonContracting := [0]
  rhsNonContracting := [1]
  lhsBatch := []
  rhsBatch := []
  wf := dot_S400000x3_S3x128_S400000x128_1_0_0_1_n_n_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def dot_S400000x384_S384x128_S400000x128_1_0_0_1_n_n : DotDims S400000x384 S384x128 S400000x128 where
  lhsContracting := [1]
  rhsContracting := [0]
  lhsNonContracting := [0]
  rhsNonContracting := [1]
  lhsBatch := []
  rhsBatch := []
  wf := dot_S400000x384_S384x128_S400000x128_1_0_0_1_n_n_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf

class Facts : Prop extends Facts₀ where

variable [Facts]
-- ==== Proof.Spec.lean ====
/-
  The network, one row at a time, over the extended reals.

  Every stage of the message-passing network acts on each row of its input independently: a node's (or an
  edge's) feature row goes through three linear layers with a rectified linear unit between them. This file
  states those row functions once, and the two laws about a contraction over a row that is several shorter
  rows laid end to end: the sum over the long row is the sum of the sums over the pieces. Both laws hold in
  any commutative additive monoid, so no finiteness of the entries is used.
-/
import Idealize.ShloMosaic.PureOps.Ideal
import Idealize.ShloMosaic.Lib.ValueIdx
import Mathlib.Algebra.BigOperators.Fin

noncomputable section

namespace Cert.Spec

open Idealize.ShloMosaic Idealize.ShloMosaic.ValueIdx

/-- A linear layer on a row: entry `j` of the result is the contraction of the row with column `j` of the
    weights, plus the bias. -/
def dense {K M : ℕ} (W : Fin K → Fin M → EReal) (b : Fin M → EReal) (v : Fin K → EReal) : Fin M → EReal :=
  fun j => (∑ k, v k * W k j) + b j

/-- The rectified linear unit on a row. -/
def relu {M : ℕ} (v : Fin M → EReal) : Fin M → EReal := fun j => max (v j) 0

/-- Three linear layers with a rectified linear unit after the first two. -/
def mlp3 {K H M : ℕ} (W1 : Fin K → Fin H → EReal) (b1 : Fin H → EReal) (W2 : Fin H → Fin H → EReal)
    (b2 : Fin H → EReal) (W3 : Fin H → Fin M → EReal) (b3 : Fin M → EReal) (v : Fin K → EReal) : Fin M → EReal :=
  dense W3 b3 (relu (dense W2 b2 (relu (dense W1 b1 v))))

/-- Two rows of length `n` laid end to end. -/
def cat2 {n : ℕ} (a b : Fin n → EReal) : Fin (n + n) → EReal := Fin.addCases a b

/-- Three rows of length `n` laid end to end. -/
def cat3 {n : ℕ} (a b c : Fin n → EReal) : Fin (n + n + n) → EReal := Fin.addCases (Fin.addCases a b) c

/-- A contraction over two rows laid end to end is the sum of the two contractions, each against its own
    band of the weights' rows. -/
theorem sum_cat2 {n M : ℕ} (a b : Fin n → EReal) (W : Fin (n + n) → Fin M → EReal) (j : Fin M) :
    ∑ k, cat2 a b k * W k j
      = (∑ k, a k * W (Fin.castAdd n k) j) + (∑ k, b k * W (Fin.natAdd n k) j) := by
  unfold cat2
  rw [Fin.sum_univ_add]
  simp only [Fin.addCases_left, Fin.addCases_right]

/-- A contraction over three rows laid end to end is the sum of the three contractions, each against its own
    band of the weights' rows. -/
theorem sum_cat3 {n M : ℕ} (a b c : Fin n → EReal) (W : Fin (n + n + n) → Fin M → EReal) (j : Fin M) :
    ∑ k, cat3 a b c k * W k j
      = ((∑ k, a k * W (Fin.castAdd n (Fin.castAdd n k)) j) + (∑ k, b k * W (Fin.castAdd n (Fin.natAdd n k)) j))
        + (∑ k, c k * W (Fin.natAdd (n + n) k) j) := by
  unfold cat3
  rw [Fin.sum_univ_add, Fin.sum_univ_add]
  simp only [Fin.addCases_left, Fin.addCases_right]

/-- A linear layer whose input row is two rows of length `n`, each contracted against its own weights. -/
def dense2 {n M : ℕ} (Wa Wb : Fin n → Fin M → EReal) (b : Fin M → EReal) (u v : Fin n → EReal) : Fin M → EReal :=
  fun j => ((∑ k, u k * Wa k j) + (∑ k, v k * Wb k j)) + b j

/-- A linear layer whose input row is three rows of length `n`, each contracted against its own weights. -/
def dense3 {n M : ℕ} (Wa Wb Wc : Fin n → Fin M → EReal) (b : Fin M → EReal) (u v w : Fin n → EReal) : Fin M → EReal :=
  fun j => (((∑ k, u k * Wa k j) + (∑ k, v k * Wb k j)) + (∑ k, w k * Wc k j)) + b j

/-- The layer over two rows laid end to end is the two-band layer over the weights' upper and lower bands. -/
theorem dense_cat2 {n M : ℕ} (W : Fin (n + n) → Fin M → EReal) (b : Fin M → EReal) (u v : Fin n → EReal) :
    dense W b (cat2 u v) = dense2 (fun k => W (Fin.castAdd n k)) (fun k => W (Fin.natAdd n k)) b u v := by
  funext j
  simp only [dense, dense2, sum_cat2]

/-- The layer over three rows laid end to end is the three-band layer over the weights' three bands. -/
theorem dense_cat3 {n M : ℕ} (W : Fin (n + n + n) → Fin M → EReal) (b : Fin M → EReal) (u v w : Fin n → EReal) :
    dense W b (cat3 u v w)
      = dense3 (fun k => W (Fin.castAdd n (Fin.castAdd n k))) (fun k => W (Fin.castAdd n (Fin.natAdd n k)))
          (fun k => W (Fin.natAdd (n + n) k)) b u v w := by
  funext j
  simp only [dense, dense3, sum_cat3]

/-- The two layers after the first, shared by every stage. -/
def tail2 {H M : ℕ} (W2 : Fin H → Fin H → EReal) (b2 : Fin H → EReal) (W3 : Fin H → Fin M → EReal) (b3 : Fin M → EReal)
    (z : Fin H → EReal) : Fin M → EReal :=
  dense W3 b3 (relu (dense W2 b2 (relu z)))

theorem mlp3_eq_tail2 {K H M : ℕ} (W1 : Fin K → Fin H → EReal) (b1 : Fin H → EReal) (W2 : Fin H → Fin H → EReal)
    (b2 : Fin H → EReal) (W3 : Fin H → Fin M → EReal) (b3 : Fin M → EReal) (v : Fin K → EReal) :
    mlp3 W1 b1 W2 b2 W3 b3 v = tail2 W2 b2 W3 b3 (dense W1 b1 v) := rfl

/-- An edge's new feature row: the old one plus the three-layer network of the sender's row, the receiver's row
    and the edge's own row, the first layer in its three-band form. -/
def edgeRow {n : ℕ} (Wa Wb Wc : Fin n → Fin n → EReal) (b1 : Fin n → EReal) (W2 : Fin n → Fin n → EReal) (b2 : Fin n → EReal)
    (W3 : Fin n → Fin n → EReal) (b3 : Fin n → EReal) (hs hd e : Fin n → EReal) : Fin n → EReal :=
  fun j => e j + tail2 W2 b2 W3 b3 (dense3 Wa Wb Wc b1 hs hd e) j

/-- A node's new feature row: the old one plus the three-layer network of the node's row and its aggregated
    messages, the first layer in its two-band form. -/
def nodeRow {n : ℕ} (Wa Wb : Fin n → Fin n → EReal) (b1 : Fin n → EReal) (W2 : Fin n → Fin n → EReal) (b2 : Fin n → EReal)
    (W3 : Fin n → Fin n → EReal) (b3 : Fin n → EReal) (h agg : Fin n → EReal) : Fin n → EReal :=
  fun j => h j + tail2 W2 b2 W3 b3 (dense2 Wa Wb b1 h agg) j

/-- The matrix a rank-2 array is. -/
def mat {a b : ℕ} (W : (⟨2, ![a, b]⟩ : Shape).Idx → EReal) : Fin a → Fin b → EReal := fun k j => W (ix2 k j)

/-- Row `r` of a rank-2 array. -/
def rowAt {a b : ℕ} (x : (⟨2, ![a, b]⟩ : Shape).Idx → EReal) (r : Fin a) : Fin b → EReal := fun k => x (ix2 r k)

/-- The one row of a `1 × b` array. -/
def row1 {b : ℕ} (v : (⟨2, ![1, b]⟩ : Shape).Idx → EReal) : Fin b → EReal := fun j => v (ix2 0 j)

/-- The row a rank-1 array is. -/
def vec {b : ℕ} (v : (⟨1, ![b]⟩ : Shape).Idx → EReal) : Fin b → EReal := fun j => v (ix1 j)

end Cert.Spec

end
-- ==== Proof.Net.lean ====
/-
  The whole network as one function of its argument arrays, over the extended reals.

  A graph network of three message-passing steps. The nodes' inputs and the edges' inputs are each encoded by a
  three-layer network applied to every row. A step gathers, for every edge, its sender's and its receiver's
  feature rows, updates the edge's row by a three-layer network of the three rows (added to the old row), sums
  the new edge rows into their receivers, and updates every node's row by a three-layer network of its row and
  its sum (added to the old row). The last node rows are decoded by a three-layer network into two numbers.
  Gathering and summing are the same two functions in every step; they are parameters here, because all that
  the equivalence needs of them is that both programs apply the same ones.
-/
import proofs.«425516_j47425028883052_2_alg».proof.Proof.Spec

noncomputable section

namespace Cert.Net

open Idealize.ShloMosaic Idealize.ShloMosaic.ValueIdx Cert.Spec

/-- Rank-1, rank-2 and rank-3 arrays of extended reals over literal extents. -/
abbrev A1 (a : ℕ) := (⟨1, ![a]⟩ : Shape).Idx → EReal
abbrev A2 (a b : ℕ) := (⟨2, ![a, b]⟩ : Shape).Idx → EReal
abbrev A3 (a b c : ℕ) := (⟨3, ![a, b, c]⟩ : Shape).Idx → EReal

/-- The row and the column of a rank-2 index. -/
def ri {a b : ℕ} (i : (⟨2, ![a, b]⟩ : Shape).Idx) : Fin a := ⟨(i 0).val, idx2_lt0 i⟩
def ci {a b : ℕ} (i : (⟨2, ![a, b]⟩ : Shape).Idx) : Fin b := ⟨(i 1).val, idx2_lt1 i⟩

theorem ri_ix2 {a b : ℕ} (r : Fin a) (q : Fin b) : ri (ix2 r q) = r := rfl
theorem ci_ix2 {a b : ℕ} (r : Fin a) (q : Fin b) : ci (ix2 r q) = q := rfl

/-- Slice `t` of a stack of three matrices, and of a stack of three rows. -/
def w3 {a b : ℕ} (W : A3 3 a b) (t : Fin 3) : Fin a → Fin b → EReal := fun k j => W (ix3 t k j)
def b3 (b : A2 3 128) (t : Fin 3) : Fin 128 → EReal := fun j => b (ix2 t j)

/-- The band of 128 rows of a matrix that starts at row `s`. -/
def band {a : ℕ} (W : Fin a → Fin 128 → EReal) (s : ℕ) (hs : s + 128 ≤ a) : Fin 128 → Fin 128 → EReal :=
  fun k j => W ⟨s + k.val, by have := k.isLt; omega⟩ j

/-- A three-layer network applied to every row. -/
def encode {n K M : ℕ} (W1 : Fin K → Fin 128 → EReal) (b1 : Fin 128 → EReal) (W2 : Fin 128 → Fin 128 → EReal)
    (b2 : Fin 128 → EReal) (W3 : Fin 128 → Fin M → EReal) (b3 : Fin M → EReal) (x : A2 n K) : A2 n M :=
  fun i => mlp3 W1 b1 W2 b2 W3 b3 (rowAt x (ri i)) (ci i)

/-- The edge update applied to every edge. -/
def edgeStep {n : ℕ} (Wa Wb Wc : Fin 128 → Fin 128 → EReal) (b1 : Fin 128 → EReal) (W2 : Fin 128 → Fin 128 → EReal)
    (b2 : Fin 128 → EReal) (W3 : Fin 128 → Fin 128 → EReal) (b3 : Fin 128 → EReal) (hs hd e : A2 n 128) : A2 n 128 :=
  fun i => edgeRow Wa Wb Wc b1 W2 b2 W3 b3 (rowAt hs (ri i)) (rowAt hd (ri i)) (rowAt e (ri i)) (ci i)

/-- The node update applied to every node. -/
def nodeStep {n : ℕ} (Wa Wb : Fin 128 → Fin 128 → EReal) (b1 : Fin 128 → EReal) (W2 : Fin 128 → Fin 128 → EReal)
    (b2 : Fin 128 → EReal) (W3 : Fin 128 → Fin 128 → EReal) (b3 : Fin 128 → EReal) (h agg : A2 n 128) : A2 n 128 :=
  fun i => nodeRow Wa Wb b1 W2 b2 W3 b3 (rowAt h (ri i)) (rowAt agg (ri i)) (ci i)

section Network

variable (x : A2 50000 4) (ea : A2 400000 3)
  (neW1 : A2 4 128) (neb1 : A1 128) (neW2 : A2 128 128) (neb2 : A1 128) (neW3 : A2 128 128) (neb3 : A1 128)
  (eeW1 : A2 3 128) (eeb1 : A1 128) (eeW2 : A2 128 128) (eeb2 : A1 128) (eeW3 : A2 128 128) (eeb3 : A1 128)
  (peW1 : A3 3 384 128) (peb1 : A2 3 128) (peW2 : A3 3 128 128) (peb2 : A2 3 128) (peW3 : A3 3 128 128) (peb3 : A2 3 128)
  (pnW1 : A3 3 256 128) (pnb1 : A2 3 128) (pnW2 : A3 3 128 128) (pnb2 : A2 3 128) (pnW3 : A3 3 128 128) (pnb3 : A2 3 128)
  (ndW1 : A2 128 128) (ndb1 : A1 128) (ndW2 : A2 128 128) (ndb2 : A1 128) (ndW3 : A2 128 2) (ndb3 : A1 2)
  (takeS takeD : A2 50000 128 → A2 400000 128) (scat : A2 400000 128 → A2 50000 128)

/-- The encoded node rows and the encoded edge rows. -/
def h0 : A2 50000 128 := encode (mat neW1) (vec neb1) (mat neW2) (vec neb2) (mat neW3) (vec neb3) x
def e0 : A2 400000 128 := encode (mat eeW1) (vec eeb1) (mat eeW2) (vec eeb2) (mat eeW3) (vec eeb3) ea

/-- Step `t`'s edge update from the node rows `h` and the edge rows `e`. -/
def eNext (t : Fin 3) (h : A2 50000 128) (e : A2 400000 128) : A2 400000 128 :=
  edgeStep (band (w3 peW1 t) 0 (by omega)) (band (w3 peW1 t) 128 (by omega)) (band (w3 peW1 t) 256 (by omega)) (b3 peb1 t)
    (w3 peW2 t) (b3 peb2 t) (w3 peW3 t) (b3 peb3 t) (takeS h) (takeD h) e

/-- Step `t`'s node update from the node rows `h` and the NEW edge rows `e'`. -/
def hNext (t : Fin 3) (h : A2 50000 128) (e' : A2 400000 128) : A2 50000 128 :=
  nodeStep (band (w3 pnW1 t) 0 (by omega)) (band (w3 pnW1 t) 128 (by omega)) (b3 pnb1 t)
    (w3 pnW2 t) (b3 pnb2 t) (w3 pnW3 t) (b3 pnb3 t) h (scat e')

/-- The decoder on node rows. -/
def dec (h : A2 50000 128) : A2 50000 2 :=
  encode (mat ndW1) (vec ndb1) (mat ndW2) (vec ndb2) (mat ndW3) (vec ndb3) h

end Network

end Cert.Net

end
-- ==== Proof.KDefs.lean ====
/-
  The idealized kernel program's stage values: what each region leaves in its output array, named, and the two
  index vectors and the summing-into-receivers function the host operations between the regions use.
-/
import proofs.«425516_j47425028883052_2_alg».proof.Proof.Gen.KernelIdeal.Frame
import proofs.«425516_j47425028883052_2_alg».proof.Proof.Net

noncomputable section

namespace Cert.KernelIdeal.K

open Idealize.ShloMosaic Idealize.ShloMosaic.ValueIdx Idealize.SL.Sem Cert.KernelIdeal Cert.KernelIdeal.Gen Cert.Spec Cert.Net

variable (m : (ℓ : Loc nD τ sig) → Buf (Elt Ideal) ℓ) (ρ : Dev nD → PrngReg) (c : Dev nD)

/-- The senders' and the receivers' index vectors: rows 0 and 1 of the edge list, as the first host stretch
    leaves them. -/
def src : IVec S400000 32 := W1 (F := Ideal) m ρ c (Proc.devRef .tc main_v1)
def dst : IVec S400000 32 := W1 (F := Ideal) m ρ c (Proc.devRef .tc main_v3)

/-- Summing edge rows into their receivers' rows, from zero. -/
def scat (e : FVec Ideal S400000x128 .f32) : FVec Ideal S50000x128 .f32 :=
  Host.scatterAdd scatter_S50000x128_S400000x1_S400000x128_1_0_0_1
    (broadcastInDim S50000x128 ![] bcast_S_S50000x128 (constant S_ .f32 0x00000000#32))
    (broadcastInDim S400000x1 ![0] bcast_S400000_S400000x1_0 (dst m ρ c)) e

/-- The node rows and the edge rows after each region that writes them. -/
def H0 : FVec Ideal S50000x128 .f32 := W2 (F := Ideal) m ρ c (Proc.devRef .tc main_v7)
def E0 : FVec Ideal S400000x128 .f32 := W4 (F := Ideal) m ρ c (Proc.devRef .tc main_v11)
def E1 : FVec Ideal S400000x128 .f32 := W8 (F := Ideal) m ρ c (Proc.devRef .tc main_v32)
def H1 : FVec Ideal S50000x128 .f32 := W10 (F := Ideal) m ρ c (Proc.devRef .tc main_v53)
def E2 : FVec Ideal S400000x128 .f32 := W14 (F := Ideal) m ρ c (Proc.devRef .tc main_v74)
def H2 : FVec Ideal S50000x128 .f32 := W16 (F := Ideal) m ρ c (Proc.devRef .tc main_v95)
def E3 : FVec Ideal S400000x128 .f32 := W20 (F := Ideal) m ρ c (Proc.devRef .tc main_v116)
def OUT : FVec Ideal S50000x2 .f32 := W22 (F := Ideal) m ρ c (Proc.devRef .tc main_v140)

end Cert.KernelIdeal.K

end
-- ==== Proof.NetOut.lean ====
/-
  The network's stages as functions of ONE record of its arrays and of its gathering and summing functions: the
  encoded rows, then for each of the three steps the new edge rows and the new node rows, then the decoded result.
-/
import proofs.«425516_j47425028883052_2_alg».proof.Proof.Net

noncomputable section

namespace Cert.Net

/-- Everything the network is a function of: the node and edge inputs, the weights and biases of the two encoders,
    of the three steps' edge and node updates (stacked) and of the decoder, and the three functions on rows: gathering
    node rows by the senders, by the receivers, and summing edge rows into their receivers. -/
structure Params where
  x : A2 50000 4
  ea : A2 400000 3
  neW1 : A2 4 128
  neb1 : A1 128
  neW2 : A2 128 128
  neb2 : A1 128
  neW3 : A2 128 128
  neb3 : A1 128
  eeW1 : A2 3 128
  eeb1 : A1 128
  eeW2 : A2 128 128
  eeb2 : A1 128
  eeW3 : A2 128 128
  eeb3 : A1 128
  peW1 : A3 3 384 128
  peb1 : A2 3 128
  peW2 : A3 3 128 128
  peb2 : A2 3 128
  peW3 : A3 3 128 128
  peb3 : A2 3 128
  pnW1 : A3 3 256 128
  pnb1 : A2 3 128
  pnW2 : A3 3 128 128
  pnb2 : A2 3 128
  pnW3 : A3 3 128 128
  pnb3 : A2 3 128
  ndW1 : A2 128 128
  ndb1 : A1 128
  ndW2 : A2 128 128
  ndb2 : A1 128
  ndW3 : A2 128 2
  ndb3 : A1 2
  takeS : A2 50000 128 → A2 400000 128
  takeD : A2 50000 128 → A2 400000 128
  scat : A2 400000 128 → A2 50000 128

variable (P : Params)

def nH0 : A2 50000 128 := h0 P.x P.neW1 P.neb1 P.neW2 P.neb2 P.neW3 P.neb3
def nE0 : A2 400000 128 := e0 P.ea P.eeW1 P.eeb1 P.eeW2 P.eeb2 P.eeW3 P.eeb3
/-- Step `t`'s two updates over the record. -/
def nEdge (t : Fin 3) (h : A2 50000 128) (e : A2 400000 128) : A2 400000 128 :=
  eNext P.peW1 P.peb1 P.peW2 P.peb2 P.peW3 P.peb3 P.takeS P.takeD t h e
def nNode (t : Fin 3) (h : A2 50000 128) (e' : A2 400000 128) : A2 50000 128 :=
  hNext P.pnW1 P.pnb1 P.pnW2 P.pnb2 P.pnW3 P.pnb3 P.scat t h e'
def nE1 : A2 400000 128 := nEdge P 0 (nH0 P) (nE0 P)
def nH1 : A2 50000 128 := nNode P 0 (nH0 P) (nE1 P)
def nE2 : A2 400000 128 := nEdge P 1 (nH1 P) (nE1 P)
def nH2 : A2 50000 128 := nNode P 1 (nH1 P) (nE2 P)
def nE3 : A2 400000 128 := nEdge P 2 (nH2 P) (nE2 P)
def nH3 : A2 50000 128 := nNode P 2 (nH2 P) (nE3 P)
/-- The network's result. -/
def nOut : A2 50000 2 := dec P.ndW1 P.ndb1 P.ndW2 P.ndb2 P.ndW3 P.ndb3 (nH3 P)

end Cert.Net

end
-- ==== Proof.TakeK.lean ====
/-
  The table lookup of the kernel program ("fill" mode), as one function, and what it is on in-range indices.

  Each of the six lookups of the program is the same chain of 23 host operations over its own buffers:
    * wrap: an index below 0 has the table's height 50000 added to it;
    * the wrapped indices as a one-column array, and the gather of the table's rows at them;
    * the mask: a row is kept when its wrapped index is at least 0 and at most 49999 (the two comparisons, their
      conjunction, and its `and`-reduction along the one-element column axis);
    * the result: the gathered row where the mask is set, the not-a-number word elsewhere.
  `takeFill` is that chain as a pure function of the table and the index vector; each stretch of the program is
  shown to compute it. Where every index is already in [0, 50000) the wrap is the identity, both comparisons hold
  on every row, so the mask is set everywhere and the result is the gather itself.
-/
import proofs.«425516_j47425028883052_2_alg».proof.Proof.Gen.KernelIdeal.Launch
import Idealize.ShloMosaic.Lib.StableHlo.Run
import Idealize.ShloMosaic.Lib.ReduceAll
import Idealize.ShloMosaic.PureOps.Ideal

set_option maxRecDepth 16384

noncomputable section

namespace Cert.KernelIdeal.TakeK

open Idealize.ShloMosaic Cert.KernelIdeal Cert.KernelIdeal.Gen

/-- The wrap of negative indices: where an index is below 0 the table's height is added, elsewhere it is kept. -/
def wrapIdx (idx : IVec S400000 32) : IVec S400000 32 :=
  select (cmpi .slt idx (broadcastInDim S400000 ![] bcast_S_S400000 (constantI S_ 32 0#32)))
    (addi idx (broadcastInDim S400000 ![] bcast_S_S400000 (constantI S_ 32 50000#32)))
    idx

/-- The wrapped indices laid out as a one-column array: the gather's start indices. -/
def takeIdx (idx : IVec S400000 32) : IVec S400000x1 32 :=
  broadcastInDim S400000x1 ![0] bcast_S400000_S400000x1_0 (wrapIdx idx)

/-- The mask of kept rows: row `r` is kept when its wrapped index is at least 0 and at most 49999 (the conjunction of
    the two comparisons on the one-column array, reduced by `and` along the column axis, from 1). -/
def takeKeep (idx : IVec S400000 32) : IVec S400000 1 :=
  Host.reduce IntOp.andi
    (andi
      (cmpi .sge (takeIdx idx) (broadcastInDim S400000x1 ![] bcast_S_S400000x1 (constantI S_ 32 0#32)))
      (cmpi .sle (takeIdx idx)
        (broadcastInDim S400000x1 ![0, 1] bcast_S1x1_S400000x1_0_1
          (broadcastInDim S1x1 ![1] bcast_S1_S1x1_1 (constantI S1 32 49999#32)))))
    (constantI S_ 1 1#1) reducesTo_S400000x1_S400000_d1 h_S_

/-- The whole lookup: the rows gathered at the wrapped indices, each kept where the mask is set and replaced by the
    not-a-number word elsewhere. -/
def takeFill (h : FVec Ideal S50000x128 .f32) (idx : IVec S400000 32) : FVec Ideal S400000x128 .f32 :=
  select
    (broadcastInDim S400000x128 ![0] bcast_S400000_S400000x128_0 (takeKeep idx))
    (Host.gather gather_S50000x128_S400000x1_S400000x128_1_0_n_n_0_1_1128 h (takeIdx idx))
    (broadcastInDim S400000x128 ![] bcast_S_S400000x128 (constant (F := Ideal) S_ .f32 0x7FC00000#32))

/-! ## In-range indices -/

/-- A left fold by `and` over one-bit words, started at 1 and meeting only 1s, is 1. -/
theorem foldl_andi_one {ι : Type} (f : ι → BitVec 1) :
    ∀ (l : List ι) (init : BitVec 1), init = 1#1 → (∀ n ∈ l, f n = 1#1) →
      l.foldl (fun r n => IntOp.andi r (f n)) init = 1#1
  | [], _, h, _ => h
  | a :: l, init, h, hl => by
    refine foldl_andi_one f l _ ?_ (fun n hn => hl n (List.mem_cons_of_mem _ hn))
    show IntOp.andi init (f a) = 1#1
    rw [h, hl a List.mem_cons_self]; decide

/-- An `and`-reduction from 1 of an array that is 1 everywhere is 1 at every result index. -/
theorem reduce_andi_one {s t u : Shape} {axes : List (Fin s.rank)} (x : s.Idx → BitVec 1) (init : u.Idx → BitVec 1)
    (h : s.ReducesTo axes t) (hu : 0 < u.numel) (j : t.Idx) (hinit : ∀ k, init k = 1#1) (hx : ∀ i, x i = 1#1) :
    Host.reduce IntOp.andi x init h hu j = 1#1 := by
  rw [Host.reduce_eq_foldl]
  exact foldl_andi_one x _ _ (hinit _) (fun n _ => hx n)

/-- A lane-by-lane choice takes its first alternative wherever the condition word is 1. -/
theorem select_of_one {s : Shape} {α : Type} (c : IVec s 1) (a b : s.Idx → α) (j : s.Idx) (hc : c j = 1#1) :
    select c a b j = a j := by
  show Scalar.select (c j) (a j) (b j) = a j
  unfold Scalar.select
  exact if_pos hc

/-- A word in [0, 50000) passes both range tests of the mask. -/
theorem keep_word (w : BitVec 32) (hw : (0 : Int) ≤ w.toInt ∧ w.toInt < 50000) :
    IntOp.andi (IntOp.cmpi .sge w 0#32) (IntOp.cmpi .sle w 49999#32) = 1#1 := by
  have e0 : (0#32 : BitVec 32).toInt = 0 := by decide
  have e1 : (49999#32 : BitVec 32).toInt = 49999 := by decide
  refine IntOp.andi_eq_one.2 ⟨IntOp.cmpi_sge.2 ?_, IntOp.cmpi_sle.2 ?_⟩
  · rw [e0]; exact hw.1
  · rw [e1]; omega

/-- On in-range indices the wrap changes nothing: no index is below 0. -/
theorem wrapIdx_inrange (idx : IVec S400000 32) (hidx : ∀ i, (0 : Int) ≤ (idx i).toInt ∧ (idx i).toInt < 50000) :
    wrapIdx idx = idx := by
  funext i
  have e0 : (0#32 : BitVec 32).toInt = 0 := by decide
  have hn : ¬ IntOp.cmpi .slt (idx i) 0#32 = 1#1 := by
    rw [IntOp.cmpi_slt, e0]; have := (hidx i).1; omega
  show Scalar.select (IntOp.cmpi .slt (idx i) 0#32) (IntOp.addi (idx i) 50000#32) (idx i) = idx i
  unfold Scalar.select
  exact if_neg hn

/-- On in-range indices every row is kept. -/
theorem takeKeep_inrange (idx : IVec S400000 32) (hidx : ∀ i, (0 : Int) ≤ (idx i).toInt ∧ (idx i).toInt < 50000)
    (r : S400000.Idx) : takeKeep idx r = 1#1 := by
  unfold takeKeep takeIdx
  rw [wrapIdx_inrange idx hidx]
  refine reduce_andi_one _ _ _ _ _ (fun _ => rfl) (fun i => ?_)
  exact keep_word _ (hidx _)

/-- On in-range indices the lookup is the gather of the table's rows at the (unchanged) indices. -/
theorem takeFill_inrange (h : FVec Ideal S50000x128 .f32) (idx : IVec S400000 32)
    (hidx : ∀ i, (0 : Int) ≤ (idx i).toInt ∧ (idx i).toInt < 50000) :
    takeFill h idx = Host.gather gather_S50000x128_S400000x1_S400000x128_1_0_n_n_0_1_1128 h (takeIdx idx) := by
  funext j
  exact select_of_one _ _ _ j (takeKeep_inrange idx hidx _)

/-! ## The six stretches -/

set_option maxHeartbeats 1600000 in
/-- The stretch `hostOps2` is one call of the lookup: the buffer its last operation writes ends at `takeFill` of
    the table's and the index vector's contents before the stretch (each operation's result read at its own buffer,
    every earlier buffer's contents carried past the operations that do not write it). -/
theorem take_hostOps2 (W : Valuation τ sig (Elt Ideal)) :
    StableHlo.after (hostOps2 (F := Ideal)) W (Proc.devRef .tc main_v12)
      = takeFill (W (Proc.devRef .tc main_v7)) (W (Proc.devRef .tc main_v1)) := by
  show StableHlo.after hostOps2 W (Proc.devRef .tc main_v12) = _
  after_results_simp
  simp only [StableHlo.TRef.ofBuf, StableHlo.TRef.toBuf, cast_eq]
  rfl

set_option maxHeartbeats 1600000 in
/-- The stretch `hostOps2_1` is one call of the lookup: the buffer its last operation writes ends at `takeFill` of
    the table's and the index vector's contents before the stretch (each operation's result read at its own buffer,
    every earlier buffer's contents carried past the operations that do not write it). -/
theorem take_hostOps2_1 (W : Valuation τ sig (Elt Ideal)) :
    StableHlo.after (hostOps2_1 (F := Ideal)) W (Proc.devRef .tc main_v13)
      = takeFill (W (Proc.devRef .tc main_v7)) (W (Proc.devRef .tc main_v3)) := by
  show StableHlo.after hostOps2_1 W (Proc.devRef .tc main_v13) = _
  after_results_simp
  simp only [StableHlo.TRef.ofBuf, StableHlo.TRef.toBuf, cast_eq]
  rfl

set_option maxHeartbeats 1600000 in
/-- The stretch `hostOps4` is one call of the lookup: the buffer its last operation writes ends at `takeFill` of
    the table's and the index vector's contents before the stretch (each operation's result read at its own buffer,
    every earlier buffer's contents carried past the operations that do not write it). -/
theorem take_hostOps4 (W : Valuation τ sig (Elt Ideal)) :
    StableHlo.after (hostOps4 (F := Ideal)) W (Proc.devRef .tc main_v54)
      = takeFill (W (Proc.devRef .tc main_v53)) (W (Proc.devRef .tc main_v1)) := by
  show StableHlo.after hostOps4 W (Proc.devRef .tc main_v54) = _
  after_results_simp
  simp only [StableHlo.TRef.ofBuf, StableHlo.TRef.toBuf, cast_eq]
  rfl

set_option maxHeartbeats 1600000 in
/-- The stretch `hostOps4_1` is one call of the lookup: the buffer its last operation writes ends at `takeFill` of
    the table's and the index vector's contents before the stretch (each operation's result read at its own buffer,
    every earlier buffer's contents carried past the operations that do not write it). -/
theorem take_hostOps4_1 (W : Valuation τ sig (Elt Ideal)) :
    StableHlo.after (hostOps4_1 (F := Ideal)) W (Proc.devRef .tc main_v55)
      = takeFill (W (Proc.devRef .tc main_v53)) (W (Proc.devRef .tc main_v3)) := by
  show StableHlo.after hostOps4_1 W (Proc.devRef .tc main_v55) = _
  after_results_simp
  simp only [StableHlo.TRef.ofBuf, StableHlo.TRef.toBuf, cast_eq]
  rfl

set_option maxHeartbeats 1600000 in
/-- The stretch `hostOps6` is one call of the lookup: the buffer its last operation writes ends at `takeFill` of
    the table's and the index vector's contents before the stretch (each operation's result read at its own buffer,
    every earlier buffer's contents carried past the operations that do not write it). -/
theorem take_hostOps6 (W : Valuation τ sig (Elt Ideal)) :
    StableHlo.after (hostOps6 (F := Ideal)) W (Proc.devRef .tc main_v96)
      = takeFill (W (Proc.devRef .tc main_v95)) (W (Proc.devRef .tc main_v1)) := by
  show StableHlo.after hostOps6 W (Proc.devRef .tc main_v96) = _
  after_results_simp
  simp only [StableHlo.TRef.ofBuf, StableHlo.TRef.toBuf, cast_eq]
  rfl

set_option maxHeartbeats 1600000 in
/-- The stretch `hostOps6_1` is one call of the lookup: the buffer its last operation writes ends at `takeFill` of
    the table's and the index vector's contents before the stretch (each operation's result read at its own buffer,
    every earlier buffer's contents carried past the operations that do not write it). -/
theorem take_hostOps6_1 (W : Valuation τ sig (Elt Ideal)) :
    StableHlo.after (hostOps6_1 (F := Ideal)) W (Proc.devRef .tc main_v97)
      = takeFill (W (Proc.devRef .tc main_v95)) (W (Proc.devRef .tc main_v3)) := by
  show StableHlo.after hostOps6_1 W (Proc.devRef .tc main_v97) = _
  after_results_simp
  simp only [StableHlo.TRef.ofBuf, StableHlo.TRef.toBuf, cast_eq]
  rfl

end Cert.KernelIdeal.TakeK

end
-- ==== Proof.KVal0.lean ====
/-
  The node encoder's region: what its body computes at an index, and the array it leaves.

  The body takes a block of 5000 input rows and the three layers' weights and biases, and applies the
  three-layer network to every row of the block. The grid's point `t` handles rows `5000 t … 5000 t + 4999`
  of the input and writes the same rows of the output; the weights and biases are staged whole at every point.
  So the output array ends holding the three-layer network of every input row.
-/
import proofs.«425516_j47425028883052_2_alg».proof.Proof.Gen.KernelIdeal.Frame
import proofs.«425516_j47425028883052_2_alg».proof.Proof.Net
import Idealize.ShloMosaic.PureOps.Ideal.Laws
import Idealize.ShloMosaic.Lib.ValueIdx
import Idealize.ShloMosaic.Lib.Pipeline.Value

noncomputable section

namespace Cert.KernelIdeal.Val

open Idealize.ShloMosaic Idealize.ShloMosaic.TcCoe Idealize.ShloMosaic.ValueIdx Idealize.SL.Sem Cert.KernelIdeal Cert.KernelIdeal.Gen Cert.Spec Cert.Net
open Idealize.ShloMosaic.Pipeline (Dat)

set_option maxRecDepth 16384

namespace Enc0

/-! ## The first contraction: a row of length 4 against a 4 × 128 matrix -/

/-- The left operand's row coordinate is the output's row. -/
theorem lhs_in_0 (i : S5000x128.Idx) (q : dot_S5000x4_S4x128_S5000x128_1_0_0_1_n_n.contr.Idx) :
    (dot_S5000x4_S4x128_S5000x128_1_0_0_1_n_n.lhsIdx i q 0).val = (i 0).val := by
  unfold DotDims.lhsIdx
  rw [dif_neg (show ¬(0 : Fin S5000x4.rank) ∈ dot_S5000x4_S4x128_S5000x128_1_0_0_1_n_n.lhsBatch by decide), dif_pos (show (0 : Fin S5000x4.rank) ∈ dot_S5000x4_S4x128_S5000x128_1_0_0_1_n_n.lhsNonContracting by decide)]
  rfl
/-- The left operand's column coordinate is the contracted index. -/
theorem lhs_in_1 (i : S5000x128.Idx) (q : dot_S5000x4_S4x128_S5000x128_1_0_0_1_n_n.contr.Idx) :
    (dot_S5000x4_S4x128_S5000x128_1_0_0_1_n_n.lhsIdx i q 1).val = (q ⟨0, by decide⟩).val :=
  dot_S5000x4_S4x128_S5000x128_1_0_0_1_n_n.lhsIdx_val_of_single rfl i q
/-- The right operand's row coordinate is the contracted index. -/
theorem rhs_in_0 (i : S5000x128.Idx) (q : dot_S5000x4_S4x128_S5000x128_1_0_0_1_n_n.contr.Idx) :
    (dot_S5000x4_S4x128_S5000x128_1_0_0_1_n_n.rhsIdx i q 0).val = (q ⟨0, by decide⟩).val :=
  dot_S5000x4_S4x128_S5000x128_1_0_0_1_n_n.rhsIdx_val_of_single rfl i q
/-- The right operand's column coordinate is the output's column. -/
theorem rhs_in_1 (i : S5000x128.Idx) (q : dot_S5000x4_S4x128_S5000x128_1_0_0_1_n_n.contr.Idx) :
    (dot_S5000x4_S4x128_S5000x128_1_0_0_1_n_n.rhsIdx i q 1).val = (i 1).val := by
  unfold DotDims.rhsIdx
  rw [dif_neg (show ¬(1 : Fin S4x128.rank) ∈ dot_S5000x4_S4x128_S5000x128_1_0_0_1_n_n.rhsBatch by decide), dif_pos (show (1 : Fin S4x128.rank) ∈ dot_S5000x4_S4x128_S5000x128_1_0_0_1_n_n.rhsNonContracting by decide)]
  rfl

/-- The product into a zero accumulator, read at row `p` and column `q`: the sum over the contracted index. -/
theorem matmul_in_apply (l : FVec Ideal S5000x4 .bf16) (r : FVec Ideal S4x128 .bf16) (p : Fin 5000) (q : Fin 128) :
    matmul dot_S5000x4_S4x128_S5000x128_1_0_0_1_n_n none l r (constant (F := Ideal) S5000x128 .f32 0x00000000#32) (ix2 p q)
      = ∑ k : Fin 4, l (ix2 p k) * r (ix2 k q) := by
  simp only [matmul]
  rw [Ideal.matmul_constant_zero_apply, ← Equiv.sum_comp (contrEquiv1 dot_S5000x4_S4x128_S5000x128_1_0_0_1_n_n 4 rfl rfl).symm]
  refine Finset.sum_congr rfl fun k _ => ?_
  have hk := contrEquiv1_symm_val dot_S5000x4_S4x128_S5000x128_1_0_0_1_n_n 4 rfl rfl k
  have el : dot_S5000x4_S4x128_S5000x128_1_0_0_1_n_n.lhsIdx (ix2 p q) ((contrEquiv1 dot_S5000x4_S4x128_S5000x128_1_0_0_1_n_n 4 rfl rfl).symm k) = ix2 p k := funext fun a => Fin.ext (by
    match a with
    | ⟨0, _⟩ => exact lhs_in_0 _ _
    | ⟨1, _⟩ => exact (lhs_in_1 _ _).trans hk)
  have er : dot_S5000x4_S4x128_S5000x128_1_0_0_1_n_n.rhsIdx (ix2 p q) ((contrEquiv1 dot_S5000x4_S4x128_S5000x128_1_0_0_1_n_n 4 rfl rfl).symm k) = ix2 k q := funext fun a => Fin.ext (by
    match a with
    | ⟨0, _⟩ => exact (rhs_in_0 _ _).trans hk
    | ⟨1, _⟩ => exact rhs_in_1 _ _)
  rw [el, er]

/-! ## The two later contractions: a row of length 128 against a 128 × 128 matrix -/

/-- The left operand's row coordinate is the output's row. -/
theorem lhs_hid_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column coordinate is the contracted index. -/
theorem lhs_hid_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row coordinate is the contracted index. -/
theorem rhs_hid_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column coordinate is the output's column. -/
theorem rhs_hid_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product into a zero accumulator, read at row `p` and column `q`: the sum over the contracted index. -/
theorem matmul_hid_apply (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_hid_0 _ _
    | ⟨1, _⟩ => exact (lhs_hid_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_hid_0 _ _).trans hk
    | ⟨1, _⟩ => exact rhs_hid_1 _ _)
  rw [el, er]

/-! ## The bias row and the rectified linear unit -/

/-- The 1 × 128 bias, cast to its own shape and repeated down the 5000 rows, reads the bias at the column. -/
theorem bias_apply (b : Vec Ideal S1x128 .f32) (p : Fin 5000) (q : Fin 128) :
    broadcastTo S5000x128 (shapeCast S1x128 b shapeCasts_S1x128_S1x128) broadcasts_S1x128_S5000x128 (ix2 p q) = row1 b q := by
  rw [shapeCast_self]
  exact broadcastTo_apply b broadcasts_S1x128_S5000x128 (ix2 p q) (ix2 0 q) (fun a => by
    match a with
    | ⟨0, _⟩ => rfl
    | ⟨1, _⟩ => rfl)

/-- The maximum with the zero splat, row by row, is the rectified linear unit of the row. -/
theorem rowAt_relu (z : FVec Ideal S5000x128 .f32) (p : Fin 5000) :
    rowAt (maximumf z (broadcast S5000x128 (Scalar.ofBits (F := Ideal) .f32 0x00000000#32))) p = relu (rowAt z p) := by
  funext k
  show max (z (ix2 p k)) (Ideal.ofBits .f32 0x00000000#32) = max (z (ix2 p k)) 0
  rw [Ideal.ofBits_zero_f32]

/-! ## The layers, row by row -/

/-- The first layer's row `p`: the linear layer of the input's row `p`. -/
theorem rowAt_layer_in (x : Vec Ideal S5000x4 .f32) (W : Vec Ideal S4x128 .f32) (b : Vec Ideal S1x128 .f32) (p : Fin 5000) :
    rowAt (addf (matmul dot_S5000x4_S4x128_S5000x128_1_0_0_1_n_n none (truncf .bf16 x bitsLt_bf16_f32) (truncf .bf16 W bitsLt_bf16_f32) (constant (F := Ideal) S5000x128 .f32 0x00000000#32))
        (broadcastTo S5000x128 (shapeCast S1x128 b shapeCasts_S1x128_S1x128) broadcasts_S1x128_S5000x128)) p
      = dense (mat W) (row1 b) (rowAt x p) := by
  funext q
  show addf _ _ (ix2 p q) = _
  rw [addf_apply, matmul_in_apply, bias_apply]
  rfl

/-- A later layer's row `p`: the linear layer of its input's row `p`. -/
theorem rowAt_layer_hid (x : FVec Ideal S5000x128 .f32) (W : Vec Ideal S128x128 .f32) (b : Vec Ideal S1x128 .f32) (p : Fin 5000) :
    rowAt (addf (matmul dot_S5000x128_S128x128_S5000x128_1_0_0_1_n_n none (truncf .bf16 x bitsLt_bf16_f32) (truncf .bf16 W bitsLt_bf16_f32) (constant (F := Ideal) S5000x128 .f32 0x00000000#32))
        (broadcastTo S5000x128 (shapeCast S1x128 b shapeCasts_S1x128_S1x128) broadcasts_S1x128_S5000x128)) p
      = dense (mat W) (row1 b) (rowAt x p) := by
  funext q
  show addf _ _ (ix2 p q) = _
  rw [addf_apply, matmul_hid_apply, bias_apply]
  rfl

end Enc0

/-! ## The payload at an index -/

/-- The body's result at row `p` and column `q`: the three-layer network of the input block's row `p`, at column `q`. -/
theorem pay0_apply (x0 : Vec Ideal S5000x4 .f32) (W1 : Vec Ideal S4x128 .f32) (b1 : Vec Ideal S1x128 .f32) (W2 : Vec Ideal S128x128 .f32) (b2 : Vec Ideal S1x128 .f32) (W3 : Vec Ideal S128x128 .f32) (b3 : Vec Ideal S1x128 .f32) (p : Fin 5000) (q : Fin 128) :
    k0_pay1 (F := Ideal) x0 W1 b1 W2 b2 W3 b3 (ix2 p q) = mlp3 (mat W1) (row1 b1) (mat W2) (row1 b2) (mat W3) (row1 b3) (rowAt x0 p) q := by
  unfold k0_pay1
  refine (congrFun (Enc0.rowAt_layer_hid _ W3 b3 p) q).trans ?_
  rw [Enc0.rowAt_relu, Enc0.rowAt_layer_hid, Enc0.rowAt_relu, Enc0.rowAt_layer_in]
  rfl

/-! ## From the blocks to the array -/

namespace Enc0

variable (V : (c : Dev nD) → (b : Ref sig .tc) → Buf (Elt Ideal) ((c : Thread nD τ).loc b))

theorem hz : (![0, 0] : Fin 2 → Nat) = fun _ => 0 := funext fun a => by
  match a with
  | ⟨0, _⟩ => rfl
  | ⟨1, _⟩ => rfl

/-- The index maps, decided over the grid: the input rows' and the output rows' windows are at block `(t, 0)`,
    the weights' and the biases' windows at block `(0, 0)`. -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0)
    ∧ t.val < 10 :=
  (by decide +kernel : ∀ t : Fin grid0.N, _)

/-- The first layer's weights are staged whole: the block at any point is the array. -/
theorem blk1 (c : Dev nD) (t : Fin cfg0.N) :
    (iblk0 (F := Ideal) V c 1 t : Vec Ideal S4x128 .f32) = (V c main_arg3 : Vec Ideal S4x128 .f32) := by
  obtain ⟨-, ⟨e0, e1⟩, -⟩ := idx_facts t
  funext y
  show V c main_arg3 (((cfg0.win 1).blk t).view.emb y) = V c main_arg3 y
  refine congrArg _ (funext fun a => Fin.ext ?_)
  match a with
  | ⟨0, _⟩ => show win0_1.index t (0 : Fin 2) * 4 + 1 * (y 0).val = (y 0).val; omega
  | ⟨1, _⟩ => show win0_1.index t (1 : Fin 2) * 128 + 1 * (y 1).val = (y 1).val; omega

/-- The first layer's bias is staged whole. -/
theorem blk2 (c : Dev nD) (t : Fin cfg0.N) :
    (iblk0 (F := Ideal) V c 2 t : Vec Ideal S1x128 .f32) = (V c main_v4 : Vec Ideal S1x128 .f32) := by
  obtain ⟨-, -, ⟨e0, e1⟩, -⟩ := idx_facts t
  funext y
  show V c main_v4 (((cfg0.win 2).blk t).view.emb y) = V c main_v4 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- The second layer's weights are staged whole. -/
theorem blk3 (c : Dev nD) (t : Fin cfg0.N) :
    (iblk0 (F := Ideal) V c 3 t : Vec Ideal S128x128 .f32) = (V c main_arg5 : Vec Ideal S128x128 .f32) := by
  obtain ⟨-, -, -, ⟨e0, e1⟩, -⟩ := idx_facts t
  funext y
  show V c main_arg5 (((cfg0.win 3).blk t).view.emb y) = V c main_arg5 y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The second layer's bias is staged whole. -/
theorem blk4 (c : Dev nD) (t : Fin cfg0.N) :
    (iblk0 (F := Ideal) V c 4 t : Vec Ideal S1x128 .f32) = (V c main_v5 : Vec Ideal S1x128 .f32) := by
  obtain ⟨-, -, -, -, ⟨e0, e1⟩, -⟩ := idx_facts t
  funext y
  show V c main_v5 (((cfg0.win 4).blk t).view.emb y) = V c main_v5 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- The third layer's weights are staged whole. -/
theorem blk5 (c : Dev nD) (t : Fin cfg0.N) :
    (iblk0 (F := Ideal) V c 5 t : Vec Ideal S128x128 .f32) = (V c main_arg7 : Vec Ideal S128x128 .f32) := by
  obtain ⟨-, -, -, -, -, ⟨e0, e1⟩, -⟩ := idx_facts t
  funext y
  show V c main_arg7 (((cfg0.win 5).blk t).view.emb y) = V c main_arg7 y
  refine congrArg _ (funext fun a => Fin.ext ?_)
  match a with
  | ⟨0, _⟩ => show win0_5.index t (0 : Fin 2) * 128 + 1 * (y 0).val = (y 0).val; omega
  | ⟨1, _⟩ => show win0_5.index t (1 : Fin 2) * 128 + 1 * (y 1).val = (y 1).val; omega

/-- The third layer's bias is staged whole. -/
theorem blk6 (c : Dev nD) (t : Fin cfg0.N) :
    (iblk0 (F := Ideal) V c 6 t : Vec Ideal S1x128 .f32) = (V c main_v6 : Vec Ideal S1x128 .f32) := by
  obtain ⟨-, -, -, -, -, -, ⟨e0, e1⟩, -⟩ := idx_facts t
  funext y
  show V c main_v6 (((cfg0.win 6).blk t).view.emb y) = V c main_v6 y
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- Row `p` of the input block at point `t` is row `5000 t + p` of the input array. -/
theorem row_in (c : Dev nD) (t : Fin cfg0.N) (p : Fin 5000) (r : Fin 50000) (hr : r.val = t.val * 5000 + p.val) :
    rowAt (iblk0 (F := Ideal) V c 0 t : Vec Ideal S5000x4 .f32) p = rowAt (V c main_arg0 : A2 50000 4) r := by
  obtain ⟨⟨e0, e1⟩, -⟩ := idx_facts t
  funext k
  show V c main_arg0 (((cfg0.win 0).blk t).view.emb (ix2 p k)) = V c main_arg0 (ix2 r k)
  refine congrArg _ (funext fun a => Fin.ext ?_)
  match a with
  | ⟨0, _⟩ => show win0_0.index t (0 : Fin 2) * 5000 + 1 * p.val = r.val; omega
  | ⟨1, _⟩ => show win0_0.index t (1 : Fin 2) * 4 + 1 * k.val = k.val; omega

/-- Entry `(p, q)` of the output block at point `t` is entry `(5000 t + p, q)` of the output array. -/
theorem out_at (t : Fin cfg0.N) (p : Fin 5000) (q : Fin 128) (r : Fin 50000) (hr : r.val = t.val * 5000 + p.val) :
    (((cfg0.win 7).blk t).view.emb (ix2 p q) : S50000x128.Idx) = ix2 r q := by
  obtain ⟨-, -, -, -, -, -, -, ⟨e0, e1⟩, -⟩ := idx_facts t
  refine funext fun a => Fin.ext ?_
  match a with
  | ⟨0, _⟩ => show win0_7.index t (0 : Fin 2) * 5000 + 1 * p.val = r.val; omega
  | ⟨1, _⟩ => show win0_7.index t (1 : Fin 2) * 128 + 1 * q.val = q.val; omega

/-- What point `t` writes back is block `t` of the three-layer network applied to every row of the input array. -/
theorem flushed_eq (c : Dev nD) (t : Fin cfg0.N) :
    (dat0 (F := Ideal) V c).flushed 7 t = ((cfg0.win 7).blk t).view.read (Elt Ideal)
      (Net.encode (mat (V c main_arg3)) (row1 (V c main_v4)) (mat (V c main_arg5)) (row1 (V c main_v5)) (mat (V c main_arg7)) (row1 (V c main_v6)) (V c main_arg0)) := by
  show (cfg0.win 7).cut (grid0.coords t) ((dat0 V c).after 7 t) = _
  rw [after0_7]
  unfold out0_7
  rw [View.canon_unit_zero hz]
  simp only [View.ld_unit_zero (S := S5000x4) hz, View.ld_unit_zero (S := S4x128) hz, View.ld_unit_zero (S := S1x128) hz, View.ld_unit_zero (S := S128x128) hz]
  rw [blk1, blk2, blk3, blk4, blk5, blk6]
  refine funext fun (j : S5000x128.Idx) => ?_
  obtain ⟨p, q, rfl⟩ : ∃ (p : Fin 5000) (q : Fin 128), j = ix2 p q := ⟨j 0, j 1, eq_ix2 j⟩
  have ht : t.val < 10 := (idx_facts t).2.2.2.2.2.2.2.2
  have hr : t.val * 5000 + p.val < 50000 := by have := p.isLt; omega
  show k0_pay1 (F := Ideal) (iblk0 V c 0 t) (V c main_arg3) (V c main_v4) (V c main_arg5) (V c main_v5) (V c main_arg7) (V c main_v6) (ix2 p q)
    = Net.encode (mat (V c main_arg3)) (row1 (V c main_v4)) (mat (V c main_arg5)) (row1 (V c main_v5)) (mat (V c main_arg7)) (row1 (V c main_v6)) (V c main_arg0)
        (((cfg0.win 7).blk t).view.emb (ix2 p q))
  rw [pay0_apply, out_at t p q ⟨t.val * 5000 + p.val, hr⟩ rfl, row_in V c t p ⟨t.val * 5000 + p.val, hr⟩ rfl]
  rfl

/-- An index of the array is in point `t`'s block iff each coordinate is in the block's range on its axis. -/
theorem mem_blk (t : Fin cfg0.N) (i : S50000x128.Idx) :
    i ∈ ((cfg0.win 7).blk t).view.set ↔ ∀ a : Fin 2, win0_7.index t a * S5000x128.size a ≤ (i a).val ∧ (i a).val < win0_7.index t a * S5000x128.size a + S5000x128.size a := by
  show i ∈ ((View.whole main_v7).slice (win0_7.rect t)).set ↔ _
  rw [View.set_slice_whole, Rect.mem_set_unit]
  exact Iff.rfl

/-- Every row of the array is in some point's block: row `r` in the block of point `r / 5000`. -/
theorem cover (i : S50000x128.Idx) :
    ∃ t : Fin cfg0.N, (cfg0.win 7).flush t = true ∧ i ∈ ((cfg0.win 7).blk t).view.set := by
  have hi0 : (i 0).val < 50000 := (i 0).isLt
  have hi1 : (i 1).val < 128 := (i 1).isLt
  have hN : cfg0.N = 10 := N_0
  have hlt : (i 0).val / 5000 < cfg0.N := by rw [hN]; omega
  obtain ⟨-, -, -, -, -, -, -, ⟨e0, e1⟩, -⟩ := idx_facts ⟨(i 0).val / 5000, hlt⟩
  have e0' : win0_7.index ⟨(i 0).val / 5000, hlt⟩ (0 : Fin 2) = (i 0).val / 5000 := e0
  refine ⟨⟨(i 0).val / 5000, hlt⟩, flush0_7 _, ?_⟩
  rw [mem_blk]
  intro a
  match a with
  | ⟨0, _⟩ => show win0_7.index ⟨(i 0).val / 5000, hlt⟩ (0 : Fin 2) * 5000 ≤ (i 0).val ∧ (i 0).val < win0_7.index ⟨(i 0).val / 5000, hlt⟩ (0 : Fin 2) * 5000 + 5000; omega
  | ⟨1, _⟩ => show win0_7.index ⟨(i 0).val / 5000, hlt⟩ (1 : Fin 2) * 128 ≤ (i 1).val ∧ (i 1).val < win0_7.index ⟨(i 0).val / 5000, hlt⟩ (1 : Fin 2) * 128 + 128; omega

end Enc0

/-- The array the region leaves: the three-layer network applied to every row of the input array. -/
theorem arr0 (V : (c : Dev nD) → (b : Ref sig .tc) → Buf (Elt Ideal) ((c : Thread nD τ).loc b)) (c : Dev nD) :
    (dat0 (F := Ideal) V c).arrAt 7 cfg0.N = Net.encode (mat (V c main_arg3)) (row1 (V c main_v4)) (mat (V c main_arg5)) (row1 (V c main_v5)) (mat (V c main_arg7)) (row1 (V c main_v6)) (V c main_arg0) :=
  (dat0 (F := Ideal) V c).arrAt_eq_of_cover 7 _ (fun t _ => Enc0.flushed_eq V c t) Enc0.cover

end Cert.KernelIdeal.Val

end
-- ==== Proof.KIn0.lean ====
/-
  What region 0's input windows hold when the region is entered: each array the region stages, read back through the
  host operations and the earlier regions to the launch arrays and the earlier stages' results. No operation between
  a buffer's writer and this region overwrites it, so a buffer holds what its writer left; a slice of a stacked weight
  array is that array at the slice's indices, and a reshaped bias row is the bias row.
-/
import proofs.«425516_j47425028883052_2_alg».proof.Proof.KDefs
import Idealize.ShloMosaic.Lib.ValueLayout

set_option maxRecDepth 16384

noncomputable section

namespace Cert.KernelIdeal.In0

open Idealize.ShloMosaic Idealize.ShloMosaic.TcCoe Idealize.ShloMosaic.ValueIdx Idealize.SL.Sem Cert.KernelIdeal Cert.KernelIdeal.Gen Cert.Spec Cert.Net Cert.KernelIdeal.K

variable (m : (ℓ : Loc nD τ sig) → Buf (Elt Ideal) ℓ) (ρ : Dev nD → PrngReg) (c : Dev nD)

/-- A stretch of host operations leaves a buffer that none of its operations writes as it was. -/
local macro "host_skip " h:ident : tactic => `(tactic| (
  refine StableHlo.after_of_forall_not_mem _ _ (List.forall_iff_forall_mem.mp ?_)
  simp only [$h:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- Row `t` of the two-row edge list, flattened, read at an edge: the edge list's entry `(t, i)`. -/
theorem row_apply (x : IVec S2x400000 32) (t : Fin 2) (o : Nat) (ho : t.val = o)
    (hs : S2x400000.Slices ![o, 0] S1x400000) (i : Fin 400000) :
    shapeCast S400000 (extractStridedSlice S1x400000 ![o, 0] x hs) shapeCasts_S1x400000_S400000 (ix1 i) = x (ix2 t i) := by
  rw [shapeCast_1a_a_apply]
  exact slice2_axis0_apply o x hs 0 i t (by rw [ho]; rfl)

/-- A bias row reshaped to one row of a matrix is the bias row. -/
theorem row1_reshape (v : FVec Ideal S128 .f32) :
    row1 (shapeCast S1x128 v shapeCasts_S128_S1x128) = vec v := by
  funext j
  exact shapeCast_a_1a_apply v shapeCasts_S128_S1x128 0 j

theorem x : V1 (F := Ideal) m ρ c main_arg0 = (m ((c : Thread nD τ).loc main_arg0)) := by
  show StableHlo.after hostOps0 (W0 m ρ c) (Proc.devRef .tc main_arg0) = _
  host_skip hostOps0

theorem W1 : V1 (F := Ideal) m ρ c main_arg3 = (m ((c : Thread nD τ).loc main_arg3)) := by
  show StableHlo.after hostOps0 (W0 m ρ c) (Proc.devRef .tc main_arg3) = _
  host_skip hostOps0

theorem b1 : row1 (V1 (F := Ideal) m ρ c main_v4) = vec (m ((c : Thread nD τ).loc main_arg4)) := by
  have e : V1 (F := Ideal) m ρ c main_v4 = shapeCast S1x128 (m ((c : Thread nD τ).loc main_arg4)) shapeCasts_S128_S1x128 := by
    show StableHlo.after hostOps0 (W0 m ρ c) (Proc.devRef .tc main_v4) = _
    after_results
    rfl
  rw [e, row1_reshape]

theorem W2 : V1 (F := Ideal) m ρ c main_arg5 = (m ((c : Thread nD τ).loc main_arg5)) := by
  show StableHlo.after hostOps0 (W0 m ρ c) (Proc.devRef .tc main_arg5) = _
  host_skip hostOps0

theorem b2 : row1 (V1 (F := Ideal) m ρ c main_v5) = vec (m ((c : Thread nD τ).loc main_arg6)) := by
  have e : V1 (F := Ideal) m ρ c main_v5 = shapeCast S1x128 (m ((c : Thread nD τ).loc main_arg6)) shapeCasts_S128_S1x128 := by
    show StableHlo.after hostOps0 (W0 m ρ c) (Proc.devRef .tc main_v5) = _
    after_results
    rfl
  rw [e, row1_reshape]

theorem W3 : V1 (F := Ideal) m ρ c main_arg7 = (m ((c : Thread nD τ).loc main_arg7)) := by
  show StableHlo.after hostOps0 (W0 m ρ c) (Proc.devRef .tc main_arg7) = _
  host_skip hostOps0

theorem b3 : row1 (V1 (F := Ideal) m ρ c main_v6) = vec (m ((c : Thread nD τ).loc main_arg8)) := by
  have e : V1 (F := Ideal) m ρ c main_v6 = shapeCast S1x128 (m ((c : Thread nD τ).loc main_arg8)) shapeCasts_S128_S1x128 := by
    show StableHlo.after hostOps0 (W0 m ρ c) (Proc.devRef .tc main_v6) = _
    after_results
    rfl
  rw [e, row1_reshape]

/-- The senders' vector is row 0 of the edge list, flattened; the receivers' vector is row 1. -/
theorem src_def : src m ρ c = shapeCast S400000 (extractStridedSlice S1x400000 ![0, 0] (m ((c : Thread nD τ).loc main_arg2)) slices_S2x400000_S1x400000_0_0) shapeCasts_S1x400000_S400000 := by
  unfold src
  show StableHlo.after hostOps0 (W0 m ρ c) (Proc.devRef .tc main_v1) = _
  after_results
  rfl

theorem dst_def : dst m ρ c = shapeCast S400000 (extractStridedSlice S1x400000 ![1, 0] (m ((c : Thread nD τ).loc main_arg2)) slices_S2x400000_S1x400000_1_0) shapeCasts_S1x400000_S400000 := by
  unfold dst
  show StableHlo.after hostOps0 (W0 m ρ c) (Proc.devRef .tc main_v3) = _
  after_results
  rfl

/-- Where every entry of the edge list is a node index, so is every sender and every receiver. -/
theorem src_inrange (hidx : ∀ i : S2x400000.Idx, (0 : Int) ≤ ((m ((c : Thread nD τ).loc main_arg2)) i).toInt ∧ ((m ((c : Thread nD τ).loc main_arg2)) i).toInt < 50000) :
    ∀ i, (0 : Int) ≤ (src m ρ c i).toInt ∧ (src m ρ c i).toInt < 50000 := by
  intro i
  obtain ⟨a, rfl⟩ : ∃ a, i = ix1 a := ⟨i 0, eq_ix1 i⟩
  rw [src_def, row_apply _ 0 0 rfl]
  exact hidx _

theorem dst_inrange (hidx : ∀ i : S2x400000.Idx, (0 : Int) ≤ ((m ((c : Thread nD τ).loc main_arg2)) i).toInt ∧ ((m ((c : Thread nD τ).loc main_arg2)) i).toInt < 50000) :
    ∀ i, (0 : Int) ≤ (dst m ρ c i).toInt ∧ (dst m ρ c i).toInt < 50000 := by
  intro i
  obtain ⟨a, rfl⟩ : ∃ a, i = ix1 a := ⟨i 0, eq_ix1 i⟩
  rw [dst_def, row_apply _ 1 1 rfl]
  exact hidx _

end Cert.KernelIdeal.In0

end
-- ==== Proof.KVal1.lean ====
/-
  The edge encoder's region: what its body computes at an index, and the array it leaves.

  The body takes a block of 5000 input rows and the three layers' weights and biases, and applies the
  three-layer network to every row of the block. The grid's point `t` handles rows `5000 t … 5000 t + 4999`
  of the input and writes the same rows of the output; the weights and biases are staged whole at every point.
  So the output array ends holding the three-layer network of every input row.
-/
import proofs.«425516_j47425028883052_2_alg».proof.Proof.Gen.KernelIdeal.Frame
import proofs.«425516_j47425028883052_2_alg».proof.Proof.Net
import Idealize.ShloMosaic.PureOps.Ideal.Laws
import Idealize.ShloMosaic.Lib.ValueIdx
import Idealize.ShloMosaic.Lib.Pipeline.Value

noncomputable section

namespace Cert.KernelIdeal.Val

open Idealize.ShloMosaic Idealize.ShloMosaic.TcCoe Idealize.ShloMosaic.ValueIdx Idealize.SL.Sem Cert.KernelIdeal Cert.KernelIdeal.Gen Cert.Spec Cert.Net
open Idealize.ShloMosaic.Pipeline (Dat)

set_option maxRecDepth 16384

namespace Enc1

/-! ## The first contraction: a row of length 3 against a 3 × 128 matrix -/

/-- The left operand's row coordinate is the output's row. -/
theorem lhs_in_0 (i : S5000x128.Idx) (q : dot_S5000x3_S3x128_S5000x128_1_0_0_1_n_n.contr.Idx) :
    (dot_S5000x3_S3x128_S5000x128_1_0_0_1_n_n.lhsIdx i q 0).val = (i 0).val := by
  unfold DotDims.lhsIdx
  rw [dif_neg (show ¬(0 : Fin S5000x3.rank) ∈ dot_S5000x3_S3x128_S5000x128_1_0_0_1_n_n.lhsBatch by decide), dif_pos (show (0 : Fin S5000x3.rank) ∈ dot_S5000x3_S3x128_S5000x128_1_0_0_1_n_n.lhsNonContracting by decide)]
  rfl
/-- The left operand's column coordinate is the contracted index. -/
theorem lhs_in_1 (i : S5000x128.Idx) (q : dot_S5000x3_S3x128_S5000x128_1_0_0_1_n_n.contr.Idx) :
    (dot_S5000x3_S3x128_S5000x128_1_0_0_1_n_n.lhsIdx i q 1).val = (q ⟨0, by decide⟩).val :=
  dot_S5000x3_S3x128_S5000x128_1_0_0_1_n_n.lhsIdx_val_of_single rfl i q
/-- The right operand's row coordinate is the contracted index. -/
theorem rhs_in_0 (i : S5000x128.Idx) (q : dot_S5000x3_S3x128_S5000x128_1_0_0_1_n_n.contr.Idx) :
    (dot_S5000x3_S3x128_S5000x128_1_0_0_1_n_n.rhsIdx i q 0).val = (q ⟨0, by decide⟩).val :=
  dot_S5000x3_S3x128_S5000x128_1_0_0_1_n_n.rhsIdx_val_of_single rfl i q
/-- The right operand's column coordinate is the output's column. -/
theorem rhs_in_1 (i : S5000x128.Idx) (q : dot_S5000x3_S3x128_S5000x128_1_0_0_1_n_n.contr.Idx) :
    (dot_S5000x3_S3x128_S5000x128_1_0_0_1_n_n.rhsIdx i q 1).val = (i 1).val := by
  unfold DotDims.rhsIdx
  rw [dif_neg (show ¬(1 : Fin S3x128.rank) ∈ dot_S5000x3_S3x128_S5000x128_1_0_0_1_n_n.rhsBatch by decide), dif_pos (show (1 : Fin S3x128.rank) ∈ dot_S5000x3_S3x128_S5000x128_1_0_0_1_n_n.rhsNonContracting by decide)]
  rfl

/-- The product into a zero accumulator, read at row `p` and column `q`: the sum over the contracted index. -/
theorem matmul_in_apply (l : FVec Ideal S5000x3 .bf16) (r : FVec Ideal S3x128 .bf16) (p : Fin 5000) (q : Fin 128) :
    matmul dot_S5000x3_S3x128_S5000x128_1_0_0_1_n_n none l r (constant (F := Ideal) S5000x128 .f32 0x00000000#32) (ix2 p q)
      = ∑ k : Fin 3, l (ix2 p k) * r (ix2 k q) := by
  simp only [matmul]
  rw [Ideal.matmul_constant_zero_apply, ← Equiv.sum_comp (contrEquiv1 dot_S5000x3_S3x128_S5000x128_1_0_0_1_n_n 3 rfl rfl).symm]
  refine Finset.sum_congr rfl fun k _ => ?_
  have hk := contrEquiv1_symm_val dot_S5000x3_S3x128_S5000x128_1_0_0_1_n_n 3 rfl rfl k
  have el : dot_S5000x3_S3x128_S5000x128_1_0_0_1_n_n.lhsIdx (ix2 p q) ((contrEquiv1 dot_S5000x3_S3x128_S5000x128_1_0_0_1_n_n 3 rfl rfl).symm k) = ix2 p k := funext fun a => Fin.ext (by
    match a with
    | ⟨0, _⟩ => exact lhs_in_0 _ _
    | ⟨1, _⟩ => exact (lhs_in_1 _ _).trans hk)
  have er : dot_S5000x3_S3x128_S5000x128_1_0_0_1_n_n.rhsIdx (ix2 p q) ((contrEquiv1 dot_S5000x3_S3x128_S5000x128_1_0_0_1_n_n 3 rfl rfl).symm k) = ix2 k q := funext fun a => Fin.ext (by
    match a with
    | ⟨0, _⟩ => exact (rhs_in_0 _ _).trans hk
    | ⟨1, _⟩ => exact rhs_in_1 _ _)
  rw [el, er]

/-! ## The two later contractions: a row of length 128 against a 128 × 128 matrix -/

/-- The left operand's row coordinate is the output's row. -/
theorem lhs_hid_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column coordinate is the contracted index. -/
theorem lhs_hid_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row coordinate is the contracted index. -/
theorem rhs_hid_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column coordinate is the output's column. -/
theorem rhs_hid_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product into a zero accumulator, read at row `p` and column `q`: the sum over the contracted index. -/
theorem matmul_hid_apply (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_hid_0 _ _
    | ⟨1, _⟩ => exact (lhs_hid_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_hid_0 _ _).trans hk
    | ⟨1, _⟩ => exact rhs_hid_1 _ _)
  rw [el, er]

/-! ## The bias row and the rectified linear unit -/

/-- The 1 × 128 bias, cast to its own shape and repeated down the 5000 rows, reads the bias at the column. -/
theorem bias_apply (b : Vec Ideal S1x128 .f32) (p : Fin 5000) (q : Fin 128) :
    broadcastTo S5000x128 (shapeCast S1x128 b shapeCasts_S1x128_S1x128) broadcasts_S1x128_S5000x128 (ix2 p q) = row1 b q := by
  rw [shapeCast_self]
  exact broadcastTo_apply b broadcasts_S1x128_S5000x128 (ix2 p q) (ix2 0 q) (fun a => by
    match a with
    | ⟨0, _⟩ => rfl
    | ⟨1, _⟩ => rfl)

/-- The maximum with the zero splat, row by row, is the rectified linear unit of the row. -/
theorem rowAt_relu (z : FVec Ideal S5000x128 .f32) (p : Fin 5000) :
    rowAt (maximumf z (broadcast S5000x128 (Scalar.ofBits (F := Ideal) .f32 0x00000000#32))) p = relu (rowAt z p) := by
  funext k
  show max (z (ix2 p k)) (Ideal.ofBits .f32 0x00000000#32) = max (z (ix2 p k)) 0
  rw [Ideal.ofBits_zero_f32]

/-! ## The layers, row by row -/

/-- The first layer's row `p`: the linear layer of the input's row `p`. -/
theorem rowAt_layer_in (x : Vec Ideal S5000x3 .f32) (W : Vec Ideal S3x128 .f32) (b : Vec Ideal S1x128 .f32) (p : Fin 5000) :
    rowAt (addf (matmul dot_S5000x3_S3x128_S5000x128_1_0_0_1_n_n none (truncf .bf16 x bitsLt_bf16_f32) (truncf .bf16 W bitsLt_bf16_f32) (constant (F := Ideal) S5000x128 .f32 0x00000000#32))
        (broadcastTo S5000x128 (shapeCast S1x128 b shapeCasts_S1x128_S1x128) broadcasts_S1x128_S5000x128)) p
      = dense (mat W) (row1 b) (rowAt x p) := by
  funext q
  show addf _ _ (ix2 p q) = _
  rw [addf_apply, matmul_in_apply, bias_apply]
  rfl

/-- A later layer's row `p`: the linear layer of its input's row `p`. -/
theorem rowAt_layer_hid (x : FVec Ideal S5000x128 .f32) (W : Vec Ideal S128x128 .f32) (b : Vec Ideal S1x128 .f32) (p : Fin 5000) :
    rowAt (addf (matmul dot_S5000x128_S128x128_S5000x128_1_0_0_1_n_n none (truncf .bf16 x bitsLt_bf16_f32) (truncf .bf16 W bitsLt_bf16_f32) (constant (F := Ideal) S5000x128 .f32 0x00000000#32))
        (broadcastTo S5000x128 (shapeCast S1x128 b shapeCasts_S1x128_S1x128) broadcasts_S1x128_S5000x128)) p
      = dense (mat W) (row1 b) (rowAt x p) := by
  funext q
  show addf _ _ (ix2 p q) = _
  rw [addf_apply, matmul_hid_apply, bias_apply]
  rfl

end Enc1

/-! ## The payload at an index -/

/-- The body's result at row `p` and column `q`: the three-layer network of the input block's row `p`, at column `q`. -/
theorem pay1_apply (x0 : Vec Ideal S5000x3 .f32) (W1 : Vec Ideal S3x128 .f32) (b1 : Vec Ideal S1x128 .f32) (W2 : Vec Ideal S128x128 .f32) (b2 : Vec Ideal S1x128 .f32) (W3 : Vec Ideal S128x128 .f32) (b3 : Vec Ideal S1x128 .f32) (p : Fin 5000) (q : Fin 128) :
    k1_pay1 (F := Ideal) x0 W1 b1 W2 b2 W3 b3 (ix2 p q) = mlp3 (mat W1) (row1 b1) (mat W2) (row1 b2) (mat W3) (row1 b3) (rowAt x0 p) q := by
  unfold k1_pay1
  refine (congrFun (Enc1.rowAt_layer_hid _ W3 b3 p) q).trans ?_
  rw [Enc1.rowAt_relu, Enc1.rowAt_layer_hid, Enc1.rowAt_relu, Enc1.rowAt_layer_in]
  rfl

/-! ## From the blocks to the array -/

namespace Enc1

variable (V : (c : Dev nD) → (b : Ref sig .tc) → Buf (Elt Ideal) ((c : Thread nD τ).loc b))

theorem hz : (![0, 0] : Fin 2 → Nat) = fun _ => 0 := funext fun a => by
  match a with
  | ⟨0, _⟩ => rfl
  | ⟨1, _⟩ => rfl

/-- The index maps, decided over the grid: the input rows' and the output rows' windows are at block `(t, 0)`,
    the weights' and the biases' windows at block `(0, 0)`. -/
theorem idx_facts : ∀ t : Fin cfg1.N,
    (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = t.val ∧ win1_7.index t (1 : Fin 2) = 0)
    ∧ t.val < 80 :=
  (by decide +kernel : ∀ t : Fin grid1.N, _)

/-- The first layer's weights are staged whole: the block at any point is the array. -/
theorem blk1 (c : Dev nD) (t : Fin cfg1.N) :
    (iblk1 (F := Ideal) V c 1 t : Vec Ideal S3x128 .f32) = (V c main_arg9 : Vec Ideal S3x128 .f32) := by
  obtain ⟨-, ⟨e0, e1⟩, -⟩ := idx_facts t
  funext y
  show V c main_arg9 (((cfg1.win 1).blk t).view.emb y) = V c main_arg9 y
  refine congrArg _ (funext fun a => Fin.ext ?_)
  match a with
  | ⟨0, _⟩ => show win1_1.index t (0 : Fin 2) * 3 + 1 * (y 0).val = (y 0).val; omega
  | ⟨1, _⟩ => show win1_1.index t (1 : Fin 2) * 128 + 1 * (y 1).val = (y 1).val; omega

/-- The first layer's bias is staged whole. -/
theorem blk2 (c : Dev nD) (t : Fin cfg1.N) :
    (iblk1 (F := Ideal) V c 2 t : Vec Ideal S1x128 .f32) = (V c main_v8 : Vec Ideal S1x128 .f32) := by
  obtain ⟨-, -, ⟨e0, e1⟩, -⟩ := idx_facts t
  funext y
  show V c main_v8 (((cfg1.win 2).blk t).view.emb y) = V c main_v8 y
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- The second layer's weights are staged whole. -/
theorem blk3 (c : Dev nD) (t : Fin cfg1.N) :
    (iblk1 (F := Ideal) V c 3 t : Vec Ideal S128x128 .f32) = (V c main_arg11 : Vec Ideal S128x128 .f32) := by
  obtain ⟨-, -, -, ⟨e0, e1⟩, -⟩ := idx_facts t
  funext y
  show V c main_arg11 (((cfg1.win 3).blk t).view.emb y) = V c main_arg11 y
  refine congrArg _ (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- The second layer's bias is staged whole. -/
theorem blk4 (c : Dev nD) (t : Fin cfg1.N) :
    (iblk1 (F := Ideal) V c 4 t : Vec Ideal S1x128 .f32) = (V c main_v9 : Vec Ideal S1x128 .f32) := by
  obtain ⟨-, -, -, -, ⟨e0, e1⟩, -⟩ := idx_facts t
  funext y
  show V c main_v9 (((cfg1.win 4).blk t).view.emb y) = V c main_v9 y
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- The third layer's weights are staged whole. -/
theorem blk5 (c : Dev nD) (t : Fin cfg1.N) :
    (iblk1 (F := Ideal) V c 5 t : Vec Ideal S128x128 .f32) = (V c main_arg13 : Vec Ideal S128x128 .f32) := by
  obtain ⟨-, -, -, -, -, ⟨e0, e1⟩, -⟩ := idx_facts t
  funext y
  show V c main_arg13 (((cfg1.win 5).blk t).view.emb y) = V c main_arg13 y
  refine congrArg _ (funext fun a => Fin.ext ?_)
  match a with
  | ⟨0, _⟩ => show win1_5.index t (0 : Fin 2) * 128 + 1 * (y 0).val = (y 0).val; omega
  | ⟨1, _⟩ => show win1_5.index t (1 : Fin 2) * 128 + 1 * (y 1).val = (y 1).val; omega

/-- The third layer's bias is staged whole. -/
theorem blk6 (c : Dev nD) (t : Fin cfg1.N) :
    (iblk1 (F := Ideal) V c 6 t : Vec Ideal S1x128 .f32) = (V c main_v10 : Vec Ideal S1x128 .f32) := by
  obtain ⟨-, -, -, -, -, -, ⟨e0, e1⟩, -⟩ := idx_facts t
  funext y
  show V c main_v10 (((cfg1.win 6).blk t).view.emb y) = V c main_v10 y
  refine congrArg _ (funext fun a => Fin.ext ?_)
  match a with
  | ⟨0, _⟩ => show win1_6.index t (0 : Fin 2) * 1 + 1 * (y 0).val = (y 0).val; omega
  | ⟨1, _⟩ => show win1_6.index t (1 : Fin 2) * 128 + 1 * (y 1).val = (y 1).val; omega

/-- Row `p` of the input block at point `t` is row `5000 t + p` of the input array. -/
theorem row_in (c : Dev nD) (t : Fin cfg1.N) (p : Fin 5000) (r : Fin 400000) (hr : r.val = t.val * 5000 + p.val) :
    rowAt (iblk1 (F := Ideal) V c 0 t : Vec Ideal S5000x3 .f32) p = rowAt (V c main_arg1 : A2 400000 3) r := by
  obtain ⟨⟨e0, e1⟩, -⟩ := idx_facts t
  funext k
  show V c main_arg1 (((cfg1.win 0).blk t).view.emb (ix2 p k)) = V c main_arg1 (ix2 r k)
  refine congrArg _ (funext fun a => Fin.ext ?_)
  match a with
  | ⟨0, _⟩ => show win1_0.index t (0 : Fin 2) * 5000 + 1 * p.val = r.val; omega
  | ⟨1, _⟩ => show win1_0.index t (1 : Fin 2) * 3 + 1 * k.val = k.val; omega

/-- Entry `(p, q)` of the output block at point `t` is entry `(5000 t + p, q)` of the output array. -/
theorem out_at (t : Fin cfg1.N) (p : Fin 5000) (q : Fin 128) (r : Fin 400000) (hr : r.val = t.val * 5000 + p.val) :
    (((cfg1.win 7).blk t).view.emb (ix2 p q) : S400000x128.Idx) = ix2 r q := by
  obtain ⟨-, -, -, -, -, -, -, ⟨e0, e1⟩, -⟩ := idx_facts t
  refine funext fun a => Fin.ext ?_
  match a with
  | ⟨0, _⟩ => show win1_7.index t (0 : Fin 2) * 5000 + 1 * p.val = r.val; omega
  | ⟨1, _⟩ => show win1_7.index t (1 : Fin 2) * 128 + 1 * q.val = q.val; omega

/-- What point `t` writes back is block `t` of the three-layer network applied to every row of the input array. -/
theorem flushed_eq (c : Dev nD) (t : Fin cfg1.N) :
    (dat1 (F := Ideal) V c).flushed 7 t = ((cfg1.win 7).blk t).view.read (Elt Ideal)
      (Net.encode (mat (V c main_arg9)) (row1 (V c main_v8)) (mat (V c main_arg11)) (row1 (V c main_v9)) (mat (V c main_arg13)) (row1 (V c main_v10)) (V c main_arg1)) := by
  show (cfg1.win 7).cut (grid1.coords t) ((dat1 V c).after 7 t) = _
  rw [after1_7]
  unfold out1_7
  rw [View.canon_unit_zero hz]
  simp only [View.ld_unit_zero (S := S5000x3) hz, View.ld_unit_zero (S := S3x128) hz, View.ld_unit_zero (S := S1x128) hz, View.ld_unit_zero (S := S128x128) hz]
  rw [blk1, blk2, blk3, blk4, blk5, blk6]
  refine funext fun (j : S5000x128.Idx) => ?_
  obtain ⟨p, q, rfl⟩ : ∃ (p : Fin 5000) (q : Fin 128), j = ix2 p q := ⟨j 0, j 1, eq_ix2 j⟩
  have ht : t.val < 80 := (idx_facts t).2.2.2.2.2.2.2.2
  have hr : t.val * 5000 + p.val < 400000 := by have := p.isLt; omega
  show k1_pay1 (F := Ideal) (iblk1 V c 0 t) (V c main_arg9) (V c main_v8) (V c main_arg11) (V c main_v9) (V c main_arg13) (V c main_v10) (ix2 p q)
    = Net.encode (mat (V c main_arg9)) (row1 (V c main_v8)) (mat (V c main_arg11)) (row1 (V c main_v9)) (mat (V c main_arg13)) (row1 (V c main_v10)) (V c main_arg1)
        (((cfg1.win 7).blk t).view.emb (ix2 p q))
  rw [pay1_apply, out_at t p q ⟨t.val * 5000 + p.val, hr⟩ rfl, row_in V c t p ⟨t.val * 5000 + p.val, hr⟩ rfl]
  rfl

/-- An index of the array is in point `t`'s block iff each coordinate is in the block's range on its axis. -/
theorem mem_blk (t : Fin cfg1.N) (i : S400000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v11).slice (win1_7.rect t)).set ↔ _
  rw [View.set_slice_whole, Rect.mem_set_unit]
  exact Iff.rfl

/-- Every row of the array is in some point's block: row `r` in the block of point `r / 5000`. -/
theorem cover (i : S400000x128.Idx) :
    ∃ t : Fin cfg1.N, (cfg1.win 7).flush t = true ∧ i ∈ ((cfg1.win 7).blk t).view.set := by
  have hi0 : (i 0).val < 400000 := (i 0).isLt
  have hi1 : (i 1).val < 128 := (i 1).isLt
  have hN : cfg1.N = 80 := N_1
  have hlt : (i 0).val / 5000 < cfg1.N := by rw [hN]; omega
  obtain ⟨-, -, -, -, -, -, -, ⟨e0, e1⟩, -⟩ := idx_facts ⟨(i 0).val / 5000, hlt⟩
  have e0' : win1_7.index ⟨(i 0).val / 5000, hlt⟩ (0 : Fin 2) = (i 0).val / 5000 := e0
  refine ⟨⟨(i 0).val / 5000, hlt⟩, flush1_7 _, ?_⟩
  rw [mem_blk]
  intro a
  match a with
  | ⟨0, _⟩ => show win1_7.index ⟨(i 0).val / 5000, hlt⟩ (0 : Fin 2) * 5000 ≤ (i 0).val ∧ (i 0).val < win1_7.index ⟨(i 0).val / 5000, hlt⟩ (0 : Fin 2) * 5000 + 5000; omega
  | ⟨1, _⟩ => show win1_7.index ⟨(i 0).val / 5000, hlt⟩ (1 : Fin 2) * 128 ≤ (i 1).val ∧ (i 1).val < win1_7.index ⟨(i 0).val / 5000, hlt⟩ (1 : Fin 2) * 128 + 128; omega

end Enc1

/-- The array the region leaves: the three-layer network applied to every row of the input array. -/
theorem arr1 (V : (c : Dev nD) → (b : Ref sig .tc) → Buf (Elt Ideal) ((c : Thread nD τ).loc b)) (c : Dev nD) :
    (dat1 (F := Ideal) V c).arrAt 7 cfg1.N = Net.encode (mat (V c main_arg9)) (row1 (V c main_v8)) (mat (V c main_arg11)) (row1 (V c main_v9)) (mat (V c main_arg13)) (row1 (V c main_v10)) (V c main_arg1) :=
  (dat1 (F := Ideal) V c).arrAt_eq_of_cover 7 _ (fun t _ => Enc1.flushed_eq V c t) Enc1.cover

end Cert.KernelIdeal.Val

end
-- ==== Proof.KIn1.lean ====
/-
  What region 1's input windows hold when the region is entered: each array the region stages, read back through the
  host operations and the earlier regions to the launch arrays and the earlier stages' results. No operation between
  a buffer's writer and this region overwrites it, so a buffer holds what its writer left; a slice of a stacked weight
  array is that array at the slice's indices, and a reshaped bias row is the bias row.
-/
import proofs.«425516_j47425028883052_2_alg».proof.Proof.KDefs
import Idealize.ShloMosaic.Lib.ValueLayout

set_option maxRecDepth 16384

noncomputable section

namespace Cert.KernelIdeal.In1

open Idealize.ShloMosaic Idealize.ShloMosaic.TcCoe Idealize.ShloMosaic.ValueIdx Idealize.SL.Sem Cert.KernelIdeal Cert.KernelIdeal.Gen Cert.Spec Cert.Net Cert.KernelIdeal.K

variable (m : (ℓ : Loc nD τ sig) → Buf (Elt Ideal) ℓ) (ρ : Dev nD → PrngReg) (c : Dev nD)

/-- A stretch of host operations leaves a buffer that none of its operations writes as it was. -/
local macro "host_skip " h:ident : tactic => `(tactic| (
  refine StableHlo.after_of_forall_not_mem _ _ (List.forall_iff_forall_mem.mp ?_)
  simp only [$h:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- A launch array that region 0 does not stage and the first host stretch does not write holds, at region 0's exit,
    its launch contents. -/
local macro "at_launch " b:ident : tactic => `(tactic| (
  rw [W2_of_ne _ _ _ $b:ident (by decide)]
  show StableHlo.after hostOps0 _ (Proc.devRef .tc $b:ident) = _
  host_skip hostOps0))

/-- A bias row reshaped to one row of a matrix is the bias row. -/
theorem row1_reshape (v : FVec Ideal S128 .f32) :
    row1 (shapeCast S1x128 v shapeCasts_S128_S1x128) = vec v := by
  funext j
  exact shapeCast_a_1a_apply v shapeCasts_S128_S1x128 0 j

theorem x : V3 (F := Ideal) m ρ c main_arg1 = (m ((c : Thread nD τ).loc main_arg1)) := by
  calc V3 (F := Ideal) m ρ c main_arg1
    _ = Gen.W2 m ρ c (Proc.devRef .tc main_arg1) := by
        show StableHlo.after hostOps1 (Gen.W2 m ρ c) (Proc.devRef .tc main_arg1) = _
        host_skip hostOps1
    _ = m ((c : Thread nD τ).loc main_arg1) := by at_launch main_arg1

theorem W1 : V3 (F := Ideal) m ρ c main_arg9 = (m ((c : Thread nD τ).loc main_arg9)) := by
  calc V3 (F := Ideal) m ρ c main_arg9
    _ = Gen.W2 m ρ c (Proc.devRef .tc main_arg9) := by
        show StableHlo.after hostOps1 (Gen.W2 m ρ c) (Proc.devRef .tc main_arg9) = _
        host_skip hostOps1
    _ = m ((c : Thread nD τ).loc main_arg9) := by at_launch main_arg9

theorem b1 : row1 (V3 (F := Ideal) m ρ c main_v8) = vec (m ((c : Thread nD τ).loc main_arg10)) := by
  have e : V3 (F := Ideal) m ρ c main_v8 = shapeCast S1x128 (Gen.W2 (F := Ideal) m ρ c (Proc.devRef .tc main_arg10)) shapeCasts_S128_S1x128 := by
    show StableHlo.after hostOps1 (Gen.W2 m ρ c) (Proc.devRef .tc main_v8) = _
    after_results
    rfl
  have a : Gen.W2 (F := Ideal) m ρ c (Proc.devRef .tc main_arg10) = m ((c : Thread nD τ).loc main_arg10) := by at_launch main_arg10
  rw [e, a, row1_reshape]

theorem W2 : V3 (F := Ideal) m ρ c main_arg11 = (m ((c : Thread nD τ).loc main_arg11)) := by
  calc V3 (F := Ideal) m ρ c main_arg11
    _ = Gen.W2 m ρ c (Proc.devRef .tc main_arg11) := by
        show StableHlo.after hostOps1 (Gen.W2 m ρ c) (Proc.devRef .tc main_arg11) = _
        host_skip hostOps1
    _ = m ((c : Thread nD τ).loc main_arg11) := by at_launch main_arg11

theorem b2 : row1 (V3 (F := Ideal) m ρ c main_v9) = vec (m ((c : Thread nD τ).loc main_arg12)) := by
  have e : V3 (F := Ideal) m ρ c main_v9 = shapeCast S1x128 (Gen.W2 (F := Ideal) m ρ c (Proc.devRef .tc main_arg12)) shapeCasts_S128_S1x128 := by
    show StableHlo.after hostOps1 (Gen.W2 m ρ c) (Proc.devRef .tc main_v9) = _
    after_results
    rfl
  have a : Gen.W2 (F := Ideal) m ρ c (Proc.devRef .tc main_arg12) = m ((c : Thread nD τ).loc main_arg12) := by at_launch main_arg12
  rw [e, a, row1_reshape]

theorem W3 : V3 (F := Ideal) m ρ c main_arg13 = (m ((c : Thread nD τ).loc main_arg13)) := by
  calc V3 (F := Ideal) m ρ c main_arg13
    _ = Gen.W2 m ρ c (Proc.devRef .tc main_arg13) := by
        show StableHlo.after hostOps1 (Gen.W2 m ρ c) (Proc.devRef .tc main_arg13) = _
        host_skip hostOps1
    _ = m ((c : Thread nD τ).loc main_arg13) := by at_launch main_arg13

theorem b3 : row1 (V3 (F := Ideal) m ρ c main_v10) = vec (m ((c : Thread nD τ).loc main_arg14)) := by
  have e : V3 (F := Ideal) m ρ c main_v10 = shapeCast S1x128 (Gen.W2 (F := Ideal) m ρ c (Proc.devRef .tc main_arg14)) shapeCasts_S128_S1x128 := by
    show StableHlo.after hostOps1 (Gen.W2 m ρ c) (Proc.devRef .tc main_v10) = _
    after_results
    rfl
  have a : Gen.W2 (F := Ideal) m ρ c (Proc.devRef .tc main_arg14) = m ((c : Thread nD τ).loc main_arg14) := by at_launch main_arg14
  rw [e, a, row1_reshape]

end Cert.KernelIdeal.In1

end
-- ==== Proof.KVal2.lean ====
/-
  The value of an edge-update region.

  The region runs one body at each of 80 points. At point `t` the body reads rows `5000 t … 5000 t + 4999` of three
  arrays (the senders' rows, the receivers' rows, the edges' rows) and the whole of four weight matrices and three bias
  rows, and writes the same rows of the output array. Two facts are proved. First, entry `(p, q)` of what the body
  stores is the edge-update row function of rows `p` of the three blocks, read at `q`: the first layer is three
  products added in order plus the bias, each later layer one product plus its bias, with a maximum against zero
  between layers, and the old edge entry added at the end. Second, since row `r` of the output array is written at
  point `r / 5000` and nowhere else, the array after the region is the edge update applied to every row.
-/
import proofs.«425516_j47425028883052_2_alg».proof.Proof.Gen.KernelIdeal.Frame
import proofs.«425516_j47425028883052_2_alg».proof.Proof.Net
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Idealize.ShloMosaic Idealize.ShloMosaic.TcCoe Idealize.ShloMosaic.ValueIdx Idealize.SL.Sem Cert.KernelIdeal Cert.KernelIdeal.Gen Cert.Spec Cert.Net

set_option maxRecDepth 16384

/-! ## A block product at an index

The kernel's products all have the same shape: a block of 5000 rows of 128 entries times a 128 × 128 matrix,
contracting the block's second axis with the matrix's first. The next four facts read the operands' indices at an
output index and a contraction index, axis by axis. -/

theorem e2_lhs_0 (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem e2_lhs_1 (i : S5000x128.Idx) (k : dot_S5000x128_S128x128_S5000x128_1_0_0_1_n_n.contr.Idx) :
    (dot_S5000x128_S128x128_S5000x128_1_0_0_1_n_n.lhsIdx i k 1).val = (k ⟨0, by decide⟩).val :=
  dot_S5000x128_S128x128_S5000x128_1_0_0_1_n_n.lhsIdx_val_of_single rfl i k
theorem e2_rhs_0 (i : S5000x128.Idx) (k : dot_S5000x128_S128x128_S5000x128_1_0_0_1_n_n.contr.Idx) :
    (dot_S5000x128_S128x128_S5000x128_1_0_0_1_n_n.rhsIdx i k 0).val = (k ⟨0, by decide⟩).val :=
  dot_S5000x128_S128x128_S5000x128_1_0_0_1_n_n.rhsIdx_val_of_single rfl i k
theorem e2_rhs_1 (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product into a zero accumulator, read at row `p` and column `q`, is the contraction of row `p` of the block
    with column `q` of the matrix. -/
theorem e2_mm_apply (x : FVec Ideal S5000x128 .bf16) (w : FVec Ideal S128x128 .bf16) (p : Fin 5000) (q : Fin 128) :
    matmul dot_S5000x128_S128x128_S5000x128_1_0_0_1_n_n none x w (constant (F := Ideal) S5000x128 .f32 0x00000000#32) (ix2 p q)
      = ∑ k : Fin 128, x (ix2 p k) * w (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact e2_lhs_0 _ _
    | ⟨1, _⟩ => exact (e2_lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (e2_rhs_0 _ _).trans hk
    | ⟨1, _⟩ => exact e2_rhs_1 _ _)
  rw [el, er]

/-! ## The body's arithmetic at an index -/

/-- Entry `(p, q)` of what the body stores: the edge's old entry plus the three-layer network of the sender's,
    the receiver's and the edge's own row `p`, the first layer as three products added in that order. Every
    operation but the products is entrywise; a conversion between float formats is the identity on the extended
    reals, a cast to the same shape is the identity, and the one-row biases read their row at the column. -/
theorem pay2_apply (hs hd e : Vec Ideal S5000x128 .f32) (Wa Wb Wc : Vec Ideal S128x128 .f32) (b1 : Vec Ideal S1x128 .f32) (W2 : Vec Ideal S128x128 .f32) (b2 : Vec Ideal S1x128 .f32) (W3 : Vec Ideal S128x128 .f32) (b3 : Vec Ideal S1x128 .f32) (p : Fin 5000) (q : Fin 128) :
    k2_pay1 (F := Ideal) (k2_pay2 e) (k2_pay3 hs hd e Wa Wb Wc b1 W2) (k2_pay4 b2) W3 b3 (ix2 p q)
      = edgeRow (mat Wa) (mat Wb) (mat Wc) (row1 b1) (mat W2) (row1 b2) (mat W3) (row1 b3) (rowAt hs p) (rowAt hd p) (rowAt e p) q := by
  unfold k2_pay1 k2_pay3 k2_pay2 k2_pay4
  simp only [shapeCast_self, addf_apply, e2_mm_apply, truncf_apply, maximumf_apply, broadcast_apply, broadcastTo_1b_ab_apply, Ideal.ofBits_def, Ideal.ofBits_zero_f32]
  rfl

/-- The same at any index of the block: the row functions at the index's row, read at its column. -/
theorem e2_pay_idx (hs hd e : Vec Ideal S5000x128 .f32) (Wa Wb Wc : Vec Ideal S128x128 .f32) (b1 : Vec Ideal S1x128 .f32) (W2 : Vec Ideal S128x128 .f32) (b2 : Vec Ideal S1x128 .f32) (W3 : Vec Ideal S128x128 .f32) (b3 : Vec Ideal S1x128 .f32) (j : S5000x128.Idx) :
    k2_pay1 (F := Ideal) (k2_pay2 e) (k2_pay3 hs hd e Wa Wb Wc b1 W2) (k2_pay4 b2) W3 b3 j
      = edgeRow (mat Wa) (mat Wb) (mat Wc) (row1 b1) (mat W2) (row1 b2) (mat W3) (row1 b3) (rowAt hs (ri j)) (rowAt hd (ri j)) (rowAt e (ri j)) (ci j) := by
  obtain ⟨p, q, rfl⟩ : ∃ (p : Fin 5000) (q : Fin 128), j = ix2 p q := ⟨j 0, j 1, eq_ix2 j⟩
  exact pay2_apply hs hd e Wa Wb Wc b1 W2 b2 W3 b3 p q

/-- One entry of the body's result against the same entry of the edge update of the whole arrays: if the three
    row blocks are rows `5000 n …` of three arrays, then entry `x` of the body's result on the blocks is entry `y` of
    the edge update of the arrays, for `y` at row `5000 n + x₀` and column `x₁`. -/
theorem e2_point (hsB hdB eB : Vec Ideal S5000x128 .f32) (hsA hdA eA : Vec Ideal S400000x128 .f32)
    (Wa Wb Wc : Vec Ideal S128x128 .f32) (b1 : Vec Ideal S1x128 .f32) (W2 : Vec Ideal S128x128 .f32) (b2 : Vec Ideal S1x128 .f32) (W3 : Vec Ideal S128x128 .f32) (b3 : Vec Ideal S1x128 .f32)
    (n : ℕ) (x : S5000x128.Idx) (y : S400000x128.Idx)
    (h0 : (y 0).val = n * 5000 + (x 0).val) (h1 : (y 1).val = (x 1).val)
    (hhs : ∀ (x' : S5000x128.Idx) (y' : S400000x128.Idx), (y' 0).val = n * 5000 + (x' 0).val → (y' 1).val = (x' 1).val → hsB x' = hsA y')
    (hhd : ∀ (x' : S5000x128.Idx) (y' : S400000x128.Idx), (y' 0).val = n * 5000 + (x' 0).val → (y' 1).val = (x' 1).val → hdB x' = hdA y')
    (he : ∀ (x' : S5000x128.Idx) (y' : S400000x128.Idx), (y' 0).val = n * 5000 + (x' 0).val → (y' 1).val = (x' 1).val → eB x' = eA y') :
    k2_pay1 (F := Ideal) (k2_pay2 eB) (k2_pay3 hsB hdB eB Wa Wb Wc b1 W2) (k2_pay4 b2) W3 b3 x
      = Net.edgeStep (mat Wa) (mat Wb) (mat Wc) (row1 b1) (mat W2) (row1 b2) (mat W3) (row1 b3) hsA hdA eA y := by
  rw [e2_pay_idx]
  unfold Net.edgeStep
  have hc : ci x = ci y := Fin.ext h1.symm
  have r1 : rowAt hsB (ri x) = rowAt hsA (ri y) := funext fun k => hhs (ix2 (ri x) k) (ix2 (ri y) k) h0 rfl
  have r2 : rowAt hdB (ri x) = rowAt hdA (ri y) := funext fun k => hhd (ix2 (ri x) k) (ix2 (ri y) k) h0 rfl
  have r3 : rowAt eB (ri x) = rowAt eA (ri y) := funext fun k => he (ix2 (ri x) k) (ix2 (ri y) k) h0 rfl
  rw [r1, r2, r3, hc]

/-! ## From the blocks to the array -/

section Blocks

variable (V : (c : Dev nD) → (b : Ref sig .tc) → Buf (Elt Ideal) ((c : Thread nD τ).loc b))

theorem e2_hz : (![0, 0] : Fin 2 → Nat) = fun _ => 0 := funext fun a => by
  match a with
  | ⟨0, _⟩ => rfl
  | ⟨1, _⟩ => rfl

/-- The index maps over the grid: the three row-tiled inputs and the output are at block `(t, 0)` at point `t`; the
    weights and the biases are always at block `(0, 0)`. -/
theorem e2_idx : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0)
    ∧ (win2_9.index t (0 : Fin 2) = 0 ∧ win2_9.index t (1 : Fin 2) = 0)
    ∧ (win2_10.index t (0 : Fin 2) = 0 ∧ win2_10.index t (1 : Fin 2) = 0)
    ∧ (win2_11.index t (0 : Fin 2) = t.val ∧ win2_11.index t (1 : Fin 2) = 0) :=
  (by decide +kernel : ∀ t : Fin grid2.N, _)

/-- Input window 0's block at point `t` is rows `5000 t … 5000 t + 4999` of its array. -/
theorem e2_blk0 (c : Dev nD) (t : Fin cfg2.N) (x : S5000x128.Idx) (y : S400000x128.Idx)
    (h0 : (y 0).val = t.val * 5000 + (x 0).val) (h1 : (y 1).val = (x 1).val) :
    (iblk2 V c 0 t : Vec Ideal S5000x128 .f32) x = (V c main_v12 : Vec Ideal S400000x128 .f32) y := by
  have hi := e2_idx t
  unfold iblk2
  rw [View.read_apply]
  show V c main_v12 (((cfg2.win 0).blk t).view.emb x) = V c main_v12 y
  refine congrArg (V c main_v12) (funext fun a => Fin.ext ?_)
  match a with
  | ⟨0, _⟩ => show win2_0.index t (0 : Fin 2) * 5000 + 1 * (x 0).val = (y 0).val; omega
  | ⟨1, _⟩ => show win2_0.index t (1 : Fin 2) * 128 + 1 * (x 1).val = (y 1).val; omega

/-- Input window 1's block at point `t` is rows `5000 t … 5000 t + 4999` of its array. -/
theorem e2_blk1 (c : Dev nD) (t : Fin cfg2.N) (x : S5000x128.Idx) (y : S400000x128.Idx)
    (h0 : (y 0).val = t.val * 5000 + (x 0).val) (h1 : (y 1).val = (x 1).val) :
    (iblk2 V c 1 t : Vec Ideal S5000x128 .f32) x = (V c main_v13 : Vec Ideal S400000x128 .f32) y := by
  have hi := e2_idx t
  unfold iblk2
  rw [View.read_apply]
  show V c main_v13 (((cfg2.win 1).blk t).view.emb x) = V c main_v13 y
  refine congrArg (V c main_v13) (funext fun a => Fin.ext ?_)
  match a with
  | ⟨0, _⟩ => show win2_1.index t (0 : Fin 2) * 5000 + 1 * (x 0).val = (y 0).val; omega
  | ⟨1, _⟩ => show win2_1.index t (1 : Fin 2) * 128 + 1 * (x 1).val = (y 1).val; omega

/-- Input window 2's block at point `t` is rows `5000 t … 5000 t + 4999` of its array. -/
theorem e2_blk2 (c : Dev nD) (t : Fin cfg2.N) (x : S5000x128.Idx) (y : S400000x128.Idx)
    (h0 : (y 0).val = t.val * 5000 + (x 0).val) (h1 : (y 1).val = (x 1).val) :
    (iblk2 V c 2 t : Vec Ideal S5000x128 .f32) x = (V c main_v11 : Vec Ideal S400000x128 .f32) y := by
  have hi := e2_idx t
  unfold iblk2
  rw [View.read_apply]
  show V c main_v11 (((cfg2.win 2).blk t).view.emb x) = V c main_v11 y
  refine congrArg (V c main_v11) (funext fun a => Fin.ext ?_)
  match a with
  | ⟨0, _⟩ => show win2_2.index t (0 : Fin 2) * 5000 + 1 * (x 0).val = (y 0).val; omega
  | ⟨1, _⟩ => show win2_2.index t (1 : Fin 2) * 128 + 1 * (x 1).val = (y 1).val; omega

/-- Window 3's block at every point is its whole array. -/
theorem e2_blk3 (c : Dev nD) (t : Fin cfg2.N) : (iblk2 V c 3 t : Vec Ideal S128x128 .f32) = V c main_v16 := by
  have hi := e2_idx t
  funext x
  unfold iblk2
  rw [View.read_apply]
  show V c main_v16 (((cfg2.win 3).blk t).view.emb x) = V c main_v16 x
  refine congrArg (V c main_v16) (funext fun a => Fin.ext ?_)
  match a with
  | ⟨0, _⟩ => show win2_3.index t (0 : Fin 2) * 128 + 1 * (x 0).val = (x 0).val; omega
  | ⟨1, _⟩ => show win2_3.index t (1 : Fin 2) * 128 + 1 * (x 1).val = (x 1).val; omega

/-- Window 4's block at every point is its whole array. -/
theorem e2_blk4 (c : Dev nD) (t : Fin cfg2.N) : (iblk2 V c 4 t : Vec Ideal S128x128 .f32) = V c main_v17 := by
  have hi := e2_idx t
  funext x
  unfold iblk2
  rw [View.read_apply]
  show V c main_v17 (((cfg2.win 4).blk t).view.emb x) = V c main_v17 x
  refine congrArg (V c main_v17) (funext fun a => Fin.ext ?_)
  match a with
  | ⟨0, _⟩ => show win2_4.index t (0 : Fin 2) * 128 + 1 * (x 0).val = (x 0).val; omega
  | ⟨1, _⟩ => show win2_4.index t (1 : Fin 2) * 128 + 1 * (x 1).val = (x 1).val; omega

/-- Window 5's block at every point is its whole array. -/
theorem e2_blk5 (c : Dev nD) (t : Fin cfg2.N) : (iblk2 V c 5 t : Vec Ideal S128x128 .f32) = V c main_v18 := by
  have hi := e2_idx t
  funext x
  unfold iblk2
  rw [View.read_apply]
  show V c main_v18 (((cfg2.win 5).blk t).view.emb x) = V c main_v18 x
  refine congrArg (V c main_v18) (funext fun a => Fin.ext ?_)
  match a with
  | ⟨0, _⟩ => show win2_5.index t (0 : Fin 2) * 128 + 1 * (x 0).val = (x 0).val; omega
  | ⟨1, _⟩ => show win2_5.index t (1 : Fin 2) * 128 + 1 * (x 1).val = (x 1).val; omega

/-- Window 6's block at every point is its whole array. -/
theorem e2_blk6 (c : Dev nD) (t : Fin cfg2.N) : (iblk2 V c 6 t : Vec Ideal S1x128 .f32) = V c main_v29 := by
  have hi := e2_idx t
  funext x
  unfold iblk2
  rw [View.read_apply]
  show V c main_v29 (((cfg2.win 6).blk t).view.emb x) = V c main_v29 x
  refine congrArg (V c main_v29) (funext fun a => Fin.ext ?_)
  match a with
  | ⟨0, _⟩ => show win2_6.index t (0 : Fin 2) * 1 + 1 * (x 0).val = (x 0).val; omega
  | ⟨1, _⟩ => show win2_6.index t (1 : Fin 2) * 128 + 1 * (x 1).val = (x 1).val; omega

/-- Window 7's block at every point is its whole array. -/
theorem e2_blk7 (c : Dev nD) (t : Fin cfg2.N) : (iblk2 V c 7 t : Vec Ideal S128x128 .f32) = V c main_v22 := by
  have hi := e2_idx t
  funext x
  unfold iblk2
  rw [View.read_apply]
  show V c main_v22 (((cfg2.win 7).blk t).view.emb x) = V c main_v22 x
  refine congrArg (V c main_v22) (funext fun a => Fin.ext ?_)
  match a with
  | ⟨0, _⟩ => show win2_7.index t (0 : Fin 2) * 128 + 1 * (x 0).val = (x 0).val; omega
  | ⟨1, _⟩ => show win2_7.index t (1 : Fin 2) * 128 + 1 * (x 1).val = (x 1).val; omega

/-- Window 8's block at every point is its whole array. -/
theorem e2_blk8 (c : Dev nD) (t : Fin cfg2.N) : (iblk2 V c 8 t : Vec Ideal S1x128 .f32) = V c main_v30 := by
  have hi := e2_idx t
  funext x
  unfold iblk2
  rw [View.read_apply]
  show V c main_v30 (((cfg2.win 8).blk t).view.emb x) = V c main_v30 x
  refine congrArg (V c main_v30) (funext fun a => Fin.ext ?_)
  match a with
  | ⟨0, _⟩ => show win2_8.index t (0 : Fin 2) * 1 + 1 * (x 0).val = (x 0).val; omega
  | ⟨1, _⟩ => show win2_8.index t (1 : Fin 2) * 128 + 1 * (x 1).val = (x 1).val; omega

/-- Window 9's block at every point is its whole array. -/
theorem e2_blk9 (c : Dev nD) (t : Fin cfg2.N) : (iblk2 V c 9 t : Vec Ideal S128x128 .f32) = V c main_v26 := by
  have hi := e2_idx t
  funext x
  unfold iblk2
  rw [View.read_apply]
  show V c main_v26 (((cfg2.win 9).blk t).view.emb x) = V c main_v26 x
  refine congrArg (V c main_v26) (funext fun a => Fin.ext ?_)
  match a with
  | ⟨0, _⟩ => show win2_9.index t (0 : Fin 2) * 128 + 1 * (x 0).val = (x 0).val; omega
  | ⟨1, _⟩ => show win2_9.index t (1 : Fin 2) * 128 + 1 * (x 1).val = (x 1).val; omega

/-- Window 10's block at every point is its whole array. -/
theorem e2_blk10 (c : Dev nD) (t : Fin cfg2.N) : (iblk2 V c 10 t : Vec Ideal S1x128 .f32) = V c main_v31 := by
  have hi := e2_idx t
  funext x
  unfold iblk2
  rw [View.read_apply]
  show V c main_v31 (((cfg2.win 10).blk t).view.emb x) = V c main_v31 x
  refine congrArg (V c main_v31) (funext fun a => Fin.ext ?_)
  match a with
  | ⟨0, _⟩ => show win2_10.index t (0 : Fin 2) * 1 + 1 * (x 0).val = (x 0).val; omega
  | ⟨1, _⟩ => show win2_10.index t (1 : Fin 2) * 128 + 1 * (x 1).val = (x 1).val; omega

/-- What point `t` writes back is block `t` of the edge update of the arrays as the region finds them. -/
theorem e2_flushed (c : Dev nD) (t : Fin cfg2.N) :
    (dat2 (F := Ideal) V c).flushed 11 t = ((cfg2.win 11).blk t).view.read (Elt Ideal)
      (Net.edgeStep (mat (V c main_v16)) (mat (V c main_v17)) (mat (V c main_v18)) (row1 (V c main_v29)) (mat (V c main_v22)) (row1 (V c main_v30)) (mat (V c main_v26)) (row1 (V c main_v31)) (V c main_v12) (V c main_v13) (V c main_v11)) := by
  show (cfg2.win 11).cut (grid2.coords t) ((dat2 V c).after 11 t) = _
  rw [after2_11]
  unfold out2_11
  rw [View.canon_unit_zero e2_hz]
  simp only [View.ld_unit_zero (S := S5000x128) e2_hz, View.ld_unit_zero (S := S128x128) e2_hz, View.ld_unit_zero (S := S1x128) e2_hz]
  rw [e2_blk3 V c t, e2_blk4 V c t, e2_blk5 V c t, e2_blk6 V c t, e2_blk7 V c t, e2_blk8 V c t, e2_blk9 V c t, e2_blk10 V c t]
  funext j
  have hi := e2_idx t
  have key := e2_point (iblk2 V c 0 t) (iblk2 V c 1 t) (iblk2 V c 2 t) (V c main_v12) (V c main_v13) (V c main_v11)
    (V c main_v16) (V c main_v17) (V c main_v18) (V c main_v29) (V c main_v22) (V c main_v30) (V c main_v26) (V c main_v31)
    t.val
  have b0 := fun x' y' h0 h1 => e2_blk0 V c t x' y' h0 h1
  have b1 := fun x' y' h0 h1 => e2_blk1 V c t x' y' h0 h1
  have b2 := fun x' y' h0 h1 => e2_blk2 V c t x' y' h0 h1
  have key2 := fun x y h0 h1 => key x y h0 h1 b0 b1 b2
  clear key b0 b1 b2
  refine key2 ((win2_11).xinj (grid2.coords t) j) (((cfg2.win 11).blk t).view.emb j) ?_ ?_
  · show win2_11.index t (0 : Fin 2) * 5000 + 1 * (j 0).val = t.val * 5000 + (j 0).val; omega
  · show win2_11.index t (1 : Fin 2) * 128 + 1 * (j 1).val = (j 1).val; omega

/-- An index of the output array is in point `t`'s block iff each coordinate is in the block's range on its axis. -/
theorem e2_mem_blk (t : Fin cfg2.N) (i : S400000x128.Idx) :
    i ∈ ((cfg2.win 11).blk t).view.set ↔ ∀ a : Fin 2, win2_11.index t a * S5000x128.size a ≤ (i a).val ∧ (i a).val < win2_11.index t a * S5000x128.size a + S5000x128.size a := by
  show i ∈ ((View.whole main_v32).slice (win2_11.rect t)).set ↔ _
  rw [View.set_slice_whole, Rect.mem_set_unit]
  exact Iff.rfl

/-- Every index of the output array is in the block of the point its row falls to: row `r` is written at point `r / 5000`. -/
theorem e2_cover (i : S400000x128.Idx) :
    ∃ t : Fin cfg2.N, (cfg2.win 11).flush t = true ∧ i ∈ ((cfg2.win 11).blk t).view.set := by
  have hN : cfg2.N = 80 := N_2
  have hi0 : (i 0).val < 400000 := idx2_lt0 i
  have hi1 : (i 1).val < 128 := idx2_lt1 i
  obtain ⟨t, ht⟩ : ∃ t : Fin cfg2.N, t.val = (i 0).val / 5000 := ⟨⟨(i 0).val / 5000, by rw [hN]; omega⟩, rfl⟩
  have hi := e2_idx t
  refine ⟨t, flush2_11 t, ?_⟩
  rw [e2_mem_blk]
  intro a
  match a with
  | ⟨0, _⟩ => show win2_11.index t (0 : Fin 2) * 5000 ≤ (i 0).val ∧ (i 0).val < win2_11.index t (0 : Fin 2) * 5000 + 5000; omega
  | ⟨1, _⟩ => show win2_11.index t (1 : Fin 2) * 128 ≤ (i 1).val ∧ (i 1).val < win2_11.index t (1 : Fin 2) * 128 + 128; omega

/-- The output array after the region: the edge update of the arrays the region's input windows stage. -/
theorem arr2 (c : Dev nD) :
    (dat2 (F := Ideal) V c).arrAt 11 cfg2.N = Net.edgeStep (mat (V c main_v16)) (mat (V c main_v17)) (mat (V c main_v18)) (row1 (V c main_v29)) (mat (V c main_v22)) (row1 (V c main_v30)) (mat (V c main_v26)) (row1 (V c main_v31)) (V c main_v12) (V c main_v13) (V c main_v11) :=
  (dat2 (F := Ideal) V c).arrAt_eq_of_cover 11 _ (fun t _ => e2_flushed V c t) (fun i => e2_cover i)

end Blocks

end Cert.KernelIdeal.Val

end
-- ==== Proof.KIn2.lean ====
/-
  What region 2's input windows hold when the region is entered: each array the region stages, read back through the
  host operations and the earlier regions to the launch arrays and the earlier stages' results. No operation between
  a buffer's writer and this region overwrites it, so a buffer holds what its writer left; a slice of a stacked weight
  array is that array at the slice's indices, and a reshaped bias row is the bias row.
-/
import proofs.«425516_j47425028883052_2_alg».proof.Proof.KDefs
import proofs.«425516_j47425028883052_2_alg».proof.Proof.TakeK
import Idealize.ShloMosaic.Lib.ValueLayout
import Idealize.ShloMosaic.Lib.Pipeline.Value
import Idealize.ShloMosaic.Lib.StableHlo.Run
set_option maxRecDepth 16384

noncomputable section

namespace Cert.KernelIdeal.In2

open Idealize.ShloMosaic Idealize.ShloMosaic.TcCoe Idealize.ShloMosaic.ValueIdx Idealize.SL.Sem Cert.KernelIdeal Cert.KernelIdeal.Gen Cert.Spec Cert.Net Cert.KernelIdeal.K

variable (m : (ℓ : Loc nD τ sig) → Buf (Elt Ideal) ℓ) (ρ : Dev nD → PrngReg) (c : Dev nD)

/-- A buffer that no operation of a host stretch writes holds after the stretch what it held before it. -/
local macro "host_keeps " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! ## Slices of the stacked weights and biases, read at an index -/

/-- Rows `s … s + 127` of slice `0` of a stack of three 384 × 128 matrices. -/
theorem band_of_slice384 (x : FVec Ideal S3x384x128 .f32) (h1 : S3x384x128.Slices ![0, 0, 0] S1x384x128)
    (h2 : S1x384x128.ShapeCasts S384x128) (s : ℕ) (hs : s + 128 ≤ 384) (h3 : S384x128.Slices ![s, 0] S128x128) :
    mat (extractStridedSlice S128x128 ![s, 0] (shapeCast S384x128 (extractStridedSlice S1x384x128 ![0, 0, 0] x h1) h2) h3)
      = band (w3 x 0) s hs := by
  funext k j
  have hk : s + k.val < 384 := by have := k.isLt; omega
  show extractStridedSlice S128x128 ![s, 0] (shapeCast S384x128 (extractStridedSlice S1x384x128 ![0, 0, 0] x h1) h2) h3 (ix2 k j)
    = x (ix3 0 ⟨s + k.val, hk⟩ j)
  rw [extractStridedSlice_apply ![s, 0] (shapeCast S384x128 (extractStridedSlice S1x384x128 ![0, 0, 0] x h1) h2) h3 (ix2 k j) (ix2 ⟨s + k.val, hk⟩ j) (fun a => by
    match a with
    | ⟨0, _⟩ => rfl
    | ⟨1, _⟩ => show j.val = 0 + j.val; omega)]
  rw [shapeCast_1ab_ab_apply]
  exact extractStridedSlice_apply ![0, 0, 0] x h1 (ix3 (0 : Fin 1) ⟨s + k.val, hk⟩ j) (ix3 0 ⟨s + k.val, hk⟩ j) (fun a => by
    match a with
    | ⟨0, _⟩ => rfl
    | ⟨1, _⟩ => show s + k.val = 0 + (s + k.val); omega
    | ⟨2, _⟩ => show j.val = 0 + j.val; omega)

/-- Slice `0` of a stack of three 128 × 128 matrices. -/
theorem mat_of_slice (x : FVec Ideal S3x128x128 .f32) (h1 : S3x128x128.Slices ![0, 0, 0] S1x128x128)
    (h2 : S1x128x128.ShapeCasts S128x128) :
    mat (shapeCast S128x128 (extractStridedSlice S1x128x128 ![0, 0, 0] x h1) h2) = w3 x 0 := by
  funext k j
  show shapeCast S128x128 (extractStridedSlice S1x128x128 ![0, 0, 0] x h1) h2 (ix2 k j) = x (ix3 0 k j)
  rw [shapeCast_1ab_ab_apply]
  exact extractStridedSlice_apply ![0, 0, 0] x h1 (ix3 (0 : Fin 1) k j) (ix3 0 k j) (fun a => by
    match a with
    | ⟨0, _⟩ => rfl
    | ⟨1, _⟩ => show k.val = 0 + k.val; omega
    | ⟨2, _⟩ => show j.val = 0 + j.val; omega)

/-- Row `0` of a stack of three bias rows, flattened and laid out again as one row. -/
theorem row_of_slice (x : FVec Ideal S3x128 .f32) (h1 : S3x128.Slices ![0, 0] S1x128) (h2 : S1x128.ShapeCasts S128)
    (h3 : S128.ShapeCasts S1x128) :
    row1 (shapeCast S1x128 (shapeCast S128 (extractStridedSlice S1x128 ![0, 0] x h1) h2) h3) = Net.b3 x 0 := by
  funext j
  show shapeCast S1x128 (shapeCast S128 (extractStridedSlice S1x128 ![0, 0] x h1) h2) h3 (ix2 0 j) = x (ix2 0 j)
  rw [shapeCast_a_1a_apply, shapeCast_1a_a_apply]
  exact extractStridedSlice_apply ![0, 0] x h1 (ix2 (0 : Fin 1) j) (ix2 0 j) (fun a => by
    match a with
    | ⟨0, _⟩ => rfl
    | ⟨1, _⟩ => show j.val = 0 + j.val; omega)

/-! ## The last host stretch before the region, from an arbitrary valuation before it -/

section Stretch
variable (W : Valuation τ sig (Elt Ideal))

/-- The first layer's band of rows `0 … 127`. -/
theorem ops_Wa : mat (StableHlo.after (hostOps2_2 (F := Ideal)) W (Proc.devRef .tc main_v16))
    = band (w3 (W (Proc.devRef .tc main_arg15)) 0) 0 (by omega) := by
  have e : (StableHlo.after (hostOps2_2 (F := Ideal)) W (Proc.devRef .tc main_v16) : FVec Ideal S128x128 .f32)
      = extractStridedSlice S128x128 ![0, 0] (shapeCast S384x128 (extractStridedSlice S1x384x128 ![0, 0, 0] (W (Proc.devRef .tc main_arg15)) slices_S3x384x128_S1x384x128_0_0_0) shapeCasts_S1x384x128_S384x128) slices_S384x128_S128x128_0_0 := by
    after_results
    rfl
  rw [e]
  exact band_of_slice384 _ _ _ 0 (by omega) _

/-- The first layer's band of rows `128 … 255`. -/
theorem ops_Wb : mat (StableHlo.after (hostOps2_2 (F := Ideal)) W (Proc.devRef .tc main_v17))
    = band (w3 (W (Proc.devRef .tc main_arg15)) 0) 128 (by omega) := by
  have e : (StableHlo.after (hostOps2_2 (F := Ideal)) W (Proc.devRef .tc main_v17) : FVec Ideal S128x128 .f32)
      = extractStridedSlice S128x128 ![128, 0] (shapeCast S384x128 (extractStridedSlice S1x384x128 ![0, 0, 0] (W (Proc.devRef .tc main_arg15)) slices_S3x384x128_S1x384x128_0_0_0) shapeCasts_S1x384x128_S384x128) slices_S384x128_S128x128_128_0 := by
    after_results
    rfl
  rw [e]
  exact band_of_slice384 _ _ _ 128 (by omega) _

/-- The first layer's band of rows `256 … 383`. -/
theorem ops_Wc : mat (StableHlo.after (hostOps2_2 (F := Ideal)) W (Proc.devRef .tc main_v18))
    = band (w3 (W (Proc.devRef .tc main_arg15)) 0) 256 (by omega) := by
  have e : (StableHlo.after (hostOps2_2 (F := Ideal)) W (Proc.devRef .tc main_v18) : FVec Ideal S128x128 .f32)
      = extractStridedSlice S128x128 ![256, 0] (shapeCast S384x128 (extractStridedSlice S1x384x128 ![0, 0, 0] (W (Proc.devRef .tc main_arg15)) slices_S3x384x128_S1x384x128_0_0_0) shapeCasts_S1x384x128_S384x128) slices_S384x128_S128x128_256_0 := by
    after_results
    rfl
  rw [e]
  exact band_of_slice384 _ _ _ 256 (by omega) _

/-- A layer's bias row. -/
theorem ops_b1 : row1 (StableHlo.after (hostOps2_2 (F := Ideal)) W (Proc.devRef .tc main_v29))
    = Net.b3 (W (Proc.devRef .tc main_arg16)) 0 := by
  have e : (StableHlo.after (hostOps2_2 (F := Ideal)) W (Proc.devRef .tc main_v29) : FVec Ideal S1x128 .f32)
      = shapeCast S1x128 (shapeCast S128 (extractStridedSlice S1x128 ![0, 0] (W (Proc.devRef .tc main_arg16)) slices_S3x128_S1x128_0_0) shapeCasts_S1x128_S128) shapeCasts_S128_S1x128 := by
    after_results
    rfl
  rw [e]
  exact row_of_slice _ _ _ _

/-- A layer's bias row. -/
theorem ops_b2 : row1 (StableHlo.after (hostOps2_2 (F := Ideal)) W (Proc.devRef .tc main_v30))
    = Net.b3 (W (Proc.devRef .tc main_arg18)) 0 := by
  have e : (StableHlo.after (hostOps2_2 (F := Ideal)) W (Proc.devRef .tc main_v30) : FVec Ideal S1x128 .f32)
      = shapeCast S1x128 (shapeCast S128 (extractStridedSlice S1x128 ![0, 0] (W (Proc.devRef .tc main_arg18)) slices_S3x128_S1x128_0_0) shapeCasts_S1x128_S128) shapeCasts_S128_S1x128 := by
    after_results
    rfl
  rw [e]
  exact row_of_slice _ _ _ _

/-- A layer's bias row. -/
theorem ops_b3 : row1 (StableHlo.after (hostOps2_2 (F := Ideal)) W (Proc.devRef .tc main_v31))
    = Net.b3 (W (Proc.devRef .tc main_arg20)) 0 := by
  have e : (StableHlo.after (hostOps2_2 (F := Ideal)) W (Proc.devRef .tc main_v31) : FVec Ideal S1x128 .f32)
      = shapeCast S1x128 (shapeCast S128 (extractStridedSlice S1x128 ![0, 0] (W (Proc.devRef .tc main_arg20)) slices_S3x128_S1x128_0_0) shapeCasts_S1x128_S128) shapeCasts_S128_S1x128 := by
    after_results
    rfl
  rw [e]
  exact row_of_slice _ _ _ _

/-- A later layer's weights. -/
theorem ops_W2 : mat (StableHlo.after (hostOps2_2 (F := Ideal)) W (Proc.devRef .tc main_v22))
    = w3 (W (Proc.devRef .tc main_arg17)) 0 := by
  have e : (StableHlo.after (hostOps2_2 (F := Ideal)) W (Proc.devRef .tc main_v22) : FVec Ideal S128x128 .f32)
      = shapeCast S128x128 (extractStridedSlice S1x128x128 ![0, 0, 0] (W (Proc.devRef .tc main_arg17)) slices_S3x128x128_S1x128x128_0_0_0) shapeCasts_S1x128x128_S128x128 := by
    after_results
    rfl
  rw [e]
  exact mat_of_slice _ _ _

/-- A later layer's weights. -/
theorem ops_W3 : mat (StableHlo.after (hostOps2_2 (F := Ideal)) W (Proc.devRef .tc main_v26))
    = w3 (W (Proc.devRef .tc main_arg19)) 0 := by
  have e : (StableHlo.after (hostOps2_2 (F := Ideal)) W (Proc.devRef .tc main_v26) : FVec Ideal S128x128 .f32)
      = shapeCast S128x128 (extractStridedSlice S1x128x128 ![0, 0, 0] (W (Proc.devRef .tc main_arg19)) slices_S3x128x128_S1x128x128_0_0_0) shapeCasts_S1x128x128_S128x128 := by
    after_results
    rfl
  rw [e]
  exact mat_of_slice _ _ _

end Stretch

/-! ## Buffers carried unchanged to the region's entry -/

/-- The senders' index vector is written by the first host stretch and by nothing after it. -/
theorem keep_v1 : W4 (F := Ideal) m ρ c (Proc.devRef .tc main_v1) = W1 m ρ c (Proc.devRef .tc main_v1) :=
  calc W4 (F := Ideal) m ρ c (Proc.devRef .tc main_v1)
    _ = W3 m ρ c (Proc.devRef .tc main_v1) := W4_of_ne m ρ c main_v1 (by decide)
    _ = Gen.W2 m ρ c (Proc.devRef .tc main_v1) := by host_keeps hostOps1
    _ = W1 m ρ c (Proc.devRef .tc main_v1) := W2_of_ne m ρ c main_v1 (by decide)

/-- The receivers' index vector is written by the first host stretch and by nothing after it. -/
theorem keep_v3 : W5 (F := Ideal) m ρ c (Proc.devRef .tc main_v3) = W1 m ρ c (Proc.devRef .tc main_v3) :=
  calc W5 (F := Ideal) m ρ c (Proc.devRef .tc main_v3)
    _ = W4 m ρ c (Proc.devRef .tc main_v3) := by host_keeps hostOps2
    _ = W3 m ρ c (Proc.devRef .tc main_v3) := W4_of_ne m ρ c main_v3 (by decide)
    _ = Gen.W2 m ρ c (Proc.devRef .tc main_v3) := by host_keeps hostOps1
    _ = W1 m ρ c (Proc.devRef .tc main_v3) := W2_of_ne m ρ c main_v3 (by decide)

/-- The encoded node rows are written by the node encoder's region and by nothing between it and this region. -/
theorem keep_v7 : W4 (F := Ideal) m ρ c (Proc.devRef .tc main_v7) = Gen.W2 m ρ c (Proc.devRef .tc main_v7) :=
  calc W4 (F := Ideal) m ρ c (Proc.devRef .tc main_v7)
    _ = W3 m ρ c (Proc.devRef .tc main_v7) := W4_of_ne m ρ c main_v7 (by decide)
    _ = Gen.W2 m ρ c (Proc.devRef .tc main_v7) := by host_keeps hostOps1

/-- The launch arrays the last host stretch before the region slices hold their launch contents before it: no
    operation and no region before it writes a launch array. -/
theorem launch_arg15 : W6 (F := Ideal) m ρ c (Proc.devRef .tc main_arg15) = m ((c : Thread nD τ).loc main_arg15) :=
  calc W6 (F := Ideal) m ρ c (Proc.devRef .tc main_arg15)
    _ = W5 m ρ c (Proc.devRef .tc main_arg15) := by host_keeps hostOps2_1
    _ = W4 m ρ c (Proc.devRef .tc main_arg15) := by host_keeps hostOps2
    _ = W3 m ρ c (Proc.devRef .tc main_arg15) := W4_of_ne m ρ c main_arg15 (by decide)
    _ = Gen.W2 m ρ c (Proc.devRef .tc main_arg15) := by host_keeps hostOps1
    _ = W1 m ρ c (Proc.devRef .tc main_arg15) := W2_of_ne m ρ c main_arg15 (by decide)
    _ = W0 m ρ c (Proc.devRef .tc main_arg15) := by host_keeps hostOps0
    _ = m ((c : Thread nD τ).loc main_arg15) := rfl
theorem launch_arg16 : W6 (F := Ideal) m ρ c (Proc.devRef .tc main_arg16) = m ((c : Thread nD τ).loc main_arg16) :=
  calc W6 (F := Ideal) m ρ c (Proc.devRef .tc main_arg16)
    _ = W5 m ρ c (Proc.devRef .tc main_arg16) := by host_keeps hostOps2_1
    _ = W4 m ρ c (Proc.devRef .tc main_arg16) := by host_keeps hostOps2
    _ = W3 m ρ c (Proc.devRef .tc main_arg16) := W4_of_ne m ρ c main_arg16 (by decide)
    _ = Gen.W2 m ρ c (Proc.devRef .tc main_arg16) := by host_keeps hostOps1
    _ = W1 m ρ c (Proc.devRef .tc main_arg16) := W2_of_ne m ρ c main_arg16 (by decide)
    _ = W0 m ρ c (Proc.devRef .tc main_arg16) := by host_keeps hostOps0
    _ = m ((c : Thread nD τ).loc main_arg16) := rfl
theorem launch_arg17 : W6 (F := Ideal) m ρ c (Proc.devRef .tc main_arg17) = m ((c : Thread nD τ).loc main_arg17) :=
  calc W6 (F := Ideal) m ρ c (Proc.devRef .tc main_arg17)
    _ = W5 m ρ c (Proc.devRef .tc main_arg17) := by host_keeps hostOps2_1
    _ = W4 m ρ c (Proc.devRef .tc main_arg17) := by host_keeps hostOps2
    _ = W3 m ρ c (Proc.devRef .tc main_arg17) := W4_of_ne m ρ c main_arg17 (by decide)
    _ = Gen.W2 m ρ c (Proc.devRef .tc main_arg17) := by host_keeps hostOps1
    _ = W1 m ρ c (Proc.devRef .tc main_arg17) := W2_of_ne m ρ c main_arg17 (by decide)
    _ = W0 m ρ c (Proc.devRef .tc main_arg17) := by host_keeps hostOps0
    _ = m ((c : Thread nD τ).loc main_arg17) := rfl
theorem launch_arg18 : W6 (F := Ideal) m ρ c (Proc.devRef .tc main_arg18) = m ((c : Thread nD τ).loc main_arg18) :=
  calc W6 (F := Ideal) m ρ c (Proc.devRef .tc main_arg18)
    _ = W5 m ρ c (Proc.devRef .tc main_arg18) := by host_keeps hostOps2_1
    _ = W4 m ρ c (Proc.devRef .tc main_arg18) := by host_keeps hostOps2
    _ = W3 m ρ c (Proc.devRef .tc main_arg18) := W4_of_ne m ρ c main_arg18 (by decide)
    _ = Gen.W2 m ρ c (Proc.devRef .tc main_arg18) := by host_keeps hostOps1
    _ = W1 m ρ c (Proc.devRef .tc main_arg18) := W2_of_ne m ρ c main_arg18 (by decide)
    _ = W0 m ρ c (Proc.devRef .tc main_arg18) := by host_keeps hostOps0
    _ = m ((c : Thread nD τ).loc main_arg18) := rfl
theorem launch_arg19 : W6 (F := Ideal) m ρ c (Proc.devRef .tc main_arg19) = m ((c : Thread nD τ).loc main_arg19) :=
  calc W6 (F := Ideal) m ρ c (Proc.devRef .tc main_arg19)
    _ = W5 m ρ c (Proc.devRef .tc main_arg19) := by host_keeps hostOps2_1
    _ = W4 m ρ c (Proc.devRef .tc main_arg19) := by host_keeps hostOps2
    _ = W3 m ρ c (Proc.devRef .tc main_arg19) := W4_of_ne m ρ c main_arg19 (by decide)
    _ = Gen.W2 m ρ c (Proc.devRef .tc main_arg19) := by host_keeps hostOps1
    _ = W1 m ρ c (Proc.devRef .tc main_arg19) := W2_of_ne m ρ c main_arg19 (by decide)
    _ = W0 m ρ c (Proc.devRef .tc main_arg19) := by host_keeps hostOps0
    _ = m ((c : Thread nD τ).loc main_arg19) := rfl
theorem launch_arg20 : W6 (F := Ideal) m ρ c (Proc.devRef .tc main_arg20) = m ((c : Thread nD τ).loc main_arg20) :=
  calc W6 (F := Ideal) m ρ c (Proc.devRef .tc main_arg20)
    _ = W5 m ρ c (Proc.devRef .tc main_arg20) := by host_keeps hostOps2_1
    _ = W4 m ρ c (Proc.devRef .tc main_arg20) := by host_keeps hostOps2
    _ = W3 m ρ c (Proc.devRef .tc main_arg20) := W4_of_ne m ρ c main_arg20 (by decide)
    _ = Gen.W2 m ρ c (Proc.devRef .tc main_arg20) := by host_keeps hostOps1
    _ = W1 m ρ c (Proc.devRef .tc main_arg20) := W2_of_ne m ρ c main_arg20 (by decide)
    _ = W0 m ρ c (Proc.devRef .tc main_arg20) := by host_keeps hostOps0
    _ = m ((c : Thread nD τ).loc main_arg20) := rfl

/-! ## The windows -/

theorem hs : V7 (F := Ideal) m ρ c main_v12 = TakeK.takeFill (H0 m ρ c) (src m ρ c) := by
  show W7 m ρ c (Proc.devRef .tc main_v12) = _
  exact calc W7 (F := Ideal) m ρ c (Proc.devRef .tc main_v12)
    _ = W6 m ρ c (Proc.devRef .tc main_v12) := by host_keeps hostOps2_2
    _ = W5 m ρ c (Proc.devRef .tc main_v12) := by host_keeps hostOps2_1
    _ = TakeK.takeFill (W4 m ρ c (Proc.devRef .tc main_v7)) (W4 m ρ c (Proc.devRef .tc main_v1)) := TakeK.take_hostOps2 (W4 m ρ c)
    _ = TakeK.takeFill (H0 m ρ c) (src m ρ c) := by rw [keep_v7, keep_v1]; rfl

theorem hd : V7 (F := Ideal) m ρ c main_v13 = TakeK.takeFill (H0 m ρ c) (dst m ρ c) := by
  have h7 : W5 (F := Ideal) m ρ c (Proc.devRef .tc main_v7) = W4 m ρ c (Proc.devRef .tc main_v7) := by host_keeps hostOps2
  show W7 m ρ c (Proc.devRef .tc main_v13) = _
  exact calc W7 (F := Ideal) m ρ c (Proc.devRef .tc main_v13)
    _ = W6 m ρ c (Proc.devRef .tc main_v13) := by host_keeps hostOps2_2
    _ = TakeK.takeFill (W5 m ρ c (Proc.devRef .tc main_v7)) (W5 m ρ c (Proc.devRef .tc main_v3)) := TakeK.take_hostOps2_1 (W5 m ρ c)
    _ = TakeK.takeFill (H0 m ρ c) (dst m ρ c) := by rw [h7, keep_v7, keep_v3]; rfl

theorem e : V7 (F := Ideal) m ρ c main_v11 = E0 m ρ c := by
  show W7 m ρ c (Proc.devRef .tc main_v11) = W4 m ρ c (Proc.devRef .tc main_v11)
  exact calc W7 (F := Ideal) m ρ c (Proc.devRef .tc main_v11)
    _ = W6 m ρ c (Proc.devRef .tc main_v11) := by host_keeps hostOps2_2
    _ = W5 m ρ c (Proc.devRef .tc main_v11) := by host_keeps hostOps2_1
    _ = W4 m ρ c (Proc.devRef .tc main_v11) := by host_keeps hostOps2

theorem Wa : mat (V7 (F := Ideal) m ρ c main_v16) = band (w3 (m ((c : Thread nD τ).loc main_arg15)) 0) 0 (by omega) := by
  have e := ops_Wa (W6 m ρ c)
  rw [launch_arg15] at e
  exact e

theorem Wb : mat (V7 (F := Ideal) m ρ c main_v17) = band (w3 (m ((c : Thread nD τ).loc main_arg15)) 0) 128 (by omega) := by
  have e := ops_Wb (W6 m ρ c)
  rw [launch_arg15] at e
  exact e

theorem Wc : mat (V7 (F := Ideal) m ρ c main_v18) = band (w3 (m ((c : Thread nD τ).loc main_arg15)) 0) 256 (by omega) := by
  have e := ops_Wc (W6 m ρ c)
  rw [launch_arg15] at e
  exact e

theorem b1 : row1 (V7 (F := Ideal) m ρ c main_v29) = b3 (m ((c : Thread nD τ).loc main_arg16)) 0 := by
  have e := ops_b1 (W6 m ρ c)
  rw [launch_arg16] at e
  exact e

theorem W2 : mat (V7 (F := Ideal) m ρ c main_v22) = w3 (m ((c : Thread nD τ).loc main_arg17)) 0 := by
  have e := ops_W2 (W6 m ρ c)
  rw [launch_arg17] at e
  exact e

theorem b2 : row1 (V7 (F := Ideal) m ρ c main_v30) = b3 (m ((c : Thread nD τ).loc main_arg18)) 0 := by
  have e := ops_b2 (W6 m ρ c)
  rw [launch_arg18] at e
  exact e

theorem W3 : mat (V7 (F := Ideal) m ρ c main_v26) = w3 (m ((c : Thread nD τ).loc main_arg19)) 0 := by
  have e := ops_W3 (W6 m ρ c)
  rw [launch_arg19] at e
  exact e

theorem b3 : row1 (V7 (F := Ideal) m ρ c main_v31) = b3 (m ((c : Thread nD τ).loc main_arg20)) 0 := by
  have e := ops_b3 (W6 m ρ c)
  rw [launch_arg20] at e
  exact e

end Cert.KernelIdeal.In2

end
-- ==== Proof.KVal3.lean ====
/-
  The value of the node-update region, over the extended reals.

  The region walks the 50000 node rows in ten blocks of 5000. At each block it reads the nodes' rows and their
  aggregated rows, the weights and biases whole, and writes, row by row, the node's row plus the three-layer
  network of the node's row and its aggregated row, the first layer as two contractions (one per input row).
  First the arithmetic of one block at a row and a column; then each block is read where the output's block sits
  in the arrays, the ten blocks cover the array, and so the output array is the node update of the input arrays.
-/
import proofs.«425516_j47425028883052_2_alg».proof.Proof.Gen.KernelIdeal.Frame
import proofs.«425516_j47425028883052_2_alg».proof.Proof.Net
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Idealize.ShloMosaic Idealize.ShloMosaic.TcCoe Idealize.ShloMosaic.ValueIdx Idealize.SL.Sem Cert.KernelIdeal Cert.KernelIdeal.Gen Cert.Spec Cert.Net

set_option maxRecDepth 16384

/-! ## A block product read at an index

The product of a 5000 × 128 block with a 128 × 128 matrix into the zero accumulator, read at row `p` and
column `q`, is the contraction of row `p` of the block with column `q` of the matrix. -/

theorem mm3_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem mm3_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem mm3_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem mm3_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

theorem mm3_apply {φ₁ φ₂ : FTy} (lhs : FVec Ideal S5000x128 φ₁) (rhs : FVec Ideal S128x128 φ₂) (p : Fin 5000) (q : Fin 128) :
    matmul dot_S5000x128_S128x128_S5000x128_1_0_0_1_n_n none lhs rhs (constant (F := Ideal) S5000x128 .f32 0x00000000#32) (ix2 p q)
      = ∑ k : Fin 128, lhs (ix2 p k) * rhs (ix2 k q) := by
  refine (Ideal.matmul_constant_zero_apply dot_S5000x128_S128x128_S5000x128_1_0_0_1_n_n none lhs rhs (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact mm3_lhs_0 _ _
    | ⟨1, _⟩ => exact (mm3_lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (mm3_rhs_0 _ _).trans hk
    | ⟨1, _⟩ => exact mm3_rhs_1 _ _)
  rw [el, er]

/-! ## The payload of the node update at an index -/

/-- One bias row repeated down the rows, read at row `p` and column `q`, is the bias at `q`. -/
theorem bias3_apply (b : FVec Ideal S1x128 .f32) (p : Fin 5000) (q : Fin 128) :
    broadcastTo S5000x128 b broadcasts_S1x128_S5000x128 (ix2 p q) = row1 b q :=
  broadcastTo_1b_ab_apply b broadcasts_S1x128_S5000x128 p q

theorem pay3_apply (h agg : Vec Ideal S5000x128 .f32) (Wa Wb : Vec Ideal S128x128 .f32) (b1 : Vec Ideal S1x128 .f32) (W2 : Vec Ideal S128x128 .f32) (b2 : Vec Ideal S1x128 .f32) (W3 : Vec Ideal S128x128 .f32) (b3 : Vec Ideal S1x128 .f32) (p : Fin 5000) (q : Fin 128) :
    k3_pay1 (F := Ideal) (k3_pay2 h) (k3_pay3 h agg Wa Wb b1 W2 b2 W3) b3 (ix2 p q)
      = nodeRow (mat Wa) (mat Wb) (row1 b1) (mat W2) (row1 b2) (mat W3) (row1 b3) (rowAt h p) (rowAt agg p) q := by
  unfold k3_pay1 k3_pay3 k3_pay2
  simp only [shapeCast_self, addf_apply, maximumf_apply, truncf_apply, broadcast_apply, mm3_apply, bias3_apply,
    Ideal.ofBits_def, Ideal.ofBits_zero_f32]
  rfl

/-! ## From the blocks to the array -/

section Arrays

open Idealize.ShloMosaic.Pipeline (Dat)

variable (V : (c : Dev nD) → (b : Ref sig .tc) → Buf (Elt Ideal) ((c : Thread nD τ).loc b))

theorem hz3 : (![0, 0] : Fin 2 → Nat) = fun _ => 0 := funext fun a => by fin_cases a <;> rfl

/-- The node update of the region's input arrays. -/
abbrev G3 (c : Dev nD) : A2 50000 128 :=
  Net.nodeStep (mat (V c main_v38)) (mat (V c main_v39)) (row1 (V c main_v50)) (mat (V c main_v43)) (row1 (V c main_v51))
    (mat (V c main_v47)) (row1 (V c main_v52)) (V c main_v7) (V c main_v35)

/-- The index maps over the ten points: the row-tiled windows sit at block row `t`, column block `0`; the weights
    and biases at block `(0, 0)`. -/
theorem idx_facts3 : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = 0 ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = 0 ∧ win3_6.index t (1 : Fin 2) = 0)
    ∧ (win3_7.index t (0 : Fin 2) = 0 ∧ win3_7.index t (1 : Fin 2) = 0)
    ∧ (win3_8.index t (0 : Fin 2) = 0 ∧ win3_8.index t (1 : Fin 2) = 0)
    ∧ (win3_9.index t (0 : Fin 2) = t.val ∧ win3_9.index t (1 : Fin 2) = 0) :=
  (by decide +kernel : ∀ t : Fin grid3.N, _)

/-- Row `p` of the nodes' block at point `t` is row `5000 t + p` of the nodes' array. -/
theorem rows3_0 (c : Dev nD) (t : Fin cfg3.N) (p : Fin 5000) (r : Fin 50000) (hr : r.val = t.val * 5000 + p.val) :
    rowAt (iblk3 V c 0 t : Vec Ideal S5000x128 .f32) p = rowAt (V c main_v7 : A2 50000 128) r := by
  obtain ⟨⟨e0, e1⟩, -⟩ := idx_facts3 t
  funext k
  show iblk3 V c 0 t (ix2 p k) = V c main_v7 (ix2 r k)
  unfold iblk3
  rw [View.read_apply]
  show V c main_v7 (((cfg3.win 0).blk t).view.emb (ix2 p k)) = V c main_v7 (ix2 r k)
  congr 1
  funext a; apply Fin.ext
  match a with
  | ⟨0, _⟩ => show win3_0.index t (0 : Fin 2) * 5000 + 1 * p.val = r.val; omega
  | ⟨1, _⟩ => show win3_0.index t (1 : Fin 2) * 128 + 1 * k.val = k.val; omega

/-- Row `p` of the aggregated rows' block at point `t` is row `5000 t + p` of their array. -/
theorem rows3_1 (c : Dev nD) (t : Fin cfg3.N) (p : Fin 5000) (r : Fin 50000) (hr : r.val = t.val * 5000 + p.val) :
    rowAt (iblk3 V c 1 t : Vec Ideal S5000x128 .f32) p = rowAt (V c main_v35 : A2 50000 128) r := by
  obtain ⟨-, ⟨e0, e1⟩, -⟩ := idx_facts3 t
  funext k
  show iblk3 V c 1 t (ix2 p k) = V c main_v35 (ix2 r k)
  unfold iblk3
  rw [View.read_apply]
  show V c main_v35 (((cfg3.win 1).blk t).view.emb (ix2 p k)) = V c main_v35 (ix2 r k)
  congr 1
  funext a; apply Fin.ext
  match a with
  | ⟨0, _⟩ => show win3_1.index t (0 : Fin 2) * 5000 + 1 * p.val = r.val; omega
  | ⟨1, _⟩ => show win3_1.index t (1 : Fin 2) * 128 + 1 * k.val = k.val; omega

/-- The first layer's weights on the node's row: the window's block at any point is its whole array. -/
theorem whole3_2 (c : Dev nD) (t : Fin cfg3.N) : (iblk3 V c 2 t : Vec Ideal S128x128 .f32) = (V c main_v38 : A2 128 128) := by
  obtain ⟨-, -, e2, e3, e4, e5, e6, e7, e8, -⟩ := idx_facts3 t
  funext x
  unfold iblk3
  rw [View.read_apply]
  show V c main_v38 (((cfg3.win 2).blk t).view.emb x) = V c main_v38 x
  congr 1
  funext a; apply Fin.ext
  match a with
  | ⟨0, _⟩ => show win3_2.index t (0 : Fin 2) * 128 + 1 * (x 0).val = (x 0).val; omega
  | ⟨1, _⟩ => show win3_2.index t (1 : Fin 2) * 128 + 1 * (x 1).val = (x 1).val; omega

/-- The first layer's weights on the aggregated row: the window's block at any point is its whole array. -/
theorem whole3_3 (c : Dev nD) (t : Fin cfg3.N) : (iblk3 V c 3 t : Vec Ideal S128x128 .f32) = (V c main_v39 : A2 128 128) := by
  obtain ⟨-, -, e2, e3, e4, e5, e6, e7, e8, -⟩ := idx_facts3 t
  funext x
  unfold iblk3
  rw [View.read_apply]
  show V c main_v39 (((cfg3.win 3).blk t).view.emb x) = V c main_v39 x
  congr 1
  funext a; apply Fin.ext
  match a with
  | ⟨0, _⟩ => show win3_3.index t (0 : Fin 2) * 128 + 1 * (x 0).val = (x 0).val; omega
  | ⟨1, _⟩ => show win3_3.index t (1 : Fin 2) * 128 + 1 * (x 1).val = (x 1).val; omega

/-- The first layer's bias: the window's block at any point is its whole array. -/
theorem whole3_4 (c : Dev nD) (t : Fin cfg3.N) : (iblk3 V c 4 t : Vec Ideal S1x128 .f32) = (V c main_v50 : A2 1 128) := by
  obtain ⟨-, -, e2, e3, e4, e5, e6, e7, e8, -⟩ := idx_facts3 t
  funext x
  unfold iblk3
  rw [View.read_apply]
  show V c main_v50 (((cfg3.win 4).blk t).view.emb x) = V c main_v50 x
  congr 1
  funext a; apply Fin.ext
  match a with
  | ⟨0, _⟩ => show win3_4.index t (0 : Fin 2) * 1 + 1 * (x 0).val = (x 0).val; omega
  | ⟨1, _⟩ => show win3_4.index t (1 : Fin 2) * 128 + 1 * (x 1).val = (x 1).val; omega

/-- The second layer's weights: the window's block at any point is its whole array. -/
theorem whole3_5 (c : Dev nD) (t : Fin cfg3.N) : (iblk3 V c 5 t : Vec Ideal S128x128 .f32) = (V c main_v43 : A2 128 128) := by
  obtain ⟨-, -, e2, e3, e4, e5, e6, e7, e8, -⟩ := idx_facts3 t
  funext x
  unfold iblk3
  rw [View.read_apply]
  show V c main_v43 (((cfg3.win 5).blk t).view.emb x) = V c main_v43 x
  congr 1
  funext a; apply Fin.ext
  match a with
  | ⟨0, _⟩ => show win3_5.index t (0 : Fin 2) * 128 + 1 * (x 0).val = (x 0).val; omega
  | ⟨1, _⟩ => show win3_5.index t (1 : Fin 2) * 128 + 1 * (x 1).val = (x 1).val; omega

/-- The second layer's bias: the window's block at any point is its whole array. -/
theorem whole3_6 (c : Dev nD) (t : Fin cfg3.N) : (iblk3 V c 6 t : Vec Ideal S1x128 .f32) = (V c main_v51 : A2 1 128) := by
  obtain ⟨-, -, e2, e3, e4, e5, e6, e7, e8, -⟩ := idx_facts3 t
  funext x
  unfold iblk3
  rw [View.read_apply]
  show V c main_v51 (((cfg3.win 6).blk t).view.emb x) = V c main_v51 x
  congr 1
  funext a; apply Fin.ext
  match a with
  | ⟨0, _⟩ => show win3_6.index t (0 : Fin 2) * 1 + 1 * (x 0).val = (x 0).val; omega
  | ⟨1, _⟩ => show win3_6.index t (1 : Fin 2) * 128 + 1 * (x 1).val = (x 1).val; omega

/-- The third layer's weights: the window's block at any point is its whole array. -/
theorem whole3_7 (c : Dev nD) (t : Fin cfg3.N) : (iblk3 V c 7 t : Vec Ideal S128x128 .f32) = (V c main_v47 : A2 128 128) := by
  obtain ⟨-, -, e2, e3, e4, e5, e6, e7, e8, -⟩ := idx_facts3 t
  funext x
  unfold iblk3
  rw [View.read_apply]
  show V c main_v47 (((cfg3.win 7).blk t).view.emb x) = V c main_v47 x
  congr 1
  funext a; apply Fin.ext
  match a with
  | ⟨0, _⟩ => show win3_7.index t (0 : Fin 2) * 128 + 1 * (x 0).val = (x 0).val; omega
  | ⟨1, _⟩ => show win3_7.index t (1 : Fin 2) * 128 + 1 * (x 1).val = (x 1).val; omega

/-- The third layer's bias: the window's block at any point is its whole array. -/
theorem whole3_8 (c : Dev nD) (t : Fin cfg3.N) : (iblk3 V c 8 t : Vec Ideal S1x128 .f32) = (V c main_v52 : A2 1 128) := by
  obtain ⟨-, -, e2, e3, e4, e5, e6, e7, e8, -⟩ := idx_facts3 t
  funext x
  unfold iblk3
  rw [View.read_apply]
  show V c main_v52 (((cfg3.win 8).blk t).view.emb x) = V c main_v52 x
  congr 1
  funext a; apply Fin.ext
  match a with
  | ⟨0, _⟩ => show win3_8.index t (0 : Fin 2) * 1 + 1 * (x 0).val = (x 0).val; omega
  | ⟨1, _⟩ => show win3_8.index t (1 : Fin 2) * 128 + 1 * (x 1).val = (x 1).val; omega

/-- What point `t` writes back is block `t` of the node update of the input arrays. -/
theorem flushed3_eq (c : Dev nD) (t : Fin cfg3.N) :
    (dat3 (F := Ideal) V c).flushed 9 t = ((cfg3.win 9).blk t).view.read (Elt Ideal) (G3 V c) := by
  show (cfg3.win 9).cut (grid3.coords t) ((dat3 V c).after 9 t) = _
  rw [after3_9]
  unfold out3_9
  rw [View.canon_unit_zero hz3]
  simp only [View.ld_unit_zero (S := S5000x128) hz3, View.ld_unit_zero (S := S128x128) hz3, View.ld_unit_zero (S := S1x128) hz3]
  funext j
  obtain ⟨p, q, rfl⟩ : ∃ (p : Fin 5000) (q : Fin 128), j = ix2 p q := ⟨j 0, j 1, eq_ix2 j⟩
  refine (pay3_apply (iblk3 V c 0 t) (iblk3 V c 1 t) (iblk3 V c 2 t) (iblk3 V c 3 t) (iblk3 V c 4 t) (iblk3 V c 5 t) (iblk3 V c 6 t) (iblk3 V c 7 t) (iblk3 V c 8 t) p q).trans ?_
  rw [View.read_apply]
  obtain ⟨-, -, -, -, -, -, -, -, -, ⟨e0, e1⟩⟩ := idx_facts3 t
  have hr : (ri (((cfg3.win 9).blk t).view.emb (ix2 p q))).val = t.val * 5000 + p.val := by
    show win3_9.index t (0 : Fin 2) * 5000 + 1 * p.val = _
    omega
  have hq : ci (((cfg3.win 9).blk t).view.emb (ix2 p q)) = q := Fin.ext (by
    show win3_9.index t (1 : Fin 2) * 128 + 1 * q.val = q.val
    omega)
  show _ = nodeRow (mat (V c main_v38)) (mat (V c main_v39)) (row1 (V c main_v50)) (mat (V c main_v43)) (row1 (V c main_v51))
    (mat (V c main_v47)) (row1 (V c main_v52)) (rowAt (V c main_v7) (ri (((cfg3.win 9).blk t).view.emb (ix2 p q))))
    (rowAt (V c main_v35) (ri (((cfg3.win 9).blk t).view.emb (ix2 p q)))) (ci (((cfg3.win 9).blk t).view.emb (ix2 p q)))
  rw [hq, whole3_2, whole3_3, whole3_4, whole3_5, whole3_6, whole3_7, whole3_8, rows3_0 V c t p _ hr, rows3_1 V c t p _ hr]

/-- An index of the array is in point `t`'s block iff each coordinate is in the block's range on its axis. -/
theorem mem_blk3 (t : Fin cfg3.N) (i : S50000x128.Idx) :
    i ∈ ((cfg3.win 9).blk t).view.set ↔ ∀ a : Fin 2, win3_9.index t a * S5000x128.size a ≤ (i a).val ∧ (i a).val < win3_9.index t a * S5000x128.size a + S5000x128.size a := by
  show i ∈ ((View.whole main_v53).slice (win3_9.rect t)).set ↔ _
  rw [View.set_slice_whole, Rect.mem_set_unit]
  exact Iff.rfl

/-- Every row of the array is in the block of the point its row number divided by 5000 names. -/
theorem cover3 (i : S50000x128.Idx) : ∃ t : Fin cfg3.N, (cfg3.win 9).flush t = true ∧ i ∈ ((cfg3.win 9).blk t).view.set := by
  have hi0 : (i 0).val < 50000 := (i 0).isLt
  have hi1 : (i 1).val < 128 := (i 1).isLt
  have hN : grid3.N = 10 := N_3
  refine ⟨⟨(i 0).val / 5000, by show (i 0).val / 5000 < grid3.N; omega⟩, flush3_9 _, ?_⟩
  rw [mem_blk3]
  obtain ⟨-, -, -, -, -, -, -, -, -, ⟨e0, e1⟩⟩ := idx_facts3 ⟨(i 0).val / 5000, by show (i 0).val / 5000 < grid3.N; omega⟩
  intro a
  match a with
  | ⟨0, _⟩ => show win3_9.index _ (0 : Fin 2) * 5000 ≤ (i 0).val ∧ (i 0).val < win3_9.index _ (0 : Fin 2) * 5000 + 5000; rw [e0]; show (i 0).val / 5000 * 5000 ≤ (i 0).val ∧ (i 0).val < (i 0).val / 5000 * 5000 + 5000; omega
  | ⟨1, _⟩ => show win3_9.index _ (1 : Fin 2) * 128 ≤ (i 1).val ∧ (i 1).val < win3_9.index _ (1 : Fin 2) * 128 + 128; rw [e1]; omega

/-- The region's output array after the region is the node update of its input arrays. -/
theorem arr3 (c : Dev nD) :
    (dat3 (F := Ideal) V c).arrAt 9 cfg3.N = Net.nodeStep (mat (V c main_v38)) (mat (V c main_v39)) (row1 (V c main_v50)) (mat (V c main_v43)) (row1 (V c main_v51)) (mat (V c main_v47)) (row1 (V c main_v52)) (V c main_v7) (V c main_v35) :=
  (dat3 (F := Ideal) V c).arrAt_eq_of_cover 9 (G3 V c) (fun t _ => flushed3_eq V c t) cover3

end Arrays

end Cert.KernelIdeal.Val

end
-- ==== Proof.KIn3.lean ====
/-
  What region 3's input windows hold when the region is entered: each array the region stages, read back through the
  host operations and the earlier regions to the launch arrays and the earlier stages' results. No operation between
  a buffer's writer and this region overwrites it, so a buffer holds what its writer left; a slice of a stacked weight
  array is that array at the slice's indices, and a reshaped bias row is the bias row.
-/
import proofs.«425516_j47425028883052_2_alg».proof.Proof.KDefs
import Idealize.ShloMosaic.Lib.StableHlo.Run
import Idealize.ShloMosaic.Lib.ValueLayout
import Idealize.ShloMosaic.Lib.Pipeline.Value

set_option maxRecDepth 16384

noncomputable section

namespace Cert.KernelIdeal.In3

open Idealize.ShloMosaic Idealize.ShloMosaic.TcCoe Idealize.ShloMosaic.ValueIdx Idealize.SL.Sem Cert.KernelIdeal Cert.KernelIdeal.Gen Cert.Spec Cert.Net Cert.KernelIdeal.K

variable (m : (ℓ : Loc nD τ sig) → Buf (Elt Ideal) ℓ) (ρ : Dev nD → PrngReg) (c : Dev nD)

/-- A host stretch none of whose operations writes the buffer leaves the buffer as it was. -/
local macro "host_skip" h:ident : tactic => `(tactic|
  exact StableHlo.after_of_forall_not_mem _ _ (List.forall_iff_forall_mem.mp (by
    simp only [$h:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-- A launch array that nothing up to region 2's exit writes holds its launch contents there: it is carried back
    through region 2, the three host stretches before it, region 1, a host stretch, region 0 and the first stretch. -/
local macro "launch_at_W8" m:term:max ρ:term:max c:term:max b:ident : tactic => `(tactic| exact
  calc Gen.W8 $m $ρ $c (Proc.devRef .tc $b)
    _ = Gen.W7 $m $ρ $c (Proc.devRef .tc $b) := Gen.W8_of_ne $m $ρ $c $b (by decide)
    _ = Gen.W6 $m $ρ $c (Proc.devRef .tc $b) := by host_skip hostOps2_2
    _ = Gen.W5 $m $ρ $c (Proc.devRef .tc $b) := by host_skip hostOps2_1
    _ = Gen.W4 $m $ρ $c (Proc.devRef .tc $b) := by host_skip hostOps2
    _ = Gen.W3 $m $ρ $c (Proc.devRef .tc $b) := Gen.W4_of_ne $m $ρ $c $b (by decide)
    _ = Gen.W2 $m $ρ $c (Proc.devRef .tc $b) := by host_skip hostOps1
    _ = Gen.W1 $m $ρ $c (Proc.devRef .tc $b) := Gen.W2_of_ne $m $ρ $c $b (by decide)
    _ = Gen.W0 $m $ρ $c (Proc.devRef .tc $b) := by host_skip hostOps0
    _ = $m (($c : Thread nD τ).loc $b) := rfl)

/-! ## Slices of the stacked launch arrays, read at an index

Over any stacked array: band `s` of slice `t` of a stack of three matrices; slice `t` of a stack of three square
matrices; slice `t` of a stack of three rows, flattened and laid out again as one row. -/

/-- Rows `s … s + 127` of the matrix that is slice `t` of a stack of three `R × 128` matrices. -/
theorem band_of_stack {R : ℕ} (x : A3 3 R 128) (t : Fin 3) (s : ℕ) (hs : s + 128 ≤ R)
    (h1 : (⟨3, ![3, R, 128]⟩ : Shape).Slices ![t.val, 0, 0] ⟨3, ![1, R, 128]⟩)
    (h2 : (⟨3, ![1, R, 128]⟩ : Shape).ShapeCasts ⟨2, ![R, 128]⟩)
    (h3 : (⟨2, ![R, 128]⟩ : Shape).Slices ![s, 0] ⟨2, ![128, 128]⟩) :
    mat (extractStridedSlice ⟨2, ![128, 128]⟩ ![s, 0]
      (shapeCast ⟨2, ![R, 128]⟩ (extractStridedSlice ⟨3, ![1, R, 128]⟩ ![t.val, 0, 0] x h1) h2) h3) = band (w3 x t) s hs := by
  funext k j
  have hk : s + k.val < R := by have := k.isLt; omega
  show _ = x (ix3 t ⟨s + k.val, hk⟩ j)
  refine (extractStridedSlice_apply ![s, 0] _ h3 (ix2 k j) (ix2 ⟨s + k.val, hk⟩ j) (fun a => match a with
    | ⟨0, _⟩ => rfl
    | ⟨1, _⟩ => (Nat.zero_add _).symm)).trans ?_
  refine (shapeCast_1ab_ab_apply _ h2 ⟨s + k.val, hk⟩ j).trans ?_
  exact extractStridedSlice_apply ![t.val, 0, 0] x h1 (ix3 0 ⟨s + k.val, hk⟩ j) (ix3 t ⟨s + k.val, hk⟩ j) (fun a => match a with
    | ⟨0, _⟩ => (Nat.add_zero _).symm
    | ⟨1, _⟩ => (Nat.zero_add _).symm
    | ⟨2, _⟩ => (Nat.zero_add _).symm)

/-- Slice `t` of a stack of three `128 × 128` matrices. -/
theorem mat_of_stack (x : A3 3 128 128) (t : Fin 3)
    (h1 : (⟨3, ![3, 128, 128]⟩ : Shape).Slices ![t.val, 0, 0] ⟨3, ![1, 128, 128]⟩)
    (h2 : (⟨3, ![1, 128, 128]⟩ : Shape).ShapeCasts ⟨2, ![128, 128]⟩) :
    mat (shapeCast ⟨2, ![128, 128]⟩ (extractStridedSlice ⟨3, ![1, 128, 128]⟩ ![t.val, 0, 0] x h1) h2) = w3 x t := by
  funext k j
  show _ = x (ix3 t k j)
  refine (shapeCast_1ab_ab_apply _ h2 k j).trans ?_
  exact extractStridedSlice_apply ![t.val, 0, 0] x h1 (ix3 0 k j) (ix3 t k j) (fun a => match a with
    | ⟨0, _⟩ => (Nat.add_zero _).symm
    | ⟨1, _⟩ => (Nat.zero_add _).symm
    | ⟨2, _⟩ => (Nat.zero_add _).symm)

/-- Slice `t` of a stack of three rows of 128, flattened to a vector and laid out again as a `1 × 128` row. -/
theorem row_of_stack (x : A2 3 128) (t : Fin 3)
    (h1 : (⟨2, ![3, 128]⟩ : Shape).Slices ![t.val, 0] ⟨2, ![1, 128]⟩)
    (h2 : (⟨2, ![1, 128]⟩ : Shape).ShapeCasts ⟨1, ![128]⟩) (h3 : (⟨1, ![128]⟩ : Shape).ShapeCasts ⟨2, ![1, 128]⟩) :
    row1 (shapeCast ⟨2, ![1, 128]⟩ (shapeCast ⟨1, ![128]⟩ (extractStridedSlice ⟨2, ![1, 128]⟩ ![t.val, 0] x h1) h2) h3) = Net.b3 x t := by
  funext j
  show _ = x (ix2 t j)
  refine (shapeCast_a_1a_apply _ h3 0 j).trans ?_
  refine (shapeCast_1a_a_apply _ h2 j).trans ?_
  exact extractStridedSlice_apply ![t.val, 0] x h1 (ix2 0 j) (ix2 t j) (fun a => match a with
    | ⟨0, _⟩ => (Nat.add_zero _).symm
    | ⟨1, _⟩ => (Nat.zero_add _).symm)

/-! ## The buffers region 3 reads, carried back to where they were written -/

theorem arg21_at8 : W8 (F := Ideal) m ρ c (Proc.devRef .tc main_arg21) = m ((c : Thread nD τ).loc main_arg21) := by
  launch_at_W8 m ρ c main_arg21

theorem arg22_at8 : W8 (F := Ideal) m ρ c (Proc.devRef .tc main_arg22) = m ((c : Thread nD τ).loc main_arg22) := by
  launch_at_W8 m ρ c main_arg22

theorem arg23_at8 : W8 (F := Ideal) m ρ c (Proc.devRef .tc main_arg23) = m ((c : Thread nD τ).loc main_arg23) := by
  launch_at_W8 m ρ c main_arg23

theorem arg24_at8 : W8 (F := Ideal) m ρ c (Proc.devRef .tc main_arg24) = m ((c : Thread nD τ).loc main_arg24) := by
  launch_at_W8 m ρ c main_arg24

theorem arg25_at8 : W8 (F := Ideal) m ρ c (Proc.devRef .tc main_arg25) = m ((c : Thread nD τ).loc main_arg25) := by
  launch_at_W8 m ρ c main_arg25

theorem arg26_at8 : W8 (F := Ideal) m ρ c (Proc.devRef .tc main_arg26) = m ((c : Thread nD τ).loc main_arg26) := by
  launch_at_W8 m ρ c main_arg26

/-- The receivers' index vector at region 2's exit is the one the first host stretch left. -/
theorem v3_at8 : W8 (F := Ideal) m ρ c (Proc.devRef .tc main_v3) = dst m ρ c :=
  calc W8 m ρ c (Proc.devRef .tc main_v3)
    _ = W7 m ρ c (Proc.devRef .tc main_v3) := W8_of_ne m ρ c main_v3 (by decide)
    _ = W6 m ρ c (Proc.devRef .tc main_v3) := by host_skip hostOps2_2
    _ = W5 m ρ c (Proc.devRef .tc main_v3) := by host_skip hostOps2_1
    _ = W4 m ρ c (Proc.devRef .tc main_v3) := by host_skip hostOps2
    _ = W3 m ρ c (Proc.devRef .tc main_v3) := W4_of_ne m ρ c main_v3 (by decide)
    _ = Gen.W2 m ρ c (Proc.devRef .tc main_v3) := by host_skip hostOps1
    _ = W1 m ρ c (Proc.devRef .tc main_v3) := W2_of_ne m ρ c main_v3 (by decide)

/-! ## What each window of region 3 holds at the region's entry -/

theorem h : V9 (F := Ideal) m ρ c main_v7 = H0 m ρ c :=
  calc W9 m ρ c (Proc.devRef .tc main_v7)
    _ = W8 m ρ c (Proc.devRef .tc main_v7) := by host_skip hostOps3
    _ = W7 m ρ c (Proc.devRef .tc main_v7) := W8_of_ne m ρ c main_v7 (by decide)
    _ = W6 m ρ c (Proc.devRef .tc main_v7) := by host_skip hostOps2_2
    _ = W5 m ρ c (Proc.devRef .tc main_v7) := by host_skip hostOps2_1
    _ = W4 m ρ c (Proc.devRef .tc main_v7) := by host_skip hostOps2
    _ = W3 m ρ c (Proc.devRef .tc main_v7) := W4_of_ne m ρ c main_v7 (by decide)
    _ = Gen.W2 m ρ c (Proc.devRef .tc main_v7) := by host_skip hostOps1

theorem agg : V9 (F := Ideal) m ρ c main_v35 = scat m ρ c (E1 m ρ c) := by
  show StableHlo.after hostOps3 (W8 m ρ c) (Proc.devRef .tc main_v35) = _
  after_results
  rw [v3_at8 m ρ c]
  rfl

theorem Wa : mat (V9 (F := Ideal) m ρ c main_v38) = band (w3 (m ((c : Thread nD τ).loc main_arg21)) 0) 0 (by omega) := by
  show mat (StableHlo.after hostOps3 (W8 m ρ c) (Proc.devRef .tc main_v38)) = _
  after_results
  rw [arg21_at8 m ρ c]
  exact band_of_stack (m ((c : Thread nD τ).loc main_arg21)) 0 0 (by omega) _ _ _

theorem Wb : mat (V9 (F := Ideal) m ρ c main_v39) = band (w3 (m ((c : Thread nD τ).loc main_arg21)) 0) 128 (by omega) := by
  show mat (StableHlo.after hostOps3 (W8 m ρ c) (Proc.devRef .tc main_v39)) = _
  after_results
  rw [arg21_at8 m ρ c]
  exact band_of_stack (m ((c : Thread nD τ).loc main_arg21)) 0 128 (by omega) _ _ _

theorem b1 : row1 (V9 (F := Ideal) m ρ c main_v50) = b3 (m ((c : Thread nD τ).loc main_arg22)) 0 := by
  show row1 (StableHlo.after hostOps3 (W8 m ρ c) (Proc.devRef .tc main_v50)) = _
  after_results
  rw [arg22_at8 m ρ c]
  exact row_of_stack (m ((c : Thread nD τ).loc main_arg22)) 0 _ _ _

theorem W2 : mat (V9 (F := Ideal) m ρ c main_v43) = w3 (m ((c : Thread nD τ).loc main_arg23)) 0 := by
  show mat (StableHlo.after hostOps3 (W8 m ρ c) (Proc.devRef .tc main_v43)) = _
  after_results
  rw [arg23_at8 m ρ c]
  exact mat_of_stack (m ((c : Thread nD τ).loc main_arg23)) 0 _ _

theorem b2 : row1 (V9 (F := Ideal) m ρ c main_v51) = b3 (m ((c : Thread nD τ).loc main_arg24)) 0 := by
  show row1 (StableHlo.after hostOps3 (W8 m ρ c) (Proc.devRef .tc main_v51)) = _
  after_results
  rw [arg24_at8 m ρ c]
  exact row_of_stack (m ((c : Thread nD τ).loc main_arg24)) 0 _ _ _

theorem W3 : mat (V9 (F := Ideal) m ρ c main_v47) = w3 (m ((c : Thread nD τ).loc main_arg25)) 0 := by
  show mat (StableHlo.after hostOps3 (W8 m ρ c) (Proc.devRef .tc main_v47)) = _
  after_results
  rw [arg25_at8 m ρ c]
  exact mat_of_stack (m ((c : Thread nD τ).loc main_arg25)) 0 _ _

theorem b3 : row1 (V9 (F := Ideal) m ρ c main_v52) = b3 (m ((c : Thread nD τ).loc main_arg26)) 0 := by
  show row1 (StableHlo.after hostOps3 (W8 m ρ c) (Proc.devRef .tc main_v52)) = _
  after_results
  rw [arg26_at8 m ρ c]
  exact row_of_stack (m ((c : Thread nD τ).loc main_arg26)) 0 _ _ _

end Cert.KernelIdeal.In3

end
-- ==== Proof.KVal4.lean ====
/-
  The value of an edge-update region.

  The region runs one body at each of 80 points. At point `t` the body reads rows `5000 t … 5000 t + 4999` of three
  arrays (the senders' rows, the receivers' rows, the edges' rows) and the whole of four weight matrices and three bias
  rows, and writes the same rows of the output array. Two facts are proved. First, entry `(p, q)` of what the body
  stores is the edge-update row function of rows `p` of the three blocks, read at `q`: the first layer is three
  products added in order plus the bias, each later layer one product plus its bias, with a maximum against zero
  between layers, and the old edge entry added at the end. Second, since row `r` of the output array is written at
  point `r / 5000` and nowhere else, the array after the region is the edge update applied to every row.
-/
import proofs.«425516_j47425028883052_2_alg».proof.Proof.Gen.KernelIdeal.Frame
import proofs.«425516_j47425028883052_2_alg».proof.Proof.Net
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Idealize.ShloMosaic Idealize.ShloMosaic.TcCoe Idealize.ShloMosaic.ValueIdx Idealize.SL.Sem Cert.KernelIdeal Cert.KernelIdeal.Gen Cert.Spec Cert.Net

set_option maxRecDepth 16384

/-! ## A block product at an index

The kernel's products all have the same shape: a block of 5000 rows of 128 entries times a 128 × 128 matrix,
contracting the block's second axis with the matrix's first. The next four facts read the operands' indices at an
output index and a contraction index, axis by axis. -/

theorem e4_lhs_0 (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem e4_lhs_1 (i : S5000x128.Idx) (k : dot_S5000x128_S128x128_S5000x128_1_0_0_1_n_n.contr.Idx) :
    (dot_S5000x128_S128x128_S5000x128_1_0_0_1_n_n.lhsIdx i k 1).val = (k ⟨0, by decide⟩).val :=
  dot_S5000x128_S128x128_S5000x128_1_0_0_1_n_n.lhsIdx_val_of_single rfl i k
theorem e4_rhs_0 (i : S5000x128.Idx) (k : dot_S5000x128_S128x128_S5000x128_1_0_0_1_n_n.contr.Idx) :
    (dot_S5000x128_S128x128_S5000x128_1_0_0_1_n_n.rhsIdx i k 0).val = (k ⟨0, by decide⟩).val :=
  dot_S5000x128_S128x128_S5000x128_1_0_0_1_n_n.rhsIdx_val_of_single rfl i k
theorem e4_rhs_1 (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product into a zero accumulator, read at row `p` and column `q`, is the contraction of row `p` of the block
    with column `q` of the matrix. -/
theorem e4_mm_apply (x : FVec Ideal S5000x128 .bf16) (w : FVec Ideal S128x128 .bf16) (p : Fin 5000) (q : Fin 128) :
    matmul dot_S5000x128_S128x128_S5000x128_1_0_0_1_n_n none x w (constant (F := Ideal) S5000x128 .f32 0x00000000#32) (ix2 p q)
      = ∑ k : Fin 128, x (ix2 p k) * w (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact e4_lhs_0 _ _
    | ⟨1, _⟩ => exact (e4_lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (e4_rhs_0 _ _).trans hk
    | ⟨1, _⟩ => exact e4_rhs_1 _ _)
  rw [el, er]

/-! ## The body's arithmetic at an index -/

/-- Entry `(p, q)` of what the body stores: the edge's old entry plus the three-layer network of the sender's,
    the receiver's and the edge's own row `p`, the first layer as three products added in that order. Every
    operation but the products is entrywise; a conversion between float formats is the identity on the extended
    reals, a cast to the same shape is the identity, and the one-row biases read their row at the column. -/
theorem pay4_apply (hs hd e : Vec Ideal S5000x128 .f32) (Wa Wb Wc : Vec Ideal S128x128 .f32) (b1 : Vec Ideal S1x128 .f32) (W2 : Vec Ideal S128x128 .f32) (b2 : Vec Ideal S1x128 .f32) (W3 : Vec Ideal S128x128 .f32) (b3 : Vec Ideal S1x128 .f32) (p : Fin 5000) (q : Fin 128) :
    k4_pay1 (F := Ideal) (k4_pay2 e) (k4_pay3 hs hd e Wa Wb Wc b1 W2) (k4_pay4 b2) W3 b3 (ix2 p q)
      = edgeRow (mat Wa) (mat Wb) (mat Wc) (row1 b1) (mat W2) (row1 b2) (mat W3) (row1 b3) (rowAt hs p) (rowAt hd p) (rowAt e p) q := by
  unfold k4_pay1 k4_pay3 k4_pay2 k4_pay4
  simp only [shapeCast_self, addf_apply, e4_mm_apply, truncf_apply, maximumf_apply, broadcast_apply, broadcastTo_1b_ab_apply, Ideal.ofBits_def, Ideal.ofBits_zero_f32]
  rfl

/-- The same at any index of the block: the row functions at the index's row, read at its column. -/
theorem e4_pay_idx (hs hd e : Vec Ideal S5000x128 .f32) (Wa Wb Wc : Vec Ideal S128x128 .f32) (b1 : Vec Ideal S1x128 .f32) (W2 : Vec Ideal S128x128 .f32) (b2 : Vec Ideal S1x128 .f32) (W3 : Vec Ideal S128x128 .f32) (b3 : Vec Ideal S1x128 .f32) (j : S5000x128.Idx) :
    k4_pay1 (F := Ideal) (k4_pay2 e) (k4_pay3 hs hd e Wa Wb Wc b1 W2) (k4_pay4 b2) W3 b3 j
      = edgeRow (mat Wa) (mat Wb) (mat Wc) (row1 b1) (mat W2) (row1 b2) (mat W3) (row1 b3) (rowAt hs (ri j)) (rowAt hd (ri j)) (rowAt e (ri j)) (ci j) := by
  obtain ⟨p, q, rfl⟩ : ∃ (p : Fin 5000) (q : Fin 128), j = ix2 p q := ⟨j 0, j 1, eq_ix2 j⟩
  exact pay4_apply hs hd e Wa Wb Wc b1 W2 b2 W3 b3 p q

/-- One entry of the body's result against the same entry of the edge update of the whole arrays: if the three
    row blocks are rows `5000 n …` of three arrays, then entry `x` of the body's result on the blocks is entry `y` of
    the edge update of the arrays, for `y` at row `5000 n + x₀` and column `x₁`. -/
theorem e4_point (hsB hdB eB : Vec Ideal S5000x128 .f32) (hsA hdA eA : Vec Ideal S400000x128 .f32)
    (Wa Wb Wc : Vec Ideal S128x128 .f32) (b1 : Vec Ideal S1x128 .f32) (W2 : Vec Ideal S128x128 .f32) (b2 : Vec Ideal S1x128 .f32) (W3 : Vec Ideal S128x128 .f32) (b3 : Vec Ideal S1x128 .f32)
    (n : ℕ) (x : S5000x128.Idx) (y : S400000x128.Idx)
    (h0 : (y 0).val = n * 5000 + (x 0).val) (h1 : (y 1).val = (x 1).val)
    (hhs : ∀ (x' : S5000x128.Idx) (y' : S400000x128.Idx), (y' 0).val = n * 5000 + (x' 0).val → (y' 1).val = (x' 1).val → hsB x' = hsA y')
    (hhd : ∀ (x' : S5000x128.Idx) (y' : S400000x128.Idx), (y' 0).val = n * 5000 + (x' 0).val → (y' 1).val = (x' 1).val → hdB x' = hdA y')
    (he : ∀ (x' : S5000x128.Idx) (y' : S400000x128.Idx), (y' 0).val = n * 5000 + (x' 0).val → (y' 1).val = (x' 1).val → eB x' = eA y') :
    k4_pay1 (F := Ideal) (k4_pay2 eB) (k4_pay3 hsB hdB eB Wa Wb Wc b1 W2) (k4_pay4 b2) W3 b3 x
      = Net.edgeStep (mat Wa) (mat Wb) (mat Wc) (row1 b1) (mat W2) (row1 b2) (mat W3) (row1 b3) hsA hdA eA y := by
  rw [e4_pay_idx]
  unfold Net.edgeStep
  have hc : ci x = ci y := Fin.ext h1.symm
  have r1 : rowAt hsB (ri x) = rowAt hsA (ri y) := funext fun k => hhs (ix2 (ri x) k) (ix2 (ri y) k) h0 rfl
  have r2 : rowAt hdB (ri x) = rowAt hdA (ri y) := funext fun k => hhd (ix2 (ri x) k) (ix2 (ri y) k) h0 rfl
  have r3 : rowAt eB (ri x) = rowAt eA (ri y) := funext fun k => he (ix2 (ri x) k) (ix2 (ri y) k) h0 rfl
  rw [r1, r2, r3, hc]

/-! ## From the blocks to the array -/

section Blocks

variable (V : (c : Dev nD) → (b : Ref sig .tc) → Buf (Elt Ideal) ((c : Thread nD τ).loc b))

theorem e4_hz : (![0, 0] : Fin 2 → Nat) = fun _ => 0 := funext fun a => by
  match a with
  | ⟨0, _⟩ => rfl
  | ⟨1, _⟩ => rfl

/-- The index maps over the grid: the three row-tiled inputs and the output are at block `(t, 0)` at point `t`; the
    weights and the biases are always at block `(0, 0)`. -/
theorem e4_idx : ∀ t : Fin cfg4.N,
    (win4_0.index t (0 : Fin 2) = t.val ∧ win4_0.index t (1 : Fin 2) = 0)
    ∧ (win4_1.index t (0 : Fin 2) = t.val ∧ win4_1.index t (1 : Fin 2) = 0)
    ∧ (win4_2.index t (0 : Fin 2) = t.val ∧ win4_2.index t (1 : Fin 2) = 0)
    ∧ (win4_3.index t (0 : Fin 2) = 0 ∧ win4_3.index t (1 : Fin 2) = 0)
    ∧ (win4_4.index t (0 : Fin 2) = 0 ∧ win4_4.index t (1 : Fin 2) = 0)
    ∧ (win4_5.index t (0 : Fin 2) = 0 ∧ win4_5.index t (1 : Fin 2) = 0)
    ∧ (win4_6.index t (0 : Fin 2) = 0 ∧ win4_6.index t (1 : Fin 2) = 0)
    ∧ (win4_7.index t (0 : Fin 2) = 0 ∧ win4_7.index t (1 : Fin 2) = 0)
    ∧ (win4_8.index t (0 : Fin 2) = 0 ∧ win4_8.index t (1 : Fin 2) = 0)
    ∧ (win4_9.index t (0 : Fin 2) = 0 ∧ win4_9.index t (1 : Fin 2) = 0)
    ∧ (win4_10.index t (0 : Fin 2) = 0 ∧ win4_10.index t (1 : Fin 2) = 0)
    ∧ (win4_11.index t (0 : Fin 2) = t.val ∧ win4_11.index t (1 : Fin 2) = 0) :=
  (by decide +kernel : ∀ t : Fin grid4.N, _)

/-- Input window 0's block at point `t` is rows `5000 t … 5000 t + 4999` of its array. -/
theorem e4_blk0 (c : Dev nD) (t : Fin cfg4.N) (x : S5000x128.Idx) (y : S400000x128.Idx)
    (h0 : (y 0).val = t.val * 5000 + (x 0).val) (h1 : (y 1).val = (x 1).val) :
    (iblk4 V c 0 t : Vec Ideal S5000x128 .f32) x = (V c main_v54 : Vec Ideal S400000x128 .f32) y := by
  have hi := e4_idx t
  unfold iblk4
  rw [View.read_apply]
  show V c main_v54 (((cfg4.win 0).blk t).view.emb x) = V c main_v54 y
  refine congrArg (V c main_v54) (funext fun a => Fin.ext ?_)
  match a with
  | ⟨0, _⟩ => show win4_0.index t (0 : Fin 2) * 5000 + 1 * (x 0).val = (y 0).val; omega
  | ⟨1, _⟩ => show win4_0.index t (1 : Fin 2) * 128 + 1 * (x 1).val = (y 1).val; omega

/-- Input window 1's block at point `t` is rows `5000 t … 5000 t + 4999` of its array. -/
theorem e4_blk1 (c : Dev nD) (t : Fin cfg4.N) (x : S5000x128.Idx) (y : S400000x128.Idx)
    (h0 : (y 0).val = t.val * 5000 + (x 0).val) (h1 : (y 1).val = (x 1).val) :
    (iblk4 V c 1 t : Vec Ideal S5000x128 .f32) x = (V c main_v55 : Vec Ideal S400000x128 .f32) y := by
  have hi := e4_idx t
  unfold iblk4
  rw [View.read_apply]
  show V c main_v55 (((cfg4.win 1).blk t).view.emb x) = V c main_v55 y
  refine congrArg (V c main_v55) (funext fun a => Fin.ext ?_)
  match a with
  | ⟨0, _⟩ => show win4_1.index t (0 : Fin 2) * 5000 + 1 * (x 0).val = (y 0).val; omega
  | ⟨1, _⟩ => show win4_1.index t (1 : Fin 2) * 128 + 1 * (x 1).val = (y 1).val; omega

/-- Input window 2's block at point `t` is rows `5000 t … 5000 t + 4999` of its array. -/
theorem e4_blk2 (c : Dev nD) (t : Fin cfg4.N) (x : S5000x128.Idx) (y : S400000x128.Idx)
    (h0 : (y 0).val = t.val * 5000 + (x 0).val) (h1 : (y 1).val = (x 1).val) :
    (iblk4 V c 2 t : Vec Ideal S5000x128 .f32) x = (V c main_v32 : Vec Ideal S400000x128 .f32) y := by
  have hi := e4_idx t
  unfold iblk4
  rw [View.read_apply]
  show V c main_v32 (((cfg4.win 2).blk t).view.emb x) = V c main_v32 y
  refine congrArg (V c main_v32) (funext fun a => Fin.ext ?_)
  match a with
  | ⟨0, _⟩ => show win4_2.index t (0 : Fin 2) * 5000 + 1 * (x 0).val = (y 0).val; omega
  | ⟨1, _⟩ => show win4_2.index t (1 : Fin 2) * 128 + 1 * (x 1).val = (y 1).val; omega

/-- Window 3's block at every point is its whole array. -/
theorem e4_blk3 (c : Dev nD) (t : Fin cfg4.N) : (iblk4 V c 3 t : Vec Ideal S128x128 .f32) = V c main_v58 := by
  have hi := e4_idx t
  funext x
  unfold iblk4
  rw [View.read_apply]
  show V c main_v58 (((cfg4.win 3).blk t).view.emb x) = V c main_v58 x
  refine congrArg (V c main_v58) (funext fun a => Fin.ext ?_)
  match a with
  | ⟨0, _⟩ => show win4_3.index t (0 : Fin 2) * 128 + 1 * (x 0).val = (x 0).val; omega
  | ⟨1, _⟩ => show win4_3.index t (1 : Fin 2) * 128 + 1 * (x 1).val = (x 1).val; omega

/-- Window 4's block at every point is its whole array. -/
theorem e4_blk4 (c : Dev nD) (t : Fin cfg4.N) : (iblk4 V c 4 t : Vec Ideal S128x128 .f32) = V c main_v59 := by
  have hi := e4_idx t
  funext x
  unfold iblk4
  rw [View.read_apply]
  show V c main_v59 (((cfg4.win 4).blk t).view.emb x) = V c main_v59 x
  refine congrArg (V c main_v59) (funext fun a => Fin.ext ?_)
  match a with
  | ⟨0, _⟩ => show win4_4.index t (0 : Fin 2) * 128 + 1 * (x 0).val = (x 0).val; omega
  | ⟨1, _⟩ => show win4_4.index t (1 : Fin 2) * 128 + 1 * (x 1).val = (x 1).val; omega

/-- Window 5's block at every point is its whole array. -/
theorem e4_blk5 (c : Dev nD) (t : Fin cfg4.N) : (iblk4 V c 5 t : Vec Ideal S128x128 .f32) = V c main_v60 := by
  have hi := e4_idx t
  funext x
  unfold iblk4
  rw [View.read_apply]
  show V c main_v60 (((cfg4.win 5).blk t).view.emb x) = V c main_v60 x
  refine congrArg (V c main_v60) (funext fun a => Fin.ext ?_)
  match a with
  | ⟨0, _⟩ => show win4_5.index t (0 : Fin 2) * 128 + 1 * (x 0).val = (x 0).val; omega
  | ⟨1, _⟩ => show win4_5.index t (1 : Fin 2) * 128 + 1 * (x 1).val = (x 1).val; omega

/-- Window 6's block at every point is its whole array. -/
theorem e4_blk6 (c : Dev nD) (t : Fin cfg4.N) : (iblk4 V c 6 t : Vec Ideal S1x128 .f32) = V c main_v71 := by
  have hi := e4_idx t
  funext x
  unfold iblk4
  rw [View.read_apply]
  show V c main_v71 (((cfg4.win 6).blk t).view.emb x) = V c main_v71 x
  refine congrArg (V c main_v71) (funext fun a => Fin.ext ?_)
  match a with
  | ⟨0, _⟩ => show win4_6.index t (0 : Fin 2) * 1 + 1 * (x 0).val = (x 0).val; omega
  | ⟨1, _⟩ => show win4_6.index t (1 : Fin 2) * 128 + 1 * (x 1).val = (x 1).val; omega

/-- Window 7's block at every point is its whole array. -/
theorem e4_blk7 (c : Dev nD) (t : Fin cfg4.N) : (iblk4 V c 7 t : Vec Ideal S128x128 .f32) = V c main_v64 := by
  have hi := e4_idx t
  funext x
  unfold iblk4
  rw [View.read_apply]
  show V c main_v64 (((cfg4.win 7).blk t).view.emb x) = V c main_v64 x
  refine congrArg (V c main_v64) (funext fun a => Fin.ext ?_)
  match a with
  | ⟨0, _⟩ => show win4_7.index t (0 : Fin 2) * 128 + 1 * (x 0).val = (x 0).val; omega
  | ⟨1, _⟩ => show win4_7.index t (1 : Fin 2) * 128 + 1 * (x 1).val = (x 1).val; omega

/-- Window 8's block at every point is its whole array. -/
theorem e4_blk8 (c : Dev nD) (t : Fin cfg4.N) : (iblk4 V c 8 t : Vec Ideal S1x128 .f32) = V c main_v72 := by
  have hi := e4_idx t
  funext x
  unfold iblk4
  rw [View.read_apply]
  show V c main_v72 (((cfg4.win 8).blk t).view.emb x) = V c main_v72 x
  refine congrArg (V c main_v72) (funext fun a => Fin.ext ?_)
  match a with
  | ⟨0, _⟩ => show win4_8.index t (0 : Fin 2) * 1 + 1 * (x 0).val = (x 0).val; omega
  | ⟨1, _⟩ => show win4_8.index t (1 : Fin 2) * 128 + 1 * (x 1).val = (x 1).val; omega

/-- Window 9's block at every point is its whole array. -/
theorem e4_blk9 (c : Dev nD) (t : Fin cfg4.N) : (iblk4 V c 9 t : Vec Ideal S128x128 .f32) = V c main_v68 := by
  have hi := e4_idx t
  funext x
  unfold iblk4
  rw [View.read_apply]
  show V c main_v68 (((cfg4.win 9).blk t).view.emb x) = V c main_v68 x
  refine congrArg (V c main_v68) (funext fun a => Fin.ext ?_)
  match a with
  | ⟨0, _⟩ => show win4_9.index t (0 : Fin 2) * 128 + 1 * (x 0).val = (x 0).val; omega
  | ⟨1, _⟩ => show win4_9.index t (1 : Fin 2) * 128 + 1 * (x 1).val = (x 1).val; omega

/-- Window 10's block at every point is its whole array. -/
theorem e4_blk10 (c : Dev nD) (t : Fin cfg4.N) : (iblk4 V c 10 t : Vec Ideal S1x128 .f32) = V c main_v73 := by
  have hi := e4_idx t
  funext x
  unfold iblk4
  rw [View.read_apply]
  show V c main_v73 (((cfg4.win 10).blk t).view.emb x) = V c main_v73 x
  refine congrArg (V c main_v73) (funext fun a => Fin.ext ?_)
  match a with
  | ⟨0, _⟩ => show win4_10.index t (0 : Fin 2) * 1 + 1 * (x 0).val = (x 0).val; omega
  | ⟨1, _⟩ => show win4_10.index t (1 : Fin 2) * 128 + 1 * (x 1).val = (x 1).val; omega

/-- What point `t` writes back is block `t` of the edge update of the arrays as the region finds them. -/
theorem e4_flushed (c : Dev nD) (t : Fin cfg4.N) :
    (dat4 (F := Ideal) V c).flushed 11 t = ((cfg4.win 11).blk t).view.read (Elt Ideal)
      (Net.edgeStep (mat (V c main_v58)) (mat (V c main_v59)) (mat (V c main_v60)) (row1 (V c main_v71)) (mat (V c main_v64)) (row1 (V c main_v72)) (mat (V c main_v68)) (row1 (V c main_v73)) (V c main_v54) (V c main_v55) (V c main_v32)) := by
  show (cfg4.win 11).cut (grid4.coords t) ((dat4 V c).after 11 t) = _
  rw [after4_11]
  unfold out4_11
  rw [View.canon_unit_zero e4_hz]
  simp only [View.ld_unit_zero (S := S5000x128) e4_hz, View.ld_unit_zero (S := S128x128) e4_hz, View.ld_unit_zero (S := S1x128) e4_hz]
  rw [e4_blk3 V c t, e4_blk4 V c t, e4_blk5 V c t, e4_blk6 V c t, e4_blk7 V c t, e4_blk8 V c t, e4_blk9 V c t, e4_blk10 V c t]
  funext j
  have hi := e4_idx t
  have key := e4_point (iblk4 V c 0 t) (iblk4 V c 1 t) (iblk4 V c 2 t) (V c main_v54) (V c main_v55) (V c main_v32)
    (V c main_v58) (V c main_v59) (V c main_v60) (V c main_v71) (V c main_v64) (V c main_v72) (V c main_v68) (V c main_v73)
    t.val
  have b0 := fun x' y' h0 h1 => e4_blk0 V c t x' y' h0 h1
  have b1 := fun x' y' h0 h1 => e4_blk1 V c t x' y' h0 h1
  have b2 := fun x' y' h0 h1 => e4_blk2 V c t x' y' h0 h1
  have key2 := fun x y h0 h1 => key x y h0 h1 b0 b1 b2
  clear key b0 b1 b2
  refine key2 ((win4_11).xinj (grid4.coords t) j) (((cfg4.win 11).blk t).view.emb j) ?_ ?_
  · show win4_11.index t (0 : Fin 2) * 5000 + 1 * (j 0).val = t.val * 5000 + (j 0).val; omega
  · show win4_11.index t (1 : Fin 2) * 128 + 1 * (j 1).val = (j 1).val; omega

/-- An index of the output array is in point `t`'s block iff each coordinate is in the block's range on its axis. -/
theorem e4_mem_blk (t : Fin cfg4.N) (i : S400000x128.Idx) :
    i ∈ ((cfg4.win 11).blk t).view.set ↔ ∀ a : Fin 2, win4_11.index t a * S5000x128.size a ≤ (i a).val ∧ (i a).val < win4_11.index t a * S5000x128.size a + S5000x128.size a := by
  show i ∈ ((View.whole main_v74).slice (win4_11.rect t)).set ↔ _
  rw [View.set_slice_whole, Rect.mem_set_unit]
  exact Iff.rfl

/-- Every index of the output array is in the block of the point its row falls to: row `r` is written at point `r / 5000`. -/
theorem e4_cover (i : S400000x128.Idx) :
    ∃ t : Fin cfg4.N, (cfg4.win 11).flush t = true ∧ i ∈ ((cfg4.win 11).blk t).view.set := by
  have hN : cfg4.N = 80 := N_4
  have hi0 : (i 0).val < 400000 := idx2_lt0 i
  have hi1 : (i 1).val < 128 := idx2_lt1 i
  obtain ⟨t, ht⟩ : ∃ t : Fin cfg4.N, t.val = (i 0).val / 5000 := ⟨⟨(i 0).val / 5000, by rw [hN]; omega⟩, rfl⟩
  have hi := e4_idx t
  refine ⟨t, flush4_11 t, ?_⟩
  rw [e4_mem_blk]
  intro a
  match a with
  | ⟨0, _⟩ => show win4_11.index t (0 : Fin 2) * 5000 ≤ (i 0).val ∧ (i 0).val < win4_11.index t (0 : Fin 2) * 5000 + 5000; omega
  | ⟨1, _⟩ => show win4_11.index t (1 : Fin 2) * 128 ≤ (i 1).val ∧ (i 1).val < win4_11.index t (1 : Fin 2) * 128 + 128; omega

/-- The output array after the region: the edge update of the arrays the region's input windows stage. -/
theorem arr4 (c : Dev nD) :
    (dat4 (F := Ideal) V c).arrAt 11 cfg4.N = Net.edgeStep (mat (V c main_v58)) (mat (V c main_v59)) (mat (V c main_v60)) (row1 (V c main_v71)) (mat (V c main_v64)) (row1 (V c main_v72)) (mat (V c main_v68)) (row1 (V c main_v73)) (V c main_v54) (V c main_v55) (V c main_v32) :=
  (dat4 (F := Ideal) V c).arrAt_eq_of_cover 11 _ (fun t _ => e4_flushed V c t) (fun i => e4_cover i)

end Blocks

end Cert.KernelIdeal.Val

end
-- ==== Proof.KIn4.lean ====
/-
  What region 4's input windows hold when the region is entered: each array the region stages, read back through the
  host operations and the earlier regions to the launch arrays and the earlier stages' results. No operation between
  a buffer's writer and this region overwrites it, so a buffer holds what its writer left; a slice of a stacked weight
  array is that array at the slice's indices, and a reshaped bias row is the bias row.
-/
import proofs.«425516_j47425028883052_2_alg».proof.Proof.KDefs
import proofs.«425516_j47425028883052_2_alg».proof.Proof.TakeK
import Idealize.ShloMosaic.Lib.ValueLayout
set_option maxRecDepth 16384

noncomputable section

namespace Cert.KernelIdeal.In4

open Idealize.ShloMosaic Idealize.ShloMosaic.TcCoe Idealize.ShloMosaic.ValueIdx Idealize.SL.Sem Cert.KernelIdeal Cert.KernelIdeal.Gen Cert.Spec Cert.Net Cert.KernelIdeal.K

/-- A stretch of host operations leaves a buffer that none of its operations writes as it was. -/
local macro "host_skip " h:ident : tactic => `(tactic|
  exact StableHlo.after_of_forall_not_mem _ _ (List.forall_iff_forall_mem.mp (by
    simp only [$h:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! The three kinds of weight window, over an arbitrary stacked array. -/

/-- A band of 128 rows of slice `t` of a stack of three matrices: the slice of the stack at `t`, with its leading unit
    axis dropped, cut along its rows from `s`. Entry `(k, j)` reads the stack at `(t, s + k, j)`. -/
theorem mat_band {a : ℕ} (x : A3 3 a 128) (t : Fin 3) (s : ℕ) (hs : s + 128 ≤ a)
    (h1 : (⟨3, ![3, a, 128]⟩ : Shape).Slices ![t.val, 0, 0] ⟨3, ![1, a, 128]⟩)
    (h2 : (⟨3, ![1, a, 128]⟩ : Shape).ShapeCasts ⟨2, ![a, 128]⟩)
    (h3 : (⟨2, ![a, 128]⟩ : Shape).Slices ![s, 0] ⟨2, ![128, 128]⟩) :
    mat (extractStridedSlice ⟨2, ![128, 128]⟩ ![s, 0]
          (shapeCast ⟨2, ![a, 128]⟩ (extractStridedSlice ⟨3, ![1, a, 128]⟩ ![t.val, 0, 0] x h1) h2) h3)
      = band (w3 x t) s hs := by
  funext k j
  unfold mat band w3
  refine (slice2_axis0_apply s _ h3 k j ⟨s + k.val, by have := k.isLt; omega⟩ rfl).trans ?_
  refine (shapeCast_1ab_ab_apply _ h2 _ j).trans ?_
  refine extractStridedSlice_apply _ x h1 _ _ fun ax => ?_
  match ax with
  | ⟨0, _⟩ => exact (Nat.add_zero _).symm
  | ⟨1, _⟩ => exact (Nat.zero_add _).symm
  | ⟨2, _⟩ => exact (Nat.zero_add _).symm

/-- Slice `t` of a stack of three square matrices with its leading unit axis dropped. -/
theorem mat_w3 (x : A3 3 128 128) (t : Fin 3)
    (h1 : (⟨3, ![3, 128, 128]⟩ : Shape).Slices ![t.val, 0, 0] ⟨3, ![1, 128, 128]⟩)
    (h2 : (⟨3, ![1, 128, 128]⟩ : Shape).ShapeCasts ⟨2, ![128, 128]⟩) :
    mat (shapeCast ⟨2, ![128, 128]⟩ (extractStridedSlice ⟨3, ![1, 128, 128]⟩ ![t.val, 0, 0] x h1) h2) = w3 x t := by
  funext k j
  unfold mat w3
  refine (shapeCast_1ab_ab_apply _ h2 k j).trans ?_
  refine extractStridedSlice_apply _ x h1 _ _ fun ax => ?_
  match ax with
  | ⟨0, _⟩ => exact (Nat.add_zero _).symm
  | ⟨1, _⟩ => exact (Nat.zero_add _).symm
  | ⟨2, _⟩ => exact (Nat.zero_add _).symm

/-- Row `t` of a stack of three bias rows: the slice at `t`, flattened to a vector and laid out again as one row. -/
theorem row1_b3 (x : A2 3 128) (t : Fin 3)
    (h1 : (⟨2, ![3, 128]⟩ : Shape).Slices ![t.val, 0] ⟨2, ![1, 128]⟩)
    (h2 : (⟨2, ![1, 128]⟩ : Shape).ShapeCasts ⟨1, ![128]⟩)
    (h3 : (⟨1, ![128]⟩ : Shape).ShapeCasts ⟨2, ![1, 128]⟩) :
    row1 (shapeCast ⟨2, ![1, 128]⟩ (shapeCast ⟨1, ![128]⟩ (extractStridedSlice ⟨2, ![1, 128]⟩ ![t.val, 0] x h1) h2) h3)
      = b3 x t := by
  funext j
  unfold row1 b3
  refine (shapeCast_a_1a_apply _ h3 0 j).trans ?_
  refine (shapeCast_1a_a_apply _ h2 j).trans ?_
  exact slice2_axis0_apply t.val x h1 0 j t (Nat.add_zero _).symm

variable (m : (ℓ : Loc nD τ sig) → Buf (Elt Ideal) ℓ) (ρ : Dev nD → PrngReg) (c : Dev nD)

/-! The launch arrays the region's weight windows are cut from, at region 3's exit (the host operations after it that do not write them are stepped over with the windows' own operations). -/

/-- Nothing before this step's lookups writes `main_arg15`: at region 3's exit it still holds the launch array. -/
theorem at10_arg15 : Gen.W10 (F := Ideal) m ρ c (Proc.devRef .tc main_arg15) = m ((c : Thread nD τ).loc main_arg15) :=
  calc Gen.W10 (F := Ideal) m ρ c (Proc.devRef .tc main_arg15)
    _ = Gen.W9 (F := Ideal) m ρ c (Proc.devRef .tc main_arg15) := W10_of_ne m ρ c main_arg15 (by decide)
    _ = Gen.W8 (F := Ideal) m ρ c (Proc.devRef .tc main_arg15) := by host_skip hostOps3
    _ = Gen.W7 (F := Ideal) m ρ c (Proc.devRef .tc main_arg15) := W8_of_ne m ρ c main_arg15 (by decide)
    _ = Gen.W6 (F := Ideal) m ρ c (Proc.devRef .tc main_arg15) := by host_skip hostOps2_2
    _ = Gen.W5 (F := Ideal) m ρ c (Proc.devRef .tc main_arg15) := by host_skip hostOps2_1
    _ = Gen.W4 (F := Ideal) m ρ c (Proc.devRef .tc main_arg15) := by host_skip hostOps2
    _ = Gen.W3 (F := Ideal) m ρ c (Proc.devRef .tc main_arg15) := W4_of_ne m ρ c main_arg15 (by decide)
    _ = Gen.W2 (F := Ideal) m ρ c (Proc.devRef .tc main_arg15) := by host_skip hostOps1
    _ = Gen.W1 (F := Ideal) m ρ c (Proc.devRef .tc main_arg15) := W2_of_ne m ρ c main_arg15 (by decide)
    _ = Gen.W0 (F := Ideal) m ρ c (Proc.devRef .tc main_arg15) := by host_skip hostOps0
    _ = m ((c : Thread nD τ).loc main_arg15) := rfl

/-- Nothing before this step's lookups writes `main_arg16`: at region 3's exit it still holds the launch array. -/
theorem at10_arg16 : Gen.W10 (F := Ideal) m ρ c (Proc.devRef .tc main_arg16) = m ((c : Thread nD τ).loc main_arg16) :=
  calc Gen.W10 (F := Ideal) m ρ c (Proc.devRef .tc main_arg16)
    _ = Gen.W9 (F := Ideal) m ρ c (Proc.devRef .tc main_arg16) := W10_of_ne m ρ c main_arg16 (by decide)
    _ = Gen.W8 (F := Ideal) m ρ c (Proc.devRef .tc main_arg16) := by host_skip hostOps3
    _ = Gen.W7 (F := Ideal) m ρ c (Proc.devRef .tc main_arg16) := W8_of_ne m ρ c main_arg16 (by decide)
    _ = Gen.W6 (F := Ideal) m ρ c (Proc.devRef .tc main_arg16) := by host_skip hostOps2_2
    _ = Gen.W5 (F := Ideal) m ρ c (Proc.devRef .tc main_arg16) := by host_skip hostOps2_1
    _ = Gen.W4 (F := Ideal) m ρ c (Proc.devRef .tc main_arg16) := by host_skip hostOps2
    _ = Gen.W3 (F := Ideal) m ρ c (Proc.devRef .tc main_arg16) := W4_of_ne m ρ c main_arg16 (by decide)
    _ = Gen.W2 (F := Ideal) m ρ c (Proc.devRef .tc main_arg16) := by host_skip hostOps1
    _ = Gen.W1 (F := Ideal) m ρ c (Proc.devRef .tc main_arg16) := W2_of_ne m ρ c main_arg16 (by decide)
    _ = Gen.W0 (F := Ideal) m ρ c (Proc.devRef .tc main_arg16) := by host_skip hostOps0
    _ = m ((c : Thread nD τ).loc main_arg16) := rfl

/-- Nothing before this step's lookups writes `main_arg17`: at region 3's exit it still holds the launch array. -/
theorem at10_arg17 : Gen.W10 (F := Ideal) m ρ c (Proc.devRef .tc main_arg17) = m ((c : Thread nD τ).loc main_arg17) :=
  calc Gen.W10 (F := Ideal) m ρ c (Proc.devRef .tc main_arg17)
    _ = Gen.W9 (F := Ideal) m ρ c (Proc.devRef .tc main_arg17) := W10_of_ne m ρ c main_arg17 (by decide)
    _ = Gen.W8 (F := Ideal) m ρ c (Proc.devRef .tc main_arg17) := by host_skip hostOps3
    _ = Gen.W7 (F := Ideal) m ρ c (Proc.devRef .tc main_arg17) := W8_of_ne m ρ c main_arg17 (by decide)
    _ = Gen.W6 (F := Ideal) m ρ c (Proc.devRef .tc main_arg17) := by host_skip hostOps2_2
    _ = Gen.W5 (F := Ideal) m ρ c (Proc.devRef .tc main_arg17) := by host_skip hostOps2_1
    _ = Gen.W4 (F := Ideal) m ρ c (Proc.devRef .tc main_arg17) := by host_skip hostOps2
    _ = Gen.W3 (F := Ideal) m ρ c (Proc.devRef .tc main_arg17) := W4_of_ne m ρ c main_arg17 (by decide)
    _ = Gen.W2 (F := Ideal) m ρ c (Proc.devRef .tc main_arg17) := by host_skip hostOps1
    _ = Gen.W1 (F := Ideal) m ρ c (Proc.devRef .tc main_arg17) := W2_of_ne m ρ c main_arg17 (by decide)
    _ = Gen.W0 (F := Ideal) m ρ c (Proc.devRef .tc main_arg17) := by host_skip hostOps0
    _ = m ((c : Thread nD τ).loc main_arg17) := rfl

/-- Nothing before this step's lookups writes `main_arg18`: at region 3's exit it still holds the launch array. -/
theorem at10_arg18 : Gen.W10 (F := Ideal) m ρ c (Proc.devRef .tc main_arg18) = m ((c : Thread nD τ).loc main_arg18) :=
  calc Gen.W10 (F := Ideal) m ρ c (Proc.devRef .tc main_arg18)
    _ = Gen.W9 (F := Ideal) m ρ c (Proc.devRef .tc main_arg18) := W10_of_ne m ρ c main_arg18 (by decide)
    _ = Gen.W8 (F := Ideal) m ρ c (Proc.devRef .tc main_arg18) := by host_skip hostOps3
    _ = Gen.W7 (F := Ideal) m ρ c (Proc.devRef .tc main_arg18) := W8_of_ne m ρ c main_arg18 (by decide)
    _ = Gen.W6 (F := Ideal) m ρ c (Proc.devRef .tc main_arg18) := by host_skip hostOps2_2
    _ = Gen.W5 (F := Ideal) m ρ c (Proc.devRef .tc main_arg18) := by host_skip hostOps2_1
    _ = Gen.W4 (F := Ideal) m ρ c (Proc.devRef .tc main_arg18) := by host_skip hostOps2
    _ = Gen.W3 (F := Ideal) m ρ c (Proc.devRef .tc main_arg18) := W4_of_ne m ρ c main_arg18 (by decide)
    _ = Gen.W2 (F := Ideal) m ρ c (Proc.devRef .tc main_arg18) := by host_skip hostOps1
    _ = Gen.W1 (F := Ideal) m ρ c (Proc.devRef .tc main_arg18) := W2_of_ne m ρ c main_arg18 (by decide)
    _ = Gen.W0 (F := Ideal) m ρ c (Proc.devRef .tc main_arg18) := by host_skip hostOps0
    _ = m ((c : Thread nD τ).loc main_arg18) := rfl

/-- Nothing before this step's lookups writes `main_arg19`: at region 3's exit it still holds the launch array. -/
theorem at10_arg19 : Gen.W10 (F := Ideal) m ρ c (Proc.devRef .tc main_arg19) = m ((c : Thread nD τ).loc main_arg19) :=
  calc Gen.W10 (F := Ideal) m ρ c (Proc.devRef .tc main_arg19)
    _ = Gen.W9 (F := Ideal) m ρ c (Proc.devRef .tc main_arg19) := W10_of_ne m ρ c main_arg19 (by decide)
    _ = Gen.W8 (F := Ideal) m ρ c (Proc.devRef .tc main_arg19) := by host_skip hostOps3
    _ = Gen.W7 (F := Ideal) m ρ c (Proc.devRef .tc main_arg19) := W8_of_ne m ρ c main_arg19 (by decide)
    _ = Gen.W6 (F := Ideal) m ρ c (Proc.devRef .tc main_arg19) := by host_skip hostOps2_2
    _ = Gen.W5 (F := Ideal) m ρ c (Proc.devRef .tc main_arg19) := by host_skip hostOps2_1
    _ = Gen.W4 (F := Ideal) m ρ c (Proc.devRef .tc main_arg19) := by host_skip hostOps2
    _ = Gen.W3 (F := Ideal) m ρ c (Proc.devRef .tc main_arg19) := W4_of_ne m ρ c main_arg19 (by decide)
    _ = Gen.W2 (F := Ideal) m ρ c (Proc.devRef .tc main_arg19) := by host_skip hostOps1
    _ = Gen.W1 (F := Ideal) m ρ c (Proc.devRef .tc main_arg19) := W2_of_ne m ρ c main_arg19 (by decide)
    _ = Gen.W0 (F := Ideal) m ρ c (Proc.devRef .tc main_arg19) := by host_skip hostOps0
    _ = m ((c : Thread nD τ).loc main_arg19) := rfl

/-- Nothing before this step's lookups writes `main_arg20`: at region 3's exit it still holds the launch array. -/
theorem at10_arg20 : Gen.W10 (F := Ideal) m ρ c (Proc.devRef .tc main_arg20) = m ((c : Thread nD τ).loc main_arg20) :=
  calc Gen.W10 (F := Ideal) m ρ c (Proc.devRef .tc main_arg20)
    _ = Gen.W9 (F := Ideal) m ρ c (Proc.devRef .tc main_arg20) := W10_of_ne m ρ c main_arg20 (by decide)
    _ = Gen.W8 (F := Ideal) m ρ c (Proc.devRef .tc main_arg20) := by host_skip hostOps3
    _ = Gen.W7 (F := Ideal) m ρ c (Proc.devRef .tc main_arg20) := W8_of_ne m ρ c main_arg20 (by decide)
    _ = Gen.W6 (F := Ideal) m ρ c (Proc.devRef .tc main_arg20) := by host_skip hostOps2_2
    _ = Gen.W5 (F := Ideal) m ρ c (Proc.devRef .tc main_arg20) := by host_skip hostOps2_1
    _ = Gen.W4 (F := Ideal) m ρ c (Proc.devRef .tc main_arg20) := by host_skip hostOps2
    _ = Gen.W3 (F := Ideal) m ρ c (Proc.devRef .tc main_arg20) := W4_of_ne m ρ c main_arg20 (by decide)
    _ = Gen.W2 (F := Ideal) m ρ c (Proc.devRef .tc main_arg20) := by host_skip hostOps1
    _ = Gen.W1 (F := Ideal) m ρ c (Proc.devRef .tc main_arg20) := W2_of_ne m ρ c main_arg20 (by decide)
    _ = Gen.W0 (F := Ideal) m ρ c (Proc.devRef .tc main_arg20) := by host_skip hostOps0
    _ = m ((c : Thread nD τ).loc main_arg20) := rfl

/-- The senders' index vector is written once, by the first host stretch, and by nothing after it. -/
theorem at10_v1 : Gen.W10 (F := Ideal) m ρ c (Proc.devRef .tc main_v1) = src m ρ c :=
  calc Gen.W10 (F := Ideal) m ρ c (Proc.devRef .tc main_v1)
    _ = Gen.W9 (F := Ideal) m ρ c (Proc.devRef .tc main_v1) := W10_of_ne m ρ c main_v1 (by decide)
    _ = Gen.W8 (F := Ideal) m ρ c (Proc.devRef .tc main_v1) := by host_skip hostOps3
    _ = Gen.W7 (F := Ideal) m ρ c (Proc.devRef .tc main_v1) := W8_of_ne m ρ c main_v1 (by decide)
    _ = Gen.W6 (F := Ideal) m ρ c (Proc.devRef .tc main_v1) := by host_skip hostOps2_2
    _ = Gen.W5 (F := Ideal) m ρ c (Proc.devRef .tc main_v1) := by host_skip hostOps2_1
    _ = Gen.W4 (F := Ideal) m ρ c (Proc.devRef .tc main_v1) := by host_skip hostOps2
    _ = Gen.W3 (F := Ideal) m ρ c (Proc.devRef .tc main_v1) := W4_of_ne m ρ c main_v1 (by decide)
    _ = Gen.W2 (F := Ideal) m ρ c (Proc.devRef .tc main_v1) := by host_skip hostOps1
    _ = Gen.W1 (F := Ideal) m ρ c (Proc.devRef .tc main_v1) := W2_of_ne m ρ c main_v1 (by decide)
    _ = src m ρ c := rfl

/-- The receivers' index vector likewise. -/
theorem at11_v3 : Gen.W11 (F := Ideal) m ρ c (Proc.devRef .tc main_v3) = dst m ρ c :=
  calc Gen.W11 (F := Ideal) m ρ c (Proc.devRef .tc main_v3)
    _ = Gen.W10 (F := Ideal) m ρ c (Proc.devRef .tc main_v3) := by host_skip hostOps4
    _ = Gen.W9 (F := Ideal) m ρ c (Proc.devRef .tc main_v3) := W10_of_ne m ρ c main_v3 (by decide)
    _ = Gen.W8 (F := Ideal) m ρ c (Proc.devRef .tc main_v3) := by host_skip hostOps3
    _ = Gen.W7 (F := Ideal) m ρ c (Proc.devRef .tc main_v3) := W8_of_ne m ρ c main_v3 (by decide)
    _ = Gen.W6 (F := Ideal) m ρ c (Proc.devRef .tc main_v3) := by host_skip hostOps2_2
    _ = Gen.W5 (F := Ideal) m ρ c (Proc.devRef .tc main_v3) := by host_skip hostOps2_1
    _ = Gen.W4 (F := Ideal) m ρ c (Proc.devRef .tc main_v3) := by host_skip hostOps2
    _ = Gen.W3 (F := Ideal) m ρ c (Proc.devRef .tc main_v3) := W4_of_ne m ρ c main_v3 (by decide)
    _ = Gen.W2 (F := Ideal) m ρ c (Proc.devRef .tc main_v3) := by host_skip hostOps1
    _ = Gen.W1 (F := Ideal) m ρ c (Proc.devRef .tc main_v3) := W2_of_ne m ρ c main_v3 (by decide)
    _ = dst m ρ c := rfl

/-! The windows. -/

/-- The senders' rows: the stretch that looks the node rows up at the senders' indices reads the node rows region 3
    left and the senders' vector; the two stretches after it do not write its result. -/
theorem hs : V13 (F := Ideal) m ρ c main_v54 = TakeK.takeFill (H1 m ρ c) (src m ρ c) :=
  calc V13 (F := Ideal) m ρ c main_v54
    _ = Gen.W12 (F := Ideal) m ρ c (Proc.devRef .tc main_v54) := by host_skip hostOps4_2
    _ = Gen.W11 (F := Ideal) m ρ c (Proc.devRef .tc main_v54) := by host_skip hostOps4_1
    _ = TakeK.takeFill (Gen.W10 (F := Ideal) m ρ c (Proc.devRef .tc main_v53)) (Gen.W10 (F := Ideal) m ρ c (Proc.devRef .tc main_v1)) :=
        TakeK.take_hostOps4 (Gen.W10 (F := Ideal) m ρ c)
    _ = TakeK.takeFill (H1 m ρ c) (src m ρ c) := by rw [at10_v1 m ρ c]; rfl

/-- The receivers' rows: the same lookup at the receivers' indices, one stretch later; the stretch between does not
    write the node rows. -/
theorem hd : V13 (F := Ideal) m ρ c main_v55 = TakeK.takeFill (H1 m ρ c) (dst m ρ c) := by
  have hh : Gen.W11 (F := Ideal) m ρ c (Proc.devRef .tc main_v53) = H1 m ρ c :=
    calc Gen.W11 (F := Ideal) m ρ c (Proc.devRef .tc main_v53)
    _ = Gen.W10 (F := Ideal) m ρ c (Proc.devRef .tc main_v53) := by host_skip hostOps4
      _ = H1 m ρ c := rfl
  calc V13 (F := Ideal) m ρ c main_v55
    _ = Gen.W12 (F := Ideal) m ρ c (Proc.devRef .tc main_v55) := by host_skip hostOps4_2
    _ = TakeK.takeFill (Gen.W11 (F := Ideal) m ρ c (Proc.devRef .tc main_v53)) (Gen.W11 (F := Ideal) m ρ c (Proc.devRef .tc main_v3)) :=
        TakeK.take_hostOps4_1 (Gen.W11 (F := Ideal) m ρ c)
    _ = TakeK.takeFill (H1 m ρ c) (dst m ρ c) := by rw [hh, at11_v3 m ρ c]

/-- The edge rows region 2 left: nothing between that region and this one writes them. -/
theorem e : V13 (F := Ideal) m ρ c main_v32 = E1 m ρ c :=
  calc V13 (F := Ideal) m ρ c main_v32
    _ = Gen.W12 (F := Ideal) m ρ c (Proc.devRef .tc main_v32) := by host_skip hostOps4_2
    _ = Gen.W11 (F := Ideal) m ρ c (Proc.devRef .tc main_v32) := by host_skip hostOps4_1
    _ = Gen.W10 (F := Ideal) m ρ c (Proc.devRef .tc main_v32) := by host_skip hostOps4
    _ = Gen.W9 (F := Ideal) m ρ c (Proc.devRef .tc main_v32) := W10_of_ne m ρ c main_v32 (by decide)
    _ = Gen.W8 (F := Ideal) m ρ c (Proc.devRef .tc main_v32) := by host_skip hostOps3
    _ = E1 m ρ c := rfl

theorem Wa : mat (V13 (F := Ideal) m ρ c main_v58) = band (w3 (m ((c : Thread nD τ).loc main_arg15)) 1) 0 (by omega) := by
  have e : V13 (F := Ideal) m ρ c main_v58 = extractStridedSlice S128x128 ![0, 0] (shapeCast S384x128 (extractStridedSlice S1x384x128 ![1, 0, 0] (m ((c : Thread nD τ).loc main_arg15)) slices_S3x384x128_S1x384x128_1_0_0) shapeCasts_S1x384x128_S384x128) slices_S384x128_S128x128_0_0 := by
    show StableHlo.after hostOps4_2 _ (Proc.devRef .tc main_v58) = _
    after_results
    rw [at10_arg15 m ρ c]
    rfl
  rw [e]
  exact mat_band (m ((c : Thread nD τ).loc main_arg15)) 1 0 (by omega) _ _ _

theorem Wb : mat (V13 (F := Ideal) m ρ c main_v59) = band (w3 (m ((c : Thread nD τ).loc main_arg15)) 1) 128 (by omega) := by
  have e : V13 (F := Ideal) m ρ c main_v59 = extractStridedSlice S128x128 ![128, 0] (shapeCast S384x128 (extractStridedSlice S1x384x128 ![1, 0, 0] (m ((c : Thread nD τ).loc main_arg15)) slices_S3x384x128_S1x384x128_1_0_0) shapeCasts_S1x384x128_S384x128) slices_S384x128_S128x128_128_0 := by
    show StableHlo.after hostOps4_2 _ (Proc.devRef .tc main_v59) = _
    after_results
    rw [at10_arg15 m ρ c]
    rfl
  rw [e]
  exact mat_band (m ((c : Thread nD τ).loc main_arg15)) 1 128 (by omega) _ _ _

theorem Wc : mat (V13 (F := Ideal) m ρ c main_v60) = band (w3 (m ((c : Thread nD τ).loc main_arg15)) 1) 256 (by omega) := by
  have e : V13 (F := Ideal) m ρ c main_v60 = extractStridedSlice S128x128 ![256, 0] (shapeCast S384x128 (extractStridedSlice S1x384x128 ![1, 0, 0] (m ((c : Thread nD τ).loc main_arg15)) slices_S3x384x128_S1x384x128_1_0_0) shapeCasts_S1x384x128_S384x128) slices_S384x128_S128x128_256_0 := by
    show StableHlo.after hostOps4_2 _ (Proc.devRef .tc main_v60) = _
    after_results
    rw [at10_arg15 m ρ c]
    rfl
  rw [e]
  exact mat_band (m ((c : Thread nD τ).loc main_arg15)) 1 256 (by omega) _ _ _

theorem b1 : row1 (V13 (F := Ideal) m ρ c main_v71) = b3 (m ((c : Thread nD τ).loc main_arg16)) 1 := by
  have e : V13 (F := Ideal) m ρ c main_v71 = shapeCast S1x128 (shapeCast S128 (extractStridedSlice S1x128 ![1, 0] (m ((c : Thread nD τ).loc main_arg16)) slices_S3x128_S1x128_1_0) shapeCasts_S1x128_S128) shapeCasts_S128_S1x128 := by
    show StableHlo.after hostOps4_2 _ (Proc.devRef .tc main_v71) = _
    after_results
    rw [at10_arg16 m ρ c]
    rfl
  rw [e]
  exact row1_b3 (m ((c : Thread nD τ).loc main_arg16)) 1 _ _ _

theorem W2 : mat (V13 (F := Ideal) m ρ c main_v64) = w3 (m ((c : Thread nD τ).loc main_arg17)) 1 := by
  have e : V13 (F := Ideal) m ρ c main_v64 = shapeCast S128x128 (extractStridedSlice S1x128x128 ![1, 0, 0] (m ((c : Thread nD τ).loc main_arg17)) slices_S3x128x128_S1x128x128_1_0_0) shapeCasts_S1x128x128_S128x128 := by
    show StableHlo.after hostOps4_2 _ (Proc.devRef .tc main_v64) = _
    after_results
    rw [at10_arg17 m ρ c]
    rfl
  rw [e]
  exact mat_w3 (m ((c : Thread nD τ).loc main_arg17)) 1 _ _

theorem b2 : row1 (V13 (F := Ideal) m ρ c main_v72) = b3 (m ((c : Thread nD τ).loc main_arg18)) 1 := by
  have e : V13 (F := Ideal) m ρ c main_v72 = shapeCast S1x128 (shapeCast S128 (extractStridedSlice S1x128 ![1, 0] (m ((c : Thread nD τ).loc main_arg18)) slices_S3x128_S1x128_1_0) shapeCasts_S1x128_S128) shapeCasts_S128_S1x128 := by
    show StableHlo.after hostOps4_2 _ (Proc.devRef .tc main_v72) = _
    after_results
    rw [at10_arg18 m ρ c]
    rfl
  rw [e]
  exact row1_b3 (m ((c : Thread nD τ).loc main_arg18)) 1 _ _ _

theorem W3 : mat (V13 (F := Ideal) m ρ c main_v68) = w3 (m ((c : Thread nD τ).loc main_arg19)) 1 := by
  have e : V13 (F := Ideal) m ρ c main_v68 = shapeCast S128x128 (extractStridedSlice S1x128x128 ![1, 0, 0] (m ((c : Thread nD τ).loc main_arg19)) slices_S3x128x128_S1x128x128_1_0_0) shapeCasts_S1x128x128_S128x128 := by
    show StableHlo.after hostOps4_2 _ (Proc.devRef .tc main_v68) = _
    after_results
    rw [at10_arg19 m ρ c]
    rfl
  rw [e]
  exact mat_w3 (m ((c : Thread nD τ).loc main_arg19)) 1 _ _

theorem b3 : row1 (V13 (F := Ideal) m ρ c main_v73) = b3 (m ((c : Thread nD τ).loc main_arg20)) 1 := by
  have e : V13 (F := Ideal) m ρ c main_v73 = shapeCast S1x128 (shapeCast S128 (extractStridedSlice S1x128 ![1, 0] (m ((c : Thread nD τ).loc main_arg20)) slices_S3x128_S1x128_1_0) shapeCasts_S1x128_S128) shapeCasts_S128_S1x128 := by
    show StableHlo.after hostOps4_2 _ (Proc.devRef .tc main_v73) = _
    after_results
    rw [at10_arg20 m ρ c]
    rfl
  rw [e]
  exact row1_b3 (m ((c : Thread nD τ).loc main_arg20)) 1 _ _ _

end Cert.KernelIdeal.In4

end
-- ==== Proof.KVal5.lean ====
/-
  The value of the node-update region, over the extended reals.

  The region walks the 50000 node rows in ten blocks of 5000. At each block it reads the nodes' rows and their
  aggregated rows, the weights and biases whole, and writes, row by row, the node's row plus the three-layer
  network of the node's row and its aggregated row, the first layer as two contractions (one per input row).
  First the arithmetic of one block at a row and a column; then each block is read where the output's block sits
  in the arrays, the ten blocks cover the array, and so the output array is the node update of the input arrays.
-/
import proofs.«425516_j47425028883052_2_alg».proof.Proof.Gen.KernelIdeal.Frame
import proofs.«425516_j47425028883052_2_alg».proof.Proof.Net
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Idealize.ShloMosaic Idealize.ShloMosaic.TcCoe Idealize.ShloMosaic.ValueIdx Idealize.SL.Sem Cert.KernelIdeal Cert.KernelIdeal.Gen Cert.Spec Cert.Net

set_option maxRecDepth 16384

/-! ## A block product read at an index

The product of a 5000 × 128 block with a 128 × 128 matrix into the zero accumulator, read at row `p` and
column `q`, is the contraction of row `p` of the block with column `q` of the matrix. -/

theorem mm5_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem mm5_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem mm5_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem mm5_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

theorem mm5_apply {φ₁ φ₂ : FTy} (lhs : FVec Ideal S5000x128 φ₁) (rhs : FVec Ideal S128x128 φ₂) (p : Fin 5000) (q : Fin 128) :
    matmul dot_S5000x128_S128x128_S5000x128_1_0_0_1_n_n none lhs rhs (constant (F := Ideal) S5000x128 .f32 0x00000000#32) (ix2 p q)
      = ∑ k : Fin 128, lhs (ix2 p k) * rhs (ix2 k q) := by
  refine (Ideal.matmul_constant_zero_apply dot_S5000x128_S128x128_S5000x128_1_0_0_1_n_n none lhs rhs (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact mm5_lhs_0 _ _
    | ⟨1, _⟩ => exact (mm5_lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (mm5_rhs_0 _ _).trans hk
    | ⟨1, _⟩ => exact mm5_rhs_1 _ _)
  rw [el, er]

/-! ## The payload of the node update at an index -/

/-- One bias row repeated down the rows, read at row `p` and column `q`, is the bias at `q`. -/
theorem bias5_apply (b : FVec Ideal S1x128 .f32) (p : Fin 5000) (q : Fin 128) :
    broadcastTo S5000x128 b broadcasts_S1x128_S5000x128 (ix2 p q) = row1 b q :=
  broadcastTo_1b_ab_apply b broadcasts_S1x128_S5000x128 p q

theorem pay5_apply (h agg : Vec Ideal S5000x128 .f32) (Wa Wb : Vec Ideal S128x128 .f32) (b1 : Vec Ideal S1x128 .f32) (W2 : Vec Ideal S128x128 .f32) (b2 : Vec Ideal S1x128 .f32) (W3 : Vec Ideal S128x128 .f32) (b3 : Vec Ideal S1x128 .f32) (p : Fin 5000) (q : Fin 128) :
    k5_pay1 (F := Ideal) (k5_pay2 h) (k5_pay3 h agg Wa Wb b1 W2 b2 W3) b3 (ix2 p q)
      = nodeRow (mat Wa) (mat Wb) (row1 b1) (mat W2) (row1 b2) (mat W3) (row1 b3) (rowAt h p) (rowAt agg p) q := by
  unfold k5_pay1 k5_pay3 k5_pay2
  simp only [shapeCast_self, addf_apply, maximumf_apply, truncf_apply, broadcast_apply, mm5_apply, bias5_apply,
    Ideal.ofBits_def, Ideal.ofBits_zero_f32]
  rfl

/-! ## From the blocks to the array -/

section Arrays

open Idealize.ShloMosaic.Pipeline (Dat)

variable (V : (c : Dev nD) → (b : Ref sig .tc) → Buf (Elt Ideal) ((c : Thread nD τ).loc b))

theorem hz5 : (![0, 0] : Fin 2 → Nat) = fun _ => 0 := funext fun a => by fin_cases a <;> rfl

/-- The node update of the region's input arrays. -/
abbrev G5 (c : Dev nD) : A2 50000 128 :=
  Net.nodeStep (mat (V c main_v80)) (mat (V c main_v81)) (row1 (V c main_v92)) (mat (V c main_v85)) (row1 (V c main_v93))
    (mat (V c main_v89)) (row1 (V c main_v94)) (V c main_v53) (V c main_v77)

/-- The index maps over the ten points: the row-tiled windows sit at block row `t`, column block `0`; the weights
    and biases at block `(0, 0)`. -/
theorem idx_facts5 : ∀ t : Fin cfg5.N,
    (win5_0.index t (0 : Fin 2) = t.val ∧ win5_0.index t (1 : Fin 2) = 0)
    ∧ (win5_1.index t (0 : Fin 2) = t.val ∧ win5_1.index t (1 : Fin 2) = 0)
    ∧ (win5_2.index t (0 : Fin 2) = 0 ∧ win5_2.index t (1 : Fin 2) = 0)
    ∧ (win5_3.index t (0 : Fin 2) = 0 ∧ win5_3.index t (1 : Fin 2) = 0)
    ∧ (win5_4.index t (0 : Fin 2) = 0 ∧ win5_4.index t (1 : Fin 2) = 0)
    ∧ (win5_5.index t (0 : Fin 2) = 0 ∧ win5_5.index t (1 : Fin 2) = 0)
    ∧ (win5_6.index t (0 : Fin 2) = 0 ∧ win5_6.index t (1 : Fin 2) = 0)
    ∧ (win5_7.index t (0 : Fin 2) = 0 ∧ win5_7.index t (1 : Fin 2) = 0)
    ∧ (win5_8.index t (0 : Fin 2) = 0 ∧ win5_8.index t (1 : Fin 2) = 0)
    ∧ (win5_9.index t (0 : Fin 2) = t.val ∧ win5_9.index t (1 : Fin 2) = 0) :=
  (by decide +kernel : ∀ t : Fin grid5.N, _)

/-- Row `p` of the nodes' block at point `t` is row `5000 t + p` of the nodes' array. -/
theorem rows5_0 (c : Dev nD) (t : Fin cfg5.N) (p : Fin 5000) (r : Fin 50000) (hr : r.val = t.val * 5000 + p.val) :
    rowAt (iblk5 V c 0 t : Vec Ideal S5000x128 .f32) p = rowAt (V c main_v53 : A2 50000 128) r := by
  obtain ⟨⟨e0, e1⟩, -⟩ := idx_facts5 t
  funext k
  show iblk5 V c 0 t (ix2 p k) = V c main_v53 (ix2 r k)
  unfold iblk5
  rw [View.read_apply]
  show V c main_v53 (((cfg5.win 0).blk t).view.emb (ix2 p k)) = V c main_v53 (ix2 r k)
  congr 1
  funext a; apply Fin.ext
  match a with
  | ⟨0, _⟩ => show win5_0.index t (0 : Fin 2) * 5000 + 1 * p.val = r.val; omega
  | ⟨1, _⟩ => show win5_0.index t (1 : Fin 2) * 128 + 1 * k.val = k.val; omega

/-- Row `p` of the aggregated rows' block at point `t` is row `5000 t + p` of their array. -/
theorem rows5_1 (c : Dev nD) (t : Fin cfg5.N) (p : Fin 5000) (r : Fin 50000) (hr : r.val = t.val * 5000 + p.val) :
    rowAt (iblk5 V c 1 t : Vec Ideal S5000x128 .f32) p = rowAt (V c main_v77 : A2 50000 128) r := by
  obtain ⟨-, ⟨e0, e1⟩, -⟩ := idx_facts5 t
  funext k
  show iblk5 V c 1 t (ix2 p k) = V c main_v77 (ix2 r k)
  unfold iblk5
  rw [View.read_apply]
  show V c main_v77 (((cfg5.win 1).blk t).view.emb (ix2 p k)) = V c main_v77 (ix2 r k)
  congr 1
  funext a; apply Fin.ext
  match a with
  | ⟨0, _⟩ => show win5_1.index t (0 : Fin 2) * 5000 + 1 * p.val = r.val; omega
  | ⟨1, _⟩ => show win5_1.index t (1 : Fin 2) * 128 + 1 * k.val = k.val; omega

/-- The first layer's weights on the node's row: the window's block at any point is its whole array. -/
theorem whole5_2 (c : Dev nD) (t : Fin cfg5.N) : (iblk5 V c 2 t : Vec Ideal S128x128 .f32) = (V c main_v80 : A2 128 128) := by
  obtain ⟨-, -, e2, e3, e4, e5, e6, e7, e8, -⟩ := idx_facts5 t
  funext x
  unfold iblk5
  rw [View.read_apply]
  show V c main_v80 (((cfg5.win 2).blk t).view.emb x) = V c main_v80 x
  congr 1
  funext a; apply Fin.ext
  match a with
  | ⟨0, _⟩ => show win5_2.index t (0 : Fin 2) * 128 + 1 * (x 0).val = (x 0).val; omega
  | ⟨1, _⟩ => show win5_2.index t (1 : Fin 2) * 128 + 1 * (x 1).val = (x 1).val; omega

/-- The first layer's weights on the aggregated row: the window's block at any point is its whole array. -/
theorem whole5_3 (c : Dev nD) (t : Fin cfg5.N) : (iblk5 V c 3 t : Vec Ideal S128x128 .f32) = (V c main_v81 : A2 128 128) := by
  obtain ⟨-, -, e2, e3, e4, e5, e6, e7, e8, -⟩ := idx_facts5 t
  funext x
  unfold iblk5
  rw [View.read_apply]
  show V c main_v81 (((cfg5.win 3).blk t).view.emb x) = V c main_v81 x
  congr 1
  funext a; apply Fin.ext
  match a with
  | ⟨0, _⟩ => show win5_3.index t (0 : Fin 2) * 128 + 1 * (x 0).val = (x 0).val; omega
  | ⟨1, _⟩ => show win5_3.index t (1 : Fin 2) * 128 + 1 * (x 1).val = (x 1).val; omega

/-- The first layer's bias: the window's block at any point is its whole array. -/
theorem whole5_4 (c : Dev nD) (t : Fin cfg5.N) : (iblk5 V c 4 t : Vec Ideal S1x128 .f32) = (V c main_v92 : A2 1 128) := by
  obtain ⟨-, -, e2, e3, e4, e5, e6, e7, e8, -⟩ := idx_facts5 t
  funext x
  unfold iblk5
  rw [View.read_apply]
  show V c main_v92 (((cfg5.win 4).blk t).view.emb x) = V c main_v92 x
  congr 1
  funext a; apply Fin.ext
  match a with
  | ⟨0, _⟩ => show win5_4.index t (0 : Fin 2) * 1 + 1 * (x 0).val = (x 0).val; omega
  | ⟨1, _⟩ => show win5_4.index t (1 : Fin 2) * 128 + 1 * (x 1).val = (x 1).val; omega

/-- The second layer's weights: the window's block at any point is its whole array. -/
theorem whole5_5 (c : Dev nD) (t : Fin cfg5.N) : (iblk5 V c 5 t : Vec Ideal S128x128 .f32) = (V c main_v85 : A2 128 128) := by
  obtain ⟨-, -, e2, e3, e4, e5, e6, e7, e8, -⟩ := idx_facts5 t
  funext x
  unfold iblk5
  rw [View.read_apply]
  show V c main_v85 (((cfg5.win 5).blk t).view.emb x) = V c main_v85 x
  congr 1
  funext a; apply Fin.ext
  match a with
  | ⟨0, _⟩ => show win5_5.index t (0 : Fin 2) * 128 + 1 * (x 0).val = (x 0).val; omega
  | ⟨1, _⟩ => show win5_5.index t (1 : Fin 2) * 128 + 1 * (x 1).val = (x 1).val; omega

/-- The second layer's bias: the window's block at any point is its whole array. -/
theorem whole5_6 (c : Dev nD) (t : Fin cfg5.N) : (iblk5 V c 6 t : Vec Ideal S1x128 .f32) = (V c main_v93 : A2 1 128) := by
  obtain ⟨-, -, e2, e3, e4, e5, e6, e7, e8, -⟩ := idx_facts5 t
  funext x
  unfold iblk5
  rw [View.read_apply]
  show V c main_v93 (((cfg5.win 6).blk t).view.emb x) = V c main_v93 x
  congr 1
  funext a; apply Fin.ext
  match a with
  | ⟨0, _⟩ => show win5_6.index t (0 : Fin 2) * 1 + 1 * (x 0).val = (x 0).val; omega
  | ⟨1, _⟩ => show win5_6.index t (1 : Fin 2) * 128 + 1 * (x 1).val = (x 1).val; omega

/-- The third layer's weights: the window's block at any point is its whole array. -/
theorem whole5_7 (c : Dev nD) (t : Fin cfg5.N) : (iblk5 V c 7 t : Vec Ideal S128x128 .f32) = (V c main_v89 : A2 128 128) := by
  obtain ⟨-, -, e2, e3, e4, e5, e6, e7, e8, -⟩ := idx_facts5 t
  funext x
  unfold iblk5
  rw [View.read_apply]
  show V c main_v89 (((cfg5.win 7).blk t).view.emb x) = V c main_v89 x
  congr 1
  funext a; apply Fin.ext
  match a with
  | ⟨0, _⟩ => show win5_7.index t (0 : Fin 2) * 128 + 1 * (x 0).val = (x 0).val; omega
  | ⟨1, _⟩ => show win5_7.index t (1 : Fin 2) * 128 + 1 * (x 1).val = (x 1).val; omega

/-- The third layer's bias: the window's block at any point is its whole array. -/
theorem whole5_8 (c : Dev nD) (t : Fin cfg5.N) : (iblk5 V c 8 t : Vec Ideal S1x128 .f32) = (V c main_v94 : A2 1 128) := by
  obtain ⟨-, -, e2, e3, e4, e5, e6, e7, e8, -⟩ := idx_facts5 t
  funext x
  unfold iblk5
  rw [View.read_apply]
  show V c main_v94 (((cfg5.win 8).blk t).view.emb x) = V c main_v94 x
  congr 1
  funext a; apply Fin.ext
  match a with
  | ⟨0, _⟩ => show win5_8.index t (0 : Fin 2) * 1 + 1 * (x 0).val = (x 0).val; omega
  | ⟨1, _⟩ => show win5_8.index t (1 : Fin 2) * 128 + 1 * (x 1).val = (x 1).val; omega

/-- What point `t` writes back is block `t` of the node update of the input arrays. -/
theorem flushed5_eq (c : Dev nD) (t : Fin cfg5.N) :
    (dat5 (F := Ideal) V c).flushed 9 t = ((cfg5.win 9).blk t).view.read (Elt Ideal) (G5 V c) := by
  show (cfg5.win 9).cut (grid5.coords t) ((dat5 V c).after 9 t) = _
  rw [after5_9]
  unfold out5_9
  rw [View.canon_unit_zero hz5]
  simp only [View.ld_unit_zero (S := S5000x128) hz5, View.ld_unit_zero (S := S128x128) hz5, View.ld_unit_zero (S := S1x128) hz5]
  funext j
  obtain ⟨p, q, rfl⟩ : ∃ (p : Fin 5000) (q : Fin 128), j = ix2 p q := ⟨j 0, j 1, eq_ix2 j⟩
  refine (pay5_apply (iblk5 V c 0 t) (iblk5 V c 1 t) (iblk5 V c 2 t) (iblk5 V c 3 t) (iblk5 V c 4 t) (iblk5 V c 5 t) (iblk5 V c 6 t) (iblk5 V c 7 t) (iblk5 V c 8 t) p q).trans ?_
  rw [View.read_apply]
  obtain ⟨-, -, -, -, -, -, -, -, -, ⟨e0, e1⟩⟩ := idx_facts5 t
  have hr : (ri (((cfg5.win 9).blk t).view.emb (ix2 p q))).val = t.val * 5000 + p.val := by
    show win5_9.index t (0 : Fin 2) * 5000 + 1 * p.val = _
    omega
  have hq : ci (((cfg5.win 9).blk t).view.emb (ix2 p q)) = q := Fin.ext (by
    show win5_9.index t (1 : Fin 2) * 128 + 1 * q.val = q.val
    omega)
  show _ = nodeRow (mat (V c main_v80)) (mat (V c main_v81)) (row1 (V c main_v92)) (mat (V c main_v85)) (row1 (V c main_v93))
    (mat (V c main_v89)) (row1 (V c main_v94)) (rowAt (V c main_v53) (ri (((cfg5.win 9).blk t).view.emb (ix2 p q))))
    (rowAt (V c main_v77) (ri (((cfg5.win 9).blk t).view.emb (ix2 p q)))) (ci (((cfg5.win 9).blk t).view.emb (ix2 p q)))
  rw [hq, whole5_2, whole5_3, whole5_4, whole5_5, whole5_6, whole5_7, whole5_8, rows5_0 V c t p _ hr, rows5_1 V c t p _ hr]

/-- An index of the array is in point `t`'s block iff each coordinate is in the block's range on its axis. -/
theorem mem_blk5 (t : Fin cfg5.N) (i : S50000x128.Idx) :
    i ∈ ((cfg5.win 9).blk t).view.set ↔ ∀ a : Fin 2, win5_9.index t a * S5000x128.size a ≤ (i a).val ∧ (i a).val < win5_9.index t a * S5000x128.size a + S5000x128.size a := by
  show i ∈ ((View.whole main_v95).slice (win5_9.rect t)).set ↔ _
  rw [View.set_slice_whole, Rect.mem_set_unit]
  exact Iff.rfl

/-- Every row of the array is in the block of the point its row number divided by 5000 names. -/
theorem cover5 (i : S50000x128.Idx) : ∃ t : Fin cfg5.N, (cfg5.win 9).flush t = true ∧ i ∈ ((cfg5.win 9).blk t).view.set := by
  have hi0 : (i 0).val < 50000 := (i 0).isLt
  have hi1 : (i 1).val < 128 := (i 1).isLt
  have hN : grid5.N = 10 := N_5
  refine ⟨⟨(i 0).val / 5000, by show (i 0).val / 5000 < grid5.N; omega⟩, flush5_9 _, ?_⟩
  rw [mem_blk5]
  obtain ⟨-, -, -, -, -, -, -, -, -, ⟨e0, e1⟩⟩ := idx_facts5 ⟨(i 0).val / 5000, by show (i 0).val / 5000 < grid5.N; omega⟩
  intro a
  match a with
  | ⟨0, _⟩ => show win5_9.index _ (0 : Fin 2) * 5000 ≤ (i 0).val ∧ (i 0).val < win5_9.index _ (0 : Fin 2) * 5000 + 5000; rw [e0]; show (i 0).val / 5000 * 5000 ≤ (i 0).val ∧ (i 0).val < (i 0).val / 5000 * 5000 + 5000; omega
  | ⟨1, _⟩ => show win5_9.index _ (1 : Fin 2) * 128 ≤ (i 1).val ∧ (i 1).val < win5_9.index _ (1 : Fin 2) * 128 + 128; rw [e1]; omega

/-- The region's output array after the region is the node update of its input arrays. -/
theorem arr5 (c : Dev nD) :
    (dat5 (F := Ideal) V c).arrAt 9 cfg5.N = Net.nodeStep (mat (V c main_v80)) (mat (V c main_v81)) (row1 (V c main_v92)) (mat (V c main_v85)) (row1 (V c main_v93)) (mat (V c main_v89)) (row1 (V c main_v94)) (V c main_v53) (V c main_v77) :=
  (dat5 (F := Ideal) V c).arrAt_eq_of_cover 9 (G5 V c) (fun t _ => flushed5_eq V c t) cover5

end Arrays

end Cert.KernelIdeal.Val

end
-- ==== Proof.KIn5.lean ====
/-
  What region 5's input windows hold when the region is entered: each array the region stages, read back through the
  host operations and the earlier regions to the launch arrays and the earlier stages' results. No operation between
  a buffer's writer and this region overwrites it, so a buffer holds what its writer left; a slice of a stacked weight
  array is that array at the slice's indices, and a reshaped bias row is the bias row.
-/
import proofs.«425516_j47425028883052_2_alg».proof.Proof.KDefs
import Idealize.ShloMosaic.Lib.ValueLayout

set_option maxRecDepth 16384

noncomputable section

namespace Cert.KernelIdeal.In5

open Idealize.ShloMosaic Idealize.ShloMosaic.TcCoe Idealize.ShloMosaic.ValueIdx Idealize.SL.Sem Cert.KernelIdeal Cert.KernelIdeal.Gen Cert.Spec Cert.Net Cert.KernelIdeal.K

/-- A host stretch leaves every buffer none of its operations writes as it was. -/
macro "host_keeps" s:ident : tactic => `(tactic|
  exact StableHlo.after_of_forall_not_mem _ _ (List.forall_iff_forall_mem.mp (by
    simp only [$s:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! The three kinds of weight window, over an arbitrary stacked array. -/

/-- A band of 128 rows of slice `t` of a stack of three matrices: the slice of the stack at `t`, with its leading unit
    axis dropped, cut along its rows from `s`. Entry `(k, j)` reads the stack at `(t, s + k, j)`. -/
theorem mat_band {a : ℕ} (x : A3 3 a 128) (t : Fin 3) (s : ℕ) (hs : s + 128 ≤ a)
    (h1 : (⟨3, ![3, a, 128]⟩ : Shape).Slices ![t.val, 0, 0] ⟨3, ![1, a, 128]⟩)
    (h2 : (⟨3, ![1, a, 128]⟩ : Shape).ShapeCasts ⟨2, ![a, 128]⟩)
    (h3 : (⟨2, ![a, 128]⟩ : Shape).Slices ![s, 0] ⟨2, ![128, 128]⟩) :
    mat (extractStridedSlice ⟨2, ![128, 128]⟩ ![s, 0]
          (shapeCast ⟨2, ![a, 128]⟩ (extractStridedSlice ⟨3, ![1, a, 128]⟩ ![t.val, 0, 0] x h1) h2) h3)
      = band (w3 x t) s hs := by
  funext k j
  unfold mat band w3
  refine (slice2_axis0_apply s _ h3 k j ⟨s + k.val, by have := k.isLt; omega⟩ rfl).trans ?_
  refine (shapeCast_1ab_ab_apply _ h2 _ j).trans ?_
  refine extractStridedSlice_apply _ x h1 _ _ fun ax => ?_
  match ax with
  | ⟨0, _⟩ => exact (Nat.add_zero _).symm
  | ⟨1, _⟩ => exact (Nat.zero_add _).symm
  | ⟨2, _⟩ => exact (Nat.zero_add _).symm

/-- Slice `t` of a stack of three square matrices with its leading unit axis dropped. -/
theorem mat_w3 (x : A3 3 128 128) (t : Fin 3)
    (h1 : (⟨3, ![3, 128, 128]⟩ : Shape).Slices ![t.val, 0, 0] ⟨3, ![1, 128, 128]⟩)
    (h2 : (⟨3, ![1, 128, 128]⟩ : Shape).ShapeCasts ⟨2, ![128, 128]⟩) :
    mat (shapeCast ⟨2, ![128, 128]⟩ (extractStridedSlice ⟨3, ![1, 128, 128]⟩ ![t.val, 0, 0] x h1) h2) = w3 x t := by
  funext k j
  unfold mat w3
  refine (shapeCast_1ab_ab_apply _ h2 k j).trans ?_
  refine extractStridedSlice_apply _ x h1 _ _ fun ax => ?_
  match ax with
  | ⟨0, _⟩ => exact (Nat.add_zero _).symm
  | ⟨1, _⟩ => exact (Nat.zero_add _).symm
  | ⟨2, _⟩ => exact (Nat.zero_add _).symm

/-- Row `t` of a stack of three bias rows: the slice at `t`, flattened to a vector and laid out again as one row. -/
theorem row1_b3 (x : A2 3 128) (t : Fin 3)
    (h1 : (⟨2, ![3, 128]⟩ : Shape).Slices ![t.val, 0] ⟨2, ![1, 128]⟩)
    (h2 : (⟨2, ![1, 128]⟩ : Shape).ShapeCasts ⟨1, ![128]⟩)
    (h3 : (⟨1, ![128]⟩ : Shape).ShapeCasts ⟨2, ![1, 128]⟩) :
    row1 (shapeCast ⟨2, ![1, 128]⟩ (shapeCast ⟨1, ![128]⟩ (extractStridedSlice ⟨2, ![1, 128]⟩ ![t.val, 0] x h1) h2) h3)
      = b3 x t := by
  funext j
  unfold row1 b3
  refine (shapeCast_a_1a_apply _ h3 0 j).trans ?_
  refine (shapeCast_1a_a_apply _ h2 j).trans ?_
  exact slice2_axis0_apply t.val x h1 0 j t (Nat.add_zero _).symm

variable (m : (ℓ : Loc nD τ sig) → Buf (Elt Ideal) ℓ) (ρ : Dev nD → PrngReg) (c : Dev nD)

/-! The launch arrays the region's weight windows are cut from, at the region's last host stretch's entry. -/

/-- No host operation and no region before boundary 14 writes `main_arg21`: it holds the launch array. -/
theorem at14_arg21 : W14 (F := Ideal) m ρ c (Proc.devRef .tc main_arg21) = m ((c : Thread nD τ).loc main_arg21) :=
  calc W14 (F := Ideal) m ρ c (Proc.devRef .tc main_arg21)
    _ = W13 (F := Ideal) m ρ c (Proc.devRef .tc main_arg21) := W14_of_ne m ρ c main_arg21 (by decide)
    _ = W12 (F := Ideal) m ρ c (Proc.devRef .tc main_arg21) := by host_keeps hostOps4_2
    _ = W11 (F := Ideal) m ρ c (Proc.devRef .tc main_arg21) := by host_keeps hostOps4_1
    _ = W10 (F := Ideal) m ρ c (Proc.devRef .tc main_arg21) := by host_keeps hostOps4
    _ = W9 (F := Ideal) m ρ c (Proc.devRef .tc main_arg21) := W10_of_ne m ρ c main_arg21 (by decide)
    _ = W8 (F := Ideal) m ρ c (Proc.devRef .tc main_arg21) := by host_keeps hostOps3
    _ = W7 (F := Ideal) m ρ c (Proc.devRef .tc main_arg21) := W8_of_ne m ρ c main_arg21 (by decide)
    _ = W6 (F := Ideal) m ρ c (Proc.devRef .tc main_arg21) := by host_keeps hostOps2_2
    _ = W5 (F := Ideal) m ρ c (Proc.devRef .tc main_arg21) := by host_keeps hostOps2_1
    _ = W4 (F := Ideal) m ρ c (Proc.devRef .tc main_arg21) := by host_keeps hostOps2
    _ = W3 (F := Ideal) m ρ c (Proc.devRef .tc main_arg21) := W4_of_ne m ρ c main_arg21 (by decide)
    _ = W2 (F := Ideal) m ρ c (Proc.devRef .tc main_arg21) := by host_keeps hostOps1
    _ = W1 (F := Ideal) m ρ c (Proc.devRef .tc main_arg21) := W2_of_ne m ρ c main_arg21 (by decide)
    _ = W0 (F := Ideal) m ρ c (Proc.devRef .tc main_arg21) := by host_keeps hostOps0
    _ = m ((c : Thread nD τ).loc main_arg21) := rfl

/-- No host operation and no region before boundary 14 writes `main_arg22`: it holds the launch array. -/
theorem at14_arg22 : W14 (F := Ideal) m ρ c (Proc.devRef .tc main_arg22) = m ((c : Thread nD τ).loc main_arg22) :=
  calc W14 (F := Ideal) m ρ c (Proc.devRef .tc main_arg22)
    _ = W13 (F := Ideal) m ρ c (Proc.devRef .tc main_arg22) := W14_of_ne m ρ c main_arg22 (by decide)
    _ = W12 (F := Ideal) m ρ c (Proc.devRef .tc main_arg22) := by host_keeps hostOps4_2
    _ = W11 (F := Ideal) m ρ c (Proc.devRef .tc main_arg22) := by host_keeps hostOps4_1
    _ = W10 (F := Ideal) m ρ c (Proc.devRef .tc main_arg22) := by host_keeps hostOps4
    _ = W9 (F := Ideal) m ρ c (Proc.devRef .tc main_arg22) := W10_of_ne m ρ c main_arg22 (by decide)
    _ = W8 (F := Ideal) m ρ c (Proc.devRef .tc main_arg22) := by host_keeps hostOps3
    _ = W7 (F := Ideal) m ρ c (Proc.devRef .tc main_arg22) := W8_of_ne m ρ c main_arg22 (by decide)
    _ = W6 (F := Ideal) m ρ c (Proc.devRef .tc main_arg22) := by host_keeps hostOps2_2
    _ = W5 (F := Ideal) m ρ c (Proc.devRef .tc main_arg22) := by host_keeps hostOps2_1
    _ = W4 (F := Ideal) m ρ c (Proc.devRef .tc main_arg22) := by host_keeps hostOps2
    _ = W3 (F := Ideal) m ρ c (Proc.devRef .tc main_arg22) := W4_of_ne m ρ c main_arg22 (by decide)
    _ = W2 (F := Ideal) m ρ c (Proc.devRef .tc main_arg22) := by host_keeps hostOps1
    _ = W1 (F := Ideal) m ρ c (Proc.devRef .tc main_arg22) := W2_of_ne m ρ c main_arg22 (by decide)
    _ = W0 (F := Ideal) m ρ c (Proc.devRef .tc main_arg22) := by host_keeps hostOps0
    _ = m ((c : Thread nD τ).loc main_arg22) := rfl

/-- No host operation and no region before boundary 14 writes `main_arg23`: it holds the launch array. -/
theorem at14_arg23 : W14 (F := Ideal) m ρ c (Proc.devRef .tc main_arg23) = m ((c : Thread nD τ).loc main_arg23) :=
  calc W14 (F := Ideal) m ρ c (Proc.devRef .tc main_arg23)
    _ = W13 (F := Ideal) m ρ c (Proc.devRef .tc main_arg23) := W14_of_ne m ρ c main_arg23 (by decide)
    _ = W12 (F := Ideal) m ρ c (Proc.devRef .tc main_arg23) := by host_keeps hostOps4_2
    _ = W11 (F := Ideal) m ρ c (Proc.devRef .tc main_arg23) := by host_keeps hostOps4_1
    _ = W10 (F := Ideal) m ρ c (Proc.devRef .tc main_arg23) := by host_keeps hostOps4
    _ = W9 (F := Ideal) m ρ c (Proc.devRef .tc main_arg23) := W10_of_ne m ρ c main_arg23 (by decide)
    _ = W8 (F := Ideal) m ρ c (Proc.devRef .tc main_arg23) := by host_keeps hostOps3
    _ = W7 (F := Ideal) m ρ c (Proc.devRef .tc main_arg23) := W8_of_ne m ρ c main_arg23 (by decide)
    _ = W6 (F := Ideal) m ρ c (Proc.devRef .tc main_arg23) := by host_keeps hostOps2_2
    _ = W5 (F := Ideal) m ρ c (Proc.devRef .tc main_arg23) := by host_keeps hostOps2_1
    _ = W4 (F := Ideal) m ρ c (Proc.devRef .tc main_arg23) := by host_keeps hostOps2
    _ = W3 (F := Ideal) m ρ c (Proc.devRef .tc main_arg23) := W4_of_ne m ρ c main_arg23 (by decide)
    _ = W2 (F := Ideal) m ρ c (Proc.devRef .tc main_arg23) := by host_keeps hostOps1
    _ = W1 (F := Ideal) m ρ c (Proc.devRef .tc main_arg23) := W2_of_ne m ρ c main_arg23 (by decide)
    _ = W0 (F := Ideal) m ρ c (Proc.devRef .tc main_arg23) := by host_keeps hostOps0
    _ = m ((c : Thread nD τ).loc main_arg23) := rfl

/-- No host operation and no region before boundary 14 writes `main_arg24`: it holds the launch array. -/
theorem at14_arg24 : W14 (F := Ideal) m ρ c (Proc.devRef .tc main_arg24) = m ((c : Thread nD τ).loc main_arg24) :=
  calc W14 (F := Ideal) m ρ c (Proc.devRef .tc main_arg24)
    _ = W13 (F := Ideal) m ρ c (Proc.devRef .tc main_arg24) := W14_of_ne m ρ c main_arg24 (by decide)
    _ = W12 (F := Ideal) m ρ c (Proc.devRef .tc main_arg24) := by host_keeps hostOps4_2
    _ = W11 (F := Ideal) m ρ c (Proc.devRef .tc main_arg24) := by host_keeps hostOps4_1
    _ = W10 (F := Ideal) m ρ c (Proc.devRef .tc main_arg24) := by host_keeps hostOps4
    _ = W9 (F := Ideal) m ρ c (Proc.devRef .tc main_arg24) := W10_of_ne m ρ c main_arg24 (by decide)
    _ = W8 (F := Ideal) m ρ c (Proc.devRef .tc main_arg24) := by host_keeps hostOps3
    _ = W7 (F := Ideal) m ρ c (Proc.devRef .tc main_arg24) := W8_of_ne m ρ c main_arg24 (by decide)
    _ = W6 (F := Ideal) m ρ c (Proc.devRef .tc main_arg24) := by host_keeps hostOps2_2
    _ = W5 (F := Ideal) m ρ c (Proc.devRef .tc main_arg24) := by host_keeps hostOps2_1
    _ = W4 (F := Ideal) m ρ c (Proc.devRef .tc main_arg24) := by host_keeps hostOps2
    _ = W3 (F := Ideal) m ρ c (Proc.devRef .tc main_arg24) := W4_of_ne m ρ c main_arg24 (by decide)
    _ = W2 (F := Ideal) m ρ c (Proc.devRef .tc main_arg24) := by host_keeps hostOps1
    _ = W1 (F := Ideal) m ρ c (Proc.devRef .tc main_arg24) := W2_of_ne m ρ c main_arg24 (by decide)
    _ = W0 (F := Ideal) m ρ c (Proc.devRef .tc main_arg24) := by host_keeps hostOps0
    _ = m ((c : Thread nD τ).loc main_arg24) := rfl

/-- No host operation and no region before boundary 14 writes `main_arg25`: it holds the launch array. -/
theorem at14_arg25 : W14 (F := Ideal) m ρ c (Proc.devRef .tc main_arg25) = m ((c : Thread nD τ).loc main_arg25) :=
  calc W14 (F := Ideal) m ρ c (Proc.devRef .tc main_arg25)
    _ = W13 (F := Ideal) m ρ c (Proc.devRef .tc main_arg25) := W14_of_ne m ρ c main_arg25 (by decide)
    _ = W12 (F := Ideal) m ρ c (Proc.devRef .tc main_arg25) := by host_keeps hostOps4_2
    _ = W11 (F := Ideal) m ρ c (Proc.devRef .tc main_arg25) := by host_keeps hostOps4_1
    _ = W10 (F := Ideal) m ρ c (Proc.devRef .tc main_arg25) := by host_keeps hostOps4
    _ = W9 (F := Ideal) m ρ c (Proc.devRef .tc main_arg25) := W10_of_ne m ρ c main_arg25 (by decide)
    _ = W8 (F := Ideal) m ρ c (Proc.devRef .tc main_arg25) := by host_keeps hostOps3
    _ = W7 (F := Ideal) m ρ c (Proc.devRef .tc main_arg25) := W8_of_ne m ρ c main_arg25 (by decide)
    _ = W6 (F := Ideal) m ρ c (Proc.devRef .tc main_arg25) := by host_keeps hostOps2_2
    _ = W5 (F := Ideal) m ρ c (Proc.devRef .tc main_arg25) := by host_keeps hostOps2_1
    _ = W4 (F := Ideal) m ρ c (Proc.devRef .tc main_arg25) := by host_keeps hostOps2
    _ = W3 (F := Ideal) m ρ c (Proc.devRef .tc main_arg25) := W4_of_ne m ρ c main_arg25 (by decide)
    _ = W2 (F := Ideal) m ρ c (Proc.devRef .tc main_arg25) := by host_keeps hostOps1
    _ = W1 (F := Ideal) m ρ c (Proc.devRef .tc main_arg25) := W2_of_ne m ρ c main_arg25 (by decide)
    _ = W0 (F := Ideal) m ρ c (Proc.devRef .tc main_arg25) := by host_keeps hostOps0
    _ = m ((c : Thread nD τ).loc main_arg25) := rfl

/-- No host operation and no region before boundary 14 writes `main_arg26`: it holds the launch array. -/
theorem at14_arg26 : W14 (F := Ideal) m ρ c (Proc.devRef .tc main_arg26) = m ((c : Thread nD τ).loc main_arg26) :=
  calc W14 (F := Ideal) m ρ c (Proc.devRef .tc main_arg26)
    _ = W13 (F := Ideal) m ρ c (Proc.devRef .tc main_arg26) := W14_of_ne m ρ c main_arg26 (by decide)
    _ = W12 (F := Ideal) m ρ c (Proc.devRef .tc main_arg26) := by host_keeps hostOps4_2
    _ = W11 (F := Ideal) m ρ c (Proc.devRef .tc main_arg26) := by host_keeps hostOps4_1
    _ = W10 (F := Ideal) m ρ c (Proc.devRef .tc main_arg26) := by host_keeps hostOps4
    _ = W9 (F := Ideal) m ρ c (Proc.devRef .tc main_arg26) := W10_of_ne m ρ c main_arg26 (by decide)
    _ = W8 (F := Ideal) m ρ c (Proc.devRef .tc main_arg26) := by host_keeps hostOps3
    _ = W7 (F := Ideal) m ρ c (Proc.devRef .tc main_arg26) := W8_of_ne m ρ c main_arg26 (by decide)
    _ = W6 (F := Ideal) m ρ c (Proc.devRef .tc main_arg26) := by host_keeps hostOps2_2
    _ = W5 (F := Ideal) m ρ c (Proc.devRef .tc main_arg26) := by host_keeps hostOps2_1
    _ = W4 (F := Ideal) m ρ c (Proc.devRef .tc main_arg26) := by host_keeps hostOps2
    _ = W3 (F := Ideal) m ρ c (Proc.devRef .tc main_arg26) := W4_of_ne m ρ c main_arg26 (by decide)
    _ = W2 (F := Ideal) m ρ c (Proc.devRef .tc main_arg26) := by host_keeps hostOps1
    _ = W1 (F := Ideal) m ρ c (Proc.devRef .tc main_arg26) := W2_of_ne m ρ c main_arg26 (by decide)
    _ = W0 (F := Ideal) m ρ c (Proc.devRef .tc main_arg26) := by host_keeps hostOps0
    _ = m ((c : Thread nD τ).loc main_arg26) := rfl

/-- The receivers' index vector is written once, by the first host stretch, and by nothing after it. -/
theorem at14_v3 : W14 (F := Ideal) m ρ c (Proc.devRef .tc main_v3) = dst m ρ c :=
  calc W14 (F := Ideal) m ρ c (Proc.devRef .tc main_v3)
    _ = W13 (F := Ideal) m ρ c (Proc.devRef .tc main_v3) := W14_of_ne m ρ c main_v3 (by decide)
    _ = W12 (F := Ideal) m ρ c (Proc.devRef .tc main_v3) := by host_keeps hostOps4_2
    _ = W11 (F := Ideal) m ρ c (Proc.devRef .tc main_v3) := by host_keeps hostOps4_1
    _ = W10 (F := Ideal) m ρ c (Proc.devRef .tc main_v3) := by host_keeps hostOps4
    _ = W9 (F := Ideal) m ρ c (Proc.devRef .tc main_v3) := W10_of_ne m ρ c main_v3 (by decide)
    _ = W8 (F := Ideal) m ρ c (Proc.devRef .tc main_v3) := by host_keeps hostOps3
    _ = W7 (F := Ideal) m ρ c (Proc.devRef .tc main_v3) := W8_of_ne m ρ c main_v3 (by decide)
    _ = W6 (F := Ideal) m ρ c (Proc.devRef .tc main_v3) := by host_keeps hostOps2_2
    _ = W5 (F := Ideal) m ρ c (Proc.devRef .tc main_v3) := by host_keeps hostOps2_1
    _ = W4 (F := Ideal) m ρ c (Proc.devRef .tc main_v3) := by host_keeps hostOps2
    _ = W3 (F := Ideal) m ρ c (Proc.devRef .tc main_v3) := W4_of_ne m ρ c main_v3 (by decide)
    _ = W2 (F := Ideal) m ρ c (Proc.devRef .tc main_v3) := by host_keeps hostOps1
    _ = W1 (F := Ideal) m ρ c (Proc.devRef .tc main_v3) := W2_of_ne m ρ c main_v3 (by decide)
    _ = dst m ρ c := rfl

/-! The windows. -/

theorem h : V15 (F := Ideal) m ρ c main_v53 = H1 m ρ c :=
  calc V15 (F := Ideal) m ρ c main_v53
    _ = W14 (F := Ideal) m ρ c (Proc.devRef .tc main_v53) := by host_keeps hostOps5
    _ = W13 (F := Ideal) m ρ c (Proc.devRef .tc main_v53) := W14_of_ne m ρ c main_v53 (by decide)
    _ = W12 (F := Ideal) m ρ c (Proc.devRef .tc main_v53) := by host_keeps hostOps4_2
    _ = W11 (F := Ideal) m ρ c (Proc.devRef .tc main_v53) := by host_keeps hostOps4_1
    _ = W10 (F := Ideal) m ρ c (Proc.devRef .tc main_v53) := by host_keeps hostOps4
    _ = H1 m ρ c := rfl

theorem agg : V15 (F := Ideal) m ρ c main_v77 = scat m ρ c (E2 m ρ c) := by
  show StableHlo.after hostOps5 _ (Proc.devRef .tc main_v77) = _
  after_results
  rw [at14_v3 m ρ c]
  rfl

theorem Wa : mat (V15 (F := Ideal) m ρ c main_v80) = band (w3 (m ((c : Thread nD τ).loc main_arg21)) 1) 0 (by omega) := by
  have e : V15 (F := Ideal) m ρ c main_v80 = extractStridedSlice S128x128 ![0, 0] (shapeCast S256x128 (extractStridedSlice S1x256x128 ![1, 0, 0] (m ((c : Thread nD τ).loc main_arg21)) slices_S3x256x128_S1x256x128_1_0_0) shapeCasts_S1x256x128_S256x128) slices_S256x128_S128x128_0_0 := by
    show StableHlo.after hostOps5 _ (Proc.devRef .tc main_v80) = _
    after_results
    rw [at14_arg21 m ρ c]
    rfl
  rw [e]
  exact mat_band (m ((c : Thread nD τ).loc main_arg21)) 1 0 (by omega) _ _ _

theorem Wb : mat (V15 (F := Ideal) m ρ c main_v81) = band (w3 (m ((c : Thread nD τ).loc main_arg21)) 1) 128 (by omega) := by
  have e : V15 (F := Ideal) m ρ c main_v81 = extractStridedSlice S128x128 ![128, 0] (shapeCast S256x128 (extractStridedSlice S1x256x128 ![1, 0, 0] (m ((c : Thread nD τ).loc main_arg21)) slices_S3x256x128_S1x256x128_1_0_0) shapeCasts_S1x256x128_S256x128) slices_S256x128_S128x128_128_0 := by
    show StableHlo.after hostOps5 _ (Proc.devRef .tc main_v81) = _
    after_results
    rw [at14_arg21 m ρ c]
    rfl
  rw [e]
  exact mat_band (m ((c : Thread nD τ).loc main_arg21)) 1 128 (by omega) _ _ _

theorem b1 : row1 (V15 (F := Ideal) m ρ c main_v92) = b3 (m ((c : Thread nD τ).loc main_arg22)) 1 := by
  have e : V15 (F := Ideal) m ρ c main_v92 = shapeCast S1x128 (shapeCast S128 (extractStridedSlice S1x128 ![1, 0] (m ((c : Thread nD τ).loc main_arg22)) slices_S3x128_S1x128_1_0) shapeCasts_S1x128_S128) shapeCasts_S128_S1x128 := by
    show StableHlo.after hostOps5 _ (Proc.devRef .tc main_v92) = _
    after_results
    rw [at14_arg22 m ρ c]
    rfl
  rw [e]
  exact row1_b3 (m ((c : Thread nD τ).loc main_arg22)) 1 _ _ _

theorem W2 : mat (V15 (F := Ideal) m ρ c main_v85) = w3 (m ((c : Thread nD τ).loc main_arg23)) 1 := by
  have e : V15 (F := Ideal) m ρ c main_v85 = shapeCast S128x128 (extractStridedSlice S1x128x128 ![1, 0, 0] (m ((c : Thread nD τ).loc main_arg23)) slices_S3x128x128_S1x128x128_1_0_0) shapeCasts_S1x128x128_S128x128 := by
    show StableHlo.after hostOps5 _ (Proc.devRef .tc main_v85) = _
    after_results
    rw [at14_arg23 m ρ c]
    rfl
  rw [e]
  exact mat_w3 (m ((c : Thread nD τ).loc main_arg23)) 1 _ _

theorem b2 : row1 (V15 (F := Ideal) m ρ c main_v93) = b3 (m ((c : Thread nD τ).loc main_arg24)) 1 := by
  have e : V15 (F := Ideal) m ρ c main_v93 = shapeCast S1x128 (shapeCast S128 (extractStridedSlice S1x128 ![1, 0] (m ((c : Thread nD τ).loc main_arg24)) slices_S3x128_S1x128_1_0) shapeCasts_S1x128_S128) shapeCasts_S128_S1x128 := by
    show StableHlo.after hostOps5 _ (Proc.devRef .tc main_v93) = _
    after_results
    rw [at14_arg24 m ρ c]
    rfl
  rw [e]
  exact row1_b3 (m ((c : Thread nD τ).loc main_arg24)) 1 _ _ _

theorem W3 : mat (V15 (F := Ideal) m ρ c main_v89) = w3 (m ((c : Thread nD τ).loc main_arg25)) 1 := by
  have e : V15 (F := Ideal) m ρ c main_v89 = shapeCast S128x128 (extractStridedSlice S1x128x128 ![1, 0, 0] (m ((c : Thread nD τ).loc main_arg25)) slices_S3x128x128_S1x128x128_1_0_0) shapeCasts_S1x128x128_S128x128 := by
    show StableHlo.after hostOps5 _ (Proc.devRef .tc main_v89) = _
    after_results
    rw [at14_arg25 m ρ c]
    rfl
  rw [e]
  exact mat_w3 (m ((c : Thread nD τ).loc main_arg25)) 1 _ _

theorem b3 : row1 (V15 (F := Ideal) m ρ c main_v94) = b3 (m ((c : Thread nD τ).loc main_arg26)) 1 := by
  have e : V15 (F := Ideal) m ρ c main_v94 = shapeCast S1x128 (shapeCast S128 (extractStridedSlice S1x128 ![1, 0] (m ((c : Thread nD τ).loc main_arg26)) slices_S3x128_S1x128_1_0) shapeCasts_S1x128_S128) shapeCasts_S128_S1x128 := by
    show StableHlo.after hostOps5 _ (Proc.devRef .tc main_v94) = _
    after_results
    rw [at14_arg26 m ρ c]
    rfl
  rw [e]
  exact row1_b3 (m ((c : Thread nD τ).loc main_arg26)) 1 _ _ _

end Cert.KernelIdeal.In5

end
-- ==== Proof.KVal6.lean ====
/-
  The value of an edge-update region.

  The region runs one body at each of 80 points. At point `t` the body reads rows `5000 t … 5000 t + 4999` of three
  arrays (the senders' rows, the receivers' rows, the edges' rows) and the whole of four weight matrices and three bias
  rows, and writes the same rows of the output array. Two facts are proved. First, entry `(p, q)` of what the body
  stores is the edge-update row function of rows `p` of the three blocks, read at `q`: the first layer is three
  products added in order plus the bias, each later layer one product plus its bias, with a maximum against zero
  between layers, and the old edge entry added at the end. Second, since row `r` of the output array is written at
  point `r / 5000` and nowhere else, the array after the region is the edge update applied to every row.
-/
import proofs.«425516_j47425028883052_2_alg».proof.Proof.Gen.KernelIdeal.Frame
import proofs.«425516_j47425028883052_2_alg».proof.Proof.Net
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Idealize.ShloMosaic Idealize.ShloMosaic.TcCoe Idealize.ShloMosaic.ValueIdx Idealize.SL.Sem Cert.KernelIdeal Cert.KernelIdeal.Gen Cert.Spec Cert.Net

set_option maxRecDepth 16384

/-! ## A block product at an index

The kernel's products all have the same shape: a block of 5000 rows of 128 entries times a 128 × 128 matrix,
contracting the block's second axis with the matrix's first. The next four facts read the operands' indices at an
output index and a contraction index, axis by axis. -/

theorem e6_lhs_0 (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem e6_lhs_1 (i : S5000x128.Idx) (k : dot_S5000x128_S128x128_S5000x128_1_0_0_1_n_n.contr.Idx) :
    (dot_S5000x128_S128x128_S5000x128_1_0_0_1_n_n.lhsIdx i k 1).val = (k ⟨0, by decide⟩).val :=
  dot_S5000x128_S128x128_S5000x128_1_0_0_1_n_n.lhsIdx_val_of_single rfl i k
theorem e6_rhs_0 (i : S5000x128.Idx) (k : dot_S5000x128_S128x128_S5000x128_1_0_0_1_n_n.contr.Idx) :
    (dot_S5000x128_S128x128_S5000x128_1_0_0_1_n_n.rhsIdx i k 0).val = (k ⟨0, by decide⟩).val :=
  dot_S5000x128_S128x128_S5000x128_1_0_0_1_n_n.rhsIdx_val_of_single rfl i k
theorem e6_rhs_1 (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product into a zero accumulator, read at row `p` and column `q`, is the contraction of row `p` of the block
    with column `q` of the matrix. -/
theorem e6_mm_apply (x : FVec Ideal S5000x128 .bf16) (w : FVec Ideal S128x128 .bf16) (p : Fin 5000) (q : Fin 128) :
    matmul dot_S5000x128_S128x128_S5000x128_1_0_0_1_n_n none x w (constant (F := Ideal) S5000x128 .f32 0x00000000#32) (ix2 p q)
      = ∑ k : Fin 128, x (ix2 p k) * w (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact e6_lhs_0 _ _
    | ⟨1, _⟩ => exact (e6_lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (e6_rhs_0 _ _).trans hk
    | ⟨1, _⟩ => exact e6_rhs_1 _ _)
  rw [el, er]

/-! ## The body's arithmetic at an index -/

/-- Entry `(p, q)` of what the body stores: the edge's old entry plus the three-layer network of the sender's,
    the receiver's and the edge's own row `p`, the first layer as three products added in that order. Every
    operation but the products is entrywise; a conversion between float formats is the identity on the extended
    reals, a cast to the same shape is the identity, and the one-row biases read their row at the column. -/
theorem pay6_apply (hs hd e : Vec Ideal S5000x128 .f32) (Wa Wb Wc : Vec Ideal S128x128 .f32) (b1 : Vec Ideal S1x128 .f32) (W2 : Vec Ideal S128x128 .f32) (b2 : Vec Ideal S1x128 .f32) (W3 : Vec Ideal S128x128 .f32) (b3 : Vec Ideal S1x128 .f32) (p : Fin 5000) (q : Fin 128) :
    k6_pay1 (F := Ideal) (k6_pay2 e) (k6_pay3 hs hd e Wa Wb Wc b1 W2) (k6_pay4 b2) W3 b3 (ix2 p q)
      = edgeRow (mat Wa) (mat Wb) (mat Wc) (row1 b1) (mat W2) (row1 b2) (mat W3) (row1 b3) (rowAt hs p) (rowAt hd p) (rowAt e p) q := by
  unfold k6_pay1 k6_pay3 k6_pay2 k6_pay4
  simp only [shapeCast_self, addf_apply, e6_mm_apply, truncf_apply, maximumf_apply, broadcast_apply, broadcastTo_1b_ab_apply, Ideal.ofBits_def, Ideal.ofBits_zero_f32]
  rfl

/-- The same at any index of the block: the row functions at the index's row, read at its column. -/
theorem e6_pay_idx (hs hd e : Vec Ideal S5000x128 .f32) (Wa Wb Wc : Vec Ideal S128x128 .f32) (b1 : Vec Ideal S1x128 .f32) (W2 : Vec Ideal S128x128 .f32) (b2 : Vec Ideal S1x128 .f32) (W3 : Vec Ideal S128x128 .f32) (b3 : Vec Ideal S1x128 .f32) (j : S5000x128.Idx) :
    k6_pay1 (F := Ideal) (k6_pay2 e) (k6_pay3 hs hd e Wa Wb Wc b1 W2) (k6_pay4 b2) W3 b3 j
      = edgeRow (mat Wa) (mat Wb) (mat Wc) (row1 b1) (mat W2) (row1 b2) (mat W3) (row1 b3) (rowAt hs (ri j)) (rowAt hd (ri j)) (rowAt e (ri j)) (ci j) := by
  obtain ⟨p, q, rfl⟩ : ∃ (p : Fin 5000) (q : Fin 128), j = ix2 p q := ⟨j 0, j 1, eq_ix2 j⟩
  exact pay6_apply hs hd e Wa Wb Wc b1 W2 b2 W3 b3 p q

/-- One entry of the body's result against the same entry of the edge update of the whole arrays: if the three
    row blocks are rows `5000 n …` of three arrays, then entry `x` of the body's result on the blocks is entry `y` of
    the edge update of the arrays, for `y` at row `5000 n + x₀` and column `x₁`. -/
theorem e6_point (hsB hdB eB : Vec Ideal S5000x128 .f32) (hsA hdA eA : Vec Ideal S400000x128 .f32)
    (Wa Wb Wc : Vec Ideal S128x128 .f32) (b1 : Vec Ideal S1x128 .f32) (W2 : Vec Ideal S128x128 .f32) (b2 : Vec Ideal S1x128 .f32) (W3 : Vec Ideal S128x128 .f32) (b3 : Vec Ideal S1x128 .f32)
    (n : ℕ) (x : S5000x128.Idx) (y : S400000x128.Idx)
    (h0 : (y 0).val = n * 5000 + (x 0).val) (h1 : (y 1).val = (x 1).val)
    (hhs : ∀ (x' : S5000x128.Idx) (y' : S400000x128.Idx), (y' 0).val = n * 5000 + (x' 0).val → (y' 1).val = (x' 1).val → hsB x' = hsA y')
    (hhd : ∀ (x' : S5000x128.Idx) (y' : S400000x128.Idx), (y' 0).val = n * 5000 + (x' 0).val → (y' 1).val = (x' 1).val → hdB x' = hdA y')
    (he : ∀ (x' : S5000x128.Idx) (y' : S400000x128.Idx), (y' 0).val = n * 5000 + (x' 0).val → (y' 1).val = (x' 1).val → eB x' = eA y') :
    k6_pay1 (F := Ideal) (k6_pay2 eB) (k6_pay3 hsB hdB eB Wa Wb Wc b1 W2) (k6_pay4 b2) W3 b3 x
      = Net.edgeStep (mat Wa) (mat Wb) (mat Wc) (row1 b1) (mat W2) (row1 b2) (mat W3) (row1 b3) hsA hdA eA y := by
  rw [e6_pay_idx]
  unfold Net.edgeStep
  have hc : ci x = ci y := Fin.ext h1.symm
  have r1 : rowAt hsB (ri x) = rowAt hsA (ri y) := funext fun k => hhs (ix2 (ri x) k) (ix2 (ri y) k) h0 rfl
  have r2 : rowAt hdB (ri x) = rowAt hdA (ri y) := funext fun k => hhd (ix2 (ri x) k) (ix2 (ri y) k) h0 rfl
  have r3 : rowAt eB (ri x) = rowAt eA (ri y) := funext fun k => he (ix2 (ri x) k) (ix2 (ri y) k) h0 rfl
  rw [r1, r2, r3, hc]

/-! ## From the blocks to the array -/

section Blocks

variable (V : (c : Dev nD) → (b : Ref sig .tc) → Buf (Elt Ideal) ((c : Thread nD τ).loc b))

theorem e6_hz : (![0, 0] : Fin 2 → Nat) = fun _ => 0 := funext fun a => by
  match a with
  | ⟨0, _⟩ => rfl
  | ⟨1, _⟩ => rfl

/-- The index maps over the grid: the three row-tiled inputs and the output are at block `(t, 0)` at point `t`; the
    weights and the biases are always at block `(0, 0)`. -/
theorem e6_idx : ∀ t : Fin cfg6.N,
    (win6_0.index t (0 : Fin 2) = t.val ∧ win6_0.index t (1 : Fin 2) = 0)
    ∧ (win6_1.index t (0 : Fin 2) = t.val ∧ win6_1.index t (1 : Fin 2) = 0)
    ∧ (win6_2.index t (0 : Fin 2) = t.val ∧ win6_2.index t (1 : Fin 2) = 0)
    ∧ (win6_3.index t (0 : Fin 2) = 0 ∧ win6_3.index t (1 : Fin 2) = 0)
    ∧ (win6_4.index t (0 : Fin 2) = 0 ∧ win6_4.index t (1 : Fin 2) = 0)
    ∧ (win6_5.index t (0 : Fin 2) = 0 ∧ win6_5.index t (1 : Fin 2) = 0)
    ∧ (win6_6.index t (0 : Fin 2) = 0 ∧ win6_6.index t (1 : Fin 2) = 0)
    ∧ (win6_7.index t (0 : Fin 2) = 0 ∧ win6_7.index t (1 : Fin 2) = 0)
    ∧ (win6_8.index t (0 : Fin 2) = 0 ∧ win6_8.index t (1 : Fin 2) = 0)
    ∧ (win6_9.index t (0 : Fin 2) = 0 ∧ win6_9.index t (1 : Fin 2) = 0)
    ∧ (win6_10.index t (0 : Fin 2) = 0 ∧ win6_10.index t (1 : Fin 2) = 0)
    ∧ (win6_11.index t (0 : Fin 2) = t.val ∧ win6_11.index t (1 : Fin 2) = 0) :=
  (by decide +kernel : ∀ t : Fin grid6.N, _)

/-- Input window 0's block at point `t` is rows `5000 t … 5000 t + 4999` of its array. -/
theorem e6_blk0 (c : Dev nD) (t : Fin cfg6.N) (x : S5000x128.Idx) (y : S400000x128.Idx)
    (h0 : (y 0).val = t.val * 5000 + (x 0).val) (h1 : (y 1).val = (x 1).val) :
    (iblk6 V c 0 t : Vec Ideal S5000x128 .f32) x = (V c main_v96 : Vec Ideal S400000x128 .f32) y := by
  have hi := e6_idx t
  unfold iblk6
  rw [View.read_apply]
  show V c main_v96 (((cfg6.win 0).blk t).view.emb x) = V c main_v96 y
  refine congrArg (V c main_v96) (funext fun a => Fin.ext ?_)
  match a with
  | ⟨0, _⟩ => show win6_0.index t (0 : Fin 2) * 5000 + 1 * (x 0).val = (y 0).val; omega
  | ⟨1, _⟩ => show win6_0.index t (1 : Fin 2) * 128 + 1 * (x 1).val = (y 1).val; omega

/-- Input window 1's block at point `t` is rows `5000 t … 5000 t + 4999` of its array. -/
theorem e6_blk1 (c : Dev nD) (t : Fin cfg6.N) (x : S5000x128.Idx) (y : S400000x128.Idx)
    (h0 : (y 0).val = t.val * 5000 + (x 0).val) (h1 : (y 1).val = (x 1).val) :
    (iblk6 V c 1 t : Vec Ideal S5000x128 .f32) x = (V c main_v97 : Vec Ideal S400000x128 .f32) y := by
  have hi := e6_idx t
  unfold iblk6
  rw [View.read_apply]
  show V c main_v97 (((cfg6.win 1).blk t).view.emb x) = V c main_v97 y
  refine congrArg (V c main_v97) (funext fun a => Fin.ext ?_)
  match a with
  | ⟨0, _⟩ => show win6_1.index t (0 : Fin 2) * 5000 + 1 * (x 0).val = (y 0).val; omega
  | ⟨1, _⟩ => show win6_1.index t (1 : Fin 2) * 128 + 1 * (x 1).val = (y 1).val; omega

/-- Input window 2's block at point `t` is rows `5000 t … 5000 t + 4999` of its array. -/
theorem e6_blk2 (c : Dev nD) (t : Fin cfg6.N) (x : S5000x128.Idx) (y : S400000x128.Idx)
    (h0 : (y 0).val = t.val * 5000 + (x 0).val) (h1 : (y 1).val = (x 1).val) :
    (iblk6 V c 2 t : Vec Ideal S5000x128 .f32) x = (V c main_v74 : Vec Ideal S400000x128 .f32) y := by
  have hi := e6_idx t
  unfold iblk6
  rw [View.read_apply]
  show V c main_v74 (((cfg6.win 2).blk t).view.emb x) = V c main_v74 y
  refine congrArg (V c main_v74) (funext fun a => Fin.ext ?_)
  match a with
  | ⟨0, _⟩ => show win6_2.index t (0 : Fin 2) * 5000 + 1 * (x 0).val = (y 0).val; omega
  | ⟨1, _⟩ => show win6_2.index t (1 : Fin 2) * 128 + 1 * (x 1).val = (y 1).val; omega

/-- Window 3's block at every point is its whole array. -/
theorem e6_blk3 (c : Dev nD) (t : Fin cfg6.N) : (iblk6 V c 3 t : Vec Ideal S128x128 .f32) = V c main_v100 := by
  have hi := e6_idx t
  funext x
  unfold iblk6
  rw [View.read_apply]
  show V c main_v100 (((cfg6.win 3).blk t).view.emb x) = V c main_v100 x
  refine congrArg (V c main_v100) (funext fun a => Fin.ext ?_)
  match a with
  | ⟨0, _⟩ => show win6_3.index t (0 : Fin 2) * 128 + 1 * (x 0).val = (x 0).val; omega
  | ⟨1, _⟩ => show win6_3.index t (1 : Fin 2) * 128 + 1 * (x 1).val = (x 1).val; omega

/-- Window 4's block at every point is its whole array. -/
theorem e6_blk4 (c : Dev nD) (t : Fin cfg6.N) : (iblk6 V c 4 t : Vec Ideal S128x128 .f32) = V c main_v101 := by
  have hi := e6_idx t
  funext x
  unfold iblk6
  rw [View.read_apply]
  show V c main_v101 (((cfg6.win 4).blk t).view.emb x) = V c main_v101 x
  refine congrArg (V c main_v101) (funext fun a => Fin.ext ?_)
  match a with
  | ⟨0, _⟩ => show win6_4.index t (0 : Fin 2) * 128 + 1 * (x 0).val = (x 0).val; omega
  | ⟨1, _⟩ => show win6_4.index t (1 : Fin 2) * 128 + 1 * (x 1).val = (x 1).val; omega

/-- Window 5's block at every point is its whole array. -/
theorem e6_blk5 (c : Dev nD) (t : Fin cfg6.N) : (iblk6 V c 5 t : Vec Ideal S128x128 .f32) = V c main_v102 := by
  have hi := e6_idx t
  funext x
  unfold iblk6
  rw [View.read_apply]
  show V c main_v102 (((cfg6.win 5).blk t).view.emb x) = V c main_v102 x
  refine congrArg (V c main_v102) (funext fun a => Fin.ext ?_)
  match a with
  | ⟨0, _⟩ => show win6_5.index t (0 : Fin 2) * 128 + 1 * (x 0).val = (x 0).val; omega
  | ⟨1, _⟩ => show win6_5.index t (1 : Fin 2) * 128 + 1 * (x 1).val = (x 1).val; omega

/-- Window 6's block at every point is its whole array. -/
theorem e6_blk6 (c : Dev nD) (t : Fin cfg6.N) : (iblk6 V c 6 t : Vec Ideal S1x128 .f32) = V c main_v113 := by
  have hi := e6_idx t
  funext x
  unfold iblk6
  rw [View.read_apply]
  show V c main_v113 (((cfg6.win 6).blk t).view.emb x) = V c main_v113 x
  refine congrArg (V c main_v113) (funext fun a => Fin.ext ?_)
  match a with
  | ⟨0, _⟩ => show win6_6.index t (0 : Fin 2) * 1 + 1 * (x 0).val = (x 0).val; omega
  | ⟨1, _⟩ => show win6_6.index t (1 : Fin 2) * 128 + 1 * (x 1).val = (x 1).val; omega

/-- Window 7's block at every point is its whole array. -/
theorem e6_blk7 (c : Dev nD) (t : Fin cfg6.N) : (iblk6 V c 7 t : Vec Ideal S128x128 .f32) = V c main_v106 := by
  have hi := e6_idx t
  funext x
  unfold iblk6
  rw [View.read_apply]
  show V c main_v106 (((cfg6.win 7).blk t).view.emb x) = V c main_v106 x
  refine congrArg (V c main_v106) (funext fun a => Fin.ext ?_)
  match a with
  | ⟨0, _⟩ => show win6_7.index t (0 : Fin 2) * 128 + 1 * (x 0).val = (x 0).val; omega
  | ⟨1, _⟩ => show win6_7.index t (1 : Fin 2) * 128 + 1 * (x 1).val = (x 1).val; omega

/-- Window 8's block at every point is its whole array. -/
theorem e6_blk8 (c : Dev nD) (t : Fin cfg6.N) : (iblk6 V c 8 t : Vec Ideal S1x128 .f32) = V c main_v114 := by
  have hi := e6_idx t
  funext x
  unfold iblk6
  rw [View.read_apply]
  show V c main_v114 (((cfg6.win 8).blk t).view.emb x) = V c main_v114 x
  refine congrArg (V c main_v114) (funext fun a => Fin.ext ?_)
  match a with
  | ⟨0, _⟩ => show win6_8.index t (0 : Fin 2) * 1 + 1 * (x 0).val = (x 0).val; omega
  | ⟨1, _⟩ => show win6_8.index t (1 : Fin 2) * 128 + 1 * (x 1).val = (x 1).val; omega

/-- Window 9's block at every point is its whole array. -/
theorem e6_blk9 (c : Dev nD) (t : Fin cfg6.N) : (iblk6 V c 9 t : Vec Ideal S128x128 .f32) = V c main_v110 := by
  have hi := e6_idx t
  funext x
  unfold iblk6
  rw [View.read_apply]
  show V c main_v110 (((cfg6.win 9).blk t).view.emb x) = V c main_v110 x
  refine congrArg (V c main_v110) (funext fun a => Fin.ext ?_)
  match a with
  | ⟨0, _⟩ => show win6_9.index t (0 : Fin 2) * 128 + 1 * (x 0).val = (x 0).val; omega
  | ⟨1, _⟩ => show win6_9.index t (1 : Fin 2) * 128 + 1 * (x 1).val = (x 1).val; omega

/-- Window 10's block at every point is its whole array. -/
theorem e6_blk10 (c : Dev nD) (t : Fin cfg6.N) : (iblk6 V c 10 t : Vec Ideal S1x128 .f32) = V c main_v115 := by
  have hi := e6_idx t
  funext x
  unfold iblk6
  rw [View.read_apply]
  show V c main_v115 (((cfg6.win 10).blk t).view.emb x) = V c main_v115 x
  refine congrArg (V c main_v115) (funext fun a => Fin.ext ?_)
  match a with
  | ⟨0, _⟩ => show win6_10.index t (0 : Fin 2) * 1 + 1 * (x 0).val = (x 0).val; omega
  | ⟨1, _⟩ => show win6_10.index t (1 : Fin 2) * 128 + 1 * (x 1).val = (x 1).val; omega

/-- What point `t` writes back is block `t` of the edge update of the arrays as the region finds them. -/
theorem e6_flushed (c : Dev nD) (t : Fin cfg6.N) :
    (dat6 (F := Ideal) V c).flushed 11 t = ((cfg6.win 11).blk t).view.read (Elt Ideal)
      (Net.edgeStep (mat (V c main_v100)) (mat (V c main_v101)) (mat (V c main_v102)) (row1 (V c main_v113)) (mat (V c main_v106)) (row1 (V c main_v114)) (mat (V c main_v110)) (row1 (V c main_v115)) (V c main_v96) (V c main_v97) (V c main_v74)) := by
  show (cfg6.win 11).cut (grid6.coords t) ((dat6 V c).after 11 t) = _
  rw [after6_11]
  unfold out6_11
  rw [View.canon_unit_zero e6_hz]
  simp only [View.ld_unit_zero (S := S5000x128) e6_hz, View.ld_unit_zero (S := S128x128) e6_hz, View.ld_unit_zero (S := S1x128) e6_hz]
  rw [e6_blk3 V c t, e6_blk4 V c t, e6_blk5 V c t, e6_blk6 V c t, e6_blk7 V c t, e6_blk8 V c t, e6_blk9 V c t, e6_blk10 V c t]
  funext j
  have hi := e6_idx t
  have key := e6_point (iblk6 V c 0 t) (iblk6 V c 1 t) (iblk6 V c 2 t) (V c main_v96) (V c main_v97) (V c main_v74)
    (V c main_v100) (V c main_v101) (V c main_v102) (V c main_v113) (V c main_v106) (V c main_v114) (V c main_v110) (V c main_v115)
    t.val
  have b0 := fun x' y' h0 h1 => e6_blk0 V c t x' y' h0 h1
  have b1 := fun x' y' h0 h1 => e6_blk1 V c t x' y' h0 h1
  have b2 := fun x' y' h0 h1 => e6_blk2 V c t x' y' h0 h1
  have key2 := fun x y h0 h1 => key x y h0 h1 b0 b1 b2
  clear key b0 b1 b2
  refine key2 ((win6_11).xinj (grid6.coords t) j) (((cfg6.win 11).blk t).view.emb j) ?_ ?_
  · show win6_11.index t (0 : Fin 2) * 5000 + 1 * (j 0).val = t.val * 5000 + (j 0).val; omega
  · show win6_11.index t (1 : Fin 2) * 128 + 1 * (j 1).val = (j 1).val; omega

/-- An index of the output array is in point `t`'s block iff each coordinate is in the block's range on its axis. -/
theorem e6_mem_blk (t : Fin cfg6.N) (i : S400000x128.Idx) :
    i ∈ ((cfg6.win 11).blk t).view.set ↔ ∀ a : Fin 2, win6_11.index t a * S5000x128.size a ≤ (i a).val ∧ (i a).val < win6_11.index t a * S5000x128.size a + S5000x128.size a := by
  show i ∈ ((View.whole main_v116).slice (win6_11.rect t)).set ↔ _
  rw [View.set_slice_whole, Rect.mem_set_unit]
  exact Iff.rfl

/-- Every index of the output array is in the block of the point its row falls to: row `r` is written at point `r / 5000`. -/
theorem e6_cover (i : S400000x128.Idx) :
    ∃ t : Fin cfg6.N, (cfg6.win 11).flush t = true ∧ i ∈ ((cfg6.win 11).blk t).view.set := by
  have hN : cfg6.N = 80 := N_6
  have hi0 : (i 0).val < 400000 := idx2_lt0 i
  have hi1 : (i 1).val < 128 := idx2_lt1 i
  obtain ⟨t, ht⟩ : ∃ t : Fin cfg6.N, t.val = (i 0).val / 5000 := ⟨⟨(i 0).val / 5000, by rw [hN]; omega⟩, rfl⟩
  have hi := e6_idx t
  refine ⟨t, flush6_11 t, ?_⟩
  rw [e6_mem_blk]
  intro a
  match a with
  | ⟨0, _⟩ => show win6_11.index t (0 : Fin 2) * 5000 ≤ (i 0).val ∧ (i 0).val < win6_11.index t (0 : Fin 2) * 5000 + 5000; omega
  | ⟨1, _⟩ => show win6_11.index t (1 : Fin 2) * 128 ≤ (i 1).val ∧ (i 1).val < win6_11.index t (1 : Fin 2) * 128 + 128; omega

/-- The output array after the region: the edge update of the arrays the region's input windows stage. -/
theorem arr6 (c : Dev nD) :
    (dat6 (F := Ideal) V c).arrAt 11 cfg6.N = Net.edgeStep (mat (V c main_v100)) (mat (V c main_v101)) (mat (V c main_v102)) (row1 (V c main_v113)) (mat (V c main_v106)) (row1 (V c main_v114)) (mat (V c main_v110)) (row1 (V c main_v115)) (V c main_v96) (V c main_v97) (V c main_v74) :=
  (dat6 (F := Ideal) V c).arrAt_eq_of_cover 11 _ (fun t _ => e6_flushed V c t) (fun i => e6_cover i)

end Blocks

end Cert.KernelIdeal.Val

end
-- ==== Proof.KIn6.lean ====
/-
  What region 6's input windows hold when the region is entered: each array the region stages, read back through the
  host operations and the earlier regions to the launch arrays and the earlier stages' results. No operation between
  a buffer's writer and this region overwrites it, so a buffer holds what its writer left; a slice of a stacked weight
  array is that array at the slice's indices, and a reshaped bias row is the bias row.
-/
import proofs.«425516_j47425028883052_2_alg».proof.Proof.KDefs
import proofs.«425516_j47425028883052_2_alg».proof.Proof.TakeK
import Idealize.ShloMosaic.Lib.ValueLayout
set_option maxRecDepth 16384

noncomputable section

namespace Cert.KernelIdeal.In6

open Idealize.ShloMosaic Idealize.ShloMosaic.TcCoe Idealize.ShloMosaic.ValueIdx Idealize.SL.Sem Cert.KernelIdeal Cert.KernelIdeal.Gen Cert.Spec Cert.Net Cert.KernelIdeal.K

/-- A host stretch leaves every buffer none of its operations writes as it was. -/
macro "host_keeps" s:ident : tactic => `(tactic|
  exact StableHlo.after_of_forall_not_mem _ _ (List.forall_iff_forall_mem.mp (by
    simp only [$s:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! The three kinds of weight window, over an arbitrary stacked array. -/

/-- A band of 128 rows of slice `t` of a stack of three matrices: the slice of the stack at `t`, with its leading unit
    axis dropped, cut along its rows from `s`. Entry `(k, j)` reads the stack at `(t, s + k, j)`. -/
theorem mat_band {a : ℕ} (x : A3 3 a 128) (t : Fin 3) (s : ℕ) (hs : s + 128 ≤ a)
    (h1 : (⟨3, ![3, a, 128]⟩ : Shape).Slices ![t.val, 0, 0] ⟨3, ![1, a, 128]⟩)
    (h2 : (⟨3, ![1, a, 128]⟩ : Shape).ShapeCasts ⟨2, ![a, 128]⟩)
    (h3 : (⟨2, ![a, 128]⟩ : Shape).Slices ![s, 0] ⟨2, ![128, 128]⟩) :
    mat (extractStridedSlice ⟨2, ![128, 128]⟩ ![s, 0]
          (shapeCast ⟨2, ![a, 128]⟩ (extractStridedSlice ⟨3, ![1, a, 128]⟩ ![t.val, 0, 0] x h1) h2) h3)
      = band (w3 x t) s hs := by
  funext k j
  unfold mat band w3
  refine (slice2_axis0_apply s _ h3 k j ⟨s + k.val, by have := k.isLt; omega⟩ rfl).trans ?_
  refine (shapeCast_1ab_ab_apply _ h2 _ j).trans ?_
  refine extractStridedSlice_apply _ x h1 _ _ fun ax => ?_
  match ax with
  | ⟨0, _⟩ => exact (Nat.add_zero _).symm
  | ⟨1, _⟩ => exact (Nat.zero_add _).symm
  | ⟨2, _⟩ => exact (Nat.zero_add _).symm

/-- Slice `t` of a stack of three square matrices with its leading unit axis dropped. -/
theorem mat_w3 (x : A3 3 128 128) (t : Fin 3)
    (h1 : (⟨3, ![3, 128, 128]⟩ : Shape).Slices ![t.val, 0, 0] ⟨3, ![1, 128, 128]⟩)
    (h2 : (⟨3, ![1, 128, 128]⟩ : Shape).ShapeCasts ⟨2, ![128, 128]⟩) :
    mat (shapeCast ⟨2, ![128, 128]⟩ (extractStridedSlice ⟨3, ![1, 128, 128]⟩ ![t.val, 0, 0] x h1) h2) = w3 x t := by
  funext k j
  unfold mat w3
  refine (shapeCast_1ab_ab_apply _ h2 k j).trans ?_
  refine extractStridedSlice_apply _ x h1 _ _ fun ax => ?_
  match ax with
  | ⟨0, _⟩ => exact (Nat.add_zero _).symm
  | ⟨1, _⟩ => exact (Nat.zero_add _).symm
  | ⟨2, _⟩ => exact (Nat.zero_add _).symm

/-- Row `t` of a stack of three bias rows: the slice at `t`, flattened to a vector and laid out again as one row. -/
theorem row1_b3 (x : A2 3 128) (t : Fin 3)
    (h1 : (⟨2, ![3, 128]⟩ : Shape).Slices ![t.val, 0] ⟨2, ![1, 128]⟩)
    (h2 : (⟨2, ![1, 128]⟩ : Shape).ShapeCasts ⟨1, ![128]⟩)
    (h3 : (⟨1, ![128]⟩ : Shape).ShapeCasts ⟨2, ![1, 128]⟩) :
    row1 (shapeCast ⟨2, ![1, 128]⟩ (shapeCast ⟨1, ![128]⟩ (extractStridedSlice ⟨2, ![1, 128]⟩ ![t.val, 0] x h1) h2) h3)
      = b3 x t := by
  funext j
  unfold row1 b3
  refine (shapeCast_a_1a_apply _ h3 0 j).trans ?_
  refine (shapeCast_1a_a_apply _ h2 j).trans ?_
  exact slice2_axis0_apply t.val x h1 0 j t (Nat.add_zero _).symm

variable (m : (ℓ : Loc nD τ sig) → Buf (Elt Ideal) ℓ) (ρ : Dev nD → PrngReg) (c : Dev nD)

/-! The launch arrays the region's weight windows are cut from, where the three host stretches before the region begin. -/

/-- No host operation and no region writes `main_arg15`: at boundary 16 it holds what it holds at the end, the launch array. -/
theorem at16_arg15 : W16 (F := Ideal) m ρ c (Proc.devRef .tc main_arg15) = m ((c : Thread nD τ).loc main_arg15) :=
  (calc W22 (F := Ideal) m ρ c (Proc.devRef .tc main_arg15)
    _ = W21 (F := Ideal) m ρ c (Proc.devRef .tc main_arg15) := W22_of_ne m ρ c main_arg15 (by decide)
    _ = W20 (F := Ideal) m ρ c (Proc.devRef .tc main_arg15) := by host_keeps hostOps7
    _ = W19 (F := Ideal) m ρ c (Proc.devRef .tc main_arg15) := W20_of_ne m ρ c main_arg15 (by decide)
    _ = W18 (F := Ideal) m ρ c (Proc.devRef .tc main_arg15) := by host_keeps hostOps6_2
    _ = W17 (F := Ideal) m ρ c (Proc.devRef .tc main_arg15) := by host_keeps hostOps6_1
    _ = W16 (F := Ideal) m ρ c (Proc.devRef .tc main_arg15) := by host_keeps hostOps6).symm.trans (W22_main_arg15 m ρ c)

/-- No host operation and no region writes `main_arg16`: at boundary 16 it holds what it holds at the end, the launch array. -/
theorem at16_arg16 : W16 (F := Ideal) m ρ c (Proc.devRef .tc main_arg16) = m ((c : Thread nD τ).loc main_arg16) :=
  (calc W22 (F := Ideal) m ρ c (Proc.devRef .tc main_arg16)
    _ = W21 (F := Ideal) m ρ c (Proc.devRef .tc main_arg16) := W22_of_ne m ρ c main_arg16 (by decide)
    _ = W20 (F := Ideal) m ρ c (Proc.devRef .tc main_arg16) := by host_keeps hostOps7
    _ = W19 (F := Ideal) m ρ c (Proc.devRef .tc main_arg16) := W20_of_ne m ρ c main_arg16 (by decide)
    _ = W18 (F := Ideal) m ρ c (Proc.devRef .tc main_arg16) := by host_keeps hostOps6_2
    _ = W17 (F := Ideal) m ρ c (Proc.devRef .tc main_arg16) := by host_keeps hostOps6_1
    _ = W16 (F := Ideal) m ρ c (Proc.devRef .tc main_arg16) := by host_keeps hostOps6).symm.trans (W22_main_arg16 m ρ c)

/-- No host operation and no region writes `main_arg17`: at boundary 16 it holds what it holds at the end, the launch array. -/
theorem at16_arg17 : W16 (F := Ideal) m ρ c (Proc.devRef .tc main_arg17) = m ((c : Thread nD τ).loc main_arg17) :=
  (calc W22 (F := Ideal) m ρ c (Proc.devRef .tc main_arg17)
    _ = W21 (F := Ideal) m ρ c (Proc.devRef .tc main_arg17) := W22_of_ne m ρ c main_arg17 (by decide)
    _ = W20 (F := Ideal) m ρ c (Proc.devRef .tc main_arg17) := by host_keeps hostOps7
    _ = W19 (F := Ideal) m ρ c (Proc.devRef .tc main_arg17) := W20_of_ne m ρ c main_arg17 (by decide)
    _ = W18 (F := Ideal) m ρ c (Proc.devRef .tc main_arg17) := by host_keeps hostOps6_2
    _ = W17 (F := Ideal) m ρ c (Proc.devRef .tc main_arg17) := by host_keeps hostOps6_1
    _ = W16 (F := Ideal) m ρ c (Proc.devRef .tc main_arg17) := by host_keeps hostOps6).symm.trans (W22_main_arg17 m ρ c)

/-- No host operation and no region writes `main_arg18`: at boundary 16 it holds what it holds at the end, the launch array. -/
theorem at16_arg18 : W16 (F := Ideal) m ρ c (Proc.devRef .tc main_arg18) = m ((c : Thread nD τ).loc main_arg18) :=
  (calc W22 (F := Ideal) m ρ c (Proc.devRef .tc main_arg18)
    _ = W21 (F := Ideal) m ρ c (Proc.devRef .tc main_arg18) := W22_of_ne m ρ c main_arg18 (by decide)
    _ = W20 (F := Ideal) m ρ c (Proc.devRef .tc main_arg18) := by host_keeps hostOps7
    _ = W19 (F := Ideal) m ρ c (Proc.devRef .tc main_arg18) := W20_of_ne m ρ c main_arg18 (by decide)
    _ = W18 (F := Ideal) m ρ c (Proc.devRef .tc main_arg18) := by host_keeps hostOps6_2
    _ = W17 (F := Ideal) m ρ c (Proc.devRef .tc main_arg18) := by host_keeps hostOps6_1
    _ = W16 (F := Ideal) m ρ c (Proc.devRef .tc main_arg18) := by host_keeps hostOps6).symm.trans (W22_main_arg18 m ρ c)

/-- No host operation and no region writes `main_arg19`: at boundary 16 it holds what it holds at the end, the launch array. -/
theorem at16_arg19 : W16 (F := Ideal) m ρ c (Proc.devRef .tc main_arg19) = m ((c : Thread nD τ).loc main_arg19) :=
  (calc W22 (F := Ideal) m ρ c (Proc.devRef .tc main_arg19)
    _ = W21 (F := Ideal) m ρ c (Proc.devRef .tc main_arg19) := W22_of_ne m ρ c main_arg19 (by decide)
    _ = W20 (F := Ideal) m ρ c (Proc.devRef .tc main_arg19) := by host_keeps hostOps7
    _ = W19 (F := Ideal) m ρ c (Proc.devRef .tc main_arg19) := W20_of_ne m ρ c main_arg19 (by decide)
    _ = W18 (F := Ideal) m ρ c (Proc.devRef .tc main_arg19) := by host_keeps hostOps6_2
    _ = W17 (F := Ideal) m ρ c (Proc.devRef .tc main_arg19) := by host_keeps hostOps6_1
    _ = W16 (F := Ideal) m ρ c (Proc.devRef .tc main_arg19) := by host_keeps hostOps6).symm.trans (W22_main_arg19 m ρ c)

/-- No host operation and no region writes `main_arg20`: at boundary 16 it holds what it holds at the end, the launch array. -/
theorem at16_arg20 : W16 (F := Ideal) m ρ c (Proc.devRef .tc main_arg20) = m ((c : Thread nD τ).loc main_arg20) :=
  (calc W22 (F := Ideal) m ρ c (Proc.devRef .tc main_arg20)
    _ = W21 (F := Ideal) m ρ c (Proc.devRef .tc main_arg20) := W22_of_ne m ρ c main_arg20 (by decide)
    _ = W20 (F := Ideal) m ρ c (Proc.devRef .tc main_arg20) := by host_keeps hostOps7
    _ = W19 (F := Ideal) m ρ c (Proc.devRef .tc main_arg20) := W20_of_ne m ρ c main_arg20 (by decide)
    _ = W18 (F := Ideal) m ρ c (Proc.devRef .tc main_arg20) := by host_keeps hostOps6_2
    _ = W17 (F := Ideal) m ρ c (Proc.devRef .tc main_arg20) := by host_keeps hostOps6_1
    _ = W16 (F := Ideal) m ρ c (Proc.devRef .tc main_arg20) := by host_keeps hostOps6).symm.trans (W22_main_arg20 m ρ c)

/-- The senders' index vector is written once, by the first host stretch, and by nothing after it. -/
theorem at16_v1 : W16 (F := Ideal) m ρ c (Proc.devRef .tc main_v1) = src m ρ c :=
  calc W16 (F := Ideal) m ρ c (Proc.devRef .tc main_v1)
    _ = W15 (F := Ideal) m ρ c (Proc.devRef .tc main_v1) := W16_of_ne m ρ c main_v1 (by decide)
    _ = W14 (F := Ideal) m ρ c (Proc.devRef .tc main_v1) := by host_keeps hostOps5
    _ = W13 (F := Ideal) m ρ c (Proc.devRef .tc main_v1) := W14_of_ne m ρ c main_v1 (by decide)
    _ = W12 (F := Ideal) m ρ c (Proc.devRef .tc main_v1) := by host_keeps hostOps4_2
    _ = W11 (F := Ideal) m ρ c (Proc.devRef .tc main_v1) := by host_keeps hostOps4_1
    _ = W10 (F := Ideal) m ρ c (Proc.devRef .tc main_v1) := by host_keeps hostOps4
    _ = W9 (F := Ideal) m ρ c (Proc.devRef .tc main_v1) := W10_of_ne m ρ c main_v1 (by decide)
    _ = W8 (F := Ideal) m ρ c (Proc.devRef .tc main_v1) := by host_keeps hostOps3
    _ = W7 (F := Ideal) m ρ c (Proc.devRef .tc main_v1) := W8_of_ne m ρ c main_v1 (by decide)
    _ = W6 (F := Ideal) m ρ c (Proc.devRef .tc main_v1) := by host_keeps hostOps2_2
    _ = W5 (F := Ideal) m ρ c (Proc.devRef .tc main_v1) := by host_keeps hostOps2_1
    _ = W4 (F := Ideal) m ρ c (Proc.devRef .tc main_v1) := by host_keeps hostOps2
    _ = W3 (F := Ideal) m ρ c (Proc.devRef .tc main_v1) := W4_of_ne m ρ c main_v1 (by decide)
    _ = W2 (F := Ideal) m ρ c (Proc.devRef .tc main_v1) := by host_keeps hostOps1
    _ = W1 (F := Ideal) m ρ c (Proc.devRef .tc main_v1) := W2_of_ne m ρ c main_v1 (by decide)
    _ = src m ρ c := rfl

/-- The receivers' index vector likewise. -/
theorem at17_v3 : W17 (F := Ideal) m ρ c (Proc.devRef .tc main_v3) = dst m ρ c :=
  calc W17 (F := Ideal) m ρ c (Proc.devRef .tc main_v3)
    _ = W16 (F := Ideal) m ρ c (Proc.devRef .tc main_v3) := by host_keeps hostOps6
    _ = W15 (F := Ideal) m ρ c (Proc.devRef .tc main_v3) := W16_of_ne m ρ c main_v3 (by decide)
    _ = W14 (F := Ideal) m ρ c (Proc.devRef .tc main_v3) := by host_keeps hostOps5
    _ = W13 (F := Ideal) m ρ c (Proc.devRef .tc main_v3) := W14_of_ne m ρ c main_v3 (by decide)
    _ = W12 (F := Ideal) m ρ c (Proc.devRef .tc main_v3) := by host_keeps hostOps4_2
    _ = W11 (F := Ideal) m ρ c (Proc.devRef .tc main_v3) := by host_keeps hostOps4_1
    _ = W10 (F := Ideal) m ρ c (Proc.devRef .tc main_v3) := by host_keeps hostOps4
    _ = W9 (F := Ideal) m ρ c (Proc.devRef .tc main_v3) := W10_of_ne m ρ c main_v3 (by decide)
    _ = W8 (F := Ideal) m ρ c (Proc.devRef .tc main_v3) := by host_keeps hostOps3
    _ = W7 (F := Ideal) m ρ c (Proc.devRef .tc main_v3) := W8_of_ne m ρ c main_v3 (by decide)
    _ = W6 (F := Ideal) m ρ c (Proc.devRef .tc main_v3) := by host_keeps hostOps2_2
    _ = W5 (F := Ideal) m ρ c (Proc.devRef .tc main_v3) := by host_keeps hostOps2_1
    _ = W4 (F := Ideal) m ρ c (Proc.devRef .tc main_v3) := by host_keeps hostOps2
    _ = W3 (F := Ideal) m ρ c (Proc.devRef .tc main_v3) := W4_of_ne m ρ c main_v3 (by decide)
    _ = W2 (F := Ideal) m ρ c (Proc.devRef .tc main_v3) := by host_keeps hostOps1
    _ = W1 (F := Ideal) m ρ c (Proc.devRef .tc main_v3) := W2_of_ne m ρ c main_v3 (by decide)
    _ = dst m ρ c := rfl

/-! The windows. -/

/-- The senders' rows: the first gathering stretch reads the node rows region 5 left and the senders' indices; the two
    stretches after it do not write its result. -/
theorem hs : V19 (F := Ideal) m ρ c main_v96 = TakeK.takeFill (H2 m ρ c) (src m ρ c) :=
  calc V19 (F := Ideal) m ρ c main_v96
    _ = W18 (F := Ideal) m ρ c (Proc.devRef .tc main_v96) := by host_keeps hostOps6_2
    _ = W17 (F := Ideal) m ρ c (Proc.devRef .tc main_v96) := by host_keeps hostOps6_1
    _ = TakeK.takeFill (W16 (F := Ideal) m ρ c (Proc.devRef .tc main_v95)) (W16 (F := Ideal) m ρ c (Proc.devRef .tc main_v1)) :=
        TakeK.take_hostOps6 (W16 (F := Ideal) m ρ c)
    _ = TakeK.takeFill (H2 m ρ c) (src m ρ c) := by rw [at16_v1 m ρ c]; rfl

/-- The receivers' rows: the second gathering stretch reads the same node rows, which the first left alone, and the
    receivers' indices. -/
theorem hd : V19 (F := Ideal) m ρ c main_v97 = TakeK.takeFill (H2 m ρ c) (dst m ρ c) :=
  calc V19 (F := Ideal) m ρ c main_v97
    _ = W18 (F := Ideal) m ρ c (Proc.devRef .tc main_v97) := by host_keeps hostOps6_2
    _ = TakeK.takeFill (W17 (F := Ideal) m ρ c (Proc.devRef .tc main_v95)) (W17 (F := Ideal) m ρ c (Proc.devRef .tc main_v3)) :=
        TakeK.take_hostOps6_1 (W17 (F := Ideal) m ρ c)
    _ = TakeK.takeFill (H2 m ρ c) (dst m ρ c) := by
        have e : W17 (F := Ideal) m ρ c (Proc.devRef .tc main_v95) = H2 m ρ c := by host_keeps hostOps6
        rw [at17_v3 m ρ c, e]

theorem e : V19 (F := Ideal) m ρ c main_v74 = E2 m ρ c :=
  calc V19 (F := Ideal) m ρ c main_v74
    _ = W18 (F := Ideal) m ρ c (Proc.devRef .tc main_v74) := by host_keeps hostOps6_2
    _ = W17 (F := Ideal) m ρ c (Proc.devRef .tc main_v74) := by host_keeps hostOps6_1
    _ = W16 (F := Ideal) m ρ c (Proc.devRef .tc main_v74) := by host_keeps hostOps6
    _ = W15 (F := Ideal) m ρ c (Proc.devRef .tc main_v74) := W16_of_ne m ρ c main_v74 (by decide)
    _ = W14 (F := Ideal) m ρ c (Proc.devRef .tc main_v74) := by host_keeps hostOps5
    _ = E2 m ρ c := rfl

theorem Wa : mat (V19 (F := Ideal) m ρ c main_v100) = band (w3 (m ((c : Thread nD τ).loc main_arg15)) 2) 0 (by omega) := by
  have e : V19 (F := Ideal) m ρ c main_v100 = extractStridedSlice S128x128 ![0, 0] (shapeCast S384x128 (extractStridedSlice S1x384x128 ![2, 0, 0] (m ((c : Thread nD τ).loc main_arg15)) slices_S3x384x128_S1x384x128_2_0_0) shapeCasts_S1x384x128_S384x128) slices_S384x128_S128x128_0_0 := by
    show StableHlo.after hostOps6_2 _ (Proc.devRef .tc main_v100) = _
    after_results
    rw [at16_arg15 m ρ c]
    rfl
  rw [e]
  exact mat_band (m ((c : Thread nD τ).loc main_arg15)) 2 0 (by omega) _ _ _

theorem Wb : mat (V19 (F := Ideal) m ρ c main_v101) = band (w3 (m ((c : Thread nD τ).loc main_arg15)) 2) 128 (by omega) := by
  have e : V19 (F := Ideal) m ρ c main_v101 = extractStridedSlice S128x128 ![128, 0] (shapeCast S384x128 (extractStridedSlice S1x384x128 ![2, 0, 0] (m ((c : Thread nD τ).loc main_arg15)) slices_S3x384x128_S1x384x128_2_0_0) shapeCasts_S1x384x128_S384x128) slices_S384x128_S128x128_128_0 := by
    show StableHlo.after hostOps6_2 _ (Proc.devRef .tc main_v101) = _
    after_results
    rw [at16_arg15 m ρ c]
    rfl
  rw [e]
  exact mat_band (m ((c : Thread nD τ).loc main_arg15)) 2 128 (by omega) _ _ _

theorem Wc : mat (V19 (F := Ideal) m ρ c main_v102) = band (w3 (m ((c : Thread nD τ).loc main_arg15)) 2) 256 (by omega) := by
  have e : V19 (F := Ideal) m ρ c main_v102 = extractStridedSlice S128x128 ![256, 0] (shapeCast S384x128 (extractStridedSlice S1x384x128 ![2, 0, 0] (m ((c : Thread nD τ).loc main_arg15)) slices_S3x384x128_S1x384x128_2_0_0) shapeCasts_S1x384x128_S384x128) slices_S384x128_S128x128_256_0 := by
    show StableHlo.after hostOps6_2 _ (Proc.devRef .tc main_v102) = _
    after_results
    rw [at16_arg15 m ρ c]
    rfl
  rw [e]
  exact mat_band (m ((c : Thread nD τ).loc main_arg15)) 2 256 (by omega) _ _ _

theorem b1 : row1 (V19 (F := Ideal) m ρ c main_v113) = b3 (m ((c : Thread nD τ).loc main_arg16)) 2 := by
  have e : V19 (F := Ideal) m ρ c main_v113 = shapeCast S1x128 (shapeCast S128 (extractStridedSlice S1x128 ![2, 0] (m ((c : Thread nD τ).loc main_arg16)) slices_S3x128_S1x128_2_0) shapeCasts_S1x128_S128) shapeCasts_S128_S1x128 := by
    show StableHlo.after hostOps6_2 _ (Proc.devRef .tc main_v113) = _
    after_results
    rw [at16_arg16 m ρ c]
    rfl
  rw [e]
  exact row1_b3 (m ((c : Thread nD τ).loc main_arg16)) 2 _ _ _

theorem W2 : mat (V19 (F := Ideal) m ρ c main_v106) = w3 (m ((c : Thread nD τ).loc main_arg17)) 2 := by
  have e : V19 (F := Ideal) m ρ c main_v106 = shapeCast S128x128 (extractStridedSlice S1x128x128 ![2, 0, 0] (m ((c : Thread nD τ).loc main_arg17)) slices_S3x128x128_S1x128x128_2_0_0) shapeCasts_S1x128x128_S128x128 := by
    show StableHlo.after hostOps6_2 _ (Proc.devRef .tc main_v106) = _
    after_results
    rw [at16_arg17 m ρ c]
    rfl
  rw [e]
  exact mat_w3 (m ((c : Thread nD τ).loc main_arg17)) 2 _ _

theorem b2 : row1 (V19 (F := Ideal) m ρ c main_v114) = b3 (m ((c : Thread nD τ).loc main_arg18)) 2 := by
  have e : V19 (F := Ideal) m ρ c main_v114 = shapeCast S1x128 (shapeCast S128 (extractStridedSlice S1x128 ![2, 0] (m ((c : Thread nD τ).loc main_arg18)) slices_S3x128_S1x128_2_0) shapeCasts_S1x128_S128) shapeCasts_S128_S1x128 := by
    show StableHlo.after hostOps6_2 _ (Proc.devRef .tc main_v114) = _
    after_results
    rw [at16_arg18 m ρ c]
    rfl
  rw [e]
  exact row1_b3 (m ((c : Thread nD τ).loc main_arg18)) 2 _ _ _

theorem W3 : mat (V19 (F := Ideal) m ρ c main_v110) = w3 (m ((c : Thread nD τ).loc main_arg19)) 2 := by
  have e : V19 (F := Ideal) m ρ c main_v110 = shapeCast S128x128 (extractStridedSlice S1x128x128 ![2, 0, 0] (m ((c : Thread nD τ).loc main_arg19)) slices_S3x128x128_S1x128x128_2_0_0) shapeCasts_S1x128x128_S128x128 := by
    show StableHlo.after hostOps6_2 _ (Proc.devRef .tc main_v110) = _
    after_results
    rw [at16_arg19 m ρ c]
    rfl
  rw [e]
  exact mat_w3 (m ((c : Thread nD τ).loc main_arg19)) 2 _ _

theorem b3 : row1 (V19 (F := Ideal) m ρ c main_v115) = b3 (m ((c : Thread nD τ).loc main_arg20)) 2 := by
  have e : V19 (F := Ideal) m ρ c main_v115 = shapeCast S1x128 (shapeCast S128 (extractStridedSlice S1x128 ![2, 0] (m ((c : Thread nD τ).loc main_arg20)) slices_S3x128_S1x128_2_0) shapeCasts_S1x128_S128) shapeCasts_S128_S1x128 := by
    show StableHlo.after hostOps6_2 _ (Proc.devRef .tc main_v115) = _
    after_results
    rw [at16_arg20 m ρ c]
    rfl
  rw [e]
  exact row1_b3 (m ((c : Thread nD τ).loc main_arg20)) 2 _ _ _

end Cert.KernelIdeal.In6

end
-- ==== Proof.KVal7.lean ====
/-
  The value of the last region: the node update fused with the decoder.

  Over the extended reals the body of the region is, row by row, the node's feature row plus the three-layer
  network of that row and its aggregated messages, sent through the three layers of the decoder. The first
  part reads the body at a row and a column; the second part goes from the ten blocks the region writes back
  to the whole output array.
-/
import proofs.«425516_j47425028883052_2_alg».proof.Proof.Gen.KernelIdeal.Frame
import proofs.«425516_j47425028883052_2_alg».proof.Proof.Net
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Val

open Idealize.ShloMosaic Idealize.ShloMosaic.TcCoe Idealize.ShloMosaic.ValueIdx Idealize.SL.Sem Idealize.ShloMosaic.Pipeline Cert.KernelIdeal Cert.KernelIdeal.Gen Cert.Spec Cert.Net

/-! ## The body's operations read at a row and a column

A product of a block of 5000 rows with a weight matrix, into the zero accumulator, is at row `p` and column `q`
the contraction of row `p` with column `q`; a bias row laid over the block reads the bias at the column; the
rectified linear unit is the maximum with zero. -/

theorem mm7H_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem mm7H_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem mm7H_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem mm7H_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

theorem mm7O_lhs_0 (i : S5000x2.Idx) (q : dot_S5000x128_S128x2_S5000x2_1_0_0_1_n_n.contr.Idx) :
    (dot_S5000x128_S128x2_S5000x2_1_0_0_1_n_n.lhsIdx i q 0).val = (i 0).val := by
  unfold DotDims.lhsIdx
  rw [dif_neg (show ¬(0 : Fin S5000x128.rank) ∈ dot_S5000x128_S128x2_S5000x2_1_0_0_1_n_n.lhsBatch by decide), dif_pos (show (0 : Fin S5000x128.rank) ∈ dot_S5000x128_S128x2_S5000x2_1_0_0_1_n_n.lhsNonContracting by decide)]
  rfl
theorem mm7O_lhs_1 (i : S5000x2.Idx) (q : dot_S5000x128_S128x2_S5000x2_1_0_0_1_n_n.contr.Idx) :
    (dot_S5000x128_S128x2_S5000x2_1_0_0_1_n_n.lhsIdx i q 1).val = (q ⟨0, by decide⟩).val :=
  dot_S5000x128_S128x2_S5000x2_1_0_0_1_n_n.lhsIdx_val_of_single rfl i q
theorem mm7O_rhs_0 (i : S5000x2.Idx) (q : dot_S5000x128_S128x2_S5000x2_1_0_0_1_n_n.contr.Idx) :
    (dot_S5000x128_S128x2_S5000x2_1_0_0_1_n_n.rhsIdx i q 0).val = (q ⟨0, by decide⟩).val :=
  dot_S5000x128_S128x2_S5000x2_1_0_0_1_n_n.rhsIdx_val_of_single rfl i q
theorem mm7O_rhs_1 (i : S5000x2.Idx) (q : dot_S5000x128_S128x2_S5000x2_1_0_0_1_n_n.contr.Idx) :
    (dot_S5000x128_S128x2_S5000x2_1_0_0_1_n_n.rhsIdx i q 1).val = (i 1).val := by
  unfold DotDims.rhsIdx
  rw [dif_neg (show ¬(1 : Fin S128x2.rank) ∈ dot_S5000x128_S128x2_S5000x2_1_0_0_1_n_n.rhsBatch by decide), dif_pos (show (1 : Fin S128x2.rank) ∈ dot_S5000x128_S128x2_S5000x2_1_0_0_1_n_n.rhsNonContracting by decide)]
  rfl

/-- The product with a 128 × 128 weight matrix at row `p`, column `q`: the contraction over the 128 shared entries. -/
theorem mm7H_apply {φ₁ φ₂ : FTy} (x : FVec Ideal S5000x128 φ₁) (W : FVec Ideal S128x128 φ₂) (p : Fin 5000) (q : Fin 128) :
    matmul dot_S5000x128_S128x128_S5000x128_1_0_0_1_n_n none x W (constant (F := Ideal) S5000x128 .f32 0x00000000#32) (ix2 p q)
      = ∑ k : Fin 128, x (ix2 p k) * W (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact mm7H_lhs_0 _ _
    | ⟨1, _⟩ => exact (mm7H_lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (mm7H_rhs_0 _ _).trans hk
    | ⟨1, _⟩ => exact mm7H_rhs_1 _ _)
  rw [el, er]

/-- The product with the 128 × 2 weight matrix of the last layer at row `p`, column `q`. -/
theorem mm7O_apply {φ₁ φ₂ : FTy} (x : FVec Ideal S5000x128 φ₁) (W : FVec Ideal S128x2 φ₂) (p : Fin 5000) (q : Fin 2) :
    matmul dot_S5000x128_S128x2_S5000x2_1_0_0_1_n_n none x W (constant (F := Ideal) S5000x2 .f32 0x00000000#32) (ix2 p q)
      = ∑ k : Fin 128, x (ix2 p k) * W (ix2 k q) := by
  simp only [matmul]
  rw [Ideal.matmul_constant_zero_apply, ← Equiv.sum_comp (contrEquiv1 dot_S5000x128_S128x2_S5000x2_1_0_0_1_n_n 128 rfl rfl).symm]
  refine Finset.sum_congr rfl fun k _ => ?_
  have hk := contrEquiv1_symm_val dot_S5000x128_S128x2_S5000x2_1_0_0_1_n_n 128 rfl rfl k
  have el : dot_S5000x128_S128x2_S5000x2_1_0_0_1_n_n.lhsIdx (ix2 p q) ((contrEquiv1 dot_S5000x128_S128x2_S5000x2_1_0_0_1_n_n 128 rfl rfl).symm k) = ix2 p k := funext fun a => Fin.ext (by
    match a with
    | ⟨0, _⟩ => exact mm7O_lhs_0 _ _
    | ⟨1, _⟩ => exact (mm7O_lhs_1 _ _).trans hk)
  have er : dot_S5000x128_S128x2_S5000x2_1_0_0_1_n_n.rhsIdx (ix2 p q) ((contrEquiv1 dot_S5000x128_S128x2_S5000x2_1_0_0_1_n_n 128 rfl rfl).symm k) = ix2 k q := funext fun a => Fin.ext (by
    match a with
    | ⟨0, _⟩ => exact (mm7O_rhs_0 _ _).trans hk
    | ⟨1, _⟩ => exact mm7O_rhs_1 _ _)
  rw [el, er]

/-- A 1 × 128 bias row laid over a block of 5000 rows reads the bias at the column. -/
theorem bias7H_apply {α : Type} (b : S1x128.Idx → α) (p : Fin 5000) (q : Fin 128) :
    broadcastTo S5000x128 b broadcasts_S1x128_S5000x128 (ix2 p q) = b (ix2 0 q) :=
  broadcastTo_apply b broadcasts_S1x128_S5000x128 (ix2 p q) (ix2 0 q) (fun a => match a with
    | ⟨0, _⟩ => by show 0 = if (1 : Nat) = 1 then 0 else p.val; rw [if_pos rfl]
    | ⟨1, _⟩ => by show q.val = if (128 : Nat) = 1 then 0 else q.val; rw [if_neg (by decide)])

/-- A 1 × 2 bias row laid over a block of 5000 rows reads the bias at the column. -/
theorem bias7O_apply {α : Type} (b : S1x2.Idx → α) (p : Fin 5000) (q : Fin 2) :
    broadcastTo S5000x2 b broadcasts_S1x2_S5000x2 (ix2 p q) = b (ix2 0 q) :=
  broadcastTo_apply b broadcasts_S1x2_S5000x2 (ix2 p q) (ix2 0 q) (fun a => match a with
    | ⟨0, _⟩ => by show 0 = if (1 : Nat) = 1 then 0 else p.val; rw [if_pos rfl]
    | ⟨1, _⟩ => by show q.val = if (2 : Nat) = 1 then 0 else q.val; rw [if_neg (by decide)])

/-- The maximum with the zero splat is the maximum with zero. -/
theorem relu7_apply (y : FVec Ideal S5000x128 .f32) (i : S5000x128.Idx) :
    maximumf y (broadcast S5000x128 (Scalar.ofBits (F := Ideal) .f32 0x00000000#32)) i = max (y i) 0 := by
  show max (y i) (Ideal.ofBits .f32 0x00000000#32) = _
  rw [Ideal.ofBits_zero_f32]

/-! ## The body at a row and a column

The body adds to the node's row the three-layer network of the row and its aggregated messages (the first layer as
two products, one per operand), and sends the sum through the three layers of the decoder. -/

theorem pay7_apply (h agg : Vec Ideal S5000x128 .f32) (Wa Wb : Vec Ideal S128x128 .f32) (b1 : Vec Ideal S1x128 .f32) (W2 : Vec Ideal S128x128 .f32) (b2 : Vec Ideal S1x128 .f32) (W3 : Vec Ideal S128x128 .f32) (b3 : Vec Ideal S1x128 .f32) (D1 : Vec Ideal S128x128 .f32) (d1 : Vec Ideal S1x128 .f32) (D2 : Vec Ideal S128x128 .f32) (d2 : Vec Ideal S1x128 .f32) (D3 : Vec Ideal S128x2 .f32) (d3 : Vec Ideal S1x2 .f32) (p : Fin 5000) (q : Fin 2) :
    k7_pay1 (F := Ideal) (k7_pay2 h) (k7_pay3 h agg Wa Wb b1 W2 b2 W3) b3 D1 d1 D2 d2 D3 d3 (ix2 p q)
      = mlp3 (mat D1) (row1 d1) (mat D2) (row1 d2) (mat D3) (row1 d3) (nodeRow (mat Wa) (mat Wb) (row1 b1) (mat W2) (row1 b2) (mat W3) (row1 b3) (rowAt h p) (rowAt agg p)) q := by
  unfold k7_pay1 k7_pay3 k7_pay2
  simp only [shapeCast_self]
  simp only [addf_apply, mm7O_apply, mm7H_apply, bias7O_apply, bias7H_apply, relu7_apply, truncf_apply]
  rfl

/-! ## From the blocks to the array

The grid has ten points. At point `t` the two row-tiled inputs and the output stage rows `5000 t … 5000 t + 4999`
of their arrays; every weight and bias window stages its whole array at every point. So what point `t` writes back
is block `t` of one function of the region's input arrays, and the ten blocks tile the output array. -/

section Arr

variable (V : (c : Dev nD) → (b : Ref sig .tc) → Buf (Elt Ideal) ((c : Thread nD τ).loc b))

theorem hz7 : (![0, 0] : Fin 2 → Nat) = fun _ => 0 := funext fun a => by
  match a with
  | ⟨0, _⟩ => rfl
  | ⟨1, _⟩ => rfl

/-- The row-tiled windows' block index at point `t` is `(t, 0)`. -/
theorem idx7_0 : ∀ t : Fin cfg7.N, win7_0.index t (0 : Fin 2) = t.val ∧ win7_0.index t (1 : Fin 2) = 0 :=
  (by decide +kernel : ∀ t : Fin grid7.N, _)
theorem idx7_1 : ∀ t : Fin cfg7.N, win7_1.index t (0 : Fin 2) = t.val ∧ win7_1.index t (1 : Fin 2) = 0 :=
  (by decide +kernel : ∀ t : Fin grid7.N, _)
theorem idx7_15 : ∀ t : Fin cfg7.N, win7_15.index t (0 : Fin 2) = t.val ∧ win7_15.index t (1 : Fin 2) = 0 :=
  (by decide +kernel : ∀ t : Fin grid7.N, _)

/-! The weight and bias windows: the block index is `(0, 0)` at every point, and the block is the whole array. -/

theorem idx7_2 : ∀ t : Fin cfg7.N, win7_2.index t (0 : Fin 2) = 0 ∧ win7_2.index t (1 : Fin 2) = 0 :=
  (by decide +kernel : ∀ t : Fin grid7.N, _)

theorem blk7_2 (c : Dev nD) (t : Fin cfg7.N) : (iblk7 V c 2 t : Vec Ideal S128x128 .f32) = V c main_v122 := by
  obtain ⟨e0, e1⟩ := idx7_2 t
  funext y
  show V c main_v122 (((cfg7.win 2).blk t).view.emb y) = V c main_v122 y
  refine congrArg _ (funext fun a => Fin.ext ?_)
  match a with
  | ⟨0, _⟩ => show win7_2.index t (0 : Fin 2) * 128 + 1 * (y 0).val = (y 0).val; omega
  | ⟨1, _⟩ => show win7_2.index t (1 : Fin 2) * 128 + 1 * (y 1).val = (y 1).val; omega

theorem idx7_3 : ∀ t : Fin cfg7.N, win7_3.index t (0 : Fin 2) = 0 ∧ win7_3.index t (1 : Fin 2) = 0 :=
  (by decide +kernel : ∀ t : Fin grid7.N, _)

theorem blk7_3 (c : Dev nD) (t : Fin cfg7.N) : (iblk7 V c 3 t : Vec Ideal S128x128 .f32) = V c main_v123 := by
  obtain ⟨e0, e1⟩ := idx7_3 t
  funext y
  show V c main_v123 (((cfg7.win 3).blk t).view.emb y) = V c main_v123 y
  refine congrArg _ (funext fun a => Fin.ext ?_)
  match a with
  | ⟨0, _⟩ => show win7_3.index t (0 : Fin 2) * 128 + 1 * (y 0).val = (y 0).val; omega
  | ⟨1, _⟩ => show win7_3.index t (1 : Fin 2) * 128 + 1 * (y 1).val = (y 1).val; omega

theorem idx7_4 : ∀ t : Fin cfg7.N, win7_4.index t (0 : Fin 2) = 0 ∧ win7_4.index t (1 : Fin 2) = 0 :=
  (by decide +kernel : ∀ t : Fin grid7.N, _)

theorem blk7_4 (c : Dev nD) (t : Fin cfg7.N) : (iblk7 V c 4 t : Vec Ideal S1x128 .f32) = V c main_v134 := by
  obtain ⟨e0, e1⟩ := idx7_4 t
  funext y
  show V c main_v134 (((cfg7.win 4).blk t).view.emb y) = V c main_v134 y
  refine congrArg _ (funext fun a => Fin.ext ?_)
  match a with
  | ⟨0, _⟩ => show win7_4.index t (0 : Fin 2) * 1 + 1 * (y 0).val = (y 0).val; omega
  | ⟨1, _⟩ => show win7_4.index t (1 : Fin 2) * 128 + 1 * (y 1).val = (y 1).val; omega

theorem idx7_5 : ∀ t : Fin cfg7.N, win7_5.index t (0 : Fin 2) = 0 ∧ win7_5.index t (1 : Fin 2) = 0 :=
  (by decide +kernel : ∀ t : Fin grid7.N, _)

theorem blk7_5 (c : Dev nD) (t : Fin cfg7.N) : (iblk7 V c 5 t : Vec Ideal S128x128 .f32) = V c main_v127 := by
  obtain ⟨e0, e1⟩ := idx7_5 t
  funext y
  show V c main_v127 (((cfg7.win 5).blk t).view.emb y) = V c main_v127 y
  refine congrArg _ (funext fun a => Fin.ext ?_)
  match a with
  | ⟨0, _⟩ => show win7_5.index t (0 : Fin 2) * 128 + 1 * (y 0).val = (y 0).val; omega
  | ⟨1, _⟩ => show win7_5.index t (1 : Fin 2) * 128 + 1 * (y 1).val = (y 1).val; omega

theorem idx7_6 : ∀ t : Fin cfg7.N, win7_6.index t (0 : Fin 2) = 0 ∧ win7_6.index t (1 : Fin 2) = 0 :=
  (by decide +kernel : ∀ t : Fin grid7.N, _)

theorem blk7_6 (c : Dev nD) (t : Fin cfg7.N) : (iblk7 V c 6 t : Vec Ideal S1x128 .f32) = V c main_v135 := by
  obtain ⟨e0, e1⟩ := idx7_6 t
  funext y
  show V c main_v135 (((cfg7.win 6).blk t).view.emb y) = V c main_v135 y
  refine congrArg _ (funext fun a => Fin.ext ?_)
  match a with
  | ⟨0, _⟩ => show win7_6.index t (0 : Fin 2) * 1 + 1 * (y 0).val = (y 0).val; omega
  | ⟨1, _⟩ => show win7_6.index t (1 : Fin 2) * 128 + 1 * (y 1).val = (y 1).val; omega

theorem idx7_7 : ∀ t : Fin cfg7.N, win7_7.index t (0 : Fin 2) = 0 ∧ win7_7.index t (1 : Fin 2) = 0 :=
  (by decide +kernel : ∀ t : Fin grid7.N, _)

theorem blk7_7 (c : Dev nD) (t : Fin cfg7.N) : (iblk7 V c 7 t : Vec Ideal S128x128 .f32) = V c main_v131 := by
  obtain ⟨e0, e1⟩ := idx7_7 t
  funext y
  show V c main_v131 (((cfg7.win 7).blk t).view.emb y) = V c main_v131 y
  refine congrArg _ (funext fun a => Fin.ext ?_)
  match a with
  | ⟨0, _⟩ => show win7_7.index t (0 : Fin 2) * 128 + 1 * (y 0).val = (y 0).val; omega
  | ⟨1, _⟩ => show win7_7.index t (1 : Fin 2) * 128 + 1 * (y 1).val = (y 1).val; omega

theorem idx7_8 : ∀ t : Fin cfg7.N, win7_8.index t (0 : Fin 2) = 0 ∧ win7_8.index t (1 : Fin 2) = 0 :=
  (by decide +kernel : ∀ t : Fin grid7.N, _)

theorem blk7_8 (c : Dev nD) (t : Fin cfg7.N) : (iblk7 V c 8 t : Vec Ideal S1x128 .f32) = V c main_v136 := by
  obtain ⟨e0, e1⟩ := idx7_8 t
  funext y
  show V c main_v136 (((cfg7.win 8).blk t).view.emb y) = V c main_v136 y
  refine congrArg _ (funext fun a => Fin.ext ?_)
  match a with
  | ⟨0, _⟩ => show win7_8.index t (0 : Fin 2) * 1 + 1 * (y 0).val = (y 0).val; omega
  | ⟨1, _⟩ => show win7_8.index t (1 : Fin 2) * 128 + 1 * (y 1).val = (y 1).val; omega

theorem idx7_9 : ∀ t : Fin cfg7.N, win7_9.index t (0 : Fin 2) = 0 ∧ win7_9.index t (1 : Fin 2) = 0 :=
  (by decide +kernel : ∀ t : Fin grid7.N, _)

theorem blk7_9 (c : Dev nD) (t : Fin cfg7.N) : (iblk7 V c 9 t : Vec Ideal S128x128 .f32) = V c main_arg27 := by
  obtain ⟨e0, e1⟩ := idx7_9 t
  funext y
  show V c main_arg27 (((cfg7.win 9).blk t).view.emb y) = V c main_arg27 y
  refine congrArg _ (funext fun a => Fin.ext ?_)
  match a with
  | ⟨0, _⟩ => show win7_9.index t (0 : Fin 2) * 128 + 1 * (y 0).val = (y 0).val; omega
  | ⟨1, _⟩ => show win7_9.index t (1 : Fin 2) * 128 + 1 * (y 1).val = (y 1).val; omega

theorem idx7_10 : ∀ t : Fin cfg7.N, win7_10.index t (0 : Fin 2) = 0 ∧ win7_10.index t (1 : Fin 2) = 0 :=
  (by decide +kernel : ∀ t : Fin grid7.N, _)

theorem blk7_10 (c : Dev nD) (t : Fin cfg7.N) : (iblk7 V c 10 t : Vec Ideal S1x128 .f32) = V c main_v137 := by
  obtain ⟨e0, e1⟩ := idx7_10 t
  funext y
  show V c main_v137 (((cfg7.win 10).blk t).view.emb y) = V c main_v137 y
  refine congrArg _ (funext fun a => Fin.ext ?_)
  match a with
  | ⟨0, _⟩ => show win7_10.index t (0 : Fin 2) * 1 + 1 * (y 0).val = (y 0).val; omega
  | ⟨1, _⟩ => show win7_10.index t (1 : Fin 2) * 128 + 1 * (y 1).val = (y 1).val; omega

theorem idx7_11 : ∀ t : Fin cfg7.N, win7_11.index t (0 : Fin 2) = 0 ∧ win7_11.index t (1 : Fin 2) = 0 :=
  (by decide +kernel : ∀ t : Fin grid7.N, _)

theorem blk7_11 (c : Dev nD) (t : Fin cfg7.N) : (iblk7 V c 11 t : Vec Ideal S128x128 .f32) = V c main_arg29 := by
  obtain ⟨e0, e1⟩ := idx7_11 t
  funext y
  show V c main_arg29 (((cfg7.win 11).blk t).view.emb y) = V c main_arg29 y
  refine congrArg _ (funext fun a => Fin.ext ?_)
  match a with
  | ⟨0, _⟩ => show win7_11.index t (0 : Fin 2) * 128 + 1 * (y 0).val = (y 0).val; omega
  | ⟨1, _⟩ => show win7_11.index t (1 : Fin 2) * 128 + 1 * (y 1).val = (y 1).val; omega

theorem idx7_12 : ∀ t : Fin cfg7.N, win7_12.index t (0 : Fin 2) = 0 ∧ win7_12.index t (1 : Fin 2) = 0 :=
  (by decide +kernel : ∀ t : Fin grid7.N, _)

theorem blk7_12 (c : Dev nD) (t : Fin cfg7.N) : (iblk7 V c 12 t : Vec Ideal S1x128 .f32) = V c main_v138 := by
  obtain ⟨e0, e1⟩ := idx7_12 t
  funext y
  show V c main_v138 (((cfg7.win 12).blk t).view.emb y) = V c main_v138 y
  refine congrArg _ (funext fun a => Fin.ext ?_)
  match a with
  | ⟨0, _⟩ => show win7_12.index t (0 : Fin 2) * 1 + 1 * (y 0).val = (y 0).val; omega
  | ⟨1, _⟩ => show win7_12.index t (1 : Fin 2) * 128 + 1 * (y 1).val = (y 1).val; omega

theorem idx7_13 : ∀ t : Fin cfg7.N, win7_13.index t (0 : Fin 2) = 0 ∧ win7_13.index t (1 : Fin 2) = 0 :=
  (by decide +kernel : ∀ t : Fin grid7.N, _)

theorem blk7_13 (c : Dev nD) (t : Fin cfg7.N) : (iblk7 V c 13 t : Vec Ideal S128x2 .f32) = V c main_arg31 := by
  obtain ⟨e0, e1⟩ := idx7_13 t
  funext y
  show V c main_arg31 (((cfg7.win 13).blk t).view.emb y) = V c main_arg31 y
  refine congrArg _ (funext fun a => Fin.ext ?_)
  match a with
  | ⟨0, _⟩ => show win7_13.index t (0 : Fin 2) * 128 + 1 * (y 0).val = (y 0).val; omega
  | ⟨1, _⟩ => show win7_13.index t (1 : Fin 2) * 2 + 1 * (y 1).val = (y 1).val; omega

theorem idx7_14 : ∀ t : Fin cfg7.N, win7_14.index t (0 : Fin 2) = 0 ∧ win7_14.index t (1 : Fin 2) = 0 :=
  (by decide +kernel : ∀ t : Fin grid7.N, _)

theorem blk7_14 (c : Dev nD) (t : Fin cfg7.N) : (iblk7 V c 14 t : Vec Ideal S1x2 .f32) = V c main_v139 := by
  obtain ⟨e0, e1⟩ := idx7_14 t
  funext y
  show V c main_v139 (((cfg7.win 14).blk t).view.emb y) = V c main_v139 y
  refine congrArg _ (funext fun a => Fin.ext ?_)
  match a with
  | ⟨0, _⟩ => show win7_14.index t (0 : Fin 2) * 1 + 1 * (y 0).val = (y 0).val; omega
  | ⟨1, _⟩ => show win7_14.index t (1 : Fin 2) * 2 + 1 * (y 1).val = (y 1).val; omega

/-! The row-tiled inputs: row `p` of block `t` is row `5000 t + p` of the array. -/

theorem row7_0 (c : Dev nD) (t : Fin cfg7.N) (p : Fin 5000) (hr : t.val * 5000 + p.val < 50000) :
    rowAt (iblk7 V c 0 t : Vec Ideal S5000x128 .f32) p = rowAt (V c main_v95) ⟨t.val * 5000 + p.val, hr⟩ := by
  obtain ⟨e0, e1⟩ := idx7_0 t
  funext k
  show V c main_v95 (((cfg7.win 0).blk t).view.emb (ix2 p k)) = V c main_v95 (ix2 ⟨t.val * 5000 + p.val, hr⟩ k)
  refine congrArg _ (funext fun a => Fin.ext ?_)
  match a with
  | ⟨0, _⟩ => show win7_0.index t (0 : Fin 2) * 5000 + 1 * p.val = t.val * 5000 + p.val; omega
  | ⟨1, _⟩ => show win7_0.index t (1 : Fin 2) * 128 + 1 * k.val = k.val; omega

theorem row7_1 (c : Dev nD) (t : Fin cfg7.N) (p : Fin 5000) (hr : t.val * 5000 + p.val < 50000) :
    rowAt (iblk7 V c 1 t : Vec Ideal S5000x128 .f32) p = rowAt (V c main_v119) ⟨t.val * 5000 + p.val, hr⟩ := by
  obtain ⟨e0, e1⟩ := idx7_1 t
  funext k
  show V c main_v119 (((cfg7.win 1).blk t).view.emb (ix2 p k)) = V c main_v119 (ix2 ⟨t.val * 5000 + p.val, hr⟩ k)
  refine congrArg _ (funext fun a => Fin.ext ?_)
  match a with
  | ⟨0, _⟩ => show win7_1.index t (0 : Fin 2) * 5000 + 1 * p.val = t.val * 5000 + p.val; omega
  | ⟨1, _⟩ => show win7_1.index t (1 : Fin 2) * 128 + 1 * k.val = k.val; omega

/-- The body's value at point `t`, row `p`, column `q` is the network's value at row `5000 t + p`, column `q`. -/
theorem point7 (c : Dev nD) (t : Fin cfg7.N) (p : Fin 5000) (q : Fin 2) (hr : t.val * 5000 + p.val < 50000) :
    k7_pay1 (F := Ideal) (k7_pay2 (iblk7 V c 0 t)) (k7_pay3 (iblk7 V c 0 t) (iblk7 V c 1 t) (iblk7 V c 2 t) (iblk7 V c 3 t) (iblk7 V c 4 t) (iblk7 V c 5 t) (iblk7 V c 6 t) (iblk7 V c 7 t)) (iblk7 V c 8 t) (iblk7 V c 9 t) (iblk7 V c 10 t) (iblk7 V c 11 t) (iblk7 V c 12 t) (iblk7 V c 13 t) (iblk7 V c 14 t) (ix2 p q)
      = (Net.encode (mat (V c main_arg27)) (row1 (V c main_v137)) (mat (V c main_arg29)) (row1 (V c main_v138)) (mat (V c main_arg31)) (row1 (V c main_v139)) (Net.nodeStep (mat (V c main_v122)) (mat (V c main_v123)) (row1 (V c main_v134)) (mat (V c main_v127)) (row1 (V c main_v135)) (mat (V c main_v131)) (row1 (V c main_v136)) (V c main_v95) (V c main_v119))) (ix2 ⟨t.val * 5000 + p.val, hr⟩ q) := by
  rw [pay7_apply, row7_0 V c t p hr, row7_1 V c t p hr, blk7_2 V c t, blk7_3 V c t, blk7_4 V c t, blk7_5 V c t, blk7_6 V c t, blk7_7 V c t, blk7_8 V c t, blk7_9 V c t, blk7_10 V c t, blk7_11 V c t, blk7_12 V c t, blk7_13 V c t, blk7_14 V c t]
  rfl

/-- What point `t` writes back is block `t` of the network's value on the region's input arrays. -/
theorem flushed7 (c : Dev nD) (t : Fin cfg7.N) :
    (dat7 (F := Ideal) V c).flushed 15 t = ((cfg7.win 15).blk t).view.read (Elt Ideal) (Net.encode (mat (V c main_arg27)) (row1 (V c main_v137)) (mat (V c main_arg29)) (row1 (V c main_v138)) (mat (V c main_arg31)) (row1 (V c main_v139)) (Net.nodeStep (mat (V c main_v122)) (mat (V c main_v123)) (row1 (V c main_v134)) (mat (V c main_v127)) (row1 (V c main_v135)) (mat (V c main_v131)) (row1 (V c main_v136)) (V c main_v95) (V c main_v119))) := by
  show (cfg7.win 15).cut (grid7.coords t) ((dat7 V c).after 15 t) = _
  rw [after7_15]
  unfold out7_15
  rw [View.canon_unit_zero hz7]
  simp only [View.ld_unit_zero (S := S5000x128) hz7, View.ld_unit_zero (S := S128x128) hz7, View.ld_unit_zero (S := S1x128) hz7, View.ld_unit_zero (S := S128x2) hz7, View.ld_unit_zero (S := S1x2) hz7]
  refine funext fun (j : S5000x2.Idx) => ?_
  obtain ⟨p, q, rfl⟩ : ∃ (p : Fin 5000) (q : Fin 2), j = ix2 p q := ⟨j 0, j 1, eq_ix2 j⟩
  have ht : t.val < 10 := Nat.lt_of_lt_of_eq t.isLt (show cfg7.N = 10 from N_7)
  have hr : t.val * 5000 + p.val < 50000 := by have := p.isLt; omega
  obtain ⟨e0, e1⟩ := idx7_15 t
  have he : ((cfg7.win 15).blk t).view.emb (ix2 p q) = ix2 ⟨t.val * 5000 + p.val, hr⟩ q := by
    refine funext fun a => Fin.ext ?_
    match a with
    | ⟨0, _⟩ => show win7_15.index t (0 : Fin 2) * 5000 + 1 * p.val = t.val * 5000 + p.val; omega
    | ⟨1, _⟩ => show win7_15.index t (1 : Fin 2) * 2 + 1 * q.val = q.val; omega
  exact (point7 V c t p q hr).trans (congrArg (Net.encode (mat (V c main_arg27)) (row1 (V c main_v137)) (mat (V c main_arg29)) (row1 (V c main_v138)) (mat (V c main_arg31)) (row1 (V c main_v139)) (Net.nodeStep (mat (V c main_v122)) (mat (V c main_v123)) (row1 (V c main_v134)) (mat (V c main_v127)) (row1 (V c main_v135)) (mat (V c main_v131)) (row1 (V c main_v136)) (V c main_v95) (V c main_v119))) he.symm)

/-- An index of the output array is in point `t`'s block iff each coordinate is in the block's range on its axis. -/
theorem mem_blk7 (t : Fin cfg7.N) (i : S50000x2.Idx) :
    i ∈ ((cfg7.win 15).blk t).view.set ↔ ∀ a : Fin 2, win7_15.index t a * S5000x2.size a ≤ (i a).val ∧ (i a).val < win7_15.index t a * S5000x2.size a + S5000x2.size a := by
  show i ∈ ((View.whole main_v140).slice (win7_15.rect t)).set ↔ _
  rw [View.set_slice_whole, Rect.mem_set_unit]
  exact Iff.rfl

/-- Row `r` of the output array is in the block of point `r / 5000`. -/
theorem cover7 (i : S50000x2.Idx) : ∃ t : Fin cfg7.N, (cfg7.win 15).flush t = true ∧ i ∈ ((cfg7.win 15).blk t).view.set := by
  have hi0 : (i 0).val < 50000 := (i 0).isLt
  have hi1 : (i 1).val < 2 := (i 1).isLt
  obtain ⟨t, ht⟩ : ∃ t : Fin cfg7.N, t.val = (i 0).val / 5000 :=
    ⟨⟨(i 0).val / 5000, by rw [show cfg7.N = 10 from N_7]; omega⟩, rfl⟩
  obtain ⟨e0, e1⟩ := idx7_15 t
  refine ⟨t, flush7_15 t, ?_⟩
  rw [mem_blk7]
  intro a
  match a with
  | ⟨0, _⟩ => show win7_15.index t (0 : Fin 2) * 5000 ≤ (i 0).val ∧ (i 0).val < win7_15.index t (0 : Fin 2) * 5000 + 5000; omega
  | ⟨1, _⟩ => show win7_15.index t (1 : Fin 2) * 2 ≤ (i 1).val ∧ (i 1).val < win7_15.index t (1 : Fin 2) * 2 + 2; omega

/-- The output array after the region: the decoder's three layers on the node update of the region's input arrays. -/
theorem arr7 (c : Dev nD) :
    (dat7 (F := Ideal) V c).arrAt 15 cfg7.N = Net.encode (mat (V c main_arg27)) (row1 (V c main_v137)) (mat (V c main_arg29)) (row1 (V c main_v138)) (mat (V c main_arg31)) (row1 (V c main_v139)) (Net.nodeStep (mat (V c main_v122)) (mat (V c main_v123)) (row1 (V c main_v134)) (mat (V c main_v127)) (row1 (V c main_v135)) (mat (V c main_v131)) (row1 (V c main_v136)) (V c main_v95) (V c main_v119)) :=
  (dat7 V c).arrAt_eq_of_cover 15 _ (fun t _ => flushed7 V c t) cover7

end Arr

end Cert.KernelIdeal.Val

end
-- ==== Proof.KIn7.lean ====
/-
  What region 7's input windows hold when the region is entered: each array the region stages, read back through the
  host operations and the earlier regions to the launch arrays and the earlier stages' results. No operation between
  a buffer's writer and this region overwrites it, so a buffer holds what its writer left; a slice of a stacked weight
  array is that array at the slice's indices, and a reshaped bias row is the bias row.
-/
import proofs.«425516_j47425028883052_2_alg».proof.Proof.KDefs
import Idealize.ShloMosaic.Lib.ValueLayout
import Idealize.ShloMosaic.Lib.Pipeline.Value
import Idealize.ShloMosaic.Lib.StableHlo.Run

set_option maxRecDepth 16384

noncomputable section

namespace Cert.KernelIdeal.In7

open Idealize.ShloMosaic Idealize.ShloMosaic.TcCoe Idealize.ShloMosaic.ValueIdx Idealize.SL.Sem Cert.KernelIdeal Cert.KernelIdeal.Gen Cert.Spec Cert.Net Cert.KernelIdeal.K

variable (m : (ℓ : Loc nD τ sig) → Buf (Elt Ideal) ℓ) (ρ : Dev nD → PrngReg) (c : Dev nD)

/-- A buffer that no operation of a host stretch writes holds after the stretch what it held before it. -/
local macro "host_keeps " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! ## Slices of the stacked weights and biases, read at an index -/

/-- Rows `s … s + 127` of slice `2` of a stack of three 256 × 128 matrices. -/
theorem band_of_slice256 (x : FVec Ideal S3x256x128 .f32) (h1 : S3x256x128.Slices ![2, 0, 0] S1x256x128)
    (h2 : S1x256x128.ShapeCasts S256x128) (s : ℕ) (hs : s + 128 ≤ 256) (h3 : S256x128.Slices ![s, 0] S128x128) :
    mat (extractStridedSlice S128x128 ![s, 0] (shapeCast S256x128 (extractStridedSlice S1x256x128 ![2, 0, 0] x h1) h2) h3)
      = band (w3 x 2) s hs := by
  funext k j
  have hk : s + k.val < 256 := by have := k.isLt; omega
  show extractStridedSlice S128x128 ![s, 0] (shapeCast S256x128 (extractStridedSlice S1x256x128 ![2, 0, 0] x h1) h2) h3 (ix2 k j)
    = x (ix3 2 ⟨s + k.val, hk⟩ j)
  rw [extractStridedSlice_apply ![s, 0] (shapeCast S256x128 (extractStridedSlice S1x256x128 ![2, 0, 0] x h1) h2) h3 (ix2 k j) (ix2 ⟨s + k.val, hk⟩ j) (fun a => by
    match a with
    | ⟨0, _⟩ => rfl
    | ⟨1, _⟩ => show j.val = 0 + j.val; omega)]
  rw [shapeCast_1ab_ab_apply]
  exact extractStridedSlice_apply ![2, 0, 0] x h1 (ix3 (0 : Fin 1) ⟨s + k.val, hk⟩ j) (ix3 2 ⟨s + k.val, hk⟩ j) (fun a => by
    match a with
    | ⟨0, _⟩ => rfl
    | ⟨1, _⟩ => show s + k.val = 0 + (s + k.val); omega
    | ⟨2, _⟩ => show j.val = 0 + j.val; omega)

/-- Slice `2` of a stack of three 128 × 128 matrices. -/
theorem mat_of_slice (x : FVec Ideal S3x128x128 .f32) (h1 : S3x128x128.Slices ![2, 0, 0] S1x128x128)
    (h2 : S1x128x128.ShapeCasts S128x128) :
    mat (shapeCast S128x128 (extractStridedSlice S1x128x128 ![2, 0, 0] x h1) h2) = w3 x 2 := by
  funext k j
  show shapeCast S128x128 (extractStridedSlice S1x128x128 ![2, 0, 0] x h1) h2 (ix2 k j) = x (ix3 2 k j)
  rw [shapeCast_1ab_ab_apply]
  exact extractStridedSlice_apply ![2, 0, 0] x h1 (ix3 (0 : Fin 1) k j) (ix3 2 k j) (fun a => by
    match a with
    | ⟨0, _⟩ => rfl
    | ⟨1, _⟩ => show k.val = 0 + k.val; omega
    | ⟨2, _⟩ => show j.val = 0 + j.val; omega)

/-- Row `2` of a stack of three bias rows, flattened and laid out again as one row. -/
theorem row_of_slice (x : FVec Ideal S3x128 .f32) (h1 : S3x128.Slices ![2, 0] S1x128) (h2 : S1x128.ShapeCasts S128)
    (h3 : S128.ShapeCasts S1x128) :
    row1 (shapeCast S1x128 (shapeCast S128 (extractStridedSlice S1x128 ![2, 0] x h1) h2) h3) = Net.b3 x 2 := by
  funext j
  show shapeCast S1x128 (shapeCast S128 (extractStridedSlice S1x128 ![2, 0] x h1) h2) h3 (ix2 0 j) = x (ix2 2 j)
  rw [shapeCast_a_1a_apply, shapeCast_1a_a_apply]
  exact extractStridedSlice_apply ![2, 0] x h1 (ix2 (0 : Fin 1) j) (ix2 2 j) (fun a => by
    match a with
    | ⟨0, _⟩ => rfl
    | ⟨1, _⟩ => show j.val = 0 + j.val; omega)

/-- A bias vector laid out as one row is that vector. -/
theorem row_of_reshape {a : ℕ} (x : (⟨1, ![a]⟩ : Shape).Idx → EReal) (h : (⟨1, ![a]⟩ : Shape).ShapeCasts ⟨2, ![1, a]⟩) :
    row1 (shapeCast ⟨2, ![1, a]⟩ x h) = vec x := by
  funext j
  show shapeCast ⟨2, ![1, a]⟩ x h (ix2 0 j) = x (ix1 j)
  rw [shapeCast_a_1a_apply]

/-! ## Buffers carried unchanged to the region's entry -/

/-- The receivers' index vector is written by the first host stretch and by nothing after it. -/
theorem keep_v3 : W20 (F := Ideal) m ρ c (Proc.devRef .tc main_v3) = W1 m ρ c (Proc.devRef .tc main_v3) :=
  calc W20 (F := Ideal) m ρ c (Proc.devRef .tc main_v3)
    _ = W19 m ρ c (Proc.devRef .tc main_v3) := W20_of_ne m ρ c main_v3 (by decide)
    _ = W18 m ρ c (Proc.devRef .tc main_v3) := by host_keeps hostOps6_2
    _ = W17 m ρ c (Proc.devRef .tc main_v3) := by host_keeps hostOps6_1
    _ = W16 m ρ c (Proc.devRef .tc main_v3) := by host_keeps hostOps6
    _ = W15 m ρ c (Proc.devRef .tc main_v3) := W16_of_ne m ρ c main_v3 (by decide)
    _ = W14 m ρ c (Proc.devRef .tc main_v3) := by host_keeps hostOps5
    _ = W13 m ρ c (Proc.devRef .tc main_v3) := W14_of_ne m ρ c main_v3 (by decide)
    _ = W12 m ρ c (Proc.devRef .tc main_v3) := by host_keeps hostOps4_2
    _ = W11 m ρ c (Proc.devRef .tc main_v3) := by host_keeps hostOps4_1
    _ = W10 m ρ c (Proc.devRef .tc main_v3) := by host_keeps hostOps4
    _ = W9 m ρ c (Proc.devRef .tc main_v3) := W10_of_ne m ρ c main_v3 (by decide)
    _ = W8 m ρ c (Proc.devRef .tc main_v3) := by host_keeps hostOps3
    _ = W7 m ρ c (Proc.devRef .tc main_v3) := W8_of_ne m ρ c main_v3 (by decide)
    _ = W6 m ρ c (Proc.devRef .tc main_v3) := by host_keeps hostOps2_2
    _ = W5 m ρ c (Proc.devRef .tc main_v3) := by host_keeps hostOps2_1
    _ = W4 m ρ c (Proc.devRef .tc main_v3) := by host_keeps hostOps2
    _ = W3 m ρ c (Proc.devRef .tc main_v3) := W4_of_ne m ρ c main_v3 (by decide)
    _ = Gen.W2 m ρ c (Proc.devRef .tc main_v3) := by host_keeps hostOps1
    _ = W1 m ρ c (Proc.devRef .tc main_v3) := W2_of_ne m ρ c main_v3 (by decide)

/-- The launch arrays the last host stretch slices or reshapes still hold their launch contents before it: no
    operation and no region writes a launch array. -/
theorem launch_arg21 : W20 (F := Ideal) m ρ c (Proc.devRef .tc main_arg21) = m ((c : Thread nD τ).loc main_arg21) :=
  calc W20 (F := Ideal) m ρ c (Proc.devRef .tc main_arg21)
    _ = W21 m ρ c (Proc.devRef .tc main_arg21) := Eq.symm (by host_keeps hostOps7)
    _ = W22 m ρ c (Proc.devRef .tc main_arg21) := (W22_of_ne m ρ c main_arg21 (by decide)).symm
    _ = m ((c : Thread nD τ).loc main_arg21) := W22_main_arg21 m ρ c
theorem launch_arg22 : W20 (F := Ideal) m ρ c (Proc.devRef .tc main_arg22) = m ((c : Thread nD τ).loc main_arg22) :=
  calc W20 (F := Ideal) m ρ c (Proc.devRef .tc main_arg22)
    _ = W21 m ρ c (Proc.devRef .tc main_arg22) := Eq.symm (by host_keeps hostOps7)
    _ = W22 m ρ c (Proc.devRef .tc main_arg22) := (W22_of_ne m ρ c main_arg22 (by decide)).symm
    _ = m ((c : Thread nD τ).loc main_arg22) := W22_main_arg22 m ρ c
theorem launch_arg23 : W20 (F := Ideal) m ρ c (Proc.devRef .tc main_arg23) = m ((c : Thread nD τ).loc main_arg23) :=
  calc W20 (F := Ideal) m ρ c (Proc.devRef .tc main_arg23)
    _ = W21 m ρ c (Proc.devRef .tc main_arg23) := Eq.symm (by host_keeps hostOps7)
    _ = W22 m ρ c (Proc.devRef .tc main_arg23) := (W22_of_ne m ρ c main_arg23 (by decide)).symm
    _ = m ((c : Thread nD τ).loc main_arg23) := W22_main_arg23 m ρ c
theorem launch_arg24 : W20 (F := Ideal) m ρ c (Proc.devRef .tc main_arg24) = m ((c : Thread nD τ).loc main_arg24) :=
  calc W20 (F := Ideal) m ρ c (Proc.devRef .tc main_arg24)
    _ = W21 m ρ c (Proc.devRef .tc main_arg24) := Eq.symm (by host_keeps hostOps7)
    _ = W22 m ρ c (Proc.devRef .tc main_arg24) := (W22_of_ne m ρ c main_arg24 (by decide)).symm
    _ = m ((c : Thread nD τ).loc main_arg24) := W22_main_arg24 m ρ c
theorem launch_arg25 : W20 (F := Ideal) m ρ c (Proc.devRef .tc main_arg25) = m ((c : Thread nD τ).loc main_arg25) :=
  calc W20 (F := Ideal) m ρ c (Proc.devRef .tc main_arg25)
    _ = W21 m ρ c (Proc.devRef .tc main_arg25) := Eq.symm (by host_keeps hostOps7)
    _ = W22 m ρ c (Proc.devRef .tc main_arg25) := (W22_of_ne m ρ c main_arg25 (by decide)).symm
    _ = m ((c : Thread nD τ).loc main_arg25) := W22_main_arg25 m ρ c
theorem launch_arg26 : W20 (F := Ideal) m ρ c (Proc.devRef .tc main_arg26) = m ((c : Thread nD τ).loc main_arg26) :=
  calc W20 (F := Ideal) m ρ c (Proc.devRef .tc main_arg26)
    _ = W21 m ρ c (Proc.devRef .tc main_arg26) := Eq.symm (by host_keeps hostOps7)
    _ = W22 m ρ c (Proc.devRef .tc main_arg26) := (W22_of_ne m ρ c main_arg26 (by decide)).symm
    _ = m ((c : Thread nD τ).loc main_arg26) := W22_main_arg26 m ρ c
theorem launch_arg28 : W20 (F := Ideal) m ρ c (Proc.devRef .tc main_arg28) = m ((c : Thread nD τ).loc main_arg28) :=
  calc W20 (F := Ideal) m ρ c (Proc.devRef .tc main_arg28)
    _ = W21 m ρ c (Proc.devRef .tc main_arg28) := Eq.symm (by host_keeps hostOps7)
    _ = W22 m ρ c (Proc.devRef .tc main_arg28) := (W22_of_ne m ρ c main_arg28 (by decide)).symm
    _ = m ((c : Thread nD τ).loc main_arg28) := W22_main_arg28 m ρ c
theorem launch_arg30 : W20 (F := Ideal) m ρ c (Proc.devRef .tc main_arg30) = m ((c : Thread nD τ).loc main_arg30) :=
  calc W20 (F := Ideal) m ρ c (Proc.devRef .tc main_arg30)
    _ = W21 m ρ c (Proc.devRef .tc main_arg30) := Eq.symm (by host_keeps hostOps7)
    _ = W22 m ρ c (Proc.devRef .tc main_arg30) := (W22_of_ne m ρ c main_arg30 (by decide)).symm
    _ = m ((c : Thread nD τ).loc main_arg30) := W22_main_arg30 m ρ c
theorem launch_arg32 : W20 (F := Ideal) m ρ c (Proc.devRef .tc main_arg32) = m ((c : Thread nD τ).loc main_arg32) :=
  calc W20 (F := Ideal) m ρ c (Proc.devRef .tc main_arg32)
    _ = W21 m ρ c (Proc.devRef .tc main_arg32) := Eq.symm (by host_keeps hostOps7)
    _ = W22 m ρ c (Proc.devRef .tc main_arg32) := (W22_of_ne m ρ c main_arg32 (by decide)).symm
    _ = m ((c : Thread nD τ).loc main_arg32) := W22_main_arg32 m ρ c

/-! ## The windows -/

theorem h : V21 (F := Ideal) m ρ c main_v95 = H2 m ρ c := by
  show W21 m ρ c (Proc.devRef .tc main_v95) = W16 m ρ c (Proc.devRef .tc main_v95)
  exact calc W21 (F := Ideal) m ρ c (Proc.devRef .tc main_v95)
    _ = W20 m ρ c (Proc.devRef .tc main_v95) := by host_keeps hostOps7
    _ = W19 m ρ c (Proc.devRef .tc main_v95) := W20_of_ne m ρ c main_v95 (by decide)
    _ = W18 m ρ c (Proc.devRef .tc main_v95) := by host_keeps hostOps6_2
    _ = W17 m ρ c (Proc.devRef .tc main_v95) := by host_keeps hostOps6_1
    _ = W16 m ρ c (Proc.devRef .tc main_v95) := by host_keeps hostOps6

theorem agg : V21 (F := Ideal) m ρ c main_v119 = scat m ρ c (E3 m ρ c) := by
  show StableHlo.after hostOps7 (W20 m ρ c) (Proc.devRef .tc main_v119) = _
  after_results
  rw [keep_v3]
  rfl

theorem Wa : mat (V21 (F := Ideal) m ρ c main_v122) = band (w3 (m ((c : Thread nD τ).loc main_arg21)) 2) 0 (by omega) := by
  have e : (V21 (F := Ideal) m ρ c main_v122 : FVec Ideal S128x128 .f32)
      = extractStridedSlice S128x128 ![0, 0] (shapeCast S256x128 (extractStridedSlice S1x256x128 ![2, 0, 0] (W20 m ρ c (Proc.devRef .tc main_arg21)) slices_S3x256x128_S1x256x128_2_0_0) shapeCasts_S1x256x128_S256x128) slices_S256x128_S128x128_0_0 := by
    show StableHlo.after hostOps7 (W20 m ρ c) (Proc.devRef .tc main_v122) = _
    after_results
    rfl
  rw [e, launch_arg21]
  exact band_of_slice256 _ _ _ 0 (by omega) _

theorem Wb : mat (V21 (F := Ideal) m ρ c main_v123) = band (w3 (m ((c : Thread nD τ).loc main_arg21)) 2) 128 (by omega) := by
  have e : (V21 (F := Ideal) m ρ c main_v123 : FVec Ideal S128x128 .f32)
      = extractStridedSlice S128x128 ![128, 0] (shapeCast S256x128 (extractStridedSlice S1x256x128 ![2, 0, 0] (W20 m ρ c (Proc.devRef .tc main_arg21)) slices_S3x256x128_S1x256x128_2_0_0) shapeCasts_S1x256x128_S256x128) slices_S256x128_S128x128_128_0 := by
    show StableHlo.after hostOps7 (W20 m ρ c) (Proc.devRef .tc main_v123) = _
    after_results
    rfl
  rw [e, launch_arg21]
  exact band_of_slice256 _ _ _ 128 (by omega) _

theorem b1 : row1 (V21 (F := Ideal) m ρ c main_v134) = b3 (m ((c : Thread nD τ).loc main_arg22)) 2 := by
  have e : (V21 (F := Ideal) m ρ c main_v134 : FVec Ideal S1x128 .f32)
      = shapeCast S1x128 (shapeCast S128 (extractStridedSlice S1x128 ![2, 0] (W20 m ρ c (Proc.devRef .tc main_arg22)) slices_S3x128_S1x128_2_0) shapeCasts_S1x128_S128) shapeCasts_S128_S1x128 := by
    show StableHlo.after hostOps7 (W20 m ρ c) (Proc.devRef .tc main_v134) = _
    after_results
    rfl
  rw [e, launch_arg22]
  exact row_of_slice _ _ _ _

theorem W2 : mat (V21 (F := Ideal) m ρ c main_v127) = w3 (m ((c : Thread nD τ).loc main_arg23)) 2 := by
  have e : (V21 (F := Ideal) m ρ c main_v127 : FVec Ideal S128x128 .f32)
      = shapeCast S128x128 (extractStridedSlice S1x128x128 ![2, 0, 0] (W20 m ρ c (Proc.devRef .tc main_arg23)) slices_S3x128x128_S1x128x128_2_0_0) shapeCasts_S1x128x128_S128x128 := by
    show StableHlo.after hostOps7 (W20 m ρ c) (Proc.devRef .tc main_v127) = _
    after_results
    rfl
  rw [e, launch_arg23]
  exact mat_of_slice _ _ _

theorem b2 : row1 (V21 (F := Ideal) m ρ c main_v135) = b3 (m ((c : Thread nD τ).loc main_arg24)) 2 := by
  have e : (V21 (F := Ideal) m ρ c main_v135 : FVec Ideal S1x128 .f32)
      = shapeCast S1x128 (shapeCast S128 (extractStridedSlice S1x128 ![2, 0] (W20 m ρ c (Proc.devRef .tc main_arg24)) slices_S3x128_S1x128_2_0) shapeCasts_S1x128_S128) shapeCasts_S128_S1x128 := by
    show StableHlo.after hostOps7 (W20 m ρ c) (Proc.devRef .tc main_v135) = _
    after_results
    rfl
  rw [e, launch_arg24]
  exact row_of_slice _ _ _ _

theorem W3 : mat (V21 (F := Ideal) m ρ c main_v131) = w3 (m ((c : Thread nD τ).loc main_arg25)) 2 := by
  have e : (V21 (F := Ideal) m ρ c main_v131 : FVec Ideal S128x128 .f32)
      = shapeCast S128x128 (extractStridedSlice S1x128x128 ![2, 0, 0] (W20 m ρ c (Proc.devRef .tc main_arg25)) slices_S3x128x128_S1x128x128_2_0_0) shapeCasts_S1x128x128_S128x128 := by
    show StableHlo.after hostOps7 (W20 m ρ c) (Proc.devRef .tc main_v131) = _
    after_results
    rfl
  rw [e, launch_arg25]
  exact mat_of_slice _ _ _

theorem b3 : row1 (V21 (F := Ideal) m ρ c main_v136) = b3 (m ((c : Thread nD τ).loc main_arg26)) 2 := by
  have e : (V21 (F := Ideal) m ρ c main_v136 : FVec Ideal S1x128 .f32)
      = shapeCast S1x128 (shapeCast S128 (extractStridedSlice S1x128 ![2, 0] (W20 m ρ c (Proc.devRef .tc main_arg26)) slices_S3x128_S1x128_2_0) shapeCasts_S1x128_S128) shapeCasts_S128_S1x128 := by
    show StableHlo.after hostOps7 (W20 m ρ c) (Proc.devRef .tc main_v136) = _
    after_results
    rfl
  rw [e, launch_arg26]
  exact row_of_slice _ _ _ _

theorem D1 : V21 (F := Ideal) m ρ c main_arg27 = (m ((c : Thread nD τ).loc main_arg27)) := by
  show W21 m ρ c (Proc.devRef .tc main_arg27) = _
  exact ((W22_arr m ρ c 9).trans (((dat7 (V21 m ρ) c).arrAt_in 9 rfl _).trans (A_eq7 (V21 m ρ) c 9))).symm.trans (W22_main_arg27 m ρ c)

theorem d1 : row1 (V21 (F := Ideal) m ρ c main_v137) = vec (m ((c : Thread nD τ).loc main_arg28)) := by
  have e : (V21 (F := Ideal) m ρ c main_v137 : FVec Ideal S1x128 .f32)
      = shapeCast S1x128 (W20 m ρ c (Proc.devRef .tc main_arg28)) shapeCasts_S128_S1x128 := by
    show StableHlo.after hostOps7 (W20 m ρ c) (Proc.devRef .tc main_v137) = _
    after_results
    rfl
  rw [e, launch_arg28]
  exact row_of_reshape _ _

theorem D2 : V21 (F := Ideal) m ρ c main_arg29 = (m ((c : Thread nD τ).loc main_arg29)) := by
  show W21 m ρ c (Proc.devRef .tc main_arg29) = _
  exact ((W22_arr m ρ c 11).trans (((dat7 (V21 m ρ) c).arrAt_in 11 rfl _).trans (A_eq7 (V21 m ρ) c 11))).symm.trans (W22_main_arg29 m ρ c)

theorem d2 : row1 (V21 (F := Ideal) m ρ c main_v138) = vec (m ((c : Thread nD τ).loc main_arg30)) := by
  have e : (V21 (F := Ideal) m ρ c main_v138 : FVec Ideal S1x128 .f32)
      = shapeCast S1x128 (W20 m ρ c (Proc.devRef .tc main_arg30)) shapeCasts_S128_S1x128 := by
    show StableHlo.after hostOps7 (W20 m ρ c) (Proc.devRef .tc main_v138) = _
    after_results
    rfl
  rw [e, launch_arg30]
  exact row_of_reshape _ _

theorem D3 : V21 (F := Ideal) m ρ c main_arg31 = (m ((c : Thread nD τ).loc main_arg31)) := by
  show W21 m ρ c (Proc.devRef .tc main_arg31) = _
  exact ((W22_arr m ρ c 13).trans (((dat7 (V21 m ρ) c).arrAt_in 13 rfl _).trans (A_eq7 (V21 m ρ) c 13))).symm.trans (W22_main_arg31 m ρ c)

theorem d3 : row1 (V21 (F := Ideal) m ρ c main_v139) = vec (m ((c : Thread nD τ).loc main_arg32)) := by
  have e : (V21 (F := Ideal) m ρ c main_v139 : FVec Ideal S1x2 .f32)
      = shapeCast S1x2 (W20 m ρ c (Proc.devRef .tc main_arg32)) shapeCasts_S2_S1x2 := by
    show StableHlo.after hostOps7 (W20 m ρ c) (Proc.devRef .tc main_v139) = _
    after_results
    rfl
  rw [e, launch_arg32]
  exact row_of_reshape _ _

end Cert.KernelIdeal.In7

end
-- ==== Proof.KChain.lean ====
/-
  The idealized kernel program's result as the network's function of its launch arrays.

  Each region's output array is its stage function of the arrays its windows hold at entry (the region's value lemma);
  those arrays are launch arrays, slices of them, or earlier stages' results (the plumbing lemmas); where every index of
  the edge list is a node index, the gathered rows are the gathered rows (the fill for an index out of range never
  applies). Substituting stage by stage gives the result as the network's function of the launch arrays.
-/
import proofs.«425516_j47425028883052_2_alg».proof.Proof.KDefs
import proofs.«425516_j47425028883052_2_alg».proof.Proof.NetOut
import proofs.«425516_j47425028883052_2_alg».proof.Proof.TakeK
import proofs.«425516_j47425028883052_2_alg».proof.Proof.KVal0
import proofs.«425516_j47425028883052_2_alg».proof.Proof.KIn0
import proofs.«425516_j47425028883052_2_alg».proof.Proof.KVal1
import proofs.«425516_j47425028883052_2_alg».proof.Proof.KIn1
import proofs.«425516_j47425028883052_2_alg».proof.Proof.KVal2
import proofs.«425516_j47425028883052_2_alg».proof.Proof.KIn2
import proofs.«425516_j47425028883052_2_alg».proof.Proof.KVal3
import proofs.«425516_j47425028883052_2_alg».proof.Proof.KIn3
import proofs.«425516_j47425028883052_2_alg».proof.Proof.KVal4
import proofs.«425516_j47425028883052_2_alg».proof.Proof.KIn4
import proofs.«425516_j47425028883052_2_alg».proof.Proof.KVal5
import proofs.«425516_j47425028883052_2_alg».proof.Proof.KIn5
import proofs.«425516_j47425028883052_2_alg».proof.Proof.KVal6
import proofs.«425516_j47425028883052_2_alg».proof.Proof.KIn6
import proofs.«425516_j47425028883052_2_alg».proof.Proof.KVal7
import proofs.«425516_j47425028883052_2_alg».proof.Proof.KIn7

set_option maxRecDepth 16384

noncomputable section

namespace Cert.KernelIdeal.Chain

open Idealize.ShloMosaic Idealize.ShloMosaic.TcCoe Idealize.ShloMosaic.ValueIdx Idealize.SL.Sem Cert.KernelIdeal Cert.KernelIdeal.Gen Cert.Spec Cert.Net Cert.KernelIdeal.K

variable (m : (ℓ : Loc nD τ sig) → Buf (Elt Ideal) ℓ) (ρ : Dev nD → PrngReg) (c : Dev nD)

/-- Gathering node rows by the senders and by the receivers (the index vectors wrapped as the program wraps them). -/
def takeS (h : FVec Ideal S50000x128 .f32) : FVec Ideal S400000x128 .f32 :=
  Host.gather gather_S50000x128_S400000x1_S400000x128_1_0_n_n_0_1_1128 h (TakeK.takeIdx (src m ρ c))
def takeD (h : FVec Ideal S50000x128 .f32) : FVec Ideal S400000x128 .f32 :=
  Host.gather gather_S50000x128_S400000x1_S400000x128_1_0_n_n_0_1_1128 h (TakeK.takeIdx (dst m ρ c))

/-- The record of the kernel program's launch arrays and of its gathering and summing functions. -/
def params : Net.Params where
  x := (m ((c : Thread nD τ).loc main_arg0))
  ea := (m ((c : Thread nD τ).loc main_arg1))
  neW1 := (m ((c : Thread nD τ).loc main_arg3))
  neb1 := (m ((c : Thread nD τ).loc main_arg4))
  neW2 := (m ((c : Thread nD τ).loc main_arg5))
  neb2 := (m ((c : Thread nD τ).loc main_arg6))
  neW3 := (m ((c : Thread nD τ).loc main_arg7))
  neb3 := (m ((c : Thread nD τ).loc main_arg8))
  eeW1 := (m ((c : Thread nD τ).loc main_arg9))
  eeb1 := (m ((c : Thread nD τ).loc main_arg10))
  eeW2 := (m ((c : Thread nD τ).loc main_arg11))
  eeb2 := (m ((c : Thread nD τ).loc main_arg12))
  eeW3 := (m ((c : Thread nD τ).loc main_arg13))
  eeb3 := (m ((c : Thread nD τ).loc main_arg14))
  peW1 := (m ((c : Thread nD τ).loc main_arg15))
  peb1 := (m ((c : Thread nD τ).loc main_arg16))
  peW2 := (m ((c : Thread nD τ).loc main_arg17))
  peb2 := (m ((c : Thread nD τ).loc main_arg18))
  peW3 := (m ((c : Thread nD τ).loc main_arg19))
  peb3 := (m ((c : Thread nD τ).loc main_arg20))
  pnW1 := (m ((c : Thread nD τ).loc main_arg21))
  pnb1 := (m ((c : Thread nD τ).loc main_arg22))
  pnW2 := (m ((c : Thread nD τ).loc main_arg23))
  pnb2 := (m ((c : Thread nD τ).loc main_arg24))
  pnW3 := (m ((c : Thread nD τ).loc main_arg25))
  pnb3 := (m ((c : Thread nD τ).loc main_arg26))
  ndW1 := (m ((c : Thread nD τ).loc main_arg27))
  ndb1 := (m ((c : Thread nD τ).loc main_arg28))
  ndW2 := (m ((c : Thread nD τ).loc main_arg29))
  ndb2 := (m ((c : Thread nD τ).loc main_arg30))
  ndW3 := (m ((c : Thread nD τ).loc main_arg31))
  ndb3 := (m ((c : Thread nD τ).loc main_arg32))
  takeS := takeS m ρ c
  takeD := takeD m ρ c
  scat := scat m ρ c

variable (hs : ∀ i, (0 : Int) ≤ (src m ρ c i).toInt ∧ (src m ρ c i).toInt < 50000)
  (hd : ∀ i, (0 : Int) ≤ (dst m ρ c i).toInt ∧ (dst m ρ c i).toInt < 50000)

theorem h0_eq : H0 m ρ c = nH0 (params m ρ c) := by
  refine (W2_arr (F := Ideal) m ρ c 7).trans ?_
  rw [Val.arr0 (V1 (F := Ideal) m ρ) c, In0.W1 m ρ c, In0.b1 m ρ c, In0.W2 m ρ c, In0.b2 m ρ c, In0.W3 m ρ c, In0.b3 m ρ c, In0.x m ρ c]
  rfl

theorem e0_eq : E0 m ρ c = nE0 (params m ρ c) := by
  refine (W4_arr (F := Ideal) m ρ c 7).trans ?_
  rw [Val.arr1 (V3 (F := Ideal) m ρ) c, In1.W1 m ρ c, In1.b1 m ρ c, In1.W2 m ρ c, In1.b2 m ρ c, In1.W3 m ρ c, In1.b3 m ρ c, In1.x m ρ c]
  rfl

include hs hd in
theorem e1_eq : E1 m ρ c = nEdge (params m ρ c) 0 (H0 m ρ c) (E0 m ρ c) := by
  refine (W8_arr (F := Ideal) m ρ c 11).trans ?_
  rw [Val.arr2 (V7 (F := Ideal) m ρ) c, In2.Wa m ρ c, In2.Wb m ρ c, In2.Wc m ρ c, In2.b1 m ρ c, In2.W2 m ρ c, In2.b2 m ρ c, In2.W3 m ρ c, In2.b3 m ρ c,
    In2.hs m ρ c, In2.hd m ρ c, In2.e m ρ c, TakeK.takeFill_inrange _ _ hs, TakeK.takeFill_inrange _ _ hd]
  rfl

theorem h1_eq : H1 m ρ c = nNode (params m ρ c) 0 (H0 m ρ c) (E1 m ρ c) := by
  refine (W10_arr (F := Ideal) m ρ c 9).trans ?_
  rw [Val.arr3 (V9 (F := Ideal) m ρ) c, In3.Wa m ρ c, In3.Wb m ρ c, In3.b1 m ρ c, In3.W2 m ρ c, In3.b2 m ρ c, In3.W3 m ρ c, In3.b3 m ρ c, In3.h m ρ c, In3.agg m ρ c]
  rfl

include hs hd in
theorem e2_eq : E2 m ρ c = nEdge (params m ρ c) 1 (H1 m ρ c) (E1 m ρ c) := by
  refine (W14_arr (F := Ideal) m ρ c 11).trans ?_
  rw [Val.arr4 (V13 (F := Ideal) m ρ) c, In4.Wa m ρ c, In4.Wb m ρ c, In4.Wc m ρ c, In4.b1 m ρ c, In4.W2 m ρ c, In4.b2 m ρ c, In4.W3 m ρ c, In4.b3 m ρ c,
    In4.hs m ρ c, In4.hd m ρ c, In4.e m ρ c, TakeK.takeFill_inrange _ _ hs, TakeK.takeFill_inrange _ _ hd]
  rfl

theorem h2_eq : H2 m ρ c = nNode (params m ρ c) 1 (H1 m ρ c) (E2 m ρ c) := by
  refine (W16_arr (F := Ideal) m ρ c 9).trans ?_
  rw [Val.arr5 (V15 (F := Ideal) m ρ) c, In5.Wa m ρ c, In5.Wb m ρ c, In5.b1 m ρ c, In5.W2 m ρ c, In5.b2 m ρ c, In5.W3 m ρ c, In5.b3 m ρ c, In5.h m ρ c, In5.agg m ρ c]
  rfl

include hs hd in
theorem e3_eq : E3 m ρ c = nEdge (params m ρ c) 2 (H2 m ρ c) (E2 m ρ c) := by
  refine (W20_arr (F := Ideal) m ρ c 11).trans ?_
  rw [Val.arr6 (V19 (F := Ideal) m ρ) c, In6.Wa m ρ c, In6.Wb m ρ c, In6.Wc m ρ c, In6.b1 m ρ c, In6.W2 m ρ c, In6.b2 m ρ c, In6.W3 m ρ c, In6.b3 m ρ c,
    In6.hs m ρ c, In6.hd m ρ c, In6.e m ρ c, TakeK.takeFill_inrange _ _ hs, TakeK.takeFill_inrange _ _ hd]
  rfl

theorem out_eq : OUT m ρ c = Net.dec (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (nNode (params m ρ c) 2 (H2 m ρ c) (E3 m ρ c)) := by
  refine (W22_arr (F := Ideal) m ρ c 15).trans ?_
  rw [Val.arr7 (V21 (F := Ideal) m ρ) c, In7.Wa m ρ c, In7.Wb m ρ c, In7.b1 m ρ c, In7.W2 m ρ c, In7.b2 m ρ c, In7.W3 m ρ c, In7.b3 m ρ c, In7.h m ρ c, In7.agg m ρ c,
    In7.D1 m ρ c, In7.d1 m ρ c, In7.D2 m ρ c, In7.d2 m ρ c, In7.D3 m ρ c, In7.d3 m ρ c]
  rfl

include hs hd in
/-- The result buffer's final contents are the network's result over the kernel program's record. -/
theorem result_eq : W22 (F := Ideal) m ρ c (Proc.devRef .tc main_v140) = nOut (params m ρ c) := by
  show OUT m ρ c = _
  rw [out_eq m ρ c, e3_eq m ρ c hs hd, h2_eq m ρ c, e2_eq m ρ c hs hd, h1_eq m ρ c, e1_eq m ρ c hs hd, h0_eq m ρ c, e0_eq m ρ c]
  rfl

end Cert.KernelIdeal.Chain

end
-- ==== Proof.RValD.lean ====
/-
  The reference's two encoders and its decoder, read row by row, over the extended reals.

  Each of the three is a three-layer network applied to every row of its input: a contraction of the row with the
  weights plus the bias, the rectified linear unit after the first two layers. The reference states each layer as a
  product of whole arrays plus the bias repeated down the rows, and the unit as a maximum with the zero array; read at
  row `r` and column `q` these are the row functions of the network's definition, so each stage is the row-wise
  network of its input. The decoder's input is the last step's node update, which is carried as it stands.
-/
import proofs.«425516_j47425028883052_2_alg».proof.Proof.ReadP
import proofs.«425516_j47425028883052_2_alg».proof.Proof.Net
import Idealize.ShloMosaic.PureOps.Ideal
import Idealize.ShloMosaic.PureOps.Ideal.Laws
import Idealize.ShloMosaic.Lib.ValueIdx

noncomputable section

namespace Cert.ReferenceIdeal.Val

open Idealize.ShloMosaic Idealize.ShloMosaic.ValueIdx Cert.ReferenceIdeal Cert.Spec Cert.Net Cert.ReferenceIdeal.Read

/-- A contraction of row `r` of `X` with column `q` of `W`, plus entry `q` of `b`, is entry `q` of the linear
    layer on that row. -/
theorem dense_readD {n K M : ℕ} (X : A2 n K) (W : A2 K M) (b : A1 M) (r : Fin n) (q : Fin M)
    (li : Fin K → (⟨2, ![n, K]⟩ : Shape).Idx) (wi : Fin K → (⟨2, ![K, M]⟩ : Shape).Idx) (bi : (⟨1, ![M]⟩ : Shape).Idx)
    (hl : ∀ k, li k = ix2 r k) (hw : ∀ k, wi k = ix2 k q) (hb : bi = ix1 q) :
    FloatOps.addf (F := Ideal) (φ := .f32) (∑ k, X (li k) * W (wi k)) (b bi) = dense (mat W) (vec b) (rowAt X r) q := by
  simp only [hl, hw, hb]; rfl

/-- The maximum with the zero word is the rectified linear unit. -/
theorem relu_readD (a : EReal) :
    FloatOps.maximumf (F := Ideal) (φ := .f32) a (FloatOps.ofBits (F := Ideal) .f32 0x00000000#32) = max a 0 := by
  simp only [Ideal.maximumf_def, Ideal.ofBits_def, Ideal.ofBits_zero_f32]

/-- An array whose rows are three linear layers of the rows of `x`, rectified after the first two, is the row-wise
    three-layer network of `x`. -/
theorem encode_of_rowsD {n K M : ℕ} (W1 : Fin K → Fin 128 → EReal) (b1 : Fin 128 → EReal) (W2 : Fin 128 → Fin 128 → EReal)
    (b2 : Fin 128 → EReal) (W3 : Fin 128 → Fin M → EReal) (b3 : Fin M → EReal) (x : A2 n K) (z1 r1 z2 r2 : A2 n 128) (y : A2 n M)
    (h1 : ∀ r q, z1 (ix2 r q) = dense W1 b1 (rowAt x r) q)
    (hr1 : ∀ r q, r1 (ix2 r q) = max (z1 (ix2 r q)) 0)
    (h2 : ∀ r q, z2 (ix2 r q) = dense W2 b2 (rowAt r1 r) q)
    (hr2 : ∀ r q, r2 (ix2 r q) = max (z2 (ix2 r q)) 0)
    (h3 : ∀ r q, y (ix2 r q) = dense W3 b3 (rowAt r2 r) q) :
    y = encode W1 b1 W2 b2 W3 b3 x := by
  funext i
  obtain ⟨r, q, rfl⟩ : ∃ (r : Fin n) (q : Fin M), i = ix2 r q := ⟨_, _, eq_ix2 i⟩
  have e1 : rowAt r1 r = relu (dense W1 b1 (rowAt x r)) := funext fun k => (hr1 r k).trans (by rw [h1]; rfl)
  have e2 : rowAt r2 r = relu (dense W2 b2 (rowAt r1 r)) := funext fun k => (hr2 r k).trans (by rw [h2]; rfl)
  rw [h3, e2, e1]
  rfl

/-- The node encoder: every row of the node inputs through the three-layer network. -/
theorem enc_nodes (x0 : (⟨S50000x4, .f32⟩ : BufTy).Contents (Elt Ideal)) (x3 : (⟨S4x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) :
    val_main_v17 (F := Ideal) x0 x3 x4 x5 x6 x7 x8
      = encode (mat x3) (vec x4) (mat x5) (vec x6) (mat x7) (vec x8) x0 :=
  encode_of_rowsD _ _ _ _ _ _ x0 (val_main_v7 (F := Ideal) x0 x3 x4) (val_main_v8 (F := Ideal) x0 x3 x4) (val_main_v12 (F := Ideal) x0 x3 x4 x5 x6) (val_main_v13 (F := Ideal) x0 x3 x4 x5 x6) _
    (fun r q => by
      rw [val_main_v7_apply, val_main_v4_apply, val_main_v6_apply, val_main_v5_apply]
      exact dense_readD x0 x3 x4 r q _ _ _
        (fun k => funext fun a => Fin.ext (by match a with | ⟨0, _⟩ => rfl | ⟨1, _⟩ => rfl))
        (fun k => funext fun a => Fin.ext (by match a with | ⟨0, _⟩ => rfl | ⟨1, _⟩ => rfl))
        (funext fun a => Fin.ext (by match a with | ⟨0, _⟩ => rfl)))
    (fun r q => by
      rw [val_main_v8_apply, val_main_call0_v0_apply, val_main_call0_cst_apply]; exact relu_readD _)
    (fun r q => by
      rw [val_main_v12_apply, val_main_v9_apply, val_main_v11_apply, val_main_v10_apply]
      exact dense_readD (val_main_v8 (F := Ideal) x0 x3 x4) x5 x6 r q _ _ _
        (fun k => funext fun a => Fin.ext (by match a with | ⟨0, _⟩ => rfl | ⟨1, _⟩ => rfl))
        (fun k => funext fun a => Fin.ext (by match a with | ⟨0, _⟩ => rfl | ⟨1, _⟩ => rfl))
        (funext fun a => Fin.ext (by match a with | ⟨0, _⟩ => rfl)))
    (fun r q => by
      rw [val_main_v13_apply, val_main_call1_v0_apply, val_main_call1_cst_apply]; exact relu_readD _)
    (fun r q => by
      rw [val_main_v17_apply, val_main_v14_apply, val_main_v16_apply, val_main_v15_apply]
      exact dense_readD (val_main_v13 (F := Ideal) x0 x3 x4 x5 x6) x7 x8 r q _ _ _
        (fun k => funext fun a => Fin.ext (by match a with | ⟨0, _⟩ => rfl | ⟨1, _⟩ => rfl))
        (fun k => funext fun a => Fin.ext (by match a with | ⟨0, _⟩ => rfl | ⟨1, _⟩ => rfl))
        (funext fun a => Fin.ext (by match a with | ⟨0, _⟩ => rfl)))

/-- The edge encoder: every row of the edge inputs through the three-layer network. -/
theorem enc_edges (x1 : (⟨S400000x3, .f32⟩ : BufTy).Contents (Elt Ideal)) (x9 : (⟨S3x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) :
    val_main_v31 (F := Ideal) x1 x9 x10 x11 x12 x13 x14
      = encode (mat x9) (vec x10) (mat x11) (vec x12) (mat x13) (vec x14) x1 :=
  encode_of_rowsD _ _ _ _ _ _ x1 (val_main_v21 (F := Ideal) x1 x9 x10) (val_main_v22 (F := Ideal) x1 x9 x10) (val_main_v26 (F := Ideal) x1 x9 x10 x11 x12) (val_main_v27 (F := Ideal) x1 x9 x10 x11 x12) _
    (fun r q => by
      rw [val_main_v21_apply, val_main_v18_apply, val_main_v20_apply, val_main_v19_apply]
      exact dense_readD x1 x9 x10 r q _ _ _
        (fun k => funext fun a => Fin.ext (by match a with | ⟨0, _⟩ => rfl | ⟨1, _⟩ => rfl))
        (fun k => funext fun a => Fin.ext (by match a with | ⟨0, _⟩ => rfl | ⟨1, _⟩ => rfl))
        (funext fun a => Fin.ext (by match a with | ⟨0, _⟩ => rfl)))
    (fun r q => by
      rw [val_main_v22_apply, val_main_call2_v0_apply, val_main_call2_cst_apply]; exact relu_readD _)
    (fun r q => by
      rw [val_main_v26_apply, val_main_v23_apply, val_main_v25_apply, val_main_v24_apply]
      exact dense_readD (val_main_v22 (F := Ideal) x1 x9 x10) x11 x12 r q _ _ _
        (fun k => funext fun a => Fin.ext (by match a with | ⟨0, _⟩ => rfl | ⟨1, _⟩ => rfl))
        (fun k => funext fun a => Fin.ext (by match a with | ⟨0, _⟩ => rfl | ⟨1, _⟩ => rfl))
        (funext fun a => Fin.ext (by match a with | ⟨0, _⟩ => rfl)))
    (fun r q => by
      rw [val_main_v27_apply, val_main_call3_v0_apply, val_main_call3_cst_apply]; exact relu_readD _)
    (fun r q => by
      rw [val_main_v31_apply, val_main_v28_apply, val_main_v30_apply, val_main_v29_apply]
      exact dense_readD (val_main_v27 (F := Ideal) x1 x9 x10 x11 x12) x13 x14 r q _ _ _
        (fun k => funext fun a => Fin.ext (by match a with | ⟨0, _⟩ => rfl | ⟨1, _⟩ => rfl))
        (fun k => funext fun a => Fin.ext (by match a with | ⟨0, _⟩ => rfl | ⟨1, _⟩ => rfl))
        (funext fun a => Fin.ext (by match a with | ⟨0, _⟩ => rfl)))

/-- The decoder: every row of the last node rows (the last step's node update, operation 250) through the
    three-layer network into two numbers. -/
theorem decode (x0 : (⟨S50000x4, .f32⟩ : BufTy).Contents (Elt Ideal)) (x1 : (⟨S400000x3, .f32⟩ : BufTy).Contents (Elt Ideal)) (x2 : (⟨S2x400000, .i32⟩ : BufTy).Contents (Elt Ideal)) (x3 : (⟨S4x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S3x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S3x384x128, .f32⟩ : BufTy).Contents (Elt Ideal)) (x16 : (⟨S3x128, .f32⟩ : BufTy).Contents (Elt Ideal)) (x17 : (⟨S3x128x128, .f32⟩ : BufTy).Contents (Elt Ideal)) (x18 : (⟨S3x128, .f32⟩ : BufTy).Contents (Elt Ideal)) (x19 : (⟨S3x128x128, .f32⟩ : BufTy).Contents (Elt Ideal)) (x20 : (⟨S3x128, .f32⟩ : BufTy).Contents (Elt Ideal)) (x21 : (⟨S3x256x128, .f32⟩ : BufTy).Contents (Elt Ideal)) (x22 : (⟨S3x128, .f32⟩ : BufTy).Contents (Elt Ideal)) (x23 : (⟨S3x128x128, .f32⟩ : BufTy).Contents (Elt Ideal)) (x24 : (⟨S3x128, .f32⟩ : BufTy).Contents (Elt Ideal)) (x25 : (⟨S3x128x128, .f32⟩ : BufTy).Contents (Elt Ideal)) (x26 : (⟨S3x128, .f32⟩ : BufTy).Contents (Elt Ideal)) (x27 : (⟨S128x128, .f32⟩ : BufTy).Contents (Elt Ideal)) (x28 : (⟨S128, .f32⟩ : BufTy).Contents (Elt Ideal)) (x29 : (⟨S128x128, .f32⟩ : BufTy).Contents (Elt Ideal)) (x30 : (⟨S128, .f32⟩ : BufTy).Contents (Elt Ideal)) (x31 : (⟨S128x2, .f32⟩ : BufTy).Contents (Elt Ideal)) (x32 : (⟨S2, .f32⟩ : BufTy).Contents (Elt Ideal)) :
    val_main_v264 (F := Ideal) x0 x1 x2 x3 x4 x5 x6 x7 x8 x9 x10 x11 x12 x13 x14 x15 x16 x17 x18 x19 x20 x21 x22 x23 x24 x25 x26 x27 x28 x29 x30 x31 x32
      = encode (mat x27) (vec x28) (mat x29) (vec x30) (mat x31) (vec x32) (val_main_v250 (F := Ideal) x0 x1 x2 x3 x4 x5 x6 x7 x8 x9 x10 x11 x12 x13 x14 x15 x16 x17 x18 x19 x20 x21 x22 x23 x24 x25 x26) :=
  encode_of_rowsD _ _ _ _ _ _ (val_main_v250 (F := Ideal) x0 x1 x2 x3 x4 x5 x6 x7 x8 x9 x10 x11 x12 x13 x14 x15 x16 x17 x18 x19 x20 x21 x22 x23 x24 x25 x26) (val_main_v254 (F := Ideal) x0 x1 x2 x3 x4 x5 x6 x7 x8 x9 x10 x11 x12 x13 x14 x15 x16 x17 x18 x19 x20 x21 x22 x23 x24 x25 x26 x27 x28) (val_main_v255 (F := Ideal) x0 x1 x2 x3 x4 x5 x6 x7 x8 x9 x10 x11 x12 x13 x14 x15 x16 x17 x18 x19 x20 x21 x22 x23 x24 x25 x26 x27 x28) (val_main_v259 (F := Ideal) x0 x1 x2 x3 x4 x5 x6 x7 x8 x9 x10 x11 x12 x13 x14 x15 x16 x17 x18 x19 x20 x21 x22 x23 x24 x25 x26 x27 x28 x29 x30) (val_main_v260 (F := Ideal) x0 x1 x2 x3 x4 x5 x6 x7 x8 x9 x10 x11 x12 x13 x14 x15 x16 x17 x18 x19 x20 x21 x22 x23 x24 x25 x26 x27 x28 x29 x30) _
    (fun r q => by
      rw [val_main_v254_apply, val_main_v251_apply, val_main_v253_apply, val_main_v252_apply]
      exact dense_readD (val_main_v250 (F := Ideal) x0 x1 x2 x3 x4 x5 x6 x7 x8 x9 x10 x11 x12 x13 x14 x15 x16 x17 x18 x19 x20 x21 x22 x23 x24 x25 x26) x27 x28 r q _ _ _
        (fun k => funext fun a => Fin.ext (by match a with | ⟨0, _⟩ => rfl | ⟨1, _⟩ => rfl))
        (fun k => funext fun a => Fin.ext (by match a with | ⟨0, _⟩ => rfl | ⟨1, _⟩ => rfl))
        (funext fun a => Fin.ext (by match a with | ⟨0, _⟩ => rfl)))
    (fun r q => by
      rw [val_main_v255_apply, val_main_call16_v0_apply, val_main_call16_cst_apply]; exact relu_readD _)
    (fun r q => by
      rw [val_main_v259_apply, val_main_v256_apply, val_main_v258_apply, val_main_v257_apply]
      exact dense_readD (val_main_v255 (F := Ideal) x0 x1 x2 x3 x4 x5 x6 x7 x8 x9 x10 x11 x12 x13 x14 x15 x16 x17 x18 x19 x20 x21 x22 x23 x24 x25 x26 x27 x28) x29 x30 r q _ _ _
        (fun k => funext fun a => Fin.ext (by match a with | ⟨0, _⟩ => rfl | ⟨1, _⟩ => rfl))
        (fun k => funext fun a => Fin.ext (by match a with | ⟨0, _⟩ => rfl | ⟨1, _⟩ => rfl))
        (funext fun a => Fin.ext (by match a with | ⟨0, _⟩ => rfl)))
    (fun r q => by
      rw [val_main_v260_apply, val_main_call17_v0_apply, val_main_call17_cst_apply]; exact relu_readD _)
    (fun r q => by
      rw [val_main_v264_apply, val_main_v261_apply, val_main_v263_apply, val_main_v262_apply]
      exact dense_readD (val_main_v260 (F := Ideal) x0 x1 x2 x3 x4 x5 x6 x7 x8 x9 x10 x11 x12 x13 x14 x15 x16 x17 x18 x19 x20 x21 x22 x23 x24 x25 x26 x27 x28 x29 x30) x31 x32 r q _ _ _
        (fun k => funext fun a => Fin.ext (by match a with | ⟨0, _⟩ => rfl | ⟨1, _⟩ => rfl))
        (fun k => funext fun a => Fin.ext (by match a with | ⟨0, _⟩ => rfl | ⟨1, _⟩ => rfl))
        (funext fun a => Fin.ext (by match a with | ⟨0, _⟩ => rfl)))

end Cert.ReferenceIdeal.Val

end
-- ==== Proof.RValE.lean ====
/-
  The reference program's edge updates, read row by row.

  In each of the three message-passing steps the reference joins, for every edge, its sender's feature row, its
  receiver's feature row and its own row into one row of 384 entries, sends that row through three linear layers
  (a rectified linear unit after the first two) and adds the result to the edge's old row. The first layer contracts
  the joined row against all 384 rows of its weights; a sum over three rows laid end to end is the sum of the three
  sums over the pieces, so that layer is the three-band layer of the network's row functions, each piece against its
  own band of 128 weight rows. The weights of step `t` are slice `t` of the stacked weight arrays; the slice and the
  reshape that follow it only rename indices. The two gathered arrays are left as the program writes them.
  No finiteness of any entry is used: only that sums over a row split into sums over its pieces.
-/
import proofs.«425516_j47425028883052_2_alg».proof.Proof.ReadP
import proofs.«425516_j47425028883052_2_alg».proof.Proof.Net
import Idealize.ShloMosaic.Lib.Pipeline.Value
import Idealize.ShloMosaic.Lib.ValueIdx
import Idealize.ShloMosaic.PureOps.Ideal
import Idealize.ShloMosaic.PureOps.Ideal.Laws

noncomputable section

namespace Cert.ReferenceIdeal.Val

open Idealize.ShloMosaic Idealize.ShloMosaic.ValueIdx Cert.ReferenceIdeal Cert.Spec Cert.Net Cert.ReferenceIdeal.Read

/-! ## Reading one layer, one join and one step -/

namespace Edge

/-- A contraction of row `r` of `X` with column `q` of `W`, plus entry `q` of `b`, is entry `q` of the linear
    layer on that row. -/
theorem dense_read {n K M : ℕ} (X : A2 n K) (W : A2 K M) (b : A1 M) (r : Fin n) (q : Fin M)
    (li : Fin K → (⟨2, ![n, K]⟩ : Shape).Idx) (wi : Fin K → (⟨2, ![K, M]⟩ : Shape).Idx) (bi : (⟨1, ![M]⟩ : Shape).Idx)
    (hl : ∀ k, li k = ix2 r k) (hw : ∀ k, wi k = ix2 k q) (hb : bi = ix1 q) :
    FloatOps.addf (F := Ideal) (φ := .f32) (∑ k, X (li k) * W (wi k)) (b bi) = dense (mat W) (vec b) (rowAt X r) q := by
  simp only [hl, hw, hb]; rfl

/-- The maximum with the zero word is the rectified linear unit. -/
theorem relu_read (a : EReal) :
    FloatOps.maximumf (F := Ideal) (φ := .f32) a (FloatOps.ofBits (F := Ideal) .f32 0x00000000#32) = max a 0 := by
  simp only [Ideal.maximumf_def, Ideal.ofBits_def, Ideal.ofBits_zero_f32]

/-- The first layer over three rows laid end to end, in its three-band form. -/
theorem dense_cat3_band (W : Fin 384 → Fin 128 → EReal) (b : Fin 128 → EReal) (u v w : Fin 128 → EReal) :
    dense (K := 384) W b (cat3 (n := 128) u v w)
      = dense3 (band W 0 (by omega)) (band W 128 (by omega)) (band W 256 (by omega)) b u v w := by
  have ha : (fun k => W (Fin.castAdd 128 (Fin.castAdd 128 k))) = band W 0 (by omega) :=
    funext fun k => congrArg W (Fin.ext (by show k.val = 0 + k.val; omega))
  have hb : (fun k => W (Fin.castAdd 128 (Fin.natAdd 128 k))) = band W 128 (by omega) :=
    funext fun k => congrArg W (Fin.ext (by show 128 + k.val = 128 + k.val; rfl))
  have hc : (fun k => W (Fin.natAdd (128 + 128) k)) = band W 256 (by omega) :=
    funext fun k => congrArg W (Fin.ext (by show 128 + 128 + k.val = 256 + k.val; omega))
  rw [← ha, ← hb, ← hc]
  exact dense_cat3 (n := 128) W b u v w

/-- Row `r` of three arrays joined along their columns is the three rows laid end to end. -/
theorem cat3_row (hs hd e : A2 400000 128)
    (hc : Shape.Concatenates [S400000x128, S400000x128, S400000x128] S400000x384 1) (r : Fin 400000) (k : Fin (128 + 128 + 128)) :
    concatenate S400000x384 1 [⟨S400000x128, hs⟩, ⟨S400000x128, hd⟩, ⟨S400000x128, e⟩] hc (ix2 r k)
      = cat3 (n := 128) (rowAt hs r) (rowAt hd r) (rowAt e r) k := by
  induction k using Fin.addCases with
  | left k =>
    induction k using Fin.addCases with
    | left k =>
      rw [cat3, Fin.addCases_left, Fin.addCases_left]
      exact concatenate_apply_piece (t := S400000x384) 1 [⟨S400000x128, hs⟩, ⟨S400000x128, hd⟩, ⟨S400000x128, e⟩] hc
        (ix2 r (Fin.castAdd 128 (Fin.castAdd 128 k))) 0 (by show (0 : ℕ) < 3; decide) S400000x128 hs rfl rfl 0 rfl (ix2 r k)
        (fun b hb => by
          match b with
          | ⟨0, _⟩ => rfl
          | ⟨1, _⟩ => exact absurd rfl hb)
        (by show 0 + k.val = k.val; omega)
    | right k =>
      rw [cat3, Fin.addCases_left, Fin.addCases_right]
      exact concatenate_apply_piece (t := S400000x384) 1 [⟨S400000x128, hs⟩, ⟨S400000x128, hd⟩, ⟨S400000x128, e⟩] hc
        (ix2 r (Fin.castAdd 128 (Fin.natAdd 128 k))) 1 (by show (1 : ℕ) < 3; decide) S400000x128 hd rfl rfl 128 rfl (ix2 r k)
        (fun b hb => by
          match b with
          | ⟨0, _⟩ => rfl
          | ⟨1, _⟩ => exact absurd rfl hb)
        (by show 128 + k.val = 128 + k.val; rfl)
  | right k =>
    rw [cat3, Fin.addCases_right]
    exact concatenate_apply_piece (t := S400000x384) 1 [⟨S400000x128, hs⟩, ⟨S400000x128, hd⟩, ⟨S400000x128, e⟩] hc
      (ix2 r (Fin.natAdd (128 + 128) k)) 2 (by show (2 : ℕ) < 3; decide) S400000x128 e rfl rfl 256 rfl (ix2 r k)
      (fun b hb => by
        match b with
        | ⟨0, _⟩ => rfl
        | ⟨1, _⟩ => exact absurd rfl hb)
      (by show 256 + k.val = 128 + 128 + k.val; omega)

/-- An array whose rows are the old edge rows plus three linear layers (rectified after the first two) of the
    sender's, the receiver's and the edge's rows laid end to end is the edge update in its three-band form. -/
theorem edgeStep_of_rows {n : ℕ} (W1 : Fin 384 → Fin 128 → EReal) (b1 : Fin 128 → EReal) (W2 : Fin 128 → Fin 128 → EReal)
    (b2 : Fin 128 → EReal) (W3 : Fin 128 → Fin 128 → EReal) (b3 : Fin 128 → EReal) (hs hd e : A2 n 128) (c : A2 n 384)
    (z1 r1 z2 r2 z3 y : A2 n 128)
    (hc : ∀ r k, c (ix2 r k) = cat3 (n := 128) (rowAt hs r) (rowAt hd r) (rowAt e r) k)
    (h1 : ∀ r q, z1 (ix2 r q) = dense W1 b1 (rowAt c r) q)
    (hr1 : ∀ r q, r1 (ix2 r q) = max (z1 (ix2 r q)) 0)
    (h2 : ∀ r q, z2 (ix2 r q) = dense W2 b2 (rowAt r1 r) q)
    (hr2 : ∀ r q, r2 (ix2 r q) = max (z2 (ix2 r q)) 0)
    (h3 : ∀ r q, z3 (ix2 r q) = dense W3 b3 (rowAt r2 r) q)
    (hy : ∀ i, y i = e i + z3 i) :
    y = edgeStep (band W1 0 (by omega)) (band W1 128 (by omega)) (band W1 256 (by omega)) b1 W2 b2 W3 b3 hs hd e := by
  funext i
  obtain ⟨r, q, rfl⟩ : ∃ (r : Fin n) (q : Fin 128), i = ix2 r q := ⟨_, _, eq_ix2 i⟩
  have e0 : rowAt c r = cat3 (n := 128) (rowAt hs r) (rowAt hd r) (rowAt e r) := funext fun k => hc r k
  have e1 : rowAt r1 r = relu (dense3 (band W1 0 (by omega)) (band W1 128 (by omega)) (band W1 256 (by omega)) b1
      (rowAt hs r) (rowAt hd r) (rowAt e r)) :=
    funext fun k => (hr1 r k).trans (by rw [h1, e0, dense_cat3_band]; rfl)
  have e2 : rowAt r2 r = relu (dense W2 b2 (rowAt r1 r)) := funext fun k => (hr2 r k).trans (by rw [h2]; rfl)
  rw [hy, h3, e2, e1]
  rfl

end Edge

/-! ## Step 0's edge update -/

/-- Slice 0 of the stack `x15`, as the matrix the step contracts with. -/
theorem Edge.w_v48 (x15 : (⟨S3x384x128, .f32⟩ : BufTy).Contents (Elt Ideal)) :
    mat (val_main_v48 (F := Ideal) x15) = w3 x15 0 := by
  funext k j
  show val_main_v48 (F := Ideal) x15 (ix2 k j) = x15 (ix3 0 k j)
  rw [val_main_v48_apply, val_main_v47_apply]
  have hk := k.isLt
  have hj := j.isLt
  exact congrArg x15 (funext fun a => Fin.ext (by
    match a with
    | ⟨0, _⟩ => rfl
    | ⟨1, _⟩ => show (k.val * 128 + j.val) / 128 % 384 = k.val; omega
    | ⟨2, _⟩ => show (k.val * 128 + j.val) % 128 = j.val; omega))

/-- Slice 0 of the stack `x16`, as the row the step adds. -/
theorem Edge.b_v50 (x16 : (⟨S3x128, .f32⟩ : BufTy).Contents (Elt Ideal)) :
    vec (val_main_v50 (F := Ideal) x16) = b3 x16 0 := by
  funext j
  show val_main_v50 (F := Ideal) x16 (ix1 j) = x16 (ix2 0 j)
  rw [val_main_v50_apply, val_main_v49_apply]
  have hj := j.isLt
  exact congrArg x16 (funext fun a => Fin.ext (by
    match a with
    | ⟨0, _⟩ => rfl
    | ⟨1, _⟩ => show j.val % 128 = j.val; omega))

/-- Slice 0 of the stack `x17`, as the matrix the step contracts with. -/
theorem Edge.w_v52 (x17 : (⟨S3x128x128, .f32⟩ : BufTy).Contents (Elt Ideal)) :
    mat (val_main_v52 (F := Ideal) x17) = w3 x17 0 := by
  funext k j
  show val_main_v52 (F := Ideal) x17 (ix2 k j) = x17 (ix3 0 k j)
  rw [val_main_v52_apply, val_main_v51_apply]
  have hk := k.isLt
  have hj := j.isLt
  exact congrArg x17 (funext fun a => Fin.ext (by
    match a with
    | ⟨0, _⟩ => rfl
    | ⟨1, _⟩ => show (k.val * 128 + j.val) / 128 % 128 = k.val; omega
    | ⟨2, _⟩ => show (k.val * 128 + j.val) % 128 = j.val; omega))

/-- Slice 0 of the stack `x18`, as the row the step adds. -/
theorem Edge.b_v54 (x18 : (⟨S3x128, .f32⟩ : BufTy).Contents (Elt Ideal)) :
    vec (val_main_v54 (F := Ideal) x18) = b3 x18 0 := by
  funext j
  show val_main_v54 (F := Ideal) x18 (ix1 j) = x18 (ix2 0 j)
  rw [val_main_v54_apply, val_main_v53_apply]
  have hj := j.isLt
  exact congrArg x18 (funext fun a => Fin.ext (by
    match a with
    | ⟨0, _⟩ => rfl
    | ⟨1, _⟩ => show j.val % 128 = j.val; omega))

/-- Slice 0 of the stack `x19`, as the matrix the step contracts with. -/
theorem Edge.w_v56 (x19 : (⟨S3x128x128, .f32⟩ : BufTy).Contents (Elt Ideal)) :
    mat (val_main_v56 (F := Ideal) x19) = w3 x19 0 := by
  funext k j
  show val_main_v56 (F := Ideal) x19 (ix2 k j) = x19 (ix3 0 k j)
  rw [val_main_v56_apply, val_main_v55_apply]
  have hk := k.isLt
  have hj := j.isLt
  exact congrArg x19 (funext fun a => Fin.ext (by
    match a with
    | ⟨0, _⟩ => rfl
    | ⟨1, _⟩ => show (k.val * 128 + j.val) / 128 % 128 = k.val; omega
    | ⟨2, _⟩ => show (k.val * 128 + j.val) % 128 = j.val; omega))

/-- Slice 0 of the stack `x20`, as the row the step adds. -/
theorem Edge.b_v58 (x20 : (⟨S3x128, .f32⟩ : BufTy).Contents (Elt Ideal)) :
    vec (val_main_v58 (F := Ideal) x20) = b3 x20 0 := by
  funext j
  show val_main_v58 (F := Ideal) x20 (ix1 j) = x20 (ix2 0 j)
  rw [val_main_v58_apply, val_main_v57_apply]
  have hj := j.isLt
  exact congrArg x20 (funext fun a => Fin.ext (by
    match a with
    | ⟨0, _⟩ => rfl
    | ⟨1, _⟩ => show j.val % 128 = j.val; omega))

/-- Step 0's edge update: every edge row plus the three-layer network of its sender's row, its receiver's row and
    itself, the first layer over the three rows laid end to end read in its three-band form. -/
theorem edge0 (x0 : (⟨S50000x4, .f32⟩ : BufTy).Contents (Elt Ideal)) (x1 : (⟨S400000x3, .f32⟩ : BufTy).Contents (Elt Ideal)) (x2 : (⟨S2x400000, .i32⟩ : BufTy).Contents (Elt Ideal)) (x3 : (⟨S4x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S3x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S3x384x128, .f32⟩ : BufTy).Contents (Elt Ideal)) (x16 : (⟨S3x128, .f32⟩ : BufTy).Contents (Elt Ideal)) (x17 : (⟨S3x128x128, .f32⟩ : BufTy).Contents (Elt Ideal)) (x18 : (⟨S3x128, .f32⟩ : BufTy).Contents (Elt Ideal)) (x19 : (⟨S3x128x128, .f32⟩ : BufTy).Contents (Elt Ideal)) (x20 : (⟨S3x128, .f32⟩ : BufTy).Contents (Elt Ideal)) :
    val_main_v73 (F := Ideal) x0 x1 x2 x3 x4 x5 x6 x7 x8 x9 x10 x11 x12 x13 x14 x15 x16 x17 x18 x19 x20
      = edgeStep (band (w3 x15 0) 0 (by omega)) (band (w3 x15 0) 128 (by omega)) (band (w3 x15 0) 256 (by omega)) (b3 x16 0)
          (w3 x17 0) (b3 x18 0) (w3 x19 0) (b3 x20 0)
          (val_main_v38 (F := Ideal) x0 x2 x3 x4 x5 x6 x7 x8)
          (val_main_v45 (F := Ideal) x0 x2 x3 x4 x5 x6 x7 x8)
          (val_main_v31 (F := Ideal) x1 x9 x10 x11 x12 x13 x14) := by
  rw [← Edge.w_v48 x15, ← Edge.b_v50 x16, ← Edge.w_v52 x17, ← Edge.b_v54 x18, ← Edge.w_v56 x19, ← Edge.b_v58 x20]
  exact Edge.edgeStep_of_rows _ _ _ _ _ _ (val_main_v38 (F := Ideal) x0 x2 x3 x4 x5 x6 x7 x8) (val_main_v45 (F := Ideal) x0 x2 x3 x4 x5 x6 x7 x8) (val_main_v31 (F := Ideal) x1 x9 x10 x11 x12 x13 x14)
    (val_main_v46 (F := Ideal) x0 x1 x2 x3 x4 x5 x6 x7 x8 x9 x10 x11 x12 x13 x14)
    (val_main_v62 (F := Ideal) x0 x1 x2 x3 x4 x5 x6 x7 x8 x9 x10 x11 x12 x13 x14 x15 x16)
    (val_main_v63 (F := Ideal) x0 x1 x2 x3 x4 x5 x6 x7 x8 x9 x10 x11 x12 x13 x14 x15 x16)
    (val_main_v67 (F := Ideal) x0 x1 x2 x3 x4 x5 x6 x7 x8 x9 x10 x11 x12 x13 x14 x15 x16 x17 x18)
    (val_main_v68 (F := Ideal) x0 x1 x2 x3 x4 x5 x6 x7 x8 x9 x10 x11 x12 x13 x14 x15 x16 x17 x18)
    (val_main_v72 (F := Ideal) x0 x1 x2 x3 x4 x5 x6 x7 x8 x9 x10 x11 x12 x13 x14 x15 x16 x17 x18 x19 x20) _
    (fun r k => by unfold val_main_v46; exact Edge.cat3_row _ _ _ _ r k)
    (fun r q => by
      rw [val_main_v62_apply, val_main_v59_apply, val_main_v61_apply, val_main_v60_apply]
      exact Edge.dense_read (val_main_v46 (F := Ideal) x0 x1 x2 x3 x4 x5 x6 x7 x8 x9 x10 x11 x12 x13 x14) (val_main_v48 (F := Ideal) x15) (val_main_v50 (F := Ideal) x16) r q _ _ _
        (fun k => funext fun a => Fin.ext (by match a with | ⟨0, _⟩ => rfl | ⟨1, _⟩ => rfl))
        (fun k => funext fun a => Fin.ext (by match a with | ⟨0, _⟩ => rfl | ⟨1, _⟩ => rfl))
        (funext fun a => Fin.ext (by match a with | ⟨0, _⟩ => rfl)))
    (fun r q => by
      rw [val_main_v63_apply, val_main_call4_v0_apply, val_main_call4_cst_apply]; exact Edge.relu_read _)
    (fun r q => by
      rw [val_main_v67_apply, val_main_v64_apply, val_main_v66_apply, val_main_v65_apply]
      exact Edge.dense_read (val_main_v63 (F := Ideal) x0 x1 x2 x3 x4 x5 x6 x7 x8 x9 x10 x11 x12 x13 x14 x15 x16) (val_main_v52 (F := Ideal) x17) (val_main_v54 (F := Ideal) x18) r q _ _ _
        (fun k => funext fun a => Fin.ext (by match a with | ⟨0, _⟩ => rfl | ⟨1, _⟩ => rfl))
        (fun k => funext fun a => Fin.ext (by match a with | ⟨0, _⟩ => rfl | ⟨1, _⟩ => rfl))
        (funext fun a => Fin.ext (by match a with | ⟨0, _⟩ => rfl)))
    (fun r q => by
      rw [val_main_v68_apply, val_main_call5_v0_apply, val_main_call5_cst_apply]; exact Edge.relu_read _)
    (fun r q => by
      rw [val_main_v72_apply, val_main_v69_apply, val_main_v71_apply, val_main_v70_apply]
      exact Edge.dense_read (val_main_v68 (F := Ideal) x0 x1 x2 x3 x4 x5 x6 x7 x8 x9 x10 x11 x12 x13 x14 x15 x16 x17 x18) (val_main_v56 (F := Ideal) x19) (val_main_v58 (F := Ideal) x20) r q _ _ _
        (fun k => funext fun a => Fin.ext (by match a with | ⟨0, _⟩ => rfl | ⟨1, _⟩ => rfl))
        (fun k => funext fun a => Fin.ext (by match a with | ⟨0, _⟩ => rfl | ⟨1, _⟩ => rfl))
        (funext fun a => Fin.ext (by match a with | ⟨0, _⟩ => rfl)))
    (fun i => by rw [val_main_v73_apply]; rfl)

end Cert.ReferenceIdeal.Val

end
-- ==== Proof.RValE1.lean ====
/-
  Step 1 of the reference program's edge updates, read row by row: the same reading as step 0's, at step 1's
  operations and at slice 1 of the stacked weights.
-/
import proofs.«425516_j47425028883052_2_alg».proof.Proof.RValE

noncomputable section

namespace Cert.ReferenceIdeal.Val

open Idealize.ShloMosaic Idealize.ShloMosaic.ValueIdx Cert.ReferenceIdeal Cert.Spec Cert.Net Cert.ReferenceIdeal.Read

/-! ## Step 1's edge update -/

/-- Slice 1 of the stack `x15`, as the matrix the step contracts with. -/
theorem Edge.w_v121 (x15 : (⟨S3x384x128, .f32⟩ : BufTy).Contents (Elt Ideal)) :
    mat (val_main_v121 (F := Ideal) x15) = w3 x15 1 := by
  funext k j
  show val_main_v121 (F := Ideal) x15 (ix2 k j) = x15 (ix3 1 k j)
  rw [val_main_v121_apply, val_main_v120_apply]
  have hk := k.isLt
  have hj := j.isLt
  exact congrArg x15 (funext fun a => Fin.ext (by
    match a with
    | ⟨0, _⟩ => rfl
    | ⟨1, _⟩ => show (k.val * 128 + j.val) / 128 % 384 = k.val; omega
    | ⟨2, _⟩ => show (k.val * 128 + j.val) % 128 = j.val; omega))

/-- Slice 1 of the stack `x16`, as the row the step adds. -/
theorem Edge.b_v123 (x16 : (⟨S3x128, .f32⟩ : BufTy).Contents (Elt Ideal)) :
    vec (val_main_v123 (F := Ideal) x16) = b3 x16 1 := by
  funext j
  show val_main_v123 (F := Ideal) x16 (ix1 j) = x16 (ix2 1 j)
  rw [val_main_v123_apply, val_main_v122_apply]
  have hj := j.isLt
  exact congrArg x16 (funext fun a => Fin.ext (by
    match a with
    | ⟨0, _⟩ => rfl
    | ⟨1, _⟩ => show j.val % 128 = j.val; omega))

/-- Slice 1 of the stack `x17`, as the matrix the step contracts with. -/
theorem Edge.w_v125 (x17 : (⟨S3x128x128, .f32⟩ : BufTy).Contents (Elt Ideal)) :
    mat (val_main_v125 (F := Ideal) x17) = w3 x17 1 := by
  funext k j
  show val_main_v125 (F := Ideal) x17 (ix2 k j) = x17 (ix3 1 k j)
  rw [val_main_v125_apply, val_main_v124_apply]
  have hk := k.isLt
  have hj := j.isLt
  exact congrArg x17 (funext fun a => Fin.ext (by
    match a with
    | ⟨0, _⟩ => rfl
    | ⟨1, _⟩ => show (k.val * 128 + j.val) / 128 % 128 = k.val; omega
    | ⟨2, _⟩ => show (k.val * 128 + j.val) % 128 = j.val; omega))

/-- Slice 1 of the stack `x18`, as the row the step adds. -/
theorem Edge.b_v127 (x18 : (⟨S3x128, .f32⟩ : BufTy).Contents (Elt Ideal)) :
    vec (val_main_v127 (F := Ideal) x18) = b3 x18 1 := by
  funext j
  show val_main_v127 (F := Ideal) x18 (ix1 j) = x18 (ix2 1 j)
  rw [val_main_v127_apply, val_main_v126_apply]
  have hj := j.isLt
  exact congrArg x18 (funext fun a => Fin.ext (by
    match a with
    | ⟨0, _⟩ => rfl
    | ⟨1, _⟩ => show j.val % 128 = j.val; omega))

/-- Slice 1 of the stack `x19`, as the matrix the step contracts with. -/
theorem Edge.w_v129 (x19 : (⟨S3x128x128, .f32⟩ : BufTy).Contents (Elt Ideal)) :
    mat (val_main_v129 (F := Ideal) x19) = w3 x19 1 := by
  funext k j
  show val_main_v129 (F := Ideal) x19 (ix2 k j) = x19 (ix3 1 k j)
  rw [val_main_v129_apply, val_main_v128_apply]
  have hk := k.isLt
  have hj := j.isLt
  exact congrArg x19 (funext fun a => Fin.ext (by
    match a with
    | ⟨0, _⟩ => rfl
    | ⟨1, _⟩ => show (k.val * 128 + j.val) / 128 % 128 = k.val; omega
    | ⟨2, _⟩ => show (k.val * 128 + j.val) % 128 = j.val; omega))

/-- Slice 1 of the stack `x20`, as the row the step adds. -/
theorem Edge.b_v131 (x20 : (⟨S3x128, .f32⟩ : BufTy).Contents (Elt Ideal)) :
    vec (val_main_v131 (F := Ideal) x20) = b3 x20 1 := by
  funext j
  show val_main_v131 (F := Ideal) x20 (ix1 j) = x20 (ix2 1 j)
  rw [val_main_v131_apply, val_main_v130_apply]
  have hj := j.isLt
  exact congrArg x20 (funext fun a => Fin.ext (by
    match a with
    | ⟨0, _⟩ => rfl
    | ⟨1, _⟩ => show j.val % 128 = j.val; omega))

/-- Step 1's edge update: every edge row plus the three-layer network of its sender's row, its receiver's row and
    itself, the first layer over the three rows laid end to end read in its three-band form. -/
theorem edge1 (x0 : (⟨S50000x4, .f32⟩ : BufTy).Contents (Elt Ideal)) (x1 : (⟨S400000x3, .f32⟩ : BufTy).Contents (Elt Ideal)) (x2 : (⟨S2x400000, .i32⟩ : BufTy).Contents (Elt Ideal)) (x3 : (⟨S4x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S3x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S3x384x128, .f32⟩ : BufTy).Contents (Elt Ideal)) (x16 : (⟨S3x128, .f32⟩ : BufTy).Contents (Elt Ideal)) (x17 : (⟨S3x128x128, .f32⟩ : BufTy).Contents (Elt Ideal)) (x18 : (⟨S3x128, .f32⟩ : BufTy).Contents (Elt Ideal)) (x19 : (⟨S3x128x128, .f32⟩ : BufTy).Contents (Elt Ideal)) (x20 : (⟨S3x128, .f32⟩ : BufTy).Contents (Elt Ideal)) (x21 : (⟨S3x256x128, .f32⟩ : BufTy).Contents (Elt Ideal)) (x22 : (⟨S3x128, .f32⟩ : BufTy).Contents (Elt Ideal)) (x23 : (⟨S3x128x128, .f32⟩ : BufTy).Contents (Elt Ideal)) (x24 : (⟨S3x128, .f32⟩ : BufTy).Contents (Elt Ideal)) (x25 : (⟨S3x128x128, .f32⟩ : BufTy).Contents (Elt Ideal)) (x26 : (⟨S3x128, .f32⟩ : BufTy).Contents (Elt Ideal)) :
    val_main_v146 (F := Ideal) x0 x1 x2 x3 x4 x5 x6 x7 x8 x9 x10 x11 x12 x13 x14 x15 x16 x17 x18 x19 x20 x21 x22 x23 x24 x25 x26
      = edgeStep (band (w3 x15 1) 0 (by omega)) (band (w3 x15 1) 128 (by omega)) (band (w3 x15 1) 256 (by omega)) (b3 x16 1)
          (w3 x17 1) (b3 x18 1) (w3 x19 1) (b3 x20 1)
          (val_main_v111 (F := Ideal) x0 x1 x2 x3 x4 x5 x6 x7 x8 x9 x10 x11 x12 x13 x14 x15 x16 x17 x18 x19 x20 x21 x22 x23 x24 x25 x26)
          (val_main_v118 (F := Ideal) x0 x1 x2 x3 x4 x5 x6 x7 x8 x9 x10 x11 x12 x13 x14 x15 x16 x17 x18 x19 x20 x21 x22 x23 x24 x25 x26)
          (val_main_v73 (F := Ideal) x0 x1 x2 x3 x4 x5 x6 x7 x8 x9 x10 x11 x12 x13 x14 x15 x16 x17 x18 x19 x20) := by
  rw [← Edge.w_v121 x15, ← Edge.b_v123 x16, ← Edge.w_v125 x17, ← Edge.b_v127 x18, ← Edge.w_v129 x19, ← Edge.b_v131 x20]
  exact Edge.edgeStep_of_rows _ _ _ _ _ _ (val_main_v111 (F := Ideal) x0 x1 x2 x3 x4 x5 x6 x7 x8 x9 x10 x11 x12 x13 x14 x15 x16 x17 x18 x19 x20 x21 x22 x23 x24 x25 x26) (val_main_v118 (F := Ideal) x0 x1 x2 x3 x4 x5 x6 x7 x8 x9 x10 x11 x12 x13 x14 x15 x16 x17 x18 x19 x20 x21 x22 x23 x24 x25 x26) (val_main_v73 (F := Ideal) x0 x1 x2 x3 x4 x5 x6 x7 x8 x9 x10 x11 x12 x13 x14 x15 x16 x17 x18 x19 x20)
    (val_main_v119 (F := Ideal) x0 x1 x2 x3 x4 x5 x6 x7 x8 x9 x10 x11 x12 x13 x14 x15 x16 x17 x18 x19 x20 x21 x22 x23 x24 x25 x26)
    (val_main_v135 (F := Ideal) x0 x1 x2 x3 x4 x5 x6 x7 x8 x9 x10 x11 x12 x13 x14 x15 x16 x17 x18 x19 x20 x21 x22 x23 x24 x25 x26)
    (val_main_v136 (F := Ideal) x0 x1 x2 x3 x4 x5 x6 x7 x8 x9 x10 x11 x12 x13 x14 x15 x16 x17 x18 x19 x20 x21 x22 x23 x24 x25 x26)
    (val_main_v140 (F := Ideal) x0 x1 x2 x3 x4 x5 x6 x7 x8 x9 x10 x11 x12 x13 x14 x15 x16 x17 x18 x19 x20 x21 x22 x23 x24 x25 x26)
    (val_main_v141 (F := Ideal) x0 x1 x2 x3 x4 x5 x6 x7 x8 x9 x10 x11 x12 x13 x14 x15 x16 x17 x18 x19 x20 x21 x22 x23 x24 x25 x26)
    (val_main_v145 (F := Ideal) x0 x1 x2 x3 x4 x5 x6 x7 x8 x9 x10 x11 x12 x13 x14 x15 x16 x17 x18 x19 x20 x21 x22 x23 x24 x25 x26) _
    (fun r k => by unfold val_main_v119; exact Edge.cat3_row _ _ _ _ r k)
    (fun r q => by
      rw [val_main_v135_apply, val_main_v132_apply, val_main_v134_apply, val_main_v133_apply]
      exact Edge.dense_read (val_main_v119 (F := Ideal) x0 x1 x2 x3 x4 x5 x6 x7 x8 x9 x10 x11 x12 x13 x14 x15 x16 x17 x18 x19 x20 x21 x22 x23 x24 x25 x26) (val_main_v121 (F := Ideal) x15) (val_main_v123 (F := Ideal) x16) r q _ _ _
        (fun k => funext fun a => Fin.ext (by match a with | ⟨0, _⟩ => rfl | ⟨1, _⟩ => rfl))
        (fun k => funext fun a => Fin.ext (by match a with | ⟨0, _⟩ => rfl | ⟨1, _⟩ => rfl))
        (funext fun a => Fin.ext (by match a with | ⟨0, _⟩ => rfl)))
    (fun r q => by
      rw [val_main_v136_apply, val_main_call8_v0_apply, val_main_call8_cst_apply]; exact Edge.relu_read _)
    (fun r q => by
      rw [val_main_v140_apply, val_main_v137_apply, val_main_v139_apply, val_main_v138_apply]
      exact Edge.dense_read (val_main_v136 (F := Ideal) x0 x1 x2 x3 x4 x5 x6 x7 x8 x9 x10 x11 x12 x13 x14 x15 x16 x17 x18 x19 x20 x21 x22 x23 x24 x25 x26) (val_main_v125 (F := Ideal) x17) (val_main_v127 (F := Ideal) x18) r q _ _ _
        (fun k => funext fun a => Fin.ext (by match a with | ⟨0, _⟩ => rfl | ⟨1, _⟩ => rfl))
        (fun k => funext fun a => Fin.ext (by match a with | ⟨0, _⟩ => rfl | ⟨1, _⟩ => rfl))
        (funext fun a => Fin.ext (by match a with | ⟨0, _⟩ => rfl)))
    (fun r q => by
      rw [val_main_v141_apply, val_main_call9_v0_apply, val_main_call9_cst_apply]; exact Edge.relu_read _)
    (fun r q => by
      rw [val_main_v145_apply, val_main_v142_apply, val_main_v144_apply, val_main_v143_apply]
      exact Edge.dense_read (val_main_v141 (F := Ideal) x0 x1 x2 x3 x4 x5 x6 x7 x8 x9 x10 x11 x12 x13 x14 x15 x16 x17 x18 x19 x20 x21 x22 x23 x24 x25 x26) (val_main_v129 (F := Ideal) x19) (val_main_v131 (F := Ideal) x20) r q _ _ _
        (fun k => funext fun a => Fin.ext (by match a with | ⟨0, _⟩ => rfl | ⟨1, _⟩ => rfl))
        (fun k => funext fun a => Fin.ext (by match a with | ⟨0, _⟩ => rfl | ⟨1, _⟩ => rfl))
        (funext fun a => Fin.ext (by match a with | ⟨0, _⟩ => rfl)))
    (fun i => by rw [val_main_v146_apply]; rfl)

end Cert.ReferenceIdeal.Val

end
-- ==== Proof.RValE2.lean ====
/-
  Step 2 of the reference program's edge updates, read row by row: the same reading as step 0's, at step 2's
  operations and at slice 2 of the stacked weights.
-/
import proofs.«425516_j47425028883052_2_alg».proof.Proof.RValE

noncomputable section

namespace Cert.ReferenceIdeal.Val

open Idealize.ShloMosaic Idealize.ShloMosaic.ValueIdx Cert.ReferenceIdeal Cert.Spec Cert.Net Cert.ReferenceIdeal.Read

/-! ## Step 2's edge update -/

/-- Slice 2 of the stack `x15`, as the matrix the step contracts with. -/
theorem Edge.w_v194 (x15 : (⟨S3x384x128, .f32⟩ : BufTy).Contents (Elt Ideal)) :
    mat (val_main_v194 (F := Ideal) x15) = w3 x15 2 := by
  funext k j
  show val_main_v194 (F := Ideal) x15 (ix2 k j) = x15 (ix3 2 k j)
  rw [val_main_v194_apply, val_main_v193_apply]
  have hk := k.isLt
  have hj := j.isLt
  exact congrArg x15 (funext fun a => Fin.ext (by
    match a with
    | ⟨0, _⟩ => rfl
    | ⟨1, _⟩ => show (k.val * 128 + j.val) / 128 % 384 = k.val; omega
    | ⟨2, _⟩ => show (k.val * 128 + j.val) % 128 = j.val; omega))

/-- Slice 2 of the stack `x16`, as the row the step adds. -/
theorem Edge.b_v196 (x16 : (⟨S3x128, .f32⟩ : BufTy).Contents (Elt Ideal)) :
    vec (val_main_v196 (F := Ideal) x16) = b3 x16 2 := by
  funext j
  show val_main_v196 (F := Ideal) x16 (ix1 j) = x16 (ix2 2 j)
  rw [val_main_v196_apply, val_main_v195_apply]
  have hj := j.isLt
  exact congrArg x16 (funext fun a => Fin.ext (by
    match a with
    | ⟨0, _⟩ => rfl
    | ⟨1, _⟩ => show j.val % 128 = j.val; omega))

/-- Slice 2 of the stack `x17`, as the matrix the step contracts with. -/
theorem Edge.w_v198 (x17 : (⟨S3x128x128, .f32⟩ : BufTy).Contents (Elt Ideal)) :
    mat (val_main_v198 (F := Ideal) x17) = w3 x17 2 := by
  funext k j
  show val_main_v198 (F := Ideal) x17 (ix2 k j) = x17 (ix3 2 k j)
  rw [val_main_v198_apply, val_main_v197_apply]
  have hk := k.isLt
  have hj := j.isLt
  exact congrArg x17 (funext fun a => Fin.ext (by
    match a with
    | ⟨0, _⟩ => rfl
    | ⟨1, _⟩ => show (k.val * 128 + j.val) / 128 % 128 = k.val; omega
    | ⟨2, _⟩ => show (k.val * 128 + j.val) % 128 = j.val; omega))

/-- Slice 2 of the stack `x18`, as the row the step adds. -/
theorem Edge.b_v200 (x18 : (⟨S3x128, .f32⟩ : BufTy).Contents (Elt Ideal)) :
    vec (val_main_v200 (F := Ideal) x18) = b3 x18 2 := by
  funext j
  show val_main_v200 (F := Ideal) x18 (ix1 j) = x18 (ix2 2 j)
  rw [val_main_v200_apply, val_main_v199_apply]
  have hj := j.isLt
  exact congrArg x18 (funext fun a => Fin.ext (by
    match a with
    | ⟨0, _⟩ => rfl
    | ⟨1, _⟩ => show j.val % 128 = j.val; omega))

/-- Slice 2 of the stack `x19`, as the matrix the step contracts with. -/
theorem Edge.w_v202 (x19 : (⟨S3x128x128, .f32⟩ : BufTy).Contents (Elt Ideal)) :
    mat (val_main_v202 (F := Ideal) x19) = w3 x19 2 := by
  funext k j
  show val_main_v202 (F := Ideal) x19 (ix2 k j) = x19 (ix3 2 k j)
  rw [val_main_v202_apply, val_main_v201_apply]
  have hk := k.isLt
  have hj := j.isLt
  exact congrArg x19 (funext fun a => Fin.ext (by
    match a with
    | ⟨0, _⟩ => rfl
    | ⟨1, _⟩ => show (k.val * 128 + j.val) / 128 % 128 = k.val; omega
    | ⟨2, _⟩ => show (k.val * 128 + j.val) % 128 = j.val; omega))

/-- Slice 2 of the stack `x20`, as the row the step adds. -/
theorem Edge.b_v204 (x20 : (⟨S3x128, .f32⟩ : BufTy).Contents (Elt Ideal)) :
    vec (val_main_v204 (F := Ideal) x20) = b3 x20 2 := by
  funext j
  show val_main_v204 (F := Ideal) x20 (ix1 j) = x20 (ix2 2 j)
  rw [val_main_v204_apply, val_main_v203_apply]
  have hj := j.isLt
  exact congrArg x20 (funext fun a => Fin.ext (by
    match a with
    | ⟨0, _⟩ => rfl
    | ⟨1, _⟩ => show j.val % 128 = j.val; omega))

/-- Step 2's edge update: every edge row plus the three-layer network of its sender's row, its receiver's row and
    itself, the first layer over the three rows laid end to end read in its three-band form. -/
theorem edge2 (x0 : (⟨S50000x4, .f32⟩ : BufTy).Contents (Elt Ideal)) (x1 : (⟨S400000x3, .f32⟩ : BufTy).Contents (Elt Ideal)) (x2 : (⟨S2x400000, .i32⟩ : BufTy).Contents (Elt Ideal)) (x3 : (⟨S4x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S3x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S3x384x128, .f32⟩ : BufTy).Contents (Elt Ideal)) (x16 : (⟨S3x128, .f32⟩ : BufTy).Contents (Elt Ideal)) (x17 : (⟨S3x128x128, .f32⟩ : BufTy).Contents (Elt Ideal)) (x18 : (⟨S3x128, .f32⟩ : BufTy).Contents (Elt Ideal)) (x19 : (⟨S3x128x128, .f32⟩ : BufTy).Contents (Elt Ideal)) (x20 : (⟨S3x128, .f32⟩ : BufTy).Contents (Elt Ideal)) (x21 : (⟨S3x256x128, .f32⟩ : BufTy).Contents (Elt Ideal)) (x22 : (⟨S3x128, .f32⟩ : BufTy).Contents (Elt Ideal)) (x23 : (⟨S3x128x128, .f32⟩ : BufTy).Contents (Elt Ideal)) (x24 : (⟨S3x128, .f32⟩ : BufTy).Contents (Elt Ideal)) (x25 : (⟨S3x128x128, .f32⟩ : BufTy).Contents (Elt Ideal)) (x26 : (⟨S3x128, .f32⟩ : BufTy).Contents (Elt Ideal)) :
    val_main_v219 (F := Ideal) x0 x1 x2 x3 x4 x5 x6 x7 x8 x9 x10 x11 x12 x13 x14 x15 x16 x17 x18 x19 x20 x21 x22 x23 x24 x25 x26
      = edgeStep (band (w3 x15 2) 0 (by omega)) (band (w3 x15 2) 128 (by omega)) (band (w3 x15 2) 256 (by omega)) (b3 x16 2)
          (w3 x17 2) (b3 x18 2) (w3 x19 2) (b3 x20 2)
          (val_main_v184 (F := Ideal) x0 x1 x2 x3 x4 x5 x6 x7 x8 x9 x10 x11 x12 x13 x14 x15 x16 x17 x18 x19 x20 x21 x22 x23 x24 x25 x26)
          (val_main_v191 (F := Ideal) x0 x1 x2 x3 x4 x5 x6 x7 x8 x9 x10 x11 x12 x13 x14 x15 x16 x17 x18 x19 x20 x21 x22 x23 x24 x25 x26)
          (val_main_v146 (F := Ideal) x0 x1 x2 x3 x4 x5 x6 x7 x8 x9 x10 x11 x12 x13 x14 x15 x16 x17 x18 x19 x20 x21 x22 x23 x24 x25 x26) := by
  rw [← Edge.w_v194 x15, ← Edge.b_v196 x16, ← Edge.w_v198 x17, ← Edge.b_v200 x18, ← Edge.w_v202 x19, ← Edge.b_v204 x20]
  exact Edge.edgeStep_of_rows _ _ _ _ _ _ (val_main_v184 (F := Ideal) x0 x1 x2 x3 x4 x5 x6 x7 x8 x9 x10 x11 x12 x13 x14 x15 x16 x17 x18 x19 x20 x21 x22 x23 x24 x25 x26) (val_main_v191 (F := Ideal) x0 x1 x2 x3 x4 x5 x6 x7 x8 x9 x10 x11 x12 x13 x14 x15 x16 x17 x18 x19 x20 x21 x22 x23 x24 x25 x26) (val_main_v146 (F := Ideal) x0 x1 x2 x3 x4 x5 x6 x7 x8 x9 x10 x11 x12 x13 x14 x15 x16 x17 x18 x19 x20 x21 x22 x23 x24 x25 x26)
    (val_main_v192 (F := Ideal) x0 x1 x2 x3 x4 x5 x6 x7 x8 x9 x10 x11 x12 x13 x14 x15 x16 x17 x18 x19 x20 x21 x22 x23 x24 x25 x26)
    (val_main_v208 (F := Ideal) x0 x1 x2 x3 x4 x5 x6 x7 x8 x9 x10 x11 x12 x13 x14 x15 x16 x17 x18 x19 x20 x21 x22 x23 x24 x25 x26)
    (val_main_v209 (F := Ideal) x0 x1 x2 x3 x4 x5 x6 x7 x8 x9 x10 x11 x12 x13 x14 x15 x16 x17 x18 x19 x20 x21 x22 x23 x24 x25 x26)
    (val_main_v213 (F := Ideal) x0 x1 x2 x3 x4 x5 x6 x7 x8 x9 x10 x11 x12 x13 x14 x15 x16 x17 x18 x19 x20 x21 x22 x23 x24 x25 x26)
    (val_main_v214 (F := Ideal) x0 x1 x2 x3 x4 x5 x6 x7 x8 x9 x10 x11 x12 x13 x14 x15 x16 x17 x18 x19 x20 x21 x22 x23 x24 x25 x26)
    (val_main_v218 (F := Ideal) x0 x1 x2 x3 x4 x5 x6 x7 x8 x9 x10 x11 x12 x13 x14 x15 x16 x17 x18 x19 x20 x21 x22 x23 x24 x25 x26) _
    (fun r k => by unfold val_main_v192; exact Edge.cat3_row _ _ _ _ r k)
    (fun r q => by
      rw [val_main_v208_apply, val_main_v205_apply, val_main_v207_apply, val_main_v206_apply]
      exact Edge.dense_read (val_main_v192 (F := Ideal) x0 x1 x2 x3 x4 x5 x6 x7 x8 x9 x10 x11 x12 x13 x14 x15 x16 x17 x18 x19 x20 x21 x22 x23 x24 x25 x26) (val_main_v194 (F := Ideal) x15) (val_main_v196 (F := Ideal) x16) r q _ _ _
        (fun k => funext fun a => Fin.ext (by match a with | ⟨0, _⟩ => rfl | ⟨1, _⟩ => rfl))
        (fun k => funext fun a => Fin.ext (by match a with | ⟨0, _⟩ => rfl | ⟨1, _⟩ => rfl))
        (funext fun a => Fin.ext (by match a with | ⟨0, _⟩ => rfl)))
    (fun r q => by
      rw [val_main_v209_apply, val_main_call12_v0_apply, val_main_call12_cst_apply]; exact Edge.relu_read _)
    (fun r q => by
      rw [val_main_v213_apply, val_main_v210_apply, val_main_v212_apply, val_main_v211_apply]
      exact Edge.dense_read (val_main_v209 (F := Ideal) x0 x1 x2 x3 x4 x5 x6 x7 x8 x9 x10 x11 x12 x13 x14 x15 x16 x17 x18 x19 x20 x21 x22 x23 x24 x25 x26) (val_main_v198 (F := Ideal) x17) (val_main_v200 (F := Ideal) x18) r q _ _ _
        (fun k => funext fun a => Fin.ext (by match a with | ⟨0, _⟩ => rfl | ⟨1, _⟩ => rfl))
        (fun k => funext fun a => Fin.ext (by match a with | ⟨0, _⟩ => rfl | ⟨1, _⟩ => rfl))
        (funext fun a => Fin.ext (by match a with | ⟨0, _⟩ => rfl)))
    (fun r q => by
      rw [val_main_v214_apply, val_main_call13_v0_apply, val_main_call13_cst_apply]; exact Edge.relu_read _)
    (fun r q => by
      rw [val_main_v218_apply, val_main_v215_apply, val_main_v217_apply, val_main_v216_apply]
      exact Edge.dense_read (val_main_v214 (F := Ideal) x0 x1 x2 x3 x4 x5 x6 x7 x8 x9 x10 x11 x12 x13 x14 x15 x16 x17 x18 x19 x20 x21 x22 x23 x24 x25 x26) (val_main_v202 (F := Ideal) x19) (val_main_v204 (F := Ideal) x20) r q _ _ _
        (fun k => funext fun a => Fin.ext (by match a with | ⟨0, _⟩ => rfl | ⟨1, _⟩ => rfl))
        (fun k => funext fun a => Fin.ext (by match a with | ⟨0, _⟩ => rfl | ⟨1, _⟩ => rfl))
        (funext fun a => Fin.ext (by match a with | ⟨0, _⟩ => rfl)))
    (fun i => by rw [val_main_v219_apply]; rfl)

end Cert.ReferenceIdeal.Val

end
-- ==== Proof.RValN.lean ====
/-
  The reference program's node updates, read row by row.

  A node update joins every node's feature row with the row of messages summed into that node, contracts the
  joined row (256 entries) against the whole first-layer matrix, and sends the result through two more linear
  layers with a rectified linear unit before each; the old row is added to the outcome. The network of
  `Net.lean` writes the first layer in two bands of 128 rows instead. The two agree because a sum over a joined
  row is the sum of the sums over its two halves, which holds in any commutative additive monoid: nothing is
  asked of the entries. The summed messages (the scatter) are carried as they are: only their rows are read.
-/
import proofs.«425516_j47425028883052_2_alg».proof.Proof.ReadP
import proofs.«425516_j47425028883052_2_alg».proof.Proof.Net
import Idealize.ShloMosaic.Lib.Pipeline.Value
import Idealize.ShloMosaic.Lib.ValueIdx
import Idealize.ShloMosaic.PureOps.Ideal.Laws

noncomputable section

namespace Cert.ReferenceIdeal.Val

open Idealize.ShloMosaic Idealize.ShloMosaic.ValueIdx Cert.ReferenceIdeal Cert.ReferenceIdeal.Gen Cert.ReferenceIdeal.Read Cert.Spec Cert.Net

/-! ## Facts shared by the three node updates -/

/-- The band of a matrix that starts at row 0, entry by entry. -/
theorem nodeR_band_zero (W : Fin 256 → Fin 128 → EReal) (k j : Fin 128) :
    band W 0 (by omega) k j = W (Fin.castAdd 128 k) j := by
  unfold band
  exact congrArg (fun s => W s j) (Fin.ext (Nat.zero_add k.val))

/-- The band of a matrix that starts at row 128, entry by entry. -/
theorem nodeR_band_mid (W : Fin 256 → Fin 128 → EReal) (k j : Fin 128) :
    band W 128 (by omega) k j = W (Fin.natAdd 128 k) j := rfl

/-- Two node arrays joined along the feature axis, read at row `r`: the left half is the first array's row. -/
theorem nodeR_cat_left (h agg : A2 50000 128) (r : Fin 50000) (k : Fin 128) :
    concatenate S50000x256 1 [⟨S50000x128, h⟩, ⟨S50000x128, agg⟩] concatenates_S50000x128_S50000x128_S50000x256_d1 (ix2 r (Fin.castAdd 128 k)) = h (ix2 r k) :=
  concatenate_pair_apply_left (t := S50000x256) (s₁ := S50000x128) (s₂ := S50000x128) 1 h agg
    concatenates_S50000x128_S50000x128_S50000x256_d1 (ix2 r (Fin.castAdd 128 k)) rfl (ix2 r k)
    (fun b => match b with | ⟨0, _⟩ => rfl | ⟨1, _⟩ => rfl)

/-- The right half is the second array's row. -/
theorem nodeR_cat_right (h agg : A2 50000 128) (r : Fin 50000) (k : Fin 128) :
    concatenate S50000x256 1 [⟨S50000x128, h⟩, ⟨S50000x128, agg⟩] concatenates_S50000x128_S50000x128_S50000x256_d1 (ix2 r (Fin.natAdd 128 k)) = agg (ix2 r k) :=
  concatenate_pair_apply_right (t := S50000x256) (s₁ := S50000x128) (s₂ := S50000x128) 1 h agg
    concatenates_S50000x128_S50000x128_S50000x256_d1 (ix2 r (Fin.natAdd 128 k)) rfl rfl (ix2 r k)
    (fun b hb => match b, hb with | ⟨0, _⟩, _ => rfl | ⟨1, _⟩, hb => absurd rfl hb)
    (show k.val + 128 = 128 + k.val from Nat.add_comm _ _)

/-- The contraction of a joined row against a 256-row matrix is the sum of the two rows' contractions, each
    against its own band of the matrix: the sum over the joined axis splits at 128. -/
theorem nodeR_contract (h agg : A2 50000 128) (W : Fin 256 → Fin 128 → EReal) (r : Fin 50000) (j : Fin 128) :
    ∑ k : Fin 256, concatenate S50000x256 1 [⟨S50000x128, h⟩, ⟨S50000x128, agg⟩] concatenates_S50000x128_S50000x128_S50000x256_d1 (ix2 r k) * W k j
      = (∑ k, rowAt h r k * band W 0 (by omega) k j) + (∑ k, rowAt agg r k * band W 128 (by omega) k j) := by
  have hs := sum_cat2 (n := 128) (rowAt h r) (rowAt agg r) W j
  have hc : ∀ k : Fin (128 + 128), concatenate S50000x256 1 [⟨S50000x128, h⟩, ⟨S50000x128, agg⟩] concatenates_S50000x128_S50000x128_S50000x256_d1 (ix2 r k)
      = cat2 (rowAt h r) (rowAt agg r) k :=
    @Fin.addCases 128 128
      (fun k => concatenate S50000x256 1 [⟨S50000x128, h⟩, ⟨S50000x128, agg⟩] concatenates_S50000x128_S50000x128_S50000x256_d1 (ix2 r k)
        = cat2 (rowAt h r) (rowAt agg r) k)
      (fun k => (nodeR_cat_left h agg r k).trans
        (Fin.addCases_left (m := 128) (n := 128) (motive := fun _ => EReal) (left := rowAt h r) (right := rowAt agg r) k).symm)
      (fun k => (nodeR_cat_right h agg r k).trans
        (Fin.addCases_right (m := 128) (n := 128) (motive := fun _ => EReal) (left := rowAt h r) (right := rowAt agg r) k).symm)
  simp only [nodeR_band_zero, nodeR_band_mid]
  exact (Finset.sum_congr rfl fun k _ => congrArg (· * W k j) (hc k)).trans hs

/-! ## Step 0: the node update -/

/-- Slice 0 of the first layer's weights, entry by entry. -/
theorem node0_W1 (x21 : (⟨S3x256x128, .f32⟩ : BufTy).Contents (Elt Ideal)) (k : Fin 256) (j : Fin 128) :
    val_main_v79 (F := Ideal) x21 (ix2 k j) = w3 x21 0 k j := by
  rw [val_main_v79_apply, val_main_v78_apply]
  have hk := k.isLt
  have hj := j.isLt
  exact congrArg x21 (funext fun a => Fin.ext (by
    match a with
    | ⟨0, _⟩ => rfl
    | ⟨1, _⟩ => show (k.val * 128 + j.val) / 128 % 256 = k.val; omega
    | ⟨2, _⟩ => show (k.val * 128 + j.val) % 128 = j.val; omega))

/-- Slice 0 of the second layer's weights, entry by entry. -/
theorem node0_W2 (x23 : (⟨S3x128x128, .f32⟩ : BufTy).Contents (Elt Ideal)) (k j : Fin 128) :
    val_main_v83 (F := Ideal) x23 (ix2 k j) = w3 x23 0 k j := by
  rw [val_main_v83_apply, val_main_v82_apply]
  have hk := k.isLt
  have hj := j.isLt
  exact congrArg x23 (funext fun a => Fin.ext (by
    match a with
    | ⟨0, _⟩ => rfl
    | ⟨1, _⟩ => show (k.val * 128 + j.val) / 128 % 128 = k.val; omega
    | ⟨2, _⟩ => show (k.val * 128 + j.val) % 128 = j.val; omega))

/-- Slice 0 of the third layer's weights, entry by entry. -/
theorem node0_W3 (x25 : (⟨S3x128x128, .f32⟩ : BufTy).Contents (Elt Ideal)) (k j : Fin 128) :
    val_main_v87 (F := Ideal) x25 (ix2 k j) = w3 x25 0 k j := by
  rw [val_main_v87_apply, val_main_v86_apply]
  have hk := k.isLt
  have hj := j.isLt
  exact congrArg x25 (funext fun a => Fin.ext (by
    match a with
    | ⟨0, _⟩ => rfl
    | ⟨1, _⟩ => show (k.val * 128 + j.val) / 128 % 128 = k.val; omega
    | ⟨2, _⟩ => show (k.val * 128 + j.val) % 128 = j.val; omega))

/-- Row 0 of the first layer's biases, laid over every node row. -/
theorem node0_b1 (x22 : (⟨S3x128, .f32⟩ : BufTy).Contents (Elt Ideal)) (r : Fin 50000) (j : Fin 128) :
    val_main_v92 (F := Ideal) x22 (ix2 r j) = b3 x22 0 j := by
  rw [val_main_v92_apply, val_main_v91_apply, val_main_v81_apply, val_main_v80_apply]
  exact congrArg x22 (funext fun a => Fin.ext (by
    match a with
    | ⟨0, _⟩ => rfl
    | ⟨1, _⟩ => exact Nat.mod_eq_of_lt j.isLt))

/-- Row 0 of the second layer's biases, laid over every node row. -/
theorem node0_b2 (x24 : (⟨S3x128, .f32⟩ : BufTy).Contents (Elt Ideal)) (r : Fin 50000) (j : Fin 128) :
    val_main_v97 (F := Ideal) x24 (ix2 r j) = b3 x24 0 j := by
  rw [val_main_v97_apply, val_main_v96_apply, val_main_v85_apply, val_main_v84_apply]
  exact congrArg x24 (funext fun a => Fin.ext (by
    match a with
    | ⟨0, _⟩ => rfl
    | ⟨1, _⟩ => exact Nat.mod_eq_of_lt j.isLt))

/-- Row 0 of the third layer's biases, laid over every node row. -/
theorem node0_b3 (x26 : (⟨S3x128, .f32⟩ : BufTy).Contents (Elt Ideal)) (r : Fin 50000) (j : Fin 128) :
    val_main_v102 (F := Ideal) x26 (ix2 r j) = b3 x26 0 j := by
  rw [val_main_v102_apply, val_main_v101_apply, val_main_v89_apply, val_main_v88_apply]
  exact congrArg x26 (funext fun a => Fin.ext (by
    match a with
    | ⟨0, _⟩ => rfl
    | ⟨1, _⟩ => exact Nat.mod_eq_of_lt j.isLt))

/-- The two arrays the rectified linear units compare with are zero everywhere. -/
theorem node0_zero_a (i : S50000x128.Idx) : val_main_call6_v0 (F := Ideal) i = 0 := by
  rw [val_main_call6_v0_apply, val_main_call6_cst_apply]
  exact Ideal.ofBits_zero_f32

theorem node0_zero_b (i : S50000x128.Idx) : val_main_call7_v0 (F := Ideal) i = 0 := by
  rw [val_main_call7_v0_apply, val_main_call7_cst_apply]
  exact Ideal.ofBits_zero_f32

/-- Step 0's node update is the banded node step of the node rows and the summed messages: every layer is read
    at a row and a column, the joined row's contraction splits into the two bands, and the rest is the same
    sums, maxima and additions on both sides. -/
theorem node0 (x0 : (⟨S50000x4, .f32⟩ : BufTy).Contents (Elt Ideal)) (x1 : (⟨S400000x3, .f32⟩ : BufTy).Contents (Elt Ideal)) (x2 : (⟨S2x400000, .i32⟩ : BufTy).Contents (Elt Ideal)) (x3 : (⟨S4x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S3x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S3x384x128, .f32⟩ : BufTy).Contents (Elt Ideal)) (x16 : (⟨S3x128, .f32⟩ : BufTy).Contents (Elt Ideal)) (x17 : (⟨S3x128x128, .f32⟩ : BufTy).Contents (Elt Ideal)) (x18 : (⟨S3x128, .f32⟩ : BufTy).Contents (Elt Ideal)) (x19 : (⟨S3x128x128, .f32⟩ : BufTy).Contents (Elt Ideal)) (x20 : (⟨S3x128, .f32⟩ : BufTy).Contents (Elt Ideal)) (x21 : (⟨S3x256x128, .f32⟩ : BufTy).Contents (Elt Ideal)) (x22 : (⟨S3x128, .f32⟩ : BufTy).Contents (Elt Ideal)) (x23 : (⟨S3x128x128, .f32⟩ : BufTy).Contents (Elt Ideal)) (x24 : (⟨S3x128, .f32⟩ : BufTy).Contents (Elt Ideal)) (x25 : (⟨S3x128x128, .f32⟩ : BufTy).Contents (Elt Ideal)) (x26 : (⟨S3x128, .f32⟩ : BufTy).Contents (Elt Ideal)) :
    val_main_v104 (F := Ideal) x0 x1 x2 x3 x4 x5 x6 x7 x8 x9 x10 x11 x12 x13 x14 x15 x16 x17 x18 x19 x20 x21 x22 x23 x24 x25 x26
      = nodeStep (band (w3 x21 0) 0 (by omega)) (band (w3 x21 0) 128 (by omega)) (b3 x22 0) (w3 x23 0) (b3 x24 0)
          (w3 x25 0) (b3 x26 0) (val_main_v17 (F := Ideal) x0 x3 x4 x5 x6 x7 x8)
          (val_main_v76 (F := Ideal) x0 x1 x2 x3 x4 x5 x6 x7 x8 x9 x10 x11 x12 x13 x14 x15 x16 x17 x18 x19 x20) := by
  funext i
  obtain ⟨r, q, rfl⟩ : ∃ (r : Fin 50000) (q : Fin 128), i = ix2 r q := ⟨_, _, eq_ix2 i⟩
  have el3 : ∀ k : Fin 128, lidx_main_v100 (ix2 r q) k = ix2 r k := fun k =>
    funext fun a => Fin.ext (by match a with | ⟨0, _⟩ => rfl | ⟨1, _⟩ => rfl)
  have er3 : ∀ k : Fin 128, ridx_main_v100 (ix2 r q) k = ix2 k q := fun k =>
    funext fun a => Fin.ext (by match a with | ⟨0, _⟩ => rfl | ⟨1, _⟩ => rfl)
  have el2 : ∀ k k' : Fin 128, lidx_main_v95 (ix2 r k) k' = ix2 r k' := fun k k' =>
    funext fun a => Fin.ext (by match a with | ⟨0, _⟩ => rfl | ⟨1, _⟩ => rfl)
  have er2 : ∀ k k' : Fin 128, ridx_main_v95 (ix2 r k) k' = ix2 k' k := fun k k' =>
    funext fun a => Fin.ext (by match a with | ⟨0, _⟩ => rfl | ⟨1, _⟩ => rfl)
  have el1 : ∀ (k : Fin 128) (k' : Fin 256), lidx_main_v90 (ix2 r k) k' = ix2 r k' := fun k k' =>
    funext fun a => Fin.ext (by match a with | ⟨0, _⟩ => rfl | ⟨1, _⟩ => rfl)
  have er1 : ∀ (k : Fin 128) (k' : Fin 256), ridx_main_v90 (ix2 r k) k' = ix2 k' k := fun k k' =>
    funext fun a => Fin.ext (by match a with | ⟨0, _⟩ => rfl | ⟨1, _⟩ => rfl)
  rw [val_main_v104_apply, val_main_v103_apply, val_main_v100_apply]
  simp only [el3, er3, val_main_v99_apply, val_main_v98_apply, val_main_v95_apply, el2, er2, val_main_v94_apply, val_main_v93_apply,
    val_main_v90_apply, el1, er1, node0_W1, node0_W2, node0_W3, node0_b1, node0_b2, node0_b3, node0_zero_a,
    node0_zero_b, val_main_v77, nodeR_contract, Ideal.addf_def, Ideal.maximumf_def]
  rfl

end Cert.ReferenceIdeal.Val

end
-- ==== Proof.RChain.lean ====
/-
  The reference program's result as the network of `Net.lean`.

  Each stage of the reference (the two encoders, three edge updates, three node updates, the decoder) has been
  read as the corresponding stage function of the network. Here the stages are chained: the reference gathers
  node rows by the senders' and the receivers' index vectors, and sums edge rows into their receivers from a
  zero array; in the second and third step it builds those index vectors and that zero array again from the
  same edge list, by the same operations, so they are the same functions in every step. With the gathers and
  the sum carried as three fixed functions of the edge list, the reference's result is the network's.
-/
import proofs.«425516_j47425028883052_2_alg».proof.Proof.ReadP
import proofs.«425516_j47425028883052_2_alg».proof.Proof.Net
import proofs.«425516_j47425028883052_2_alg».proof.Proof.NetOut
import proofs.«425516_j47425028883052_2_alg».proof.Proof.RValD
import proofs.«425516_j47425028883052_2_alg».proof.Proof.RValE
import proofs.«425516_j47425028883052_2_alg».proof.Proof.RValE1
import proofs.«425516_j47425028883052_2_alg».proof.Proof.RValE2
import proofs.«425516_j47425028883052_2_alg».proof.Proof.RValN
import proofs.«425516_j47425028883052_2_alg».proof.Proof.RValN1
import proofs.«425516_j47425028883052_2_alg».proof.Proof.RValN2

noncomputable section

namespace Cert.ReferenceIdeal.Val

open Idealize.ShloMosaic Idealize.ShloMosaic.ValueIdx Idealize.SL.Sem Cert.ReferenceIdeal Cert.ReferenceIdeal.Gen Cert.ReferenceIdeal.Read Cert.Spec Cert.Net

/-- Gathering node rows by the senders' index vector (row 0 of the edge list, negative entries wrapped). -/
def takeS (x2 : IVec S2x400000 32) (h : FVec Ideal S50000x128 .f32) : FVec Ideal S400000x128 .f32 :=
  Host.gather gather_S50000x128_S400000x1_S400000x128_1_0_n_n_0_1_1128 h (val_main_v37 (F := Ideal) x2)

/-- Gathering node rows by the receivers' index vector (row 1 of the edge list, negative entries wrapped). -/
def takeD (x2 : IVec S2x400000 32) (h : FVec Ideal S50000x128 .f32) : FVec Ideal S400000x128 .f32 :=
  Host.gather gather_S50000x128_S400000x1_S400000x128_1_0_n_n_0_1_1128 h (val_main_v44 (F := Ideal) x2)

/-- Summing edge rows into their receivers' rows, from the zero array. -/
def scat (x2 : IVec S2x400000 32) (e : FVec Ideal S400000x128 .f32) : FVec Ideal S50000x128 .f32 :=
  Host.scatterAdd (F := Ideal) scatter_S50000x128_S400000x1_S400000x128_1_0_0_1 (val_main_v74 (F := Ideal))
    (val_main_v75 (F := Ideal) x2) e

/-! ## The later steps' index vectors and zero arrays are the first step's

  Each is the same chain of operations on the edge list (or on the zero constant) under another name. -/

theorem senders1 (x2 : IVec S2x400000 32) : val_main_v110 (F := Ideal) x2 = val_main_v37 (F := Ideal) x2 := rfl
theorem receivers1 (x2 : IVec S2x400000 32) : val_main_v117 (F := Ideal) x2 = val_main_v44 (F := Ideal) x2 := rfl
theorem senders2 (x2 : IVec S2x400000 32) : val_main_v183 (F := Ideal) x2 = val_main_v37 (F := Ideal) x2 := rfl
theorem receivers2 (x2 : IVec S2x400000 32) : val_main_v190 (F := Ideal) x2 = val_main_v44 (F := Ideal) x2 := rfl
theorem zero1 : val_main_v147 (F := Ideal) = val_main_v74 (F := Ideal) := rfl
theorem zero2 : val_main_v220 (F := Ideal) = val_main_v74 (F := Ideal) := rfl
theorem into1 (x2 : IVec S2x400000 32) : val_main_v148 (F := Ideal) x2 = val_main_v75 (F := Ideal) x2 := rfl
theorem into2 (x2 : IVec S2x400000 32) : val_main_v221 (F := Ideal) x2 = val_main_v75 (F := Ideal) x2 := rfl

section Chain

variable (x0 : (⟨S50000x4, .f32⟩ : BufTy).Contents (Elt Ideal)) (x1 : (⟨S400000x3, .f32⟩ : BufTy).Contents (Elt Ideal)) (x2 : (⟨S2x400000, .i32⟩ : BufTy).Contents (Elt Ideal)) (x3 : (⟨S4x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S3x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S3x384x128, .f32⟩ : BufTy).Contents (Elt Ideal)) (x16 : (⟨S3x128, .f32⟩ : BufTy).Contents (Elt Ideal)) (x17 : (⟨S3x128x128, .f32⟩ : BufTy).Contents (Elt Ideal)) (x18 : (⟨S3x128, .f32⟩ : BufTy).Contents (Elt Ideal)) (x19 : (⟨S3x128x128, .f32⟩ : BufTy).Contents (Elt Ideal)) (x20 : (⟨S3x128, .f32⟩ : BufTy).Contents (Elt Ideal)) (x21 : (⟨S3x256x128, .f32⟩ : BufTy).Contents (Elt Ideal)) (x22 : (⟨S3x128, .f32⟩ : BufTy).Contents (Elt Ideal)) (x23 : (⟨S3x128x128, .f32⟩ : BufTy).Contents (Elt Ideal)) (x24 : (⟨S3x128, .f32⟩ : BufTy).Contents (Elt Ideal)) (x25 : (⟨S3x128x128, .f32⟩ : BufTy).Contents (Elt Ideal)) (x26 : (⟨S3x128, .f32⟩ : BufTy).Contents (Elt Ideal)) (x27 : (⟨S128x128, .f32⟩ : BufTy).Contents (Elt Ideal)) (x28 : (⟨S128, .f32⟩ : BufTy).Contents (Elt Ideal)) (x29 : (⟨S128x128, .f32⟩ : BufTy).Contents (Elt Ideal)) (x30 : (⟨S128, .f32⟩ : BufTy).Contents (Elt Ideal)) (x31 : (⟨S128x2, .f32⟩ : BufTy).Contents (Elt Ideal)) (x32 : (⟨S2, .f32⟩ : BufTy).Contents (Elt Ideal))

/-! ## The gathers and the sums of the three steps, through the three functions -/

theorem gatherS0 : val_main_v38 (F := Ideal) x0 x2 x3 x4 x5 x6 x7 x8 = takeS x2 (val_main_v17 (F := Ideal) x0 x3 x4 x5 x6 x7 x8) := rfl
theorem gatherD0 : val_main_v45 (F := Ideal) x0 x2 x3 x4 x5 x6 x7 x8 = takeD x2 (val_main_v17 (F := Ideal) x0 x3 x4 x5 x6 x7 x8) := rfl
theorem sum0 : val_main_v76 (F := Ideal) x0 x1 x2 x3 x4 x5 x6 x7 x8 x9 x10 x11 x12 x13 x14 x15 x16 x17 x18 x19 x20 = scat x2 (val_main_v73 (F := Ideal) x0 x1 x2 x3 x4 x5 x6 x7 x8 x9 x10 x11 x12 x13 x14 x15 x16 x17 x18 x19 x20) := rfl

theorem gatherS1 : val_main_v111 (F := Ideal) x0 x1 x2 x3 x4 x5 x6 x7 x8 x9 x10 x11 x12 x13 x14 x15 x16 x17 x18 x19 x20 x21 x22 x23 x24 x25 x26 = takeS x2 (val_main_v104 (F := Ideal) x0 x1 x2 x3 x4 x5 x6 x7 x8 x9 x10 x11 x12 x13 x14 x15 x16 x17 x18 x19 x20 x21 x22 x23 x24 x25 x26) := by
  unfold val_main_v111 takeS; rw [senders1]
theorem gatherD1 : val_main_v118 (F := Ideal) x0 x1 x2 x3 x4 x5 x6 x7 x8 x9 x10 x11 x12 x13 x14 x15 x16 x17 x18 x19 x20 x21 x22 x23 x24 x25 x26 = takeD x2 (val_main_v104 (F := Ideal) x0 x1 x2 x3 x4 x5 x6 x7 x8 x9 x10 x11 x12 x13 x14 x15 x16 x17 x18 x19 x20 x21 x22 x23 x24 x25 x26) := by
  unfold val_main_v118 takeD; rw [receivers1]
theorem sum1 : val_main_v149 (F := Ideal) x0 x1 x2 x3 x4 x5 x6 x7 x8 x9 x10 x11 x12 x13 x14 x15 x16 x17 x18 x19 x20 x21 x22 x23 x24 x25 x26 = scat x2 (val_main_v146 (F := Ideal) x0 x1 x2 x3 x4 x5 x6 x7 x8 x9 x10 x11 x12 x13 x14 x15 x16 x17 x18 x19 x20 x21 x22 x23 x24 x25 x26) := by
  unfold val_main_v149 scat; rw [zero1, into1]

theorem gatherS2 : val_main_v184 (F := Ideal) x0 x1 x2 x3 x4 x5 x6 x7 x8 x9 x10 x11 x12 x13 x14 x15 x16 x17 x18 x19 x20 x21 x22 x23 x24 x25 x26 = takeS x2 (val_main_v177 (F := Ideal) x0 x1 x2 x3 x4 x5 x6 x7 x8 x9 x10 x11 x12 x13 x14 x15 x16 x17 x18 x19 x20 x21 x22 x23 x24 x25 x26) := by
  unfold val_main_v184 takeS; rw [senders2]
theorem gatherD2 : val_main_v191 (F := Ideal) x0 x1 x2 x3 x4 x5 x6 x7 x8 x9 x10 x11 x12 x13 x14 x15 x16 x17 x18 x19 x20 x21 x22 x23 x24 x25 x26 = takeD x2 (val_main_v177 (F := Ideal) x0 x1 x2 x3 x4 x5 x6 x7 x8 x9 x10 x11 x12 x13 x14 x15 x16 x17 x18 x19 x20 x21 x22 x23 x24 x25 x26) := by
  unfold val_main_v191 takeD; rw [receivers2]
theorem sum2 : val_main_v222 (F := Ideal) x0 x1 x2 x3 x4 x5 x6 x7 x8 x9 x10 x11 x12 x13 x14 x15 x16 x17 x18 x19 x20 x21 x22 x23 x24 x25 x26 = scat x2 (val_main_v219 (F := Ideal) x0 x1 x2 x3 x4 x5 x6 x7 x8 x9 x10 x11 x12 x13 x14 x15 x16 x17 x18 x19 x20 x21 x22 x23 x24 x25 x26) := by
  unfold val_main_v222 scat; rw [zero2, into2]

/-! ## The reference's arrays and its three functions as the network's record -/

/-- The record of the reference program's argument arrays and of its gathering and summing functions. -/
def params : Net.Params where
  x := x0
  ea := x1
  neW1 := x3
  neb1 := x4
  neW2 := x5
  neb2 := x6
  neW3 := x7
  neb3 := x8
  eeW1 := x9
  eeb1 := x10
  eeW2 := x11
  eeb2 := x12
  eeW3 := x13
  eeb3 := x14
  peW1 := x15
  peb1 := x16
  peW2 := x17
  peb2 := x18
  peW3 := x19
  peb3 := x20
  pnW1 := x21
  pnb1 := x22
  pnW2 := x23
  pnb2 := x24
  pnW3 := x25
  pnb3 := x26
  ndW1 := x27
  ndb1 := x28
  ndW2 := x29
  ndb2 := x30
  ndW3 := x31
  ndb3 := x32
  takeS := takeS x2
  takeD := takeD x2
  scat := scat x2

/-! ## The chain: every stage of the reference is the network's stage over that record

  Each equation rewrites the stage by its row-by-row reading, its gathers and its sum by the three functions, and
  the earlier stages by the equations before it; what is left unfolds to the same term. -/

theorem h0_eq : val_main_v17 (F := Ideal) x0 x3 x4 x5 x6 x7 x8 = nH0 (params x0 x1 x2 x3 x4 x5 x6 x7 x8 x9 x10 x11 x12 x13 x14 x15 x16 x17 x18 x19 x20 x21 x22 x23 x24 x25 x26 x27 x28 x29 x30 x31 x32) := by
  rw [enc_nodes]; rfl

theorem e0_eq : val_main_v31 (F := Ideal) x1 x9 x10 x11 x12 x13 x14 = nE0 (params x0 x1 x2 x3 x4 x5 x6 x7 x8 x9 x10 x11 x12 x13 x14 x15 x16 x17 x18 x19 x20 x21 x22 x23 x24 x25 x26 x27 x28 x29 x30 x31 x32) := by
  rw [enc_edges]; rfl

theorem e1_eq : val_main_v73 (F := Ideal) x0 x1 x2 x3 x4 x5 x6 x7 x8 x9 x10 x11 x12 x13 x14 x15 x16 x17 x18 x19 x20 = nE1 (params x0 x1 x2 x3 x4 x5 x6 x7 x8 x9 x10 x11 x12 x13 x14 x15 x16 x17 x18 x19 x20 x21 x22 x23 x24 x25 x26 x27 x28 x29 x30 x31 x32) := by
  rw [edge0, gatherS0, gatherD0, h0_eq, e0_eq]; rfl

theorem h1_eq : val_main_v104 (F := Ideal) x0 x1 x2 x3 x4 x5 x6 x7 x8 x9 x10 x11 x12 x13 x14 x15 x16 x17 x18 x19 x20 x21 x22 x23 x24 x25 x26 = nH1 (params x0 x1 x2 x3 x4 x5 x6 x7 x8 x9 x10 x11 x12 x13 x14 x15 x16 x17 x18 x19 x20 x21 x22 x23 x24 x25 x26 x27 x28 x29 x30 x31 x32) := by
  rw [node0, sum0, h0_eq, e1_eq]; rfl

theorem e2_eq : val_main_v146 (F := Ideal) x0 x1 x2 x3 x4 x5 x6 x7 x8 x9 x10 x11 x12 x13 x14 x15 x16 x17 x18 x19 x20 x21 x22 x23 x24 x25 x26 = nE2 (params x0 x1 x2 x3 x4 x5 x6 x7 x8 x9 x10 x11 x12 x13 x14 x15 x16 x17 x18 x19 x20 x21 x22 x23 x24 x25 x26 x27 x28 x29 x30 x31 x32) := by
  rw [edge1, gatherS1, gatherD1, h1_eq, e1_eq]; rfl

theorem h2_eq : val_main_v177 (F := Ideal) x0 x1 x2 x3 x4 x5 x6 x7 x8 x9 x10 x11 x12 x13 x14 x15 x16 x17 x18 x19 x20 x21 x22 x23 x24 x25 x26 = nH2 (params x0 x1 x2 x3 x4 x5 x6 x7 x8 x9 x10 x11 x12 x13 x14 x15 x16 x17 x18 x19 x20 x21 x22 x23 x24 x25 x26 x27 x28 x29 x30 x31 x32) := by
  rw [node1, sum1, h1_eq, e2_eq]; rfl

theorem e3_eq : val_main_v219 (F := Ideal) x0 x1 x2 x3 x4 x5 x6 x7 x8 x9 x10 x11 x12 x13 x14 x15 x16 x17 x18 x19 x20 x21 x22 x23 x24 x25 x26 = nE3 (params x0 x1 x2 x3 x4 x5 x6 x7 x8 x9 x10 x11 x12 x13 x14 x15 x16 x17 x18 x19 x20 x21 x22 x23 x24 x25 x26 x27 x28 x29 x30 x31 x32) := by
  rw [edge2, gatherS2, gatherD2, h2_eq, e2_eq]; rfl

theorem h3_eq : val_main_v250 (F := Ideal) x0 x1 x2 x3 x4 x5 x6 x7 x8 x9 x10 x11 x12 x13 x14 x15 x16 x17 x18 x19 x20 x21 x22 x23 x24 x25 x26 = nH3 (params x0 x1 x2 x3 x4 x5 x6 x7 x8 x9 x10 x11 x12 x13 x14 x15 x16 x17 x18 x19 x20 x21 x22 x23 x24 x25 x26 x27 x28 x29 x30 x31 x32) := by
  rw [node2, sum2, h2_eq, e3_eq]; rfl

/-- The reference's result is the network's result over the reference's record. -/
theorem result_eq_net : val_main_v264 (F := Ideal) x0 x1 x2 x3 x4 x5 x6 x7 x8 x9 x10 x11 x12 x13 x14 x15 x16 x17 x18 x19 x20 x21 x22 x23 x24 x25 x26 x27 x28 x29 x30 x31 x32 = nOut (params x0 x1 x2 x3 x4 x5 x6 x7 x8 x9 x10 x11 x12 x13 x14 x15 x16 x17 x18 x19 x20 x21 x22 x23 x24 x25 x26 x27 x28 x29 x30 x31 x32) := by
  rw [decode, h3_eq]; rfl

/-- The same, with the decoder and the last node update written out. -/
theorem result_eq : val_main_v264 (F := Ideal) x0 x1 x2 x3 x4 x5 x6 x7 x8 x9 x10 x11 x12 x13 x14 x15 x16 x17 x18 x19 x20 x21 x22 x23 x24 x25 x26 x27 x28 x29 x30 x31 x32
    = Net.dec x27 x28 x29 x30 x31 x32
        (Net.hNext x21 x22 x23 x24 x25 x26 (scat x2) 2 (nH2 (params x0 x1 x2 x3 x4 x5 x6 x7 x8 x9 x10 x11 x12 x13 x14 x15 x16 x17 x18 x19 x20 x21 x22 x23 x24 x25 x26 x27 x28 x29 x30 x31 x32)) (nE3 (params x0 x1 x2 x3 x4 x5 x6 x7 x8 x9 x10 x11 x12 x13 x14 x15 x16 x17 x18 x19 x20 x21 x22 x23 x24 x25 x26 x27 x28 x29 x30 x31 x32))) :=
  result_eq_net x0 x1 x2 x3 x4 x5 x6 x7 x8 x9 x10 x11 x12 x13 x14 x15 x16 x17 x18 x19 x20 x21 x22 x23 x24 x25 x26 x27 x28 x29 x30 x31 x32

end Chain

end Cert.ReferenceIdeal.Val

end
-- ==== Proof.RunC.lean ====
/- The reference program's @main as a list of host operations, in chunks: that @main IS the chunks run in order, that every
   operation touches TensorCore buffers only and allocates none, which buffers each chunk writes, and the buffer contents
   after each chunk as a fold from the launch contents. -/
import proofs.«425516_j47425028883052_2_alg».proof.Proof.Gen.ReferenceIdeal
import Idealize.ShloMosaic.Lib.StableHlo.Run
import Idealize.ShloMosaic.Lib.Pipeline.Frame

noncomputable section

namespace Cert.ReferenceIdeal.RunC

open Cert.ReferenceIdeal Cert.ReferenceIdeal.Gen Idealize.ShloMosaic Idealize.ShloMosaic.TcCoe Idealize.SL.Sem Idealize.ShloMosaic.StableHlo

variable {F : FTy → Type} [FloatOps F]

/-- Chunk A: 58 operations of @main, in order. -/
abbrev opsA : List (HloOp τ sig (Elt F)) :=
  [ unary main_arg2 main_v0 ((extractStridedSlice S1x400000 ![0, 0] · slices_S2x400000_S1x400000_0_0) : (⟨S2x400000, .i32⟩ : BufTy).Contents (Elt F) → (⟨S1x400000, .i32⟩ : BufTy).Contents (Elt F)),
    reshape main_v0 main_v1 rfl shapeCasts_S1x400000_S400000,
    unary main_arg2 main_v2 ((extractStridedSlice S1x400000 ![1, 0] · slices_S2x400000_S1x400000_1_0) : (⟨S2x400000, .i32⟩ : BufTy).Contents (Elt F) → (⟨S1x400000, .i32⟩ : BufTy).Contents (Elt F)),
    reshape main_v2 main_v3 rfl shapeCasts_S1x400000_S400000,
    binary main_arg0 main_arg3 main_v4 ((fun l r => Host.dotGeneral dot_S50000x4_S4x128_S50000x128_1_0_0_1_n_n none l r) : (⟨S50000x4, .f32⟩ : BufTy).Contents (Elt F) → (⟨S4x128, .f32⟩ : BufTy).Contents (Elt F) → (⟨S50000x128, .f32⟩ : BufTy).Contents (Elt F)),
    unary main_arg4 main_v5 (broadcastInDim S1x128 ![1] bcast_S128_S1x128_1 : (⟨S128, .f32⟩ : BufTy).Contents (Elt F) → (⟨S1x128, .f32⟩ : BufTy).Contents (Elt F)),
    unary main_v5 main_v6 (broadcastInDim S50000x128 ![0, 1] bcast_S1x128_S50000x128_0_1 : (⟨S1x128, .f32⟩ : BufTy).Contents (Elt F) → (⟨S50000x128, .f32⟩ : BufTy).Contents (Elt F)),
    binary main_v4 main_v6 main_v7 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v7) (TRef.of (T := ⟨S50000x128, .f32⟩) main_call0_v0) (TRef.of (T := ⟨S50000x128, .f32⟩) main_v8) maximumf,
    binary main_v8 main_arg5 main_v9 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg6 main_v10 (broadcastInDim S1x128 ![1] bcast_S128_S1x128_1 : (⟨S128, .f32⟩ : BufTy).Contents (Elt F) → (⟨S1x128, .f32⟩ : BufTy).Contents (Elt F)),
    unary main_v10 main_v11 (broadcastInDim S50000x128 ![0, 1] bcast_S1x128_S50000x128_0_1 : (⟨S1x128, .f32⟩ : BufTy).Contents (Elt F) → (⟨S50000x128, .f32⟩ : BufTy).Contents (Elt F)),
    binary main_v9 main_v11 main_v12 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v12) (TRef.of (T := ⟨S50000x128, .f32⟩) main_call1_v0) (TRef.of (T := ⟨S50000x128, .f32⟩) main_v13) maximumf,
    binary main_v13 main_arg7 main_v14 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg8 main_v15 (broadcastInDim S1x128 ![1] bcast_S128_S1x128_1 : (⟨S128, .f32⟩ : BufTy).Contents (Elt F) → (⟨S1x128, .f32⟩ : BufTy).Contents (Elt F)),
    unary main_v15 main_v16 (broadcastInDim S50000x128 ![0, 1] bcast_S1x128_S50000x128_0_1 : (⟨S1x128, .f32⟩ : BufTy).Contents (Elt F) → (⟨S50000x128, .f32⟩ : BufTy).Contents (Elt F)),
    binary main_v14 main_v16 main_v17 (addf : (⟨S50000x128, .f32⟩ : BufTy).Contents (Elt F) → (⟨S50000x128, .f32⟩ : BufTy).Contents (Elt F) → (⟨S50000x128, .f32⟩ : BufTy).Contents (Elt F)),
    binary main_arg1 main_arg9 main_v18 ((fun l r => Host.dotGeneral dot_S400000x3_S3x128_S400000x128_1_0_0_1_n_n none l r) : (⟨S400000x3, .f32⟩ : BufTy).Contents (Elt F) → (⟨S3x128, .f32⟩ : BufTy).Contents (Elt F) → (⟨S400000x128, .f32⟩ : BufTy).Contents (Elt F)),
    unary main_arg10 main_v19 (broadcastInDim S1x128 ![1] bcast_S128_S1x128_1 : (⟨S128, .f32⟩ : BufTy).Contents (Elt F) → (⟨S1x128, .f32⟩ : BufTy).Contents (Elt F)),
    unary main_v19 main_v20 (broadcastInDim S400000x128 ![0, 1] bcast_S1x128_S400000x128_0_1 : (⟨S1x128, .f32⟩ : BufTy).Contents (Elt F) → (⟨S400000x128, .f32⟩ : BufTy).Contents (Elt F)),
    binary main_v18 main_v20 main_v21 (addf : (⟨S400000x128, .f32⟩ : BufTy).Contents (Elt F) → (⟨S400000x128, .f32⟩ : BufTy).Contents (Elt F) → (⟨S400000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S400000x128, .f32⟩) main_call2_v0) (broadcastInDim S400000x128 ![] bcast_S_S400000x128),
    TRef.binary (TRef.of (T := ⟨S400000x128, .f32⟩) main_v21) (TRef.of (T := ⟨S400000x128, .f32⟩) main_call2_v0) (TRef.of (T := ⟨S400000x128, .f32⟩) main_v22) maximumf,
    binary main_v22 main_arg11 main_v23 ((fun l r => Host.dotGeneral dot_S400000x128_S128x128_S400000x128_1_0_0_1_n_n none l r) : (⟨S400000x128, .f32⟩ : BufTy).Contents (Elt F) → (⟨S128x128, .f32⟩ : BufTy).Contents (Elt F) → (⟨S400000x128, .f32⟩ : BufTy).Contents (Elt F)),
    unary main_arg12 main_v24 (broadcastInDim S1x128 ![1] bcast_S128_S1x128_1 : (⟨S128, .f32⟩ : BufTy).Contents (Elt F) → (⟨S1x128, .f32⟩ : BufTy).Contents (Elt F)),
    unary main_v24 main_v25 (broadcastInDim S400000x128 ![0, 1] bcast_S1x128_S400000x128_0_1 : (⟨S1x128, .f32⟩ : BufTy).Contents (Elt F) → (⟨S400000x128, .f32⟩ : BufTy).Contents (Elt F)),
    binary main_v23 main_v25 main_v26 (addf : (⟨S400000x128, .f32⟩ : BufTy).Contents (Elt F) → (⟨S400000x128, .f32⟩ : BufTy).Contents (Elt F) → (⟨S400000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S400000x128, .f32⟩) main_call3_v0) (broadcastInDim S400000x128 ![] bcast_S_S400000x128),
    TRef.binary (TRef.of (T := ⟨S400000x128, .f32⟩) main_v26) (TRef.of (T := ⟨S400000x128, .f32⟩) main_call3_v0) (TRef.of (T := ⟨S400000x128, .f32⟩) main_v27) maximumf,
    binary main_v27 main_arg13 main_v28 ((fun l r => Host.dotGeneral dot_S400000x128_S128x128_S400000x128_1_0_0_1_n_n none l r) : (⟨S400000x128, .f32⟩ : BufTy).Contents (Elt F) → (⟨S128x128, .f32⟩ : BufTy).Contents (Elt F) → (⟨S400000x128, .f32⟩ : BufTy).Contents (Elt F)),
    unary main_arg14 main_v29 (broadcastInDim S1x128 ![1] bcast_S128_S1x128_1 : (⟨S128, .f32⟩ : BufTy).Contents (Elt F) → (⟨S1x128, .f32⟩ : BufTy).Contents (Elt F)),
    unary main_v29 main_v30 (broadcastInDim S400000x128 ![0, 1] bcast_S1x128_S400000x128_0_1 : (⟨S1x128, .f32⟩ : BufTy).Contents (Elt F) → (⟨S400000x128, .f32⟩ : BufTy).Contents (Elt F)),
    binary main_v28 main_v30 main_v31 (addf : (⟨S400000x128, .f32⟩ : BufTy).Contents (Elt F) → (⟨S400000x128, .f32⟩ : BufTy).Contents (Elt F) → (⟨S400000x128, .f32⟩ : BufTy).Contents (Elt F)),
    nullary main_c (constantI S_ 32 0#32),
    unary main_c main_v32 (broadcastInDim S400000 ![] bcast_S_S400000 : (⟨S_, .i32⟩ : BufTy).Contents (Elt F) → (⟨S400000, .i32⟩ : BufTy).Contents (Elt F)),
    binary main_v1 main_v32 main_v33 (cmpi .slt : (⟨S400000, .i32⟩ : BufTy).Contents (Elt F) → (⟨S400000, .i32⟩ : BufTy).Contents (Elt F) → (⟨S400000, .i1⟩ : BufTy).Contents (Elt F)),
    nullary main_c_0 (constantI S_ 32 50000#32),
    unary main_c_0 main_v34 (broadcastInDim S400000 ![] bcast_S_S400000 : (⟨S_, .i32⟩ : BufTy).Contents (Elt F) → (⟨S400000, .i32⟩ : BufTy).Contents (Elt F)),
    binary main_v1 main_v34 main_v35 (addi : (⟨S400000, .i32⟩ : BufTy).Contents (Elt F) → (⟨S400000, .i32⟩ : BufTy).Contents (Elt F) → (⟨S400000, .i32⟩ : BufTy).Contents (Elt F)),
    ternary main_v33 main_v35 main_v1 main_v36 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v36 main_v37 (broadcastInDim S400000x1 ![0] bcast_S400000_S400000x1_0 : (⟨S400000, .i32⟩ : BufTy).Contents (Elt F) → (⟨S400000x1, .i32⟩ : BufTy).Contents (Elt F)),
    binary main_v17 main_v37 main_v38 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)),
    nullary main_c_1 (constantI S_ 32 0#32),
    unary main_c_1 main_v39 (broadcastInDim S400000 ![] bcast_S_S400000 : (⟨S_, .i32⟩ : BufTy).Contents (Elt F) → (⟨S400000, .i32⟩ : BufTy).Contents (Elt F)),
    binary main_v3 main_v39 main_v40 (cmpi .slt : (⟨S400000, .i32⟩ : BufTy).Contents (Elt F) → (⟨S400000, .i32⟩ : BufTy).Contents (Elt F) → (⟨S400000, .i1⟩ : BufTy).Contents (Elt F)),
    nullary main_c_2 (constantI S_ 32 50000#32),
    unary main_c_2 main_v41 (broadcastInDim S400000 ![] bcast_S_S400000 : (⟨S_, .i32⟩ : BufTy).Contents (Elt F) → (⟨S400000, .i32⟩ : BufTy).Contents (Elt F)),
    binary main_v3 main_v41 main_v42 (addi : (⟨S400000, .i32⟩ : BufTy).Contents (Elt F) → (⟨S400000, .i32⟩ : BufTy).Contents (Elt F) → (⟨S400000, .i32⟩ : BufTy).Contents (Elt F)),
    ternary main_v40 main_v42 main_v3 main_v43 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v43 main_v44 (broadcastInDim S400000x1 ![0] bcast_S400000_S400000x1_0 : (⟨S400000, .i32⟩ : BufTy).Contents (Elt F) → (⟨S400000x1, .i32⟩ : BufTy).Contents (Elt F)),
    binary main_v17 main_v44 main_v45 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)) ]
/-- Chunk B: 10 operations of @main, in order. -/
abbrev opsB : List (HloOp τ sig (Elt F)) :=
  [ nary ![main_v38, main_v45, main_v31] main_v46 (fun u => concatenate S400000x384 1 [⟨S400000x128, u 0⟩, ⟨S400000x128, u 1⟩, ⟨S400000x128, u 2⟩] concatenates_S400000x128_S400000x128_S400000x128_S400000x384_d1),
    unary main_arg15 main_v47 ((extractStridedSlice S1x384x128 ![0, 0, 0] · slices_S3x384x128_S1x384x128_0_0_0) : (⟨S3x384x128, .f32⟩ : BufTy).Contents (Elt F) → (⟨S1x384x128, .f32⟩ : BufTy).Contents (Elt F)),
    reshape main_v47 main_v48 rfl shapeCasts_S1x384x128_S384x128,
    unary main_arg16 main_v49 ((extractStridedSlice S1x128 ![0, 0] · slices_S3x128_S1x128_0_0) : (⟨S3x128, .f32⟩ : BufTy).Contents (Elt F) → (⟨S1x128, .f32⟩ : BufTy).Contents (Elt F)),
    reshape main_v49 main_v50 rfl shapeCasts_S1x128_S128,
    unary main_arg17 main_v51 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v51 main_v52 rfl shapeCasts_S1x128x128_S128x128,
    unary main_arg18 main_v53 ((extractStridedSlice S1x128 ![0, 0] · slices_S3x128_S1x128_0_0) : (⟨S3x128, .f32⟩ : BufTy).Contents (Elt F) → (⟨S1x128, .f32⟩ : BufTy).Contents (Elt F)),
    reshape main_v53 main_v54 rfl shapeCasts_S1x128_S128,
    unary main_arg19 main_v55 ((extractStridedSlice S1x128x128 ![0, 0, 0] · slices_S3x128x128_S1x128x128_0_0_0) : (⟨S3x128x128, .f32⟩ : BufTy).Contents (Elt F) → (⟨S1x128x128, .f32⟩ : BufTy).Contents (Elt F)) ]
/-- Chunk C: 26 operations of @main, in order. -/
abbrev opsC : List (HloOp τ sig (Elt F)) :=
  [ reshape main_v55 main_v56 rfl shapeCasts_S1x128x128_S128x128,
    unary main_arg20 main_v57 ((extractStridedSlice S1x128 ![0, 0] · slices_S3x128_S1x128_0_0) : (⟨S3x128, .f32⟩ : BufTy).Contents (Elt F) → (⟨S1x128, .f32⟩ : BufTy).Contents (Elt F)),
    reshape main_v57 main_v58 rfl shapeCasts_S1x128_S128,
    binary main_v46 main_v48 main_v59 ((fun l r => Host.dotGeneral dot_S400000x384_S384x128_S400000x128_1_0_0_1_n_n none l r) : (⟨S400000x384, .f32⟩ : BufTy).Contents (Elt F) → (⟨S384x128, .f32⟩ : BufTy).Contents (Elt F) → (⟨S400000x128, .f32⟩ : BufTy).Contents (Elt F)),
    unary main_v50 main_v60 (broadcastInDim S1x128 ![1] bcast_S128_S1x128_1 : (⟨S128, .f32⟩ : BufTy).Contents (Elt F) → (⟨S1x128, .f32⟩ : BufTy).Contents (Elt F)),
    unary main_v60 main_v61 (broadcastInDim S400000x128 ![0, 1] bcast_S1x128_S400000x128_0_1 : (⟨S1x128, .f32⟩ : BufTy).Contents (Elt F) → (⟨S400000x128, .f32⟩ : BufTy).Contents (Elt F)),
    binary main_v59 main_v61 main_v62 (addf : (⟨S400000x128, .f32⟩ : BufTy).Contents (Elt F) → (⟨S400000x128, .f32⟩ : BufTy).Contents (Elt F) → (⟨S400000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S400000x128, .f32⟩) main_call4_v0) (broadcastInDim S400000x128 ![] bcast_S_S400000x128),
    TRef.binary (TRef.of (T := ⟨S400000x128, .f32⟩) main_v62) (TRef.of (T := ⟨S400000x128, .f32⟩) main_call4_v0) (TRef.of (T := ⟨S400000x128, .f32⟩) main_v63) maximumf,
    binary main_v63 main_v52 main_v64 ((fun l r => Host.dotGeneral dot_S400000x128_S128x128_S400000x128_1_0_0_1_n_n none l r) : (⟨S400000x128, .f32⟩ : BufTy).Contents (Elt F) → (⟨S128x128, .f32⟩ : BufTy).Contents (Elt F) → (⟨S400000x128, .f32⟩ : BufTy).Contents (Elt F)),
    unary main_v54 main_v65 (broadcastInDim S1x128 ![1] bcast_S128_S1x128_1 : (⟨S128, .f32⟩ : BufTy).Contents (Elt F) → (⟨S1x128, .f32⟩ : BufTy).Contents (Elt F)),
    unary main_v65 main_v66 (broadcastInDim S400000x128 ![0, 1] bcast_S1x128_S400000x128_0_1 : (⟨S1x128, .f32⟩ : BufTy).Contents (Elt F) → (⟨S400000x128, .f32⟩ : BufTy).Contents (Elt F)),
    binary main_v64 main_v66 main_v67 (addf : (⟨S400000x128, .f32⟩ : BufTy).Contents (Elt F) → (⟨S400000x128, .f32⟩ : BufTy).Contents (Elt F) → (⟨S400000x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S400000x128, .f32⟩) main_call5_v0) (broadcastInDim S400000x128 ![] bcast_S_S400000x128),
    TRef.binary (TRef.of (T := ⟨S400000x128, .f32⟩) main_v67) (TRef.of (T := ⟨S400000x128, .f32⟩) main_call5_v0) (TRef.of (T := ⟨S400000x128, .f32⟩) main_v68) maximumf,
    binary main_v68 main_v56 main_v69 ((fun l r => Host.dotGeneral dot_S400000x128_S128x128_S400000x128_1_0_0_1_n_n none l r) : (⟨S400000x128, .f32⟩ : BufTy).Contents (Elt F) → (⟨S128x128, .f32⟩ : BufTy).Contents (Elt F) → (⟨S400000x128, .f32⟩ : BufTy).Contents (Elt F)),
    unary main_v58 main_v70 (broadcastInDim S1x128 ![1] bcast_S128_S1x128_1 : (⟨S128, .f32⟩ : BufTy).Contents (Elt F) → (⟨S1x128, .f32⟩ : BufTy).Contents (Elt F)),
    unary main_v70 main_v71 (broadcastInDim S400000x128 ![0, 1] bcast_S1x128_S400000x128_0_1 : (⟨S1x128, .f32⟩ : BufTy).Contents (Elt F) → (⟨S400000x128, .f32⟩ : BufTy).Contents (Elt F)),
    binary main_v69 main_v71 main_v72 (addf : (⟨S400000x128, .f32⟩ : BufTy).Contents (Elt F) → (⟨S400000x128, .f32⟩ : BufTy).Contents (Elt F) → (⟨S400000x128, .f32⟩ : BufTy).Contents (Elt F)),
    binary main_v31 main_v72 main_v73 (addf : (⟨S400000x128, .f32⟩ : BufTy).Contents (Elt F) → (⟨S400000x128, .f32⟩ : BufTy).Contents (Elt F) → (⟨S400000x128, .f32⟩ : BufTy).Contents (Elt F)),
    nullary main_cst (constant S_ .f32 0x00000000#32),
    unary main_cst main_v74 (broadcastInDim S50000x128 ![] bcast_S_S50000x128 : (⟨S_, .f32⟩ : BufTy).Contents (Elt F) → (⟨S50000x128, .f32⟩ : BufTy).Contents (Elt F)),
    unary main_v3 main_v75 (broadcastInDim S400000x1 ![0] bcast_S400000_S400000x1_0 : (⟨S400000, .i32⟩ : BufTy).Contents (Elt F) → (⟨S400000x1, .i32⟩ : BufTy).Contents (Elt F)),
    ternary main_v74 main_v75 main_v73 main_v76 ((fun x i u => Host.scatterAdd scatter_S50000x128_S400000x1_S400000x128_1_0_0_1 x i u) : (⟨S50000x128, .f32⟩ : BufTy).Contents (Elt F) → (⟨S400000x1, .i32⟩ : BufTy).Contents (Elt F) → (⟨S400000x128, .f32⟩ : BufTy).Contents (Elt F) → (⟨S50000x128, .f32⟩ : BufTy).Contents (Elt F)) ]
/-- Chunk D: 42 operations of @main, in order. -/
abbrev opsD : List (HloOp τ sig (Elt F)) :=
  [ binary main_v17 main_v76 main_v77 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    unary main_arg21 main_v78 ((extractStridedSlice S1x256x128 ![0, 0, 0] · slices_S3x256x128_S1x256x128_0_0_0) : (⟨S3x256x128, .f32⟩ : BufTy).Contents (Elt F) → (⟨S1x256x128, .f32⟩ : BufTy).Contents (Elt F)),
    reshape main_v78 main_v79 rfl shapeCasts_S1x256x128_S256x128,
    unary main_arg22 main_v80 ((extractStridedSlice S1x128 ![0, 0] · slices_S3x128_S1x128_0_0) : (⟨S3x128, .f32⟩ : BufTy).Contents (Elt F) → (⟨S1x128, .f32⟩ : BufTy).Contents (Elt F)),
    reshape main_v80 main_v81 rfl shapeCasts_S1x128_S128,
    unary main_arg23 main_v82 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v82 main_v83 rfl shapeCasts_S1x128x128_S128x128,
    unary main_arg24 main_v84 ((extractStridedSlice S1x128 ![0, 0] · slices_S3x128_S1x128_0_0) : (⟨S3x128, .f32⟩ : BufTy).Contents (Elt F) → (⟨S1x128, .f32⟩ : BufTy).Contents (Elt F)),
    reshape main_v84 main_v85 rfl shapeCasts_S1x128_S128,
    unary main_arg25 main_v86 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v86 main_v87 rfl shapeCasts_S1x128x128_S128x128,
    unary main_arg26 main_v88 ((extractStridedSlice S1x128 ![0, 0] · slices_S3x128_S1x128_0_0) : (⟨S3x128, .f32⟩ : BufTy).Contents (Elt F) → (⟨S1x128, .f32⟩ : BufTy).Contents (Elt F)),
    reshape main_v88 main_v89 rfl shapeCasts_S1x128_S128,
    binary main_v77 main_v79 main_v90 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_v81 main_v91 (broadcastInDim S1x128 ![1] bcast_S128_S1x128_1 : (⟨S128, .f32⟩ : BufTy).Contents (Elt F) → (⟨S1x128, .f32⟩ : BufTy).Contents (Elt F)),
    unary main_v91 main_v92 (broadcastInDim S50000x128 ![0, 1] bcast_S1x128_S50000x128_0_1 : (⟨S1x128, .f32⟩ : BufTy).Contents (Elt F) → (⟨S50000x128, .f32⟩ : BufTy).Contents (Elt F)),
    binary main_v90 main_v92 main_v93 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S50000x128, .f32⟩) main_call6_v0) (broadcastInDim S50000x128 ![] bcast_S_S50000x128),
    TRef.binary (TRef.of (T := ⟨S50000x128, .f32⟩) main_v93) (TRef.of (T := ⟨S50000x128, .f32⟩) main_call6_v0) (TRef.of (T := ⟨S50000x128, .f32⟩) main_v94) maximumf,
    binary main_v94 main_v83 main_v95 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v85 main_v96 (broadcastInDim S1x128 ![1] bcast_S128_S1x128_1 : (⟨S128, .f32⟩ : BufTy).Contents (Elt F) → (⟨S1x128, .f32⟩ : BufTy).Contents (Elt F)),
    unary main_v96 main_v97 (broadcastInDim S50000x128 ![0, 1] bcast_S1x128_S50000x128_0_1 : (⟨S1x128, .f32⟩ : BufTy).Contents (Elt F) → (⟨S50000x128, .f32⟩ : BufTy).Contents (Elt F)),
    binary main_v95 main_v97 main_v98 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S50000x128, .f32⟩) main_call7_v0) (broadcastInDim S50000x128 ![] bcast_S_S50000x128),
    TRef.binary (TRef.of (T := ⟨S50000x128, .f32⟩) main_v98) (TRef.of (T := ⟨S50000x128, .f32⟩) main_call7_v0) (TRef.of (T := ⟨S50000x128, .f32⟩) main_v99) maximumf,
    binary main_v99 main_v87 main_v100 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v89 main_v101 (broadcastInDim S1x128 ![1] bcast_S128_S1x128_1 : (⟨S128, .f32⟩ : BufTy).Contents (Elt F) → (⟨S1x128, .f32⟩ : BufTy).Contents (Elt F)),
    unary main_v101 main_v102 (broadcastInDim S50000x128 ![0, 1] bcast_S1x128_S50000x128_0_1 : (⟨S1x128, .f32⟩ : BufTy).Contents (Elt F) → (⟨S50000x128, .f32⟩ : BufTy).Contents (Elt F)),
    binary main_v100 main_v102 main_v103 (addf : (⟨S50000x128, .f32⟩ : BufTy).Contents (Elt F) → (⟨S50000x128, .f32⟩ : BufTy).Contents (Elt F) → (⟨S50000x128, .f32⟩ : BufTy).Contents (Elt F)),
    binary main_v17 main_v103 main_v104 (addf : (⟨S50000x128, .f32⟩ : BufTy).Contents (Elt F) → (⟨S50000x128, .f32⟩ : BufTy).Contents (Elt F) → (⟨S50000x128, .f32⟩ : BufTy).Contents (Elt F)),
    nullary main_c_3 (constantI S_ 32 0#32),
    unary main_c_3 main_v105 (broadcastInDim S400000 ![] bcast_S_S400000 : (⟨S_, .i32⟩ : BufTy).Contents (Elt F) → (⟨S400000, .i32⟩ : BufTy).Contents (Elt F)),
    binary main_v1 main_v105 main_v106 (cmpi .slt : (⟨S400000, .i32⟩ : BufTy).Contents (Elt F) → (⟨S400000, .i32⟩ : BufTy).Contents (Elt F) → (⟨S400000, .i1⟩ : BufTy).Contents (Elt F)),
    nullary main_c_4 (constantI S_ 32 50000#32),
    unary main_c_4 main_v107 (broadcastInDim S400000 ![] bcast_S_S400000 : (⟨S_, .i32⟩ : BufTy).Contents (Elt F) → (⟨S400000, .i32⟩ : BufTy).Contents (Elt F)),
    binary main_v1 main_v107 main_v108 (addi : (⟨S400000, .i32⟩ : BufTy).Contents (Elt F) → (⟨S400000, .i32⟩ : BufTy).Contents (Elt F) → (⟨S400000, .i32⟩ : BufTy).Contents (Elt F)),
    ternary main_v106 main_v108 main_v1 main_v109 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v109 main_v110 (broadcastInDim S400000x1 ![0] bcast_S400000_S400000x1_0 : (⟨S400000, .i32⟩ : BufTy).Contents (Elt F) → (⟨S400000x1, .i32⟩ : BufTy).Contents (Elt F)),
    binary main_v104 main_v110 main_v111 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)),
    nullary main_c_5 (constantI S_ 32 0#32) ]
/-- Chunk E: 8 operations of @main, in order. -/
abbrev opsE : List (HloOp τ sig (Elt F)) :=
  [ unary main_c_5 main_v112 (broadcastInDim S400000 ![] bcast_S_S400000 : (⟨S_, .i32⟩ : BufTy).Contents (Elt F) → (⟨S400000, .i32⟩ : BufTy).Contents (Elt F)),
    binary main_v3 main_v112 main_v113 (cmpi .slt : (⟨S400000, .i32⟩ : BufTy).Contents (Elt F) → (⟨S400000, .i32⟩ : BufTy).Contents (Elt F) → (⟨S400000, .i1⟩ : BufTy).Contents (Elt F)),
    nullary main_c_6 (constantI S_ 32 50000#32),
    unary main_c_6 main_v114 (broadcastInDim S400000 ![] bcast_S_S400000 : (⟨S_, .i32⟩ : BufTy).Contents (Elt F) → (⟨S400000, .i32⟩ : BufTy).Contents (Elt F)),
    binary main_v3 main_v114 main_v115 (addi : (⟨S400000, .i32⟩ : BufTy).Contents (Elt F) → (⟨S400000, .i32⟩ : BufTy).Contents (Elt F) → (⟨S400000, .i32⟩ : BufTy).Contents (Elt F)),
    ternary main_v113 main_v115 main_v3 main_v116 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v116 main_v117 (broadcastInDim S400000x1 ![0] bcast_S400000_S400000x1_0 : (⟨S400000, .i32⟩ : BufTy).Contents (Elt F) → (⟨S400000x1, .i32⟩ : BufTy).Contents (Elt F)),
    binary main_v104 main_v117 main_v118 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)) ]
/-- Chunk F: 36 operations of @main, in order. -/
abbrev opsF : List (HloOp τ sig (Elt F)) :=
  [ nary ![main_v111, main_v118, main_v73] main_v119 (fun u => concatenate S400000x384 1 [⟨S400000x128, u 0⟩, ⟨S400000x128, u 1⟩, ⟨S400000x128, u 2⟩] concatenates_S400000x128_S400000x128_S400000x128_S400000x384_d1),
    unary main_arg15 main_v120 ((extractStridedSlice S1x384x128 ![1, 0, 0] · slices_S3x384x128_S1x384x128_1_0_0) : (⟨S3x384x128, .f32⟩ : BufTy).Contents (Elt F) → (⟨S1x384x128, .f32⟩ : BufTy).Contents (Elt F)),
    reshape main_v120 main_v121 rfl shapeCasts_S1x384x128_S384x128,
    unary main_arg16 main_v122 ((extractStridedSlice S1x128 ![1, 0] · slices_S3x128_S1x128_1_0) : (⟨S3x128, .f32⟩ : BufTy).Contents (Elt F) → (⟨S1x128, .f32⟩ : BufTy).Contents (Elt F)),
    reshape main_v122 main_v123 rfl shapeCasts_S1x128_S128,
    unary main_arg17 main_v124 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v124 main_v125 rfl shapeCasts_S1x128x128_S128x128,
    unary main_arg18 main_v126 ((extractStridedSlice S1x128 ![1, 0] · slices_S3x128_S1x128_1_0) : (⟨S3x128, .f32⟩ : BufTy).Contents (Elt F) → (⟨S1x128, .f32⟩ : BufTy).Contents (Elt F)),
    reshape main_v126 main_v127 rfl shapeCasts_S1x128_S128,
    unary main_arg19 main_v128 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v128 main_v129 rfl shapeCasts_S1x128x128_S128x128,
    unary main_arg20 main_v130 ((extractStridedSlice S1x128 ![1, 0] · slices_S3x128_S1x128_1_0) : (⟨S3x128, .f32⟩ : BufTy).Contents (Elt F) → (⟨S1x128, .f32⟩ : BufTy).Contents (Elt F)),
    reshape main_v130 main_v131 rfl shapeCasts_S1x128_S128,
    binary main_v119 main_v121 main_v132 ((fun l r => Host.dotGeneral dot_S400000x384_S384x128_S400000x128_1_0_0_1_n_n none l r) : (⟨S400000x384, .f32⟩ : BufTy).Contents (Elt F) → (⟨S384x128, .f32⟩ : BufTy).Contents (Elt F) → (⟨S400000x128, .f32⟩ : BufTy).Contents (Elt F)),
    unary main_v123 main_v133 (broadcastInDim S1x128 ![1] bcast_S128_S1x128_1 : (⟨S128, .f32⟩ : BufTy).Contents (Elt F) → (⟨S1x128, .f32⟩ : BufTy).Contents (Elt F)),
    unary main_v133 main_v134 (broadcastInDim S400000x128 ![0, 1] bcast_S1x128_S400000x128_0_1 : (⟨S1x128, .f32⟩ : BufTy).Contents (Elt F) → (⟨S400000x128, .f32⟩ : BufTy).Contents (Elt F)),
    binary main_v132 main_v134 main_v135 (addf : (⟨S400000x128, .f32⟩ : BufTy).Contents (Elt F) → (⟨S400000x128, .f32⟩ : BufTy).Contents (Elt F) → (⟨S400000x128, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S400000x128, .f32⟩) main_call8_v0) (broadcastInDim S400000x128 ![] bcast_S_S400000x128),
    TRef.binary (TRef.of (T := ⟨S400000x128, .f32⟩) main_v135) (TRef.of (T := ⟨S400000x128, .f32⟩) main_call8_v0) (TRef.of (T := ⟨S400000x128, .f32⟩) main_v136) maximumf,
    binary main_v136 main_v125 main_v137 ((fun l r => Host.dotGeneral dot_S400000x128_S128x128_S400000x128_1_0_0_1_n_n none l r) : (⟨S400000x128, .f32⟩ : BufTy).Contents (Elt F) → (⟨S128x128, .f32⟩ : BufTy).Contents (Elt F) → (⟨S400000x128, .f32⟩ : BufTy).Contents (Elt F)),
    unary main_v127 main_v138 (broadcastInDim S1x128 ![1] bcast_S128_S1x128_1 : (⟨S128, .f32⟩ : BufTy).Contents (Elt F) → (⟨S1x128, .f32⟩ : BufTy).Contents (Elt F)),
    unary main_v138 main_v139 (broadcastInDim S400000x128 ![0, 1] bcast_S1x128_S400000x128_0_1 : (⟨S1x128, .f32⟩ : BufTy).Contents (Elt F) → (⟨S400000x128, .f32⟩ : BufTy).Contents (Elt F)),
    binary main_v137 main_v139 main_v140 (addf : (⟨S400000x128, .f32⟩ : BufTy).Contents (Elt F) → (⟨S400000x128, .f32⟩ : BufTy).Contents (Elt F) → (⟨S400000x128, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S400000x128, .f32⟩) main_call9_v0) (broadcastInDim S400000x128 ![] bcast_S_S400000x128),
    TRef.binary (TRef.of (T := ⟨S400000x128, .f32⟩) main_v140) (TRef.of (T := ⟨S400000x128, .f32⟩) main_call9_v0) (TRef.of (T := ⟨S400000x128, .f32⟩) main_v141) maximumf,
    binary main_v141 main_v129 main_v142 ((fun l r => Host.dotGeneral dot_S400000x128_S128x128_S400000x128_1_0_0_1_n_n none l r) : (⟨S400000x128, .f32⟩ : BufTy).Contents (Elt F) → (⟨S128x128, .f32⟩ : BufTy).Contents (Elt F) → (⟨S400000x128, .f32⟩ : BufTy).Contents (Elt F)),
    unary main_v131 main_v143 (broadcastInDim S1x128 ![1] bcast_S128_S1x128_1 : (⟨S128, .f32⟩ : BufTy).Contents (Elt F) → (⟨S1x128, .f32⟩ : BufTy).Contents (Elt F)),
    unary main_v143 main_v144 (broadcastInDim S400000x128 ![0, 1] bcast_S1x128_S400000x128_0_1 : (⟨S1x128, .f32⟩ : BufTy).Contents (Elt F) → (⟨S400000x128, .f32⟩ : BufTy).Contents (Elt F)),
    binary main_v142 main_v144 main_v145 (addf : (⟨S400000x128, .f32⟩ : BufTy).Contents (Elt F) → (⟨S400000x128, .f32⟩ : BufTy).Contents (Elt F) → (⟨S400000x128, .f32⟩ : BufTy).Contents (Elt F)),
    binary main_v73 main_v145 main_v146 (addf : (⟨S400000x128, .f32⟩ : BufTy).Contents (Elt F) → (⟨S400000x128, .f32⟩ : BufTy).Contents (Elt F) → (⟨S400000x128, .f32⟩ : BufTy).Contents (Elt F)),
    nullary main_cst_7 (constant S_ .f32 0x00000000#32),
    unary main_cst_7 main_v147 (broadcastInDim S50000x128 ![] bcast_S_S50000x128 : (⟨S_, .f32⟩ : BufTy).Contents (Elt F) → (⟨S50000x128, .f32⟩ : BufTy).Contents (Elt F)),
    unary main_v3 main_v148 (broadcastInDim S400000x1 ![0] bcast_S400000_S400000x1_0 : (⟨S400000, .i32⟩ : BufTy).Contents (Elt F) → (⟨S400000x1, .i32⟩ : BufTy).Contents (Elt F)),
    ternary main_v147 main_v148 main_v146 main_v149 ((fun x i u => Host.scatterAdd scatter_S50000x128_S400000x1_S400000x128_1_0_0_1 x i u) : (⟨S50000x128, .f32⟩ : BufTy).Contents (Elt F) → (⟨S400000x1, .i32⟩ : BufTy).Contents (Elt F) → (⟨S400000x128, .f32⟩ : BufTy).Contents (Elt F) → (⟨S50000x128, .f32⟩ : BufTy).Contents (Elt F)) ]
/-- Chunk G: 22 operations of @main, in order. -/
abbrev opsG : List (HloOp τ sig (Elt F)) :=
  [ binary main_v104 main_v149 main_v150 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    unary main_arg21 main_v151 ((extractStridedSlice S1x256x128 ![1, 0, 0] · slices_S3x256x128_S1x256x128_1_0_0) : (⟨S3x256x128, .f32⟩ : BufTy).Contents (Elt F) → (⟨S1x256x128, .f32⟩ : BufTy).Contents (Elt F)),
    reshape main_v151 main_v152 rfl shapeCasts_S1x256x128_S256x128,
    unary main_arg22 main_v153 ((extractStridedSlice S1x128 ![1, 0] · slices_S3x128_S1x128_1_0) : (⟨S3x128, .f32⟩ : BufTy).Contents (Elt F) → (⟨S1x128, .f32⟩ : BufTy).Contents (Elt F)),
    reshape main_v153 main_v154 rfl shapeCasts_S1x128_S128,
    unary main_arg23 main_v155 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v155 main_v156 rfl shapeCasts_S1x128x128_S128x128,
    unary main_arg24 main_v157 ((extractStridedSlice S1x128 ![1, 0] · slices_S3x128_S1x128_1_0) : (⟨S3x128, .f32⟩ : BufTy).Contents (Elt F) → (⟨S1x128, .f32⟩ : BufTy).Contents (Elt F)),
    reshape main_v157 main_v158 rfl shapeCasts_S1x128_S128,
    unary main_arg25 main_v159 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v159 main_v160 rfl shapeCasts_S1x128x128_S128x128,
    unary main_arg26 main_v161 ((extractStridedSlice S1x128 ![1, 0] · slices_S3x128_S1x128_1_0) : (⟨S3x128, .f32⟩ : BufTy).Contents (Elt F) → (⟨S1x128, .f32⟩ : BufTy).Contents (Elt F)),
    reshape main_v161 main_v162 rfl shapeCasts_S1x128_S128,
    binary main_v150 main_v152 main_v163 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_v154 main_v164 (broadcastInDim S1x128 ![1] bcast_S128_S1x128_1 : (⟨S128, .f32⟩ : BufTy).Contents (Elt F) → (⟨S1x128, .f32⟩ : BufTy).Contents (Elt F)),
    unary main_v164 main_v165 (broadcastInDim S50000x128 ![0, 1] bcast_S1x128_S50000x128_0_1 : (⟨S1x128, .f32⟩ : BufTy).Contents (Elt F) → (⟨S50000x128, .f32⟩ : BufTy).Contents (Elt F)),
    binary main_v163 main_v165 main_v166 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S50000x128, .f32⟩) main_call10_v0) (broadcastInDim S50000x128 ![] bcast_S_S50000x128),
    TRef.binary (TRef.of (T := ⟨S50000x128, .f32⟩) main_v166) (TRef.of (T := ⟨S50000x128, .f32⟩) main_call10_v0) (TRef.of (T := ⟨S50000x128, .f32⟩) main_v167) maximumf,
    binary main_v167 main_v156 main_v168 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v158 main_v169 (broadcastInDim S1x128 ![1] bcast_S128_S1x128_1 : (⟨S128, .f32⟩ : BufTy).Contents (Elt F) → (⟨S1x128, .f32⟩ : BufTy).Contents (Elt F)) ]
/-- Chunk H: 28 operations of @main, in order. -/
abbrev opsH : List (HloOp τ sig (Elt F)) :=
  [ unary main_v169 main_v170 (broadcastInDim S50000x128 ![0, 1] bcast_S1x128_S50000x128_0_1 : (⟨S1x128, .f32⟩ : BufTy).Contents (Elt F) → (⟨S50000x128, .f32⟩ : BufTy).Contents (Elt F)),
    binary main_v168 main_v170 main_v171 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S50000x128, .f32⟩) main_call11_v0) (broadcastInDim S50000x128 ![] bcast_S_S50000x128),
    TRef.binary (TRef.of (T := ⟨S50000x128, .f32⟩) main_v171) (TRef.of (T := ⟨S50000x128, .f32⟩) main_call11_v0) (TRef.of (T := ⟨S50000x128, .f32⟩) main_v172) maximumf,
    binary main_v172 main_v160 main_v173 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v162 main_v174 (broadcastInDim S1x128 ![1] bcast_S128_S1x128_1 : (⟨S128, .f32⟩ : BufTy).Contents (Elt F) → (⟨S1x128, .f32⟩ : BufTy).Contents (Elt F)),
    unary main_v174 main_v175 (broadcastInDim S50000x128 ![0, 1] bcast_S1x128_S50000x128_0_1 : (⟨S1x128, .f32⟩ : BufTy).Contents (Elt F) → (⟨S50000x128, .f32⟩ : BufTy).Contents (Elt F)),
    binary main_v173 main_v175 main_v176 (addf : (⟨S50000x128, .f32⟩ : BufTy).Contents (Elt F) → (⟨S50000x128, .f32⟩ : BufTy).Contents (Elt F) → (⟨S50000x128, .f32⟩ : BufTy).Contents (Elt F)),
    binary main_v104 main_v176 main_v177 (addf : (⟨S50000x128, .f32⟩ : BufTy).Contents (Elt F) → (⟨S50000x128, .f32⟩ : BufTy).Contents (Elt F) → (⟨S50000x128, .f32⟩ : BufTy).Contents (Elt F)),
    nullary main_c_8 (constantI S_ 32 0#32),
    unary main_c_8 main_v178 (broadcastInDim S400000 ![] bcast_S_S400000 : (⟨S_, .i32⟩ : BufTy).Contents (Elt F) → (⟨S400000, .i32⟩ : BufTy).Contents (Elt F)),
    binary main_v1 main_v178 main_v179 (cmpi .slt : (⟨S400000, .i32⟩ : BufTy).Contents (Elt F) → (⟨S400000, .i32⟩ : BufTy).Contents (Elt F) → (⟨S400000, .i1⟩ : BufTy).Contents (Elt F)),
    nullary main_c_9 (constantI S_ 32 50000#32),
    unary main_c_9 main_v180 (broadcastInDim S400000 ![] bcast_S_S400000 : (⟨S_, .i32⟩ : BufTy).Contents (Elt F) → (⟨S400000, .i32⟩ : BufTy).Contents (Elt F)),
    binary main_v1 main_v180 main_v181 (addi : (⟨S400000, .i32⟩ : BufTy).Contents (Elt F) → (⟨S400000, .i32⟩ : BufTy).Contents (Elt F) → (⟨S400000, .i32⟩ : BufTy).Contents (Elt F)),
    ternary main_v179 main_v181 main_v1 main_v182 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v182 main_v183 (broadcastInDim S400000x1 ![0] bcast_S400000_S400000x1_0 : (⟨S400000, .i32⟩ : BufTy).Contents (Elt F) → (⟨S400000x1, .i32⟩ : BufTy).Contents (Elt F)),
    binary main_v177 main_v183 main_v184 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)),
    nullary main_c_10 (constantI S_ 32 0#32),
    unary main_c_10 main_v185 (broadcastInDim S400000 ![] bcast_S_S400000 : (⟨S_, .i32⟩ : BufTy).Contents (Elt F) → (⟨S400000, .i32⟩ : BufTy).Contents (Elt F)),
    binary main_v3 main_v185 main_v186 (cmpi .slt : (⟨S400000, .i32⟩ : BufTy).Contents (Elt F) → (⟨S400000, .i32⟩ : BufTy).Contents (Elt F) → (⟨S400000, .i1⟩ : BufTy).Contents (Elt F)),
    nullary main_c_11 (constantI S_ 32 50000#32),
    unary main_c_11 main_v187 (broadcastInDim S400000 ![] bcast_S_S400000 : (⟨S_, .i32⟩ : BufTy).Contents (Elt F) → (⟨S400000, .i32⟩ : BufTy).Contents (Elt F)),
    binary main_v3 main_v187 main_v188 (addi : (⟨S400000, .i32⟩ : BufTy).Contents (Elt F) → (⟨S400000, .i32⟩ : BufTy).Contents (Elt F) → (⟨S400000, .i32⟩ : BufTy).Contents (Elt F)),
    ternary main_v186 main_v188 main_v3 main_v189 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v189 main_v190 (broadcastInDim S400000x1 ![0] bcast_S400000_S400000x1_0 : (⟨S400000, .i32⟩ : BufTy).Contents (Elt F) → (⟨S400000x1, .i32⟩ : BufTy).Contents (Elt F)),
    binary main_v177 main_v190 main_v191 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)) ]
/-- Chunk I: 36 operations of @main, in order. -/
abbrev opsI : List (HloOp τ sig (Elt F)) :=
  [ nary ![main_v184, main_v191, main_v146] main_v192 (fun u => concatenate S400000x384 1 [⟨S400000x128, u 0⟩, ⟨S400000x128, u 1⟩, ⟨S400000x128, u 2⟩] concatenates_S400000x128_S400000x128_S400000x128_S400000x384_d1),
    unary main_arg15 main_v193 ((extractStridedSlice S1x384x128 ![2, 0, 0] · slices_S3x384x128_S1x384x128_2_0_0) : (⟨S3x384x128, .f32⟩ : BufTy).Contents (Elt F) → (⟨S1x384x128, .f32⟩ : BufTy).Contents (Elt F)),
    reshape main_v193 main_v194 rfl shapeCasts_S1x384x128_S384x128,
    unary main_arg16 main_v195 ((extractStridedSlice S1x128 ![2, 0] · slices_S3x128_S1x128_2_0) : (⟨S3x128, .f32⟩ : BufTy).Contents (Elt F) → (⟨S1x128, .f32⟩ : BufTy).Contents (Elt F)),
    reshape main_v195 main_v196 rfl shapeCasts_S1x128_S128,
    unary main_arg17 main_v197 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v197 main_v198 rfl shapeCasts_S1x128x128_S128x128,
    unary main_arg18 main_v199 ((extractStridedSlice S1x128 ![2, 0] · slices_S3x128_S1x128_2_0) : (⟨S3x128, .f32⟩ : BufTy).Contents (Elt F) → (⟨S1x128, .f32⟩ : BufTy).Contents (Elt F)),
    reshape main_v199 main_v200 rfl shapeCasts_S1x128_S128,
    unary main_arg19 main_v201 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v201 main_v202 rfl shapeCasts_S1x128x128_S128x128,
    unary main_arg20 main_v203 ((extractStridedSlice S1x128 ![2, 0] · slices_S3x128_S1x128_2_0) : (⟨S3x128, .f32⟩ : BufTy).Contents (Elt F) → (⟨S1x128, .f32⟩ : BufTy).Contents (Elt F)),
    reshape main_v203 main_v204 rfl shapeCasts_S1x128_S128,
    binary main_v192 main_v194 main_v205 ((fun l r => Host.dotGeneral dot_S400000x384_S384x128_S400000x128_1_0_0_1_n_n none l r) : (⟨S400000x384, .f32⟩ : BufTy).Contents (Elt F) → (⟨S384x128, .f32⟩ : BufTy).Contents (Elt F) → (⟨S400000x128, .f32⟩ : BufTy).Contents (Elt F)),
    unary main_v196 main_v206 (broadcastInDim S1x128 ![1] bcast_S128_S1x128_1 : (⟨S128, .f32⟩ : BufTy).Contents (Elt F) → (⟨S1x128, .f32⟩ : BufTy).Contents (Elt F)),
    unary main_v206 main_v207 (broadcastInDim S400000x128 ![0, 1] bcast_S1x128_S400000x128_0_1 : (⟨S1x128, .f32⟩ : BufTy).Contents (Elt F) → (⟨S400000x128, .f32⟩ : BufTy).Contents (Elt F)),
    binary main_v205 main_v207 main_v208 (addf : (⟨S400000x128, .f32⟩ : BufTy).Contents (Elt F) → (⟨S400000x128, .f32⟩ : BufTy).Contents (Elt F) → (⟨S400000x128, .f32⟩ : BufTy).Contents (Elt F)),
    TRef.nullary (TRef.of (T := ⟨S_, .f32⟩) main_call12_cst) (constant S_ .f32 0x00000000#32),
    TRef.unary (TRef.of (T := ⟨S_, .f32⟩) main_call12_cst) (TRef.of (T := ⟨S400000x128, .f32⟩) main_call12_v0) (broadcastInDim S400000x128 ![] bcast_S_S400000x128),
    TRef.binary (TRef.of (T := ⟨S400000x128, .f32⟩) main_v208) (TRef.of (T := ⟨S400000x128, .f32⟩) main_call12_v0) (TRef.of (T := ⟨S400000x128, .f32⟩) main_v209) maximumf,
    binary main_v209 main_v198 main_v210 ((fun l r => Host.dotGeneral dot_S400000x128_S128x128_S400000x128_1_0_0_1_n_n none l r) : (⟨S400000x128, .f32⟩ : BufTy).Contents (Elt F) → (⟨S128x128, .f32⟩ : BufTy).Contents (Elt F) → (⟨S400000x128, .f32⟩ : BufTy).Contents (Elt F)),
    unary main_v200 main_v211 (broadcastInDim S1x128 ![1] bcast_S128_S1x128_1 : (⟨S128, .f32⟩ : BufTy).Contents (Elt F) → (⟨S1x128, .f32⟩ : BufTy).Contents (Elt F)),
    unary main_v211 main_v212 (broadcastInDim S400000x128 ![0, 1] bcast_S1x128_S400000x128_0_1 : (⟨S1x128, .f32⟩ : BufTy).Contents (Elt F) → (⟨S400000x128, .f32⟩ : BufTy).Contents (Elt F)),
    binary main_v210 main_v212 main_v213 (addf : (⟨S400000x128, .f32⟩ : BufTy).Contents (Elt F) → (⟨S400000x128, .f32⟩ : BufTy).Contents (Elt F) → (⟨S400000x128, .f32⟩ : BufTy).Contents (Elt F)),
    TRef.nullary (TRef.of (T := ⟨S_, .f32⟩) main_call13_cst) (constant S_ .f32 0x00000000#32),
    TRef.unary (TRef.of (T := ⟨S_, .f32⟩) main_call13_cst) (TRef.of (T := ⟨S400000x128, .f32⟩) main_call13_v0) (broadcastInDim S400000x128 ![] bcast_S_S400000x128),
    TRef.binary (TRef.of (T := ⟨S400000x128, .f32⟩) main_v213) (TRef.of (T := ⟨S400000x128, .f32⟩) main_call13_v0) (TRef.of (T := ⟨S400000x128, .f32⟩) main_v214) maximumf,
    binary main_v214 main_v202 main_v215 ((fun l r => Host.dotGeneral dot_S400000x128_S128x128_S400000x128_1_0_0_1_n_n none l r) : (⟨S400000x128, .f32⟩ : BufTy).Contents (Elt F) → (⟨S128x128, .f32⟩ : BufTy).Contents (Elt F) → (⟨S400000x128, .f32⟩ : BufTy).Contents (Elt F)),
    unary main_v204 main_v216 (broadcastInDim S1x128 ![1] bcast_S128_S1x128_1 : (⟨S128, .f32⟩ : BufTy).Contents (Elt F) → (⟨S1x128, .f32⟩ : BufTy).Contents (Elt F)),
    unary main_v216 main_v217 (broadcastInDim S400000x128 ![0, 1] bcast_S1x128_S400000x128_0_1 : (⟨S1x128, .f32⟩ : BufTy).Contents (Elt F) → (⟨S400000x128, .f32⟩ : BufTy).Contents (Elt F)),
    binary main_v215 main_v217 main_v218 (addf : (⟨S400000x128, .f32⟩ : BufTy).Contents (Elt F) → (⟨S400000x128, .f32⟩ : BufTy).Contents (Elt F) → (⟨S400000x128, .f32⟩ : BufTy).Contents (Elt F)),
    binary main_v146 main_v218 main_v219 (addf : (⟨S400000x128, .f32⟩ : BufTy).Contents (Elt F) → (⟨S400000x128, .f32⟩ : BufTy).Contents (Elt F) → (⟨S400000x128, .f32⟩ : BufTy).Contents (Elt F)),
    nullary main_cst_12 (constant S_ .f32 0x00000000#32),
    unary main_cst_12 main_v220 (broadcastInDim S50000x128 ![] bcast_S_S50000x128 : (⟨S_, .f32⟩ : BufTy).Contents (Elt F) → (⟨S50000x128, .f32⟩ : BufTy).Contents (Elt F)),
    unary main_v3 main_v221 (broadcastInDim S400000x1 ![0] bcast_S400000_S400000x1_0 : (⟨S400000, .i32⟩ : BufTy).Contents (Elt F) → (⟨S400000x1, .i32⟩ : BufTy).Contents (Elt F)),
    ternary main_v220 main_v221 main_v219 main_v222 ((fun x i u => Host.scatterAdd scatter_S50000x128_S400000x1_S400000x128_1_0_0_1 x i u) : (⟨S50000x128, .f32⟩ : BufTy).Contents (Elt F) → (⟨S400000x1, .i32⟩ : BufTy).Contents (Elt F) → (⟨S400000x128, .f32⟩ : BufTy).Contents (Elt F) → (⟨S50000x128, .f32⟩ : BufTy).Contents (Elt F)) ]
/-- Chunk J: 2 operations of @main, in order. -/
abbrev opsJ : List (HloOp τ sig (Elt F)) :=
  [ binary main_v177 main_v222 main_v223 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    unary main_arg21 main_v224 ((extractStridedSlice S1x256x128 ![2, 0, 0] · slices_S3x256x128_S1x256x128_2_0_0) : (⟨S3x256x128, .f32⟩ : BufTy).Contents (Elt F) → (⟨S1x256x128, .f32⟩ : BufTy).Contents (Elt F)) ]
/-- Chunk K: 48 operations of @main, in order. -/
abbrev opsK : List (HloOp τ sig (Elt F)) :=
  [ reshape main_v224 main_v225 rfl shapeCasts_S1x256x128_S256x128,
    unary main_arg22 main_v226 ((extractStridedSlice S1x128 ![2, 0] · slices_S3x128_S1x128_2_0) : (⟨S3x128, .f32⟩ : BufTy).Contents (Elt F) → (⟨S1x128, .f32⟩ : BufTy).Contents (Elt F)),
    reshape main_v226 main_v227 rfl shapeCasts_S1x128_S128,
    unary main_arg23 main_v228 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v228 main_v229 rfl shapeCasts_S1x128x128_S128x128,
    unary main_arg24 main_v230 ((extractStridedSlice S1x128 ![2, 0] · slices_S3x128_S1x128_2_0) : (⟨S3x128, .f32⟩ : BufTy).Contents (Elt F) → (⟨S1x128, .f32⟩ : BufTy).Contents (Elt F)),
    reshape main_v230 main_v231 rfl shapeCasts_S1x128_S128,
    unary main_arg25 main_v232 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v232 main_v233 rfl shapeCasts_S1x128x128_S128x128,
    unary main_arg26 main_v234 ((extractStridedSlice S1x128 ![2, 0] · slices_S3x128_S1x128_2_0) : (⟨S3x128, .f32⟩ : BufTy).Contents (Elt F) → (⟨S1x128, .f32⟩ : BufTy).Contents (Elt F)),
    reshape main_v234 main_v235 rfl shapeCasts_S1x128_S128,
    binary main_v223 main_v225 main_v236 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_v227 main_v237 (broadcastInDim S1x128 ![1] bcast_S128_S1x128_1 : (⟨S128, .f32⟩ : BufTy).Contents (Elt F) → (⟨S1x128, .f32⟩ : BufTy).Contents (Elt F)),
    unary main_v237 main_v238 (broadcastInDim S50000x128 ![0, 1] bcast_S1x128_S50000x128_0_1 : (⟨S1x128, .f32⟩ : BufTy).Contents (Elt F) → (⟨S50000x128, .f32⟩ : BufTy).Contents (Elt F)),
    binary main_v236 main_v238 main_v239 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call14_cst) (constant S_ .f32 0x00000000#32),
    TRef.unary (TRef.of (T := ⟨S_, .f32⟩) main_call14_cst) (TRef.of (T := ⟨S50000x128, .f32⟩) main_call14_v0) (broadcastInDim S50000x128 ![] bcast_S_S50000x128),
    TRef.binary (TRef.of (T := ⟨S50000x128, .f32⟩) main_v239) (TRef.of (T := ⟨S50000x128, .f32⟩) main_call14_v0) (TRef.of (T := ⟨S50000x128, .f32⟩) main_v240) maximumf,
    binary main_v240 main_v229 main_v241 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v231 main_v242 (broadcastInDim S1x128 ![1] bcast_S128_S1x128_1 : (⟨S128, .f32⟩ : BufTy).Contents (Elt F) → (⟨S1x128, .f32⟩ : BufTy).Contents (Elt F)),
    unary main_v242 main_v243 (broadcastInDim S50000x128 ![0, 1] bcast_S1x128_S50000x128_0_1 : (⟨S1x128, .f32⟩ : BufTy).Contents (Elt F) → (⟨S50000x128, .f32⟩ : BufTy).Contents (Elt F)),
    binary main_v241 main_v243 main_v244 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call15_cst) (constant S_ .f32 0x00000000#32),
    TRef.unary (TRef.of (T := ⟨S_, .f32⟩) main_call15_cst) (TRef.of (T := ⟨S50000x128, .f32⟩) main_call15_v0) (broadcastInDim S50000x128 ![] bcast_S_S50000x128),
    TRef.binary (TRef.of (T := ⟨S50000x128, .f32⟩) main_v244) (TRef.of (T := ⟨S50000x128, .f32⟩) main_call15_v0) (TRef.of (T := ⟨S50000x128, .f32⟩) main_v245) maximumf,
    binary main_v245 main_v233 main_v246 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v235 main_v247 (broadcastInDim S1x128 ![1] bcast_S128_S1x128_1 : (⟨S128, .f32⟩ : BufTy).Contents (Elt F) → (⟨S1x128, .f32⟩ : BufTy).Contents (Elt F)),
    unary main_v247 main_v248 (broadcastInDim S50000x128 ![0, 1] bcast_S1x128_S50000x128_0_1 : (⟨S1x128, .f32⟩ : BufTy).Contents (Elt F) → (⟨S50000x128, .f32⟩ : BufTy).Contents (Elt F)),
    binary main_v246 main_v248 main_v249 (addf : (⟨S50000x128, .f32⟩ : BufTy).Contents (Elt F) → (⟨S50000x128, .f32⟩ : BufTy).Contents (Elt F) → (⟨S50000x128, .f32⟩ : BufTy).Contents (Elt F)),
    binary main_v177 main_v249 main_v250 (addf : (⟨S50000x128, .f32⟩ : BufTy).Contents (Elt F) → (⟨S50000x128, .f32⟩ : BufTy).Contents (Elt F) → (⟨S50000x128, .f32⟩ : BufTy).Contents (Elt F)),
    binary main_v250 main_arg27 main_v251 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg28 main_v252 (broadcastInDim S1x128 ![1] bcast_S128_S1x128_1 : (⟨S128, .f32⟩ : BufTy).Contents (Elt F) → (⟨S1x128, .f32⟩ : BufTy).Contents (Elt F)),
    unary main_v252 main_v253 (broadcastInDim S50000x128 ![0, 1] bcast_S1x128_S50000x128_0_1 : (⟨S1x128, .f32⟩ : BufTy).Contents (Elt F) → (⟨S50000x128, .f32⟩ : BufTy).Contents (Elt F)),
    binary main_v251 main_v253 main_v254 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call16_cst) (constant S_ .f32 0x00000000#32),
    TRef.unary (TRef.of (T := ⟨S_, .f32⟩) main_call16_cst) (TRef.of (T := ⟨S50000x128, .f32⟩) main_call16_v0) (broadcastInDim S50000x128 ![] bcast_S_S50000x128),
    TRef.binary (TRef.of (T := ⟨S50000x128, .f32⟩) main_v254) (TRef.of (T := ⟨S50000x128, .f32⟩) main_call16_v0) (TRef.of (T := ⟨S50000x128, .f32⟩) main_v255) maximumf,
    binary main_v255 main_arg29 main_v256 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg30 main_v257 (broadcastInDim S1x128 ![1] bcast_S128_S1x128_1 : (⟨S128, .f32⟩ : BufTy).Contents (Elt F) → (⟨S1x128, .f32⟩ : BufTy).Contents (Elt F)),
    unary main_v257 main_v258 (broadcastInDim S50000x128 ![0, 1] bcast_S1x128_S50000x128_0_1 : (⟨S1x128, .f32⟩ : BufTy).Contents (Elt F) → (⟨S50000x128, .f32⟩ : BufTy).Contents (Elt F)),
    binary main_v256 main_v258 main_v259 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call17_cst) (constant S_ .f32 0x00000000#32),
    TRef.unary (TRef.of (T := ⟨S_, .f32⟩) main_call17_cst) (TRef.of (T := ⟨S50000x128, .f32⟩) main_call17_v0) (broadcastInDim S50000x128 ![] bcast_S_S50000x128),
    TRef.binary (TRef.of (T := ⟨S50000x128, .f32⟩) main_v259) (TRef.of (T := ⟨S50000x128, .f32⟩) main_call17_v0) (TRef.of (T := ⟨S50000x128, .f32⟩) main_v260) maximumf,
    binary main_v260 main_arg31 main_v261 ((fun l r => Host.dotGeneral dot_S50000x128_S128x2_S50000x2_1_0_0_1_n_n none l r) : (⟨S50000x128, .f32⟩ : BufTy).Contents (Elt F) → (⟨S128x2, .f32⟩ : BufTy).Contents (Elt F) → (⟨S50000x2, .f32⟩ : BufTy).Contents (Elt F)),
    unary main_arg32 main_v262 (broadcastInDim S1x2 ![1] bcast_S2_S1x2_1 : (⟨S2, .f32⟩ : BufTy).Contents (Elt F) → (⟨S1x2, .f32⟩ : BufTy).Contents (Elt F)),
    unary main_v262 main_v263 (broadcastInDim S50000x2 ![0, 1] bcast_S1x2_S50000x2_0_1 : (⟨S1x2, .f32⟩ : BufTy).Contents (Elt F) → (⟨S50000x2, .f32⟩ : BufTy).Contents (Elt F)),
    binary main_v261 main_v263 main_v264 (addf : (⟨S50000x2, .f32⟩ : BufTy).Contents (Elt F) → (⟨S50000x2, .f32⟩ : BufTy).Contents (Elt F) → (⟨S50000x2, .f32⟩ : BufTy).Contents (Elt F)) ]
/-- @main's 316 operations, in order. -/
abbrev ops : List (HloOp τ sig (Elt F)) :=
  opsA ++ (opsB ++ (opsC ++ (opsD ++ (opsE ++ (opsF ++ (opsG ++ (opsH ++ (opsI ++ (opsJ ++ (opsK))))))))))

theorem main_part0_eq (c : Dev nD) : main_part0 (F := F) c = seq (opsA ++ (opsB)) := rfl
theorem main_part1_eq (c : Dev nD) : main_part1 (F := F) c = seq (opsC ++ (opsD)) := rfl
theorem main_part2_eq (c : Dev nD) : main_part2 (F := F) c = seq (opsE ++ (opsF ++ (opsG))) := rfl
theorem main_part3_eq (c : Dev nD) : main_part3 (F := F) c = seq (opsH ++ (opsI ++ (opsJ))) := rfl
theorem main_part4_eq (c : Dev nD) : main_part4 (F := F) c = seq (opsK) := rfl
theorem main_eq (c : Dev nD) : main (F := F) c = seq ops := by
  have h : main (F := F) c = (main_part0 (F := F) c >>= fun _ => main_part1 (F := F) c >>= fun _ => main_part2 (F := F) c >>= fun _ => main_part3 (F := F) c >>= fun _ => main_part4 (F := F) c) := rfl
  rw [h, main_part0_eq c, main_part1_eq c, main_part2_eq c, main_part3_eq c, main_part4_eq c]
  simp only [ops, seq_append, bind_assoc]
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem opsA_sub : (opsA : List (HloOp τ sig (Elt F))).Forall fun op => op.bufs ⊆ tcRefs τ sig :=
  ⟨unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
theorem opsA_fresh : (opsA : List (HloOp τ sig (Elt F))).Forall fun op => op.fresh = ∅ := by
  simp only [List.Forall]; repeat' constructor
set_option maxRecDepth 8192 in
theorem opsB_sub : (opsB : List (HloOp τ sig (Elt F))).Forall fun op => op.bufs ⊆ tcRefs τ sig :=
  ⟨nary_bufs_sub .., unary_bufs_sub .., reshape_bufs_sub .., unary_bufs_sub .., reshape_bufs_sub .., unary_bufs_sub .., reshape_bufs_sub .., unary_bufs_sub .., reshape_bufs_sub .., unary_bufs_sub ..⟩
theorem opsB_fresh : (opsB : List (HloOp τ sig (Elt F))).Forall fun op => op.fresh = ∅ := by
  simp only [List.Forall]; repeat' constructor
set_option maxRecDepth 8192 in
theorem opsC_sub : (opsC : List (HloOp τ sig (Elt F))).Forall fun op => op.bufs ⊆ tcRefs τ sig :=
  ⟨reshape_bufs_sub .., unary_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., nullary_bufs_sub .., unary_bufs_sub .., unary_bufs_sub .., ternary_bufs_sub ..⟩
theorem opsC_fresh : (opsC : List (HloOp τ sig (Elt F))).Forall fun op => op.fresh = ∅ := by
  simp only [List.Forall]; repeat' constructor
set_option maxRecDepth 8192 in
theorem opsD_sub : (opsD : List (HloOp τ sig (Elt F))).Forall fun op => op.bufs ⊆ tcRefs τ sig :=
  ⟨binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub ..⟩
theorem opsD_fresh : (opsD : List (HloOp τ sig (Elt F))).Forall fun op => op.fresh = ∅ := by
  simp only [List.Forall]; repeat' constructor
set_option maxRecDepth 8192 in
theorem opsE_sub : (opsE : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., binary_bufs_sub ..⟩
theorem opsE_fresh : (opsE : List (HloOp τ sig (Elt F))).Forall fun op => op.fresh = ∅ := by
  simp only [List.Forall]; repeat' constructor
set_option maxRecDepth 8192 in
theorem opsF_sub : (opsF : List (HloOp τ sig (Elt F))).Forall fun op => op.bufs ⊆ tcRefs τ sig :=
  ⟨nary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., nullary_bufs_sub .., unary_bufs_sub .., unary_bufs_sub .., ternary_bufs_sub ..⟩
theorem opsF_fresh : (opsF : List (HloOp τ sig (Elt F))).Forall fun op => op.fresh = ∅ := by
  simp only [List.Forall]; repeat' constructor
set_option maxRecDepth 8192 in
theorem opsG_sub : (opsG : List (HloOp τ sig (Elt F))).Forall fun op => op.bufs ⊆ tcRefs τ sig :=
  ⟨binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., unary_bufs_sub ..⟩
theorem opsG_fresh : (opsG : List (HloOp τ sig (Elt F))).Forall fun op => op.fresh = ∅ := by
  simp only [List.Forall]; repeat' constructor
set_option maxRecDepth 8192 in
theorem opsH_sub : (opsH : List (HloOp τ sig (Elt F))).Forall fun op => op.bufs ⊆ tcRefs τ sig :=
  ⟨unary_bufs_sub .., binary_bufs_sub .., nullary_bufs_sub .., unary_bufs_sub .., binary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
theorem opsH_fresh : (opsH : List (HloOp τ sig (Elt F))).Forall fun op => op.fresh = ∅ := by
  simp only [List.Forall]; repeat' constructor
set_option maxRecDepth 8192 in
theorem opsI_sub : (opsI : List (HloOp τ sig (Elt F))).Forall fun op => op.bufs ⊆ tcRefs τ sig :=
  ⟨nary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., nullary_bufs_sub .., unary_bufs_sub .., unary_bufs_sub .., ternary_bufs_sub ..⟩
theorem opsI_fresh : (opsI : List (HloOp τ sig (Elt F))).Forall fun op => op.fresh = ∅ := by
  simp only [List.Forall]; repeat' constructor
set_option maxRecDepth 8192 in
theorem opsJ_sub : (opsJ : List (HloOp τ sig (Elt F))).Forall fun op => op.bufs ⊆ tcRefs τ sig :=
  ⟨binary_bufs_sub .., unary_bufs_sub ..⟩
theorem opsJ_fresh : (opsJ : List (HloOp τ sig (Elt F))).Forall fun op => op.fresh = ∅ := by
  simp only [List.Forall]; repeat' constructor
set_option maxRecDepth 8192 in
theorem opsK_sub : (opsK : List (HloOp τ sig (Elt F))).Forall fun op => op.bufs ⊆ tcRefs τ sig :=
  ⟨reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
theorem opsK_fresh : (opsK : List (HloOp τ sig (Elt F))).Forall fun op => op.fresh = ∅ := by
  simp only [List.Forall]; repeat' constructor
theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h
    exacts [List.forall_iff_forall_mem.mp opsA_sub op h, List.forall_iff_forall_mem.mp opsB_sub op h, List.forall_iff_forall_mem.mp opsC_sub op h, List.forall_iff_forall_mem.mp opsD_sub op h, List.forall_iff_forall_mem.mp opsE_sub op h, List.forall_iff_forall_mem.mp opsF_sub op h, List.forall_iff_forall_mem.mp opsG_sub op h, List.forall_iff_forall_mem.mp opsH_sub op h, List.forall_iff_forall_mem.mp opsI_sub op h, List.forall_iff_forall_mem.mp opsJ_sub op h, List.forall_iff_forall_mem.mp opsK_sub op h]
theorem ops_fresh : ∀ op ∈ (ops : List (HloOp τ sig (Elt F))), op.fresh = ∅ := fun op h => by
    simp only [ops, List.mem_append] at h
    rcases h with h | h | h | h | h | h | h | h | h | h | h
    exacts [List.forall_iff_forall_mem.mp opsA_fresh op h, List.forall_iff_forall_mem.mp opsB_fresh op h, List.forall_iff_forall_mem.mp opsC_fresh op h, List.forall_iff_forall_mem.mp opsD_fresh op h, List.forall_iff_forall_mem.mp opsE_fresh op h, List.forall_iff_forall_mem.mp opsF_fresh op h, List.forall_iff_forall_mem.mp opsG_fresh op h, List.forall_iff_forall_mem.mp opsH_fresh op h, List.forall_iff_forall_mem.mp opsI_fresh op h, List.forall_iff_forall_mem.mp opsJ_fresh op h, List.forall_iff_forall_mem.mp opsK_fresh op h]

/-! ## The buffer contents after each chunk -/

/-- The launch contents. -/
def val0 (V0 : Valuation τ sig (Elt F)) : Valuation τ sig (Elt F) := V0
/-- The buffer contents after chunk A. -/
def val1 (V0 : Valuation τ sig (Elt F)) : Valuation τ sig (Elt F) := after opsA (val0 V0)
/-- The buffers chunk A writes. -/
abbrev opsA_W : List (Ref sig .tc) := [main_v0, main_v1, main_v2, main_v3, main_v4, main_v5, main_v6, main_v7, main_call0_cst, main_call0_v0, main_v8, main_v9, main_v10, main_v11, main_v12, main_call1_cst, main_call1_v0, main_v13, main_v14, main_v15, main_v16, main_v17, main_v18, main_v19, main_v20, main_v21, main_call2_cst, main_call2_v0, main_v22, main_v23, main_v24, main_v25, main_v26, main_call3_cst, main_call3_v0, main_v27, main_v28, main_v29, main_v30, main_v31, main_c, main_v32, main_v33, main_c_0, main_v34, main_v35, main_v36, main_v37, main_v38, main_c_1, main_v39, main_v40, main_c_2, main_v41, main_v42, main_v43, main_v44, main_v45]
set_option maxRecDepth 8192 in
theorem opsA_writes : (opsA : List (HloOp τ sig (Elt F))).Forall fun op => op.writes ⊆ (opsA_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer chunk A does not write keeps its contents through it. -/
theorem val1_keep (V0 : Valuation τ sig (Elt F)) (r : Ref sig .tc) (h : r ∉ opsA_W) :
    val1 V0 (Proc.devRef .tc r) = val0 V0 (Proc.devRef .tc r) :=
  after_of_writes_sub opsA _ opsA_writes h
/-- The buffer contents after chunk B. -/
def val2 (V0 : Valuation τ sig (Elt F)) : Valuation τ sig (Elt F) := after opsB (val1 V0)
/-- The buffers chunk B writes. -/
abbrev opsB_W : List (Ref sig .tc) := [main_v46, main_v47, main_v48, main_v49, main_v50, main_v51, main_v52, main_v53, main_v54, main_v55]
set_option maxRecDepth 8192 in
theorem opsB_writes : (opsB : List (HloOp τ sig (Elt F))).Forall fun op => op.writes ⊆ (opsB_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer chunk B does not write keeps its contents through it. -/
theorem val2_keep (V0 : Valuation τ sig (Elt F)) (r : Ref sig .tc) (h : r ∉ opsB_W) :
    val2 V0 (Proc.devRef .tc r) = val1 V0 (Proc.devRef .tc r) :=
  after_of_writes_sub opsB _ opsB_writes h
/-- The buffer contents after chunk C. -/
def val3 (V0 : Valuation τ sig (Elt F)) : Valuation τ sig (Elt F) := after opsC (val2 V0)
/-- The buffers chunk C writes. -/
abbrev opsC_W : List (Ref sig .tc) := [main_v56, main_v57, main_v58, main_v59, main_v60, main_v61, main_v62, main_call4_cst, main_call4_v0, main_v63, main_v64, main_v65, main_v66, main_v67, main_call5_cst, main_call5_v0, main_v68, main_v69, main_v70, main_v71, main_v72, main_v73, main_cst, main_v74, main_v75, main_v76]
set_option maxRecDepth 8192 in
theorem opsC_writes : (opsC : List (HloOp τ sig (Elt F))).Forall fun op => op.writes ⊆ (opsC_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer chunk C does not write keeps its contents through it. -/
theorem val3_keep (V0 : Valuation τ sig (Elt F)) (r : Ref sig .tc) (h : r ∉ opsC_W) :
    val3 V0 (Proc.devRef .tc r) = val2 V0 (Proc.devRef .tc r) :=
  after_of_writes_sub opsC _ opsC_writes h
/-- The buffer contents after chunk D. -/
def val4 (V0 : Valuation τ sig (Elt F)) : Valuation τ sig (Elt F) := after opsD (val3 V0)
/-- The buffers chunk D writes. -/
abbrev opsD_W : List (Ref sig .tc) := [main_v77, main_v78, main_v79, main_v80, main_v81, main_v82, main_v83, main_v84, main_v85, main_v86, main_v87, main_v88, main_v89, main_v90, main_v91, main_v92, main_v93, main_call6_cst, main_call6_v0, main_v94, main_v95, main_v96, main_v97, main_v98, main_call7_cst, main_call7_v0, main_v99, main_v100, main_v101, main_v102, main_v103, main_v104, main_c_3, main_v105, main_v106, main_c_4, main_v107, main_v108, main_v109, main_v110, main_v111, main_c_5]
set_option maxRecDepth 8192 in
theorem opsD_writes : (opsD : List (HloOp τ sig (Elt F))).Forall fun op => op.writes ⊆ (opsD_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer chunk D does not write keeps its contents through it. -/
theorem val4_keep (V0 : Valuation τ sig (Elt F)) (r : Ref sig .tc) (h : r ∉ opsD_W) :
    val4 V0 (Proc.devRef .tc r) = val3 V0 (Proc.devRef .tc r) :=
  after_of_writes_sub opsD _ opsD_writes h
/-- The buffer contents after chunk E. -/
def val5 (V0 : Valuation τ sig (Elt F)) : Valuation τ sig (Elt F) := after opsE (val4 V0)
/-- The buffers chunk E writes. -/
abbrev opsE_W : List (Ref sig .tc) := [main_v112, main_v113, main_c_6, main_v114, main_v115, main_v116, main_v117, main_v118]
set_option maxRecDepth 8192 in
theorem opsE_writes : (opsE : List (HloOp τ sig (Elt F))).Forall fun op => op.writes ⊆ (opsE_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer chunk E does not write keeps its contents through it. -/
theorem val5_keep (V0 : Valuation τ sig (Elt F)) (r : Ref sig .tc) (h : r ∉ opsE_W) :
    val5 V0 (Proc.devRef .tc r) = val4 V0 (Proc.devRef .tc r) :=
  after_of_writes_sub opsE _ opsE_writes h
/-- The buffer contents after chunk F. -/
def val6 (V0 : Valuation τ sig (Elt F)) : Valuation τ sig (Elt F) := after opsF (val5 V0)
/-- The buffers chunk F writes. -/
abbrev opsF_W : List (Ref sig .tc) := [main_v119, main_v120, main_v121, main_v122, main_v123, main_v124, main_v125, main_v126, main_v127, main_v128, main_v129, main_v130, main_v131, main_v132, main_v133, main_v134, main_v135, main_call8_cst, main_call8_v0, main_v136, main_v137, main_v138, main_v139, main_v140, main_call9_cst, main_call9_v0, main_v141, main_v142, main_v143, main_v144, main_v145, main_v146, main_cst_7, main_v147, main_v148, main_v149]
set_option maxRecDepth 8192 in
theorem opsF_writes : (opsF : List (HloOp τ sig (Elt F))).Forall fun op => op.writes ⊆ (opsF_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer chunk F does not write keeps its contents through it. -/
theorem val6_keep (V0 : Valuation τ sig (Elt F)) (r : Ref sig .tc) (h : r ∉ opsF_W) :
    val6 V0 (Proc.devRef .tc r) = val5 V0 (Proc.devRef .tc r) :=
  after_of_writes_sub opsF _ opsF_writes h
/-- The buffer contents after chunk G. -/
def val7 (V0 : Valuation τ sig (Elt F)) : Valuation τ sig (Elt F) := after opsG (val6 V0)
/-- The buffers chunk G writes. -/
abbrev opsG_W : List (Ref sig .tc) := [main_v150, main_v151, main_v152, main_v153, main_v154, main_v155, main_v156, main_v157, main_v158, main_v159, main_v160, main_v161, main_v162, main_v163, main_v164, main_v165, main_v166, main_call10_cst, main_call10_v0, main_v167, main_v168, main_v169]
set_option maxRecDepth 8192 in
theorem opsG_writes : (opsG : List (HloOp τ sig (Elt F))).Forall fun op => op.writes ⊆ (opsG_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer chunk G does not write keeps its contents through it. -/
theorem val7_keep (V0 : Valuation τ sig (Elt F)) (r : Ref sig .tc) (h : r ∉ opsG_W) :
    val7 V0 (Proc.devRef .tc r) = val6 V0 (Proc.devRef .tc r) :=
  after_of_writes_sub opsG _ opsG_writes h
/-- The buffer contents after chunk H. -/
def val8 (V0 : Valuation τ sig (Elt F)) : Valuation τ sig (Elt F) := after opsH (val7 V0)
/-- The buffers chunk H writes. -/
abbrev opsH_W : List (Ref sig .tc) := [main_v170, main_v171, main_call11_cst, main_call11_v0, main_v172, main_v173, main_v174, main_v175, main_v176, main_v177, main_c_8, main_v178, main_v179, main_c_9, main_v180, main_v181, main_v182, main_v183, main_v184, main_c_10, main_v185, main_v186, main_c_11, main_v187, main_v188, main_v189, main_v190, main_v191]
set_option maxRecDepth 8192 in
theorem opsH_writes : (opsH : List (HloOp τ sig (Elt F))).Forall fun op => op.writes ⊆ (opsH_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer chunk H does not write keeps its contents through it. -/
theorem val8_keep (V0 : Valuation τ sig (Elt F)) (r : Ref sig .tc) (h : r ∉ opsH_W) :
    val8 V0 (Proc.devRef .tc r) = val7 V0 (Proc.devRef .tc r) :=
  after_of_writes_sub opsH _ opsH_writes h
/-- The buffer contents after chunk I. -/
def val9 (V0 : Valuation τ sig (Elt F)) : Valuation τ sig (Elt F) := after opsI (val8 V0)
/-- The buffers chunk I writes. -/
abbrev opsI_W : List (Ref sig .tc) := [main_v192, main_v193, main_v194, main_v195, main_v196, main_v197, main_v198, main_v199, main_v200, main_v201, main_v202, main_v203, main_v204, main_v205, main_v206, main_v207, main_v208, main_call12_cst, main_call12_v0, main_v209, main_v210, main_v211, main_v212, main_v213, main_call13_cst, main_call13_v0, main_v214, main_v215, main_v216, main_v217, main_v218, main_v219, main_cst_12, main_v220, main_v221, main_v222]
set_option maxRecDepth 8192 in
theorem opsI_writes : (opsI : List (HloOp τ sig (Elt F))).Forall fun op => op.writes ⊆ (opsI_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer chunk I does not write keeps its contents through it. -/
theorem val9_keep (V0 : Valuation τ sig (Elt F)) (r : Ref sig .tc) (h : r ∉ opsI_W) :
    val9 V0 (Proc.devRef .tc r) = val8 V0 (Proc.devRef .tc r) :=
  after_of_writes_sub opsI _ opsI_writes h
/-- The buffer contents after chunk J. -/
def val10 (V0 : Valuation τ sig (Elt F)) : Valuation τ sig (Elt F) := after opsJ (val9 V0)
/-- The buffers chunk J writes. -/
abbrev opsJ_W : List (Ref sig .tc) := [main_v223, main_v224]
set_option maxRecDepth 8192 in
theorem opsJ_writes : (opsJ : List (HloOp τ sig (Elt F))).Forall fun op => op.writes ⊆ (opsJ_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer chunk J does not write keeps its contents through it. -/
theorem val10_keep (V0 : Valuation τ sig (Elt F)) (r : Ref sig .tc) (h : r ∉ opsJ_W) :
    val10 V0 (Proc.devRef .tc r) = val9 V0 (Proc.devRef .tc r) :=
  after_of_writes_sub opsJ _ opsJ_writes h
/-- The buffer contents after chunk K. -/
def val11 (V0 : Valuation τ sig (Elt F)) : Valuation τ sig (Elt F) := after opsK (val10 V0)
/-- The buffers chunk K writes. -/
abbrev opsK_W : List (Ref sig .tc) := [main_v225, main_v226, main_v227, main_v228, main_v229, main_v230, main_v231, main_v232, main_v233, main_v234, main_v235, main_v236, main_v237, main_v238, main_v239, main_call14_cst, main_call14_v0, main_v240, main_v241, main_v242, main_v243, main_v244, main_call15_cst, main_call15_v0, main_v245, main_v246, main_v247, main_v248, main_v249, main_v250, main_v251, main_v252, main_v253, main_v254, main_call16_cst, main_call16_v0, main_v255, main_v256, main_v257, main_v258, main_v259, main_call17_cst, main_call17_v0, main_v260, main_v261, main_v262, main_v263, main_v264]
set_option maxRecDepth 8192 in
theorem opsK_writes : (opsK : List (HloOp τ sig (Elt F))).Forall fun op => op.writes ⊆ (opsK_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer chunk K does not write keeps its contents through it. -/
theorem val11_keep (V0 : Valuation τ sig (Elt F)) (r : Ref sig .tc) (h : r ∉ opsK_W) :
    val11 V0 (Proc.devRef .tc r) = val10 V0 (Proc.devRef .tc r) :=
  after_of_writes_sub opsK _ opsK_writes h
theorem after_ops (V0 : Valuation τ sig (Elt F)) : after ops V0 = val11 V0 := by
  simp only [ops, StableHlo.after_append]
  rfl

/-- Every weakly fair execution of the reference program terminates, each TensorCore buffer ending at the fold's contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = val11 (launchContents m c) (Proc.devRef .tc b) :=
  (θ_run defs _ _).mono (fun _ h c b => (h c b).trans (by rw [after_ops]))
    (run_seq scopedRefs_eq scopedSems_eq defs main (fun _ => ops) main_eq (fun _ => ops_sub) m ρ (fun _ => ops_fresh))

end Cert.ReferenceIdeal.RunC

end
-- ==== Proof.RunV1.lean ====
/- After each chunk of the reference program's operations, every buffer that a later chunk reads holds its stage function of the
   launch arrays: a buffer the chunk writes, by running the chunk's operations on the contents before it (the buffers it reads
   from earlier chunks being at their stage functions already); a buffer it does not write, because it keeps its contents. So
   every weakly fair execution ends with the result buffer at the last stage function of the launch arrays and the arguments
   as launched. -/
import proofs.«425516_j47425028883052_2_alg».proof.Proof.RunC
import proofs.«425516_j47425028883052_2_alg».proof.Proof.ReadP

noncomputable section

namespace Cert.ReferenceIdeal.RunC

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl
theorem val0_main_arg6 (V0 : Valuation τ sig (Elt F)) : val0 V0 (no_index (Proc.devRef .tc main_arg6)) = V0 (Proc.devRef .tc main_arg6) := rfl
theorem val0_main_arg7 (V0 : Valuation τ sig (Elt F)) : val0 V0 (no_index (Proc.devRef .tc main_arg7)) = V0 (Proc.devRef .tc main_arg7) := rfl
theorem val0_main_arg8 (V0 : Valuation τ sig (Elt F)) : val0 V0 (no_index (Proc.devRef .tc main_arg8)) = V0 (Proc.devRef .tc main_arg8) := rfl
theorem val0_main_arg9 (V0 : Valuation τ sig (Elt F)) : val0 V0 (no_index (Proc.devRef .tc main_arg9)) = V0 (Proc.devRef .tc main_arg9) := rfl
theorem val0_main_arg10 (V0 : Valuation τ sig (Elt F)) : val0 V0 (no_index (Proc.devRef .tc main_arg10)) = V0 (Proc.devRef .tc main_arg10) := rfl
theorem val0_main_arg11 (V0 : Valuation τ sig (Elt F)) : val0 V0 (no_index (Proc.devRef .tc main_arg11)) = V0 (Proc.devRef .tc main_arg11) := rfl
theorem val0_main_arg12 (V0 : Valuation τ sig (Elt F)) : val0 V0 (no_index (Proc.devRef .tc main_arg12)) = V0 (Proc.devRef .tc main_arg12) := rfl
theorem val0_main_arg13 (V0 : Valuation τ sig (Elt F)) : val0 V0 (no_index (Proc.devRef .tc main_arg13)) = V0 (Proc.devRef .tc main_arg13) := rfl
theorem val0_main_arg14 (V0 : Valuation τ sig (Elt F)) : val0 V0 (no_index (Proc.devRef .tc main_arg14)) = V0 (Proc.devRef .tc main_arg14) := rfl
theorem val0_main_arg15 (V0 : Valuation τ sig (Elt F)) : val0 V0 (no_index (Proc.devRef .tc main_arg15)) = V0 (Proc.devRef .tc main_arg15) := rfl
theorem val0_main_arg16 (V0 : Valuation τ sig (Elt F)) : val0 V0 (no_index (Proc.devRef .tc main_arg16)) = V0 (Proc.devRef .tc main_arg16) := rfl
theorem val0_main_arg17 (V0 : Valuation τ sig (Elt F)) : val0 V0 (no_index (Proc.devRef .tc main_arg17)) = V0 (Proc.devRef .tc main_arg17) := rfl
theorem val0_main_arg18 (V0 : Valuation τ sig (Elt F)) : val0 V0 (no_index (Proc.devRef .tc main_arg18)) = V0 (Proc.devRef .tc main_arg18) := rfl
theorem val0_main_arg19 (V0 : Valuation τ sig (Elt F)) : val0 V0 (no_index (Proc.devRef .tc main_arg19)) = V0 (Proc.devRef .tc main_arg19) := rfl
theorem val0_main_arg20 (V0 : Valuation τ sig (Elt F)) : val0 V0 (no_index (Proc.devRef .tc main_arg20)) = V0 (Proc.devRef .tc main_arg20) := rfl
theorem val0_main_arg21 (V0 : Valuation τ sig (Elt F)) : val0 V0 (no_index (Proc.devRef .tc main_arg21)) = V0 (Proc.devRef .tc main_arg21) := rfl
theorem val0_main_arg22 (V0 : Valuation τ sig (Elt F)) : val0 V0 (no_index (Proc.devRef .tc main_arg22)) = V0 (Proc.devRef .tc main_arg22) := rfl
theorem val0_main_arg23 (V0 : Valuation τ sig (Elt F)) : val0 V0 (no_index (Proc.devRef .tc main_arg23)) = V0 (Proc.devRef .tc main_arg23) := rfl
theorem val0_main_arg24 (V0 : Valuation τ sig (Elt F)) : val0 V0 (no_index (Proc.devRef .tc main_arg24)) = V0 (Proc.devRef .tc main_arg24) := rfl
theorem val0_main_arg25 (V0 : Valuation τ sig (Elt F)) : val0 V0 (no_index (Proc.devRef .tc main_arg25)) = V0 (Proc.devRef .tc main_arg25) := rfl
theorem val0_main_arg26 (V0 : Valuation τ sig (Elt F)) : val0 V0 (no_index (Proc.devRef .tc main_arg26)) = V0 (Proc.devRef .tc main_arg26) := rfl
theorem val0_main_arg27 (V0 : Valuation τ sig (Elt F)) : val0 V0 (no_index (Proc.devRef .tc main_arg27)) = V0 (Proc.devRef .tc main_arg27) := rfl
theorem val0_main_arg28 (V0 : Valuation τ sig (Elt F)) : val0 V0 (no_index (Proc.devRef .tc main_arg28)) = V0 (Proc.devRef .tc main_arg28) := rfl
theorem val0_main_arg29 (V0 : Valuation τ sig (Elt F)) : val0 V0 (no_index (Proc.devRef .tc main_arg29)) = V0 (Proc.devRef .tc main_arg29) := rfl
theorem val0_main_arg30 (V0 : Valuation τ sig (Elt F)) : val0 V0 (no_index (Proc.devRef .tc main_arg30)) = V0 (Proc.devRef .tc main_arg30) := rfl
theorem val0_main_arg31 (V0 : Valuation τ sig (Elt F)) : val0 V0 (no_index (Proc.devRef .tc main_arg31)) = V0 (Proc.devRef .tc main_arg31) := rfl
theorem val0_main_arg32 (V0 : Valuation τ sig (Elt F)) : val0 V0 (no_index (Proc.devRef .tc main_arg32)) = V0 (Proc.devRef .tc main_arg32) := rfl

/-! ## After chunk A -/

theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
theorem val1_main_arg2 (V0 : Valuation τ sig (Elt F)) : val1 V0 (no_index (Proc.devRef .tc main_arg2)) = V0 (Proc.devRef .tc main_arg2) :=
  (val1_keep V0 main_arg2 (by decide)).trans (val0_main_arg2 V0)
theorem val1_main_arg3 (V0 : Valuation τ sig (Elt F)) : val1 V0 (no_index (Proc.devRef .tc main_arg3)) = V0 (Proc.devRef .tc main_arg3) :=
  (val1_keep V0 main_arg3 (by decide)).trans (val0_main_arg3 V0)
theorem val1_main_arg4 (V0 : Valuation τ sig (Elt F)) : val1 V0 (no_index (Proc.devRef .tc main_arg4)) = V0 (Proc.devRef .tc main_arg4) :=
  (val1_keep V0 main_arg4 (by decide)).trans (val0_main_arg4 V0)
theorem val1_main_arg5 (V0 : Valuation τ sig (Elt F)) : val1 V0 (no_index (Proc.devRef .tc main_arg5)) = V0 (Proc.devRef .tc main_arg5) :=
  (val1_keep V0 main_arg5 (by decide)).trans (val0_main_arg5 V0)
theorem val1_main_arg6 (V0 : Valuation τ sig (Elt F)) : val1 V0 (no_index (Proc.devRef .tc main_arg6)) = V0 (Proc.devRef .tc main_arg6) :=
  (val1_keep V0 main_arg6 (by decide)).trans (val0_main_arg6 V0)
theorem val1_main_arg7 (V0 : Valuation τ sig (Elt F)) : val1 V0 (no_index (Proc.devRef .tc main_arg7)) = V0 (Proc.devRef .tc main_arg7) :=
  (val1_keep V0 main_arg7 (by decide)).trans (val0_main_arg7 V0)
theorem val1_main_arg8 (V0 : Valuation τ sig (Elt F)) : val1 V0 (no_index (Proc.devRef .tc main_arg8)) = V0 (Proc.devRef .tc main_arg8) :=
  (val1_keep V0 main_arg8 (by decide)).trans (val0_main_arg8 V0)
theorem val1_main_arg9 (V0 : Valuation τ sig (Elt F)) : val1 V0 (no_index (Proc.devRef .tc main_arg9)) = V0 (Proc.devRef .tc main_arg9) :=
  (val1_keep V0 main_arg9 (by decide)).trans (val0_main_arg9 V0)
theorem val1_main_arg10 (V0 : Valuation τ sig (Elt F)) : val1 V0 (no_index (Proc.devRef .tc main_arg10)) = V0 (Proc.devRef .tc main_arg10) :=
  (val1_keep V0 main_arg10 (by decide)).trans (val0_main_arg10 V0)
theorem val1_main_arg11 (V0 : Valuation τ sig (Elt F)) : val1 V0 (no_index (Proc.devRef .tc main_arg11)) = V0 (Proc.devRef .tc main_arg11) :=
  (val1_keep V0 main_arg11 (by decide)).trans (val0_main_arg11 V0)
theorem val1_main_arg12 (V0 : Valuation τ sig (Elt F)) : val1 V0 (no_index (Proc.devRef .tc main_arg12)) = V0 (Proc.devRef .tc main_arg12) :=
  (val1_keep V0 main_arg12 (by decide)).trans (val0_main_arg12 V0)
theorem val1_main_arg13 (V0 : Valuation τ sig (Elt F)) : val1 V0 (no_index (Proc.devRef .tc main_arg13)) = V0 (Proc.devRef .tc main_arg13) :=
  (val1_keep V0 main_arg13 (by decide)).trans (val0_main_arg13 V0)
theorem val1_main_arg14 (V0 : Valuation τ sig (Elt F)) : val1 V0 (no_index (Proc.devRef .tc main_arg14)) = V0 (Proc.devRef .tc main_arg14) :=
  (val1_keep V0 main_arg14 (by decide)).trans (val0_main_arg14 V0)
theorem val1_main_arg15 (V0 : Valuation τ sig (Elt F)) : val1 V0 (no_index (Proc.devRef .tc main_arg15)) = V0 (Proc.devRef .tc main_arg15) :=
  (val1_keep V0 main_arg15 (by decide)).trans (val0_main_arg15 V0)
theorem val1_main_arg16 (V0 : Valuation τ sig (Elt F)) : val1 V0 (no_index (Proc.devRef .tc main_arg16)) = V0 (Proc.devRef .tc main_arg16) :=
  (val1_keep V0 main_arg16 (by decide)).trans (val0_main_arg16 V0)
theorem val1_main_arg17 (V0 : Valuation τ sig (Elt F)) : val1 V0 (no_index (Proc.devRef .tc main_arg17)) = V0 (Proc.devRef .tc main_arg17) :=
  (val1_keep V0 main_arg17 (by decide)).trans (val0_main_arg17 V0)
theorem val1_main_arg18 (V0 : Valuation τ sig (Elt F)) : val1 V0 (no_index (Proc.devRef .tc main_arg18)) = V0 (Proc.devRef .tc main_arg18) :=
  (val1_keep V0 main_arg18 (by decide)).trans (val0_main_arg18 V0)
theorem val1_main_arg19 (V0 : Valuation τ sig (Elt F)) : val1 V0 (no_index (Proc.devRef .tc main_arg19)) = V0 (Proc.devRef .tc main_arg19) :=
  (val1_keep V0 main_arg19 (by decide)).trans (val0_main_arg19 V0)
theorem val1_main_arg20 (V0 : Valuation τ sig (Elt F)) : val1 V0 (no_index (Proc.devRef .tc main_arg20)) = V0 (Proc.devRef .tc main_arg20) :=
  (val1_keep V0 main_arg20 (by decide)).trans (val0_main_arg20 V0)
theorem val1_main_arg21 (V0 : Valuation τ sig (Elt F)) : val1 V0 (no_index (Proc.devRef .tc main_arg21)) = V0 (Proc.devRef .tc main_arg21) :=
  (val1_keep V0 main_arg21 (by decide)).trans (val0_main_arg21 V0)
theorem val1_main_arg22 (V0 : Valuation τ sig (Elt F)) : val1 V0 (no_index (Proc.devRef .tc main_arg22)) = V0 (Proc.devRef .tc main_arg22) :=
  (val1_keep V0 main_arg22 (by decide)).trans (val0_main_arg22 V0)
theorem val1_main_arg23 (V0 : Valuation τ sig (Elt F)) : val1 V0 (no_index (Proc.devRef .tc main_arg23)) = V0 (Proc.devRef .tc main_arg23) :=
  (val1_keep V0 main_arg23 (by decide)).trans (val0_main_arg23 V0)
theorem val1_main_arg24 (V0 : Valuation τ sig (Elt F)) : val1 V0 (no_index (Proc.devRef .tc main_arg24)) = V0 (Proc.devRef .tc main_arg24) :=
  (val1_keep V0 main_arg24 (by decide)).trans (val0_main_arg24 V0)
theorem val1_main_arg25 (V0 : Valuation τ sig (Elt F)) : val1 V0 (no_index (Proc.devRef .tc main_arg25)) = V0 (Proc.devRef .tc main_arg25) :=
  (val1_keep V0 main_arg25 (by decide)).trans (val0_main_arg25 V0)
theorem val1_main_arg26 (V0 : Valuation τ sig (Elt F)) : val1 V0 (no_index (Proc.devRef .tc main_arg26)) = V0 (Proc.devRef .tc main_arg26) :=
  (val1_keep V0 main_arg26 (by decide)).trans (val0_main_arg26 V0)
theorem val1_main_arg27 (V0 : Valuation τ sig (Elt F)) : val1 V0 (no_index (Proc.devRef .tc main_arg27)) = V0 (Proc.devRef .tc main_arg27) :=
  (val1_keep V0 main_arg27 (by decide)).trans (val0_main_arg27 V0)
theorem val1_main_arg28 (V0 : Valuation τ sig (Elt F)) : val1 V0 (no_index (Proc.devRef .tc main_arg28)) = V0 (Proc.devRef .tc main_arg28) :=
  (val1_keep V0 main_arg28 (by decide)).trans (val0_main_arg28 V0)
theorem val1_main_arg29 (V0 : Valuation τ sig (Elt F)) : val1 V0 (no_index (Proc.devRef .tc main_arg29)) = V0 (Proc.devRef .tc main_arg29) :=
  (val1_keep V0 main_arg29 (by decide)).trans (val0_main_arg29 V0)
theorem val1_main_arg30 (V0 : Valuation τ sig (Elt F)) : val1 V0 (no_index (Proc.devRef .tc main_arg30)) = V0 (Proc.devRef .tc main_arg30) :=
  (val1_keep V0 main_arg30 (by decide)).trans (val0_main_arg30 V0)
theorem val1_main_arg31 (V0 : Valuation τ sig (Elt F)) : val1 V0 (no_index (Proc.devRef .tc main_arg31)) = V0 (Proc.devRef .tc main_arg31) :=
  (val1_keep V0 main_arg31 (by decide)).trans (val0_main_arg31 V0)
theorem val1_main_arg32 (V0 : Valuation τ sig (Elt F)) : val1 V0 (no_index (Proc.devRef .tc main_arg32)) = V0 (Proc.devRef .tc main_arg32) :=
  (val1_keep V0 main_arg32 (by decide)).trans (val0_main_arg32 V0)
set_option maxRecDepth 8192 in
set_option maxHeartbeats 2000000 in
theorem val1_main_v1 (V0 : Valuation τ sig (Elt F)) : val1 V0 (no_index (Proc.devRef .tc main_v1)) = val_main_v1 (F := F) (V0 (Proc.devRef .tc main_arg2)) := by
  unfold val1
  simp only [opsA]
  after_results_simp
  try dsimp only [Matrix.cons_val]
  try after_results_simp
  try simp only [StableHlo.TRef.ofBuf, StableHlo.TRef.toBuf, cast_eq]
  try simp only [val0_main_arg0, val0_main_arg1, val0_main_arg10, val0_main_arg11, val0_main_arg12, val0_main_arg13, val0_main_arg14, val0_main_arg2, val0_main_arg3, val0_main_arg4, val0_main_arg5, val0_main_arg6, val0_main_arg7, val0_main_arg8, val0_main_arg9]
  try rw [val0_main_arg0]
  try rw [val0_main_arg1]
  try rw [val0_main_arg10]
  try rw [val0_main_arg11]
  try rw [val0_main_arg12]
  try rw [val0_main_arg13]
  try rw [val0_main_arg14]
  try rw [val0_main_arg2]
  try rw [val0_main_arg3]
  try rw [val0_main_arg4]
  try rw [val0_main_arg5]
  try rw [val0_main_arg6]
  try rw [val0_main_arg7]
  try rw [val0_main_arg8]
  try rw [val0_main_arg9]
  rfl
set_option maxRecDepth 8192 in
set_option maxHeartbeats 2000000 in
theorem val1_main_v17 (V0 : Valuation τ sig (Elt F)) : val1 V0 (no_index (Proc.devRef .tc main_v17)) = val_main_v17 (F := F) (V0 (Proc.devRef .tc main_arg0)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) := by
  unfold val1
  simp only [opsA]
  after_results_simp
  try dsimp only [Matrix.cons_val]
  try after_results_simp
  try simp only [StableHlo.TRef.ofBuf, StableHlo.TRef.toBuf, cast_eq]
  try simp only [val0_main_arg0, val0_main_arg1, val0_main_arg10, val0_main_arg11, val0_main_arg12, val0_main_arg13, val0_main_arg14, val0_main_arg2, val0_main_arg3, val0_main_arg4, val0_main_arg5, val0_main_arg6, val0_main_arg7, val0_main_arg8, val0_main_arg9]
  try rw [val0_main_arg0]
  try rw [val0_main_arg1]
  try rw [val0_main_arg10]
  try rw [val0_main_arg11]
  try rw [val0_main_arg12]
  try rw [val0_main_arg13]
  try rw [val0_main_arg14]
  try rw [val0_main_arg2]
  try rw [val0_main_arg3]
  try rw [val0_main_arg4]
  try rw [val0_main_arg5]
  try rw [val0_main_arg6]
  try rw [val0_main_arg7]
  try rw [val0_main_arg8]
  try rw [val0_main_arg9]
  rfl
set_option maxRecDepth 8192 in
set_option maxHeartbeats 2000000 in
theorem val1_main_v3 (V0 : Valuation τ sig (Elt F)) : val1 V0 (no_index (Proc.devRef .tc main_v3)) = val_main_v3 (F := F) (V0 (Proc.devRef .tc main_arg2)) := by
  unfold val1
  simp only [opsA]
  after_results_simp
  try dsimp only [Matrix.cons_val]
  try after_results_simp
  try simp only [StableHlo.TRef.ofBuf, StableHlo.TRef.toBuf, cast_eq]
  try simp only [val0_main_arg0, val0_main_arg1, val0_main_arg10, val0_main_arg11, val0_main_arg12, val0_main_arg13, val0_main_arg14, val0_main_arg2, val0_main_arg3, val0_main_arg4, val0_main_arg5, val0_main_arg6, val0_main_arg7, val0_main_arg8, val0_main_arg9]
  try rw [val0_main_arg0]
  try rw [val0_main_arg1]
  try rw [val0_main_arg10]
  try rw [val0_main_arg11]
  try rw [val0_main_arg12]
  try rw [val0_main_arg13]
  try rw [val0_main_arg14]
  try rw [val0_main_arg2]
  try rw [val0_main_arg3]
  try rw [val0_main_arg4]
  try rw [val0_main_arg5]
  try rw [val0_main_arg6]
  try rw [val0_main_arg7]
  try rw [val0_main_arg8]
  try rw [val0_main_arg9]
  rfl
set_option maxRecDepth 8192 in
set_option maxHeartbeats 2000000 in
theorem val1_main_v31 (V0 : Valuation τ sig (Elt F)) : val1 V0 (no_index (Proc.devRef .tc main_v31)) = val_main_v31 (F := F) (V0 (Proc.devRef .tc main_arg1)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) := by
  unfold val1
  simp only [opsA]
  after_results_simp
  try dsimp only [Matrix.cons_val]
  try after_results_simp
  try simp only [StableHlo.TRef.ofBuf, StableHlo.TRef.toBuf, cast_eq]
  try simp only [val0_main_arg0, val0_main_arg1, val0_main_arg10, val0_main_arg11, val0_main_arg12, val0_main_arg13, val0_main_arg14, val0_main_arg2, val0_main_arg3, val0_main_arg4, val0_main_arg5, val0_main_arg6, val0_main_arg7, val0_main_arg8, val0_main_arg9]
  try rw [val0_main_arg0]
  try rw [val0_main_arg1]
  try rw [val0_main_arg10]
  try rw [val0_main_arg11]
  try rw [val0_main_arg12]
  try rw [val0_main_arg13]
  try rw [val0_main_arg14]
  try rw [val0_main_arg2]
  try rw [val0_main_arg3]
  try rw [val0_main_arg4]
  try rw [val0_main_arg5]
  try rw [val0_main_arg6]
  try rw [val0_main_arg7]
  try rw [val0_main_arg8]
  try rw [val0_main_arg9]
  rfl
set_option maxRecDepth 8192 in
set_option maxHeartbeats 2000000 in
theorem val1_main_v38 (V0 : Valuation τ sig (Elt F)) : val1 V0 (no_index (Proc.devRef .tc main_v38)) = val_main_v38 (F := F) (V0 (Proc.devRef .tc main_arg0)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) := by
  unfold val1
  simp only [opsA]
  after_results_simp
  try dsimp only [Matrix.cons_val]
  try after_results_simp
  try simp only [StableHlo.TRef.ofBuf, StableHlo.TRef.toBuf, cast_eq]
  try simp only [val0_main_arg0, val0_main_arg1, val0_main_arg10, val0_main_arg11, val0_main_arg12, val0_main_arg13, val0_main_arg14, val0_main_arg2, val0_main_arg3, val0_main_arg4, val0_main_arg5, val0_main_arg6, val0_main_arg7, val0_main_arg8, val0_main_arg9]
  try rw [val0_main_arg0]
  try rw [val0_main_arg1]
  try rw [val0_main_arg10]
  try rw [val0_main_arg11]
  try rw [val0_main_arg12]
  try rw [val0_main_arg13]
  try rw [val0_main_arg14]
  try rw [val0_main_arg2]
  try rw [val0_main_arg3]
  try rw [val0_main_arg4]
  try rw [val0_main_arg5]
  try rw [val0_main_arg6]
  try rw [val0_main_arg7]
  try rw [val0_main_arg8]
  try rw [val0_main_arg9]
  rfl
set_option maxRecDepth 8192 in
set_option maxHeartbeats 2000000 in
theorem val1_main_v45 (V0 : Valuation τ sig (Elt F)) : val1 V0 (no_index (Proc.devRef .tc main_v45)) = val_main_v45 (F := F) (V0 (Proc.devRef .tc main_arg0)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) := by
  unfold val1
  simp only [opsA]
  after_results_simp
  try dsimp only [Matrix.cons_val]
  try after_results_simp
  try simp only [StableHlo.TRef.ofBuf, StableHlo.TRef.toBuf, cast_eq]
  try simp only [val0_main_arg0, val0_main_arg1, val0_main_arg10, val0_main_arg11, val0_main_arg12, val0_main_arg13, val0_main_arg14, val0_main_arg2, val0_main_arg3, val0_main_arg4, val0_main_arg5, val0_main_arg6, val0_main_arg7, val0_main_arg8, val0_main_arg9]
  try rw [val0_main_arg0]
  try rw [val0_main_arg1]
  try rw [val0_main_arg10]
  try rw [val0_main_arg11]
  try rw [val0_main_arg12]
  try rw [val0_main_arg13]
  try rw [val0_main_arg14]
  try rw [val0_main_arg2]
  try rw [val0_main_arg3]
  try rw [val0_main_arg4]
  try rw [val0_main_arg5]
  try rw [val0_main_arg6]
  try rw [val0_main_arg7]
  try rw [val0_main_arg8]
  try rw [val0_main_arg9]
  rfl

/-! ## After chunk B -/

theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
theorem val2_main_arg5 (V0 : Valuation τ sig (Elt F)) : val2 V0 (no_index (Proc.devRef .tc main_arg5)) = V0 (Proc.devRef .tc main_arg5) :=
  (val2_keep V0 main_arg5 (by decide)).trans (val1_main_arg5 V0)
theorem val2_main_arg6 (V0 : Valuation τ sig (Elt F)) : val2 V0 (no_index (Proc.devRef .tc main_arg6)) = V0 (Proc.devRef .tc main_arg6) :=
  (val2_keep V0 main_arg6 (by decide)).trans (val1_main_arg6 V0)
theorem val2_main_arg7 (V0 : Valuation τ sig (Elt F)) : val2 V0 (no_index (Proc.devRef .tc main_arg7)) = V0 (Proc.devRef .tc main_arg7) :=
  (val2_keep V0 main_arg7 (by decide)).trans (val1_main_arg7 V0)
theorem val2_main_arg8 (V0 : Valuation τ sig (Elt F)) : val2 V0 (no_index (Proc.devRef .tc main_arg8)) = V0 (Proc.devRef .tc main_arg8) :=
  (val2_keep V0 main_arg8 (by decide)).trans (val1_main_arg8 V0)
theorem val2_main_arg9 (V0 : Valuation τ sig (Elt F)) : val2 V0 (no_index (Proc.devRef .tc main_arg9)) = V0 (Proc.devRef .tc main_arg9) :=
  (val2_keep V0 main_arg9 (by decide)).trans (val1_main_arg9 V0)
theorem val2_main_arg10 (V0 : Valuation τ sig (Elt F)) : val2 V0 (no_index (Proc.devRef .tc main_arg10)) = V0 (Proc.devRef .tc main_arg10) :=
  (val2_keep V0 main_arg10 (by decide)).trans (val1_main_arg10 V0)
theorem val2_main_arg11 (V0 : Valuation τ sig (Elt F)) : val2 V0 (no_index (Proc.devRef .tc main_arg11)) = V0 (Proc.devRef .tc main_arg11) :=
  (val2_keep V0 main_arg11 (by decide)).trans (val1_main_arg11 V0)
theorem val2_main_arg12 (V0 : Valuation τ sig (Elt F)) : val2 V0 (no_index (Proc.devRef .tc main_arg12)) = V0 (Proc.devRef .tc main_arg12) :=
  (val2_keep V0 main_arg12 (by decide)).trans (val1_main_arg12 V0)
theorem val2_main_arg13 (V0 : Valuation τ sig (Elt F)) : val2 V0 (no_index (Proc.devRef .tc main_arg13)) = V0 (Proc.devRef .tc main_arg13) :=
  (val2_keep V0 main_arg13 (by decide)).trans (val1_main_arg13 V0)
theorem val2_main_arg14 (V0 : Valuation τ sig (Elt F)) : val2 V0 (no_index (Proc.devRef .tc main_arg14)) = V0 (Proc.devRef .tc main_arg14) :=
  (val2_keep V0 main_arg14 (by decide)).trans (val1_main_arg14 V0)
theorem val2_main_arg15 (V0 : Valuation τ sig (Elt F)) : val2 V0 (no_index (Proc.devRef .tc main_arg15)) = V0 (Proc.devRef .tc main_arg15) :=
  (val2_keep V0 main_arg15 (by decide)).trans (val1_main_arg15 V0)
theorem val2_main_arg16 (V0 : Valuation τ sig (Elt F)) : val2 V0 (no_index (Proc.devRef .tc main_arg16)) = V0 (Proc.devRef .tc main_arg16) :=
  (val2_keep V0 main_arg16 (by decide)).trans (val1_main_arg16 V0)
theorem val2_main_arg17 (V0 : Valuation τ sig (Elt F)) : val2 V0 (no_index (Proc.devRef .tc main_arg17)) = V0 (Proc.devRef .tc main_arg17) :=
  (val2_keep V0 main_arg17 (by decide)).trans (val1_main_arg17 V0)
theorem val2_main_arg18 (V0 : Valuation τ sig (Elt F)) : val2 V0 (no_index (Proc.devRef .tc main_arg18)) = V0 (Proc.devRef .tc main_arg18) :=
  (val2_keep V0 main_arg18 (by decide)).trans (val1_main_arg18 V0)
theorem val2_main_arg19 (V0 : Valuation τ sig (Elt F)) : val2 V0 (no_index (Proc.devRef .tc main_arg19)) = V0 (Proc.devRef .tc main_arg19) :=
  (val2_keep V0 main_arg19 (by decide)).trans (val1_main_arg19 V0)
theorem val2_main_arg20 (V0 : Valuation τ sig (Elt F)) : val2 V0 (no_index (Proc.devRef .tc main_arg20)) = V0 (Proc.devRef .tc main_arg20) :=
  (val2_keep V0 main_arg20 (by decide)).trans (val1_main_arg20 V0)
theorem val2_main_arg21 (V0 : Valuation τ sig (Elt F)) : val2 V0 (no_index (Proc.devRef .tc main_arg21)) = V0 (Proc.devRef .tc main_arg21) :=
  (val2_keep V0 main_arg21 (by decide)).trans (val1_main_arg21 V0)
theorem val2_main_arg22 (V0 : Valuation τ sig (Elt F)) : val2 V0 (no_index (Proc.devRef .tc main_arg22)) = V0 (Proc.devRef .tc main_arg22) :=
  (val2_keep V0 main_arg22 (by decide)).trans (val1_main_arg22 V0)
theorem val2_main_arg23 (V0 : Valuation τ sig (Elt F)) : val2 V0 (no_index (Proc.devRef .tc main_arg23)) = V0 (Proc.devRef .tc main_arg23) :=
  (val2_keep V0 main_arg23 (by decide)).trans (val1_main_arg23 V0)
theorem val2_main_arg24 (V0 : Valuation τ sig (Elt F)) : val2 V0 (no_index (Proc.devRef .tc main_arg24)) = V0 (Proc.devRef .tc main_arg24) :=
  (val2_keep V0 main_arg24 (by decide)).trans (val1_main_arg24 V0)
theorem val2_main_arg25 (V0 : Valuation τ sig (Elt F)) : val2 V0 (no_index (Proc.devRef .tc main_arg25)) = V0 (Proc.devRef .tc main_arg25) :=
  (val2_keep V0 main_arg25 (by decide)).trans (val1_main_arg25 V0)
theorem val2_main_arg26 (V0 : Valuation τ sig (Elt F)) : val2 V0 (no_index (Proc.devRef .tc main_arg26)) = V0 (Proc.devRef .tc main_arg26) :=
  (val2_keep V0 main_arg26 (by decide)).trans (val1_main_arg26 V0)
theorem val2_main_arg27 (V0 : Valuation τ sig (Elt F)) : val2 V0 (no_index (Proc.devRef .tc main_arg27)) = V0 (Proc.devRef .tc main_arg27) :=
  (val2_keep V0 main_arg27 (by decide)).trans (val1_main_arg27 V0)
theorem val2_main_arg28 (V0 : Valuation τ sig (Elt F)) : val2 V0 (no_index (Proc.devRef .tc main_arg28)) = V0 (Proc.devRef .tc main_arg28) :=
  (val2_keep V0 main_arg28 (by decide)).trans (val1_main_arg28 V0)
theorem val2_main_arg29 (V0 : Valuation τ sig (Elt F)) : val2 V0 (no_index (Proc.devRef .tc main_arg29)) = V0 (Proc.devRef .tc main_arg29) :=
  (val2_keep V0 main_arg29 (by decide)).trans (val1_main_arg29 V0)
theorem val2_main_arg30 (V0 : Valuation τ sig (Elt F)) : val2 V0 (no_index (Proc.devRef .tc main_arg30)) = V0 (Proc.devRef .tc main_arg30) :=
  (val2_keep V0 main_arg30 (by decide)).trans (val1_main_arg30 V0)
theorem val2_main_arg31 (V0 : Valuation τ sig (Elt F)) : val2 V0 (no_index (Proc.devRef .tc main_arg31)) = V0 (Proc.devRef .tc main_arg31) :=
  (val2_keep V0 main_arg31 (by decide)).trans (val1_main_arg31 V0)
theorem val2_main_arg32 (V0 : Valuation τ sig (Elt F)) : val2 V0 (no_index (Proc.devRef .tc main_arg32)) = V0 (Proc.devRef .tc main_arg32) :=
  (val2_keep V0 main_arg32 (by decide)).trans (val1_main_arg32 V0)
theorem val2_main_v1 (V0 : Valuation τ sig (Elt F)) : val2 V0 (no_index (Proc.devRef .tc main_v1)) = val_main_v1 (F := F) (V0 (Proc.devRef .tc main_arg2)) :=
  (val2_keep V0 main_v1 (by decide)).trans (val1_main_v1 V0)
theorem val2_main_v17 (V0 : Valuation τ sig (Elt F)) : val2 V0 (no_index (Proc.devRef .tc main_v17)) = val_main_v17 (F := F) (V0 (Proc.devRef .tc main_arg0)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) :=
  (val2_keep V0 main_v17 (by decide)).trans (val1_main_v17 V0)
theorem val2_main_v3 (V0 : Valuation τ sig (Elt F)) : val2 V0 (no_index (Proc.devRef .tc main_v3)) = val_main_v3 (F := F) (V0 (Proc.devRef .tc main_arg2)) :=
  (val2_keep V0 main_v3 (by decide)).trans (val1_main_v3 V0)
theorem val2_main_v31 (V0 : Valuation τ sig (Elt F)) : val2 V0 (no_index (Proc.devRef .tc main_v31)) = val_main_v31 (F := F) (V0 (Proc.devRef .tc main_arg1)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) :=
  (val2_keep V0 main_v31 (by decide)).trans (val1_main_v31 V0)
set_option maxRecDepth 8192 in
set_option maxHeartbeats 2000000 in
theorem val2_main_v46 (V0 : Valuation τ sig (Elt F)) : val2 V0 (no_index (Proc.devRef .tc main_v46)) = val_main_v46 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) := by
  unfold val2
  simp only [opsB]
  after_results_simp
  try dsimp only [Matrix.cons_val]
  try after_results_simp
  try simp only [StableHlo.TRef.ofBuf, StableHlo.TRef.toBuf, cast_eq]
  try simp only [val1_main_arg15, val1_main_arg16, val1_main_arg17, val1_main_arg18, val1_main_arg19, val1_main_v31, val1_main_v38, val1_main_v45]
  try rw [val1_main_arg15]
  try rw [val1_main_arg16]
  try rw [val1_main_arg17]
  try rw [val1_main_arg18]
  try rw [val1_main_arg19]
  try rw [val1_main_v31]
  try rw [val1_main_v38]
  try rw [val1_main_v45]
  rfl
set_option maxRecDepth 8192 in
set_option maxHeartbeats 2000000 in
theorem val2_main_v48 (V0 : Valuation τ sig (Elt F)) : val2 V0 (no_index (Proc.devRef .tc main_v48)) = val_main_v48 (F := F) (V0 (Proc.devRef .tc main_arg15)) := by
  unfold val2
  simp only [opsB]
  after_results_simp
  try dsimp only [Matrix.cons_val]
  try after_results_simp
  try simp only [StableHlo.TRef.ofBuf, StableHlo.TRef.toBuf, cast_eq]
  try simp only [val1_main_arg15, val1_main_arg16, val1_main_arg17, val1_main_arg18, val1_main_arg19, val1_main_v31, val1_main_v38, val1_main_v45]
  try rw [val1_main_arg15]
  try rw [val1_main_arg16]
  try rw [val1_main_arg17]
  try rw [val1_main_arg18]
  try rw [val1_main_arg19]
  try rw [val1_main_v31]
  try rw [val1_main_v38]
  try rw [val1_main_v45]
  rfl
set_option maxRecDepth 8192 in
set_option maxHeartbeats 2000000 in
theorem val2_main_v50 (V0 : Valuation τ sig (Elt F)) : val2 V0 (no_index (Proc.devRef .tc main_v50)) = val_main_v50 (F := F) (V0 (Proc.devRef .tc main_arg16)) := by
  unfold val2
  simp only [opsB]
  after_results_simp
  try dsimp only [Matrix.cons_val]
  try after_results_simp
  try simp only [StableHlo.TRef.ofBuf, StableHlo.TRef.toBuf, cast_eq]
  try simp only [val1_main_arg15, val1_main_arg16, val1_main_arg17, val1_main_arg18, val1_main_arg19, val1_main_v31, val1_main_v38, val1_main_v45]
  try rw [val1_main_arg15]
  try rw [val1_main_arg16]
  try rw [val1_main_arg17]
  try rw [val1_main_arg18]
  try rw [val1_main_arg19]
  try rw [val1_main_v31]
  try rw [val1_main_v38]
  try rw [val1_main_v45]
  rfl
set_option maxRecDepth 8192 in
set_option maxHeartbeats 2000000 in
theorem val2_main_v52 (V0 : Valuation τ sig (Elt F)) : val2 V0 (no_index (Proc.devRef .tc main_v52)) = val_main_v52 (F := F) (V0 (Proc.devRef .tc main_arg17)) := by
  unfold val2
  simp only [opsB]
  after_results_simp
  try dsimp only [Matrix.cons_val]
  try after_results_simp
  try simp only [StableHlo.TRef.ofBuf, StableHlo.TRef.toBuf, cast_eq]
  try simp only [val1_main_arg15, val1_main_arg16, val1_main_arg17, val1_main_arg18, val1_main_arg19, val1_main_v31, val1_main_v38, val1_main_v45]
  try rw [val1_main_arg15]
  try rw [val1_main_arg16]
  try rw [val1_main_arg17]
  try rw [val1_main_arg18]
  try rw [val1_main_arg19]
  try rw [val1_main_v31]
  try rw [val1_main_v38]
  try rw [val1_main_v45]
  rfl
set_option maxRecDepth 8192 in
set_option maxHeartbeats 2000000 in
theorem val2_main_v54 (V0 : Valuation τ sig (Elt F)) : val2 V0 (no_index (Proc.devRef .tc main_v54)) = val_main_v54 (F := F) (V0 (Proc.devRef .tc main_arg18)) := by
  unfold val2
  simp only [opsB]
  after_results_simp
  try dsimp only [Matrix.cons_val]
  try after_results_simp
  try simp only [StableHlo.TRef.ofBuf, StableHlo.TRef.toBuf, cast_eq]
  try simp only [val1_main_arg15, val1_main_arg16, val1_main_arg17, val1_main_arg18, val1_main_arg19, val1_main_v31, val1_main_v38, val1_main_v45]
  try rw [val1_main_arg15]
  try rw [val1_main_arg16]
  try rw [val1_main_arg17]
  try rw [val1_main_arg18]
  try rw [val1_main_arg19]
  try rw [val1_main_v31]
  try rw [val1_main_v38]
  try rw [val1_main_v45]
  rfl
set_option maxRecDepth 8192 in
set_option maxHeartbeats 2000000 in
theorem val2_main_v55 (V0 : Valuation τ sig (Elt F)) : val2 V0 (no_index (Proc.devRef .tc main_v55)) = val_main_v55 (F := F) (V0 (Proc.devRef .tc main_arg19)) := by
  unfold val2
  simp only [opsB]
  after_results_simp
  try dsimp only [Matrix.cons_val]
  try after_results_simp
  try simp only [StableHlo.TRef.ofBuf, StableHlo.TRef.toBuf, cast_eq]
  try simp only [val1_main_arg15, val1_main_arg16, val1_main_arg17, val1_main_arg18, val1_main_arg19, val1_main_v31, val1_main_v38, val1_main_v45]
  try rw [val1_main_arg15]
  try rw [val1_main_arg16]
  try rw [val1_main_arg17]
  try rw [val1_main_arg18]
  try rw [val1_main_arg19]
  try rw [val1_main_v31]
  try rw [val1_main_v38]
  try rw [val1_main_v45]
  rfl

/-! ## After chunk C -/

theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_main_arg5 V0)
theorem val3_main_arg6 (V0 : Valuation τ sig (Elt F)) : val3 V0 (no_index (Proc.devRef .tc main_arg6)) = V0 (Proc.devRef .tc main_arg6) :=
  (val3_keep V0 main_arg6 (by decide)).trans (val2_main_arg6 V0)
theorem val3_main_arg7 (V0 : Valuation τ sig (Elt F)) : val3 V0 (no_index (Proc.devRef .tc main_arg7)) = V0 (Proc.devRef .tc main_arg7) :=
  (val3_keep V0 main_arg7 (by decide)).trans (val2_main_arg7 V0)
theorem val3_main_arg8 (V0 : Valuation τ sig (Elt F)) : val3 V0 (no_index (Proc.devRef .tc main_arg8)) = V0 (Proc.devRef .tc main_arg8) :=
  (val3_keep V0 main_arg8 (by decide)).trans (val2_main_arg8 V0)
theorem val3_main_arg9 (V0 : Valuation τ sig (Elt F)) : val3 V0 (no_index (Proc.devRef .tc main_arg9)) = V0 (Proc.devRef .tc main_arg9) :=
  (val3_keep V0 main_arg9 (by decide)).trans (val2_main_arg9 V0)
theorem val3_main_arg10 (V0 : Valuation τ sig (Elt F)) : val3 V0 (no_index (Proc.devRef .tc main_arg10)) = V0 (Proc.devRef .tc main_arg10) :=
  (val3_keep V0 main_arg10 (by decide)).trans (val2_main_arg10 V0)
theorem val3_main_arg11 (V0 : Valuation τ sig (Elt F)) : val3 V0 (no_index (Proc.devRef .tc main_arg11)) = V0 (Proc.devRef .tc main_arg11) :=
  (val3_keep V0 main_arg11 (by decide)).trans (val2_main_arg11 V0)
theorem val3_main_arg12 (V0 : Valuation τ sig (Elt F)) : val3 V0 (no_index (Proc.devRef .tc main_arg12)) = V0 (Proc.devRef .tc main_arg12) :=
  (val3_keep V0 main_arg12 (by decide)).trans (val2_main_arg12 V0)
theorem val3_main_arg13 (V0 : Valuation τ sig (Elt F)) : val3 V0 (no_index (Proc.devRef .tc main_arg13)) = V0 (Proc.devRef .tc main_arg13) :=
  (val3_keep V0 main_arg13 (by decide)).trans (val2_main_arg13 V0)
theorem val3_main_arg14 (V0 : Valuation τ sig (Elt F)) : val3 V0 (no_index (Proc.devRef .tc main_arg14)) = V0 (Proc.devRef .tc main_arg14) :=
  (val3_keep V0 main_arg14 (by decide)).trans (val2_main_arg14 V0)
theorem val3_main_arg15 (V0 : Valuation τ sig (Elt F)) : val3 V0 (no_index (Proc.devRef .tc main_arg15)) = V0 (Proc.devRef .tc main_arg15) :=
  (val3_keep V0 main_arg15 (by decide)).trans (val2_main_arg15 V0)
theorem val3_main_arg16 (V0 : Valuation τ sig (Elt F)) : val3 V0 (no_index (Proc.devRef .tc main_arg16)) = V0 (Proc.devRef .tc main_arg16) :=
  (val3_keep V0 main_arg16 (by decide)).trans (val2_main_arg16 V0)
theorem val3_main_arg17 (V0 : Valuation τ sig (Elt F)) : val3 V0 (no_index (Proc.devRef .tc main_arg17)) = V0 (Proc.devRef .tc main_arg17) :=
  (val3_keep V0 main_arg17 (by decide)).trans (val2_main_arg17 V0)
theorem val3_main_arg18 (V0 : Valuation τ sig (Elt F)) : val3 V0 (no_index (Proc.devRef .tc main_arg18)) = V0 (Proc.devRef .tc main_arg18) :=
  (val3_keep V0 main_arg18 (by decide)).trans (val2_main_arg18 V0)
theorem val3_main_arg19 (V0 : Valuation τ sig (Elt F)) : val3 V0 (no_index (Proc.devRef .tc main_arg19)) = V0 (Proc.devRef .tc main_arg19) :=
  (val3_keep V0 main_arg19 (by decide)).trans (val2_main_arg19 V0)
theorem val3_main_arg20 (V0 : Valuation τ sig (Elt F)) : val3 V0 (no_index (Proc.devRef .tc main_arg20)) = V0 (Proc.devRef .tc main_arg20) :=
  (val3_keep V0 main_arg20 (by decide)).trans (val2_main_arg20 V0)
theorem val3_main_arg21 (V0 : Valuation τ sig (Elt F)) : val3 V0 (no_index (Proc.devRef .tc main_arg21)) = V0 (Proc.devRef .tc main_arg21) :=
  (val3_keep V0 main_arg21 (by decide)).trans (val2_main_arg21 V0)
theorem val3_main_arg22 (V0 : Valuation τ sig (Elt F)) : val3 V0 (no_index (Proc.devRef .tc main_arg22)) = V0 (Proc.devRef .tc main_arg22) :=
  (val3_keep V0 main_arg22 (by decide)).trans (val2_main_arg22 V0)
theorem val3_main_arg23 (V0 : Valuation τ sig (Elt F)) : val3 V0 (no_index (Proc.devRef .tc main_arg23)) = V0 (Proc.devRef .tc main_arg23) :=
  (val3_keep V0 main_arg23 (by decide)).trans (val2_main_arg23 V0)
theorem val3_main_arg24 (V0 : Valuation τ sig (Elt F)) : val3 V0 (no_index (Proc.devRef .tc main_arg24)) = V0 (Proc.devRef .tc main_arg24) :=
  (val3_keep V0 main_arg24 (by decide)).trans (val2_main_arg24 V0)
theorem val3_main_arg25 (V0 : Valuation τ sig (Elt F)) : val3 V0 (no_index (Proc.devRef .tc main_arg25)) = V0 (Proc.devRef .tc main_arg25) :=
  (val3_keep V0 main_arg25 (by decide)).trans (val2_main_arg25 V0)
theorem val3_main_arg26 (V0 : Valuation τ sig (Elt F)) : val3 V0 (no_index (Proc.devRef .tc main_arg26)) = V0 (Proc.devRef .tc main_arg26) :=
  (val3_keep V0 main_arg26 (by decide)).trans (val2_main_arg26 V0)
theorem val3_main_arg27 (V0 : Valuation τ sig (Elt F)) : val3 V0 (no_index (Proc.devRef .tc main_arg27)) = V0 (Proc.devRef .tc main_arg27) :=
  (val3_keep V0 main_arg27 (by decide)).trans (val2_main_arg27 V0)
theorem val3_main_arg28 (V0 : Valuation τ sig (Elt F)) : val3 V0 (no_index (Proc.devRef .tc main_arg28)) = V0 (Proc.devRef .tc main_arg28) :=
  (val3_keep V0 main_arg28 (by decide)).trans (val2_main_arg28 V0)
theorem val3_main_arg29 (V0 : Valuation τ sig (Elt F)) : val3 V0 (no_index (Proc.devRef .tc main_arg29)) = V0 (Proc.devRef .tc main_arg29) :=
  (val3_keep V0 main_arg29 (by decide)).trans (val2_main_arg29 V0)
theorem val3_main_arg30 (V0 : Valuation τ sig (Elt F)) : val3 V0 (no_index (Proc.devRef .tc main_arg30)) = V0 (Proc.devRef .tc main_arg30) :=
  (val3_keep V0 main_arg30 (by decide)).trans (val2_main_arg30 V0)
theorem val3_main_arg31 (V0 : Valuation τ sig (Elt F)) : val3 V0 (no_index (Proc.devRef .tc main_arg31)) = V0 (Proc.devRef .tc main_arg31) :=
  (val3_keep V0 main_arg31 (by decide)).trans (val2_main_arg31 V0)
theorem val3_main_arg32 (V0 : Valuation τ sig (Elt F)) : val3 V0 (no_index (Proc.devRef .tc main_arg32)) = V0 (Proc.devRef .tc main_arg32) :=
  (val3_keep V0 main_arg32 (by decide)).trans (val2_main_arg32 V0)
theorem val3_main_v1 (V0 : Valuation τ sig (Elt F)) : val3 V0 (no_index (Proc.devRef .tc main_v1)) = val_main_v1 (F := F) (V0 (Proc.devRef .tc main_arg2)) :=
  (val3_keep V0 main_v1 (by decide)).trans (val2_main_v1 V0)
theorem val3_main_v17 (V0 : Valuation τ sig (Elt F)) : val3 V0 (no_index (Proc.devRef .tc main_v17)) = val_main_v17 (F := F) (V0 (Proc.devRef .tc main_arg0)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) :=
  (val3_keep V0 main_v17 (by decide)).trans (val2_main_v17 V0)
theorem val3_main_v3 (V0 : Valuation τ sig (Elt F)) : val3 V0 (no_index (Proc.devRef .tc main_v3)) = val_main_v3 (F := F) (V0 (Proc.devRef .tc main_arg2)) :=
  (val3_keep V0 main_v3 (by decide)).trans (val2_main_v3 V0)
set_option maxRecDepth 8192 in
set_option maxHeartbeats 2000000 in
theorem val3_main_v73 (V0 : Valuation τ sig (Elt F)) : val3 V0 (no_index (Proc.devRef .tc main_v73)) = val_main_v73 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) := by
  unfold val3
  simp only [opsC]
  after_results_simp
  try dsimp only [Matrix.cons_val]
  try after_results_simp
  try simp only [StableHlo.TRef.ofBuf, StableHlo.TRef.toBuf, cast_eq]
  try simp only [val2_main_arg20, val2_main_v3, val2_main_v31, val2_main_v46, val2_main_v48, val2_main_v50, val2_main_v52, val2_main_v54, val2_main_v55]
  try rw [val2_main_arg20]
  try rw [val2_main_v3]
  try rw [val2_main_v31]
  try rw [val2_main_v46]
  try rw [val2_main_v48]
  try rw [val2_main_v50]
  try rw [val2_main_v52]
  try rw [val2_main_v54]
  try rw [val2_main_v55]
  rfl
set_option maxRecDepth 8192 in
set_option maxHeartbeats 2000000 in
theorem val3_main_v76 (V0 : Valuation τ sig (Elt F)) : val3 V0 (no_index (Proc.devRef .tc main_v76)) = val_main_v76 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) := by
  unfold val3
  simp only [opsC]
  after_results_simp
  try dsimp only [Matrix.cons_val]
  try after_results_simp
  try simp only [StableHlo.TRef.ofBuf, StableHlo.TRef.toBuf, cast_eq]
  try simp only [val2_main_arg20, val2_main_v3, val2_main_v31, val2_main_v46, val2_main_v48, val2_main_v50, val2_main_v52, val2_main_v54, val2_main_v55]
  try rw [val2_main_arg20]
  try rw [val2_main_v3]
  try rw [val2_main_v31]
  try rw [val2_main_v46]
  try rw [val2_main_v48]
  try rw [val2_main_v50]
  try rw [val2_main_v52]
  try rw [val2_main_v54]
  try rw [val2_main_v55]
  rfl

/-! ## After chunk D -/

theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_main_arg3 V0)
theorem val4_main_arg4 (V0 : Valuation τ sig (Elt F)) : val4 V0 (no_index (Proc.devRef .tc main_arg4)) = V0 (Proc.devRef .tc main_arg4) :=
  (val4_keep V0 main_arg4 (by decide)).trans (val3_main_arg4 V0)
theorem val4_main_arg5 (V0 : Valuation τ sig (Elt F)) : val4 V0 (no_index (Proc.devRef .tc main_arg5)) = V0 (Proc.devRef .tc main_arg5) :=
  (val4_keep V0 main_arg5 (by decide)).trans (val3_main_arg5 V0)
theorem val4_main_arg6 (V0 : Valuation τ sig (Elt F)) : val4 V0 (no_index (Proc.devRef .tc main_arg6)) = V0 (Proc.devRef .tc main_arg6) :=
  (val4_keep V0 main_arg6 (by decide)).trans (val3_main_arg6 V0)
theorem val4_main_arg7 (V0 : Valuation τ sig (Elt F)) : val4 V0 (no_index (Proc.devRef .tc main_arg7)) = V0 (Proc.devRef .tc main_arg7) :=
  (val4_keep V0 main_arg7 (by decide)).trans (val3_main_arg7 V0)
theorem val4_main_arg8 (V0 : Valuation τ sig (Elt F)) : val4 V0 (no_index (Proc.devRef .tc main_arg8)) = V0 (Proc.devRef .tc main_arg8) :=
  (val4_keep V0 main_arg8 (by decide)).trans (val3_main_arg8 V0)
theorem val4_main_arg9 (V0 : Valuation τ sig (Elt F)) : val4 V0 (no_index (Proc.devRef .tc main_arg9)) = V0 (Proc.devRef .tc main_arg9) :=
  (val4_keep V0 main_arg9 (by decide)).trans (val3_main_arg9 V0)
theorem val4_main_arg10 (V0 : Valuation τ sig (Elt F)) : val4 V0 (no_index (Proc.devRef .tc main_arg10)) = V0 (Proc.devRef .tc main_arg10) :=
  (val4_keep V0 main_arg10 (by decide)).trans (val3_main_arg10 V0)
theorem val4_main_arg11 (V0 : Valuation τ sig (Elt F)) : val4 V0 (no_index (Proc.devRef .tc main_arg11)) = V0 (Proc.devRef .tc main_arg11) :=
  (val4_keep V0 main_arg11 (by decide)).trans (val3_main_arg11 V0)
theorem val4_main_arg12 (V0 : Valuation τ sig (Elt F)) : val4 V0 (no_index (Proc.devRef .tc main_arg12)) = V0 (Proc.devRef .tc main_arg12) :=
  (val4_keep V0 main_arg12 (by decide)).trans (val3_main_arg12 V0)
theorem val4_main_arg13 (V0 : Valuation τ sig (Elt F)) : val4 V0 (no_index (Proc.devRef .tc main_arg13)) = V0 (Proc.devRef .tc main_arg13) :=
  (val4_keep V0 main_arg13 (by decide)).trans (val3_main_arg13 V0)
theorem val4_main_arg14 (V0 : Valuation τ sig (Elt F)) : val4 V0 (no_index (Proc.devRef .tc main_arg14)) = V0 (Proc.devRef .tc main_arg14) :=
  (val4_keep V0 main_arg14 (by decide)).trans (val3_main_arg14 V0)
theorem val4_main_arg15 (V0 : Valuation τ sig (Elt F)) : val4 V0 (no_index (Proc.devRef .tc main_arg15)) = V0 (Proc.devRef .tc main_arg15) :=
  (val4_keep V0 main_arg15 (by decide)).trans (val3_main_arg15 V0)
theorem val4_main_arg16 (V0 : Valuation τ sig (Elt F)) : val4 V0 (no_index (Proc.devRef .tc main_arg16)) = V0 (Proc.devRef .tc main_arg16) :=
  (val4_keep V0 main_arg16 (by decide)).trans (val3_main_arg16 V0)
theorem val4_main_arg17 (V0 : Valuation τ sig (Elt F)) : val4 V0 (no_index (Proc.devRef .tc main_arg17)) = V0 (Proc.devRef .tc main_arg17) :=
  (val4_keep V0 main_arg17 (by decide)).trans (val3_main_arg17 V0)
theorem val4_main_arg18 (V0 : Valuation τ sig (Elt F)) : val4 V0 (no_index (Proc.devRef .tc main_arg18)) = V0 (Proc.devRef .tc main_arg18) :=
  (val4_keep V0 main_arg18 (by decide)).trans (val3_main_arg18 V0)
theorem val4_main_arg19 (V0 : Valuation τ sig (Elt F)) : val4 V0 (no_index (Proc.devRef .tc main_arg19)) = V0 (Proc.devRef .tc main_arg19) :=
  (val4_keep V0 main_arg19 (by decide)).trans (val3_main_arg19 V0)
theorem val4_main_arg20 (V0 : Valuation τ sig (Elt F)) : val4 V0 (no_index (Proc.devRef .tc main_arg20)) = V0 (Proc.devRef .tc main_arg20) :=
  (val4_keep V0 main_arg20 (by decide)).trans (val3_main_arg20 V0)
theorem val4_main_arg21 (V0 : Valuation τ sig (Elt F)) : val4 V0 (no_index (Proc.devRef .tc main_arg21)) = V0 (Proc.devRef .tc main_arg21) :=
  (val4_keep V0 main_arg21 (by decide)).trans (val3_main_arg21 V0)
theorem val4_main_arg22 (V0 : Valuation τ sig (Elt F)) : val4 V0 (no_index (Proc.devRef .tc main_arg22)) = V0 (Proc.devRef .tc main_arg22) :=
  (val4_keep V0 main_arg22 (by decide)).trans (val3_main_arg22 V0)
theorem val4_main_arg23 (V0 : Valuation τ sig (Elt F)) : val4 V0 (no_index (Proc.devRef .tc main_arg23)) = V0 (Proc.devRef .tc main_arg23) :=
  (val4_keep V0 main_arg23 (by decide)).trans (val3_main_arg23 V0)
theorem val4_main_arg24 (V0 : Valuation τ sig (Elt F)) : val4 V0 (no_index (Proc.devRef .tc main_arg24)) = V0 (Proc.devRef .tc main_arg24) :=
  (val4_keep V0 main_arg24 (by decide)).trans (val3_main_arg24 V0)
theorem val4_main_arg25 (V0 : Valuation τ sig (Elt F)) : val4 V0 (no_index (Proc.devRef .tc main_arg25)) = V0 (Proc.devRef .tc main_arg25) :=
  (val4_keep V0 main_arg25 (by decide)).trans (val3_main_arg25 V0)
theorem val4_main_arg26 (V0 : Valuation τ sig (Elt F)) : val4 V0 (no_index (Proc.devRef .tc main_arg26)) = V0 (Proc.devRef .tc main_arg26) :=
  (val4_keep V0 main_arg26 (by decide)).trans (val3_main_arg26 V0)
theorem val4_main_arg27 (V0 : Valuation τ sig (Elt F)) : val4 V0 (no_index (Proc.devRef .tc main_arg27)) = V0 (Proc.devRef .tc main_arg27) :=
  (val4_keep V0 main_arg27 (by decide)).trans (val3_main_arg27 V0)
theorem val4_main_arg28 (V0 : Valuation τ sig (Elt F)) : val4 V0 (no_index (Proc.devRef .tc main_arg28)) = V0 (Proc.devRef .tc main_arg28) :=
  (val4_keep V0 main_arg28 (by decide)).trans (val3_main_arg28 V0)
theorem val4_main_arg29 (V0 : Valuation τ sig (Elt F)) : val4 V0 (no_index (Proc.devRef .tc main_arg29)) = V0 (Proc.devRef .tc main_arg29) :=
  (val4_keep V0 main_arg29 (by decide)).trans (val3_main_arg29 V0)
theorem val4_main_arg30 (V0 : Valuation τ sig (Elt F)) : val4 V0 (no_index (Proc.devRef .tc main_arg30)) = V0 (Proc.devRef .tc main_arg30) :=
  (val4_keep V0 main_arg30 (by decide)).trans (val3_main_arg30 V0)
theorem val4_main_arg31 (V0 : Valuation τ sig (Elt F)) : val4 V0 (no_index (Proc.devRef .tc main_arg31)) = V0 (Proc.devRef .tc main_arg31) :=
  (val4_keep V0 main_arg31 (by decide)).trans (val3_main_arg31 V0)
theorem val4_main_arg32 (V0 : Valuation τ sig (Elt F)) : val4 V0 (no_index (Proc.devRef .tc main_arg32)) = V0 (Proc.devRef .tc main_arg32) :=
  (val4_keep V0 main_arg32 (by decide)).trans (val3_main_arg32 V0)
set_option maxRecDepth 8192 in
set_option maxHeartbeats 2000000 in
theorem val4_main_c_5 (V0 : Valuation τ sig (Elt F)) : val4 V0 (no_index (Proc.devRef .tc main_c_5)) = val_main_c_5 (F := F) := by
  unfold val4
  simp only [opsD]
  after_results_simp
  try dsimp only [Matrix.cons_val]
  try after_results_simp
  try simp only [StableHlo.TRef.ofBuf, StableHlo.TRef.toBuf, cast_eq]
  try simp only [val3_main_arg21, val3_main_arg22, val3_main_arg23, val3_main_arg24, val3_main_arg25, val3_main_arg26, val3_main_v1, val3_main_v17, val3_main_v76]
  try rw [val3_main_arg21]
  try rw [val3_main_arg22]
  try rw [val3_main_arg23]
  try rw [val3_main_arg24]
  try rw [val3_main_arg25]
  try rw [val3_main_arg26]
  try rw [val3_main_v1]
  try rw [val3_main_v17]
  try rw [val3_main_v76]
  rfl
theorem val4_main_v1 (V0 : Valuation τ sig (Elt F)) : val4 V0 (no_index (Proc.devRef .tc main_v1)) = val_main_v1 (F := F) (V0 (Proc.devRef .tc main_arg2)) :=
  (val4_keep V0 main_v1 (by decide)).trans (val3_main_v1 V0)
set_option maxRecDepth 8192 in
set_option maxHeartbeats 2000000 in
theorem val4_main_v104 (V0 : Valuation τ sig (Elt F)) : val4 V0 (no_index (Proc.devRef .tc main_v104)) = val_main_v104 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) (V0 (Proc.devRef .tc main_arg24)) (V0 (Proc.devRef .tc main_arg25)) (V0 (Proc.devRef .tc main_arg26)) := by
  unfold val4
  simp only [opsD]
  after_results_simp
  try dsimp only [Matrix.cons_val]
  try after_results_simp
  try simp only [StableHlo.TRef.ofBuf, StableHlo.TRef.toBuf, cast_eq]
  try simp only [val3_main_arg21, val3_main_arg22, val3_main_arg23, val3_main_arg24, val3_main_arg25, val3_main_arg26, val3_main_v1, val3_main_v17, val3_main_v76]
  try rw [val3_main_arg21]
  try rw [val3_main_arg22]
  try rw [val3_main_arg23]
  try rw [val3_main_arg24]
  try rw [val3_main_arg25]
  try rw [val3_main_arg26]
  try rw [val3_main_v1]
  try rw [val3_main_v17]
  try rw [val3_main_v76]
  rfl
set_option maxRecDepth 8192 in
set_option maxHeartbeats 2000000 in
theorem val4_main_v111 (V0 : Valuation τ sig (Elt F)) : val4 V0 (no_index (Proc.devRef .tc main_v111)) = val_main_v111 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) (V0 (Proc.devRef .tc main_arg24)) (V0 (Proc.devRef .tc main_arg25)) (V0 (Proc.devRef .tc main_arg26)) := by
  unfold val4
  simp only [opsD]
  after_results_simp
  try dsimp only [Matrix.cons_val]
  try after_results_simp
  try simp only [StableHlo.TRef.ofBuf, StableHlo.TRef.toBuf, cast_eq]
  try simp only [val3_main_arg21, val3_main_arg22, val3_main_arg23, val3_main_arg24, val3_main_arg25, val3_main_arg26, val3_main_v1, val3_main_v17, val3_main_v76]
  try rw [val3_main_arg21]
  try rw [val3_main_arg22]
  try rw [val3_main_arg23]
  try rw [val3_main_arg24]
  try rw [val3_main_arg25]
  try rw [val3_main_arg26]
  try rw [val3_main_v1]
  try rw [val3_main_v17]
  try rw [val3_main_v76]
  rfl
theorem val4_main_v3 (V0 : Valuation τ sig (Elt F)) : val4 V0 (no_index (Proc.devRef .tc main_v3)) = val_main_v3 (F := F) (V0 (Proc.devRef .tc main_arg2)) :=
  (val4_keep V0 main_v3 (by decide)).trans (val3_main_v3 V0)
theorem val4_main_v73 (V0 : Valuation τ sig (Elt F)) : val4 V0 (no_index (Proc.devRef .tc main_v73)) = val_main_v73 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) :=
  (val4_keep V0 main_v73 (by decide)).trans (val3_main_v73 V0)

end Cert.ReferenceIdeal.RunC

end
-- ==== Proof.RunV2.lean ====
/- After each chunk of the reference program's operations, every buffer that a later chunk reads holds its stage function of the
   launch arrays: a buffer the chunk writes, by running the chunk's operations on the contents before it (the buffers it reads
   from earlier chunks being at their stage functions already); a buffer it does not write, because it keeps its contents. So
   every weakly fair execution ends with the result buffer at the last stage function of the launch arrays and the arguments
   as launched. -/
import proofs.«425516_j47425028883052_2_alg».proof.Proof.RunV1

noncomputable section

namespace Cert.ReferenceIdeal.RunC

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-! ## After chunk E -/

theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide)).trans (val4_main_arg1 V0)
theorem val5_main_arg2 (V0 : Valuation τ sig (Elt F)) : val5 V0 (no_index (Proc.devRef .tc main_arg2)) = V0 (Proc.devRef .tc main_arg2) :=
  (val5_keep V0 main_arg2 (by decide)).trans (val4_main_arg2 V0)
theorem val5_main_arg3 (V0 : Valuation τ sig (Elt F)) : val5 V0 (no_index (Proc.devRef .tc main_arg3)) = V0 (Proc.devRef .tc main_arg3) :=
  (val5_keep V0 main_arg3 (by decide)).trans (val4_main_arg3 V0)
theorem val5_main_arg4 (V0 : Valuation τ sig (Elt F)) : val5 V0 (no_index (Proc.devRef .tc main_arg4)) = V0 (Proc.devRef .tc main_arg4) :=
  (val5_keep V0 main_arg4 (by decide)).trans (val4_main_arg4 V0)
theorem val5_main_arg5 (V0 : Valuation τ sig (Elt F)) : val5 V0 (no_index (Proc.devRef .tc main_arg5)) = V0 (Proc.devRef .tc main_arg5) :=
  (val5_keep V0 main_arg5 (by decide)).trans (val4_main_arg5 V0)
theorem val5_main_arg6 (V0 : Valuation τ sig (Elt F)) : val5 V0 (no_index (Proc.devRef .tc main_arg6)) = V0 (Proc.devRef .tc main_arg6) :=
  (val5_keep V0 main_arg6 (by decide)).trans (val4_main_arg6 V0)
theorem val5_main_arg7 (V0 : Valuation τ sig (Elt F)) : val5 V0 (no_index (Proc.devRef .tc main_arg7)) = V0 (Proc.devRef .tc main_arg7) :=
  (val5_keep V0 main_arg7 (by decide)).trans (val4_main_arg7 V0)
theorem val5_main_arg8 (V0 : Valuation τ sig (Elt F)) : val5 V0 (no_index (Proc.devRef .tc main_arg8)) = V0 (Proc.devRef .tc main_arg8) :=
  (val5_keep V0 main_arg8 (by decide)).trans (val4_main_arg8 V0)
theorem val5_main_arg9 (V0 : Valuation τ sig (Elt F)) : val5 V0 (no_index (Proc.devRef .tc main_arg9)) = V0 (Proc.devRef .tc main_arg9) :=
  (val5_keep V0 main_arg9 (by decide)).trans (val4_main_arg9 V0)
theorem val5_main_arg10 (V0 : Valuation τ sig (Elt F)) : val5 V0 (no_index (Proc.devRef .tc main_arg10)) = V0 (Proc.devRef .tc main_arg10) :=
  (val5_keep V0 main_arg10 (by decide)).trans (val4_main_arg10 V0)
theorem val5_main_arg11 (V0 : Valuation τ sig (Elt F)) : val5 V0 (no_index (Proc.devRef .tc main_arg11)) = V0 (Proc.devRef .tc main_arg11) :=
  (val5_keep V0 main_arg11 (by decide)).trans (val4_main_arg11 V0)
theorem val5_main_arg12 (V0 : Valuation τ sig (Elt F)) : val5 V0 (no_index (Proc.devRef .tc main_arg12)) = V0 (Proc.devRef .tc main_arg12) :=
  (val5_keep V0 main_arg12 (by decide)).trans (val4_main_arg12 V0)
theorem val5_main_arg13 (V0 : Valuation τ sig (Elt F)) : val5 V0 (no_index (Proc.devRef .tc main_arg13)) = V0 (Proc.devRef .tc main_arg13) :=
  (val5_keep V0 main_arg13 (by decide)).trans (val4_main_arg13 V0)
theorem val5_main_arg14 (V0 : Valuation τ sig (Elt F)) : val5 V0 (no_index (Proc.devRef .tc main_arg14)) = V0 (Proc.devRef .tc main_arg14) :=
  (val5_keep V0 main_arg14 (by decide)).trans (val4_main_arg14 V0)
theorem val5_main_arg15 (V0 : Valuation τ sig (Elt F)) : val5 V0 (no_index (Proc.devRef .tc main_arg15)) = V0 (Proc.devRef .tc main_arg15) :=
  (val5_keep V0 main_arg15 (by decide)).trans (val4_main_arg15 V0)
theorem val5_main_arg16 (V0 : Valuation τ sig (Elt F)) : val5 V0 (no_index (Proc.devRef .tc main_arg16)) = V0 (Proc.devRef .tc main_arg16) :=
  (val5_keep V0 main_arg16 (by decide)).trans (val4_main_arg16 V0)
theorem val5_main_arg17 (V0 : Valuation τ sig (Elt F)) : val5 V0 (no_index (Proc.devRef .tc main_arg17)) = V0 (Proc.devRef .tc main_arg17) :=
  (val5_keep V0 main_arg17 (by decide)).trans (val4_main_arg17 V0)
theorem val5_main_arg18 (V0 : Valuation τ sig (Elt F)) : val5 V0 (no_index (Proc.devRef .tc main_arg18)) = V0 (Proc.devRef .tc main_arg18) :=
  (val5_keep V0 main_arg18 (by decide)).trans (val4_main_arg18 V0)
theorem val5_main_arg19 (V0 : Valuation τ sig (Elt F)) : val5 V0 (no_index (Proc.devRef .tc main_arg19)) = V0 (Proc.devRef .tc main_arg19) :=
  (val5_keep V0 main_arg19 (by decide)).trans (val4_main_arg19 V0)
theorem val5_main_arg20 (V0 : Valuation τ sig (Elt F)) : val5 V0 (no_index (Proc.devRef .tc main_arg20)) = V0 (Proc.devRef .tc main_arg20) :=
  (val5_keep V0 main_arg20 (by decide)).trans (val4_main_arg20 V0)
theorem val5_main_arg21 (V0 : Valuation τ sig (Elt F)) : val5 V0 (no_index (Proc.devRef .tc main_arg21)) = V0 (Proc.devRef .tc main_arg21) :=
  (val5_keep V0 main_arg21 (by decide)).trans (val4_main_arg21 V0)
theorem val5_main_arg22 (V0 : Valuation τ sig (Elt F)) : val5 V0 (no_index (Proc.devRef .tc main_arg22)) = V0 (Proc.devRef .tc main_arg22) :=
  (val5_keep V0 main_arg22 (by decide)).trans (val4_main_arg22 V0)
theorem val5_main_arg23 (V0 : Valuation τ sig (Elt F)) : val5 V0 (no_index (Proc.devRef .tc main_arg23)) = V0 (Proc.devRef .tc main_arg23) :=
  (val5_keep V0 main_arg23 (by decide)).trans (val4_main_arg23 V0)
theorem val5_main_arg24 (V0 : Valuation τ sig (Elt F)) : val5 V0 (no_index (Proc.devRef .tc main_arg24)) = V0 (Proc.devRef .tc main_arg24) :=
  (val5_keep V0 main_arg24 (by decide)).trans (val4_main_arg24 V0)
theorem val5_main_arg25 (V0 : Valuation τ sig (Elt F)) : val5 V0 (no_index (Proc.devRef .tc main_arg25)) = V0 (Proc.devRef .tc main_arg25) :=
  (val5_keep V0 main_arg25 (by decide)).trans (val4_main_arg25 V0)
theorem val5_main_arg26 (V0 : Valuation τ sig (Elt F)) : val5 V0 (no_index (Proc.devRef .tc main_arg26)) = V0 (Proc.devRef .tc main_arg26) :=
  (val5_keep V0 main_arg26 (by decide)).trans (val4_main_arg26 V0)
theorem val5_main_arg27 (V0 : Valuation τ sig (Elt F)) : val5 V0 (no_index (Proc.devRef .tc main_arg27)) = V0 (Proc.devRef .tc main_arg27) :=
  (val5_keep V0 main_arg27 (by decide)).trans (val4_main_arg27 V0)
theorem val5_main_arg28 (V0 : Valuation τ sig (Elt F)) : val5 V0 (no_index (Proc.devRef .tc main_arg28)) = V0 (Proc.devRef .tc main_arg28) :=
  (val5_keep V0 main_arg28 (by decide)).trans (val4_main_arg28 V0)
theorem val5_main_arg29 (V0 : Valuation τ sig (Elt F)) : val5 V0 (no_index (Proc.devRef .tc main_arg29)) = V0 (Proc.devRef .tc main_arg29) :=
  (val5_keep V0 main_arg29 (by decide)).trans (val4_main_arg29 V0)
theorem val5_main_arg30 (V0 : Valuation τ sig (Elt F)) : val5 V0 (no_index (Proc.devRef .tc main_arg30)) = V0 (Proc.devRef .tc main_arg30) :=
  (val5_keep V0 main_arg30 (by decide)).trans (val4_main_arg30 V0)
theorem val5_main_arg31 (V0 : Valuation τ sig (Elt F)) : val5 V0 (no_index (Proc.devRef .tc main_arg31)) = V0 (Proc.devRef .tc main_arg31) :=
  (val5_keep V0 main_arg31 (by decide)).trans (val4_main_arg31 V0)
theorem val5_main_arg32 (V0 : Valuation τ sig (Elt F)) : val5 V0 (no_index (Proc.devRef .tc main_arg32)) = V0 (Proc.devRef .tc main_arg32) :=
  (val5_keep V0 main_arg32 (by decide)).trans (val4_main_arg32 V0)
theorem val5_main_v1 (V0 : Valuation τ sig (Elt F)) : val5 V0 (no_index (Proc.devRef .tc main_v1)) = val_main_v1 (F := F) (V0 (Proc.devRef .tc main_arg2)) :=
  (val5_keep V0 main_v1 (by decide)).trans (val4_main_v1 V0)
theorem val5_main_v104 (V0 : Valuation τ sig (Elt F)) : val5 V0 (no_index (Proc.devRef .tc main_v104)) = val_main_v104 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) (V0 (Proc.devRef .tc main_arg24)) (V0 (Proc.devRef .tc main_arg25)) (V0 (Proc.devRef .tc main_arg26)) :=
  (val5_keep V0 main_v104 (by decide)).trans (val4_main_v104 V0)
theorem val5_main_v111 (V0 : Valuation τ sig (Elt F)) : val5 V0 (no_index (Proc.devRef .tc main_v111)) = val_main_v111 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) (V0 (Proc.devRef .tc main_arg24)) (V0 (Proc.devRef .tc main_arg25)) (V0 (Proc.devRef .tc main_arg26)) :=
  (val5_keep V0 main_v111 (by decide)).trans (val4_main_v111 V0)
set_option maxRecDepth 8192 in
set_option maxHeartbeats 2000000 in
theorem val5_main_v118 (V0 : Valuation τ sig (Elt F)) : val5 V0 (no_index (Proc.devRef .tc main_v118)) = val_main_v118 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) (V0 (Proc.devRef .tc main_arg24)) (V0 (Proc.devRef .tc main_arg25)) (V0 (Proc.devRef .tc main_arg26)) := by
  unfold val5
  simp only [opsE]
  after_results_simp
  try dsimp only [Matrix.cons_val]
  try after_results_simp
  try simp only [StableHlo.TRef.ofBuf, StableHlo.TRef.toBuf, cast_eq]
  try simp only [val4_main_c_5, val4_main_v104, val4_main_v3]
  try rw [val4_main_c_5]
  try rw [val4_main_v104]
  try rw [val4_main_v3]
  rfl
theorem val5_main_v3 (V0 : Valuation τ sig (Elt F)) : val5 V0 (no_index (Proc.devRef .tc main_v3)) = val_main_v3 (F := F) (V0 (Proc.devRef .tc main_arg2)) :=
  (val5_keep V0 main_v3 (by decide)).trans (val4_main_v3 V0)
theorem val5_main_v73 (V0 : Valuation τ sig (Elt F)) : val5 V0 (no_index (Proc.devRef .tc main_v73)) = val_main_v73 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) :=
  (val5_keep V0 main_v73 (by decide)).trans (val4_main_v73 V0)

/-! ## After chunk F -/

theorem val6_main_arg0 (V0 : Valuation τ sig (Elt F)) : val6 V0 (no_index (Proc.devRef .tc main_arg0)) = V0 (Proc.devRef .tc main_arg0) :=
  (val6_keep V0 main_arg0 (by decide)).trans (val5_main_arg0 V0)
theorem val6_main_arg1 (V0 : Valuation τ sig (Elt F)) : val6 V0 (no_index (Proc.devRef .tc main_arg1)) = V0 (Proc.devRef .tc main_arg1) :=
  (val6_keep V0 main_arg1 (by decide)).trans (val5_main_arg1 V0)
theorem val6_main_arg2 (V0 : Valuation τ sig (Elt F)) : val6 V0 (no_index (Proc.devRef .tc main_arg2)) = V0 (Proc.devRef .tc main_arg2) :=
  (val6_keep V0 main_arg2 (by decide)).trans (val5_main_arg2 V0)
theorem val6_main_arg3 (V0 : Valuation τ sig (Elt F)) : val6 V0 (no_index (Proc.devRef .tc main_arg3)) = V0 (Proc.devRef .tc main_arg3) :=
  (val6_keep V0 main_arg3 (by decide)).trans (val5_main_arg3 V0)
theorem val6_main_arg4 (V0 : Valuation τ sig (Elt F)) : val6 V0 (no_index (Proc.devRef .tc main_arg4)) = V0 (Proc.devRef .tc main_arg4) :=
  (val6_keep V0 main_arg4 (by decide)).trans (val5_main_arg4 V0)
theorem val6_main_arg5 (V0 : Valuation τ sig (Elt F)) : val6 V0 (no_index (Proc.devRef .tc main_arg5)) = V0 (Proc.devRef .tc main_arg5) :=
  (val6_keep V0 main_arg5 (by decide)).trans (val5_main_arg5 V0)
theorem val6_main_arg6 (V0 : Valuation τ sig (Elt F)) : val6 V0 (no_index (Proc.devRef .tc main_arg6)) = V0 (Proc.devRef .tc main_arg6) :=
  (val6_keep V0 main_arg6 (by decide)).trans (val5_main_arg6 V0)
theorem val6_main_arg7 (V0 : Valuation τ sig (Elt F)) : val6 V0 (no_index (Proc.devRef .tc main_arg7)) = V0 (Proc.devRef .tc main_arg7) :=
  (val6_keep V0 main_arg7 (by decide)).trans (val5_main_arg7 V0)
theorem val6_main_arg8 (V0 : Valuation τ sig (Elt F)) : val6 V0 (no_index (Proc.devRef .tc main_arg8)) = V0 (Proc.devRef .tc main_arg8) :=
  (val6_keep V0 main_arg8 (by decide)).trans (val5_main_arg8 V0)
theorem val6_main_arg9 (V0 : Valuation τ sig (Elt F)) : val6 V0 (no_index (Proc.devRef .tc main_arg9)) = V0 (Proc.devRef .tc main_arg9) :=
  (val6_keep V0 main_arg9 (by decide)).trans (val5_main_arg9 V0)
theorem val6_main_arg10 (V0 : Valuation τ sig (Elt F)) : val6 V0 (no_index (Proc.devRef .tc main_arg10)) = V0 (Proc.devRef .tc main_arg10) :=
  (val6_keep V0 main_arg10 (by decide)).trans (val5_main_arg10 V0)
theorem val6_main_arg11 (V0 : Valuation τ sig (Elt F)) : val6 V0 (no_index (Proc.devRef .tc main_arg11)) = V0 (Proc.devRef .tc main_arg11) :=
  (val6_keep V0 main_arg11 (by decide)).trans (val5_main_arg11 V0)
theorem val6_main_arg12 (V0 : Valuation τ sig (Elt F)) : val6 V0 (no_index (Proc.devRef .tc main_arg12)) = V0 (Proc.devRef .tc main_arg12) :=
  (val6_keep V0 main_arg12 (by decide)).trans (val5_main_arg12 V0)
theorem val6_main_arg13 (V0 : Valuation τ sig (Elt F)) : val6 V0 (no_index (Proc.devRef .tc main_arg13)) = V0 (Proc.devRef .tc main_arg13) :=
  (val6_keep V0 main_arg13 (by decide)).trans (val5_main_arg13 V0)
theorem val6_main_arg14 (V0 : Valuation τ sig (Elt F)) : val6 V0 (no_index (Proc.devRef .tc main_arg14)) = V0 (Proc.devRef .tc main_arg14) :=
  (val6_keep V0 main_arg14 (by decide)).trans (val5_main_arg14 V0)
theorem val6_main_arg15 (V0 : Valuation τ sig (Elt F)) : val6 V0 (no_index (Proc.devRef .tc main_arg15)) = V0 (Proc.devRef .tc main_arg15) :=
  (val6_keep V0 main_arg15 (by decide)).trans (val5_main_arg15 V0)
theorem val6_main_arg16 (V0 : Valuation τ sig (Elt F)) : val6 V0 (no_index (Proc.devRef .tc main_arg16)) = V0 (Proc.devRef .tc main_arg16) :=
  (val6_keep V0 main_arg16 (by decide)).trans (val5_main_arg16 V0)
theorem val6_main_arg17 (V0 : Valuation τ sig (Elt F)) : val6 V0 (no_index (Proc.devRef .tc main_arg17)) = V0 (Proc.devRef .tc main_arg17) :=
  (val6_keep V0 main_arg17 (by decide)).trans (val5_main_arg17 V0)
theorem val6_main_arg18 (V0 : Valuation τ sig (Elt F)) : val6 V0 (no_index (Proc.devRef .tc main_arg18)) = V0 (Proc.devRef .tc main_arg18) :=
  (val6_keep V0 main_arg18 (by decide)).trans (val5_main_arg18 V0)
theorem val6_main_arg19 (V0 : Valuation τ sig (Elt F)) : val6 V0 (no_index (Proc.devRef .tc main_arg19)) = V0 (Proc.devRef .tc main_arg19) :=
  (val6_keep V0 main_arg19 (by decide)).trans (val5_main_arg19 V0)
theorem val6_main_arg20 (V0 : Valuation τ sig (Elt F)) : val6 V0 (no_index (Proc.devRef .tc main_arg20)) = V0 (Proc.devRef .tc main_arg20) :=
  (val6_keep V0 main_arg20 (by decide)).trans (val5_main_arg20 V0)
theorem val6_main_arg21 (V0 : Valuation τ sig (Elt F)) : val6 V0 (no_index (Proc.devRef .tc main_arg21)) = V0 (Proc.devRef .tc main_arg21) :=
  (val6_keep V0 main_arg21 (by decide)).trans (val5_main_arg21 V0)
theorem val6_main_arg22 (V0 : Valuation τ sig (Elt F)) : val6 V0 (no_index (Proc.devRef .tc main_arg22)) = V0 (Proc.devRef .tc main_arg22) :=
  (val6_keep V0 main_arg22 (by decide)).trans (val5_main_arg22 V0)
theorem val6_main_arg23 (V0 : Valuation τ sig (Elt F)) : val6 V0 (no_index (Proc.devRef .tc main_arg23)) = V0 (Proc.devRef .tc main_arg23) :=
  (val6_keep V0 main_arg23 (by decide)).trans (val5_main_arg23 V0)
theorem val6_main_arg24 (V0 : Valuation τ sig (Elt F)) : val6 V0 (no_index (Proc.devRef .tc main_arg24)) = V0 (Proc.devRef .tc main_arg24) :=
  (val6_keep V0 main_arg24 (by decide)).trans (val5_main_arg24 V0)
theorem val6_main_arg25 (V0 : Valuation τ sig (Elt F)) : val6 V0 (no_index (Proc.devRef .tc main_arg25)) = V0 (Proc.devRef .tc main_arg25) :=
  (val6_keep V0 main_arg25 (by decide)).trans (val5_main_arg25 V0)
theorem val6_main_arg26 (V0 : Valuation τ sig (Elt F)) : val6 V0 (no_index (Proc.devRef .tc main_arg26)) = V0 (Proc.devRef .tc main_arg26) :=
  (val6_keep V0 main_arg26 (by decide)).trans (val5_main_arg26 V0)
theorem val6_main_arg27 (V0 : Valuation τ sig (Elt F)) : val6 V0 (no_index (Proc.devRef .tc main_arg27)) = V0 (Proc.devRef .tc main_arg27) :=
  (val6_keep V0 main_arg27 (by decide)).trans (val5_main_arg27 V0)
theorem val6_main_arg28 (V0 : Valuation τ sig (Elt F)) : val6 V0 (no_index (Proc.devRef .tc main_arg28)) = V0 (Proc.devRef .tc main_arg28) :=
  (val6_keep V0 main_arg28 (by decide)).trans (val5_main_arg28 V0)
theorem val6_main_arg29 (V0 : Valuation τ sig (Elt F)) : val6 V0 (no_index (Proc.devRef .tc main_arg29)) = V0 (Proc.devRef .tc main_arg29) :=
  (val6_keep V0 main_arg29 (by decide)).trans (val5_main_arg29 V0)
theorem val6_main_arg30 (V0 : Valuation τ sig (Elt F)) : val6 V0 (no_index (Proc.devRef .tc main_arg30)) = V0 (Proc.devRef .tc main_arg30) :=
  (val6_keep V0 main_arg30 (by decide)).trans (val5_main_arg30 V0)
theorem val6_main_arg31 (V0 : Valuation τ sig (Elt F)) : val6 V0 (no_index (Proc.devRef .tc main_arg31)) = V0 (Proc.devRef .tc main_arg31) :=
  (val6_keep V0 main_arg31 (by decide)).trans (val5_main_arg31 V0)
theorem val6_main_arg32 (V0 : Valuation τ sig (Elt F)) : val6 V0 (no_index (Proc.devRef .tc main_arg32)) = V0 (Proc.devRef .tc main_arg32) :=
  (val6_keep V0 main_arg32 (by decide)).trans (val5_main_arg32 V0)
theorem val6_main_v1 (V0 : Valuation τ sig (Elt F)) : val6 V0 (no_index (Proc.devRef .tc main_v1)) = val_main_v1 (F := F) (V0 (Proc.devRef .tc main_arg2)) :=
  (val6_keep V0 main_v1 (by decide)).trans (val5_main_v1 V0)
theorem val6_main_v104 (V0 : Valuation τ sig (Elt F)) : val6 V0 (no_index (Proc.devRef .tc main_v104)) = val_main_v104 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) (V0 (Proc.devRef .tc main_arg24)) (V0 (Proc.devRef .tc main_arg25)) (V0 (Proc.devRef .tc main_arg26)) :=
  (val6_keep V0 main_v104 (by decide)).trans (val5_main_v104 V0)
set_option maxRecDepth 8192 in
set_option maxHeartbeats 2000000 in
theorem val6_main_v146 (V0 : Valuation τ sig (Elt F)) : val6 V0 (no_index (Proc.devRef .tc main_v146)) = val_main_v146 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) (V0 (Proc.devRef .tc main_arg24)) (V0 (Proc.devRef .tc main_arg25)) (V0 (Proc.devRef .tc main_arg26)) := by
  unfold val6
  simp only [opsF]
  after_results_simp
  try dsimp only [Matrix.cons_val]
  try after_results_simp
  try simp only [StableHlo.TRef.ofBuf, StableHlo.TRef.toBuf, cast_eq]
  try simp only [val5_main_arg15, val5_main_arg16, val5_main_arg17, val5_main_arg18, val5_main_arg19, val5_main_arg20, val5_main_v111, val5_main_v118, val5_main_v3, val5_main_v73]
  try rw [val5_main_arg15]
  try rw [val5_main_arg16]
  try rw [val5_main_arg17]
  try rw [val5_main_arg18]
  try rw [val5_main_arg19]
  try rw [val5_main_arg20]
  try rw [val5_main_v111]
  try rw [val5_main_v118]
  try rw [val5_main_v3]
  try rw [val5_main_v73]
  rfl
set_option maxRecDepth 8192 in
set_option maxHeartbeats 2000000 in
theorem val6_main_v149 (V0 : Valuation τ sig (Elt F)) : val6 V0 (no_index (Proc.devRef .tc main_v149)) = val_main_v149 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) (V0 (Proc.devRef .tc main_arg24)) (V0 (Proc.devRef .tc main_arg25)) (V0 (Proc.devRef .tc main_arg26)) := by
  unfold val6
  simp only [opsF]
  after_results_simp
  try dsimp only [Matrix.cons_val]
  try after_results_simp
  try simp only [StableHlo.TRef.ofBuf, StableHlo.TRef.toBuf, cast_eq]
  try simp only [val5_main_arg15, val5_main_arg16, val5_main_arg17, val5_main_arg18, val5_main_arg19, val5_main_arg20, val5_main_v111, val5_main_v118, val5_main_v3, val5_main_v73]
  try rw [val5_main_arg15]
  try rw [val5_main_arg16]
  try rw [val5_main_arg17]
  try rw [val5_main_arg18]
  try rw [val5_main_arg19]
  try rw [val5_main_arg20]
  try rw [val5_main_v111]
  try rw [val5_main_v118]
  try rw [val5_main_v3]
  try rw [val5_main_v73]
  rfl
theorem val6_main_v3 (V0 : Valuation τ sig (Elt F)) : val6 V0 (no_index (Proc.devRef .tc main_v3)) = val_main_v3 (F := F) (V0 (Proc.devRef .tc main_arg2)) :=
  (val6_keep V0 main_v3 (by decide)).trans (val5_main_v3 V0)

/-! ## After chunk G -/

theorem val7_main_arg0 (V0 : Valuation τ sig (Elt F)) : val7 V0 (no_index (Proc.devRef .tc main_arg0)) = V0 (Proc.devRef .tc main_arg0) :=
  (val7_keep V0 main_arg0 (by decide)).trans (val6_main_arg0 V0)
theorem val7_main_arg1 (V0 : Valuation τ sig (Elt F)) : val7 V0 (no_index (Proc.devRef .tc main_arg1)) = V0 (Proc.devRef .tc main_arg1) :=
  (val7_keep V0 main_arg1 (by decide)).trans (val6_main_arg1 V0)
theorem val7_main_arg2 (V0 : Valuation τ sig (Elt F)) : val7 V0 (no_index (Proc.devRef .tc main_arg2)) = V0 (Proc.devRef .tc main_arg2) :=
  (val7_keep V0 main_arg2 (by decide)).trans (val6_main_arg2 V0)
theorem val7_main_arg3 (V0 : Valuation τ sig (Elt F)) : val7 V0 (no_index (Proc.devRef .tc main_arg3)) = V0 (Proc.devRef .tc main_arg3) :=
  (val7_keep V0 main_arg3 (by decide)).trans (val6_main_arg3 V0)
theorem val7_main_arg4 (V0 : Valuation τ sig (Elt F)) : val7 V0 (no_index (Proc.devRef .tc main_arg4)) = V0 (Proc.devRef .tc main_arg4) :=
  (val7_keep V0 main_arg4 (by decide)).trans (val6_main_arg4 V0)
theorem val7_main_arg5 (V0 : Valuation τ sig (Elt F)) : val7 V0 (no_index (Proc.devRef .tc main_arg5)) = V0 (Proc.devRef .tc main_arg5) :=
  (val7_keep V0 main_arg5 (by decide)).trans (val6_main_arg5 V0)
theorem val7_main_arg6 (V0 : Valuation τ sig (Elt F)) : val7 V0 (no_index (Proc.devRef .tc main_arg6)) = V0 (Proc.devRef .tc main_arg6) :=
  (val7_keep V0 main_arg6 (by decide)).trans (val6_main_arg6 V0)
theorem val7_main_arg7 (V0 : Valuation τ sig (Elt F)) : val7 V0 (no_index (Proc.devRef .tc main_arg7)) = V0 (Proc.devRef .tc main_arg7) :=
  (val7_keep V0 main_arg7 (by decide)).trans (val6_main_arg7 V0)
theorem val7_main_arg8 (V0 : Valuation τ sig (Elt F)) : val7 V0 (no_index (Proc.devRef .tc main_arg8)) = V0 (Proc.devRef .tc main_arg8) :=
  (val7_keep V0 main_arg8 (by decide)).trans (val6_main_arg8 V0)
theorem val7_main_arg9 (V0 : Valuation τ sig (Elt F)) : val7 V0 (no_index (Proc.devRef .tc main_arg9)) = V0 (Proc.devRef .tc main_arg9) :=
  (val7_keep V0 main_arg9 (by decide)).trans (val6_main_arg9 V0)
theorem val7_main_arg10 (V0 : Valuation τ sig (Elt F)) : val7 V0 (no_index (Proc.devRef .tc main_arg10)) = V0 (Proc.devRef .tc main_arg10) :=
  (val7_keep V0 main_arg10 (by decide)).trans (val6_main_arg10 V0)
theorem val7_main_arg11 (V0 : Valuation τ sig (Elt F)) : val7 V0 (no_index (Proc.devRef .tc main_arg11)) = V0 (Proc.devRef .tc main_arg11) :=
  (val7_keep V0 main_arg11 (by decide)).trans (val6_main_arg11 V0)
theorem val7_main_arg12 (V0 : Valuation τ sig (Elt F)) : val7 V0 (no_index (Proc.devRef .tc main_arg12)) = V0 (Proc.devRef .tc main_arg12) :=
  (val7_keep V0 main_arg12 (by decide)).trans (val6_main_arg12 V0)
theorem val7_main_arg13 (V0 : Valuation τ sig (Elt F)) : val7 V0 (no_index (Proc.devRef .tc main_arg13)) = V0 (Proc.devRef .tc main_arg13) :=
  (val7_keep V0 main_arg13 (by decide)).trans (val6_main_arg13 V0)
theorem val7_main_arg14 (V0 : Valuation τ sig (Elt F)) : val7 V0 (no_index (Proc.devRef .tc main_arg14)) = V0 (Proc.devRef .tc main_arg14) :=
  (val7_keep V0 main_arg14 (by decide)).trans (val6_main_arg14 V0)
theorem val7_main_arg15 (V0 : Valuation τ sig (Elt F)) : val7 V0 (no_index (Proc.devRef .tc main_arg15)) = V0 (Proc.devRef .tc main_arg15) :=
  (val7_keep V0 main_arg15 (by decide)).trans (val6_main_arg15 V0)
theorem val7_main_arg16 (V0 : Valuation τ sig (Elt F)) : val7 V0 (no_index (Proc.devRef .tc main_arg16)) = V0 (Proc.devRef .tc main_arg16) :=
  (val7_keep V0 main_arg16 (by decide)).trans (val6_main_arg16 V0)
theorem val7_main_arg17 (V0 : Valuation τ sig (Elt F)) : val7 V0 (no_index (Proc.devRef .tc main_arg17)) = V0 (Proc.devRef .tc main_arg17) :=
  (val7_keep V0 main_arg17 (by decide)).trans (val6_main_arg17 V0)
theorem val7_main_arg18 (V0 : Valuation τ sig (Elt F)) : val7 V0 (no_index (Proc.devRef .tc main_arg18)) = V0 (Proc.devRef .tc main_arg18) :=
  (val7_keep V0 main_arg18 (by decide)).trans (val6_main_arg18 V0)
theorem val7_main_arg19 (V0 : Valuation τ sig (Elt F)) : val7 V0 (no_index (Proc.devRef .tc main_arg19)) = V0 (Proc.devRef .tc main_arg19) :=
  (val7_keep V0 main_arg19 (by decide)).trans (val6_main_arg19 V0)
theorem val7_main_arg20 (V0 : Valuation τ sig (Elt F)) : val7 V0 (no_index (Proc.devRef .tc main_arg20)) = V0 (Proc.devRef .tc main_arg20) :=
  (val7_keep V0 main_arg20 (by decide)).trans (val6_main_arg20 V0)
theorem val7_main_arg21 (V0 : Valuation τ sig (Elt F)) : val7 V0 (no_index (Proc.devRef .tc main_arg21)) = V0 (Proc.devRef .tc main_arg21) :=
  (val7_keep V0 main_arg21 (by decide)).trans (val6_main_arg21 V0)
theorem val7_main_arg22 (V0 : Valuation τ sig (Elt F)) : val7 V0 (no_index (Proc.devRef .tc main_arg22)) = V0 (Proc.devRef .tc main_arg22) :=
  (val7_keep V0 main_arg22 (by decide)).trans (val6_main_arg22 V0)
theorem val7_main_arg23 (V0 : Valuation τ sig (Elt F)) : val7 V0 (no_index (Proc.devRef .tc main_arg23)) = V0 (Proc.devRef .tc main_arg23) :=
  (val7_keep V0 main_arg23 (by decide)).trans (val6_main_arg23 V0)
theorem val7_main_arg24 (V0 : Valuation τ sig (Elt F)) : val7 V0 (no_index (Proc.devRef .tc main_arg24)) = V0 (Proc.devRef .tc main_arg24) :=
  (val7_keep V0 main_arg24 (by decide)).trans (val6_main_arg24 V0)
theorem val7_main_arg25 (V0 : Valuation τ sig (Elt F)) : val7 V0 (no_index (Proc.devRef .tc main_arg25)) = V0 (Proc.devRef .tc main_arg25) :=
  (val7_keep V0 main_arg25 (by decide)).trans (val6_main_arg25 V0)
theorem val7_main_arg26 (V0 : Valuation τ sig (Elt F)) : val7 V0 (no_index (Proc.devRef .tc main_arg26)) = V0 (Proc.devRef .tc main_arg26) :=
  (val7_keep V0 main_arg26 (by decide)).trans (val6_main_arg26 V0)
theorem val7_main_arg27 (V0 : Valuation τ sig (Elt F)) : val7 V0 (no_index (Proc.devRef .tc main_arg27)) = V0 (Proc.devRef .tc main_arg27) :=
  (val7_keep V0 main_arg27 (by decide)).trans (val6_main_arg27 V0)
theorem val7_main_arg28 (V0 : Valuation τ sig (Elt F)) : val7 V0 (no_index (Proc.devRef .tc main_arg28)) = V0 (Proc.devRef .tc main_arg28) :=
  (val7_keep V0 main_arg28 (by decide)).trans (val6_main_arg28 V0)
theorem val7_main_arg29 (V0 : Valuation τ sig (Elt F)) : val7 V0 (no_index (Proc.devRef .tc main_arg29)) = V0 (Proc.devRef .tc main_arg29) :=
  (val7_keep V0 main_arg29 (by decide)).trans (val6_main_arg29 V0)
theorem val7_main_arg30 (V0 : Valuation τ sig (Elt F)) : val7 V0 (no_index (Proc.devRef .tc main_arg30)) = V0 (Proc.devRef .tc main_arg30) :=
  (val7_keep V0 main_arg30 (by decide)).trans (val6_main_arg30 V0)
theorem val7_main_arg31 (V0 : Valuation τ sig (Elt F)) : val7 V0 (no_index (Proc.devRef .tc main_arg31)) = V0 (Proc.devRef .tc main_arg31) :=
  (val7_keep V0 main_arg31 (by decide)).trans (val6_main_arg31 V0)
theorem val7_main_arg32 (V0 : Valuation τ sig (Elt F)) : val7 V0 (no_index (Proc.devRef .tc main_arg32)) = V0 (Proc.devRef .tc main_arg32) :=
  (val7_keep V0 main_arg32 (by decide)).trans (val6_main_arg32 V0)
theorem val7_main_v1 (V0 : Valuation τ sig (Elt F)) : val7 V0 (no_index (Proc.devRef .tc main_v1)) = val_main_v1 (F := F) (V0 (Proc.devRef .tc main_arg2)) :=
  (val7_keep V0 main_v1 (by decide)).trans (val6_main_v1 V0)
theorem val7_main_v104 (V0 : Valuation τ sig (Elt F)) : val7 V0 (no_index (Proc.devRef .tc main_v104)) = val_main_v104 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) (V0 (Proc.devRef .tc main_arg24)) (V0 (Proc.devRef .tc main_arg25)) (V0 (Proc.devRef .tc main_arg26)) :=
  (val7_keep V0 main_v104 (by decide)).trans (val6_main_v104 V0)
theorem val7_main_v146 (V0 : Valuation τ sig (Elt F)) : val7 V0 (no_index (Proc.devRef .tc main_v146)) = val_main_v146 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) (V0 (Proc.devRef .tc main_arg24)) (V0 (Proc.devRef .tc main_arg25)) (V0 (Proc.devRef .tc main_arg26)) :=
  (val7_keep V0 main_v146 (by decide)).trans (val6_main_v146 V0)
set_option maxRecDepth 8192 in
set_option maxHeartbeats 2000000 in
theorem val7_main_v160 (V0 : Valuation τ sig (Elt F)) : val7 V0 (no_index (Proc.devRef .tc main_v160)) = val_main_v160 (F := F) (V0 (Proc.devRef .tc main_arg25)) := by
  unfold val7
  simp only [opsG]
  after_results_simp
  try dsimp only [Matrix.cons_val]
  try after_results_simp
  try simp only [StableHlo.TRef.ofBuf, StableHlo.TRef.toBuf, cast_eq]
  try simp only [val6_main_arg21, val6_main_arg22, val6_main_arg23, val6_main_arg24, val6_main_arg25, val6_main_arg26, val6_main_v104, val6_main_v149]
  try rw [val6_main_arg21]
  try rw [val6_main_arg22]
  try rw [val6_main_arg23]
  try rw [val6_main_arg24]
  try rw [val6_main_arg25]
  try rw [val6_main_arg26]
  try rw [val6_main_v104]
  try rw [val6_main_v149]
  rfl
set_option maxRecDepth 8192 in
set_option maxHeartbeats 2000000 in
theorem val7_main_v162 (V0 : Valuation τ sig (Elt F)) : val7 V0 (no_index (Proc.devRef .tc main_v162)) = val_main_v162 (F := F) (V0 (Proc.devRef .tc main_arg26)) := by
  unfold val7
  simp only [opsG]
  after_results_simp
  try dsimp only [Matrix.cons_val]
  try after_results_simp
  try simp only [StableHlo.TRef.ofBuf, StableHlo.TRef.toBuf, cast_eq]
  try simp only [val6_main_arg21, val6_main_arg22, val6_main_arg23, val6_main_arg24, val6_main_arg25, val6_main_arg26, val6_main_v104, val6_main_v149]
  try rw [val6_main_arg21]
  try rw [val6_main_arg22]
  try rw [val6_main_arg23]
  try rw [val6_main_arg24]
  try rw [val6_main_arg25]
  try rw [val6_main_arg26]
  try rw [val6_main_v104]
  try rw [val6_main_v149]
  rfl
set_option maxRecDepth 8192 in
set_option maxHeartbeats 2000000 in
theorem val7_main_v168 (V0 : Valuation τ sig (Elt F)) : val7 V0 (no_index (Proc.devRef .tc main_v168)) = val_main_v168 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) (V0 (Proc.devRef .tc main_arg24)) (V0 (Proc.devRef .tc main_arg25)) (V0 (Proc.devRef .tc main_arg26)) := by
  unfold val7
  simp only [opsG]
  after_results_simp
  try dsimp only [Matrix.cons_val]
  try after_results_simp
  try simp only [StableHlo.TRef.ofBuf, StableHlo.TRef.toBuf, cast_eq]
  try simp only [val6_main_arg21, val6_main_arg22, val6_main_arg23, val6_main_arg24, val6_main_arg25, val6_main_arg26, val6_main_v104, val6_main_v149]
  try rw [val6_main_arg21]
  try rw [val6_main_arg22]
  try rw [val6_main_arg23]
  try rw [val6_main_arg24]
  try rw [val6_main_arg25]
  try rw [val6_main_arg26]
  try rw [val6_main_v104]
  try rw [val6_main_v149]
  rfl
set_option maxRecDepth 8192 in
set_option maxHeartbeats 2000000 in
theorem val7_main_v169 (V0 : Valuation τ sig (Elt F)) : val7 V0 (no_index (Proc.devRef .tc main_v169)) = val_main_v169 (F := F) (V0 (Proc.devRef .tc main_arg24)) := by
  unfold val7
  simp only [opsG]
  after_results_simp
  try dsimp only [Matrix.cons_val]
  try after_results_simp
  try simp only [StableHlo.TRef.ofBuf, StableHlo.TRef.toBuf, cast_eq]
  try simp only [val6_main_arg21, val6_main_arg22, val6_main_arg23, val6_main_arg24, val6_main_arg25, val6_main_arg26, val6_main_v104, val6_main_v149]
  try rw [val6_main_arg21]
  try rw [val6_main_arg22]
  try rw [val6_main_arg23]
  try rw [val6_main_arg24]
  try rw [val6_main_arg25]
  try rw [val6_main_arg26]
  try rw [val6_main_v104]
  try rw [val6_main_v149]
  rfl
theorem val7_main_v3 (V0 : Valuation τ sig (Elt F)) : val7 V0 (no_index (Proc.devRef .tc main_v3)) = val_main_v3 (F := F) (V0 (Proc.devRef .tc main_arg2)) :=
  (val7_keep V0 main_v3 (by decide)).trans (val6_main_v3 V0)

/-! ## After chunk H -/

theorem val8_main_arg0 (V0 : Valuation τ sig (Elt F)) : val8 V0 (no_index (Proc.devRef .tc main_arg0)) = V0 (Proc.devRef .tc main_arg0) :=
  (val8_keep V0 main_arg0 (by decide)).trans (val7_main_arg0 V0)
theorem val8_main_arg1 (V0 : Valuation τ sig (Elt F)) : val8 V0 (no_index (Proc.devRef .tc main_arg1)) = V0 (Proc.devRef .tc main_arg1) :=
  (val8_keep V0 main_arg1 (by decide)).trans (val7_main_arg1 V0)
theorem val8_main_arg2 (V0 : Valuation τ sig (Elt F)) : val8 V0 (no_index (Proc.devRef .tc main_arg2)) = V0 (Proc.devRef .tc main_arg2) :=
  (val8_keep V0 main_arg2 (by decide)).trans (val7_main_arg2 V0)
theorem val8_main_arg3 (V0 : Valuation τ sig (Elt F)) : val8 V0 (no_index (Proc.devRef .tc main_arg3)) = V0 (Proc.devRef .tc main_arg3) :=
  (val8_keep V0 main_arg3 (by decide)).trans (val7_main_arg3 V0)
theorem val8_main_arg4 (V0 : Valuation τ sig (Elt F)) : val8 V0 (no_index (Proc.devRef .tc main_arg4)) = V0 (Proc.devRef .tc main_arg4) :=
  (val8_keep V0 main_arg4 (by decide)).trans (val7_main_arg4 V0)
theorem val8_main_arg5 (V0 : Valuation τ sig (Elt F)) : val8 V0 (no_index (Proc.devRef .tc main_arg5)) = V0 (Proc.devRef .tc main_arg5) :=
  (val8_keep V0 main_arg5 (by decide)).trans (val7_main_arg5 V0)
theorem val8_main_arg6 (V0 : Valuation τ sig (Elt F)) : val8 V0 (no_index (Proc.devRef .tc main_arg6)) = V0 (Proc.devRef .tc main_arg6) :=
  (val8_keep V0 main_arg6 (by decide)).trans (val7_main_arg6 V0)
theorem val8_main_arg7 (V0 : Valuation τ sig (Elt F)) : val8 V0 (no_index (Proc.devRef .tc main_arg7)) = V0 (Proc.devRef .tc main_arg7) :=
  (val8_keep V0 main_arg7 (by decide)).trans (val7_main_arg7 V0)
theorem val8_main_arg8 (V0 : Valuation τ sig (Elt F)) : val8 V0 (no_index (Proc.devRef .tc main_arg8)) = V0 (Proc.devRef .tc main_arg8) :=
  (val8_keep V0 main_arg8 (by decide)).trans (val7_main_arg8 V0)
theorem val8_main_arg9 (V0 : Valuation τ sig (Elt F)) : val8 V0 (no_index (Proc.devRef .tc main_arg9)) = V0 (Proc.devRef .tc main_arg9) :=
  (val8_keep V0 main_arg9 (by decide)).trans (val7_main_arg9 V0)
theorem val8_main_arg10 (V0 : Valuation τ sig (Elt F)) : val8 V0 (no_index (Proc.devRef .tc main_arg10)) = V0 (Proc.devRef .tc main_arg10) :=
  (val8_keep V0 main_arg10 (by decide)).trans (val7_main_arg10 V0)
theorem val8_main_arg11 (V0 : Valuation τ sig (Elt F)) : val8 V0 (no_index (Proc.devRef .tc main_arg11)) = V0 (Proc.devRef .tc main_arg11) :=
  (val8_keep V0 main_arg11 (by decide)).trans (val7_main_arg11 V0)
theorem val8_main_arg12 (V0 : Valuation τ sig (Elt F)) : val8 V0 (no_index (Proc.devRef .tc main_arg12)) = V0 (Proc.devRef .tc main_arg12) :=
  (val8_keep V0 main_arg12 (by decide)).trans (val7_main_arg12 V0)
theorem val8_main_arg13 (V0 : Valuation τ sig (Elt F)) : val8 V0 (no_index (Proc.devRef .tc main_arg13)) = V0 (Proc.devRef .tc main_arg13) :=
  (val8_keep V0 main_arg13 (by decide)).trans (val7_main_arg13 V0)
theorem val8_main_arg14 (V0 : Valuation τ sig (Elt F)) : val8 V0 (no_index (Proc.devRef .tc main_arg14)) = V0 (Proc.devRef .tc main_arg14) :=
  (val8_keep V0 main_arg14 (by decide)).trans (val7_main_arg14 V0)
theorem val8_main_arg15 (V0 : Valuation τ sig (Elt F)) : val8 V0 (no_index (Proc.devRef .tc main_arg15)) = V0 (Proc.devRef .tc main_arg15) :=
  (val8_keep V0 main_arg15 (by decide)).trans (val7_main_arg15 V0)
theorem val8_main_arg16 (V0 : Valuation τ sig (Elt F)) : val8 V0 (no_index (Proc.devRef .tc main_arg16)) = V0 (Proc.devRef .tc main_arg16) :=
  (val8_keep V0 main_arg16 (by decide)).trans (val7_main_arg16 V0)
theorem val8_main_arg17 (V0 : Valuation τ sig (Elt F)) : val8 V0 (no_index (Proc.devRef .tc main_arg17)) = V0 (Proc.devRef .tc main_arg17) :=
  (val8_keep V0 main_arg17 (by decide)).trans (val7_main_arg17 V0)
theorem val8_main_arg18 (V0 : Valuation τ sig (Elt F)) : val8 V0 (no_index (Proc.devRef .tc main_arg18)) = V0 (Proc.devRef .tc main_arg18) :=
  (val8_keep V0 main_arg18 (by decide)).trans (val7_main_arg18 V0)
theorem val8_main_arg19 (V0 : Valuation τ sig (Elt F)) : val8 V0 (no_index (Proc.devRef .tc main_arg19)) = V0 (Proc.devRef .tc main_arg19) :=
  (val8_keep V0 main_arg19 (by decide)).trans (val7_main_arg19 V0)
theorem val8_main_arg20 (V0 : Valuation τ sig (Elt F)) : val8 V0 (no_index (Proc.devRef .tc main_arg20)) = V0 (Proc.devRef .tc main_arg20) :=
  (val8_keep V0 main_arg20 (by decide)).trans (val7_main_arg20 V0)
theorem val8_main_arg21 (V0 : Valuation τ sig (Elt F)) : val8 V0 (no_index (Proc.devRef .tc main_arg21)) = V0 (Proc.devRef .tc main_arg21) :=
  (val8_keep V0 main_arg21 (by decide)).trans (val7_main_arg21 V0)
theorem val8_main_arg22 (V0 : Valuation τ sig (Elt F)) : val8 V0 (no_index (Proc.devRef .tc main_arg22)) = V0 (Proc.devRef .tc main_arg22) :=
  (val8_keep V0 main_arg22 (by decide)).trans (val7_main_arg22 V0)
theorem val8_main_arg23 (V0 : Valuation τ sig (Elt F)) : val8 V0 (no_index (Proc.devRef .tc main_arg23)) = V0 (Proc.devRef .tc main_arg23) :=
  (val8_keep V0 main_arg23 (by decide)).trans (val7_main_arg23 V0)
theorem val8_main_arg24 (V0 : Valuation τ sig (Elt F)) : val8 V0 (no_index (Proc.devRef .tc main_arg24)) = V0 (Proc.devRef .tc main_arg24) :=
  (val8_keep V0 main_arg24 (by decide)).trans (val7_main_arg24 V0)
theorem val8_main_arg25 (V0 : Valuation τ sig (Elt F)) : val8 V0 (no_index (Proc.devRef .tc main_arg25)) = V0 (Proc.devRef .tc main_arg25) :=
  (val8_keep V0 main_arg25 (by decide)).trans (val7_main_arg25 V0)
theorem val8_main_arg26 (V0 : Valuation τ sig (Elt F)) : val8 V0 (no_index (Proc.devRef .tc main_arg26)) = V0 (Proc.devRef .tc main_arg26) :=
  (val8_keep V0 main_arg26 (by decide)).trans (val7_main_arg26 V0)
theorem val8_main_arg27 (V0 : Valuation τ sig (Elt F)) : val8 V0 (no_index (Proc.devRef .tc main_arg27)) = V0 (Proc.devRef .tc main_arg27) :=
  (val8_keep V0 main_arg27 (by decide)).trans (val7_main_arg27 V0)
theorem val8_main_arg28 (V0 : Valuation τ sig (Elt F)) : val8 V0 (no_index (Proc.devRef .tc main_arg28)) = V0 (Proc.devRef .tc main_arg28) :=
  (val8_keep V0 main_arg28 (by decide)).trans (val7_main_arg28 V0)
theorem val8_main_arg29 (V0 : Valuation τ sig (Elt F)) : val8 V0 (no_index (Proc.devRef .tc main_arg29)) = V0 (Proc.devRef .tc main_arg29) :=
  (val8_keep V0 main_arg29 (by decide)).trans (val7_main_arg29 V0)
theorem val8_main_arg30 (V0 : Valuation τ sig (Elt F)) : val8 V0 (no_index (Proc.devRef .tc main_arg30)) = V0 (Proc.devRef .tc main_arg30) :=
  (val8_keep V0 main_arg30 (by decide)).trans (val7_main_arg30 V0)
theorem val8_main_arg31 (V0 : Valuation τ sig (Elt F)) : val8 V0 (no_index (Proc.devRef .tc main_arg31)) = V0 (Proc.devRef .tc main_arg31) :=
  (val8_keep V0 main_arg31 (by decide)).trans (val7_main_arg31 V0)
theorem val8_main_arg32 (V0 : Valuation τ sig (Elt F)) : val8 V0 (no_index (Proc.devRef .tc main_arg32)) = V0 (Proc.devRef .tc main_arg32) :=
  (val8_keep V0 main_arg32 (by decide)).trans (val7_main_arg32 V0)
theorem val8_main_v146 (V0 : Valuation τ sig (Elt F)) : val8 V0 (no_index (Proc.devRef .tc main_v146)) = val_main_v146 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) (V0 (Proc.devRef .tc main_arg24)) (V0 (Proc.devRef .tc main_arg25)) (V0 (Proc.devRef .tc main_arg26)) :=
  (val8_keep V0 main_v146 (by decide)).trans (val7_main_v146 V0)
set_option maxRecDepth 8192 in
set_option maxHeartbeats 2000000 in
theorem val8_main_v177 (V0 : Valuation τ sig (Elt F)) : val8 V0 (no_index (Proc.devRef .tc main_v177)) = val_main_v177 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) (V0 (Proc.devRef .tc main_arg24)) (V0 (Proc.devRef .tc main_arg25)) (V0 (Proc.devRef .tc main_arg26)) := by
  unfold val8
  simp only [opsH]
  after_results_simp
  try dsimp only [Matrix.cons_val]
  try after_results_simp
  try simp only [StableHlo.TRef.ofBuf, StableHlo.TRef.toBuf, cast_eq]
  try simp only [val7_main_v1, val7_main_v104, val7_main_v160, val7_main_v162, val7_main_v168, val7_main_v169, val7_main_v3]
  try rw [val7_main_v1]
  try rw [val7_main_v104]
  try rw [val7_main_v160]
  try rw [val7_main_v162]
  try rw [val7_main_v168]
  try rw [val7_main_v169]
  try rw [val7_main_v3]
  rfl
set_option maxRecDepth 8192 in
set_option maxHeartbeats 2000000 in
theorem val8_main_v184 (V0 : Valuation τ sig (Elt F)) : val8 V0 (no_index (Proc.devRef .tc main_v184)) = val_main_v184 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) (V0 (Proc.devRef .tc main_arg24)) (V0 (Proc.devRef .tc main_arg25)) (V0 (Proc.devRef .tc main_arg26)) := by
  unfold val8
  simp only [opsH]
  after_results_simp
  try dsimp only [Matrix.cons_val]
  try after_results_simp
  try simp only [StableHlo.TRef.ofBuf, StableHlo.TRef.toBuf, cast_eq]
  try simp only [val7_main_v1, val7_main_v104, val7_main_v160, val7_main_v162, val7_main_v168, val7_main_v169, val7_main_v3]
  try rw [val7_main_v1]
  try rw [val7_main_v104]
  try rw [val7_main_v160]
  try rw [val7_main_v162]
  try rw [val7_main_v168]
  try rw [val7_main_v169]
  try rw [val7_main_v3]
  rfl
set_option maxRecDepth 8192 in
set_option maxHeartbeats 2000000 in
theorem val8_main_v191 (V0 : Valuation τ sig (Elt F)) : val8 V0 (no_index (Proc.devRef .tc main_v191)) = val_main_v191 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) (V0 (Proc.devRef .tc main_arg24)) (V0 (Proc.devRef .tc main_arg25)) (V0 (Proc.devRef .tc main_arg26)) := by
  unfold val8
  simp only [opsH]
  after_results_simp
  try dsimp only [Matrix.cons_val]
  try after_results_simp
  try simp only [StableHlo.TRef.ofBuf, StableHlo.TRef.toBuf, cast_eq]
  try simp only [val7_main_v1, val7_main_v104, val7_main_v160, val7_main_v162, val7_main_v168, val7_main_v169, val7_main_v3]
  try rw [val7_main_v1]
  try rw [val7_main_v104]
  try rw [val7_main_v160]
  try rw [val7_main_v162]
  try rw [val7_main_v168]
  try rw [val7_main_v169]
  try rw [val7_main_v3]
  rfl
theorem val8_main_v3 (V0 : Valuation τ sig (Elt F)) : val8 V0 (no_index (Proc.devRef .tc main_v3)) = val_main_v3 (F := F) (V0 (Proc.devRef .tc main_arg2)) :=
  (val8_keep V0 main_v3 (by decide)).trans (val7_main_v3 V0)

end Cert.ReferenceIdeal.RunC

end
-- ==== Proof.RunV3.lean ====
/- After each chunk of the reference program's operations, every buffer that a later chunk reads holds its stage function of the
   launch arrays: a buffer the chunk writes, by running the chunk's operations on the contents before it (the buffers it reads
   from earlier chunks being at their stage functions already); a buffer it does not write, because it keeps its contents. So
   every weakly fair execution ends with the result buffer at the last stage function of the launch arrays and the arguments
   as launched. -/
import proofs.«425516_j47425028883052_2_alg».proof.Proof.RunV2

noncomputable section

namespace Cert.ReferenceIdeal.RunC

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-! ## After chunk I -/

theorem val9_main_arg0 (V0 : Valuation τ sig (Elt F)) : val9 V0 (no_index (Proc.devRef .tc main_arg0)) = V0 (Proc.devRef .tc main_arg0) :=
  (val9_keep V0 main_arg0 (by decide)).trans (val8_main_arg0 V0)
theorem val9_main_arg1 (V0 : Valuation τ sig (Elt F)) : val9 V0 (no_index (Proc.devRef .tc main_arg1)) = V0 (Proc.devRef .tc main_arg1) :=
  (val9_keep V0 main_arg1 (by decide)).trans (val8_main_arg1 V0)
theorem val9_main_arg2 (V0 : Valuation τ sig (Elt F)) : val9 V0 (no_index (Proc.devRef .tc main_arg2)) = V0 (Proc.devRef .tc main_arg2) :=
  (val9_keep V0 main_arg2 (by decide)).trans (val8_main_arg2 V0)
theorem val9_main_arg3 (V0 : Valuation τ sig (Elt F)) : val9 V0 (no_index (Proc.devRef .tc main_arg3)) = V0 (Proc.devRef .tc main_arg3) :=
  (val9_keep V0 main_arg3 (by decide)).trans (val8_main_arg3 V0)
theorem val9_main_arg4 (V0 : Valuation τ sig (Elt F)) : val9 V0 (no_index (Proc.devRef .tc main_arg4)) = V0 (Proc.devRef .tc main_arg4) :=
  (val9_keep V0 main_arg4 (by decide)).trans (val8_main_arg4 V0)
theorem val9_main_arg5 (V0 : Valuation τ sig (Elt F)) : val9 V0 (no_index (Proc.devRef .tc main_arg5)) = V0 (Proc.devRef .tc main_arg5) :=
  (val9_keep V0 main_arg5 (by decide)).trans (val8_main_arg5 V0)
theorem val9_main_arg6 (V0 : Valuation τ sig (Elt F)) : val9 V0 (no_index (Proc.devRef .tc main_arg6)) = V0 (Proc.devRef .tc main_arg6) :=
  (val9_keep V0 main_arg6 (by decide)).trans (val8_main_arg6 V0)
theorem val9_main_arg7 (V0 : Valuation τ sig (Elt F)) : val9 V0 (no_index (Proc.devRef .tc main_arg7)) = V0 (Proc.devRef .tc main_arg7) :=
  (val9_keep V0 main_arg7 (by decide)).trans (val8_main_arg7 V0)
theorem val9_main_arg8 (V0 : Valuation τ sig (Elt F)) : val9 V0 (no_index (Proc.devRef .tc main_arg8)) = V0 (Proc.devRef .tc main_arg8) :=
  (val9_keep V0 main_arg8 (by decide)).trans (val8_main_arg8 V0)
theorem val9_main_arg9 (V0 : Valuation τ sig (Elt F)) : val9 V0 (no_index (Proc.devRef .tc main_arg9)) = V0 (Proc.devRef .tc main_arg9) :=
  (val9_keep V0 main_arg9 (by decide)).trans (val8_main_arg9 V0)
theorem val9_main_arg10 (V0 : Valuation τ sig (Elt F)) : val9 V0 (no_index (Proc.devRef .tc main_arg10)) = V0 (Proc.devRef .tc main_arg10) :=
  (val9_keep V0 main_arg10 (by decide)).trans (val8_main_arg10 V0)
theorem val9_main_arg11 (V0 : Valuation τ sig (Elt F)) : val9 V0 (no_index (Proc.devRef .tc main_arg11)) = V0 (Proc.devRef .tc main_arg11) :=
  (val9_keep V0 main_arg11 (by decide)).trans (val8_main_arg11 V0)
theorem val9_main_arg12 (V0 : Valuation τ sig (Elt F)) : val9 V0 (no_index (Proc.devRef .tc main_arg12)) = V0 (Proc.devRef .tc main_arg12) :=
  (val9_keep V0 main_arg12 (by decide)).trans (val8_main_arg12 V0)
theorem val9_main_arg13 (V0 : Valuation τ sig (Elt F)) : val9 V0 (no_index (Proc.devRef .tc main_arg13)) = V0 (Proc.devRef .tc main_arg13) :=
  (val9_keep V0 main_arg13 (by decide)).trans (val8_main_arg13 V0)
theorem val9_main_arg14 (V0 : Valuation τ sig (Elt F)) : val9 V0 (no_index (Proc.devRef .tc main_arg14)) = V0 (Proc.devRef .tc main_arg14) :=
  (val9_keep V0 main_arg14 (by decide)).trans (val8_main_arg14 V0)
theorem val9_main_arg15 (V0 : Valuation τ sig (Elt F)) : val9 V0 (no_index (Proc.devRef .tc main_arg15)) = V0 (Proc.devRef .tc main_arg15) :=
  (val9_keep V0 main_arg15 (by decide)).trans (val8_main_arg15 V0)
theorem val9_main_arg16 (V0 : Valuation τ sig (Elt F)) : val9 V0 (no_index (Proc.devRef .tc main_arg16)) = V0 (Proc.devRef .tc main_arg16) :=
  (val9_keep V0 main_arg16 (by decide)).trans (val8_main_arg16 V0)
theorem val9_main_arg17 (V0 : Valuation τ sig (Elt F)) : val9 V0 (no_index (Proc.devRef .tc main_arg17)) = V0 (Proc.devRef .tc main_arg17) :=
  (val9_keep V0 main_arg17 (by decide)).trans (val8_main_arg17 V0)
theorem val9_main_arg18 (V0 : Valuation τ sig (Elt F)) : val9 V0 (no_index (Proc.devRef .tc main_arg18)) = V0 (Proc.devRef .tc main_arg18) :=
  (val9_keep V0 main_arg18 (by decide)).trans (val8_main_arg18 V0)
theorem val9_main_arg19 (V0 : Valuation τ sig (Elt F)) : val9 V0 (no_index (Proc.devRef .tc main_arg19)) = V0 (Proc.devRef .tc main_arg19) :=
  (val9_keep V0 main_arg19 (by decide)).trans (val8_main_arg19 V0)
theorem val9_main_arg20 (V0 : Valuation τ sig (Elt F)) : val9 V0 (no_index (Proc.devRef .tc main_arg20)) = V0 (Proc.devRef .tc main_arg20) :=
  (val9_keep V0 main_arg20 (by decide)).trans (val8_main_arg20 V0)
theorem val9_main_arg21 (V0 : Valuation τ sig (Elt F)) : val9 V0 (no_index (Proc.devRef .tc main_arg21)) = V0 (Proc.devRef .tc main_arg21) :=
  (val9_keep V0 main_arg21 (by decide)).trans (val8_main_arg21 V0)
theorem val9_main_arg22 (V0 : Valuation τ sig (Elt F)) : val9 V0 (no_index (Proc.devRef .tc main_arg22)) = V0 (Proc.devRef .tc main_arg22) :=
  (val9_keep V0 main_arg22 (by decide)).trans (val8_main_arg22 V0)
theorem val9_main_arg23 (V0 : Valuation τ sig (Elt F)) : val9 V0 (no_index (Proc.devRef .tc main_arg23)) = V0 (Proc.devRef .tc main_arg23) :=
  (val9_keep V0 main_arg23 (by decide)).trans (val8_main_arg23 V0)
theorem val9_main_arg24 (V0 : Valuation τ sig (Elt F)) : val9 V0 (no_index (Proc.devRef .tc main_arg24)) = V0 (Proc.devRef .tc main_arg24) :=
  (val9_keep V0 main_arg24 (by decide)).trans (val8_main_arg24 V0)
theorem val9_main_arg25 (V0 : Valuation τ sig (Elt F)) : val9 V0 (no_index (Proc.devRef .tc main_arg25)) = V0 (Proc.devRef .tc main_arg25) :=
  (val9_keep V0 main_arg25 (by decide)).trans (val8_main_arg25 V0)
theorem val9_main_arg26 (V0 : Valuation τ sig (Elt F)) : val9 V0 (no_index (Proc.devRef .tc main_arg26)) = V0 (Proc.devRef .tc main_arg26) :=
  (val9_keep V0 main_arg26 (by decide)).trans (val8_main_arg26 V0)
theorem val9_main_arg27 (V0 : Valuation τ sig (Elt F)) : val9 V0 (no_index (Proc.devRef .tc main_arg27)) = V0 (Proc.devRef .tc main_arg27) :=
  (val9_keep V0 main_arg27 (by decide)).trans (val8_main_arg27 V0)
theorem val9_main_arg28 (V0 : Valuation τ sig (Elt F)) : val9 V0 (no_index (Proc.devRef .tc main_arg28)) = V0 (Proc.devRef .tc main_arg28) :=
  (val9_keep V0 main_arg28 (by decide)).trans (val8_main_arg28 V0)
theorem val9_main_arg29 (V0 : Valuation τ sig (Elt F)) : val9 V0 (no_index (Proc.devRef .tc main_arg29)) = V0 (Proc.devRef .tc main_arg29) :=
  (val9_keep V0 main_arg29 (by decide)).trans (val8_main_arg29 V0)
theorem val9_main_arg30 (V0 : Valuation τ sig (Elt F)) : val9 V0 (no_index (Proc.devRef .tc main_arg30)) = V0 (Proc.devRef .tc main_arg30) :=
  (val9_keep V0 main_arg30 (by decide)).trans (val8_main_arg30 V0)
theorem val9_main_arg31 (V0 : Valuation τ sig (Elt F)) : val9 V0 (no_index (Proc.devRef .tc main_arg31)) = V0 (Proc.devRef .tc main_arg31) :=
  (val9_keep V0 main_arg31 (by decide)).trans (val8_main_arg31 V0)
theorem val9_main_arg32 (V0 : Valuation τ sig (Elt F)) : val9 V0 (no_index (Proc.devRef .tc main_arg32)) = V0 (Proc.devRef .tc main_arg32) :=
  (val9_keep V0 main_arg32 (by decide)).trans (val8_main_arg32 V0)
theorem val9_main_v177 (V0 : Valuation τ sig (Elt F)) : val9 V0 (no_index (Proc.devRef .tc main_v177)) = val_main_v177 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) (V0 (Proc.devRef .tc main_arg24)) (V0 (Proc.devRef .tc main_arg25)) (V0 (Proc.devRef .tc main_arg26)) :=
  (val9_keep V0 main_v177 (by decide)).trans (val8_main_v177 V0)
set_option maxRecDepth 8192 in
set_option maxHeartbeats 2000000 in
theorem val9_main_v222 (V0 : Valuation τ sig (Elt F)) : val9 V0 (no_index (Proc.devRef .tc main_v222)) = val_main_v222 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) (V0 (Proc.devRef .tc main_arg24)) (V0 (Proc.devRef .tc main_arg25)) (V0 (Proc.devRef .tc main_arg26)) := by
  unfold val9
  simp only [opsI]
  after_results_simp
  try dsimp only [Matrix.cons_val]
  try after_results_simp
  try simp only [StableHlo.TRef.ofBuf, StableHlo.TRef.toBuf, cast_eq]
  try simp only [val8_main_arg15, val8_main_arg16, val8_main_arg17, val8_main_arg18, val8_main_arg19, val8_main_arg20, val8_main_v146, val8_main_v184, val8_main_v191, val8_main_v3]
  try rw [val8_main_arg15]
  try rw [val8_main_arg16]
  try rw [val8_main_arg17]
  try rw [val8_main_arg18]
  try rw [val8_main_arg19]
  try rw [val8_main_arg20]
  try rw [val8_main_v146]
  try rw [val8_main_v184]
  try rw [val8_main_v191]
  try rw [val8_main_v3]
  rfl

/-! ## After chunk J -/

theorem val10_main_arg0 (V0 : Valuation τ sig (Elt F)) : val10 V0 (no_index (Proc.devRef .tc main_arg0)) = V0 (Proc.devRef .tc main_arg0) :=
  (val10_keep V0 main_arg0 (by decide)).trans (val9_main_arg0 V0)
theorem val10_main_arg1 (V0 : Valuation τ sig (Elt F)) : val10 V0 (no_index (Proc.devRef .tc main_arg1)) = V0 (Proc.devRef .tc main_arg1) :=
  (val10_keep V0 main_arg1 (by decide)).trans (val9_main_arg1 V0)
theorem val10_main_arg2 (V0 : Valuation τ sig (Elt F)) : val10 V0 (no_index (Proc.devRef .tc main_arg2)) = V0 (Proc.devRef .tc main_arg2) :=
  (val10_keep V0 main_arg2 (by decide)).trans (val9_main_arg2 V0)
theorem val10_main_arg3 (V0 : Valuation τ sig (Elt F)) : val10 V0 (no_index (Proc.devRef .tc main_arg3)) = V0 (Proc.devRef .tc main_arg3) :=
  (val10_keep V0 main_arg3 (by decide)).trans (val9_main_arg3 V0)
theorem val10_main_arg4 (V0 : Valuation τ sig (Elt F)) : val10 V0 (no_index (Proc.devRef .tc main_arg4)) = V0 (Proc.devRef .tc main_arg4) :=
  (val10_keep V0 main_arg4 (by decide)).trans (val9_main_arg4 V0)
theorem val10_main_arg5 (V0 : Valuation τ sig (Elt F)) : val10 V0 (no_index (Proc.devRef .tc main_arg5)) = V0 (Proc.devRef .tc main_arg5) :=
  (val10_keep V0 main_arg5 (by decide)).trans (val9_main_arg5 V0)
theorem val10_main_arg6 (V0 : Valuation τ sig (Elt F)) : val10 V0 (no_index (Proc.devRef .tc main_arg6)) = V0 (Proc.devRef .tc main_arg6) :=
  (val10_keep V0 main_arg6 (by decide)).trans (val9_main_arg6 V0)
theorem val10_main_arg7 (V0 : Valuation τ sig (Elt F)) : val10 V0 (no_index (Proc.devRef .tc main_arg7)) = V0 (Proc.devRef .tc main_arg7) :=
  (val10_keep V0 main_arg7 (by decide)).trans (val9_main_arg7 V0)
theorem val10_main_arg8 (V0 : Valuation τ sig (Elt F)) : val10 V0 (no_index (Proc.devRef .tc main_arg8)) = V0 (Proc.devRef .tc main_arg8) :=
  (val10_keep V0 main_arg8 (by decide)).trans (val9_main_arg8 V0)
theorem val10_main_arg9 (V0 : Valuation τ sig (Elt F)) : val10 V0 (no_index (Proc.devRef .tc main_arg9)) = V0 (Proc.devRef .tc main_arg9) :=
  (val10_keep V0 main_arg9 (by decide)).trans (val9_main_arg9 V0)
theorem val10_main_arg10 (V0 : Valuation τ sig (Elt F)) : val10 V0 (no_index (Proc.devRef .tc main_arg10)) = V0 (Proc.devRef .tc main_arg10) :=
  (val10_keep V0 main_arg10 (by decide)).trans (val9_main_arg10 V0)
theorem val10_main_arg11 (V0 : Valuation τ sig (Elt F)) : val10 V0 (no_index (Proc.devRef .tc main_arg11)) = V0 (Proc.devRef .tc main_arg11) :=
  (val10_keep V0 main_arg11 (by decide)).trans (val9_main_arg11 V0)
theorem val10_main_arg12 (V0 : Valuation τ sig (Elt F)) : val10 V0 (no_index (Proc.devRef .tc main_arg12)) = V0 (Proc.devRef .tc main_arg12) :=
  (val10_keep V0 main_arg12 (by decide)).trans (val9_main_arg12 V0)
theorem val10_main_arg13 (V0 : Valuation τ sig (Elt F)) : val10 V0 (no_index (Proc.devRef .tc main_arg13)) = V0 (Proc.devRef .tc main_arg13) :=
  (val10_keep V0 main_arg13 (by decide)).trans (val9_main_arg13 V0)
theorem val10_main_arg14 (V0 : Valuation τ sig (Elt F)) : val10 V0 (no_index (Proc.devRef .tc main_arg14)) = V0 (Proc.devRef .tc main_arg14) :=
  (val10_keep V0 main_arg14 (by decide)).trans (val9_main_arg14 V0)
theorem val10_main_arg15 (V0 : Valuation τ sig (Elt F)) : val10 V0 (no_index (Proc.devRef .tc main_arg15)) = V0 (Proc.devRef .tc main_arg15) :=
  (val10_keep V0 main_arg15 (by decide)).trans (val9_main_arg15 V0)
theorem val10_main_arg16 (V0 : Valuation τ sig (Elt F)) : val10 V0 (no_index (Proc.devRef .tc main_arg16)) = V0 (Proc.devRef .tc main_arg16) :=
  (val10_keep V0 main_arg16 (by decide)).trans (val9_main_arg16 V0)
theorem val10_main_arg17 (V0 : Valuation τ sig (Elt F)) : val10 V0 (no_index (Proc.devRef .tc main_arg17)) = V0 (Proc.devRef .tc main_arg17) :=
  (val10_keep V0 main_arg17 (by decide)).trans (val9_main_arg17 V0)
theorem val10_main_arg18 (V0 : Valuation τ sig (Elt F)) : val10 V0 (no_index (Proc.devRef .tc main_arg18)) = V0 (Proc.devRef .tc main_arg18) :=
  (val10_keep V0 main_arg18 (by decide)).trans (val9_main_arg18 V0)
theorem val10_main_arg19 (V0 : Valuation τ sig (Elt F)) : val10 V0 (no_index (Proc.devRef .tc main_arg19)) = V0 (Proc.devRef .tc main_arg19) :=
  (val10_keep V0 main_arg19 (by decide)).trans (val9_main_arg19 V0)
theorem val10_main_arg20 (V0 : Valuation τ sig (Elt F)) : val10 V0 (no_index (Proc.devRef .tc main_arg20)) = V0 (Proc.devRef .tc main_arg20) :=
  (val10_keep V0 main_arg20 (by decide)).trans (val9_main_arg20 V0)
theorem val10_main_arg21 (V0 : Valuation τ sig (Elt F)) : val10 V0 (no_index (Proc.devRef .tc main_arg21)) = V0 (Proc.devRef .tc main_arg21) :=
  (val10_keep V0 main_arg21 (by decide)).trans (val9_main_arg21 V0)
theorem val10_main_arg22 (V0 : Valuation τ sig (Elt F)) : val10 V0 (no_index (Proc.devRef .tc main_arg22)) = V0 (Proc.devRef .tc main_arg22) :=
  (val10_keep V0 main_arg22 (by decide)).trans (val9_main_arg22 V0)
theorem val10_main_arg23 (V0 : Valuation τ sig (Elt F)) : val10 V0 (no_index (Proc.devRef .tc main_arg23)) = V0 (Proc.devRef .tc main_arg23) :=
  (val10_keep V0 main_arg23 (by decide)).trans (val9_main_arg23 V0)
theorem val10_main_arg24 (V0 : Valuation τ sig (Elt F)) : val10 V0 (no_index (Proc.devRef .tc main_arg24)) = V0 (Proc.devRef .tc main_arg24) :=
  (val10_keep V0 main_arg24 (by decide)).trans (val9_main_arg24 V0)
theorem val10_main_arg25 (V0 : Valuation τ sig (Elt F)) : val10 V0 (no_index (Proc.devRef .tc main_arg25)) = V0 (Proc.devRef .tc main_arg25) :=
  (val10_keep V0 main_arg25 (by decide)).trans (val9_main_arg25 V0)
theorem val10_main_arg26 (V0 : Valuation τ sig (Elt F)) : val10 V0 (no_index (Proc.devRef .tc main_arg26)) = V0 (Proc.devRef .tc main_arg26) :=
  (val10_keep V0 main_arg26 (by decide)).trans (val9_main_arg26 V0)
theorem val10_main_arg27 (V0 : Valuation τ sig (Elt F)) : val10 V0 (no_index (Proc.devRef .tc main_arg27)) = V0 (Proc.devRef .tc main_arg27) :=
  (val10_keep V0 main_arg27 (by decide)).trans (val9_main_arg27 V0)
theorem val10_main_arg28 (V0 : Valuation τ sig (Elt F)) : val10 V0 (no_index (Proc.devRef .tc main_arg28)) = V0 (Proc.devRef .tc main_arg28) :=
  (val10_keep V0 main_arg28 (by decide)).trans (val9_main_arg28 V0)
theorem val10_main_arg29 (V0 : Valuation τ sig (Elt F)) : val10 V0 (no_index (Proc.devRef .tc main_arg29)) = V0 (Proc.devRef .tc main_arg29) :=
  (val10_keep V0 main_arg29 (by decide)).trans (val9_main_arg29 V0)
theorem val10_main_arg30 (V0 : Valuation τ sig (Elt F)) : val10 V0 (no_index (Proc.devRef .tc main_arg30)) = V0 (Proc.devRef .tc main_arg30) :=
  (val10_keep V0 main_arg30 (by decide)).trans (val9_main_arg30 V0)
theorem val10_main_arg31 (V0 : Valuation τ sig (Elt F)) : val10 V0 (no_index (Proc.devRef .tc main_arg31)) = V0 (Proc.devRef .tc main_arg31) :=
  (val10_keep V0 main_arg31 (by decide)).trans (val9_main_arg31 V0)
theorem val10_main_arg32 (V0 : Valuation τ sig (Elt F)) : val10 V0 (no_index (Proc.devRef .tc main_arg32)) = V0 (Proc.devRef .tc main_arg32) :=
  (val10_keep V0 main_arg32 (by decide)).trans (val9_main_arg32 V0)
theorem val10_main_v177 (V0 : Valuation τ sig (Elt F)) : val10 V0 (no_index (Proc.devRef .tc main_v177)) = val_main_v177 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) (V0 (Proc.devRef .tc main_arg24)) (V0 (Proc.devRef .tc main_arg25)) (V0 (Proc.devRef .tc main_arg26)) :=
  (val10_keep V0 main_v177 (by decide)).trans (val9_main_v177 V0)
set_option maxRecDepth 8192 in
set_option maxHeartbeats 2000000 in
theorem val10_main_v223 (V0 : Valuation τ sig (Elt F)) : val10 V0 (no_index (Proc.devRef .tc main_v223)) = val_main_v223 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) (V0 (Proc.devRef .tc main_arg24)) (V0 (Proc.devRef .tc main_arg25)) (V0 (Proc.devRef .tc main_arg26)) := by
  unfold val10
  simp only [opsJ]
  after_results_simp
  try dsimp only [Matrix.cons_val]
  try after_results_simp
  try simp only [StableHlo.TRef.ofBuf, StableHlo.TRef.toBuf, cast_eq]
  try simp only [val9_main_arg21, val9_main_v177, val9_main_v222]
  try rw [val9_main_arg21]
  try rw [val9_main_v177]
  try rw [val9_main_v222]
  rfl
set_option maxRecDepth 8192 in
set_option maxHeartbeats 2000000 in
theorem val10_main_v224 (V0 : Valuation τ sig (Elt F)) : val10 V0 (no_index (Proc.devRef .tc main_v224)) = val_main_v224 (F := F) (V0 (Proc.devRef .tc main_arg21)) := by
  unfold val10
  simp only [opsJ]
  after_results_simp
  try dsimp only [Matrix.cons_val]
  try after_results_simp
  try simp only [StableHlo.TRef.ofBuf, StableHlo.TRef.toBuf, cast_eq]
  try simp only [val9_main_arg21, val9_main_v177, val9_main_v222]
  try rw [val9_main_arg21]
  try rw [val9_main_v177]
  try rw [val9_main_v222]
  rfl

/-! ## After chunk K -/

theorem val11_main_arg0 (V0 : Valuation τ sig (Elt F)) : val11 V0 (no_index (Proc.devRef .tc main_arg0)) = V0 (Proc.devRef .tc main_arg0) :=
  (val11_keep V0 main_arg0 (by decide)).trans (val10_main_arg0 V0)
theorem val11_main_arg1 (V0 : Valuation τ sig (Elt F)) : val11 V0 (no_index (Proc.devRef .tc main_arg1)) = V0 (Proc.devRef .tc main_arg1) :=
  (val11_keep V0 main_arg1 (by decide)).trans (val10_main_arg1 V0)
theorem val11_main_arg2 (V0 : Valuation τ sig (Elt F)) : val11 V0 (no_index (Proc.devRef .tc main_arg2)) = V0 (Proc.devRef .tc main_arg2) :=
  (val11_keep V0 main_arg2 (by decide)).trans (val10_main_arg2 V0)
theorem val11_main_arg3 (V0 : Valuation τ sig (Elt F)) : val11 V0 (no_index (Proc.devRef .tc main_arg3)) = V0 (Proc.devRef .tc main_arg3) :=
  (val11_keep V0 main_arg3 (by decide)).trans (val10_main_arg3 V0)
theorem val11_main_arg4 (V0 : Valuation τ sig (Elt F)) : val11 V0 (no_index (Proc.devRef .tc main_arg4)) = V0 (Proc.devRef .tc main_arg4) :=
  (val11_keep V0 main_arg4 (by decide)).trans (val10_main_arg4 V0)
theorem val11_main_arg5 (V0 : Valuation τ sig (Elt F)) : val11 V0 (no_index (Proc.devRef .tc main_arg5)) = V0 (Proc.devRef .tc main_arg5) :=
  (val11_keep V0 main_arg5 (by decide)).trans (val10_main_arg5 V0)
theorem val11_main_arg6 (V0 : Valuation τ sig (Elt F)) : val11 V0 (no_index (Proc.devRef .tc main_arg6)) = V0 (Proc.devRef .tc main_arg6) :=
  (val11_keep V0 main_arg6 (by decide)).trans (val10_main_arg6 V0)
theorem val11_main_arg7 (V0 : Valuation τ sig (Elt F)) : val11 V0 (no_index (Proc.devRef .tc main_arg7)) = V0 (Proc.devRef .tc main_arg7) :=
  (val11_keep V0 main_arg7 (by decide)).trans (val10_main_arg7 V0)
theorem val11_main_arg8 (V0 : Valuation τ sig (Elt F)) : val11 V0 (no_index (Proc.devRef .tc main_arg8)) = V0 (Proc.devRef .tc main_arg8) :=
  (val11_keep V0 main_arg8 (by decide)).trans (val10_main_arg8 V0)
theorem val11_main_arg9 (V0 : Valuation τ sig (Elt F)) : val11 V0 (no_index (Proc.devRef .tc main_arg9)) = V0 (Proc.devRef .tc main_arg9) :=
  (val11_keep V0 main_arg9 (by decide)).trans (val10_main_arg9 V0)
theorem val11_main_arg10 (V0 : Valuation τ sig (Elt F)) : val11 V0 (no_index (Proc.devRef .tc main_arg10)) = V0 (Proc.devRef .tc main_arg10) :=
  (val11_keep V0 main_arg10 (by decide)).trans (val10_main_arg10 V0)
theorem val11_main_arg11 (V0 : Valuation τ sig (Elt F)) : val11 V0 (no_index (Proc.devRef .tc main_arg11)) = V0 (Proc.devRef .tc main_arg11) :=
  (val11_keep V0 main_arg11 (by decide)).trans (val10_main_arg11 V0)
theorem val11_main_arg12 (V0 : Valuation τ sig (Elt F)) : val11 V0 (no_index (Proc.devRef .tc main_arg12)) = V0 (Proc.devRef .tc main_arg12) :=
  (val11_keep V0 main_arg12 (by decide)).trans (val10_main_arg12 V0)
theorem val11_main_arg13 (V0 : Valuation τ sig (Elt F)) : val11 V0 (no_index (Proc.devRef .tc main_arg13)) = V0 (Proc.devRef .tc main_arg13) :=
  (val11_keep V0 main_arg13 (by decide)).trans (val10_main_arg13 V0)
theorem val11_main_arg14 (V0 : Valuation τ sig (Elt F)) : val11 V0 (no_index (Proc.devRef .tc main_arg14)) = V0 (Proc.devRef .tc main_arg14) :=
  (val11_keep V0 main_arg14 (by decide)).trans (val10_main_arg14 V0)
theorem val11_main_arg15 (V0 : Valuation τ sig (Elt F)) : val11 V0 (no_index (Proc.devRef .tc main_arg15)) = V0 (Proc.devRef .tc main_arg15) :=
  (val11_keep V0 main_arg15 (by decide)).trans (val10_main_arg15 V0)
theorem val11_main_arg16 (V0 : Valuation τ sig (Elt F)) : val11 V0 (no_index (Proc.devRef .tc main_arg16)) = V0 (Proc.devRef .tc main_arg16) :=
  (val11_keep V0 main_arg16 (by decide)).trans (val10_main_arg16 V0)
theorem val11_main_arg17 (V0 : Valuation τ sig (Elt F)) : val11 V0 (no_index (Proc.devRef .tc main_arg17)) = V0 (Proc.devRef .tc main_arg17) :=
  (val11_keep V0 main_arg17 (by decide)).trans (val10_main_arg17 V0)
theorem val11_main_arg18 (V0 : Valuation τ sig (Elt F)) : val11 V0 (no_index (Proc.devRef .tc main_arg18)) = V0 (Proc.devRef .tc main_arg18) :=
  (val11_keep V0 main_arg18 (by decide)).trans (val10_main_arg18 V0)
theorem val11_main_arg19 (V0 : Valuation τ sig (Elt F)) : val11 V0 (no_index (Proc.devRef .tc main_arg19)) = V0 (Proc.devRef .tc main_arg19) :=
  (val11_keep V0 main_arg19 (by decide)).trans (val10_main_arg19 V0)
theorem val11_main_arg20 (V0 : Valuation τ sig (Elt F)) : val11 V0 (no_index (Proc.devRef .tc main_arg20)) = V0 (Proc.devRef .tc main_arg20) :=
  (val11_keep V0 main_arg20 (by decide)).trans (val10_main_arg20 V0)
theorem val11_main_arg21 (V0 : Valuation τ sig (Elt F)) : val11 V0 (no_index (Proc.devRef .tc main_arg21)) = V0 (Proc.devRef .tc main_arg21) :=
  (val11_keep V0 main_arg21 (by decide)).trans (val10_main_arg21 V0)
theorem val11_main_arg22 (V0 : Valuation τ sig (Elt F)) : val11 V0 (no_index (Proc.devRef .tc main_arg22)) = V0 (Proc.devRef .tc main_arg22) :=
  (val11_keep V0 main_arg22 (by decide)).trans (val10_main_arg22 V0)
theorem val11_main_arg23 (V0 : Valuation τ sig (Elt F)) : val11 V0 (no_index (Proc.devRef .tc main_arg23)) = V0 (Proc.devRef .tc main_arg23) :=
  (val11_keep V0 main_arg23 (by decide)).trans (val10_main_arg23 V0)
theorem val11_main_arg24 (V0 : Valuation τ sig (Elt F)) : val11 V0 (no_index (Proc.devRef .tc main_arg24)) = V0 (Proc.devRef .tc main_arg24) :=
  (val11_keep V0 main_arg24 (by decide)).trans (val10_main_arg24 V0)
theorem val11_main_arg25 (V0 : Valuation τ sig (Elt F)) : val11 V0 (no_index (Proc.devRef .tc main_arg25)) = V0 (Proc.devRef .tc main_arg25) :=
  (val11_keep V0 main_arg25 (by decide)).trans (val10_main_arg25 V0)
theorem val11_main_arg26 (V0 : Valuation τ sig (Elt F)) : val11 V0 (no_index (Proc.devRef .tc main_arg26)) = V0 (Proc.devRef .tc main_arg26) :=
  (val11_keep V0 main_arg26 (by decide)).trans (val10_main_arg26 V0)
theorem val11_main_arg27 (V0 : Valuation τ sig (Elt F)) : val11 V0 (no_index (Proc.devRef .tc main_arg27)) = V0 (Proc.devRef .tc main_arg27) :=
  (val11_keep V0 main_arg27 (by decide)).trans (val10_main_arg27 V0)
theorem val11_main_arg28 (V0 : Valuation τ sig (Elt F)) : val11 V0 (no_index (Proc.devRef .tc main_arg28)) = V0 (Proc.devRef .tc main_arg28) :=
  (val11_keep V0 main_arg28 (by decide)).trans (val10_main_arg28 V0)
theorem val11_main_arg29 (V0 : Valuation τ sig (Elt F)) : val11 V0 (no_index (Proc.devRef .tc main_arg29)) = V0 (Proc.devRef .tc main_arg29) :=
  (val11_keep V0 main_arg29 (by decide)).trans (val10_main_arg29 V0)
theorem val11_main_arg30 (V0 : Valuation τ sig (Elt F)) : val11 V0 (no_index (Proc.devRef .tc main_arg30)) = V0 (Proc.devRef .tc main_arg30) :=
  (val11_keep V0 main_arg30 (by decide)).trans (val10_main_arg30 V0)
theorem val11_main_arg31 (V0 : Valuation τ sig (Elt F)) : val11 V0 (no_index (Proc.devRef .tc main_arg31)) = V0 (Proc.devRef .tc main_arg31) :=
  (val11_keep V0 main_arg31 (by decide)).trans (val10_main_arg31 V0)
theorem val11_main_arg32 (V0 : Valuation τ sig (Elt F)) : val11 V0 (no_index (Proc.devRef .tc main_arg32)) = V0 (Proc.devRef .tc main_arg32) :=
  (val11_keep V0 main_arg32 (by decide)).trans (val10_main_arg32 V0)
set_option maxRecDepth 8192 in
set_option maxHeartbeats 2000000 in
theorem val11_main_v264 (V0 : Valuation τ sig (Elt F)) : val11 V0 (no_index (Proc.devRef .tc main_v264)) = val_main_v264 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) (V0 (Proc.devRef .tc main_arg24)) (V0 (Proc.devRef .tc main_arg25)) (V0 (Proc.devRef .tc main_arg26)) (V0 (Proc.devRef .tc main_arg27)) (V0 (Proc.devRef .tc main_arg28)) (V0 (Proc.devRef .tc main_arg29)) (V0 (Proc.devRef .tc main_arg30)) (V0 (Proc.devRef .tc main_arg31)) (V0 (Proc.devRef .tc main_arg32)) := by
  unfold val11
  simp only [opsK]
  after_results_simp
  try dsimp only [Matrix.cons_val]
  try after_results_simp
  try simp only [StableHlo.TRef.ofBuf, StableHlo.TRef.toBuf, cast_eq]
  try simp only [val10_main_arg22, val10_main_arg23, val10_main_arg24, val10_main_arg25, val10_main_arg26, val10_main_arg27, val10_main_arg28, val10_main_arg29, val10_main_arg30, val10_main_arg31, val10_main_arg32, val10_main_v177, val10_main_v223, val10_main_v224]
  try rw [val10_main_arg22]
  try rw [val10_main_arg23]
  try rw [val10_main_arg24]
  try rw [val10_main_arg25]
  try rw [val10_main_arg26]
  try rw [val10_main_arg27]
  try rw [val10_main_arg28]
  try rw [val10_main_arg29]
  try rw [val10_main_arg30]
  try rw [val10_main_arg31]
  try rw [val10_main_arg32]
  try rw [val10_main_v177]
  try rw [val10_main_v223]
  try rw [val10_main_v224]
  rfl

/-! ## The run, read -/

/-- Every weakly fair execution of the reference program terminates with the result buffer at the last stage function of the
    launch arrays and every argument as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v264) = val_main_v264 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) (m ((c.tc : Thread nD τ).loc main_arg32))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32) :=
  (θ_run defs _ _).mono (fun _ h c => ⟨(h c main_v264).trans (val11_main_v264 (launchContents m c)),
      (h c main_arg0).trans (val11_main_arg0 (launchContents m c)),
      (h c main_arg1).trans (val11_main_arg1 (launchContents m c)),
      (h c main_arg2).trans (val11_main_arg2 (launchContents m c)),
      (h c main_arg3).trans (val11_main_arg3 (launchContents m c)),
      (h c main_arg4).trans (val11_main_arg4 (launchContents m c)),
      (h c main_arg5).trans (val11_main_arg5 (launchContents m c)),
      (h c main_arg6).trans (val11_main_arg6 (launchContents m c)),
      (h c main_arg7).trans (val11_main_arg7 (launchContents m c)),
      (h c main_arg8).trans (val11_main_arg8 (launchContents m c)),
      (h c main_arg9).trans (val11_main_arg9 (launchContents m c)),
      (h c main_arg10).trans (val11_main_arg10 (launchContents m c)),
      (h c main_arg11).trans (val11_main_arg11 (launchContents m c)),
      (h c main_arg12).trans (val11_main_arg12 (launchContents m c)),
      (h c main_arg13).trans (val11_main_arg13 (launchContents m c)),
      (h c main_arg14).trans (val11_main_arg14 (launchContents m c)),
      (h c main_arg15).trans (val11_main_arg15 (launchContents m c)),
      (h c main_arg16).trans (val11_main_arg16 (launchContents m c)),
      (h c main_arg17).trans (val11_main_arg17 (launchContents m c)),
      (h c main_arg18).trans (val11_main_arg18 (launchContents m c)),
      (h c main_arg19).trans (val11_main_arg19 (launchContents m c)),
      (h c main_arg20).trans (val11_main_arg20 (launchContents m c)),
      (h c main_arg21).trans (val11_main_arg21 (launchContents m c)),
      (h c main_arg22).trans (val11_main_arg22 (launchContents m c)),
      (h c main_arg23).trans (val11_main_arg23 (launchContents m c)),
      (h c main_arg24).trans (val11_main_arg24 (launchContents m c)),
      (h c main_arg25).trans (val11_main_arg25 (launchContents m c)),
      (h c main_arg26).trans (val11_main_arg26 (launchContents m c)),
      (h c main_arg27).trans (val11_main_arg27 (launchContents m c)),
      (h c main_arg28).trans (val11_main_arg28 (launchContents m c)),
      (h c main_arg29).trans (val11_main_arg29 (launchContents m c)),
      (h c main_arg30).trans (val11_main_arg30 (launchContents m c)),
      (h c main_arg31).trans (val11_main_arg31 (launchContents m c)),
      (h c main_arg32).trans (val11_main_arg32 (launchContents m c))⟩)
    (run_fold m ρ)

end Cert.ReferenceIdeal.RunC

end
-- ==== Proof.PreIdx.lean ====
/-
  The index range, read out of the printed precondition.

  The precondition is a conjunction of word predicates, printed as one chain cut into nine parts; its last
  two conjuncts say that every word of the integer input (the senders in row 0, the receivers in row 1) is
  at least 0 and below 50000: each is an `and`-reduction over both axes of an elementwise signed comparison
  against a broadcast scalar. Only those two are opened here: the chain's last part is a function of the
  integer input and of the conjunction so far, and the earlier conjuncts stay closed inside that one word.
-/
import proofs.«425516_j47425028883052_2_alg».proof.Pre_finite_inputs
import Idealize.ShloMosaic.Lib.ReduceAll
import Idealize.ShloMosaic.Lib.ValueIdx

namespace Cert.PreIdx

open Idealize.ShloMosaic Cert.Pre_finite_inputs

variable [Cert.Pre_finite_inputs.Facts]

/-- The rank-0 shape has one index. -/
instance : Subsingleton S_.Idx := ⟨fun a b => funext fun d => d.elim0⟩

/-- The last part of the chain: if it is 1, every word of the integer input is in [0, 50000). The conjunction is
    `(v ∧ all (x ≥ 0)) ∧ all (x < 50000)`; the two outer conjuncts are split off, each `all` is read at the
    index `i`, and each signed comparison against the broadcast literal is read as an inequality of integers. -/
theorem part9_inrange {F : FTy → Type} [FloatOps F] (a2 : IVec S2x400000 32) (a32 : FVec F S2 .f32) (v : IVec S_ 1)
    (h : fn_part9 (F := F) a2 a32 v = (fun _ => 1#1)) :
    ∀ i : S2x400000.Idx, (0 : Int) ≤ (a2 i).toInt ∧ (a2 i).toInt < 50000 := by
  intro i
  have h0 := congrFun h ValueIdx.ix0
  dsimp only [fn_part9] at h0
  obtain ⟨h1, hlt⟩ := IntOp.andi_eq_one.1 h0
  obtain ⟨_, hge⟩ := IntOp.andi_eq_one.1 h1
  have hge' := Host.reduce_andi_all _ _ _ _ _ hge i
  have hlt' := Host.reduce_andi_all _ _ _ _ _ hlt i
  have e0 : (0#32 : BitVec 32).toInt = 0 := by decide
  have e1 : (50000#32 : BitVec 32).toInt = 50000 := by decide
  constructor
  · have := IntOp.cmpi_sge.1 hge'
    simpa only [broadcastInDim, constantI, e0] using this
  · have := IntOp.cmpi_slt.1 hlt'
    simpa only [broadcastInDim, constantI, e1] using this

/-- The precondition as the assembly meets it: the whole chain is, by unfolding, its last part applied to the
    integer input, the last float input and the conjunction of the earlier conjuncts. -/
theorem inrange (a0 : FVec Ideal S50000x4 .f32) (a1 : FVec Ideal S400000x3 .f32) (a2 : IVec S2x400000 32) (a3 : FVec Ideal S4x128 .f32) (a4 : FVec Ideal S128 .f32) (a5 : FVec Ideal S128x128 .f32) (a6 : FVec Ideal S128 .f32) (a7 : FVec Ideal S128x128 .f32) (a8 : FVec Ideal S128 .f32) (a9 : FVec Ideal S3x128 .f32) (a10 : FVec Ideal S128 .f32) (a11 : FVec Ideal S128x128 .f32) (a12 : FVec Ideal S128 .f32) (a13 : FVec Ideal S128x128 .f32) (a14 : FVec Ideal S128 .f32) (a15 : FVec Ideal S3x384x128 .f32) (a16 : FVec Ideal S3x128 .f32) (a17 : FVec Ideal S3x128x128 .f32) (a18 : FVec Ideal S3x128 .f32) (a19 : FVec Ideal S3x128x128 .f32) (a20 : FVec Ideal S3x128 .f32) (a21 : FVec Ideal S3x256x128 .f32) (a22 : FVec Ideal S3x128 .f32) (a23 : FVec Ideal S3x128x128 .f32) (a24 : FVec Ideal S3x128 .f32) (a25 : FVec Ideal S3x128x128 .f32) (a26 : FVec Ideal S3x128 .f32) (a27 : FVec Ideal S128x128 .f32) (a28 : FVec Ideal S128 .f32) (a29 : FVec Ideal S128x128 .f32) (a30 : FVec Ideal S128 .f32) (a31 : FVec Ideal S128x2 .f32) (a32 : FVec Ideal S2 .f32)
    (h : Cert.Pre_finite_inputs.fn (F := Ideal) a0 a1 a2 a3 a4 a5 a6 a7 a8 a9 a10 a11 a12 a13 a14 a15 a16 a17 a18 a19 a20 a21 a22 a23 a24 a25 a26 a27 a28 a29 a30 a31 a32 = (fun _ => 1#1)) :
    ∀ i : S2x400000.Idx, (0 : Int) ≤ (a2 i).toInt ∧ (a2 i).toInt < 50000 :=
  part9_inrange (F := Ideal) a2 a32 _ h

end Cert.PreIdx
-- ==== Proof.lean ====
/-
  The three-step graph network computed by eight kernel regions among host operations, against the same network in plain
  array operations: over the extended reals, where every entry of the edge list is a node index, the two programs end
  with equal results.

  Both programs are the same composition of row-wise stages. Two encoders send each node row and each edge row through
  three linear layers with a rectified linear unit after the first two. Each of the three steps gathers for every edge
  its sender's and its receiver's node rows, adds to the edge's row a three-layer network of the three rows, sums the
  new edge rows into their receivers, and adds to each node's row a three-layer network of its row and its sum; a last
  three-layer network decodes the node rows. The kernel computes the first layer of an update as a sum of separate
  contractions, one per gathered row, against bands of the weight matrix, where the reference contracts the rows laid
  end to end against the whole matrix: a sum over a row that is several rows laid end to end is the sum of the sums over
  the pieces, in any commutative additive monoid, so no finiteness of the entries is used. The kernel's gather fills a
  row whose index is out of range, where the reference's clamps it; the two agree exactly where every index is in
  range, which the precondition states. The kernel regions tile the rows in blocks of five thousand; a stage acts on
  each row alone, so the tiling does not show in the result.

  The kernel program's run is the generated frame's, its final condition also naming the result buffer (KernelRun);
  the result buffer's contents are read back region by region (KVal, KIn, KChain); the reference's run is read chunk by chunk of its operation list (RunC, RunV), its
  stages row by row (RVal, RChain). Both end at the network's function of the same record of arrays.
-/
import proofs.«425516_j47425028883052_2_alg».proof.Defs
import proofs.«425516_j47425028883052_2_alg».proof.Proof.Gen.Kernel
import proofs.«425516_j47425028883052_2_alg».proof.Proof.Gen.Kernel.Frame
import proofs.«425516_j47425028883052_2_alg».proof.Proof.Gen.KernelIdeal
import proofs.«425516_j47425028883052_2_alg».proof.Proof.Gen.KernelIdeal.Frame
import proofs.«425516_j47425028883052_2_alg».proof.Proof.Gen.ReferenceIdeal
import proofs.«425516_j47425028883052_2_alg».proof.Proof.Gen.Pre_finite_inputs
import proofs.«425516_j47425028883052_2_alg».proof.Proof.KernelRun
import proofs.«425516_j47425028883052_2_alg».proof.Proof.KChain
import proofs.«425516_j47425028883052_2_alg».proof.Proof.RChain
import proofs.«425516_j47425028883052_2_alg».proof.Proof.RunV3
import proofs.«425516_j47425028883052_2_alg».proof.Proof.PreIdx
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RunC.run (F := Ideal) m ρ)

theorem preserves : Cert.preserves_Kernel_KernelIdeal := trivial

/-- Where the two programs' launch arrays agree, their records of arrays and of gathering and summing functions are one
    record: the arrays by the agreement; the index vectors are the same slices of the edge list wrapped the same way, and
    the gathers and the sum are the same operations of them. -/
theorem params_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (hagree : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0))
      ∧ (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1))
      ∧ (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2))
      ∧ (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3))
      ∧ (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4))
      ∧ (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5))
      ∧ (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6))
      ∧ (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7))
      ∧ (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8))
      ∧ (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9))
      ∧ (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10))
      ∧ (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11))
      ∧ (m' ((c.tc : Thread Cert.ReferenceIdeal.nD Cert.ReferenceIdeal.τ).loc Cert.ReferenceIdeal.main_arg12)) = (m ((c.tc : Thread Cert.KernelIdeal.nD Cert.KernelIdeal.τ).loc Cert.KernelIdeal.main_arg12))
      ∧ (m' ((c.tc : Thread Cert.ReferenceIdeal.nD Cert.ReferenceIdeal.τ).loc Cert.ReferenceIdeal.main_arg13)) = (m ((c.tc : Thread Cert.KernelIdeal.nD Cert.KernelIdeal.τ).loc Cert.KernelIdeal.main_arg13))
      ∧ (m' ((c.tc : Thread Cert.ReferenceIdeal.nD Cert.ReferenceIdeal.τ).loc Cert.ReferenceIdeal.main_arg14)) = (m ((c.tc : Thread Cert.KernelIdeal.nD Cert.KernelIdeal.τ).loc Cert.KernelIdeal.main_arg14))
      ∧ (m' ((c.tc : Thread Cert.ReferenceIdeal.nD Cert.ReferenceIdeal.τ).loc Cert.ReferenceIdeal.main_arg15)) = (m ((c.tc : Thread Cert.KernelIdeal.nD Cert.KernelIdeal.τ).loc Cert.KernelIdeal.main_arg15))
      ∧ (m' ((c.tc : Thread Cert.ReferenceIdeal.nD Cert.ReferenceIdeal.τ).loc Cert.ReferenceIdeal.main_arg16)) = (m ((c.tc : Thread Cert.KernelIdeal.nD Cert.KernelIdeal.τ).loc Cert.KernelIdeal.main_arg16))
      ∧ (m' ((c.tc : Thread Cert.ReferenceIdeal.nD Cert.ReferenceIdeal.τ).loc Cert.ReferenceIdeal.main_arg17)) = (m ((c.tc : Thread Cert.KernelIdeal.nD Cert.KernelIdeal.τ).loc Cert.KernelIdeal.main_arg17))
      ∧ (m' ((c.tc : Thread Cert.ReferenceIdeal.nD Cert.ReferenceIdeal.τ).loc Cert.ReferenceIdeal.main_arg18)) = (m ((c.tc : Thread Cert.KernelIdeal.nD Cert.KernelIdeal.τ).loc Cert.KernelIdeal.main_arg18))
      ∧ (m' ((c.tc : Thread Cert.ReferenceIdeal.nD Cert.ReferenceIdeal.τ).loc Cert.ReferenceIdeal.main_arg19)) = (m ((c.tc : Thread Cert.KernelIdeal.nD Cert.KernelIdeal.τ).loc Cert.KernelIdeal.main_arg19))
      ∧ (m' ((c.tc : Thread Cert.ReferenceIdeal.nD Cert.ReferenceIdeal.τ).loc Cert.ReferenceIdeal.main_arg20)) = (m ((c.tc : Thread Cert.KernelIdeal.nD Cert.KernelIdeal.τ).loc Cert.KernelIdeal.main_arg20))
      ∧ (m' ((c.tc : Thread Cert.ReferenceIdeal.nD Cert.ReferenceIdeal.τ).loc Cert.ReferenceIdeal.main_arg21)) = (m ((c.tc : Thread Cert.KernelIdeal.nD Cert.KernelIdeal.τ).loc Cert.KernelIdeal.main_arg21))
      ∧ (m' ((c.tc : Thread Cert.ReferenceIdeal.nD Cert.ReferenceIdeal.τ).loc Cert.ReferenceIdeal.main_arg22)) = (m ((c.tc : Thread Cert.KernelIdeal.nD Cert.KernelIdeal.τ).loc Cert.KernelIdeal.main_arg22))
      ∧ (m' ((c.tc : Thread Cert.ReferenceIdeal.nD Cert.ReferenceIdeal.τ).loc Cert.ReferenceIdeal.main_arg23)) = (m ((c.tc : Thread Cert.KernelIdeal.nD Cert.KernelIdeal.τ).loc Cert.KernelIdeal.main_arg23))
      ∧ (m' ((c.tc : Thread Cert.ReferenceIdeal.nD Cert.ReferenceIdeal.τ).loc Cert.ReferenceIdeal.main_arg24)) = (m ((c.tc : Thread Cert.KernelIdeal.nD Cert.KernelIdeal.τ).loc Cert.KernelIdeal.main_arg24))
      ∧ (m' ((c.tc : Thread Cert.ReferenceIdeal.nD Cert.ReferenceIdeal.τ).loc Cert.ReferenceIdeal.main_arg25)) = (m ((c.tc : Thread Cert.KernelIdeal.nD Cert.KernelIdeal.τ).loc Cert.KernelIdeal.main_arg25))
      ∧ (m' ((c.tc : Thread Cert.ReferenceIdeal.nD Cert.ReferenceIdeal.τ).loc Cert.ReferenceIdeal.main_arg26)) = (m ((c.tc : Thread Cert.KernelIdeal.nD Cert.KernelIdeal.τ).loc Cert.KernelIdeal.main_arg26))
      ∧ (m' ((c.tc : Thread Cert.ReferenceIdeal.nD Cert.ReferenceIdeal.τ).loc Cert.ReferenceIdeal.main_arg27)) = (m ((c.tc : Thread Cert.KernelIdeal.nD Cert.KernelIdeal.τ).loc Cert.KernelIdeal.main_arg27))
      ∧ (m' ((c.tc : Thread Cert.ReferenceIdeal.nD Cert.ReferenceIdeal.τ).loc Cert.ReferenceIdeal.main_arg28)) = (m ((c.tc : Thread Cert.KernelIdeal.nD Cert.KernelIdeal.τ).loc Cert.KernelIdeal.main_arg28))
      ∧ (m' ((c.tc : Thread Cert.ReferenceIdeal.nD Cert.ReferenceIdeal.τ).loc Cert.ReferenceIdeal.main_arg29)) = (m ((c.tc : Thread Cert.KernelIdeal.nD Cert.KernelIdeal.τ).loc Cert.KernelIdeal.main_arg29))
      ∧ (m' ((c.tc : Thread Cert.ReferenceIdeal.nD Cert.ReferenceIdeal.τ).loc Cert.ReferenceIdeal.main_arg30)) = (m ((c.tc : Thread Cert.KernelIdeal.nD Cert.KernelIdeal.τ).loc Cert.KernelIdeal.main_arg30))
      ∧ (m' ((c.tc : Thread Cert.ReferenceIdeal.nD Cert.ReferenceIdeal.τ).loc Cert.ReferenceIdeal.main_arg31)) = (m ((c.tc : Thread Cert.KernelIdeal.nD Cert.KernelIdeal.τ).loc Cert.KernelIdeal.main_arg31))
      ∧ (m' ((c.tc : Thread Cert.ReferenceIdeal.nD Cert.ReferenceIdeal.τ).loc Cert.ReferenceIdeal.main_arg32)) = (m ((c.tc : Thread Cert.KernelIdeal.nD Cert.KernelIdeal.τ).loc Cert.KernelIdeal.main_arg32))) :
    Cert.ReferenceIdeal.Val.params (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25)) (m' ((c.tc : Thread Cert.ReferenceIdeal.nD Cert.ReferenceIdeal.τ).loc Cert.ReferenceIdeal.main_arg26)) (m' ((c.tc : Thread Cert.ReferenceIdeal.nD Cert.ReferenceIdeal.τ).loc Cert.ReferenceIdeal.main_arg27)) (m' ((c.tc : Thread Cert.ReferenceIdeal.nD Cert.ReferenceIdeal.τ).loc Cert.ReferenceIdeal.main_arg28)) (m' ((c.tc : Thread Cert.ReferenceIdeal.nD Cert.ReferenceIdeal.τ).loc Cert.ReferenceIdeal.main_arg29)) (m' ((c.tc : Thread Cert.ReferenceIdeal.nD Cert.ReferenceIdeal.τ).loc Cert.ReferenceIdeal.main_arg30)) (m' ((c.tc : Thread Cert.ReferenceIdeal.nD Cert.ReferenceIdeal.τ).loc Cert.ReferenceIdeal.main_arg31)) (m' ((c.tc : Thread Cert.ReferenceIdeal.nD Cert.ReferenceIdeal.τ).loc Cert.ReferenceIdeal.main_arg32))
      = Cert.KernelIdeal.Chain.params m ρ c := by
  obtain ⟨g0, g1, g2, g3, g4, g5, g6, g7, g8, g9, g10, g11, g12, g13, g14, g15, g16, g17, g18, g19, g20, g21, g22, g23, g24, g25, g26, g27, g28, g29, g30, g31, g32⟩ := hagree
  rw [g0, g1, g2, g3, g4, g5, g6, g7, g8, g9, g10, g11, g12, g13, g14, g15, g16, g17, g18, g19, g20, g21, g22, g23, g24, g25, g26, g27, g28, g29, g30, g31, g32]
  unfold Cert.ReferenceIdeal.Val.params Cert.KernelIdeal.Chain.params
  congr 1

/-- Under the precondition, from launch arrays that agree, both programs end with the network's result over that one
    record. -/
theorem algebraic : Cert.algebraic_KernelIdeal_ReferenceIdeal := by
  intro m ρ m' ρ' hpre hagree
  have hidx : ∀ c : Dev Cert.KernelIdeal.nD, ∀ i, (0 : Int) ≤ (m ((c.tc : Thread Cert.KernelIdeal.nD Cert.KernelIdeal.τ).loc Cert.KernelIdeal.main_arg2) i).toInt
      ∧ (m ((c.tc : Thread Cert.KernelIdeal.nD Cert.KernelIdeal.τ).loc Cert.KernelIdeal.main_arg2) i).toInt < 50000 :=
    fun c => Cert.PreIdx.inrange _ _ _ _ _ _ _ _ _ _ _ _ _ _ _ _ _ _ _ _ _ _ _ _ _ _ _ _ _ _ _ _ _ (hpre c)
  refine ⟨fun c => Cert.Net.nOut (Cert.KernelIdeal.Chain.params m ρ c), ?_, ?_⟩
  · exact (θ_run Cert.KernelIdeal.defs _ _).mono (fun r h c =>
      ⟨(h c).1.trans (Cert.KernelIdeal.Chain.result_eq m ρ c (Cert.KernelIdeal.In0.src_inrange m ρ c (hidx c))
        (Cert.KernelIdeal.In0.dst_inrange m ρ c (hidx c))), (h c).2⟩) (Cert.KernelIdeal.Gen.run_named (F := Ideal) m ρ)
  · refine (θ_run Cert.ReferenceIdeal.defs _ _).mono (fun r h c => ⟨(h c).1.trans ?_, (h c).2⟩)
      (Cert.ReferenceIdeal.RunC.run (F := Ideal) m' ρ')
    rw [Cert.ReferenceIdeal.Val.result_eq_net, params_eq m ρ m' c (hagree c)]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
